-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v119)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S128x4 .f32) (main_arg14 : FVec F S4 .f32) (main_arg15 : FVec F S128x128 .f32) (main_arg16 : FVec F S128 .f32) (main_arg17 : FVec F S128x64 .f32) (main_arg18 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x4 .f32 := Host.absf main_arg13
  let main_cst_20 : FVec F S_ .f32 := constant S_ .f32 0x7F800000#32
  let main_v55 : FVec F S128x4 .f32 := broadcastInDim S128x4 ![] bcast_S_S128x4 main_cst_20
  let main_v56 : IVec S128x4 1 := cmpf .olt main_v54 main_v55
  let main_c_21 : IVec S_ 1 := constantI S_ 1 1#1
  let main_v57 : IVec S_ 1 := (fun x v => Host.reduce IntOp.andi x v reducesTo_S128x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x4 .f32) (main_arg14 : FVec F S4 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S3x128 .f32) (main_arg7 : FVec F S3x128x128 .f32) (main_arg8 : FVec F S3x128 .f32) (main_arg9 : FVec F S128x128 .f32) (main_arg10 : FVec F S128 .f32) (main_arg11 : FVec F S128x128 .f32) (main_arg12 : FVec F S128 .f32) (main_arg13 : FVec F S128x4 .f32) (main_arg14 : FVec F S4 .f32) (main_arg15 : FVec F S128x128 .f32) (main_arg16 : FVec F S128 .f32) (main_arg17 : FVec F S128x64 .f32) (main_arg18 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : IVec S50000 32) (main_arg3 : FVec F S3x128x128 .f32) (main_arg4 : FVec F S3x128 .f32) (main_arg5 : FVec F S3x128 .f32) (main_arg6 : FVec F S3x128 .f32) (main_arg7 : FVec F S3x128x128 .f32) (main_arg8 : FVec F S3x128 .f32) (main_arg9 : FVec F S128x128 .f32) (main_arg10 : FVec F S128 .f32) (main_arg11 : FVec F S128x128 .f32) (main_arg12 : FVec F S128 .f32) (main_arg13 : FVec F S128x4 .f32) (main_arg14 : FVec F S4 .f32) (main_arg15 : FVec F S128x128 .f32) (main_arg16 : FVec F S128 .f32) (main_arg17 : FVec F S128x64 .f32) (main_arg18 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S5000x128 : Shape := ⟨2, ![5000, 128]⟩
abbrev S1x4 : Shape := ⟨2, ![1, 4]⟩
abbrev S50000x4 : Shape := ⟨2, ![50000, 4]⟩
abbrev S5000x4 : Shape := ⟨2, ![5000, 4]⟩
abbrev S50000x1 : Shape := ⟨2, ![50000, 1]⟩
abbrev S1x64 : Shape := ⟨2, ![1, 64]⟩
abbrev S50000x64 : Shape := ⟨2, ![50000, 64]⟩
abbrev S64x64 : Shape := ⟨2, ![64, 64]⟩
abbrev S5000x64 : Shape := ⟨2, ![5000, 64]⟩
abbrev S64x128 : Shape := ⟨2, ![64, 128]⟩
abbrev S64x5000 : Shape := ⟨2, ![64, 5000]⟩

abbrev nBuf : Space → Nat
  | .hbm => 160
  | .vmem => 86
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S128x128, .f32⟩
  | 10 => ⟨S128, .f32⟩
  | 11 => ⟨S128x128, .f32⟩
  | 12 => ⟨S128, .f32⟩
  | 13 => ⟨S128x4, .f32⟩
  | 14 => ⟨S4, .f32⟩
  | 15 => ⟨S128x128, .f32⟩
  | 16 => ⟨S128, .f32⟩
  | 17 => ⟨S128x64, .f32⟩
  | 18 => ⟨S64, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S50000x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128, .f32⟩
  | 62 => ⟨S1x128, .f32⟩
  | 63 => ⟨S50000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S50000x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S1x128, .f32⟩
  | 103 => ⟨S1x128, .f32⟩
  | 104 => ⟨S50000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S50000x128, .f32⟩
  | 124 => ⟨S1x128, .f32⟩
  | 125 => ⟨S1x128, .f32⟩
  | 126 => ⟨S_, .f32⟩
  | 127 => ⟨S1x128, .f32⟩
  | _ => ⟨S50000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S128, .f32⟩
  | 8 => ⟨S1x128, .f32⟩
  | 9 => ⟨S128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S1x128, .f32⟩
  | 16 => ⟨S1x128, .f32⟩
  | 17 => ⟨S50000x128, .f32⟩
  | 18 => ⟨S1x128, .f32⟩
  | 19 => ⟨S1x128, .f32⟩
  | 20 => ⟨S1x4, .f32⟩
  | 21 => ⟨S50000x4, .f32⟩
  | 22 => ⟨S50000x1, .i32⟩
  | 23 => ⟨S64, .i32⟩
  | 24 => ⟨S1x64, .i32⟩
  | 25 => ⟨S50000x64, .i32⟩
  | 26 => ⟨S50000x64, .i32⟩
  | 27 => ⟨S50000x64, .i1⟩
  | 28 => ⟨S50000x64, .f32⟩
  | 29 => ⟨S1x128, .f32⟩
  | 30 => ⟨S1x64, .f32⟩
  | 31 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S128x128, .f32⟩
  | .local _ .vmem, ⟨71, _⟩ => ⟨S1x128, .f32⟩
  | .local _ .vmem, ⟨72, _⟩ => ⟨S128x4, .f32⟩
  | .local _ .vmem, ⟨73, _⟩ => ⟨S1x4, .f32⟩
  | .local _ .vmem, ⟨74, _⟩ => ⟨S5000x4, .f32⟩
  | .local _ .vmem, ⟨75, _⟩ => ⟨S5000x4, .f32⟩
  | .local _ .vmem, ⟨76, _⟩ => ⟨S5000x128, .f32⟩
  | .local _ .vmem, ⟨77, _⟩ => ⟨S5000x128, .f32⟩
  | .local _ .vmem, ⟨78, _⟩ => ⟨S5000x64, .f32⟩
  | .local _ .vmem, ⟨79, _⟩ => ⟨S5000x64, .f32⟩
  | .local _ .vmem, ⟨80, _⟩ => ⟨S128x128, .f32⟩
  | .local _ .vmem, ⟨81, _⟩ => ⟨S1x128, .f32⟩
  | .local _ .vmem, ⟨82, _⟩ => ⟨S128x64, .f32⟩
  | .local _ .vmem, ⟨83, _⟩ => ⟨S1x64, .f32⟩
  | .local _ .vmem, ⟨84, _⟩ => ⟨S64x64, .f32⟩
  | .local _ .vmem, ⟨85, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v19_2 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_3 : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_8 : Ref sig .tc := ⟨.hbm, 105, rfl⟩
abbrev main_v72 : Ref sig .tc := ⟨.hbm, 106, rfl⟩
abbrev main_v73 : Ref sig .tc := ⟨.hbm, 107, rfl⟩
abbrev main_c_9 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_10 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87_0 : Ref sig .tc := ⟨.hbm, 123, rfl⟩
abbrev main_v87_1 : Ref sig .tc := ⟨.hbm, 124, rfl⟩
abbrev main_v87_2 : Ref sig .tc := ⟨.hbm, 125, rfl⟩
abbrev main_cst_11 : Ref sig .tc := ⟨.hbm, 126, rfl⟩
abbrev main_v88 : Ref sig .tc := ⟨.hbm, 127, rfl⟩
abbrev main_v89 : Ref sig .tc := ⟨.hbm, 128, rfl⟩
abbrev main_cst_12 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg6_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg7_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg6_0 : Ref sig .tc := ⟨.vmem, 84, rfl⟩
abbrev cc7_scratch0 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem7_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x4 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x4 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x4 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_8 : BitVec 32 := 0#32
  let v18 : BitVec 1 := Scalar.cmpi .ne v17 c0_i32_8
  v18

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S4_S1x4 : S4.ShapeCasts S1x4
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  transposes_S5000x64_p1_0_S64x5000 : S5000x64.Transposes [1, 0] S64x5000
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  dot_S64x5000_S5000x128_S64x128_1_0_0_1_n_n_wf : DotDims.WF S64x5000 S5000x128 S64x128 [1] [0] [0] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x4.size a ≤ S128x4.size a
  hwx6_5 : ∀ i : grid6.Coords, EltTy.bits .f32 = 32 ∨ (Rect.block (s := S128x4) S128x4.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x4.size a ≤ S1x4.size a
  hwx6_6 : ∀ i : grid6.Coords, EltTy.bits .f32 = 32 ∨ (Rect.block (s := S1x4) S1x4.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x4.size a ≤ S50000x4.size a
  hwx6_7 : ∀ i : grid6.Coords, EltTy.bits .f32 = 32 ∨ (Rect.block (s := S50000x4) S5000x4.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x64.size a ≤ S128x64.size a
  hwx7_4 : ∀ i : grid7.Coords, EltTy.bits .f32 = 32 ∨ (Rect.block (s := S128x64) S128x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x64.size a ≤ S64x64.size a
  hwx7_6 : ∀ i : grid7.Coords, EltTy.bits .f32 = 32 ∨ (Rect.block (s := S64x64) S64x64.size (cc7_transform_6 i) (hinb7_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v53_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v53_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v87_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v87_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v105) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v105) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S128x4.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v108) S1x4.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v109) S5000x4.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg15) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v117) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg17) S128x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v118) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v119) S64x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun _ => false | 6 => fun i => !(k7_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S50000x4 : Shape := ⟨2, ![50000, 4]⟩
abbrev S1x4 : Shape := ⟨2, ![1, 4]⟩
abbrev S64x128 : Shape := ⟨2, ![64, 128]⟩
abbrev S50000x1 : Shape := ⟨2, ![50000, 1]⟩
abbrev S64x64 : Shape := ⟨2, ![64, 64]⟩
abbrev S1x64 : Shape := ⟨2, ![1, 64]⟩

abbrev nBuf : Space → Nat
  | .hbm => 311
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S128x128, .f32⟩
  | 10 => ⟨S128, .f32⟩
  | 11 => ⟨S128x128, .f32⟩
  | 12 => ⟨S128, .f32⟩
  | 13 => ⟨S128x4, .f32⟩
  | 14 => ⟨S4, .f32⟩
  | 15 => ⟨S128x128, .f32⟩
  | 16 => ⟨S128, .f32⟩
  | 17 => ⟨S128x64, .f32⟩
  | 18 => ⟨S64, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x4, .f32⟩
  | 34 => ⟨S1x4, .f32⟩
  | 35 => ⟨S50000x4, .f32⟩
  | 36 => ⟨S50000x4, .f32⟩
  | 37 => ⟨S_, .f32⟩
  | 38 => ⟨S50000x4, .f32⟩
  | 39 => ⟨S50000x4, .f32⟩
  | 40 => ⟨S_, .f32⟩
  | 41 => ⟨S64x128, .f32⟩
  | 42 => ⟨S50000x1, .i32⟩
  | 43 => ⟨S64x128, .f32⟩
  | 44 => ⟨S64x128, .f32⟩
  | 45 => ⟨S1x128, .f32⟩
  | 46 => ⟨S64x128, .f32⟩
  | 47 => ⟨S64x128, .f32⟩
  | 48 => ⟨S_, .f32⟩
  | 49 => ⟨S64x128, .f32⟩
  | 50 => ⟨S64x128, .f32⟩
  | 51 => ⟨S64x64, .f32⟩
  | 52 => ⟨S1x64, .f32⟩
  | 53 => ⟨S64x64, .f32⟩
  | 54 => ⟨S64x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call1_cst : Ref sig .tc := ⟨.hbm, 93, rfl⟩
abbrev main_call1_v0 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_call2_cst : Ref sig .tc := ⟨.hbm, 104, rfl⟩
abbrev main_call2_v0 : Ref sig .tc := ⟨.hbm, 105, rfl⟩
abbrev main_v55 : Ref sig .tc := ⟨.hbm, 106, rfl⟩
abbrev main_c_5 : Ref sig .tc := ⟨.hbm, 107, rfl⟩
abbrev main_v56 : Ref sig .tc := ⟨.hbm, 108, rfl⟩
abbrev main_v57 : Ref sig .tc := ⟨.hbm, 109, rfl⟩
abbrev main_c_6 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_7 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_8 : Ref sig .tc := ⟨.hbm, 129, rfl⟩
abbrev main_v75 : Ref sig .tc := ⟨.hbm, 130, rfl⟩
abbrev main_cst_9 : Ref sig .tc := ⟨.hbm, 131, rfl⟩
abbrev main_v76 : Ref sig .tc := ⟨.hbm, 132, rfl⟩
abbrev main_v77 : Ref sig .tc := ⟨.hbm, 133, rfl⟩
abbrev main_c_10 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_cst_3 : Ref sig .tc := ⟨.hbm, 151, rfl⟩
abbrev main_call3_v12 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_11 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_call4_cst : Ref sig .tc := ⟨.hbm, 177, rfl⟩
abbrev main_call4_v0 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_call5_cst : Ref sig .tc := ⟨.hbm, 188, rfl⟩
abbrev main_call5_v0 : Ref sig .tc := ⟨.hbm, 189, rfl⟩
abbrev main_v107 : Ref sig .tc := ⟨.hbm, 190, rfl⟩
abbrev main_c_12 : Ref sig .tc := ⟨.hbm, 191, rfl⟩
abbrev main_v108 : Ref sig .tc := ⟨.hbm, 192, rfl⟩
abbrev main_v109 : Ref sig .tc := ⟨.hbm, 193, rfl⟩
abbrev main_c_13 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_cst_14 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_cst_15 : Ref sig .tc := ⟨.hbm, 213, rfl⟩
abbrev main_v127 : Ref sig .tc := ⟨.hbm, 214, rfl⟩
abbrev main_cst_16 : Ref sig .tc := ⟨.hbm, 215, rfl⟩
abbrev main_v128 : Ref sig .tc := ⟨.hbm, 216, rfl⟩
abbrev main_v129 : Ref sig .tc := ⟨.hbm, 217, rfl⟩
abbrev main_c_17 : Ref sig .tc := ⟨.hbm, 218, rfl⟩
abbrev main_call6_cst : Ref sig .tc := ⟨.hbm, 219, rfl⟩
abbrev main_call6_v0 : Ref sig .tc := ⟨.hbm, 220, rfl⟩
abbrev main_call6_v1 : Ref sig .tc := ⟨.hbm, 221, rfl⟩
abbrev main_call6_cst_0 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_cst_1 : Ref sig .tc := ⟨.hbm, 229, rfl⟩
abbrev main_call6_v8 : Ref sig .tc := ⟨.hbm, 230, rfl⟩
abbrev main_call6_cst_2 : Ref sig .tc := ⟨.hbm, 231, rfl⟩
abbrev main_call6_v9 : Ref sig .tc := ⟨.hbm, 232, rfl⟩
abbrev main_call6_v10 : Ref sig .tc := ⟨.hbm, 233, rfl⟩
abbrev main_call6_v11 : Ref sig .tc := ⟨.hbm, 234, rfl⟩
abbrev main_call6_cst_3 : Ref sig .tc := ⟨.hbm, 235, rfl⟩
abbrev main_call6_v12 : Ref sig .tc := ⟨.hbm, 236, rfl⟩
abbrev main_call6_cst_4 : Ref sig .tc := ⟨.hbm, 237, rfl⟩
abbrev main_call6_call0_v0 : Ref sig .tc := ⟨.hbm, 238, rfl⟩
abbrev main_call6_call0_v1 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_cst_18 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_call7_cst : Ref sig .tc := ⟨.hbm, 261, rfl⟩
abbrev main_call7_v0 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_call8_cst : Ref sig .tc := ⟨.hbm, 272, rfl⟩
abbrev main_call8_v0 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_call9_cst : Ref sig .tc := ⟨.hbm, 279, rfl⟩
abbrev main_call9_v0 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_call10_cst : Ref sig .tc := ⟨.hbm, 286, rfl⟩
abbrev main_call10_v0 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_call11_cst : Ref sig .tc := ⟨.hbm, 293, rfl⟩
abbrev main_call11_v0 : Ref sig .tc := ⟨.hbm, 294, rfl⟩
abbrev main_v174 : Ref sig .tc := ⟨.hbm, 295, rfl⟩
abbrev main_cst_19 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_call12_cst : Ref sig .tc := ⟨.hbm, 304, rfl⟩
abbrev main_call12_v0 : Ref sig .tc := ⟨.hbm, 305, rfl⟩
abbrev main_v182 : Ref sig .tc := ⟨.hbm, 306, rfl⟩
abbrev main_v183 : Ref sig .tc := ⟨.hbm, 307, rfl⟩
abbrev main_v184 : Ref sig .tc := ⟨.hbm, 308, rfl⟩
abbrev main_v185 : Ref sig .tc := ⟨.hbm, 309, rfl⟩
abbrev main_v186 : Ref sig .tc := ⟨.hbm, 310, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S50000x4 : S_.BroadcastsInDim S50000x4 (![] : Fin 0 → Fin S50000x4.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.K.Reg0.lean ====
/-
  Region 0 of the program (the first layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index
    has not moved (the weights and the bias are fetched once, their index constant). -/
theorem before0_0_of (V : (c : Dev nD) → (b : Ref sig .tc) → Buf (Elt F) ((c : Thread nD τ).loc b)) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (V : (c : Dev nD) → (b : Ref sig .tc) → Buf (Elt F) ((c : Thread nD τ).loc b)) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (V : (c : Dev nD) → (b : Ref sig .tc) → Buf (Elt F) ((c : Thread nD τ).loc b)) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (V : (c : Dev nD) → (b : Ref sig .tc) → Buf (Elt F) ((c : Thread nD τ).loc b)) {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the zeroing branch, from the grid coordinate (the body's scalar chain substituted): the
    coordinate is 0. -/
abbrev cond0_0 (i : grid0.Coords) : Prop := (Scalar.cmpi .ne (Scalar.extui (Scalar.cmpi .eq (BitVec.ofNat 32 (i 0).val) 0#32)) 0#32) = 1#1
/-- It holds at the first point only — decided over the ten points. -/
theorem hcond0_0 : ∀ t : Fin cfg0.N, cond0_0 (grid0.coords t) ↔ t.val = 0 :=
  (by decide +kernel : ∀ t : Fin grid0.N, cond0_0 (grid0.coords t) ↔ t.val = 0)

/-- The condition of the closing branch (the statistics outputs stored from the accumulators): the coordinate is 9. -/
abbrev cond0_1 (i : grid0.Coords) : Prop := k0_cond2 i = 1#1
/-- It holds at the last point only — decided over the ten points. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

/-- The inputs and the row-tile output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last point the two statistics outputs are idle — the body stores nothing into them — and are not written
    back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The staging and scratch memrefs -/

/-- One staging buffer of each output window, through which its contents are stated (the choice does not matter:
    a covering list of writes reads the same through any view). -/
abbrev VO0_4 : View sig .tc .vmem S5000x128 .f32 := (Memref.whole cc0_stg4_0 : Memref sig .tc .vmem S5000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
/-- Each window's current staging memref at point `t`, spelled as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The two accumulators (column sums, column sums of squares): whole scoped buffers of the kernel's own, passed
    beside the windows, and the views through which their contents are stated. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two accumulators as memrefs owned at some contents, the other scoped buffers of the
    core (the other regions' staging and scratch) unopened, and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3).2.1)
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 xs0 xs1).2.1)
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt0 (V : (c : Dev nD) → (b : Ref sig .tc) → Buf (Elt F) ((c : Thread nD τ).loc b)) (c : Dev nD) : (n : ℕ) → n < cfg0.N → Vec F S5000x128 .f32 × Vec F S1x128 .f32 × Vec F S1x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩))
  | n + 1, hn =>
    if h1 : n + 1 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)

/-- `outsAt0` at the first point: that case's contents. -/
theorem outsAt0_A (V : (c : Dev nD) → (b : Ref sig .tc) → Buf (Elt F) ((c : Thread nD τ).loc b)) (c : Dev nD) (t : Fin cfg0.N) (h0 : t.val = 0) (h1 : ¬t.val = 9) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `outsAt0` at a middle point: that case's contents, over what the point before left in the accumulators. -/
theorem outsAt0_B (V : (c : Dev nD) → (b : Ref sig .tc) → Buf (Elt F) ((c : Thread nD τ).loc b)) (c : Dev nD) (t : Fin cfg0.N) (h0 : ¬t.val = 0) (h1 : ¬t.val = 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: that case's contents, over what the point before left in the accumulators. -/
theorem outsAt0_C (V : (c : Dev nD) → (b : Ref sig .tc) → Buf (Elt F) ((c : Thread nD τ).loc b)) (c : Dev nD) (t : Fin cfg0.N) (h0 : ¬t.val = 0) (h1 : t.val = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt0`'s last two components), the
    other scoped buffers unopened, and the generator register at some state. -/
def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (V : (c : Dev nD) → (b : Ref sig .tc) → Buf (Elt F) ((c : Thread nD τ).loc b)) (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (V : (c : Dev nD) → (b : Ref sig .tc) → Buf (Elt F) ((c : Thread nD τ).loc b)) (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2)
          ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (V : (c : Dev nD) → (b : Ref sig .tc) → Buf (Elt F) ((c : Thread nD τ).loc b)) (c : Dev nD) (n : ℕ) (h : n ≤ cfg0.N) (hz : ¬n = 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the outputs' at `outsAt0`'s components; the invariant `PhiS0`; nothing owed;
    full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

/-- The proof data's arrays are the region-entry contents (the definition projected, never unfolded through `V`). -/
theorem A_eq0 (V : (c : Dev nD) → (b : Ref sig .tc) → Buf (Elt F) ((c : Thread nD τ).loc b)) (c : Dev nD) (w : Fin cfg0.W) : (dat0 V c).A w = V c (Pipeline.arrRef spec0 w) := by
  dsimp only [dat0]
theorem q_eq0 (V : (c : Dev nD) → (b : Ref sig .tc) → Buf (Elt F) ((c : Thread nD τ).loc b)) (c : Dev nD) (w : Fin cfg0.W) : (dat0 V c).q w = fullShare := by
  dsimp only [dat0]
theorem owed_eq0 (V : (c : Dev nD) → (b : Ref sig .tc) → Buf (Elt F) ((c : Thread nD τ).loc b)) (c : Dev nD) (t : Fin (cfg0.N + 1)) : (dat0 V c).owed t = 0 := by
  dsimp only [dat0]

/-- The invariant at a point's start, restated at `t.val`. -/
theorem PhiS0_castSucc (V : (c : Dev nD) → (b : Ref sig .tc) → Buf (Elt F) ((c : Thread nD τ).loc b)) (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced). -/
theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = iblk0 V c 3 t := by dsimp only [dat0]
theorem after0_4 (V : (c : Dev nD) → (b : Ref sig .tc) → Buf (Elt F) ((c : Thread nD τ).loc b)) (c : Dev nD) (t : Fin cfg0.N) : (dat0 V c).after 4 t = (outsAt0 V c t.val t.isLt).1 := by dsimp only [dat0]
theorem after0_5 (V : (c : Dev nD) → (b : Ref sig .tc) → Buf (Elt F) ((c : Thread nD τ).loc b)) (c : Dev nD) (t : Fin cfg0.N) : (dat0 V c).after 5 t = (outsAt0 V c t.val t.isLt).2.1 := by dsimp only [dat0]
theorem after0_6 (V : (c : Dev nD) → (b : Ref sig .tc) → Buf (Elt F) ((c : Thread nD τ).loc b)) (c : Dev nD) (t : Fin cfg0.N) : (dat0 V c).after 6 t = (outsAt0 V c t.val t.isLt).2.2.1 := by dsimp only [dat0]

/-- Each input's current staging buffer holds its block at every point, fetched there or not. -/
theorem before0_0 (V : (c : Dev nD) → (b : Ref sig .tc) → Buf (Elt F) ((c : Thread nD τ).loc b)) (c : Dev nD) (t : Fin cfg0.N) (d) : (dat0 V c).before 0 t d = iblk0 V c 0 t :=
  before0_0_of V (dat0 V c) (A_eq0 V c 0) (after0_0 V c) t d
theorem before0_1 (V : (c : Dev nD) → (b : Ref sig .tc) → Buf (Elt F) ((c : Thread nD τ).loc b)) (c : Dev nD) (t : Fin cfg0.N) (d) : (dat0 V c).before 1 t d = iblk0 V c 1 t :=
  before0_1_of V (dat0 V c) (A_eq0 V c 1) (after0_1 V c) t d
theorem before0_2 (V : (c : Dev nD) → (b : Ref sig .tc) → Buf (Elt F) ((c : Thread nD τ).loc b)) (c : Dev nD) (t : Fin cfg0.N) (d) : (dat0 V c).before 2 t d = iblk0 V c 2 t :=
  before0_2_of V (dat0 V c) (A_eq0 V c 2) (after0_2 V c) t d
theorem before0_3 (V : (c : Dev nD) → (b : Ref sig .tc) → Buf (Elt F) ((c : Thread nD τ).loc b)) (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the obligation's precondition, the windows one by one), -/
def bodyPre0 (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body0 (V : (c : Dev nD) → (b : Ref sig .tc) → Buf (Elt F) ((c : Thread nD τ).loc b)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 sout0_A_0 sout0_A_1; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]; · iexists _; iexact H5
    iexists _; iexact H6
  · by_cases h1 : t.val = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_4 out0_C_5 out0_C_6 sout0_C_0 sout0_C_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_4 sout0_B_0 sout0_B_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-- What the launch hands the region (the class invariant) is the invariant before the first point. -/
theorem hin0 (V : (c : Dev nD) → (b : Ref sig .tc) → Buf (Elt F) ((c : Thread nD τ).loc b)) (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulators' named contents are
    forgotten. -/
theorem Phi_out0 (V : (c : Dev nD) → (b : Ref sig .tc) → Buf (Elt F) ((c : Thread nD τ).loc b)) (c : Dev nD) (t : Fin (cfg0.N + 1)) (ht : ¬t.val = 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (V : (c : Dev nD) → (b : Ref sig .tc) → Buf (Elt F) ((c : Thread nD τ).loc b)) (c : Dev nD) : (dat0 V c).Φ (Fin.last cfg0.N) ⊢ (Pipeline.ΦA spec0 c : sProp 𝕄) :=
  Phi_out0 V c _ (by rw [Fin.val_last]; have : cfg0.N = 10 := N_0; omega)

end Cert.Kernel.Reg

end
-- ==== Proof.K.Reg1.lean ====
/-
  Region 1 of the program (the first layer's normalisation, rectifier and second linear map), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or not (a
    window not fetched at a point has not moved its block index), for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or not (a
    window not fetched at a point has not moved its block index), for any proof data whose array is V's and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or not (a
    window not fetched at a point has not moved its block index), for any proof data whose array is V's and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or not (a
    window not fetched at a point has not moved its block index), for any proof data whose array is V's and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or not (a
    window not fetched at a point has not moved its block index), for any proof data whose array is V's and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether it was fetched there or not (a
    window not fetched at a point has not moved its block index), for any proof data whose array is V's and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether it was fetched there or not (a
    window not fetched at a point has not moved its block index), for any proof data whose array is V's and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000 x 128 block, -/
abbrev r1_0 : Rect S5000x128 := Rect.unit (s := S5000x128) ![0, 0] S5000x128.size inb_S5000x128_S5000x128_0_0
/-- a whole 1 x 128 row, -/
abbrev r1_1 : Rect S1x128 := Rect.unit (s := S1x128) ![0, 0] S1x128.size inb_S1x128_S1x128_0_0
/-- and the whole 128 x 128 weight matrix. -/
abbrev r1_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out1_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r1_0, k1_pay1 (View.ld x0 r1_0) (View.ld x3 r1_1) (View.ld x1 r1_1) (View.ld x2 r1_1) (View.ld x4 r1_1) (View.ld x5 r1_2) (View.ld x6 r1_1)⟩]

/-- The one store is the whole buffer, so it covers it. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents x0 … x6 and the output's at anything, runs to
    the continuation holding the inputs' as they were and the output's at out1_7 of the inputs': the printed function
    is its skeleton of loads and one store over the payload. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_apply_kernel i arg1 harg1 arg2 harg2 arg3 harg3 arg4 harg4 arg5 harg5 arg6 harg6 arg7 harg7 arg8 harg8) K := by
  simp only [cc1__gin_apply_kernel_eq_skeleton]; unfold cc1__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c, its arrays the region-entry contents V: after the body at point t each
    input's buffer holds its block and the output's holds out1_7 of the input blocks; the invariant between points is the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]
/-- Full shares of every window's array. -/
theorem q_eq1 (c : Dev nD) (w : Fin cfg1.W) : (dat1 V c).q w = fullShare := by
  dsimp only [dat1]
/-- Nothing is owed at any point. -/
theorem owed_eq1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) :
    BodyObligation (dat1 (F := F) V c) (defs₀ (F := F)) Variants.none () Set.univ := fun t => by
  rw [bigSep_W1, bigSep_W1]
  exact sound_body1 V c t

/-- The class invariant is the invariant before the first point, -/
theorem hin1 (c : Dev nD) : (Pipeline.ΦA spec1 c : sProp 𝕄) ⊢ (dat1 V c).Φ 0 := Entails.refl _
/-- and the invariant after the last point gives it back. -/
theorem hout1 (c : Dev nD) : (dat1 V c).Φ (Fin.last cfg1.N) ⊢ (Pipeline.ΦA spec1 c : sProp 𝕄) := Entails.refl _

end Region

end Cert.Kernel.Reg

end
-- ==== Proof.K.Reg2.lean ====
/-
  Region 2 of the program (the second layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): unfetched, the block index
    has not moved (the weights and the bias are fetched once, their index constant). -/
theorem before2_0_of (V : (c : Dev nD) → (b : Ref sig .tc) → Buf (Elt F) ((c : Thread nD τ).loc b)) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (V : (c : Dev nD) → (b : Ref sig .tc) → Buf (Elt F) ((c : Thread nD τ).loc b)) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (V : (c : Dev nD) → (b : Ref sig .tc) → Buf (Elt F) ((c : Thread nD τ).loc b)) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of (V : (c : Dev nD) → (b : Ref sig .tc) → Buf (Elt F) ((c : Thread nD τ).loc b)) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the zeroing branch, from the grid coordinate (the body's scalar chain substituted): the
    coordinate is 0. -/
abbrev cond2_0 (i : grid2.Coords) : Prop := (Scalar.cmpi .ne (Scalar.extui (Scalar.cmpi .eq (BitVec.ofNat 32 (i 0).val) 0#32)) 0#32) = 1#1
/-- It holds at the first point only — decided over the ten points. -/
theorem hcond2_0 : ∀ t : Fin cfg2.N, cond2_0 (grid2.coords t) ↔ t.val = 0 :=
  (by decide +kernel : ∀ t : Fin grid2.N, cond2_0 (grid2.coords t) ↔ t.val = 0)

/-- The condition of the closing branch (the statistics outputs stored from the accumulators): the coordinate is 9. -/
abbrev cond2_1 (i : grid2.Coords) : Prop := k2_cond2 i = 1#1
/-- It holds at the last point only — decided over the ten points. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

/-- The inputs and the row-tile output are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last point the two statistics outputs are idle — the body stores nothing into them — and are not written
    back; at the last point they are live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging and scratch memrefs -/

/-- One staging buffer of each output window, through which its contents are stated (the choice does not matter:
    a covering list of writes reads the same through any view). -/
abbrev VO2_4 : View sig .tc .vmem S5000x128 .f32 := (Memref.whole cc2_stg4_0 : Memref sig .tc .vmem S5000x128 .f32).view
abbrev VO2_5 : View sig .tc .vmem S1x128 .f32 := (Memref.whole cc2_stg5_0 : Memref sig .tc .vmem S1x128 .f32).view
abbrev VO2_6 : View sig .tc .vmem S1x128 .f32 := (Memref.whole cc2_stg6_0 : Memref sig .tc .vmem S1x128 .f32).view
/-- Each window's current staging memref at point `t`, spelled as the pipeline passes it to the body, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
/-- The two accumulators (column sums, column sums of squares): whole scoped buffers of the kernel's own, passed
    beside the windows, and the views through which their contents are stated. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two accumulators as memrefs owned at some contents, the other scoped buffers of the
    core (the other regions' staging and scratch) unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover2_A_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out2_A_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S5000x128 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 hc0 hc1 x0 x1 x2 x3).2.1)
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover2_B_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out2_B_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 hc0 hc1 x0 x1 x2 x3 xs0 xs1).2.1)
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt2 (V : (c : Dev nD) → (b : Ref sig .tc) → Buf (Elt F) ((c : Thread nD τ).loc b)) (c : Dev nD) : (n : ℕ) → n < cfg2.N → Vec F S5000x128 .f32 × Vec F S1x128 .f32 × Vec F S1x128 .f32 × Vec F S1x128 .f32 × Vec F S1x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2)

/-- `outsAt2` at the first point: that case's contents. -/
theorem outsAt2_A (V : (c : Dev nD) → (b : Ref sig .tc) → Buf (Elt F) ((c : Thread nD τ).loc b)) (c : Dev nD) (t : Fin cfg2.N) (h0 : t.val = 0) (h1 : ¬t.val = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- `outsAt2` at a middle point: that case's contents, over what the point before left in the accumulators. -/
theorem outsAt2_B (V : (c : Dev nD) → (b : Ref sig .tc) → Buf (Elt F) ((c : Thread nD τ).loc b)) (c : Dev nD) (t : Fin cfg2.N) (h0 : ¬t.val = 0) (h1 : ¬t.val = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: that case's contents, over what the point before left in the accumulators. -/
theorem outsAt2_C (V : (c : Dev nD) → (b : Ref sig .tc) → Buf (Elt F) ((c : Thread nD τ).loc b)) (c : Dev nD) (t : Fin cfg2.N) (h0 : ¬t.val = 0) (h1 : t.val = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt2`'s last two components), the
    other scoped buffers unopened, and the generator register at some state. -/
def PhiS2 (V : (c : Dev nD) → (b : Ref sig .tc) → Buf (Elt F) ((c : Thread nD τ).loc b)) (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (V : (c : Dev nD) → (b : Ref sig .tc) → Buf (Elt F) ((c : Thread nD τ).loc b)) (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (V : (c : Dev nD) → (b : Ref sig .tc) → Buf (Elt F) ((c : Thread nD τ).loc b)) (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2)
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (V : (c : Dev nD) → (b : Ref sig .tc) → Buf (Elt F) ((c : Thread nD τ).loc b)) (c : Dev nD) (n : ℕ) (h : n ≤ cfg2.N) (hz : ¬n = 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed;
    full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

/-- The proof data's arrays are the region-entry contents (the definition projected, never unfolded through `V`). -/
theorem A_eq2 (V : (c : Dev nD) → (b : Ref sig .tc) → Buf (Elt F) ((c : Thread nD τ).loc b)) (c : Dev nD) (w : Fin cfg2.W) : (dat2 V c).A w = V c (Pipeline.arrRef spec2 w) := by
  dsimp only [dat2]
theorem q_eq2 (V : (c : Dev nD) → (b : Ref sig .tc) → Buf (Elt F) ((c : Thread nD τ).loc b)) (c : Dev nD) (w : Fin cfg2.W) : (dat2 V c).q w = fullShare := by
  dsimp only [dat2]
theorem owed_eq2 (V : (c : Dev nD) → (b : Ref sig .tc) → Buf (Elt F) ((c : Thread nD τ).loc b)) (c : Dev nD) (t : Fin (cfg2.N + 1)) : (dat2 V c).owed t = 0 := by
  dsimp only [dat2]

/-- The invariant at a point's start, restated at `t.val`. -/
theorem PhiS2_castSucc (V : (c : Dev nD) → (b : Ref sig .tc) → Buf (Elt F) ((c : Thread nD τ).loc b)) (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (V : (c : Dev nD) → (b : Ref sig .tc) → Buf (Elt F) ((c : Thread nD τ).loc b)) (c : Dev nD) (t : Fin cfg2.N) : (dat2 V c).after 0 t = iblk2 V c 0 t := by dsimp only [dat2]
theorem after2_1 (V : (c : Dev nD) → (b : Ref sig .tc) → Buf (Elt F) ((c : Thread nD τ).loc b)) (c : Dev nD) (t : Fin cfg2.N) : (dat2 V c).after 1 t = iblk2 V c 1 t := by dsimp only [dat2]
theorem after2_2 (V : (c : Dev nD) → (b : Ref sig .tc) → Buf (Elt F) ((c : Thread nD τ).loc b)) (c : Dev nD) (t : Fin cfg2.N) : (dat2 V c).after 2 t = iblk2 V c 2 t := by dsimp only [dat2]
theorem after2_3 (V : (c : Dev nD) → (b : Ref sig .tc) → Buf (Elt F) ((c : Thread nD τ).loc b)) (c : Dev nD) (t : Fin cfg2.N) : (dat2 V c).after 3 t = iblk2 V c 3 t := by dsimp only [dat2]
theorem after2_4 (V : (c : Dev nD) → (b : Ref sig .tc) → Buf (Elt F) ((c : Thread nD τ).loc b)) (c : Dev nD) (t : Fin cfg2.N) : (dat2 V c).after 4 t = (outsAt2 V c t.val t.isLt).1 := by dsimp only [dat2]
theorem after2_5 (V : (c : Dev nD) → (b : Ref sig .tc) → Buf (Elt F) ((c : Thread nD τ).loc b)) (c : Dev nD) (t : Fin cfg2.N) : (dat2 V c).after 5 t = (outsAt2 V c t.val t.isLt).2.1 := by dsimp only [dat2]
theorem after2_6 (V : (c : Dev nD) → (b : Ref sig .tc) → Buf (Elt F) ((c : Thread nD τ).loc b)) (c : Dev nD) (t : Fin cfg2.N) : (dat2 V c).after 6 t = (outsAt2 V c t.val t.isLt).2.2.1 := by dsimp only [dat2]

/-- Each input's current staging buffer holds its block at every point, fetched there or not. -/
theorem before2_0 (V : (c : Dev nD) → (b : Ref sig .tc) → Buf (Elt F) ((c : Thread nD τ).loc b)) (c : Dev nD) (t : Fin cfg2.N) (d) : (dat2 V c).before 0 t d = iblk2 V c 0 t :=
  before2_0_of V (dat2 V c) (A_eq2 V c 0) (after2_0 V c) t d
theorem before2_1 (V : (c : Dev nD) → (b : Ref sig .tc) → Buf (Elt F) ((c : Thread nD τ).loc b)) (c : Dev nD) (t : Fin cfg2.N) (d) : (dat2 V c).before 1 t d = iblk2 V c 1 t :=
  before2_1_of V (dat2 V c) (A_eq2 V c 1) (after2_1 V c) t d
theorem before2_2 (V : (c : Dev nD) → (b : Ref sig .tc) → Buf (Elt F) ((c : Thread nD τ).loc b)) (c : Dev nD) (t : Fin cfg2.N) (d) : (dat2 V c).before 2 t d = iblk2 V c 2 t :=
  before2_2_of V (dat2 V c) (A_eq2 V c 2) (after2_2 V c) t d
theorem before2_3 (V : (c : Dev nD) → (b : Ref sig .tc) → Buf (Elt F) ((c : Thread nD τ).loc b)) (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the obligation's precondition, the windows one by one), -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [Dat.leavesExact_idle (dat2 V c) 6 t (idleAt2_6 t (fun h => h1 ((hcond2_1 t).mp h))) (noFlush2_6 t (fun h => h1 ((hcond2_1 t).mp h)))]
    rw [outsAt2_A V c t h0 h1]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _ _ _)
    isplitl [H5]; · iexists _; iexact H5
    iexists _; iexact H6
  · by_cases h1 : t.val = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_4 out2_C_5 out2_C_6 sout2_C_0 sout2_C_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold out2_B_4 sout2_B_0 sout2_B_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _ _ _)
      isplitl [H5]; · iexists _; iexact H5
      iexists _; iexact H6

/-- The library's body obligation, at every point. -/
theorem body_obligation2 (V : (c : Dev nD) → (b : Ref sig .tc) → Buf (Elt F) ((c : Thread nD τ).loc b)) (c : Dev nD) :
    BodyObligation (dat2 (F := F) V c) (defs₀ (F := F)) Variants.none () Set.univ := fun t => by
  rw [bigSep_W2, bigSep_W2]
  exact sound_body2 V c t

/-- What the launch hands the region (the class invariant) is the invariant before the first point. -/
theorem hin2 (V : (c : Dev nD) → (b : Ref sig .tc) → Buf (Elt F) ((c : Thread nD τ).loc b)) (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulators' named contents are
    forgotten. -/
theorem Phi_out2 (V : (c : Dev nD) → (b : Ref sig .tc) → Buf (Elt F) ((c : Thread nD τ).loc b)) (c : Dev nD) (t : Fin (cfg2.N + 1)) (ht : ¬t.val = 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (V : (c : Dev nD) → (b : Ref sig .tc) → Buf (Elt F) ((c : Thread nD τ).loc b)) (c : Dev nD) : (dat2 V c).Φ (Fin.last cfg2.N) ⊢ (Pipeline.ΦA spec2 c : sProp 𝕄) :=
  Phi_out2 V c _ (by rw [Fin.val_last]; have : cfg2.N = 10 := N_2; omega)

end Cert.Kernel.Reg

end
-- ==== Proof.K.Reg3.lean ====
/-
  Region 3 of the program (the second layer's normalisation and second linear map), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not (a
    window not fetched at a point has not moved its block index), for any proof data whose array is V's and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or not (a
    window not fetched at a point has not moved its block index), for any proof data whose array is V's and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or not (a
    window not fetched at a point has not moved its block index), for any proof data whose array is V's and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether it was fetched there or not (a
    window not fetched at a point has not moved its block index), for any proof data whose array is V's and whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether it was fetched there or not (a
    window not fetched at a point has not moved its block index), for any proof data whose array is V's and whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether it was fetched there or not (a
    window not fetched at a point has not moved its block index), for any proof data whose array is V's and whose
    body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether it was fetched there or not (a
    window not fetched at a point has not moved its block index), for any proof data whose array is V's and whose
    body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000 x 128 block, -/
abbrev r3_0 : Rect S5000x128 := Rect.unit (s := S5000x128) ![0, 0] S5000x128.size inb_S5000x128_S5000x128_0_0
/-- a whole 1 x 128 row, -/
abbrev r3_1 : Rect S1x128 := Rect.unit (s := S1x128) ![0, 0] S1x128.size inb_S1x128_S1x128_0_0
/-- and the whole 128 x 128 weight matrix. -/
abbrev r3_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out3_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r3_0, k3_pay1 (View.ld x0 r3_0) (View.ld x3 r3_1) (View.ld x1 r3_1) (View.ld x2 r3_1) (View.ld x4 r3_1) (View.ld x5 r3_2) (View.ld x6 r3_1)⟩]

/-- The one store is the whole buffer, so it covers it. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents x0 … x6 and the output's at anything, runs to
    the continuation holding the inputs' as they were and the output's at out3_7 of the inputs': the printed function
    is its skeleton of loads and one store over the payload. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_apply_kernel i arg1 harg1 arg2 harg2 arg3 harg3 arg4 harg4 arg5 harg5 arg6 harg6 arg7 harg7 arg8 harg8) K := by
  simp only [cc3__gin_apply_kernel_eq_skeleton]; unfold cc3__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core c, its arrays the region-entry contents V: after the body at point t each
    input's buffer holds its block and the output's holds out3_7 of the input blocks; the invariant between points is the
    class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]
/-- Full shares of every window's array. -/
theorem q_eq3 (c : Dev nD) (w : Fin cfg3.W) : (dat3 V c).q w = fullShare := by
  dsimp only [dat3]
/-- Nothing is owed at any point. -/
theorem owed_eq3 (c : Dev nD) (t : Fin (cfg3.N + 1)) : (dat3 V c).owed t = 0 := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) :
    BodyObligation (dat3 (F := F) V c) (defs₀ (F := F)) Variants.none () Set.univ := fun t => by
  rw [bigSep_W3, bigSep_W3]
  exact sound_body3 V c t

/-- The class invariant is the invariant before the first point, -/
theorem hin3 (c : Dev nD) : (Pipeline.ΦA spec3 c : sProp 𝕄) ⊢ (dat3 V c).Φ 0 := Entails.refl _
/-- and the invariant after the last point gives it back. -/
theorem hout3 (c : Dev nD) : (dat3 V c).Φ (Fin.last cfg3.N) ⊢ (Pipeline.ΦA spec3 c : sProp 𝕄) := Entails.refl _

end Region

end Cert.Kernel.Reg

end
-- ==== Proof.K.Reg4.lean ====
/-
  Region 4 of the program (the third layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof
    data whose array is `V`'s (`hA`) and whose body leaves the block in place (`hafter`): unfetched, the block index
    has not moved (the weights and the bias are fetched once, their index constant). -/
theorem before4_0_of (V : (c : Dev nD) → (b : Ref sig .tc) → Buf (Elt F) ((c : Thread nD τ).loc b)) {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (V : (c : Dev nD) → (b : Ref sig .tc) → Buf (Elt F) ((c : Thread nD τ).loc b)) {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (V : (c : Dev nD) → (b : Ref sig .tc) → Buf (Elt F) ((c : Thread nD τ).loc b)) {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of (V : (c : Dev nD) → (b : Ref sig .tc) → Buf (Elt F) ((c : Thread nD τ).loc b)) {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the zeroing branch, from the grid coordinate (the body's scalar chain substituted): the
    coordinate is 0. -/
abbrev cond4_0 (i : grid4.Coords) : Prop := (Scalar.cmpi .ne (Scalar.extui (Scalar.cmpi .eq (BitVec.ofNat 32 (i 0).val) 0#32)) 0#32) = 1#1
/-- It holds at the first point only — decided over the ten points. -/
theorem hcond4_0 : ∀ t : Fin cfg4.N, cond4_0 (grid4.coords t) ↔ t.val = 0 :=
  (by decide +kernel : ∀ t : Fin grid4.N, cond4_0 (grid4.coords t) ↔ t.val = 0)

/-- The condition of the closing branch (the statistics outputs stored from the accumulators): the coordinate is 9. -/
abbrev cond4_1 (i : grid4.Coords) : Prop := k4_cond2 i = 1#1
/-- It holds at the last point only — decided over the ten points. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The inputs and the row-tile output are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Off the last point the two statistics outputs are idle — the body stores nothing into them — and are not written
    back; at the last point they are live. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The staging and scratch memrefs -/

/-- One staging buffer of each output window, through which its contents are stated (the choice does not matter:
    a covering list of writes reads the same through any view). -/
abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- Each window's current staging memref at point `t`, spelled as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The two accumulators (column sums, column sums of squares): whole scoped buffers of the kernel's own, passed
    beside the windows, and the views through which their contents are stated. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two accumulators as memrefs owned at some contents, the other scoped buffers of the
    core (the other regions' staging and scratch) unopened, and the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S5000x128 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x0 x1 x2 x3).2.1)
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x0 x1 x2 x3 xs0 xs1).2.1)
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover4_C_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out4_C_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt4 (V : (c : Dev nD) → (b : Ref sig .tc) → Buf (Elt F) ((c : Thread nD τ).loc b)) (c : Dev nD) : (n : ℕ) → n < cfg4.N → Vec F S5000x128 .f32 × Vec F S1x128 .f32 × Vec F S1x128 .f32 × Vec F S1x128 .f32 × Vec F S1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)

/-- `outsAt4` at the first point: that case's contents. -/
theorem outsAt4_A (V : (c : Dev nD) → (b : Ref sig .tc) → Buf (Elt F) ((c : Thread nD τ).loc b)) (c : Dev nD) (t : Fin cfg4.N) (h0 : t.val = 0) (h1 : ¬t.val = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outsAt4` at a middle point: that case's contents, over what the point before left in the accumulators. -/
theorem outsAt4_B (V : (c : Dev nD) → (b : Ref sig .tc) → Buf (Elt F) ((c : Thread nD τ).loc b)) (c : Dev nD) (t : Fin cfg4.N) (h0 : ¬t.val = 0) (h1 : ¬t.val = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: that case's contents, over what the point before left in the accumulators. -/
theorem outsAt4_C (V : (c : Dev nD) → (b : Ref sig .tc) → Buf (Elt F) ((c : Thread nD τ).loc b)) (c : Dev nD) (t : Fin cfg4.N) (h0 : ¬t.val = 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt4`'s last two components), the
    other scoped buffers unopened, and the generator register at some state. -/
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (V : (c : Dev nD) → (b : Ref sig .tc) → Buf (Elt F) ((c : Thread nD τ).loc b)) (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (V : (c : Dev nD) → (b : Ref sig .tc) → Buf (Elt F) ((c : Thread nD τ).loc b)) (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2)
          ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (V : (c : Dev nD) → (b : Ref sig .tc) → Buf (Elt F) ((c : Thread nD τ).loc b)) (c : Dev nD) (n : ℕ) (h : n ≤ cfg4.N) (hz : ¬n = 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the outputs' at `outsAt4`'s components; the invariant `PhiS4`; nothing owed;
    full shares. -/
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

/-- The proof data's arrays are the region-entry contents (the definition projected, never unfolded through `V`). -/
theorem A_eq4 (V : (c : Dev nD) → (b : Ref sig .tc) → Buf (Elt F) ((c : Thread nD τ).loc b)) (c : Dev nD) (w : Fin cfg4.W) : (dat4 V c).A w = V c (Pipeline.arrRef spec4 w) := by
  dsimp only [dat4]
theorem q_eq4 (V : (c : Dev nD) → (b : Ref sig .tc) → Buf (Elt F) ((c : Thread nD τ).loc b)) (c : Dev nD) (w : Fin cfg4.W) : (dat4 V c).q w = fullShare := by
  dsimp only [dat4]
theorem owed_eq4 (V : (c : Dev nD) → (b : Ref sig .tc) → Buf (Elt F) ((c : Thread nD τ).loc b)) (c : Dev nD) (t : Fin (cfg4.N + 1)) : (dat4 V c).owed t = 0 := by
  dsimp only [dat4]

/-- The invariant at a point's start, restated at `t.val`. -/
theorem PhiS4_castSucc (V : (c : Dev nD) → (b : Ref sig .tc) → Buf (Elt F) ((c : Thread nD τ).loc b)) (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (V : (c : Dev nD) → (b : Ref sig .tc) → Buf (Elt F) ((c : Thread nD τ).loc b)) (c : Dev nD) (t : Fin cfg4.N) : (dat4 V c).after 0 t = iblk4 V c 0 t := by dsimp only [dat4]
theorem after4_1 (V : (c : Dev nD) → (b : Ref sig .tc) → Buf (Elt F) ((c : Thread nD τ).loc b)) (c : Dev nD) (t : Fin cfg4.N) : (dat4 V c).after 1 t = iblk4 V c 1 t := by dsimp only [dat4]
theorem after4_2 (V : (c : Dev nD) → (b : Ref sig .tc) → Buf (Elt F) ((c : Thread nD τ).loc b)) (c : Dev nD) (t : Fin cfg4.N) : (dat4 V c).after 2 t = iblk4 V c 2 t := by dsimp only [dat4]
theorem after4_3 (V : (c : Dev nD) → (b : Ref sig .tc) → Buf (Elt F) ((c : Thread nD τ).loc b)) (c : Dev nD) (t : Fin cfg4.N) : (dat4 V c).after 3 t = iblk4 V c 3 t := by dsimp only [dat4]
theorem after4_4 (V : (c : Dev nD) → (b : Ref sig .tc) → Buf (Elt F) ((c : Thread nD τ).loc b)) (c : Dev nD) (t : Fin cfg4.N) : (dat4 V c).after 4 t = (outsAt4 V c t.val t.isLt).1 := by dsimp only [dat4]
theorem after4_5 (V : (c : Dev nD) → (b : Ref sig .tc) → Buf (Elt F) ((c : Thread nD τ).loc b)) (c : Dev nD) (t : Fin cfg4.N) : (dat4 V c).after 5 t = (outsAt4 V c t.val t.isLt).2.1 := by dsimp only [dat4]
theorem after4_6 (V : (c : Dev nD) → (b : Ref sig .tc) → Buf (Elt F) ((c : Thread nD τ).loc b)) (c : Dev nD) (t : Fin cfg4.N) : (dat4 V c).after 6 t = (outsAt4 V c t.val t.isLt).2.2.1 := by dsimp only [dat4]

/-- Each input's current staging buffer holds its block at every point, fetched there or not. -/
theorem before4_0 (V : (c : Dev nD) → (b : Ref sig .tc) → Buf (Elt F) ((c : Thread nD τ).loc b)) (c : Dev nD) (t : Fin cfg4.N) (d) : (dat4 V c).before 0 t d = iblk4 V c 0 t :=
  before4_0_of V (dat4 V c) (A_eq4 V c 0) (after4_0 V c) t d
theorem before4_1 (V : (c : Dev nD) → (b : Ref sig .tc) → Buf (Elt F) ((c : Thread nD τ).loc b)) (c : Dev nD) (t : Fin cfg4.N) (d) : (dat4 V c).before 1 t d = iblk4 V c 1 t :=
  before4_1_of V (dat4 V c) (A_eq4 V c 1) (after4_1 V c) t d
theorem before4_2 (V : (c : Dev nD) → (b : Ref sig .tc) → Buf (Elt F) ((c : Thread nD τ).loc b)) (c : Dev nD) (t : Fin cfg4.N) (d) : (dat4 V c).before 2 t d = iblk4 V c 2 t :=
  before4_2_of V (dat4 V c) (A_eq4 V c 2) (after4_2 V c) t d
theorem before4_3 (V : (c : Dev nD) → (b : Ref sig .tc) → Buf (Elt F) ((c : Thread nD τ).loc b)) (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (the obligation's precondition, the windows one by one), -/
def bodyPre4 (V : (c : Dev nD) → (b : Ref sig .tc) → Buf (Elt F) ((c : Thread nD τ).loc b)) (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (V : (c : Dev nD) → (b : Ref sig .tc) → Buf (Elt F) ((c : Thread nD τ).loc b)) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body4 (V : (c : Dev nD) → (b : Ref sig .tc) → Buf (Elt F) ((c : Thread nD τ).loc b)) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val = 9
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (V : (c : Dev nD) → (b : Ref sig .tc) → Buf (Elt F) ((c : Thread nD τ).loc b)) (c : Dev nD) :
    BodyObligation (dat4 (F := F) V c) (defs₀ (F := F)) Variants.none () Set.univ := fun t => by
  rw [bigSep_W4, bigSep_W4]
  exact sound_body4 V c t

/-- What the launch hands the region (the class invariant) is the invariant before the first point. -/
theorem hin4 (V : (c : Dev nD) → (b : Ref sig .tc) → Buf (Elt F) ((c : Thread nD τ).loc b)) (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the accumulators' named contents are
    forgotten. -/
theorem Phi_out4 (V : (c : Dev nD) → (b : Ref sig .tc) → Buf (Elt F) ((c : Thread nD τ).loc b)) (c : Dev nD) (t : Fin (cfg4.N + 1)) (ht : ¬t.val = 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout4 (V : (c : Dev nD) → (b : Ref sig .tc) → Buf (Elt F) ((c : Thread nD τ).loc b)) (c : Dev nD) : (dat4 V c).Φ (Fin.last cfg4.N) ⊢ (Pipeline.ΦA spec4 c : sProp 𝕄) :=
  Phi_out4 V c _ (by rw [Fin.val_last]; have : cfg4.N = 10 := N_4; omega)

end Cert.Kernel.Reg

end
-- ==== Proof.K.Reg5.lean ====
/-
  Region 5 of the program (the third layer's normalisation and second linear map), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or not (a
    window not fetched at a point has not moved its block index), for any proof data whose array is V's and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or not (a
    window not fetched at a point has not moved its block index), for any proof data whose array is V's and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether it was fetched there or not (a
    window not fetched at a point has not moved its block index), for any proof data whose array is V's and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether it was fetched there or not (a
    window not fetched at a point has not moved its block index), for any proof data whose array is V's and whose
    body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether it was fetched there or not (a
    window not fetched at a point has not moved its block index), for any proof data whose array is V's and whose
    body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether it was fetched there or not (a
    window not fetched at a point has not moved its block index), for any proof data whose array is V's and whose
    body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether it was fetched there or not (a
    window not fetched at a point has not moved its block index), for any proof data whose array is V's and whose
    body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000 x 128 block, -/
abbrev r5_0 : Rect S5000x128 := Rect.unit (s := S5000x128) ![0, 0] S5000x128.size inb_S5000x128_S5000x128_0_0
/-- a whole 1 x 128 row, -/
abbrev r5_1 : Rect S1x128 := Rect.unit (s := S1x128) ![0, 0] S1x128.size inb_S1x128_S1x128_0_0
/-- and the whole 128 x 128 weight matrix. -/
abbrev r5_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out5_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r5_0, k5_pay1 (View.ld x0 r5_0) (View.ld x3 r5_1) (View.ld x1 r5_1) (View.ld x2 r5_1) (View.ld x4 r5_1) (View.ld x5 r5_2) (View.ld x6 r5_1)⟩]

/-- The one store is the whole buffer, so it covers it. -/
theorem cover5_7 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents x0 … x6 and the output's at anything, runs to
    the continuation holding the inputs' as they were and the output's at out5_7 of the inputs': the printed function
    is its skeleton of loads and one store over the payload. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__gin_apply_kernel i arg1 harg1 arg2 harg2 arg3 harg3 arg4 harg4 arg5 harg5 arg6 harg6 arg7 harg7 arg8 harg8) K := by
  simp only [cc5__gin_apply_kernel_eq_skeleton]; unfold cc5__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core c, its arrays the region-entry contents V: after the body at point t each
    input's buffer holds its block and the output's holds out5_7 of the input blocks; the invariant between points is the
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]
/-- Full shares of every window's array. -/
theorem q_eq5 (c : Dev nD) (w : Fin cfg5.W) : (dat5 V c).q w = fullShare := by
  dsimp only [dat5]
/-- Nothing is owed at any point. -/
theorem owed_eq5 (c : Dev nD) (t : Fin (cfg5.N + 1)) : (dat5 V c).owed t = 0 := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) :
    BodyObligation (dat5 (F := F) V c) (defs₀ (F := F)) Variants.none () Set.univ := fun t => by
  rw [bigSep_W5, bigSep_W5]
  exact sound_body5 V c t

/-- The class invariant is the invariant before the first point, -/
theorem hin5 (c : Dev nD) : (Pipeline.ΦA spec5 c : sProp 𝕄) ⊢ (dat5 V c).Φ 0 := Entails.refl _
/-- and the invariant after the last point gives it back. -/
theorem hout5 (c : Dev nD) : (dat5 V c).Φ (Fin.last cfg5.N) ⊢ (Pipeline.ΦA spec5 c : sProp 𝕄) := Entails.refl _

end Region

end Cert.Kernel.Reg

end
-- ==== Proof.K.Reg6.lean ====
/-
  Region 6 of the program (the three-layer reconstruction head), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the contents of the core's buffers when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block index
    has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block index
    has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block index
    has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): unfetched, the block index
    has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): unfetched, the block index
    has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): unfetched, the block index
    has not moved; the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S128x4 := Rect.unit (s := S128x4) ![0, 0] S128x4.size inb_S128x4_S128x4_0_0
abbrev r6_4 : Rect S1x4 := Rect.unit (s := S1x4) ![0, 0] S1x4.size inb_S1x4_S1x4_0_0
abbrev r6_5 : Rect S5000x4 := Rect.unit (s := S5000x4) ![0, 0] S5000x4.size inb_S5000x4_S5000x4_0_0

/-! ## What the body leaves in the output window's buffer -/

/-- Window 7's staging buffer after the body, from the input windows' blocks: its one store as a piece (the payload
    is the skeleton's: the three-layer head, relu (relu (relu (x W1 + b1) W2 + b2) W3 + b3), on the row tile). -/
def out6_7 (x0 : Vec F S5000x128 .f32) (x1 : Vec F S128x128 .f32) (x2 : Vec F S1x128 .f32) (x3 : Vec F S128x128 .f32) (x4 : Vec F S1x128 .f32) (x5 : Vec F S128x4 .f32) (x6 : Vec F S1x4 .f32) : Vec F S5000x4 .f32 :=
  View.canon [⟨r6_5, k6_pay1 (View.ld x0 r6_0) (View.ld x1 r6_1) (View.ld x2 r6_2) (View.ld x3 r6_1) (View.ld x4 r6_2) (View.ld x5 r6_3) (View.ld x6 r6_4)⟩]

/-- The one store is the whole buffer, so it covers it. -/
theorem cover6_7 (p0 : Vec F S5000x4 .f32) (y : S5000x4.Idx) :
    ∃ pc ∈ ([⟨r6_5, p0⟩] : List (View.Piece (Elt F) S5000x4 .f32)), y ∈ pc.1.set :=
  View.cover_of_tiled [⟨r6_5, p0⟩] S5000x4.size (by rfl) y

/-! ## The body's triple -/

set_option maxHeartbeats 1000000 in
/-- The kernel body on whole staging memrefs, the inputs' at read contents `xW` and the output's at anything, runs to
    the continuation holding the inputs' as they were and the output's at `out6_7` of the inputs'. -/
theorem sound_kernel6 (c : Dev nD) (E : Set ℕ) (i : grid6.Coords)
    (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x4 .f32) (harg5 : arg5.IsWhole) (arg6 : Memref sig .tc .vmem S1x4 .f32) (harg6 : arg6.IsWhole) (arg7 : Memref sig .tc .vmem S5000x4 .f32) (harg7 : arg7.IsWhole)
    (x0 : Vec F S5000x128 .f32) (x1 : Vec F S128x128 .f32) (x2 : Vec F S1x128 .f32) (x3 : Vec F S128x128 .f32) (x4 : Vec F S1x128 .f32) (x5 : Vec F S128x4 .f32) (x6 : Vec F S1x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__rec_kernel i arg0 harg0 arg1 harg1 arg2 harg2 arg3 harg3 arg4 harg4 arg5 harg5 arg6 harg6 arg7 harg7) K := by
  simp only [cc6__rec_kernel_eq_skeleton]; unfold cc6__rec_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

end Region6

/-- The proof data of pipeline 6 on core c, its arrays the region-entry contents V: after the body at point `t` each
    input's buffer at its block and the output's at `out6_7` of the input blocks; the invariant the scoped rest and the
    generator register, untouched; nothing owed; full shares. -/
def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (V : (c : Dev nD) → (b : Ref sig .tc) → Buf (Elt F) ((c : Thread nD τ).loc b)) (c : Dev nD) (w : Fin cfg6.W) : (dat6 V c).A w = V c (Pipeline.arrRef spec6 w) := by
  dsimp only [dat6]
theorem q_eq6 (V : (c : Dev nD) → (b : Ref sig .tc) → Buf (Elt F) ((c : Thread nD τ).loc b)) (c : Dev nD) (w : Fin cfg6.W) : (dat6 V c).q w = fullShare := by
  dsimp only [dat6]
theorem owed_eq6 (V : (c : Dev nD) → (b : Ref sig .tc) → Buf (Elt F) ((c : Thread nD τ).loc b)) (c : Dev nD) (t : Fin (cfg6.N + 1)) : (dat6 V c).owed t = 0 := by
  dsimp only [dat6]

section Region6
variable (V : (c : Dev nD) → (b : Ref sig .tc) → Buf (Elt F) ((c : Thread nD τ).loc b))

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region6

/-- The library's body obligation, at every point. -/
theorem body_obligation6 (V : (c : Dev nD) → (b : Ref sig .tc) → Buf (Elt F) ((c : Thread nD τ).loc b)) (c : Dev nD) :
    BodyObligation (dat6 (F := F) V c) (defs₀ (F := F)) Variants.none () Set.univ := fun t => by
  rw [bigSep_W6, bigSep_W6]
  exact sound_body6 V c t

/-- The class invariant is the invariant before the first point, -/
theorem hin6 (V : (c : Dev nD) → (b : Ref sig .tc) → Buf (Elt F) ((c : Thread nD τ).loc b)) (c : Dev nD) : (Pipeline.ΦA spec6 c : sProp 𝕄) ⊢ (dat6 V c).Φ 0 := Entails.refl _
/-- and the invariant after the last point gives it back. -/
theorem hout6 (V : (c : Dev nD) → (b : Ref sig .tc) → Buf (Elt F) ((c : Thread nD τ).loc b)) (c : Dev nD) : (dat6 V c).Φ (Fin.last cfg6.N) ⊢ (Pipeline.ΦA spec6 c : sProp 𝕄) := Entails.refl _

end Cert.Kernel.Reg

end
-- ==== Proof.K.Reg7.lean ====
/-
  Region 7 of the program (the pooling by a one-hot product accumulated over row tiles, then the final two-layer map), at a parameter V: the contents of the core's buffers when the region is entered.
  What each staging buffer holds after the body at a grid point, the invariant carried between points, and the body's
  obligation at every point.
-/
import proofs.«430410_j38371237822819_1_alg».proof.Proof.Gen.Kernel.Launch
import proofs.«430410_j38371237822819_1_alg».proof.Proof.Gen.Kernel.Skeleton
import proofs.«430410_j38371237822819_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`). -/
def iblk7 (V : (c : Dev nD) → (b : Ref sig .tc) → Buf (Elt F) ((c : Thread nD τ).loc b)) (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (unfetched, its block
    index has not moved), for any proof data whose array is `V`'s and whose body leaves the block in place. -/
theorem before7_0_of (V : (c : Dev nD) → (b : Ref sig .tc) → Buf (Elt F) ((c : Thread nD τ).loc b)) {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, its block
    index has not moved), for any proof data whose array is `V`'s and whose body leaves the block in place. -/
theorem before7_1_of (V : (c : Dev nD) → (b : Ref sig .tc) → Buf (Elt F) ((c : Thread nD τ).loc b)) {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, its block
    index has not moved), for any proof data whose array is `V`'s and whose body leaves the block in place. -/
theorem before7_2_of (V : (c : Dev nD) → (b : Ref sig .tc) → Buf (Elt F) ((c : Thread nD τ).loc b)) {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (unfetched, its block
    index has not moved), for any proof data whose array is `V`'s and whose body leaves the block in place. -/
theorem before7_3_of (V : (c : Dev nD) → (b : Ref sig .tc) → Buf (Elt F) ((c : Thread nD τ).loc b)) {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (unfetched, its block
    index has not moved), for any proof data whose array is `V`'s and whose body leaves the block in place. -/
theorem before7_4_of (V : (c : Dev nD) → (b : Ref sig .tc) → Buf (Elt F) ((c : Thread nD τ).loc b)) {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not (unfetched, its block
    index has not moved), for any proof data whose array is `V`'s and whose body leaves the block in place. -/
theorem before7_5_of (V : (c : Dev nD) → (b : Ref sig .tc) → Buf (Elt F) ((c : Thread nD τ).loc b)) {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the accumulator's reset), from the grid coordinate. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the body's second conditional (the final two-layer map into the output), from the grid coordinate. -/
abbrev cond7_1 (i : grid7.Coords) : Prop := k7_cond2 i = 1#1
/-- It holds at the last point only. -/
theorem hcond7_1 : ∀ t : Fin cfg7.N, cond7_1 (grid7.coords t) ↔ t.val = 9 :=
  (by decide +kernel : ∀ t : Fin grid7.N, cond7_1 (grid7.coords t) ↔ t.val = 9)

/-! ## Where the windows are idle -/

/-- Window 0 is never idle (an input). -/
theorem liveAt7_0 : ∀ t : Fin cfg7.N, cfg7.idle 0 (grid7.coords t) = false := by decide +kernel
/-- Window 1 is never idle (an input). -/
theorem liveAt7_1 : ∀ t : Fin cfg7.N, cfg7.idle 1 (grid7.coords t) = false := by decide +kernel
/-- Window 2 is never idle (an input). -/
theorem liveAt7_2 : ∀ t : Fin cfg7.N, cfg7.idle 2 (grid7.coords t) = false := by decide +kernel
/-- Window 3 is never idle (an input). -/
theorem liveAt7_3 : ∀ t : Fin cfg7.N, cfg7.idle 3 (grid7.coords t) = false := by decide +kernel
/-- Window 4 is never idle (an input). -/
theorem liveAt7_4 : ∀ t : Fin cfg7.N, cfg7.idle 4 (grid7.coords t) = false := by decide +kernel
/-- Window 5 is never idle (an input). -/
theorem liveAt7_5 : ∀ t : Fin cfg7.N, cfg7.idle 5 (grid7.coords t) = false := by decide +kernel
/-- At the first point the output window is idle: nothing is stored into it, -/
theorem idleAt7_6_A : ∀ t : Fin cfg7.N, cond7_0 (grid7.coords t) → ¬cond7_1 (grid7.coords t) → cfg7.idle 6 (grid7.coords t) = true := by decide +kernel
/-- and its block is not written back there. -/
theorem noFlush7_6_A : ∀ t : Fin cfg7.N, cond7_0 (grid7.coords t) → ¬cond7_1 (grid7.coords t) → (cfg7.win 6).flush t = false := by decide +kernel
/-- At the middle points the output window is idle: nothing is stored into it, -/
theorem idleAt7_6_B : ∀ t : Fin cfg7.N, ¬cond7_0 (grid7.coords t) → ¬cond7_1 (grid7.coords t) → cfg7.idle 6 (grid7.coords t) = true := by decide +kernel
/-- and its block is not written back there. -/
theorem noFlush7_6_B : ∀ t : Fin cfg7.N, ¬cond7_0 (grid7.coords t) → ¬cond7_1 (grid7.coords t) → (cfg7.win 6).flush t = false := by decide +kernel
/-- At the last point the output window is live: the body stores into it. -/
theorem liveAt7_6_C : ∀ t : Fin cfg7.N, ¬cond7_0 (grid7.coords t) → cond7_1 (grid7.coords t) → cfg7.idle 6 (grid7.coords t) = false := by decide +kernel

/-! ## The staging and scratch memrefs -/

/-- The output window's one staging buffer, as a view: what it holds is stated through it. -/
abbrev VO7_6 : View sig .tc .vmem S64x64 .f32 := (Memref.whole cc7_stg6_0 : Memref sig .tc .vmem S64x64 .f32).view
/-- Window 0's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
/-- Window 1's current staging memref at point `t`, and its wholeness. -/
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
/-- Window 2's current staging memref at point `t`, and its wholeness. -/
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
/-- Window 3's current staging memref at point `t`, and its wholeness. -/
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
/-- Window 4's current staging memref at point `t`, and its wholeness. -/
abbrev ms7_4 (t : Fin cfg7.N) : Memref sig .tc .vmem S128x64 .f32 := win7_4.stage (cfg7.slots t 4)
abbrev hs7_4 (t : Fin cfg7.N) : (ms7_4 t).IsWhole := hstage7_4 ((cfg7.slots t 4).cast nbuf7_4)
/-- Window 5's current staging memref at point `t`, and its wholeness. -/
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
/-- Window 6's current staging memref at point `t`, and its wholeness. -/
abbrev ms7_6 (t : Fin cfg7.N) : Memref sig .tc .vmem S64x64 .f32 := win7_6.stage (cfg7.slots t 6)
abbrev hs7_6 (t : Fin cfg7.N) : (ms7_6 t).IsWhole := hstage7_6 ((cfg7.slots t 6).cast nbuf7_6)
/-- The accumulator: a whole scoped buffer of the kernel's own, passed beside the windows. -/
abbrev scM7_0 : Memref sig .tc .vmem S64x128 .f32 := Memref.whole cc7_scratch0
/-- The accumulator as a view: what it holds is stated through it. -/
abbrev VS7_0 : View sig .tc .vmem S64x128 .f32 := scM7_0.view

/-- The class invariant with the accumulator as a memref owned at some contents; every other scoped buffer of the core
    stays unopened beside it, and the generator register is at some state. -/
theorem PhiA7_eq (c : Dev nD) :
    (Pipeline.ΦA spec7 c : sProp 𝕄)
      = iprop(iprop(iprop((∃ d, owns (c : Thread nD τ) scM7_0 fullShare d)) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 1000000 in
/-- What the body's stores leave in the output's staging memref and in the accumulator, as pieces (last first), AT THE FIRST
    POINT (the reset taken, the final map not), with the proof that on whole memrefs — the inputs' at their contents, the idle
    output's at contents `xi6` handed back untouched, the accumulator at anything — the body runs to the continuation holding
    the inputs' as they were, the output's as it was, and the accumulator with its pieces written. -/
noncomputable def kernelRun7_A (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) :
    Σ' (L6 : List (View.Piece (Elt F) S64x64 .f32)), { LS0 : List (View.Piece (Elt F) S64x128 .f32) //
      ∀ (xi6 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨[], ?_, fun xi6 E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in
/-- The same AT A MIDDLE POINT (neither conditional taken): the accumulator comes at the contents `xs0` the point before left. -/
noncomputable def kernelRun7_B (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    Σ' (L6 : List (View.Piece (Elt F) S64x64 .f32)), { LS0 : List (View.Piece (Elt F) S64x128 .f32) //
      ∀ (xi6 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨[], ?_, fun xi6 E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in
/-- The same AT THE LAST POINT (the reset not taken, the final map taken): the accumulator comes at the contents `xs0` the
    point before left, the output's buffer at anything, and is handed back with its pieces written. -/
noncomputable def kernelRun7_C (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    Σ' (L6 : List (View.Piece (Elt F) S64x64 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨?_, ?_, fun E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-! ## What each case leaves in the output's buffer and in the accumulator -/

/-- The first point stores nothing into the output (the window is idle there and not written back): no pieces — a
    placeholder that nothing consults, the window being neither written back nor read at the next point. -/
def out7_A_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) : Vec F S64x64 .f32 :=
  VO7_6.read (Elt F) (VO7_6.writes (Elt F) VO7_6.junk (kernelRun7_A c i arg1 harg1 arg2 harg2 arg3 harg3 arg4 harg4 arg5 harg5 arg6 harg6 arg7 harg7 arg8 harg8 hc0 hc1 x0 x1 x2 x3 x4 x5).1)

/-- The first point's pieces for the accumulator tile it, so they cover it. -/
theorem scover7_A_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (y : S64x128.Idx) :
    ∃ pc ∈ (kernelRun7_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun7_A c i arg1 harg1 arg2 harg2 arg3 harg3 arg4 harg4 arg5 harg5 arg6 harg6 arg7 harg7 arg8 harg8 hc0 hc1 x0 x1 x2 x3 x4 x5).2.1 S64x128.size (by sl_kernel_rfl) y

/-- What the first point leaves in the accumulator: its pieces read back. -/
def sout7_A_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) : Vec F S64x128 .f32 :=
  VS7_0.read (Elt F) (VS7_0.writes (Elt F) VS7_0.junk (kernelRun7_A c i arg1 harg1 arg2 harg2 arg3 harg3 arg4 harg4 arg5 harg5 arg6 harg6 arg7 harg7 arg8 harg8 hc0 hc1 x0 x1 x2 x3 x4 x5).2.1)

/-- A middle point stores nothing into the output (the window is idle there and not written back): no pieces — a
    placeholder that nothing consults, the window being neither written back nor read at the next point. -/
def out7_B_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x64 .f32 :=
  VO7_6.read (Elt F) (VO7_6.writes (Elt F) VO7_6.junk (kernelRun7_B c i arg1 harg1 arg2 harg2 arg3 harg3 arg4 harg4 arg5 harg5 arg6 harg6 arg7 harg7 arg8 harg8 hc0 hc1 x0 x1 x2 x3 x4 x5 xs0).1)

/-- A middle point's pieces for the accumulator tile it, so they cover it. -/
theorem scover7_B_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x128.Idx) :
    ∃ pc ∈ (kernelRun7_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun7_B c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What a middle point leaves in the accumulator: its pieces read back. -/
def sout7_B_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x128 .f32 :=
  VS7_0.read (Elt F) (VS7_0.writes (Elt F) VS7_0.junk (kernelRun7_B c i arg1 harg1 arg2 harg2 arg3 harg3 arg4 harg4 arg5 harg5 arg6 harg6 arg7 harg7 arg8 harg8 hc0 hc1 x0 x1 x2 x3 x4 x5 xs0).2.1)

/-- The last point's one store into the output tiles its block, so it covers it. -/
theorem cover7_C_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x64.Idx) :
    ∃ pc ∈ (kernelRun7_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun7_C c i arg1 harg1 arg2 harg2 arg3 harg3 arg4 harg4 arg5 harg5 arg6 harg6 arg7 harg7 arg8 harg8 hc0 hc1 x0 x1 x2 x3 x4 x5 xs0).1 S64x64.size (by sl_kernel_rfl) y

/-- What the last point leaves in the output's staging buffer: its pieces read back. -/
def out7_C_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x64 .f32 :=
  VO7_6.read (Elt F) (VO7_6.writes (Elt F) VO7_6.junk (kernelRun7_C c i arg1 harg1 arg2 harg2 arg3 harg3 arg4 harg4 arg5 harg5 arg6 harg6 arg7 harg7 arg8 harg8 hc0 hc1 x0 x1 x2 x3 x4 x5 xs0).1)

/-- The last point's pieces for the accumulator tile it, so they cover it. -/
theorem scover7_C_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x128.Idx) :
    ∃ pc ∈ (kernelRun7_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun7_C c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What the last point leaves in the accumulator: its pieces read back. -/
def sout7_C_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x128 .f32 :=
  VS7_0.read (Elt F) (VS7_0.writes (Elt F) VS7_0.junk (kernelRun7_C c i arg1 harg1 arg2 harg2 arg3 harg3 arg4 harg4 arg5 harg5 arg6 harg6 arg7 harg7 arg8 harg8 hc0 hc1 x0 x1 x2 x3 x4 x5 xs0).2.1)

/-! ## What the output's buffer and the accumulator hold after each point -/

/-- THE ACCUMULATION. What the output's staging buffer and the accumulator hold after the body at position `n` (a pair: the
    output, then the accumulator): the case the position selects, run at the point's memrefs and input blocks, the accumulator
    read at what this leaves at `n - 1`. -/
def outsAt7 (V : (c : Dev nD) → (b : Ref sig .tc) → Buf (Elt F) ((c : Thread nD τ).loc b)) (c : Dev nD) : (n : ℕ) → n < cfg7.N → Vec F S64x64 .f32 × Vec F S64x128 .f32
  | 0, hn => (out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr rfl) (fun h => absurd ((hcond7_1 ⟨0, hn⟩).mp h) (show ¬(0 : ℕ) = 9 by decide)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr rfl) (fun h => absurd ((hcond7_1 ⟨0, hn⟩).mp h) (show ¬(0 : ℕ) = 9 by decide)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩))
  | n + 1, hn =>
    if h1 : n + 1 = 9 then
      (out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2)
    else
      (out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2)

/-- `outsAt7` at the first point: that case's contents. -/
theorem outsAt7_A (V : (c : Dev nD) → (b : Ref sig .tc) → Buf (Elt F) ((c : Thread nD τ).loc b)) (c : Dev nD) (t : Fin cfg7.N) (h0 : t.val = 0) (h1 : ¬t.val = 9) :
    outsAt7 V c t.val t.isLt = (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t) (iblk7 V c 5 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t) (iblk7 V c 5 t)) := by
  obtain ⟨n, hn⟩ := t
  cases n with
  | zero => exact rfl
  | succ n => exact absurd h0 (Nat.succ_ne_zero n)

/-- `outsAt7` at a middle point: that case's contents, over what the point before left. -/
theorem outsAt7_B (V : (c : Dev nD) → (b : Ref sig .tc) → Buf (Elt F) ((c : Thread nD τ).loc b)) (c : Dev nD) (t : Fin cfg7.N) (h0 : ¬t.val = 0) (h1 : ¬t.val = 9) :
    outsAt7 V c t.val t.isLt = (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2) := by
  obtain ⟨n, hn⟩ := t
  cases n with
  | zero => exact absurd rfl h0
  | succ n => exact (dif_neg h1).trans rfl

/-- `outsAt7` at the last point: that case's contents, over what the point before left. -/
theorem outsAt7_C (V : (c : Dev nD) → (b : Ref sig .tc) → Buf (Elt F) ((c : Thread nD τ).loc b)) (c : Dev nD) (t : Fin cfg7.N) (h0 : ¬t.val = 0) (h1 : t.val = 9) :
    outsAt7 V c t.val t.isLt = (out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the accumulator at anything); afterwards the
    accumulator at what the point before left in it, every other scoped buffer unopened, and the generator register at some state. -/
def PhiS7 (V : (c : Dev nD) → (b : Ref sig .tc) → Buf (Elt F) ((c : Thread nD τ).loc b)) (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (V : (c : Dev nD) → (b : Ref sig .tc) → Buf (Elt F) ((c : Thread nD τ).loc b)) (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (V : (c : Dev nD) → (b : Ref sig .tc) → Buf (Elt F) ((c : Thread nD τ).loc b)) (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (V : (c : Dev nD) → (b : Ref sig .tc) → Buf (Elt F) ((c : Thread nD τ).loc b)) (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core c, its arrays the region-entry contents V: after the body at point `t` each input's
    buffer at its block and the output's at `outsAt7`'s first component; the invariant `PhiS7`; nothing owed; full shares. -/
def dat7 (V : (c : Dev nD) → (b : Ref sig .tc) → Buf (Elt F) ((c : Thread nD τ).loc b)) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
  Φ t := PhiS7 V c t.val (Nat.le_of_lt_succ t.isLt)
  q _ := fullShare
  owed _ := 0

theorem A_eq7 (V : (c : Dev nD) → (b : Ref sig .tc) → Buf (Elt F) ((c : Thread nD τ).loc b)) (c : Dev nD) (w : Fin cfg7.W) : (dat7 V c).A w = V c (Pipeline.arrRef spec7 w) := by
  dsimp only [dat7]
theorem q_eq7 (V : (c : Dev nD) → (b : Ref sig .tc) → Buf (Elt F) ((c : Thread nD τ).loc b)) (c : Dev nD) (w : Fin cfg7.W) : (dat7 V c).q w = fullShare := by
  dsimp only [dat7]
theorem owed_eq7 (V : (c : Dev nD) → (b : Ref sig .tc) → Buf (Elt F) ((c : Thread nD τ).loc b)) (c : Dev nD) (t : Fin (cfg7.N + 1)) : (dat7 V c).owed t = 0 := by
  dsimp only [dat7]

/-- The invariant at a point's start, restated at `t.val`. -/
theorem PhiS7_castSucc (V : (c : Dev nD) → (b : Ref sig .tc) → Buf (Elt F) ((c : Thread nD τ).loc b)) (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (V : (c : Dev nD) → (b : Ref sig .tc) → Buf (Elt F) ((c : Thread nD τ).loc b)) (c : Dev nD) (t : Fin cfg7.N) : (dat7 V c).after 0 t = iblk7 V c 0 t := by dsimp only [dat7]
theorem after7_1 (V : (c : Dev nD) → (b : Ref sig .tc) → Buf (Elt F) ((c : Thread nD τ).loc b)) (c : Dev nD) (t : Fin cfg7.N) : (dat7 V c).after 1 t = iblk7 V c 1 t := by dsimp only [dat7]
theorem after7_2 (V : (c : Dev nD) → (b : Ref sig .tc) → Buf (Elt F) ((c : Thread nD τ).loc b)) (c : Dev nD) (t : Fin cfg7.N) : (dat7 V c).after 2 t = iblk7 V c 2 t := by dsimp only [dat7]
theorem after7_3 (V : (c : Dev nD) → (b : Ref sig .tc) → Buf (Elt F) ((c : Thread nD τ).loc b)) (c : Dev nD) (t : Fin cfg7.N) : (dat7 V c).after 3 t = iblk7 V c 3 t := by dsimp only [dat7]
theorem after7_4 (V : (c : Dev nD) → (b : Ref sig .tc) → Buf (Elt F) ((c : Thread nD τ).loc b)) (c : Dev nD) (t : Fin cfg7.N) : (dat7 V c).after 4 t = iblk7 V c 4 t := by dsimp only [dat7]
theorem after7_5 (V : (c : Dev nD) → (b : Ref sig .tc) → Buf (Elt F) ((c : Thread nD τ).loc b)) (c : Dev nD) (t : Fin cfg7.N) : (dat7 V c).after 5 t = iblk7 V c 5 t := by dsimp only [dat7]
theorem after7_6 (V : (c : Dev nD) → (b : Ref sig .tc) → Buf (Elt F) ((c : Thread nD τ).loc b)) (c : Dev nD) (t : Fin cfg7.N) : (dat7 V c).after 6 t = (outsAt7 V c t.val t.isLt).1 := by dsimp only [dat7]

/-- Each input's current staging buffer holds its block at every point, fetched there or not. -/
theorem before7_0 (V : (c : Dev nD) → (b : Ref sig .tc) → Buf (Elt F) ((c : Thread nD τ).loc b)) (c : Dev nD) (t : Fin cfg7.N) (d) : (dat7 V c).before 0 t d = iblk7 V c 0 t :=
  before7_0_of V (dat7 V c) (A_eq7 V c 0) (after7_0 V c) t d
theorem before7_1 (V : (c : Dev nD) → (b : Ref sig .tc) → Buf (Elt F) ((c : Thread nD τ).loc b)) (c : Dev nD) (t : Fin cfg7.N) (d) : (dat7 V c).before 1 t d = iblk7 V c 1 t :=
  before7_1_of V (dat7 V c) (A_eq7 V c 1) (after7_1 V c) t d
theorem before7_2 (V : (c : Dev nD) → (b : Ref sig .tc) → Buf (Elt F) ((c : Thread nD τ).loc b)) (c : Dev nD) (t : Fin cfg7.N) (d) : (dat7 V c).before 2 t d = iblk7 V c 2 t :=
  before7_2_of V (dat7 V c) (A_eq7 V c 2) (after7_2 V c) t d
theorem before7_3 (V : (c : Dev nD) → (b : Ref sig .tc) → Buf (Elt F) ((c : Thread nD τ).loc b)) (c : Dev nD) (t : Fin cfg7.N) (d) : (dat7 V c).before 3 t d = iblk7 V c 3 t :=
  before7_3_of V (dat7 V c) (A_eq7 V c 3) (after7_3 V c) t d
theorem before7_4 (V : (c : Dev nD) → (b : Ref sig .tc) → Buf (Elt F) ((c : Thread nD τ).loc b)) (c : Dev nD) (t : Fin cfg7.N) (d) : (dat7 V c).before 4 t d = iblk7 V c 4 t :=
  before7_4_of V (dat7 V c) (A_eq7 V c 4) (after7_4 V c) t d
theorem before7_5 (V : (c : Dev nD) → (b : Ref sig .tc) → Buf (Elt F) ((c : Thread nD τ).loc b)) (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t` (the windows one by one), -/
def bodyPre7 (V : (c : Dev nD) → (b : Ref sig .tc) → Buf (Elt F) ((c : Thread nD τ).loc b)) (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (V : (c : Dev nD) → (b : Ref sig .tc) → Buf (Elt F) ((c : Thread nD τ).loc b)) (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the position says which case the point is in; the invariant
    hands the body the accumulator at what the point before left (at anything at the first point), every other scoped buffer and
    the generator register untouched, and takes the accumulator back at this point's contents; the output's buffer is handed back
    untouched where the window is idle and at the last point's store where it is live; the core owes nothing throughout. -/
theorem sound_body7 (V : (c : Dev nD) → (b : Ref sig .tc) → Buf (Elt F) ((c : Thread nD τ).loc b)) (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  by_cases h0 : t.val = 0
  · have h1 : ¬t.val = 9 := by omega
    rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
    rw [outsAt7_A V c t h0 h1]
    unfold sout7_A_0; (try dsimp only)
    rw [PhiS7_castSucc V c t, PhiS7_zero V c _ _ h0, PhiA7_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t) (iblk7 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 9
    · rw [show (dat7 V c).leavesExact 6 t = owns (c : Thread nD τ) (ms7_6 t) fullShare ((dat7 V c).after 6 t) from by
        unfold Dat.leavesExact; rw [liveAt7_6_C t (fun h => h0 ((hcond7_0 t).mp h)) ((hcond7_1 t).mpr h1)], after7_6]
      rw [outsAt7_C V c t h0 h1]
      unfold out7_C_6 sout7_C_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) (iblk7 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover7_C_6 c _ _ _ _ _ _ _ _ _ _ _ _ _ _ _ _ _ _ _ _ _ _ _ _ _ _)
    · rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
      rw [outsAt7_B V c t h0 h1]
      unfold sout7_B_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation7 (V : (c : Dev nD) → (b : Ref sig .tc) → Buf (Elt F) ((c : Thread nD τ).loc b)) (c : Dev nD) :
    BodyObligation (dat7 (F := F) V c) (defs₀ (F := F)) Variants.none () Set.univ := fun t => by
  rw [bigSep_W7, bigSep_W7]
  exact sound_body7 V c t

theorem hin7 (V : (c : Dev nD) → (b : Ref sig .tc) → Buf (Elt F) ((c : Thread nD τ).loc b)) (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (V : (c : Dev nD) → (b : Ref sig .tc) → Buf (Elt F) ((c : Thread nD τ).loc b)) (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

theorem hout7 (V : (c : Dev nD) → (b : Ref sig .tc) → Buf (Elt F) ((c : Thread nD τ).loc b)) (c : Dev nD) : (dat7 V c).Φ (Fin.last cfg7.N) ⊢ (Pipeline.ΦA spec7 c : sProp 𝕄) :=
  Phi_out7 V c _ (by rw [Fin.val_last]; have : cfg7.N = 10 := N_7; omega)

end Cert.Kernel.Reg

end
-- ==== Proof.K.Bnd.lean ====
/-
  The contents of the core's buffers at every boundary between a stretch of host operations and a kernel region, as a
  fold from the launch memory: a host stretch applies its operations; a region leaves its arrays at what its write-backs
  make of them and every other buffer as entered. Every pipeline's proof data at its region's entry contents. No item
  changes an argument; a buffer a region only reads passes through it.
-/
import proofs.«430410_j38371237822819_1_alg».proof.Proof.K.Reg0
import proofs.«430410_j38371237822819_1_alg».proof.Proof.K.Reg1
import proofs.«430410_j38371237822819_1_alg».proof.Proof.K.Reg2
import proofs.«430410_j38371237822819_1_alg».proof.Proof.K.Reg3
import proofs.«430410_j38371237822819_1_alg».proof.Proof.K.Reg4
import proofs.«430410_j38371237822819_1_alg».proof.Proof.K.Reg5
import proofs.«430410_j38371237822819_1_alg».proof.Proof.K.Reg6
import proofs.«430410_j38371237822819_1_alg».proof.Proof.K.Reg7
import proofs.«430410_j38371237822819_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-- Core c's buffers at launch. -/
abbrev B0 : Dev nD → Valuation τ sig (Elt F) := fun c b => m (c, b)

/-- After the host stretch before region 0. -/
abbrev B1 : Dev nD → Valuation τ sig (Elt F) := fun c => StableHlo.after hostOps0 (B0 m c)
theorem B1_of (c : Dev nD) (r : Ref sig .tc) (h : r ∉ hostOps0_W) : B1 m c r = B0 m c r :=
  StableHlo.after_of_writes_sub hostOps0 _ hostOps0_writes h
/-- The same read at the TensorCore's references: what region 0's proof data take. -/
abbrev E1 : (c : Dev nD) → (b : Ref sig .tc) → Buf (Elt F) ((c : Thread nD τ).loc b) := fun c b => B1 m c b
/-- At region 0's exit: its arrays at what the write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem hF0 (c : Dev nD) (w : Fin cfg0.W) : (dat0 (E1 m) c).arrAt w cfg0.N = X2 m c (Pipeline.arrRef spec0 w) :=
  (B2_arr m c w).symm
theorem hrest0 (c : Dev nD) : ∀ b, b ∉ Finset.univ.image (Pipeline.arrRef spec0) → X2 m c b = E1 m c b :=
  fun b hb => B2_of_ne m c b fun w e => hb (Finset.mem_image.mpr ⟨w, Finset.mem_univ _, e⟩)
set_option maxHeartbeats 1600000 in
/-- A buffer region 0 does not write passes through it: an array it only reads is handed back as entered. -/
theorem B2_keep (c : Dev nD) (b : Ref sig .tc) (hb : b ∉ ([main_v19_0, main_v19_1, main_v19_2] : List (Ref sig .tc))) :
    B2 m c (Proc.devRef .tc b) = B1 m c (Proc.devRef .tc b) := by
  by_cases h : ∃ w, Pipeline.arrRef spec0 w = b
  · obtain ⟨w, rfl⟩ := h
    match w, hb with
    | 0, _ => exact (B2_arr m c 0).trans (((dat0 (E1 m) c).arrAt_in 0 rfl _).trans (A_eq0 (E1 m) c 0))
    | 1, _ => exact (B2_arr m c 1).trans (((dat0 (E1 m) c).arrAt_in 1 rfl _).trans (A_eq0 (E1 m) c 1))
    | 2, _ => exact (B2_arr m c 2).trans (((dat0 (E1 m) c).arrAt_in 2 rfl _).trans (A_eq0 (E1 m) c 2))
    | 3, _ => exact (B2_arr m c 3).trans (((dat0 (E1 m) c).arrAt_in 3 rfl _).trans (A_eq0 (E1 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B2_of_ne m c b fun w e => h ⟨w, e⟩

/-- After the host stretch before region 1. -/
abbrev B3 : Dev nD → Valuation τ sig (Elt F) := fun c => StableHlo.after hostOps1 (B2 m c)
theorem B3_of (c : Dev nD) (r : Ref sig .tc) (h : r ∉ hostOps1_W) : B3 m c r = B2 m c r :=
  StableHlo.after_of_writes_sub hostOps1 _ hostOps1_writes h
/-- The same read at the TensorCore's references: what region 1's proof data take. -/
abbrev E3 : (c : Dev nD) → (b : Ref sig .tc) → Buf (Elt F) ((c : Thread nD τ).loc b) := fun c b => B3 m c b
/-- At region 1's exit: its arrays at what the write-backs leave, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem hF1 (c : Dev nD) (w : Fin cfg1.W) : (dat1 (E3 m) c).arrAt w cfg1.N = X4 m c (Pipeline.arrRef spec1 w) :=
  (B4_arr m c w).symm
theorem hrest1 (c : Dev nD) : ∀ b, b ∉ Finset.univ.image (Pipeline.arrRef spec1) → X4 m c b = E3 m c b :=
  fun b hb => B4_of_ne m c b fun w e => hb (Finset.mem_image.mpr ⟨w, Finset.mem_univ _, e⟩)
set_option maxHeartbeats 1600000 in
/-- A buffer region 1 does not write passes through it: an array it only reads is handed back as entered. -/
theorem B4_keep (c : Dev nD) (b : Ref sig .tc) (hb : b ∉ ([main_v37] : List (Ref sig .tc))) :
    B4 m c (Proc.devRef .tc b) = B3 m c (Proc.devRef .tc b) := by
  by_cases h : ∃ w, Pipeline.arrRef spec1 w = b
  · obtain ⟨w, rfl⟩ := h
    match w, hb with
    | 0, _ => exact (B4_arr m c 0).trans (((dat1 (E3 m) c).arrAt_in 0 rfl _).trans (A_eq1 (E3 m) c 0))
    | 1, _ => exact (B4_arr m c 1).trans (((dat1 (E3 m) c).arrAt_in 1 rfl _).trans (A_eq1 (E3 m) c 1))
    | 2, _ => exact (B4_arr m c 2).trans (((dat1 (E3 m) c).arrAt_in 2 rfl _).trans (A_eq1 (E3 m) c 2))
    | 3, _ => exact (B4_arr m c 3).trans (((dat1 (E3 m) c).arrAt_in 3 rfl _).trans (A_eq1 (E3 m) c 3))
    | 4, _ => exact (B4_arr m c 4).trans (((dat1 (E3 m) c).arrAt_in 4 rfl _).trans (A_eq1 (E3 m) c 4))
    | 5, _ => exact (B4_arr m c 5).trans (((dat1 (E3 m) c).arrAt_in 5 rfl _).trans (A_eq1 (E3 m) c 5))
    | 6, _ => exact (B4_arr m c 6).trans (((dat1 (E3 m) c).arrAt_in 6 rfl _).trans (A_eq1 (E3 m) c 6))
    | 7, hb => exact absurd (by decide) hb
    | ⟨_ + 8, h⟩, _ => exact absurd h (Nat.not_lt.2 (Nat.le_add_left _ _))
  · exact B4_of_ne m c b fun w e => h ⟨w, e⟩

/-- After the host stretch before region 2. -/
abbrev B5 : Dev nD → Valuation τ sig (Elt F) := fun c => StableHlo.after hostOps2 (B4 m c)
theorem B5_of (c : Dev nD) (r : Ref sig .tc) (h : r ∉ hostOps2_W) : B5 m c r = B4 m c r :=
  StableHlo.after_of_writes_sub hostOps2 _ hostOps2_writes h
/-- The same read at the TensorCore's references: what region 2's proof data take. -/
abbrev E5 : (c : Dev nD) → (b : Ref sig .tc) → Buf (Elt F) ((c : Thread nD τ).loc b) := fun c b => B5 m c b
/-- At region 2's exit: its arrays at what the write-backs leave, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem hF2 (c : Dev nD) (w : Fin cfg2.W) : (dat2 (E5 m) c).arrAt w cfg2.N = X6 m c (Pipeline.arrRef spec2 w) :=
  (B6_arr m c w).symm
theorem hrest2 (c : Dev nD) : ∀ b, b ∉ Finset.univ.image (Pipeline.arrRef spec2) → X6 m c b = E5 m c b :=
  fun b hb => B6_of_ne m c b fun w e => hb (Finset.mem_image.mpr ⟨w, Finset.mem_univ _, e⟩)
set_option maxHeartbeats 1600000 in
/-- A buffer region 2 does not write passes through it: an array it only reads is handed back as entered. -/
theorem B6_keep (c : Dev nD) (b : Ref sig .tc) (hb : b ∉ ([main_v53_0, main_v53_1, main_v53_2] : List (Ref sig .tc))) :
    B6 m c (Proc.devRef .tc b) = B5 m c (Proc.devRef .tc b) := by
  by_cases h : ∃ w, Pipeline.arrRef spec2 w = b
  · obtain ⟨w, rfl⟩ := h
    match w, hb with
    | 0, _ => exact (B6_arr m c 0).trans (((dat2 (E5 m) c).arrAt_in 0 rfl _).trans (A_eq2 (E5 m) c 0))
    | 1, _ => exact (B6_arr m c 1).trans (((dat2 (E5 m) c).arrAt_in 1 rfl _).trans (A_eq2 (E5 m) c 1))
    | 2, _ => exact (B6_arr m c 2).trans (((dat2 (E5 m) c).arrAt_in 2 rfl _).trans (A_eq2 (E5 m) c 2))
    | 3, _ => exact (B6_arr m c 3).trans (((dat2 (E5 m) c).arrAt_in 3 rfl _).trans (A_eq2 (E5 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B6_of_ne m c b fun w e => h ⟨w, e⟩

/-- After the host stretch before region 3. -/
abbrev B7 : Dev nD → Valuation τ sig (Elt F) := fun c => StableHlo.after hostOps3 (B6 m c)
theorem B7_of (c : Dev nD) (r : Ref sig .tc) (h : r ∉ hostOps3_W) : B7 m c r = B6 m c r :=
  StableHlo.after_of_writes_sub hostOps3 _ hostOps3_writes h
/-- The same read at the TensorCore's references: what region 3's proof data take. -/
abbrev E7 : (c : Dev nD) → (b : Ref sig .tc) → Buf (Elt F) ((c : Thread nD τ).loc b) := fun c b => B7 m c b
/-- At region 3's exit: its arrays at what the write-backs leave, every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem hF3 (c : Dev nD) (w : Fin cfg3.W) : (dat3 (E7 m) c).arrAt w cfg3.N = X8 m c (Pipeline.arrRef spec3 w) :=
  (B8_arr m c w).symm
theorem hrest3 (c : Dev nD) : ∀ b, b ∉ Finset.univ.image (Pipeline.arrRef spec3) → X8 m c b = E7 m c b :=
  fun b hb => B8_of_ne m c b fun w e => hb (Finset.mem_image.mpr ⟨w, Finset.mem_univ _, e⟩)
set_option maxHeartbeats 1600000 in
/-- A buffer region 3 does not write passes through it: an array it only reads is handed back as entered. -/
theorem B8_keep (c : Dev nD) (b : Ref sig .tc) (hb : b ∉ ([main_v71] : List (Ref sig .tc))) :
    B8 m c (Proc.devRef .tc b) = B7 m c (Proc.devRef .tc b) := by
  by_cases h : ∃ w, Pipeline.arrRef spec3 w = b
  · obtain ⟨w, rfl⟩ := h
    match w, hb with
    | 0, _ => exact (B8_arr m c 0).trans (((dat3 (E7 m) c).arrAt_in 0 rfl _).trans (A_eq3 (E7 m) c 0))
    | 1, _ => exact (B8_arr m c 1).trans (((dat3 (E7 m) c).arrAt_in 1 rfl _).trans (A_eq3 (E7 m) c 1))
    | 2, _ => exact (B8_arr m c 2).trans (((dat3 (E7 m) c).arrAt_in 2 rfl _).trans (A_eq3 (E7 m) c 2))
    | 3, _ => exact (B8_arr m c 3).trans (((dat3 (E7 m) c).arrAt_in 3 rfl _).trans (A_eq3 (E7 m) c 3))
    | 4, _ => exact (B8_arr m c 4).trans (((dat3 (E7 m) c).arrAt_in 4 rfl _).trans (A_eq3 (E7 m) c 4))
    | 5, _ => exact (B8_arr m c 5).trans (((dat3 (E7 m) c).arrAt_in 5 rfl _).trans (A_eq3 (E7 m) c 5))
    | 6, _ => exact (B8_arr m c 6).trans (((dat3 (E7 m) c).arrAt_in 6 rfl _).trans (A_eq3 (E7 m) c 6))
    | 7, hb => exact absurd (by decide) hb
    | ⟨_ + 8, h⟩, _ => exact absurd h (Nat.not_lt.2 (Nat.le_add_left _ _))
  · exact B8_of_ne m c b fun w e => h ⟨w, e⟩

/-- After the host stretch before region 4. -/
abbrev B9 : Dev nD → Valuation τ sig (Elt F) := fun c => StableHlo.after hostOps4 (B8 m c)
theorem B9_of (c : Dev nD) (r : Ref sig .tc) (h : r ∉ hostOps4_W) : B9 m c r = B8 m c r :=
  StableHlo.after_of_writes_sub hostOps4 _ hostOps4_writes h
/-- The same read at the TensorCore's references: what region 4's proof data take. -/
abbrev E9 : (c : Dev nD) → (b : Ref sig .tc) → Buf (Elt F) ((c : Thread nD τ).loc b) := fun c b => B9 m c b
/-- At region 4's exit: its arrays at what the write-backs leave, every other buffer as entered. -/
def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev X10 : (c : Dev nD) → (b : Ref sig .tc) → Buf (Elt F) ((c : Thread nD τ).loc b) := fun c b => B10 m c b
theorem hF4 (c : Dev nD) (w : Fin cfg4.W) : (dat4 (E9 m) c).arrAt w cfg4.N = X10 m c (Pipeline.arrRef spec4 w) :=
  (B10_arr m c w).symm
theorem hrest4 (c : Dev nD) : ∀ b, b ∉ Finset.univ.image (Pipeline.arrRef spec4) → X10 m c b = E9 m c b :=
  fun b hb => B10_of_ne m c b fun w e => hb (Finset.mem_image.mpr ⟨w, Finset.mem_univ _, e⟩)
set_option maxHeartbeats 1600000 in
/-- A buffer region 4 does not write passes through it: an array it only reads is handed back as entered. -/
theorem B10_keep (c : Dev nD) (b : Ref sig .tc) (hb : b ∉ ([main_v87_0, main_v87_1, main_v87_2] : List (Ref sig .tc))) :
    B10 m c (Proc.devRef .tc b) = B9 m c (Proc.devRef .tc b) := by
  by_cases h : ∃ w, Pipeline.arrRef spec4 w = b
  · obtain ⟨w, rfl⟩ := h
    match w, hb with
    | 0, _ => exact (B10_arr m c 0).trans (((dat4 (E9 m) c).arrAt_in 0 rfl _).trans (A_eq4 (E9 m) c 0))
    | 1, _ => exact (B10_arr m c 1).trans (((dat4 (E9 m) c).arrAt_in 1 rfl _).trans (A_eq4 (E9 m) c 1))
    | 2, _ => exact (B10_arr m c 2).trans (((dat4 (E9 m) c).arrAt_in 2 rfl _).trans (A_eq4 (E9 m) c 2))
    | 3, _ => exact (B10_arr m c 3).trans (((dat4 (E9 m) c).arrAt_in 3 rfl _).trans (A_eq4 (E9 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B10_of_ne m c b fun w e => h ⟨w, e⟩

/-- After the host stretch before region 5. -/
abbrev B11 : Dev nD → Valuation τ sig (Elt F) := fun c => StableHlo.after hostOps5 (B10 m c)
theorem B11_of (c : Dev nD) (r : Ref sig .tc) (h : r ∉ hostOps5_W) : B11 m c r = B10 m c r :=
  StableHlo.after_of_writes_sub hostOps5 _ hostOps5_writes h
/-- The same read at the TensorCore's references: what region 5's proof data take. -/
abbrev E11 : (c : Dev nD) → (b : Ref sig .tc) → Buf (Elt F) ((c : Thread nD τ).loc b) := fun c b => B11 m c b
/-- At region 5's exit: its arrays at what the write-backs leave, every other buffer as entered. -/
def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev X12 : (c : Dev nD) → (b : Ref sig .tc) → Buf (Elt F) ((c : Thread nD τ).loc b) := fun c b => B12 m c b
theorem hF5 (c : Dev nD) (w : Fin cfg5.W) : (dat5 (E11 m) c).arrAt w cfg5.N = X12 m c (Pipeline.arrRef spec5 w) :=
  (B12_arr m c w).symm
theorem hrest5 (c : Dev nD) : ∀ b, b ∉ Finset.univ.image (Pipeline.arrRef spec5) → X12 m c b = E11 m c b :=
  fun b hb => B12_of_ne m c b fun w e => hb (Finset.mem_image.mpr ⟨w, Finset.mem_univ _, e⟩)
set_option maxHeartbeats 1600000 in
/-- A buffer region 5 does not write passes through it: an array it only reads is handed back as entered. -/
theorem B12_keep (c : Dev nD) (b : Ref sig .tc) (hb : b ∉ ([main_v105] : List (Ref sig .tc))) :
    B12 m c (Proc.devRef .tc b) = B11 m c (Proc.devRef .tc b) := by
  by_cases h : ∃ w, Pipeline.arrRef spec5 w = b
  · obtain ⟨w, rfl⟩ := h
    match w, hb with
    | 0, _ => exact (B12_arr m c 0).trans (((dat5 (E11 m) c).arrAt_in 0 rfl _).trans (A_eq5 (E11 m) c 0))
    | 1, _ => exact (B12_arr m c 1).trans (((dat5 (E11 m) c).arrAt_in 1 rfl _).trans (A_eq5 (E11 m) c 1))
    | 2, _ => exact (B12_arr m c 2).trans (((dat5 (E11 m) c).arrAt_in 2 rfl _).trans (A_eq5 (E11 m) c 2))
    | 3, _ => exact (B12_arr m c 3).trans (((dat5 (E11 m) c).arrAt_in 3 rfl _).trans (A_eq5 (E11 m) c 3))
    | 4, _ => exact (B12_arr m c 4).trans (((dat5 (E11 m) c).arrAt_in 4 rfl _).trans (A_eq5 (E11 m) c 4))
    | 5, _ => exact (B12_arr m c 5).trans (((dat5 (E11 m) c).arrAt_in 5 rfl _).trans (A_eq5 (E11 m) c 5))
    | 6, _ => exact (B12_arr m c 6).trans (((dat5 (E11 m) c).arrAt_in 6 rfl _).trans (A_eq5 (E11 m) c 6))
    | 7, hb => exact absurd (by decide) hb
    | ⟨_ + 8, h⟩, _ => exact absurd h (Nat.not_lt.2 (Nat.le_add_left _ _))
  · exact B12_of_ne m c b fun w e => h ⟨w, e⟩

/-- After the host stretch before region 6. -/
abbrev B13 : Dev nD → Valuation τ sig (Elt F) := fun c => StableHlo.after hostOps6 (B12 m c)
theorem B13_of (c : Dev nD) (r : Ref sig .tc) (h : r ∉ hostOps6_W) : B13 m c r = B12 m c r :=
  StableHlo.after_of_writes_sub hostOps6 _ hostOps6_writes h
/-- The same read at the TensorCore's references: what region 6's proof data take. -/
abbrev E13 : (c : Dev nD) → (b : Ref sig .tc) → Buf (Elt F) ((c : Thread nD τ).loc b) := fun c b => B13 m c b
/-- At region 6's exit: its arrays at what the write-backs leave, every other buffer as entered. -/
def B14 (c : Dev nD) : Valuation τ sig (Elt F) :=
  Pipeline.withArrays spec6 c (B13 m c) fun w => (dat6 (E13 m) c).arrAt w cfg6.N
theorem B14_arr (c : Dev nD) (w : Fin cfg6.W) :
    B14 m c (Proc.devRef .tc (Pipeline.arrRef spec6 w)) = (dat6 (E13 m) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m c (Proc.devRef .tc b) = B13 m c (Proc.devRef .tc b) := by
  unfold B14; exact Pipeline.withArrays_of_ne spec6 c _ _ b hb
abbrev X14 : (c : Dev nD) → (b : Ref sig .tc) → Buf (Elt F) ((c : Thread nD τ).loc b) := fun c b => B14 m c b
theorem hF6 (c : Dev nD) (w : Fin cfg6.W) : (dat6 (E13 m) c).arrAt w cfg6.N = X14 m c (Pipeline.arrRef spec6 w) :=
  (B14_arr m c w).symm
theorem hrest6 (c : Dev nD) : ∀ b, b ∉ Finset.univ.image (Pipeline.arrRef spec6) → X14 m c b = E13 m c b :=
  fun b hb => B14_of_ne m c b fun w e => hb (Finset.mem_image.mpr ⟨w, Finset.mem_univ _, e⟩)
set_option maxHeartbeats 1600000 in
/-- A buffer region 6 does not write passes through it: an array it only reads is handed back as entered. -/
theorem B14_keep (c : Dev nD) (b : Ref sig .tc) (hb : b ∉ ([main_v109] : List (Ref sig .tc))) :
    B14 m c (Proc.devRef .tc b) = B13 m c (Proc.devRef .tc b) := by
  by_cases h : ∃ w, Pipeline.arrRef spec6 w = b
  · obtain ⟨w, rfl⟩ := h
    match w, hb with
    | 0, _ => exact (B14_arr m c 0).trans (((dat6 (E13 m) c).arrAt_in 0 rfl _).trans (A_eq6 (E13 m) c 0))
    | 1, _ => exact (B14_arr m c 1).trans (((dat6 (E13 m) c).arrAt_in 1 rfl _).trans (A_eq6 (E13 m) c 1))
    | 2, _ => exact (B14_arr m c 2).trans (((dat6 (E13 m) c).arrAt_in 2 rfl _).trans (A_eq6 (E13 m) c 2))
    | 3, _ => exact (B14_arr m c 3).trans (((dat6 (E13 m) c).arrAt_in 3 rfl _).trans (A_eq6 (E13 m) c 3))
    | 4, _ => exact (B14_arr m c 4).trans (((dat6 (E13 m) c).arrAt_in 4 rfl _).trans (A_eq6 (E13 m) c 4))
    | 5, _ => exact (B14_arr m c 5).trans (((dat6 (E13 m) c).arrAt_in 5 rfl _).trans (A_eq6 (E13 m) c 5))
    | 6, _ => exact (B14_arr m c 6).trans (((dat6 (E13 m) c).arrAt_in 6 rfl _).trans (A_eq6 (E13 m) c 6))
    | 7, hb => exact absurd (by decide) hb
    | ⟨_ + 8, h⟩, _ => exact absurd h (Nat.not_lt.2 (Nat.le_add_left _ _))
  · exact B14_of_ne m c b fun w e => h ⟨w, e⟩

/-- After the host stretch before region 7. -/
abbrev B15 : Dev nD → Valuation τ sig (Elt F) := fun c => StableHlo.after hostOps7 (B14 m c)
theorem B15_of (c : Dev nD) (r : Ref sig .tc) (h : r ∉ hostOps7_W) : B15 m c r = B14 m c r :=
  StableHlo.after_of_writes_sub hostOps7 _ hostOps7_writes h
/-- The same read at the TensorCore's references: what region 7's proof data take. -/
abbrev E15 : (c : Dev nD) → (b : Ref sig .tc) → Buf (Elt F) ((c : Thread nD τ).loc b) := fun c b => B15 m c b
/-- At region 7's exit: its arrays at what the write-backs leave, every other buffer as entered. -/
def B16 (c : Dev nD) : Valuation τ sig (Elt F) :=
  Pipeline.withArrays spec7 c (B15 m c) fun w => (dat7 (E15 m) c).arrAt w cfg7.N
theorem B16_arr (c : Dev nD) (w : Fin cfg7.W) :
    B16 m c (Proc.devRef .tc (Pipeline.arrRef spec7 w)) = (dat7 (E15 m) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m c (Proc.devRef .tc b) = B15 m c (Proc.devRef .tc b) := by
  unfold B16; exact Pipeline.withArrays_of_ne spec7 c _ _ b hb
abbrev X16 : (c : Dev nD) → (b : Ref sig .tc) → Buf (Elt F) ((c : Thread nD τ).loc b) := fun c b => B16 m c b
theorem hF7 (c : Dev nD) (w : Fin cfg7.W) : (dat7 (E15 m) c).arrAt w cfg7.N = X16 m c (Pipeline.arrRef spec7 w) :=
  (B16_arr m c w).symm
theorem hrest7 (c : Dev nD) : ∀ b, b ∉ Finset.univ.image (Pipeline.arrRef spec7) → X16 m c b = E15 m c b :=
  fun b hb => B16_of_ne m c b fun w e => hb (Finset.mem_image.mpr ⟨w, Finset.mem_univ _, e⟩)
set_option maxHeartbeats 1600000 in
/-- A buffer region 7 does not write passes through it: an array it only reads is handed back as entered. -/
theorem B16_keep (c : Dev nD) (b : Ref sig .tc) (hb : b ∉ ([main_v119] : List (Ref sig .tc))) :
    B16 m c (Proc.devRef .tc b) = B15 m c (Proc.devRef .tc b) := by
  by_cases h : ∃ w, Pipeline.arrRef spec7 w = b
  · obtain ⟨w, rfl⟩ := h
    match w, hb with
    | 0, _ => exact (B16_arr m c 0).trans (((dat7 (E15 m) c).arrAt_in 0 rfl _).trans (A_eq7 (E15 m) c 0))
    | 1, _ => exact (B16_arr m c 1).trans (((dat7 (E15 m) c).arrAt_in 1 rfl _).trans (A_eq7 (E15 m) c 1))
    | 2, _ => exact (B16_arr m c 2).trans (((dat7 (E15 m) c).arrAt_in 2 rfl _).trans (A_eq7 (E15 m) c 2))
    | 3, _ => exact (B16_arr m c 3).trans (((dat7 (E15 m) c).arrAt_in 3 rfl _).trans (A_eq7 (E15 m) c 3))
    | 4, _ => exact (B16_arr m c 4).trans (((dat7 (E15 m) c).arrAt_in 4 rfl _).trans (A_eq7 (E15 m) c 4))
    | 5, _ => exact (B16_arr m c 5).trans (((dat7 (E15 m) c).arrAt_in 5 rfl _).trans (A_eq7 (E15 m) c 5))
    | 6, hb => exact absurd (by decide) hb
    | ⟨_ + 7, h⟩, _ => exact absurd h (Nat.not_lt.2 (Nat.le_add_left _ _))
  · exact B16_of_ne m c b fun w e => h ⟨w, e⟩

/-! ## The proof data family -/

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨_ + 8, h⟩ => absurd h (Nat.not_lt.2 (Nat.le_add_left _ _))

/-! ## No item changes an argument -/

theorem B16_main_arg0 (c : Dev nD) : B16 m c (Proc.devRef .tc main_arg0) = m ((c : Thread nD τ).loc main_arg0) :=
  (B16_keep m c main_arg0 (by decide)).trans <| (B15_of m c main_arg0 (by decide)).trans <| (B14_keep m c main_arg0 (by decide)).trans <| (B13_of m c main_arg0 (by decide)).trans <| (B12_keep m c main_arg0 (by decide)).trans <| (B11_of m c main_arg0 (by decide)).trans <| (B10_keep m c main_arg0 (by decide)).trans <| (B9_of m c main_arg0 (by decide)).trans <| (B8_keep m c main_arg0 (by decide)).trans <| (B7_of m c main_arg0 (by decide)).trans <| (B6_keep m c main_arg0 (by decide)).trans <| (B5_of m c main_arg0 (by decide)).trans <| (B4_keep m c main_arg0 (by decide)).trans <| (B3_of m c main_arg0 (by decide)).trans <| (B2_keep m c main_arg0 (by decide)).trans <| (B1_of m c main_arg0 (by decide))

theorem B16_main_arg1 (c : Dev nD) : B16 m c (Proc.devRef .tc main_arg1) = m ((c : Thread nD τ).loc main_arg1) :=
  (B16_keep m c main_arg1 (by decide)).trans <| (B15_of m c main_arg1 (by decide)).trans <| (B14_keep m c main_arg1 (by decide)).trans <| (B13_of m c main_arg1 (by decide)).trans <| (B12_keep m c main_arg1 (by decide)).trans <| (B11_of m c main_arg1 (by decide)).trans <| (B10_keep m c main_arg1 (by decide)).trans <| (B9_of m c main_arg1 (by decide)).trans <| (B8_keep m c main_arg1 (by decide)).trans <| (B7_of m c main_arg1 (by decide)).trans <| (B6_keep m c main_arg1 (by decide)).trans <| (B5_of m c main_arg1 (by decide)).trans <| (B4_keep m c main_arg1 (by decide)).trans <| (B3_of m c main_arg1 (by decide)).trans <| (B2_keep m c main_arg1 (by decide)).trans <| (B1_of m c main_arg1 (by decide))

theorem B16_main_arg2 (c : Dev nD) : B16 m c (Proc.devRef .tc main_arg2) = m ((c : Thread nD τ).loc main_arg2) :=
  (B16_keep m c main_arg2 (by decide)).trans <| (B15_of m c main_arg2 (by decide)).trans <| (B14_keep m c main_arg2 (by decide)).trans <| (B13_of m c main_arg2 (by decide)).trans <| (B12_keep m c main_arg2 (by decide)).trans <| (B11_of m c main_arg2 (by decide)).trans <| (B10_keep m c main_arg2 (by decide)).trans <| (B9_of m c main_arg2 (by decide)).trans <| (B8_keep m c main_arg2 (by decide)).trans <| (B7_of m c main_arg2 (by decide)).trans <| (B6_keep m c main_arg2 (by decide)).trans <| (B5_of m c main_arg2 (by decide)).trans <| (B4_keep m c main_arg2 (by decide)).trans <| (B3_of m c main_arg2 (by decide)).trans <| (B2_keep m c main_arg2 (by decide)).trans <| (B1_of m c main_arg2 (by decide))

theorem B16_main_arg3 (c : Dev nD) : B16 m c (Proc.devRef .tc main_arg3) = m ((c : Thread nD τ).loc main_arg3) :=
  (B16_keep m c main_arg3 (by decide)).trans <| (B15_of m c main_arg3 (by decide)).trans <| (B14_keep m c main_arg3 (by decide)).trans <| (B13_of m c main_arg3 (by decide)).trans <| (B12_keep m c main_arg3 (by decide)).trans <| (B11_of m c main_arg3 (by decide)).trans <| (B10_keep m c main_arg3 (by decide)).trans <| (B9_of m c main_arg3 (by decide)).trans <| (B8_keep m c main_arg3 (by decide)).trans <| (B7_of m c main_arg3 (by decide)).trans <| (B6_keep m c main_arg3 (by decide)).trans <| (B5_of m c main_arg3 (by decide)).trans <| (B4_keep m c main_arg3 (by decide)).trans <| (B3_of m c main_arg3 (by decide)).trans <| (B2_keep m c main_arg3 (by decide)).trans <| (B1_of m c main_arg3 (by decide))

theorem B16_main_arg4 (c : Dev nD) : B16 m c (Proc.devRef .tc main_arg4) = m ((c : Thread nD τ).loc main_arg4) :=
  (B16_keep m c main_arg4 (by decide)).trans <| (B15_of m c main_arg4 (by decide)).trans <| (B14_keep m c main_arg4 (by decide)).trans <| (B13_of m c main_arg4 (by decide)).trans <| (B12_keep m c main_arg4 (by decide)).trans <| (B11_of m c main_arg4 (by decide)).trans <| (B10_keep m c main_arg4 (by decide)).trans <| (B9_of m c main_arg4 (by decide)).trans <| (B8_keep m c main_arg4 (by decide)).trans <| (B7_of m c main_arg4 (by decide)).trans <| (B6_keep m c main_arg4 (by decide)).trans <| (B5_of m c main_arg4 (by decide)).trans <| (B4_keep m c main_arg4 (by decide)).trans <| (B3_of m c main_arg4 (by decide)).trans <| (B2_keep m c main_arg4 (by decide)).trans <| (B1_of m c main_arg4 (by decide))

theorem B16_main_arg5 (c : Dev nD) : B16 m c (Proc.devRef .tc main_arg5) = m ((c : Thread nD τ).loc main_arg5) :=
  (B16_keep m c main_arg5 (by decide)).trans <| (B15_of m c main_arg5 (by decide)).trans <| (B14_keep m c main_arg5 (by decide)).trans <| (B13_of m c main_arg5 (by decide)).trans <| (B12_keep m c main_arg5 (by decide)).trans <| (B11_of m c main_arg5 (by decide)).trans <| (B10_keep m c main_arg5 (by decide)).trans <| (B9_of m c main_arg5 (by decide)).trans <| (B8_keep m c main_arg5 (by decide)).trans <| (B7_of m c main_arg5 (by decide)).trans <| (B6_keep m c main_arg5 (by decide)).trans <| (B5_of m c main_arg5 (by decide)).trans <| (B4_keep m c main_arg5 (by decide)).trans <| (B3_of m c main_arg5 (by decide)).trans <| (B2_keep m c main_arg5 (by decide)).trans <| (B1_of m c main_arg5 (by decide))

theorem B16_main_arg6 (c : Dev nD) : B16 m c (Proc.devRef .tc main_arg6) = m ((c : Thread nD τ).loc main_arg6) :=
  (B16_keep m c main_arg6 (by decide)).trans <| (B15_of m c main_arg6 (by decide)).trans <| (B14_keep m c main_arg6 (by decide)).trans <| (B13_of m c main_arg6 (by decide)).trans <| (B12_keep m c main_arg6 (by decide)).trans <| (B11_of m c main_arg6 (by decide)).trans <| (B10_keep m c main_arg6 (by decide)).trans <| (B9_of m c main_arg6 (by decide)).trans <| (B8_keep m c main_arg6 (by decide)).trans <| (B7_of m c main_arg6 (by decide)).trans <| (B6_keep m c main_arg6 (by decide)).trans <| (B5_of m c main_arg6 (by decide)).trans <| (B4_keep m c main_arg6 (by decide)).trans <| (B3_of m c main_arg6 (by decide)).trans <| (B2_keep m c main_arg6 (by decide)).trans <| (B1_of m c main_arg6 (by decide))

theorem B16_main_arg7 (c : Dev nD) : B16 m c (Proc.devRef .tc main_arg7) = m ((c : Thread nD τ).loc main_arg7) :=
  (B16_keep m c main_arg7 (by decide)).trans <| (B15_of m c main_arg7 (by decide)).trans <| (B14_keep m c main_arg7 (by decide)).trans <| (B13_of m c main_arg7 (by decide)).trans <| (B12_keep m c main_arg7 (by decide)).trans <| (B11_of m c main_arg7 (by decide)).trans <| (B10_keep m c main_arg7 (by decide)).trans <| (B9_of m c main_arg7 (by decide)).trans <| (B8_keep m c main_arg7 (by decide)).trans <| (B7_of m c main_arg7 (by decide)).trans <| (B6_keep m c main_arg7 (by decide)).trans <| (B5_of m c main_arg7 (by decide)).trans <| (B4_keep m c main_arg7 (by decide)).trans <| (B3_of m c main_arg7 (by decide)).trans <| (B2_keep m c main_arg7 (by decide)).trans <| (B1_of m c main_arg7 (by decide))

theorem B16_main_arg8 (c : Dev nD) : B16 m c (Proc.devRef .tc main_arg8) = m ((c : Thread nD τ).loc main_arg8) :=
  (B16_keep m c main_arg8 (by decide)).trans <| (B15_of m c main_arg8 (by decide)).trans <| (B14_keep m c main_arg8 (by decide)).trans <| (B13_of m c main_arg8 (by decide)).trans <| (B12_keep m c main_arg8 (by decide)).trans <| (B11_of m c main_arg8 (by decide)).trans <| (B10_keep m c main_arg8 (by decide)).trans <| (B9_of m c main_arg8 (by decide)).trans <| (B8_keep m c main_arg8 (by decide)).trans <| (B7_of m c main_arg8 (by decide)).trans <| (B6_keep m c main_arg8 (by decide)).trans <| (B5_of m c main_arg8 (by decide)).trans <| (B4_keep m c main_arg8 (by decide)).trans <| (B3_of m c main_arg8 (by decide)).trans <| (B2_keep m c main_arg8 (by decide)).trans <| (B1_of m c main_arg8 (by decide))

theorem B16_main_arg9 (c : Dev nD) : B16 m c (Proc.devRef .tc main_arg9) = m ((c : Thread nD τ).loc main_arg9) :=
  (B16_keep m c main_arg9 (by decide)).trans <| (B15_of m c main_arg9 (by decide)).trans <| (B14_keep m c main_arg9 (by decide)).trans <| (B13_of m c main_arg9 (by decide)).trans <| (B12_keep m c main_arg9 (by decide)).trans <| (B11_of m c main_arg9 (by decide)).trans <| (B10_keep m c main_arg9 (by decide)).trans <| (B9_of m c main_arg9 (by decide)).trans <| (B8_keep m c main_arg9 (by decide)).trans <| (B7_of m c main_arg9 (by decide)).trans <| (B6_keep m c main_arg9 (by decide)).trans <| (B5_of m c main_arg9 (by decide)).trans <| (B4_keep m c main_arg9 (by decide)).trans <| (B3_of m c main_arg9 (by decide)).trans <| (B2_keep m c main_arg9 (by decide)).trans <| (B1_of m c main_arg9 (by decide))

theorem B16_main_arg10 (c : Dev nD) : B16 m c (Proc.devRef .tc main_arg10) = m ((c : Thread nD τ).loc main_arg10) :=
  (B16_keep m c main_arg10 (by decide)).trans <| (B15_of m c main_arg10 (by decide)).trans <| (B14_keep m c main_arg10 (by decide)).trans <| (B13_of m c main_arg10 (by decide)).trans <| (B12_keep m c main_arg10 (by decide)).trans <| (B11_of m c main_arg10 (by decide)).trans <| (B10_keep m c main_arg10 (by decide)).trans <| (B9_of m c main_arg10 (by decide)).trans <| (B8_keep m c main_arg10 (by decide)).trans <| (B7_of m c main_arg10 (by decide)).trans <| (B6_keep m c main_arg10 (by decide)).trans <| (B5_of m c main_arg10 (by decide)).trans <| (B4_keep m c main_arg10 (by decide)).trans <| (B3_of m c main_arg10 (by decide)).trans <| (B2_keep m c main_arg10 (by decide)).trans <| (B1_of m c main_arg10 (by decide))

theorem B16_main_arg11 (c : Dev nD) : B16 m c (Proc.devRef .tc main_arg11) = m ((c : Thread nD τ).loc main_arg11) :=
  (B16_keep m c main_arg11 (by decide)).trans <| (B15_of m c main_arg11 (by decide)).trans <| (B14_keep m c main_arg11 (by decide)).trans <| (B13_of m c main_arg11 (by decide)).trans <| (B12_keep m c main_arg11 (by decide)).trans <| (B11_of m c main_arg11 (by decide)).trans <| (B10_keep m c main_arg11 (by decide)).trans <| (B9_of m c main_arg11 (by decide)).trans <| (B8_keep m c main_arg11 (by decide)).trans <| (B7_of m c main_arg11 (by decide)).trans <| (B6_keep m c main_arg11 (by decide)).trans <| (B5_of m c main_arg11 (by decide)).trans <| (B4_keep m c main_arg11 (by decide)).trans <| (B3_of m c main_arg11 (by decide)).trans <| (B2_keep m c main_arg11 (by decide)).trans <| (B1_of m c main_arg11 (by decide))

theorem B16_main_arg12 (c : Dev nD) : B16 m c (Proc.devRef .tc main_arg12) = m ((c : Thread nD τ).loc main_arg12) :=
  (B16_keep m c main_arg12 (by decide)).trans <| (B15_of m c main_arg12 (by decide)).trans <| (B14_keep m c main_arg12 (by decide)).trans <| (B13_of m c main_arg12 (by decide)).trans <| (B12_keep m c main_arg12 (by decide)).trans <| (B11_of m c main_arg12 (by decide)).trans <| (B10_keep m c main_arg12 (by decide)).trans <| (B9_of m c main_arg12 (by decide)).trans <| (B8_keep m c main_arg12 (by decide)).trans <| (B7_of m c main_arg12 (by decide)).trans <| (B6_keep m c main_arg12 (by decide)).trans <| (B5_of m c main_arg12 (by decide)).trans <| (B4_keep m c main_arg12 (by decide)).trans <| (B3_of m c main_arg12 (by decide)).trans <| (B2_keep m c main_arg12 (by decide)).trans <| (B1_of m c main_arg12 (by decide))

theorem B16_main_arg13 (c : Dev nD) : B16 m c (Proc.devRef .tc main_arg13) = m ((c : Thread nD τ).loc main_arg13) :=
  (B16_keep m c main_arg13 (by decide)).trans <| (B15_of m c main_arg13 (by decide)).trans <| (B14_keep m c main_arg13 (by decide)).trans <| (B13_of m c main_arg13 (by decide)).trans <| (B12_keep m c main_arg13 (by decide)).trans <| (B11_of m c main_arg13 (by decide)).trans <| (B10_keep m c main_arg13 (by decide)).trans <| (B9_of m c main_arg13 (by decide)).trans <| (B8_keep m c main_arg13 (by decide)).trans <| (B7_of m c main_arg13 (by decide)).trans <| (B6_keep m c main_arg13 (by decide)).trans <| (B5_of m c main_arg13 (by decide)).trans <| (B4_keep m c main_arg13 (by decide)).trans <| (B3_of m c main_arg13 (by decide)).trans <| (B2_keep m c main_arg13 (by decide)).trans <| (B1_of m c main_arg13 (by decide))

theorem B16_main_arg14 (c : Dev nD) : B16 m c (Proc.devRef .tc main_arg14) = m ((c : Thread nD τ).loc main_arg14) :=
  (B16_keep m c main_arg14 (by decide)).trans <| (B15_of m c main_arg14 (by decide)).trans <| (B14_keep m c main_arg14 (by decide)).trans <| (B13_of m c main_arg14 (by decide)).trans <| (B12_keep m c main_arg14 (by decide)).trans <| (B11_of m c main_arg14 (by decide)).trans <| (B10_keep m c main_arg14 (by decide)).trans <| (B9_of m c main_arg14 (by decide)).trans <| (B8_keep m c main_arg14 (by decide)).trans <| (B7_of m c main_arg14 (by decide)).trans <| (B6_keep m c main_arg14 (by decide)).trans <| (B5_of m c main_arg14 (by decide)).trans <| (B4_keep m c main_arg14 (by decide)).trans <| (B3_of m c main_arg14 (by decide)).trans <| (B2_keep m c main_arg14 (by decide)).trans <| (B1_of m c main_arg14 (by decide))

theorem B16_main_arg15 (c : Dev nD) : B16 m c (Proc.devRef .tc main_arg15) = m ((c : Thread nD τ).loc main_arg15) :=
  (B16_keep m c main_arg15 (by decide)).trans <| (B15_of m c main_arg15 (by decide)).trans <| (B14_keep m c main_arg15 (by decide)).trans <| (B13_of m c main_arg15 (by decide)).trans <| (B12_keep m c main_arg15 (by decide)).trans <| (B11_of m c main_arg15 (by decide)).trans <| (B10_keep m c main_arg15 (by decide)).trans <| (B9_of m c main_arg15 (by decide)).trans <| (B8_keep m c main_arg15 (by decide)).trans <| (B7_of m c main_arg15 (by decide)).trans <| (B6_keep m c main_arg15 (by decide)).trans <| (B5_of m c main_arg15 (by decide)).trans <| (B4_keep m c main_arg15 (by decide)).trans <| (B3_of m c main_arg15 (by decide)).trans <| (B2_keep m c main_arg15 (by decide)).trans <| (B1_of m c main_arg15 (by decide))

theorem B16_main_arg16 (c : Dev nD) : B16 m c (Proc.devRef .tc main_arg16) = m ((c : Thread nD τ).loc main_arg16) :=
  (B16_keep m c main_arg16 (by decide)).trans <| (B15_of m c main_arg16 (by decide)).trans <| (B14_keep m c main_arg16 (by decide)).trans <| (B13_of m c main_arg16 (by decide)).trans <| (B12_keep m c main_arg16 (by decide)).trans <| (B11_of m c main_arg16 (by decide)).trans <| (B10_keep m c main_arg16 (by decide)).trans <| (B9_of m c main_arg16 (by decide)).trans <| (B8_keep m c main_arg16 (by decide)).trans <| (B7_of m c main_arg16 (by decide)).trans <| (B6_keep m c main_arg16 (by decide)).trans <| (B5_of m c main_arg16 (by decide)).trans <| (B4_keep m c main_arg16 (by decide)).trans <| (B3_of m c main_arg16 (by decide)).trans <| (B2_keep m c main_arg16 (by decide)).trans <| (B1_of m c main_arg16 (by decide))

theorem B16_main_arg17 (c : Dev nD) : B16 m c (Proc.devRef .tc main_arg17) = m ((c : Thread nD τ).loc main_arg17) :=
  (B16_keep m c main_arg17 (by decide)).trans <| (B15_of m c main_arg17 (by decide)).trans <| (B14_keep m c main_arg17 (by decide)).trans <| (B13_of m c main_arg17 (by decide)).trans <| (B12_keep m c main_arg17 (by decide)).trans <| (B11_of m c main_arg17 (by decide)).trans <| (B10_keep m c main_arg17 (by decide)).trans <| (B9_of m c main_arg17 (by decide)).trans <| (B8_keep m c main_arg17 (by decide)).trans <| (B7_of m c main_arg17 (by decide)).trans <| (B6_keep m c main_arg17 (by decide)).trans <| (B5_of m c main_arg17 (by decide)).trans <| (B4_keep m c main_arg17 (by decide)).trans <| (B3_of m c main_arg17 (by decide)).trans <| (B2_keep m c main_arg17 (by decide)).trans <| (B1_of m c main_arg17 (by decide))

theorem B16_main_arg18 (c : Dev nD) : B16 m c (Proc.devRef .tc main_arg18) = m ((c : Thread nD τ).loc main_arg18) :=
  (B16_keep m c main_arg18 (by decide)).trans <| (B15_of m c main_arg18 (by decide)).trans <| (B14_keep m c main_arg18 (by decide)).trans <| (B13_of m c main_arg18 (by decide)).trans <| (B12_keep m c main_arg18 (by decide)).trans <| (B11_of m c main_arg18 (by decide)).trans <| (B10_keep m c main_arg18 (by decide)).trans <| (B9_of m c main_arg18 (by decide)).trans <| (B8_keep m c main_arg18 (by decide)).trans <| (B7_of m c main_arg18 (by decide)).trans <| (B6_keep m c main_arg18 (by decide)).trans <| (B5_of m c main_arg18 (by decide)).trans <| (B4_keep m c main_arg18 (by decide)).trans <| (B3_of m c main_arg18 (by decide)).trans <| (B2_keep m c main_arg18 (by decide)).trans <| (B1_of m c main_arg18 (by decide))

/-! ## The results -/

/-- The first result is what the last region leaves in its output array. -/
theorem B16_main_v119 (c : Dev nD) : B16 m c (Proc.devRef .tc main_v119) = (dat7 (E15 m) c).arrAt 6 cfg7.N := B16_arr m c 6
/-- The second result is what the reconstruction region leaves; the last stretch and the last region do not write it. -/
theorem B16_main_v109 (c : Dev nD) : B16 m c (Proc.devRef .tc main_v109) = (dat6 (E13 m) c).arrAt 7 cfg6.N :=
  (B16_keep m c main_v109 (by decide)).trans <| (B15_of m c main_v109 (by decide)).trans <| B14_arr m c 7

end Cert.Kernel.Reg

end
-- ==== Proof.K.Seg.lean ====
/-
  A kernel region as a segment of @main. The region is entered with every buffer of the core at a boundary's contents,
  the generator register at some state and nothing owed; its arrays are split out of the buffers at entry and put back,
  at what the write-backs leave, at exit; the generator register goes into the region's invariant and comes back.
  A stretch of host operations is a segment over the same thread state.
-/
import proofs.«430410_j38371237822819_1_alg».proof.Proof.K.Bnd
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A region as a segment -/

set_option backward.isDefEq.respectTransparency.types false in
/-- Region p over the thread state "every unscoped buffer at the boundary's contents, the generator register at some
    state, nothing owed": entered at Win, left at Wout. Its arrays are split out of the unscoped buffers at entry and put
    back at the exit contents; the generator register goes into the region's invariant and comes back. -/
def mkReg (p : Fin 8) (lf : Pipeline.LaunchFacts (nD := nD) (τ := τ) cfgs p)
    (Win Wout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c, (pdats m p c).recorded 0 = Set.univ)
    (hA : ∀ c w, (pdats m p c).A w = Win c (Proc.devRef .tc (Pipeline.arrRef (Pipeline.pin (pcfgs (F := F)) adm p).spec w)))
    (hΦin : ∀ c, (Pipeline.ΦA (Pipeline.pin (pcfgs (F := F)) adm p).spec c : sProp 𝕄) ⊢ (pdats m p c).Φ 0)
    (hΦout : ∀ c, (pdats m p c).Φ (Fin.last (Pipeline.pin (pcfgs (F := F)) adm p).N) ⊢ (Pipeline.ΦA (Pipeline.pin (pcfgs (F := F)) adm p).spec c : sProp 𝕄))
    (hF : ∀ c w, (pdats m p c).arrAt w (Pipeline.pin (pcfgs (F := F)) adm p).N = Wout c (Proc.devRef .tc (Pipeline.arrRef (Pipeline.pin (pcfgs (F := F)) adm p).spec w)))
    (hrest : ∀ c, ∀ b : Ref sig .tc, b ∉ Finset.univ.image (Pipeline.arrRef (Pipeline.pin (pcfgs (F := F)) adm p).spec) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c]; trivial)
      rw [howed c 0]; iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c (Proc.devRef .tc b)) (fun b => Wout c (Proc.devRef .tc b)) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c _]; iexact HO

end Cert.Kernel.Reg

end
-- ==== Proof.K.Regs.lean ====
/-
  The eight kernel regions as segments, each between the boundary before it and the boundary after it, and @main as the
  list of its sixteen segments: a stretch of host operations from its boundary's contents, then the region.
-/
import proofs.«430410_j38371237822819_1_alg».proof.Proof.K.Seg

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's proof data put no bound on the recorded pairs. -/
theorem rec_eq0 (V : (c : Dev nD) → (b : Ref sig .tc) → Buf (Elt F) ((c : Thread nD τ).loc b)) (c : Dev nD) : (dat0 V c).recorded 0 = Set.univ := rfl
/-- Region 0 between the boundaries 1 and 2. -/
def reg0 : Pipeline.RegionSeg (pcfgs (F := F)) adm (pdats m) () defs₀ 𝒱₀ L lv 0 :=
  mkReg m 0 launch0 (B1 m) (B2 m) (fun c => body_obligation0 (E1 m) c)
    (fun c w => q_eq0 (E1 m) c w) (fun c t => owed_eq0 (E1 m) c t) (fun c => rec_eq0 (E1 m) c)
    (fun c w => A_eq0 (E1 m) c w) (fun c => hin0 (E1 m) c) (fun c => hout0 (E1 m) c)
    (fun c w => hF0 m c w) (fun c => hrest0 m c)

/-- Region 1's proof data put no bound on the recorded pairs. -/
theorem rec_eq1 (V : (c : Dev nD) → (b : Ref sig .tc) → Buf (Elt F) ((c : Thread nD τ).loc b)) (c : Dev nD) : (dat1 V c).recorded 0 = Set.univ := rfl
/-- Region 1 between the boundaries 3 and 4. -/
def reg1 : Pipeline.RegionSeg (pcfgs (F := F)) adm (pdats m) () defs₀ 𝒱₀ L lv 1 :=
  mkReg m 1 launch1 (B3 m) (B4 m) (fun c => body_obligation1 (E3 m) c)
    (fun c w => q_eq1 (E3 m) c w) (fun c t => owed_eq1 (E3 m) c t) (fun c => rec_eq1 (E3 m) c)
    (fun c w => A_eq1 (E3 m) c w) (fun c => hin1 (E3 m) c) (fun c => hout1 (E3 m) c)
    (fun c w => hF1 m c w) (fun c => hrest1 m c)

/-- Region 2's proof data put no bound on the recorded pairs. -/
theorem rec_eq2 (V : (c : Dev nD) → (b : Ref sig .tc) → Buf (Elt F) ((c : Thread nD τ).loc b)) (c : Dev nD) : (dat2 V c).recorded 0 = Set.univ := rfl
/-- Region 2 between the boundaries 5 and 6. -/
def reg2 : Pipeline.RegionSeg (pcfgs (F := F)) adm (pdats m) () defs₀ 𝒱₀ L lv 2 :=
  mkReg m 2 launch2 (B5 m) (B6 m) (fun c => body_obligation2 (E5 m) c)
    (fun c w => q_eq2 (E5 m) c w) (fun c t => owed_eq2 (E5 m) c t) (fun c => rec_eq2 (E5 m) c)
    (fun c w => A_eq2 (E5 m) c w) (fun c => hin2 (E5 m) c) (fun c => hout2 (E5 m) c)
    (fun c w => hF2 m c w) (fun c => hrest2 m c)

/-- Region 3's proof data put no bound on the recorded pairs. -/
theorem rec_eq3 (V : (c : Dev nD) → (b : Ref sig .tc) → Buf (Elt F) ((c : Thread nD τ).loc b)) (c : Dev nD) : (dat3 V c).recorded 0 = Set.univ := rfl
/-- Region 3 between the boundaries 7 and 8. -/
def reg3 : Pipeline.RegionSeg (pcfgs (F := F)) adm (pdats m) () defs₀ 𝒱₀ L lv 3 :=
  mkReg m 3 launch3 (B7 m) (B8 m) (fun c => body_obligation3 (E7 m) c)
    (fun c w => q_eq3 (E7 m) c w) (fun c t => owed_eq3 (E7 m) c t) (fun c => rec_eq3 (E7 m) c)
    (fun c w => A_eq3 (E7 m) c w) (fun c => hin3 (E7 m) c) (fun c => hout3 (E7 m) c)
    (fun c w => hF3 m c w) (fun c => hrest3 m c)

/-- Region 4's proof data put no bound on the recorded pairs. -/
theorem rec_eq4 (V : (c : Dev nD) → (b : Ref sig .tc) → Buf (Elt F) ((c : Thread nD τ).loc b)) (c : Dev nD) : (dat4 V c).recorded 0 = Set.univ := rfl
/-- Region 4 between the boundaries 9 and 10. -/
def reg4 : Pipeline.RegionSeg (pcfgs (F := F)) adm (pdats m) () defs₀ 𝒱₀ L lv 4 :=
  mkReg m 4 launch4 (B9 m) (B10 m) (fun c => body_obligation4 (E9 m) c)
    (fun c w => q_eq4 (E9 m) c w) (fun c t => owed_eq4 (E9 m) c t) (fun c => rec_eq4 (E9 m) c)
    (fun c w => A_eq4 (E9 m) c w) (fun c => hin4 (E9 m) c) (fun c => hout4 (E9 m) c)
    (fun c w => hF4 m c w) (fun c => hrest4 m c)

/-- Region 5's proof data put no bound on the recorded pairs. -/
theorem rec_eq5 (V : (c : Dev nD) → (b : Ref sig .tc) → Buf (Elt F) ((c : Thread nD τ).loc b)) (c : Dev nD) : (dat5 V c).recorded 0 = Set.univ := rfl
/-- Region 5 between the boundaries 11 and 12. -/
def reg5 : Pipeline.RegionSeg (pcfgs (F := F)) adm (pdats m) () defs₀ 𝒱₀ L lv 5 :=
  mkReg m 5 launch5 (B11 m) (B12 m) (fun c => body_obligation5 (E11 m) c)
    (fun c w => q_eq5 (E11 m) c w) (fun c t => owed_eq5 (E11 m) c t) (fun c => rec_eq5 (E11 m) c)
    (fun c w => A_eq5 (E11 m) c w) (fun c => hin5 (E11 m) c) (fun c => hout5 (E11 m) c)
    (fun c w => hF5 m c w) (fun c => hrest5 m c)

/-- Region 6's proof data put no bound on the recorded pairs. -/
theorem rec_eq6 (V : (c : Dev nD) → (b : Ref sig .tc) → Buf (Elt F) ((c : Thread nD τ).loc b)) (c : Dev nD) : (dat6 V c).recorded 0 = Set.univ := rfl
/-- Region 6 between the boundaries 13 and 14. -/
def reg6 : Pipeline.RegionSeg (pcfgs (F := F)) adm (pdats m) () defs₀ 𝒱₀ L lv 6 :=
  mkReg m 6 launch6 (B13 m) (B14 m) (fun c => body_obligation6 (E13 m) c)
    (fun c w => q_eq6 (E13 m) c w) (fun c t => owed_eq6 (E13 m) c t) (fun c => rec_eq6 (E13 m) c)
    (fun c w => A_eq6 (E13 m) c w) (fun c => hin6 (E13 m) c) (fun c => hout6 (E13 m) c)
    (fun c w => hF6 m c w) (fun c => hrest6 m c)

/-- Region 7's proof data put no bound on the recorded pairs. -/
theorem rec_eq7 (V : (c : Dev nD) → (b : Ref sig .tc) → Buf (Elt F) ((c : Thread nD τ).loc b)) (c : Dev nD) : (dat7 V c).recorded 0 = Set.univ := rfl
/-- Region 7 between the boundaries 15 and 16. -/
def reg7 : Pipeline.RegionSeg (pcfgs (F := F)) adm (pdats m) () defs₀ 𝒱₀ L lv 7 :=
  mkReg m 7 launch7 (B15 m) (B16 m) (fun c => body_obligation7 (E15 m) c)
    (fun c w => q_eq7 (E15 m) c w) (fun c t => owed_eq7 (E15 m) c t) (fun c => rec_eq7 (E15 m) c)
    (fun c w => A_eq7 (E15 m) c w) (fun c => hin7 (E15 m) c) (fun c => hout7 (E15 m) c)
    (fun c w => hF7 m c w) (fun c => hrest7 m c)

/-- @main's sixteen segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)),
    .region (reg6 m),
    .host (hseg hostOps7 hostOps7_sub hostOps7_fresh (B14 m)),
    .region (reg7 m) ]

end Cert.Kernel.Reg

end
-- ==== Proof.K.Run.lean ====
/-
  The launch of the whole program over its sixteen segments: from any memory with every semaphore at zero, every weakly
  fair execution terminates, nothing faulting; in every final state the first result holds what the last region leaves
  in its output array, the second what the reconstruction region leaves in its, and every argument its launch contents.
-/
import proofs.«430410_j38371237822819_1_alg».proof.Proof.K.Regs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The last thread state without what is owed: every buffer at the last boundary's contents, the generator register at
    some state. -/
abbrev Tₙ (c : Dev nD) : sProp 𝕄 := iprop(StableHlo.held (c : Thread nD τ) (Pipeline.ucRefs τ sig) (B16 m c) ∗ ∃ r, prngReg c r)

/-! ## The launch -/

set_option backward.isDefEq.respectTransparency.types false in
/-- From any memory with every semaphore at zero, every weakly fair execution of @main terminates, nothing faulting, and
    in every final state the first result holds what the last region leaves in its output array, the second what the
    reconstruction region leaves in its, and every argument holds its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v119) = (dat7 (E15 m) c).arrAt 6 cfg7.N
      ∧ r.2.mem ((c.tc : Thread nD τ).loc main_v109) = (dat6 (E13 m) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (B16 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m c b)
    (hfin := fun c s' => by
      iintro ⟨⟨Hh, -⟩, HSI⟩
      unfold StableHlo.held
      imodintro
      iapply (pointsTo_read_all (Pipeline.ucRefs τ sig) (fun b => (((c : Thread nD τ)).1, b)) (B16 m c) s')
      isplitl [Hh] <;> iassumption)
    (hQ := fun s h c =>
      ⟨(h c _ (mem_uc main_v119 (by decide))).trans (B16_main_v119 m c),
       (h c _ (mem_uc main_v109 (by decide))).trans (B16_main_v109 m c),
       (h c _ (mem_uc main_arg0 (by decide))).trans (B16_main_arg0 m c),
       (h c _ (mem_uc main_arg1 (by decide))).trans (B16_main_arg1 m c),
       (h c _ (mem_uc main_arg2 (by decide))).trans (B16_main_arg2 m c),
       (h c _ (mem_uc main_arg3 (by decide))).trans (B16_main_arg3 m c),
       (h c _ (mem_uc main_arg4 (by decide))).trans (B16_main_arg4 m c),
       (h c _ (mem_uc main_arg5 (by decide))).trans (B16_main_arg5 m c),
       (h c _ (mem_uc main_arg6 (by decide))).trans (B16_main_arg6 m c),
       (h c _ (mem_uc main_arg7 (by decide))).trans (B16_main_arg7 m c),
       (h c _ (mem_uc main_arg8 (by decide))).trans (B16_main_arg8 m c),
       (h c _ (mem_uc main_arg9 (by decide))).trans (B16_main_arg9 m c),
       (h c _ (mem_uc main_arg10 (by decide))).trans (B16_main_arg10 m c),
       (h c _ (mem_uc main_arg11 (by decide))).trans (B16_main_arg11 m c),
       (h c _ (mem_uc main_arg12 (by decide))).trans (B16_main_arg12 m c),
       (h c _ (mem_uc main_arg13 (by decide))).trans (B16_main_arg13 m c),
       (h c _ (mem_uc main_arg14 (by decide))).trans (B16_main_arg14 m c),
       (h c _ (mem_uc main_arg15 (by decide))).trans (B16_main_arg15 m c),
       (h c _ (mem_uc main_arg16 (by decide))).trans (B16_main_arg16 m c),
       (h c _ (mem_uc main_arg17 (by decide))).trans (B16_main_arg17 m c),
       (h c _ (mem_uc main_arg18 (by decide))).trans (B16_main_arg18 m c)⟩)

end Cert.Kernel.Reg

end
-- ==== Proof.KI.Reg0.lean ====
/-
  Region 0 of the program (the first layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index
    has not moved (the weights and the bias are fetched once, their index constant). -/
theorem before0_0_of (V : (c : Dev nD) → (b : Ref sig .tc) → Buf (Elt F) ((c : Thread nD τ).loc b)) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (V : (c : Dev nD) → (b : Ref sig .tc) → Buf (Elt F) ((c : Thread nD τ).loc b)) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (V : (c : Dev nD) → (b : Ref sig .tc) → Buf (Elt F) ((c : Thread nD τ).loc b)) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (V : (c : Dev nD) → (b : Ref sig .tc) → Buf (Elt F) ((c : Thread nD τ).loc b)) {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the zeroing branch, from the grid coordinate (the body's scalar chain substituted): the
    coordinate is 0. -/
abbrev cond0_0 (i : grid0.Coords) : Prop := (Scalar.cmpi .ne (Scalar.extui (Scalar.cmpi .eq (BitVec.ofNat 32 (i 0).val) 0#32)) 0#32) = 1#1
/-- It holds at the first point only — decided over the ten points. -/
theorem hcond0_0 : ∀ t : Fin cfg0.N, cond0_0 (grid0.coords t) ↔ t.val = 0 :=
  (by decide +kernel : ∀ t : Fin grid0.N, cond0_0 (grid0.coords t) ↔ t.val = 0)

/-- The condition of the closing branch (the statistics outputs stored from the accumulators): the coordinate is 9. -/
abbrev cond0_1 (i : grid0.Coords) : Prop := k0_cond2 i = 1#1
/-- It holds at the last point only — decided over the ten points. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

/-- The inputs and the row-tile output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last point the two statistics outputs are idle — the body stores nothing into them — and are not written
    back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The staging and scratch memrefs -/

/-- One staging buffer of each output window, through which its contents are stated (the choice does not matter:
    a covering list of writes reads the same through any view). -/
abbrev VO0_4 : View sig .tc .vmem S5000x128 .f32 := (Memref.whole cc0_stg4_0 : Memref sig .tc .vmem S5000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
/-- Each window's current staging memref at point `t`, spelled as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The two accumulators (column sums, column sums of squares): whole scoped buffers of the kernel's own, passed
    beside the windows, and the views through which their contents are stated. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two accumulators as memrefs owned at some contents, the other scoped buffers of the
    core (the other regions' staging and scratch) unopened, and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__gin_stats_kernel_eq_skeleton]; unfold cc0__gin_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3).2.1)
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 xs0 xs1).2.1)
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt0 (V : (c : Dev nD) → (b : Ref sig .tc) → Buf (Elt F) ((c : Thread nD τ).loc b)) (c : Dev nD) : (n : ℕ) → n < cfg0.N → Vec F S5000x128 .f32 × Vec F S1x128 .f32 × Vec F S1x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 by decide)) (iblk0 V c 0 ⟨0, hn⟩) (iblk0 V c 1 ⟨0, hn⟩) (iblk0 V c 2 ⟨0, hn⟩) (iblk0 V c 3 ⟨0, hn⟩))
  | n + 1, hn =>
    if h1 : n + 1 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1 (outsAt0 V c n (Nat.lt_of_succ_lt hn)).2.2.2.2)

/-- `outsAt0` at the first point: that case's contents. -/
theorem outsAt0_A (V : (c : Dev nD) → (b : Ref sig .tc) → Buf (Elt F) ((c : Thread nD τ).loc b)) (c : Dev nD) (t : Fin cfg0.N) (h0 : t.val = 0) (h1 : ¬t.val = 9) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `outsAt0` at a middle point: that case's contents, over what the point before left in the accumulators. -/
theorem outsAt0_B (V : (c : Dev nD) → (b : Ref sig .tc) → Buf (Elt F) ((c : Thread nD τ).loc b)) (c : Dev nD) (t : Fin cfg0.N) (h0 : ¬t.val = 0) (h1 : ¬t.val = 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: that case's contents, over what the point before left in the accumulators. -/
theorem outsAt0_C (V : (c : Dev nD) → (b : Ref sig .tc) → Buf (Elt F) ((c : Thread nD τ).loc b)) (c : Dev nD) (t : Fin cfg0.N) (h0 : ¬t.val = 0) (h1 : t.val = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt0`'s last two components), the
    other scoped buffers unopened, and the generator register at some state. -/
def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (V : (c : Dev nD) → (b : Ref sig .tc) → Buf (Elt F) ((c : Thread nD τ).loc b)) (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (V : (c : Dev nD) → (b : Ref sig .tc) → Buf (Elt F) ((c : Thread nD τ).loc b)) (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2)
          ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (V : (c : Dev nD) → (b : Ref sig .tc) → Buf (Elt F) ((c : Thread nD τ).loc b)) (c : Dev nD) (n : ℕ) (h : n ≤ cfg0.N) (hz : ¬n = 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the outputs' at `outsAt0`'s components; the invariant `PhiS0`; nothing owed;
    full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

/-- The proof data's arrays are the region-entry contents (the definition projected, never unfolded through `V`). -/
theorem A_eq0 (V : (c : Dev nD) → (b : Ref sig .tc) → Buf (Elt F) ((c : Thread nD τ).loc b)) (c : Dev nD) (w : Fin cfg0.W) : (dat0 V c).A w = V c (Pipeline.arrRef spec0 w) := by
  dsimp only [dat0]
theorem q_eq0 (V : (c : Dev nD) → (b : Ref sig .tc) → Buf (Elt F) ((c : Thread nD τ).loc b)) (c : Dev nD) (w : Fin cfg0.W) : (dat0 V c).q w = fullShare := by
  dsimp only [dat0]
theorem owed_eq0 (V : (c : Dev nD) → (b : Ref sig .tc) → Buf (Elt F) ((c : Thread nD τ).loc b)) (c : Dev nD) (t : Fin (cfg0.N + 1)) : (dat0 V c).owed t = 0 := by
  dsimp only [dat0]

/-- The invariant at a point's start, restated at `t.val`. -/
theorem PhiS0_castSucc (V : (c : Dev nD) → (b : Ref sig .tc) → Buf (Elt F) ((c : Thread nD τ).loc b)) (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced). -/
theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = iblk0 V c 3 t := by dsimp only [dat0]
theorem after0_4 (V : (c : Dev nD) → (b : Ref sig .tc) → Buf (Elt F) ((c : Thread nD τ).loc b)) (c : Dev nD) (t : Fin cfg0.N) : (dat0 V c).after 4 t = (outsAt0 V c t.val t.isLt).1 := by dsimp only [dat0]
theorem after0_5 (V : (c : Dev nD) → (b : Ref sig .tc) → Buf (Elt F) ((c : Thread nD τ).loc b)) (c : Dev nD) (t : Fin cfg0.N) : (dat0 V c).after 5 t = (outsAt0 V c t.val t.isLt).2.1 := by dsimp only [dat0]
theorem after0_6 (V : (c : Dev nD) → (b : Ref sig .tc) → Buf (Elt F) ((c : Thread nD τ).loc b)) (c : Dev nD) (t : Fin cfg0.N) : (dat0 V c).after 6 t = (outsAt0 V c t.val t.isLt).2.2.1 := by dsimp only [dat0]

/-- Each input's current staging buffer holds its block at every point, fetched there or not. -/
theorem before0_0 (V : (c : Dev nD) → (b : Ref sig .tc) → Buf (Elt F) ((c : Thread nD τ).loc b)) (c : Dev nD) (t : Fin cfg0.N) (d) : (dat0 V c).before 0 t d = iblk0 V c 0 t :=
  before0_0_of V (dat0 V c) (A_eq0 V c 0) (after0_0 V c) t d
theorem before0_1 (V : (c : Dev nD) → (b : Ref sig .tc) → Buf (Elt F) ((c : Thread nD τ).loc b)) (c : Dev nD) (t : Fin cfg0.N) (d) : (dat0 V c).before 1 t d = iblk0 V c 1 t :=
  before0_1_of V (dat0 V c) (A_eq0 V c 1) (after0_1 V c) t d
theorem before0_2 (V : (c : Dev nD) → (b : Ref sig .tc) → Buf (Elt F) ((c : Thread nD τ).loc b)) (c : Dev nD) (t : Fin cfg0.N) (d) : (dat0 V c).before 2 t d = iblk0 V c 2 t :=
  before0_2_of V (dat0 V c) (A_eq0 V c 2) (after0_2 V c) t d
theorem before0_3 (V : (c : Dev nD) → (b : Ref sig .tc) → Buf (Elt F) ((c : Thread nD τ).loc b)) (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the obligation's precondition, the windows one by one), -/
def bodyPre0 (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body0 (V : (c : Dev nD) → (b : Ref sig .tc) → Buf (Elt F) ((c : Thread nD τ).loc b)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 sout0_A_0 sout0_A_1; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]; · iexists _; iexact H5
    iexists _; iexact H6
  · by_cases h1 : t.val = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_4 out0_C_5 out0_C_6 sout0_C_0 sout0_C_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_4 sout0_B_0 sout0_B_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-- What the launch hands the region (the class invariant) is the invariant before the first point. -/
theorem hin0 (V : (c : Dev nD) → (b : Ref sig .tc) → Buf (Elt F) ((c : Thread nD τ).loc b)) (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulators' named contents are
    forgotten. -/
theorem Phi_out0 (V : (c : Dev nD) → (b : Ref sig .tc) → Buf (Elt F) ((c : Thread nD τ).loc b)) (c : Dev nD) (t : Fin (cfg0.N + 1)) (ht : ¬t.val = 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (V : (c : Dev nD) → (b : Ref sig .tc) → Buf (Elt F) ((c : Thread nD τ).loc b)) (c : Dev nD) : (dat0 V c).Φ (Fin.last cfg0.N) ⊢ (Pipeline.ΦA spec0 c : sProp 𝕄) :=
  Phi_out0 V c _ (by rw [Fin.val_last]; have : cfg0.N = 10 := N_0; omega)

end Cert.KernelIdeal.Reg

end
-- ==== Proof.KI.Reg1.lean ====
/-
  Region 1 of the program (the first layer's normalisation, rectifier and second linear map), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or not (a
    window not fetched at a point has not moved its block index), for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or not (a
    window not fetched at a point has not moved its block index), for any proof data whose array is V's and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or not (a
    window not fetched at a point has not moved its block index), for any proof data whose array is V's and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or not (a
    window not fetched at a point has not moved its block index), for any proof data whose array is V's and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or not (a
    window not fetched at a point has not moved its block index), for any proof data whose array is V's and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether it was fetched there or not (a
    window not fetched at a point has not moved its block index), for any proof data whose array is V's and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether it was fetched there or not (a
    window not fetched at a point has not moved its block index), for any proof data whose array is V's and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000 x 128 block, -/
abbrev r1_0 : Rect S5000x128 := Rect.unit (s := S5000x128) ![0, 0] S5000x128.size inb_S5000x128_S5000x128_0_0
/-- a whole 1 x 128 row, -/
abbrev r1_1 : Rect S1x128 := Rect.unit (s := S1x128) ![0, 0] S1x128.size inb_S1x128_S1x128_0_0
/-- and the whole 128 x 128 weight matrix. -/
abbrev r1_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out1_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r1_0, k1_pay1 (View.ld x0 r1_0) (View.ld x3 r1_1) (View.ld x1 r1_1) (View.ld x2 r1_1) (View.ld x4 r1_1) (View.ld x5 r1_2) (View.ld x6 r1_1)⟩]

/-- The one store is the whole buffer, so it covers it. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents x0 … x6 and the output's at anything, runs to
    the continuation holding the inputs' as they were and the output's at out1_7 of the inputs': the printed function
    is its skeleton of loads and one store over the payload. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_apply_kernel i arg1 harg1 arg2 harg2 arg3 harg3 arg4 harg4 arg5 harg5 arg6 harg6 arg7 harg7 arg8 harg8) K := by
  simp only [cc1__gin_apply_kernel_eq_skeleton]; unfold cc1__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c, its arrays the region-entry contents V: after the body at point t each
    input's buffer holds its block and the output's holds out1_7 of the input blocks; the invariant between points is the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]
/-- Full shares of every window's array. -/
theorem q_eq1 (c : Dev nD) (w : Fin cfg1.W) : (dat1 V c).q w = fullShare := by
  dsimp only [dat1]
/-- Nothing is owed at any point. -/
theorem owed_eq1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) :
    BodyObligation (dat1 (F := F) V c) (defs₀ (F := F)) Variants.none () Set.univ := fun t => by
  rw [bigSep_W1, bigSep_W1]
  exact sound_body1 V c t

/-- The class invariant is the invariant before the first point, -/
theorem hin1 (c : Dev nD) : (Pipeline.ΦA spec1 c : sProp 𝕄) ⊢ (dat1 V c).Φ 0 := Entails.refl _
/-- and the invariant after the last point gives it back. -/
theorem hout1 (c : Dev nD) : (dat1 V c).Φ (Fin.last cfg1.N) ⊢ (Pipeline.ΦA spec1 c : sProp 𝕄) := Entails.refl _

end Region

end Cert.KernelIdeal.Reg

end
-- ==== Proof.KI.Reg2.lean ====
/-
  Region 2 of the program (the second layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): unfetched, the block index
    has not moved (the weights and the bias are fetched once, their index constant). -/
theorem before2_0_of (V : (c : Dev nD) → (b : Ref sig .tc) → Buf (Elt F) ((c : Thread nD τ).loc b)) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (V : (c : Dev nD) → (b : Ref sig .tc) → Buf (Elt F) ((c : Thread nD τ).loc b)) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (V : (c : Dev nD) → (b : Ref sig .tc) → Buf (Elt F) ((c : Thread nD τ).loc b)) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of (V : (c : Dev nD) → (b : Ref sig .tc) → Buf (Elt F) ((c : Thread nD τ).loc b)) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the zeroing branch, from the grid coordinate (the body's scalar chain substituted): the
    coordinate is 0. -/
abbrev cond2_0 (i : grid2.Coords) : Prop := (Scalar.cmpi .ne (Scalar.extui (Scalar.cmpi .eq (BitVec.ofNat 32 (i 0).val) 0#32)) 0#32) = 1#1
/-- It holds at the first point only — decided over the ten points. -/
theorem hcond2_0 : ∀ t : Fin cfg2.N, cond2_0 (grid2.coords t) ↔ t.val = 0 :=
  (by decide +kernel : ∀ t : Fin grid2.N, cond2_0 (grid2.coords t) ↔ t.val = 0)

/-- The condition of the closing branch (the statistics outputs stored from the accumulators): the coordinate is 9. -/
abbrev cond2_1 (i : grid2.Coords) : Prop := k2_cond2 i = 1#1
/-- It holds at the last point only — decided over the ten points. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

/-- The inputs and the row-tile output are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last point the two statistics outputs are idle — the body stores nothing into them — and are not written
    back; at the last point they are live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging and scratch memrefs -/

/-- One staging buffer of each output window, through which its contents are stated (the choice does not matter:
    a covering list of writes reads the same through any view). -/
abbrev VO2_4 : View sig .tc .vmem S5000x128 .f32 := (Memref.whole cc2_stg4_0 : Memref sig .tc .vmem S5000x128 .f32).view
abbrev VO2_5 : View sig .tc .vmem S1x128 .f32 := (Memref.whole cc2_stg5_0 : Memref sig .tc .vmem S1x128 .f32).view
abbrev VO2_6 : View sig .tc .vmem S1x128 .f32 := (Memref.whole cc2_stg6_0 : Memref sig .tc .vmem S1x128 .f32).view
/-- Each window's current staging memref at point `t`, spelled as the pipeline passes it to the body, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
/-- The two accumulators (column sums, column sums of squares): whole scoped buffers of the kernel's own, passed
    beside the windows, and the views through which their contents are stated. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two accumulators as memrefs owned at some contents, the other scoped buffers of the
    core (the other regions' staging and scratch) unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover2_A_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out2_A_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S5000x128 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 hc0 hc1 x0 x1 x2 x3).2.1)
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover2_B_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out2_B_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 hc0 hc1 x0 x1 x2 x3 xs0 xs1).2.1)
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out2_C_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt2 (V : (c : Dev nD) → (b : Ref sig .tc) → Buf (Elt F) ((c : Thread nD τ).loc b)) (c : Dev nD) : (n : ℕ) → n < cfg2.N → Vec F S5000x128 .f32 × Vec F S1x128 .f32 × Vec F S1x128 .f32 × Vec F S1x128 .f32 × Vec F S1x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 by decide)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.2.2.1 (outsAt2 V c n (Nat.lt_of_succ_lt hn)).2.2.2.2)

/-- `outsAt2` at the first point: that case's contents. -/
theorem outsAt2_A (V : (c : Dev nD) → (b : Ref sig .tc) → Buf (Elt F) ((c : Thread nD τ).loc b)) (c : Dev nD) (t : Fin cfg2.N) (h0 : t.val = 0) (h1 : ¬t.val = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- `outsAt2` at a middle point: that case's contents, over what the point before left in the accumulators. -/
theorem outsAt2_B (V : (c : Dev nD) → (b : Ref sig .tc) → Buf (Elt F) ((c : Thread nD τ).loc b)) (c : Dev nD) (t : Fin cfg2.N) (h0 : ¬t.val = 0) (h1 : ¬t.val = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: that case's contents, over what the point before left in the accumulators. -/
theorem outsAt2_C (V : (c : Dev nD) → (b : Ref sig .tc) → Buf (Elt F) ((c : Thread nD τ).loc b)) (c : Dev nD) (t : Fin cfg2.N) (h0 : ¬t.val = 0) (h1 : t.val = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt2`'s last two components), the
    other scoped buffers unopened, and the generator register at some state. -/
def PhiS2 (V : (c : Dev nD) → (b : Ref sig .tc) → Buf (Elt F) ((c : Thread nD τ).loc b)) (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (V : (c : Dev nD) → (b : Ref sig .tc) → Buf (Elt F) ((c : Thread nD τ).loc b)) (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (V : (c : Dev nD) → (b : Ref sig .tc) → Buf (Elt F) ((c : Thread nD τ).loc b)) (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2)
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (V : (c : Dev nD) → (b : Ref sig .tc) → Buf (Elt F) ((c : Thread nD τ).loc b)) (c : Dev nD) (n : ℕ) (h : n ≤ cfg2.N) (hz : ¬n = 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed;
    full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

/-- The proof data's arrays are the region-entry contents (the definition projected, never unfolded through `V`). -/
theorem A_eq2 (V : (c : Dev nD) → (b : Ref sig .tc) → Buf (Elt F) ((c : Thread nD τ).loc b)) (c : Dev nD) (w : Fin cfg2.W) : (dat2 V c).A w = V c (Pipeline.arrRef spec2 w) := by
  dsimp only [dat2]
theorem q_eq2 (V : (c : Dev nD) → (b : Ref sig .tc) → Buf (Elt F) ((c : Thread nD τ).loc b)) (c : Dev nD) (w : Fin cfg2.W) : (dat2 V c).q w = fullShare := by
  dsimp only [dat2]
theorem owed_eq2 (V : (c : Dev nD) → (b : Ref sig .tc) → Buf (Elt F) ((c : Thread nD τ).loc b)) (c : Dev nD) (t : Fin (cfg2.N + 1)) : (dat2 V c).owed t = 0 := by
  dsimp only [dat2]

/-- The invariant at a point's start, restated at `t.val`. -/
theorem PhiS2_castSucc (V : (c : Dev nD) → (b : Ref sig .tc) → Buf (Elt F) ((c : Thread nD τ).loc b)) (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (V : (c : Dev nD) → (b : Ref sig .tc) → Buf (Elt F) ((c : Thread nD τ).loc b)) (c : Dev nD) (t : Fin cfg2.N) : (dat2 V c).after 0 t = iblk2 V c 0 t := by dsimp only [dat2]
theorem after2_1 (V : (c : Dev nD) → (b : Ref sig .tc) → Buf (Elt F) ((c : Thread nD τ).loc b)) (c : Dev nD) (t : Fin cfg2.N) : (dat2 V c).after 1 t = iblk2 V c 1 t := by dsimp only [dat2]
theorem after2_2 (V : (c : Dev nD) → (b : Ref sig .tc) → Buf (Elt F) ((c : Thread nD τ).loc b)) (c : Dev nD) (t : Fin cfg2.N) : (dat2 V c).after 2 t = iblk2 V c 2 t := by dsimp only [dat2]
theorem after2_3 (V : (c : Dev nD) → (b : Ref sig .tc) → Buf (Elt F) ((c : Thread nD τ).loc b)) (c : Dev nD) (t : Fin cfg2.N) : (dat2 V c).after 3 t = iblk2 V c 3 t := by dsimp only [dat2]
theorem after2_4 (V : (c : Dev nD) → (b : Ref sig .tc) → Buf (Elt F) ((c : Thread nD τ).loc b)) (c : Dev nD) (t : Fin cfg2.N) : (dat2 V c).after 4 t = (outsAt2 V c t.val t.isLt).1 := by dsimp only [dat2]
theorem after2_5 (V : (c : Dev nD) → (b : Ref sig .tc) → Buf (Elt F) ((c : Thread nD τ).loc b)) (c : Dev nD) (t : Fin cfg2.N) : (dat2 V c).after 5 t = (outsAt2 V c t.val t.isLt).2.1 := by dsimp only [dat2]
theorem after2_6 (V : (c : Dev nD) → (b : Ref sig .tc) → Buf (Elt F) ((c : Thread nD τ).loc b)) (c : Dev nD) (t : Fin cfg2.N) : (dat2 V c).after 6 t = (outsAt2 V c t.val t.isLt).2.2.1 := by dsimp only [dat2]

/-- Each input's current staging buffer holds its block at every point, fetched there or not. -/
theorem before2_0 (V : (c : Dev nD) → (b : Ref sig .tc) → Buf (Elt F) ((c : Thread nD τ).loc b)) (c : Dev nD) (t : Fin cfg2.N) (d) : (dat2 V c).before 0 t d = iblk2 V c 0 t :=
  before2_0_of V (dat2 V c) (A_eq2 V c 0) (after2_0 V c) t d
theorem before2_1 (V : (c : Dev nD) → (b : Ref sig .tc) → Buf (Elt F) ((c : Thread nD τ).loc b)) (c : Dev nD) (t : Fin cfg2.N) (d) : (dat2 V c).before 1 t d = iblk2 V c 1 t :=
  before2_1_of V (dat2 V c) (A_eq2 V c 1) (after2_1 V c) t d
theorem before2_2 (V : (c : Dev nD) → (b : Ref sig .tc) → Buf (Elt F) ((c : Thread nD τ).loc b)) (c : Dev nD) (t : Fin cfg2.N) (d) : (dat2 V c).before 2 t d = iblk2 V c 2 t :=
  before2_2_of V (dat2 V c) (A_eq2 V c 2) (after2_2 V c) t d
theorem before2_3 (V : (c : Dev nD) → (b : Ref sig .tc) → Buf (Elt F) ((c : Thread nD τ).loc b)) (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the obligation's precondition, the windows one by one), -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [Dat.leavesExact_idle (dat2 V c) 6 t (idleAt2_6 t (fun h => h1 ((hcond2_1 t).mp h))) (noFlush2_6 t (fun h => h1 ((hcond2_1 t).mp h)))]
    rw [outsAt2_A V c t h0 h1]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _ _ _)
    isplitl [H5]; · iexists _; iexact H5
    iexists _; iexact H6
  · by_cases h1 : t.val = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_4 out2_C_5 out2_C_6 sout2_C_0 sout2_C_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold out2_B_4 sout2_B_0 sout2_B_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _ _ _)
      isplitl [H5]; · iexists _; iexact H5
      iexists _; iexact H6

/-- The library's body obligation, at every point. -/
theorem body_obligation2 (V : (c : Dev nD) → (b : Ref sig .tc) → Buf (Elt F) ((c : Thread nD τ).loc b)) (c : Dev nD) :
    BodyObligation (dat2 (F := F) V c) (defs₀ (F := F)) Variants.none () Set.univ := fun t => by
  rw [bigSep_W2, bigSep_W2]
  exact sound_body2 V c t

/-- What the launch hands the region (the class invariant) is the invariant before the first point. -/
theorem hin2 (V : (c : Dev nD) → (b : Ref sig .tc) → Buf (Elt F) ((c : Thread nD τ).loc b)) (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulators' named contents are
    forgotten. -/
theorem Phi_out2 (V : (c : Dev nD) → (b : Ref sig .tc) → Buf (Elt F) ((c : Thread nD τ).loc b)) (c : Dev nD) (t : Fin (cfg2.N + 1)) (ht : ¬t.val = 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (V : (c : Dev nD) → (b : Ref sig .tc) → Buf (Elt F) ((c : Thread nD τ).loc b)) (c : Dev nD) : (dat2 V c).Φ (Fin.last cfg2.N) ⊢ (Pipeline.ΦA spec2 c : sProp 𝕄) :=
  Phi_out2 V c _ (by rw [Fin.val_last]; have : cfg2.N = 10 := N_2; omega)

end Cert.KernelIdeal.Reg

end
-- ==== Proof.KI.Reg3.lean ====
/-
  Region 3 of the program (the second layer's normalisation and second linear map), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not (a
    window not fetched at a point has not moved its block index), for any proof data whose array is V's and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or not (a
    window not fetched at a point has not moved its block index), for any proof data whose array is V's and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or not (a
    window not fetched at a point has not moved its block index), for any proof data whose array is V's and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether it was fetched there or not (a
    window not fetched at a point has not moved its block index), for any proof data whose array is V's and whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether it was fetched there or not (a
    window not fetched at a point has not moved its block index), for any proof data whose array is V's and whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether it was fetched there or not (a
    window not fetched at a point has not moved its block index), for any proof data whose array is V's and whose
    body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether it was fetched there or not (a
    window not fetched at a point has not moved its block index), for any proof data whose array is V's and whose
    body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000 x 128 block, -/
abbrev r3_0 : Rect S5000x128 := Rect.unit (s := S5000x128) ![0, 0] S5000x128.size inb_S5000x128_S5000x128_0_0
/-- a whole 1 x 128 row, -/
abbrev r3_1 : Rect S1x128 := Rect.unit (s := S1x128) ![0, 0] S1x128.size inb_S1x128_S1x128_0_0
/-- and the whole 128 x 128 weight matrix. -/
abbrev r3_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out3_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r3_0, k3_pay1 (View.ld x0 r3_0) (View.ld x3 r3_1) (View.ld x1 r3_1) (View.ld x2 r3_1) (View.ld x4 r3_1) (View.ld x5 r3_2) (View.ld x6 r3_1)⟩]

/-- The one store is the whole buffer, so it covers it. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents x0 … x6 and the output's at anything, runs to
    the continuation holding the inputs' as they were and the output's at out3_7 of the inputs': the printed function
    is its skeleton of loads and one store over the payload. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_apply_kernel i arg1 harg1 arg2 harg2 arg3 harg3 arg4 harg4 arg5 harg5 arg6 harg6 arg7 harg7 arg8 harg8) K := by
  simp only [cc3__gin_apply_kernel_eq_skeleton]; unfold cc3__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core c, its arrays the region-entry contents V: after the body at point t each
    input's buffer holds its block and the output's holds out3_7 of the input blocks; the invariant between points is the
    class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]
/-- Full shares of every window's array. -/
theorem q_eq3 (c : Dev nD) (w : Fin cfg3.W) : (dat3 V c).q w = fullShare := by
  dsimp only [dat3]
/-- Nothing is owed at any point. -/
theorem owed_eq3 (c : Dev nD) (t : Fin (cfg3.N + 1)) : (dat3 V c).owed t = 0 := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) :
    BodyObligation (dat3 (F := F) V c) (defs₀ (F := F)) Variants.none () Set.univ := fun t => by
  rw [bigSep_W3, bigSep_W3]
  exact sound_body3 V c t

/-- The class invariant is the invariant before the first point, -/
theorem hin3 (c : Dev nD) : (Pipeline.ΦA spec3 c : sProp 𝕄) ⊢ (dat3 V c).Φ 0 := Entails.refl _
/-- and the invariant after the last point gives it back. -/
theorem hout3 (c : Dev nD) : (dat3 V c).Φ (Fin.last cfg3.N) ⊢ (Pipeline.ΦA spec3 c : sProp 𝕄) := Entails.refl _

end Region

end Cert.KernelIdeal.Reg

end
-- ==== Proof.KI.Reg4.lean ====
/-
  Region 4 of the program (the third layer's linear map with column sums and sums of squares accumulated over row tiles), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`): rows `5000 t … 5000 t + 4999` of
    the layer's input and of its neighbour aggregate (windows 0, 1), the whole weight matrix and the bias row (2, 3). -/
def iblk4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof
    data whose array is `V`'s (`hA`) and whose body leaves the block in place (`hafter`): unfetched, the block index
    has not moved (the weights and the bias are fetched once, their index constant). -/
theorem before4_0_of (V : (c : Dev nD) → (b : Ref sig .tc) → Buf (Elt F) ((c : Thread nD τ).loc b)) {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (V : (c : Dev nD) → (b : Ref sig .tc) → Buf (Elt F) ((c : Thread nD τ).loc b)) {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (V : (c : Dev nD) → (b : Ref sig .tc) → Buf (Elt F) ((c : Thread nD τ).loc b)) {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of (V : (c : Dev nD) → (b : Ref sig .tc) → Buf (Elt F) ((c : Thread nD τ).loc b)) {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the zeroing branch, from the grid coordinate (the body's scalar chain substituted): the
    coordinate is 0. -/
abbrev cond4_0 (i : grid4.Coords) : Prop := (Scalar.cmpi .ne (Scalar.extui (Scalar.cmpi .eq (BitVec.ofNat 32 (i 0).val) 0#32)) 0#32) = 1#1
/-- It holds at the first point only — decided over the ten points. -/
theorem hcond4_0 : ∀ t : Fin cfg4.N, cond4_0 (grid4.coords t) ↔ t.val = 0 :=
  (by decide +kernel : ∀ t : Fin grid4.N, cond4_0 (grid4.coords t) ↔ t.val = 0)

/-- The condition of the closing branch (the statistics outputs stored from the accumulators): the coordinate is 9. -/
abbrev cond4_1 (i : grid4.Coords) : Prop := k4_cond2 i = 1#1
/-- It holds at the last point only — decided over the ten points. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The inputs and the row-tile output are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Off the last point the two statistics outputs are idle — the body stores nothing into them — and are not written
    back; at the last point they are live. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The staging and scratch memrefs -/

/-- One staging buffer of each output window, through which its contents are stated (the choice does not matter:
    a covering list of writes reads the same through any view). -/
abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- Each window's current staging memref at point `t`, spelled as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The two accumulators (column sums, column sums of squares): whole scoped buffers of the kernel's own, passed
    beside the windows, and the views through which their contents are stated. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two accumulators as memrefs owned at some contents, the other scoped buffers of the
    core (the other regions' staging and scratch) unopened, and the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The kernel body on any staging memrefs, case by case -/

-- (the run's proof term is large: the definition's epilogue walks it past the default budget)
set_option maxHeartbeats 1000000 in
/-- THE FIRST POINT (the zeroing branch taken, the closing branch not). What the body's stores leave, as pieces (last
    first), in the row-tile output, in the two statistics outputs (none: they are idle here and handed back as found,
    at `xi5`, `xi6`) and in the two accumulators (zeroed, then this tile's column sum and column sum of squares added),
    with the body's triple: from whole buffers — the four inputs at their contents, everything else at anything — the
    body runs to the continuation holding the inputs as they were and each written buffer with its pieces written. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- A MIDDLE POINT (neither branch taken). As at the first point, except that the two accumulators come in at the
    contents `xs0`, `xs1` the point before left, and this tile's sums are added to those. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 1000000 in
/-- THE LAST POINT (the zeroing branch not taken, the closing branch taken). The accumulators come in at `xs0`, `xs1`,
    this tile's sums are added, and the two statistics outputs (at anything before) are stored whole from the
    accumulators: their pieces are part of the witness here. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gin_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__gin_stats_kernel_eq_skeleton]; unfold cc4__gin_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves -/

/-- At the first point the pieces for the row-tile output tile it (checked by evaluation), so they cover it. -/
theorem cover4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in the row-tile output's staging buffer: its pieces read back over junk. -/
def out4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S5000x128 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

/-- At the first point nothing is stored into the statistics outputs (idle, not written back): placeholders that nothing consults. -/
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x0 x1 x2 x3).2.1)
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3).2.2.1)

/-- At the first point the pieces for the column-sum accumulator tile it (checked by evaluation), so they cover it. -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.1 S1x128.size (by sl_kernel_rfl) y

/-- What the first point leaves in the column-sum accumulator: its pieces read back over junk. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.2.2.1)

/-- At the first point the pieces for the sum-of-squares accumulator tile it (checked by evaluation), so they cover it. -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.2.1 S1x128.size (by sl_kernel_rfl) y

/-- What the first point leaves in the sum-of-squares accumulator: its pieces read back over junk. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.2.2.1)

/-- At a middle point the pieces for the row-tile output tile it (checked by evaluation), so they cover it. -/
theorem cover4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What a middle point leaves in the row-tile output's staging buffer: its pieces read back over junk. -/
def out4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

/-- At a middle point nothing is stored into the statistics outputs (idle, not written back): placeholders that nothing consults. -/
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x0 x1 x2 x3 xs0 xs1).2.1)
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 xs0 xs1).2.2.1)

/-- At a middle point the pieces for the column-sum accumulator tile it (checked by evaluation), so they cover it. -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What a middle point leaves in the column-sum accumulator: its pieces read back over junk. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.2.2.1)

/-- At a middle point the pieces for the sum-of-squares accumulator tile it (checked by evaluation), so they cover it. -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What a middle point leaves in the sum-of-squares accumulator: its pieces read back over junk. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.2.2.1)

/-- At the last point the pieces for the row-tile output tile it (checked by evaluation), so they cover it. -/
theorem cover4_C_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in the row-tile output's staging buffer: its pieces read back over junk. -/
def out4_C_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S5000x128 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

/-- At the last point the pieces for the column-sum output tile it (checked by evaluation), so they cover it. -/
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in the column-sum output's staging buffer: its pieces read back over junk. -/
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

/-- At the last point the pieces for the sum-of-squares output tile it (checked by evaluation), so they cover it. -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in the sum-of-squares output's staging buffer: its pieces read back over junk. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

/-- At the last point the pieces for the column-sum accumulator tile it (checked by evaluation), so they cover it. -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in the column-sum accumulator: its pieces read back over junk. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

/-- At the last point the pieces for the sum-of-squares accumulator tile it (checked by evaluation), so they cover it. -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- What the last point leaves in the sum-of-squares accumulator: its pieces read back over junk. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- THE ACCUMULATION. What the three outputs' staging buffers and the two accumulators hold after the body at position
    `n` (a tuple: the outputs in window order, then the accumulators): the first point's case at 0, the last point's at 9,
    a middle point's elsewhere, each run at the point's memrefs and input blocks and — after the first — at the
    accumulators' contents the point before left. -/
def outsAt4 (V : (c : Dev nD) → (b : Ref sig .tc) → Buf (Elt F) ((c : Thread nD τ).loc b)) (c : Dev nD) : (n : ℕ) → n < cfg4.N → Vec F S5000x128 .f32 × Vec F S1x128 .f32 × Vec F S1x128 .f32 × Vec F S1x128 .f32 × Vec F S1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2)

/-- `outsAt4` at the first point: that case's contents. -/
theorem outsAt4_A (V : (c : Dev nD) → (b : Ref sig .tc) → Buf (Elt F) ((c : Thread nD τ).loc b)) (c : Dev nD) (t : Fin cfg4.N) (h0 : t.val = 0) (h1 : ¬t.val = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outsAt4` at a middle point: that case's contents, over what the point before left in the accumulators. -/
theorem outsAt4_B (V : (c : Dev nD) → (b : Ref sig .tc) → Buf (Elt F) ((c : Thread nD τ).loc b)) (c : Dev nD) (t : Fin cfg4.N) (h0 : ¬t.val = 0) (h1 : ¬t.val = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: that case's contents, over what the point before left in the accumulators. -/
theorem outsAt4_C (V : (c : Dev nD) → (b : Ref sig .tc) → Buf (Elt F) ((c : Thread nD τ).loc b)) (c : Dev nD) (t : Fin cfg4.N) (h0 : ¬t.val = 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between points -/

/-- The region invariant before position `n`: before the first point the class's (the accumulators at anything);
    afterwards the two accumulators at what the point before left in them (`outsAt4`'s last two components), the
    other scoped buffers unopened, and the generator register at some state. -/
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (V : (c : Dev nD) → (b : Ref sig .tc) → Buf (Elt F) ((c : Thread nD τ).loc b)) (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (V : (c : Dev nD) → (b : Ref sig .tc) → Buf (Elt F) ((c : Thread nD τ).loc b)) (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2)
          ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (V : (c : Dev nD) → (b : Ref sig .tc) → Buf (Elt F) ((c : Thread nD τ).loc b)) (c : Dev nD) (n : ℕ) (h : n ≤ cfg4.N) (hz : ¬n = 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the outputs' at `outsAt4`'s components; the invariant `PhiS4`; nothing owed;
    full shares. -/
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

/-- The proof data's arrays are the region-entry contents (the definition projected, never unfolded through `V`). -/
theorem A_eq4 (V : (c : Dev nD) → (b : Ref sig .tc) → Buf (Elt F) ((c : Thread nD τ).loc b)) (c : Dev nD) (w : Fin cfg4.W) : (dat4 V c).A w = V c (Pipeline.arrRef spec4 w) := by
  dsimp only [dat4]
theorem q_eq4 (V : (c : Dev nD) → (b : Ref sig .tc) → Buf (Elt F) ((c : Thread nD τ).loc b)) (c : Dev nD) (w : Fin cfg4.W) : (dat4 V c).q w = fullShare := by
  dsimp only [dat4]
theorem owed_eq4 (V : (c : Dev nD) → (b : Ref sig .tc) → Buf (Elt F) ((c : Thread nD τ).loc b)) (c : Dev nD) (t : Fin (cfg4.N + 1)) : (dat4 V c).owed t = 0 := by
  dsimp only [dat4]

/-- The invariant at a point's start, restated at `t.val`. -/
theorem PhiS4_castSucc (V : (c : Dev nD) → (b : Ref sig .tc) → Buf (Elt F) ((c : Thread nD τ).loc b)) (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (V : (c : Dev nD) → (b : Ref sig .tc) → Buf (Elt F) ((c : Thread nD τ).loc b)) (c : Dev nD) (t : Fin cfg4.N) : (dat4 V c).after 0 t = iblk4 V c 0 t := by dsimp only [dat4]
theorem after4_1 (V : (c : Dev nD) → (b : Ref sig .tc) → Buf (Elt F) ((c : Thread nD τ).loc b)) (c : Dev nD) (t : Fin cfg4.N) : (dat4 V c).after 1 t = iblk4 V c 1 t := by dsimp only [dat4]
theorem after4_2 (V : (c : Dev nD) → (b : Ref sig .tc) → Buf (Elt F) ((c : Thread nD τ).loc b)) (c : Dev nD) (t : Fin cfg4.N) : (dat4 V c).after 2 t = iblk4 V c 2 t := by dsimp only [dat4]
theorem after4_3 (V : (c : Dev nD) → (b : Ref sig .tc) → Buf (Elt F) ((c : Thread nD τ).loc b)) (c : Dev nD) (t : Fin cfg4.N) : (dat4 V c).after 3 t = iblk4 V c 3 t := by dsimp only [dat4]
theorem after4_4 (V : (c : Dev nD) → (b : Ref sig .tc) → Buf (Elt F) ((c : Thread nD τ).loc b)) (c : Dev nD) (t : Fin cfg4.N) : (dat4 V c).after 4 t = (outsAt4 V c t.val t.isLt).1 := by dsimp only [dat4]
theorem after4_5 (V : (c : Dev nD) → (b : Ref sig .tc) → Buf (Elt F) ((c : Thread nD τ).loc b)) (c : Dev nD) (t : Fin cfg4.N) : (dat4 V c).after 5 t = (outsAt4 V c t.val t.isLt).2.1 := by dsimp only [dat4]
theorem after4_6 (V : (c : Dev nD) → (b : Ref sig .tc) → Buf (Elt F) ((c : Thread nD τ).loc b)) (c : Dev nD) (t : Fin cfg4.N) : (dat4 V c).after 6 t = (outsAt4 V c t.val t.isLt).2.2.1 := by dsimp only [dat4]

/-- Each input's current staging buffer holds its block at every point, fetched there or not. -/
theorem before4_0 (V : (c : Dev nD) → (b : Ref sig .tc) → Buf (Elt F) ((c : Thread nD τ).loc b)) (c : Dev nD) (t : Fin cfg4.N) (d) : (dat4 V c).before 0 t d = iblk4 V c 0 t :=
  before4_0_of V (dat4 V c) (A_eq4 V c 0) (after4_0 V c) t d
theorem before4_1 (V : (c : Dev nD) → (b : Ref sig .tc) → Buf (Elt F) ((c : Thread nD τ).loc b)) (c : Dev nD) (t : Fin cfg4.N) (d) : (dat4 V c).before 1 t d = iblk4 V c 1 t :=
  before4_1_of V (dat4 V c) (A_eq4 V c 1) (after4_1 V c) t d
theorem before4_2 (V : (c : Dev nD) → (b : Ref sig .tc) → Buf (Elt F) ((c : Thread nD τ).loc b)) (c : Dev nD) (t : Fin cfg4.N) (d) : (dat4 V c).before 2 t d = iblk4 V c 2 t :=
  before4_2_of V (dat4 V c) (A_eq4 V c 2) (after4_2 V c) t d
theorem before4_3 (V : (c : Dev nD) → (b : Ref sig .tc) → Buf (Elt F) ((c : Thread nD τ).loc b)) (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (the obligation's precondition, the windows one by one), -/
def bodyPre4 (V : (c : Dev nD) → (b : Ref sig .tc) → Buf (Elt F) ((c : Thread nD τ).loc b)) (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (V : (c : Dev nD) → (b : Ref sig .tc) → Buf (Elt F) ((c : Thread nD τ).loc b)) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in, so
    that case's run applies; the invariant hands the body the accumulators at what the point before left (at anything
    at the first point) and takes them back at this point's contents (their pieces cover them); the other scoped
    buffers, the generator register and the core's debt pass through untouched. -/
theorem sound_body4 (V : (c : Dev nD) → (b : Ref sig .tc) → Buf (Elt F) ((c : Thread nD τ).loc b)) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val = 9
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (V : (c : Dev nD) → (b : Ref sig .tc) → Buf (Elt F) ((c : Thread nD τ).loc b)) (c : Dev nD) :
    BodyObligation (dat4 (F := F) V c) (defs₀ (F := F)) Variants.none () Set.univ := fun t => by
  rw [bigSep_W4, bigSep_W4]
  exact sound_body4 V c t

/-- What the launch hands the region (the class invariant) is the invariant before the first point. -/
theorem hin4 (V : (c : Dev nD) → (b : Ref sig .tc) → Buf (Elt F) ((c : Thread nD τ).loc b)) (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the accumulators' named contents are
    forgotten. -/
theorem Phi_out4 (V : (c : Dev nD) → (b : Ref sig .tc) → Buf (Elt F) ((c : Thread nD τ).loc b)) (c : Dev nD) (t : Fin (cfg4.N + 1)) (ht : ¬t.val = 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout4 (V : (c : Dev nD) → (b : Ref sig .tc) → Buf (Elt F) ((c : Thread nD τ).loc b)) (c : Dev nD) : (dat4 V c).Φ (Fin.last cfg4.N) ⊢ (Pipeline.ΦA spec4 c : sProp 𝕄) :=
  Phi_out4 V c _ (by rw [Fin.val_last]; have : cfg4.N = 10 := N_4; omega)

end Cert.KernelIdeal.Reg

end
-- ==== Proof.KI.Reg5.lean ====
/-
  Region 5 of the program (the third layer's normalisation and second linear map), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: the parameter everything below is stated at
variable (V : (c : Dev nD) → (b : Ref sig .tc) → Buf (Elt F) ((c : Thread nD τ).loc b))

/-! ## The windows' blocks -/

/-- Window w's block at point t, read off its array as the region finds it (V): for window 0 the 5000 rows of the
    point's row tile, for windows 1 to 6 the whole (one-row or square) array, the same at every point. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or not (a
    window not fetched at a point has not moved its block index), for any proof data whose array is V's and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or not (a
    window not fetched at a point has not moved its block index), for any proof data whose array is V's and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether it was fetched there or not (a
    window not fetched at a point has not moved its block index), for any proof data whose array is V's and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether it was fetched there or not (a
    window not fetched at a point has not moved its block index), for any proof data whose array is V's and whose
    body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether it was fetched there or not (a
    window not fetched at a point has not moved its block index), for any proof data whose array is V's and whose
    body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether it was fetched there or not (a
    window not fetched at a point has not moved its block index), for any proof data whose array is V's and whose
    body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether it was fetched there or not (a
    window not fetched at a point has not moved its block index), for any proof data whose array is V's and whose
    body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000 x 128 block, -/
abbrev r5_0 : Rect S5000x128 := Rect.unit (s := S5000x128) ![0, 0] S5000x128.size inb_S5000x128_S5000x128_0_0
/-- a whole 1 x 128 row, -/
abbrev r5_1 : Rect S1x128 := Rect.unit (s := S1x128) ![0, 0] S1x128.size inb_S1x128_S1x128_0_0
/-- and the whole 128 x 128 weight matrix. -/
abbrev r5_2 : Rect S128x128 := Rect.unit (s := S128x128) ![0, 0] S128x128.size inb_S128x128_S128x128_0_0

/-! ## What the body leaves in the output window's buffer -/

/-- Window 7's staging buffer after the body, from the input windows' blocks (x0 the row tile, x1 the mean, x2 the
    variance, x3 the scale, x4 the shift, x5 the weight matrix, x6 the bias): its one whole-block store, the payload
    the normalised, rectified rows times the weights plus the bias, rectified. -/
def out5_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨r5_0, k5_pay1 (View.ld x0 r5_0) (View.ld x3 r5_1) (View.ld x1 r5_1) (View.ld x2 r5_1) (View.ld x4 r5_1) (View.ld x5 r5_2) (View.ld x6 r5_1)⟩]

/-- The one store is the whole buffer, so it covers it. -/
theorem cover5_7 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents x0 … x6 and the output's at anything, runs to
    the continuation holding the inputs' as they were and the output's at out5_7 of the inputs': the printed function
    is its skeleton of loads and one store over the payload. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__gin_apply_kernel i arg1 harg1 arg2 harg2 arg3 harg3 arg4 harg4 arg5 harg5 arg6 harg6 arg7 harg7 arg8 harg8) K := by
  simp only [cc5__gin_apply_kernel_eq_skeleton]; unfold cc5__gin_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core c, its arrays the region-entry contents V: after the body at point t each
    input's buffer holds its block and the output's holds out5_7 of the input blocks; the invariant between points is the
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]
/-- Full shares of every window's array. -/
theorem q_eq5 (c : Dev nD) (w : Fin cfg5.W) : (dat5 V c).q w = fullShare := by
  dsimp only [dat5]
/-- Nothing is owed at any point. -/
theorem owed_eq5 (c : Dev nD) (t : Fin (cfg5.N + 1)) : (dat5 V c).owed t = 0 := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) :
    BodyObligation (dat5 (F := F) V c) (defs₀ (F := F)) Variants.none () Set.univ := fun t => by
  rw [bigSep_W5, bigSep_W5]
  exact sound_body5 V c t

/-- The class invariant is the invariant before the first point, -/
theorem hin5 (c : Dev nD) : (Pipeline.ΦA spec5 c : sProp 𝕄) ⊢ (dat5 V c).Φ 0 := Entails.refl _
/-- and the invariant after the last point gives it back. -/
theorem hout5 (c : Dev nD) : (dat5 V c).Φ (Fin.last cfg5.N) ⊢ (Pipeline.ΦA spec5 c : sProp 𝕄) := Entails.refl _

end Region

end Cert.KernelIdeal.Reg

end
-- ==== Proof.KI.Reg6.lean ====
/-
  Region 6 of the program (the three-layer reconstruction head), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the contents of the core's buffers when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block index
    has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block index
    has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block index
    has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): unfetched, the block index
    has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): unfetched, the block index
    has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): unfetched, the block index
    has not moved; the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S128x4 := Rect.unit (s := S128x4) ![0, 0] S128x4.size inb_S128x4_S128x4_0_0
abbrev r6_4 : Rect S1x4 := Rect.unit (s := S1x4) ![0, 0] S1x4.size inb_S1x4_S1x4_0_0
abbrev r6_5 : Rect S5000x4 := Rect.unit (s := S5000x4) ![0, 0] S5000x4.size inb_S5000x4_S5000x4_0_0

/-! ## What the body leaves in the output window's buffer -/

/-- Window 7's staging buffer after the body, from the input windows' blocks: its one store as a piece (the payload
    is the skeleton's: the three-layer head, relu (relu (relu (x W1 + b1) W2 + b2) W3 + b3), on the row tile). -/
def out6_7 (x0 : Vec F S5000x128 .f32) (x1 : Vec F S128x128 .f32) (x2 : Vec F S1x128 .f32) (x3 : Vec F S128x128 .f32) (x4 : Vec F S1x128 .f32) (x5 : Vec F S128x4 .f32) (x6 : Vec F S1x4 .f32) : Vec F S5000x4 .f32 :=
  View.canon [⟨r6_5, k6_pay1 (View.ld x0 r6_0) (View.ld x1 r6_1) (View.ld x2 r6_2) (View.ld x3 r6_1) (View.ld x4 r6_2) (View.ld x5 r6_3) (View.ld x6 r6_4)⟩]

/-- The one store is the whole buffer, so it covers it. -/
theorem cover6_7 (p0 : Vec F S5000x4 .f32) (y : S5000x4.Idx) :
    ∃ pc ∈ ([⟨r6_5, p0⟩] : List (View.Piece (Elt F) S5000x4 .f32)), y ∈ pc.1.set :=
  View.cover_of_tiled [⟨r6_5, p0⟩] S5000x4.size (by rfl) y

/-! ## The body's triple -/

set_option maxHeartbeats 1000000 in
/-- The kernel body on whole staging memrefs, the inputs' at read contents `xW` and the output's at anything, runs to
    the continuation holding the inputs' as they were and the output's at `out6_7` of the inputs'. -/
theorem sound_kernel6 (c : Dev nD) (E : Set ℕ) (i : grid6.Coords)
    (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x4 .f32) (harg5 : arg5.IsWhole) (arg6 : Memref sig .tc .vmem S1x4 .f32) (harg6 : arg6.IsWhole) (arg7 : Memref sig .tc .vmem S5000x4 .f32) (harg7 : arg7.IsWhole)
    (x0 : Vec F S5000x128 .f32) (x1 : Vec F S128x128 .f32) (x2 : Vec F S1x128 .f32) (x3 : Vec F S128x128 .f32) (x4 : Vec F S1x128 .f32) (x5 : Vec F S128x4 .f32) (x6 : Vec F S1x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__rec_kernel i arg0 harg0 arg1 harg1 arg2 harg2 arg3 harg3 arg4 harg4 arg5 harg5 arg6 harg6 arg7 harg7) K := by
  simp only [cc6__rec_kernel_eq_skeleton]; unfold cc6__rec_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

end Region6

/-- The proof data of pipeline 6 on core c, its arrays the region-entry contents V: after the body at point `t` each
    input's buffer at its block and the output's at `out6_7` of the input blocks; the invariant the scoped rest and the
    generator register, untouched; nothing owed; full shares. -/
def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (V : (c : Dev nD) → (b : Ref sig .tc) → Buf (Elt F) ((c : Thread nD τ).loc b)) (c : Dev nD) (w : Fin cfg6.W) : (dat6 V c).A w = V c (Pipeline.arrRef spec6 w) := by
  dsimp only [dat6]
theorem q_eq6 (V : (c : Dev nD) → (b : Ref sig .tc) → Buf (Elt F) ((c : Thread nD τ).loc b)) (c : Dev nD) (w : Fin cfg6.W) : (dat6 V c).q w = fullShare := by
  dsimp only [dat6]
theorem owed_eq6 (V : (c : Dev nD) → (b : Ref sig .tc) → Buf (Elt F) ((c : Thread nD τ).loc b)) (c : Dev nD) (t : Fin (cfg6.N + 1)) : (dat6 V c).owed t = 0 := by
  dsimp only [dat6]

section Region6
variable (V : (c : Dev nD) → (b : Ref sig .tc) → Buf (Elt F) ((c : Thread nD τ).loc b))

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region6

/-- The library's body obligation, at every point. -/
theorem body_obligation6 (V : (c : Dev nD) → (b : Ref sig .tc) → Buf (Elt F) ((c : Thread nD τ).loc b)) (c : Dev nD) :
    BodyObligation (dat6 (F := F) V c) (defs₀ (F := F)) Variants.none () Set.univ := fun t => by
  rw [bigSep_W6, bigSep_W6]
  exact sound_body6 V c t

/-- The class invariant is the invariant before the first point, -/
theorem hin6 (V : (c : Dev nD) → (b : Ref sig .tc) → Buf (Elt F) ((c : Thread nD τ).loc b)) (c : Dev nD) : (Pipeline.ΦA spec6 c : sProp 𝕄) ⊢ (dat6 V c).Φ 0 := Entails.refl _
/-- and the invariant after the last point gives it back. -/
theorem hout6 (V : (c : Dev nD) → (b : Ref sig .tc) → Buf (Elt F) ((c : Thread nD τ).loc b)) (c : Dev nD) : (dat6 V c).Φ (Fin.last cfg6.N) ⊢ (Pipeline.ΦA spec6 c : sProp 𝕄) := Entails.refl _

end Cert.KernelIdeal.Reg

end
-- ==== Proof.KI.Reg7.lean ====
/-
  Region 7 of the program (the pooling by a one-hot product accumulated over row tiles, then the final two-layer map), at a parameter V: the contents of the core's buffers when the region is entered.
  What each staging buffer holds after the body at a grid point, the invariant carried between points, and the body's
  obligation at every point.
-/
import proofs.«430410_j38371237822819_1_alg».proof.Proof.Gen.KernelIdeal.Launch
import proofs.«430410_j38371237822819_1_alg».proof.Proof.Gen.KernelIdeal.Skeleton
import proofs.«430410_j38371237822819_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`). -/
def iblk7 (V : (c : Dev nD) → (b : Ref sig .tc) → Buf (Elt F) ((c : Thread nD τ).loc b)) (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (unfetched, its block
    index has not moved), for any proof data whose array is `V`'s and whose body leaves the block in place. -/
theorem before7_0_of (V : (c : Dev nD) → (b : Ref sig .tc) → Buf (Elt F) ((c : Thread nD τ).loc b)) {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, its block
    index has not moved), for any proof data whose array is `V`'s and whose body leaves the block in place. -/
theorem before7_1_of (V : (c : Dev nD) → (b : Ref sig .tc) → Buf (Elt F) ((c : Thread nD τ).loc b)) {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, its block
    index has not moved), for any proof data whose array is `V`'s and whose body leaves the block in place. -/
theorem before7_2_of (V : (c : Dev nD) → (b : Ref sig .tc) → Buf (Elt F) ((c : Thread nD τ).loc b)) {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (unfetched, its block
    index has not moved), for any proof data whose array is `V`'s and whose body leaves the block in place. -/
theorem before7_3_of (V : (c : Dev nD) → (b : Ref sig .tc) → Buf (Elt F) ((c : Thread nD τ).loc b)) {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (unfetched, its block
    index has not moved), for any proof data whose array is `V`'s and whose body leaves the block in place. -/
theorem before7_4_of (V : (c : Dev nD) → (b : Ref sig .tc) → Buf (Elt F) ((c : Thread nD τ).loc b)) {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not (unfetched, its block
    index has not moved), for any proof data whose array is `V`'s and whose body leaves the block in place. -/
theorem before7_5_of (V : (c : Dev nD) → (b : Ref sig .tc) → Buf (Elt F) ((c : Thread nD τ).loc b)) {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the accumulator's reset), from the grid coordinate. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the body's second conditional (the final two-layer map into the output), from the grid coordinate. -/
abbrev cond7_1 (i : grid7.Coords) : Prop := k7_cond2 i = 1#1
/-- It holds at the last point only. -/
theorem hcond7_1 : ∀ t : Fin cfg7.N, cond7_1 (grid7.coords t) ↔ t.val = 9 :=
  (by decide +kernel : ∀ t : Fin grid7.N, cond7_1 (grid7.coords t) ↔ t.val = 9)

/-! ## Where the windows are idle -/

/-- Window 0 is never idle (an input). -/
theorem liveAt7_0 : ∀ t : Fin cfg7.N, cfg7.idle 0 (grid7.coords t) = false := by decide +kernel
/-- Window 1 is never idle (an input). -/
theorem liveAt7_1 : ∀ t : Fin cfg7.N, cfg7.idle 1 (grid7.coords t) = false := by decide +kernel
/-- Window 2 is never idle (an input). -/
theorem liveAt7_2 : ∀ t : Fin cfg7.N, cfg7.idle 2 (grid7.coords t) = false := by decide +kernel
/-- Window 3 is never idle (an input). -/
theorem liveAt7_3 : ∀ t : Fin cfg7.N, cfg7.idle 3 (grid7.coords t) = false := by decide +kernel
/-- Window 4 is never idle (an input). -/
theorem liveAt7_4 : ∀ t : Fin cfg7.N, cfg7.idle 4 (grid7.coords t) = false := by decide +kernel
/-- Window 5 is never idle (an input). -/
theorem liveAt7_5 : ∀ t : Fin cfg7.N, cfg7.idle 5 (grid7.coords t) = false := by decide +kernel
/-- At the first point the output window is idle: nothing is stored into it, -/
theorem idleAt7_6_A : ∀ t : Fin cfg7.N, cond7_0 (grid7.coords t) → ¬cond7_1 (grid7.coords t) → cfg7.idle 6 (grid7.coords t) = true := by decide +kernel
/-- and its block is not written back there. -/
theorem noFlush7_6_A : ∀ t : Fin cfg7.N, cond7_0 (grid7.coords t) → ¬cond7_1 (grid7.coords t) → (cfg7.win 6).flush t = false := by decide +kernel
/-- At the middle points the output window is idle: nothing is stored into it, -/
theorem idleAt7_6_B : ∀ t : Fin cfg7.N, ¬cond7_0 (grid7.coords t) → ¬cond7_1 (grid7.coords t) → cfg7.idle 6 (grid7.coords t) = true := by decide +kernel
/-- and its block is not written back there. -/
theorem noFlush7_6_B : ∀ t : Fin cfg7.N, ¬cond7_0 (grid7.coords t) → ¬cond7_1 (grid7.coords t) → (cfg7.win 6).flush t = false := by decide +kernel
/-- At the last point the output window is live: the body stores into it. -/
theorem liveAt7_6_C : ∀ t : Fin cfg7.N, ¬cond7_0 (grid7.coords t) → cond7_1 (grid7.coords t) → cfg7.idle 6 (grid7.coords t) = false := by decide +kernel

/-! ## The staging and scratch memrefs -/

/-- The output window's one staging buffer, as a view: what it holds is stated through it. -/
abbrev VO7_6 : View sig .tc .vmem S64x64 .f32 := (Memref.whole cc7_stg6_0 : Memref sig .tc .vmem S64x64 .f32).view
/-- Window 0's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
/-- Window 1's current staging memref at point `t`, and its wholeness. -/
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
/-- Window 2's current staging memref at point `t`, and its wholeness. -/
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
/-- Window 3's current staging memref at point `t`, and its wholeness. -/
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
/-- Window 4's current staging memref at point `t`, and its wholeness. -/
abbrev ms7_4 (t : Fin cfg7.N) : Memref sig .tc .vmem S128x64 .f32 := win7_4.stage (cfg7.slots t 4)
abbrev hs7_4 (t : Fin cfg7.N) : (ms7_4 t).IsWhole := hstage7_4 ((cfg7.slots t 4).cast nbuf7_4)
/-- Window 5's current staging memref at point `t`, and its wholeness. -/
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
/-- Window 6's current staging memref at point `t`, and its wholeness. -/
abbrev ms7_6 (t : Fin cfg7.N) : Memref sig .tc .vmem S64x64 .f32 := win7_6.stage (cfg7.slots t 6)
abbrev hs7_6 (t : Fin cfg7.N) : (ms7_6 t).IsWhole := hstage7_6 ((cfg7.slots t 6).cast nbuf7_6)
/-- The accumulator: a whole scoped buffer of the kernel's own, passed beside the windows. -/
abbrev scM7_0 : Memref sig .tc .vmem S64x128 .f32 := Memref.whole cc7_scratch0
/-- The accumulator as a view: what it holds is stated through it. -/
abbrev VS7_0 : View sig .tc .vmem S64x128 .f32 := scM7_0.view

/-- The class invariant with the accumulator as a memref owned at some contents; every other scoped buffer of the core
    stays unopened beside it, and the generator register is at some state. -/
theorem PhiA7_eq (c : Dev nD) :
    (Pipeline.ΦA spec7 c : sProp 𝕄)
      = iprop(iprop(iprop((∃ d, owns (c : Thread nD τ) scM7_0 fullShare d)) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 1000000 in
/-- What the body's stores leave in the output's staging memref and in the accumulator, as pieces (last first), AT THE FIRST
    POINT (the reset taken, the final map not), with the proof that on whole memrefs — the inputs' at their contents, the idle
    output's at contents `xi6` handed back untouched, the accumulator at anything — the body runs to the continuation holding
    the inputs' as they were, the output's as it was, and the accumulator with its pieces written. -/
noncomputable def kernelRun7_A (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) :
    Σ' (L6 : List (View.Piece (Elt F) S64x64 .f32)), { LS0 : List (View.Piece (Elt F) S64x128 .f32) //
      ∀ (xi6 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨[], ?_, fun xi6 E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in
/-- The same AT A MIDDLE POINT (neither conditional taken): the accumulator comes at the contents `xs0` the point before left. -/
noncomputable def kernelRun7_B (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    Σ' (L6 : List (View.Piece (Elt F) S64x64 .f32)), { LS0 : List (View.Piece (Elt F) S64x128 .f32) //
      ∀ (xi6 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨[], ?_, fun xi6 E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in
/-- The same AT THE LAST POINT (the reset not taken, the final map taken): the accumulator comes at the contents `xs0` the
    point before left, the output's buffer at anything, and is handed back with its pieces written. -/
noncomputable def kernelRun7_C (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    Σ' (L6 : List (View.Piece (Elt F) S64x64 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc7__pool_kernel i arg1 harg1 arg2 harg2 arg3 harg3 arg4 harg4 arg5 harg5 arg6 harg6 arg7 harg7 arg8 harg8) K } := by
  refine ⟨?_, ?_, fun E K => ?run⟩
  case run =>
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-! ## What each case leaves in the output's buffer and in the accumulator -/

/-- The first point stores nothing into the output (the window is idle there and not written back): no pieces — a
    placeholder that nothing consults, the window being neither written back nor read at the next point. -/
def out7_A_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) : Vec F S64x64 .f32 :=
  VO7_6.read (Elt F) (VO7_6.writes (Elt F) VO7_6.junk (kernelRun7_A c i arg1 harg1 arg2 harg2 arg3 harg3 arg4 harg4 arg5 harg5 arg6 harg6 arg7 harg7 arg8 harg8 hc0 hc1 x0 x1 x2 x3 x4 x5).1)

/-- The first point's pieces for the accumulator tile it, so they cover it. -/
theorem scover7_A_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (y : S64x128.Idx) :
    ∃ pc ∈ (kernelRun7_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun7_A c i arg1 harg1 arg2 harg2 arg3 harg3 arg4 harg4 arg5 harg5 arg6 harg6 arg7 harg7 arg8 harg8 hc0 hc1 x0 x1 x2 x3 x4 x5).2.1 S64x128.size (by sl_kernel_rfl) y

/-- What the first point leaves in the accumulator: its pieces read back. -/
def sout7_A_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) : Vec F S64x128 .f32 :=
  VS7_0.read (Elt F) (VS7_0.writes (Elt F) VS7_0.junk (kernelRun7_A c i arg1 harg1 arg2 harg2 arg3 harg3 arg4 harg4 arg5 harg5 arg6 harg6 arg7 harg7 arg8 harg8 hc0 hc1 x0 x1 x2 x3 x4 x5).2.1)

/-- A middle point stores nothing into the output (the window is idle there and not written back): no pieces — a
    placeholder that nothing consults, the window being neither written back nor read at the next point. -/
def out7_B_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x64 .f32 :=
  VO7_6.read (Elt F) (VO7_6.writes (Elt F) VO7_6.junk (kernelRun7_B c i arg1 harg1 arg2 harg2 arg3 harg3 arg4 harg4 arg5 harg5 arg6 harg6 arg7 harg7 arg8 harg8 hc0 hc1 x0 x1 x2 x3 x4 x5 xs0).1)

/-- A middle point's pieces for the accumulator tile it, so they cover it. -/
theorem scover7_B_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x128.Idx) :
    ∃ pc ∈ (kernelRun7_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun7_B c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What a middle point leaves in the accumulator: its pieces read back. -/
def sout7_B_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x128 .f32 :=
  VS7_0.read (Elt F) (VS7_0.writes (Elt F) VS7_0.junk (kernelRun7_B c i arg1 harg1 arg2 harg2 arg3 harg3 arg4 harg4 arg5 harg5 arg6 harg6 arg7 harg7 arg8 harg8 hc0 hc1 x0 x1 x2 x3 x4 x5 xs0).2.1)

/-- The last point's one store into the output tiles its block, so it covers it. -/
theorem cover7_C_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x64.Idx) :
    ∃ pc ∈ (kernelRun7_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun7_C c i arg1 harg1 arg2 harg2 arg3 harg3 arg4 harg4 arg5 harg5 arg6 harg6 arg7 harg7 arg8 harg8 hc0 hc1 x0 x1 x2 x3 x4 x5 xs0).1 S64x64.size (by sl_kernel_rfl) y

/-- What the last point leaves in the output's staging buffer: its pieces read back. -/
def out7_C_6 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x64 .f32 :=
  VO7_6.read (Elt F) (VO7_6.writes (Elt F) VO7_6.junk (kernelRun7_C c i arg1 harg1 arg2 harg2 arg3 harg3 arg4 harg4 arg5 harg5 arg6 harg6 arg7 harg7 arg8 harg8 hc0 hc1 x0 x1 x2 x3 x4 x5 xs0).1)

/-- The last point's pieces for the accumulator tile it, so they cover it. -/
theorem scover7_C_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) (y : S64x128.Idx) :
    ∃ pc ∈ (kernelRun7_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun7_C c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What the last point leaves in the accumulator: its pieces read back. -/
def sout7_C_0 (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) : Vec F S64x128 .f32 :=
  VS7_0.read (Elt F) (VS7_0.writes (Elt F) VS7_0.junk (kernelRun7_C c i arg1 harg1 arg2 harg2 arg3 harg3 arg4 harg4 arg5 harg5 arg6 harg6 arg7 harg7 arg8 harg8 hc0 hc1 x0 x1 x2 x3 x4 x5 xs0).2.1)

/-! ## What the output's buffer and the accumulator hold after each point -/

/-- THE ACCUMULATION. What the output's staging buffer and the accumulator hold after the body at position `n` (a pair: the
    output, then the accumulator): the case the position selects, run at the point's memrefs and input blocks, the accumulator
    read at what this leaves at `n - 1`. -/
def outsAt7 (V : (c : Dev nD) → (b : Ref sig .tc) → Buf (Elt F) ((c : Thread nD τ).loc b)) (c : Dev nD) : (n : ℕ) → n < cfg7.N → Vec F S64x64 .f32 × Vec F S64x128 .f32
  | 0, hn => (out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr rfl) (fun h => absurd ((hcond7_1 ⟨0, hn⟩).mp h) (show ¬(0 : ℕ) = 9 by decide)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr rfl) (fun h => absurd ((hcond7_1 ⟨0, hn⟩).mp h) (show ¬(0 : ℕ) = 9 by decide)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩))
  | n + 1, hn =>
    if h1 : n + 1 = 9 then
      (out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2)
    else
      (out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => absurd ((hcond7_0 ⟨n + 1, hn⟩).mp h) (Nat.succ_ne_zero n)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 V c n (Nat.lt_of_succ_lt hn)).2)

/-- `outsAt7` at the first point: that case's contents. -/
theorem outsAt7_A (V : (c : Dev nD) → (b : Ref sig .tc) → Buf (Elt F) ((c : Thread nD τ).loc b)) (c : Dev nD) (t : Fin cfg7.N) (h0 : t.val = 0) (h1 : ¬t.val = 9) :
    outsAt7 V c t.val t.isLt = (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t) (iblk7 V c 5 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t) (iblk7 V c 5 t)) := by
  obtain ⟨n, hn⟩ := t
  cases n with
  | zero => exact rfl
  | succ n => exact absurd h0 (Nat.succ_ne_zero n)

/-- `outsAt7` at a middle point: that case's contents, over what the point before left. -/
theorem outsAt7_B (V : (c : Dev nD) → (b : Ref sig .tc) → Buf (Elt F) ((c : Thread nD τ).loc b)) (c : Dev nD) (t : Fin cfg7.N) (h0 : ¬t.val = 0) (h1 : ¬t.val = 9) :
    outsAt7 V c t.val t.isLt = (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2) := by
  obtain ⟨n, hn⟩ := t
  cases n with
  | zero => exact absurd rfl h0
  | succ n => exact (dif_neg h1).trans rfl

/-- `outsAt7` at the last point: that case's contents, over what the point before left. -/
theorem outsAt7_C (V : (c : Dev nD) → (b : Ref sig .tc) → Buf (Elt F) ((c : Thread nD τ).loc b)) (c : Dev nD) (t : Fin cfg7.N) (h0 : ¬t.val = 0) (h1 : t.val = 9) :
    outsAt7 V c t.val t.isLt = (out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the accumulator at anything); afterwards the
    accumulator at what the point before left in it, every other scoped buffer unopened, and the generator register at some state. -/
def PhiS7 (V : (c : Dev nD) → (b : Ref sig .tc) → Buf (Elt F) ((c : Thread nD τ).loc b)) (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (V : (c : Dev nD) → (b : Ref sig .tc) → Buf (Elt F) ((c : Thread nD τ).loc b)) (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (V : (c : Dev nD) → (b : Ref sig .tc) → Buf (Elt F) ((c : Thread nD τ).loc b)) (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (V : (c : Dev nD) → (b : Ref sig .tc) → Buf (Elt F) ((c : Thread nD τ).loc b)) (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core c, its arrays the region-entry contents V: after the body at point `t` each input's
    buffer at its block and the output's at `outsAt7`'s first component; the invariant `PhiS7`; nothing owed; full shares. -/
def dat7 (V : (c : Dev nD) → (b : Ref sig .tc) → Buf (Elt F) ((c : Thread nD τ).loc b)) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
  Φ t := PhiS7 V c t.val (Nat.le_of_lt_succ t.isLt)
  q _ := fullShare
  owed _ := 0

theorem A_eq7 (V : (c : Dev nD) → (b : Ref sig .tc) → Buf (Elt F) ((c : Thread nD τ).loc b)) (c : Dev nD) (w : Fin cfg7.W) : (dat7 V c).A w = V c (Pipeline.arrRef spec7 w) := by
  dsimp only [dat7]
theorem q_eq7 (V : (c : Dev nD) → (b : Ref sig .tc) → Buf (Elt F) ((c : Thread nD τ).loc b)) (c : Dev nD) (w : Fin cfg7.W) : (dat7 V c).q w = fullShare := by
  dsimp only [dat7]
theorem owed_eq7 (V : (c : Dev nD) → (b : Ref sig .tc) → Buf (Elt F) ((c : Thread nD τ).loc b)) (c : Dev nD) (t : Fin (cfg7.N + 1)) : (dat7 V c).owed t = 0 := by
  dsimp only [dat7]

/-- The invariant at a point's start, restated at `t.val`. -/
theorem PhiS7_castSucc (V : (c : Dev nD) → (b : Ref sig .tc) → Buf (Elt F) ((c : Thread nD τ).loc b)) (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (V : (c : Dev nD) → (b : Ref sig .tc) → Buf (Elt F) ((c : Thread nD τ).loc b)) (c : Dev nD) (t : Fin cfg7.N) : (dat7 V c).after 0 t = iblk7 V c 0 t := by dsimp only [dat7]
theorem after7_1 (V : (c : Dev nD) → (b : Ref sig .tc) → Buf (Elt F) ((c : Thread nD τ).loc b)) (c : Dev nD) (t : Fin cfg7.N) : (dat7 V c).after 1 t = iblk7 V c 1 t := by dsimp only [dat7]
theorem after7_2 (V : (c : Dev nD) → (b : Ref sig .tc) → Buf (Elt F) ((c : Thread nD τ).loc b)) (c : Dev nD) (t : Fin cfg7.N) : (dat7 V c).after 2 t = iblk7 V c 2 t := by dsimp only [dat7]
theorem after7_3 (V : (c : Dev nD) → (b : Ref sig .tc) → Buf (Elt F) ((c : Thread nD τ).loc b)) (c : Dev nD) (t : Fin cfg7.N) : (dat7 V c).after 3 t = iblk7 V c 3 t := by dsimp only [dat7]
theorem after7_4 (V : (c : Dev nD) → (b : Ref sig .tc) → Buf (Elt F) ((c : Thread nD τ).loc b)) (c : Dev nD) (t : Fin cfg7.N) : (dat7 V c).after 4 t = iblk7 V c 4 t := by dsimp only [dat7]
theorem after7_5 (V : (c : Dev nD) → (b : Ref sig .tc) → Buf (Elt F) ((c : Thread nD τ).loc b)) (c : Dev nD) (t : Fin cfg7.N) : (dat7 V c).after 5 t = iblk7 V c 5 t := by dsimp only [dat7]
theorem after7_6 (V : (c : Dev nD) → (b : Ref sig .tc) → Buf (Elt F) ((c : Thread nD τ).loc b)) (c : Dev nD) (t : Fin cfg7.N) : (dat7 V c).after 6 t = (outsAt7 V c t.val t.isLt).1 := by dsimp only [dat7]

/-- Each input's current staging buffer holds its block at every point, fetched there or not. -/
theorem before7_0 (V : (c : Dev nD) → (b : Ref sig .tc) → Buf (Elt F) ((c : Thread nD τ).loc b)) (c : Dev nD) (t : Fin cfg7.N) (d) : (dat7 V c).before 0 t d = iblk7 V c 0 t :=
  before7_0_of V (dat7 V c) (A_eq7 V c 0) (after7_0 V c) t d
theorem before7_1 (V : (c : Dev nD) → (b : Ref sig .tc) → Buf (Elt F) ((c : Thread nD τ).loc b)) (c : Dev nD) (t : Fin cfg7.N) (d) : (dat7 V c).before 1 t d = iblk7 V c 1 t :=
  before7_1_of V (dat7 V c) (A_eq7 V c 1) (after7_1 V c) t d
theorem before7_2 (V : (c : Dev nD) → (b : Ref sig .tc) → Buf (Elt F) ((c : Thread nD τ).loc b)) (c : Dev nD) (t : Fin cfg7.N) (d) : (dat7 V c).before 2 t d = iblk7 V c 2 t :=
  before7_2_of V (dat7 V c) (A_eq7 V c 2) (after7_2 V c) t d
theorem before7_3 (V : (c : Dev nD) → (b : Ref sig .tc) → Buf (Elt F) ((c : Thread nD τ).loc b)) (c : Dev nD) (t : Fin cfg7.N) (d) : (dat7 V c).before 3 t d = iblk7 V c 3 t :=
  before7_3_of V (dat7 V c) (A_eq7 V c 3) (after7_3 V c) t d
theorem before7_4 (V : (c : Dev nD) → (b : Ref sig .tc) → Buf (Elt F) ((c : Thread nD τ).loc b)) (c : Dev nD) (t : Fin cfg7.N) (d) : (dat7 V c).before 4 t d = iblk7 V c 4 t :=
  before7_4_of V (dat7 V c) (A_eq7 V c 4) (after7_4 V c) t d
theorem before7_5 (V : (c : Dev nD) → (b : Ref sig .tc) → Buf (Elt F) ((c : Thread nD τ).loc b)) (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t` (the windows one by one), -/
def bodyPre7 (V : (c : Dev nD) → (b : Ref sig .tc) → Buf (Elt F) ((c : Thread nD τ).loc b)) (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (V : (c : Dev nD) → (b : Ref sig .tc) → Buf (Elt F) ((c : Thread nD τ).loc b)) (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the position says which case the point is in; the invariant
    hands the body the accumulator at what the point before left (at anything at the first point), every other scoped buffer and
    the generator register untouched, and takes the accumulator back at this point's contents; the output's buffer is handed back
    untouched where the window is idle and at the last point's store where it is live; the core owes nothing throughout. -/
theorem sound_body7 (V : (c : Dev nD) → (b : Ref sig .tc) → Buf (Elt F) ((c : Thread nD τ).loc b)) (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  by_cases h0 : t.val = 0
  · have h1 : ¬t.val = 9 := by omega
    rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
    rw [outsAt7_A V c t h0 h1]
    unfold sout7_A_0; (try dsimp only)
    rw [PhiS7_castSucc V c t, PhiS7_zero V c _ _ h0, PhiA7_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t) (iblk7 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 9
    · rw [show (dat7 V c).leavesExact 6 t = owns (c : Thread nD τ) (ms7_6 t) fullShare ((dat7 V c).after 6 t) from by
        unfold Dat.leavesExact; rw [liveAt7_6_C t (fun h => h0 ((hcond7_0 t).mp h)) ((hcond7_1 t).mpr h1)], after7_6]
      rw [outsAt7_C V c t h0 h1]
      unfold out7_C_6 sout7_C_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) (iblk7 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover7_C_6 c _ _ _ _ _ _ _ _ _ _ _ _ _ _ _ _ _ _ _ _ _ _ _ _ _ _)
    · rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
      rw [outsAt7_B V c t h0 h1]
      unfold sout7_B_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation7 (V : (c : Dev nD) → (b : Ref sig .tc) → Buf (Elt F) ((c : Thread nD τ).loc b)) (c : Dev nD) :
    BodyObligation (dat7 (F := F) V c) (defs₀ (F := F)) Variants.none () Set.univ := fun t => by
  rw [bigSep_W7, bigSep_W7]
  exact sound_body7 V c t

theorem hin7 (V : (c : Dev nD) → (b : Ref sig .tc) → Buf (Elt F) ((c : Thread nD τ).loc b)) (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (V : (c : Dev nD) → (b : Ref sig .tc) → Buf (Elt F) ((c : Thread nD τ).loc b)) (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

theorem hout7 (V : (c : Dev nD) → (b : Ref sig .tc) → Buf (Elt F) ((c : Thread nD τ).loc b)) (c : Dev nD) : (dat7 V c).Φ (Fin.last cfg7.N) ⊢ (Pipeline.ΦA spec7 c : sProp 𝕄) :=
  Phi_out7 V c _ (by rw [Fin.val_last]; have : cfg7.N = 10 := N_7; omega)

end Cert.KernelIdeal.Reg

end
-- ==== Proof.KI.Bnd.lean ====
/-
  The contents of the core's buffers at every boundary between a stretch of host operations and a kernel region, as a
  fold from the launch memory: a host stretch applies its operations; a region leaves its arrays at what its write-backs
  make of them and every other buffer as entered. Every pipeline's proof data at its region's entry contents. No item
  changes an argument; a buffer a region only reads passes through it.
-/
import proofs.«430410_j38371237822819_1_alg».proof.Proof.KI.Reg0
import proofs.«430410_j38371237822819_1_alg».proof.Proof.KI.Reg1
import proofs.«430410_j38371237822819_1_alg».proof.Proof.KI.Reg2
import proofs.«430410_j38371237822819_1_alg».proof.Proof.KI.Reg3
import proofs.«430410_j38371237822819_1_alg».proof.Proof.KI.Reg4
import proofs.«430410_j38371237822819_1_alg».proof.Proof.KI.Reg5
import proofs.«430410_j38371237822819_1_alg».proof.Proof.KI.Reg6
import proofs.«430410_j38371237822819_1_alg».proof.Proof.KI.Reg7
import proofs.«430410_j38371237822819_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-- Core c's buffers at launch. -/
abbrev B0 : Dev nD → Valuation τ sig (Elt F) := fun c b => m (c, b)

/-- After the host stretch before region 0. -/
abbrev B1 : Dev nD → Valuation τ sig (Elt F) := fun c => StableHlo.after hostOps0 (B0 m c)
theorem B1_of (c : Dev nD) (r : Ref sig .tc) (h : r ∉ hostOps0_W) : B1 m c r = B0 m c r :=
  StableHlo.after_of_writes_sub hostOps0 _ hostOps0_writes h
/-- The same read at the TensorCore's references: what region 0's proof data take. -/
abbrev E1 : (c : Dev nD) → (b : Ref sig .tc) → Buf (Elt F) ((c : Thread nD τ).loc b) := fun c b => B1 m c b
/-- At region 0's exit: its arrays at what the write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem hF0 (c : Dev nD) (w : Fin cfg0.W) : (dat0 (E1 m) c).arrAt w cfg0.N = X2 m c (Pipeline.arrRef spec0 w) :=
  (B2_arr m c w).symm
theorem hrest0 (c : Dev nD) : ∀ b, b ∉ Finset.univ.image (Pipeline.arrRef spec0) → X2 m c b = E1 m c b :=
  fun b hb => B2_of_ne m c b fun w e => hb (Finset.mem_image.mpr ⟨w, Finset.mem_univ _, e⟩)
set_option maxHeartbeats 1600000 in
/-- A buffer region 0 does not write passes through it: an array it only reads is handed back as entered. -/
theorem B2_keep (c : Dev nD) (b : Ref sig .tc) (hb : b ∉ ([main_v19_0, main_v19_1, main_v19_2] : List (Ref sig .tc))) :
    B2 m c (Proc.devRef .tc b) = B1 m c (Proc.devRef .tc b) := by
  by_cases h : ∃ w, Pipeline.arrRef spec0 w = b
  · obtain ⟨w, rfl⟩ := h
    match w, hb with
    | 0, _ => exact (B2_arr m c 0).trans (((dat0 (E1 m) c).arrAt_in 0 rfl _).trans (A_eq0 (E1 m) c 0))
    | 1, _ => exact (B2_arr m c 1).trans (((dat0 (E1 m) c).arrAt_in 1 rfl _).trans (A_eq0 (E1 m) c 1))
    | 2, _ => exact (B2_arr m c 2).trans (((dat0 (E1 m) c).arrAt_in 2 rfl _).trans (A_eq0 (E1 m) c 2))
    | 3, _ => exact (B2_arr m c 3).trans (((dat0 (E1 m) c).arrAt_in 3 rfl _).trans (A_eq0 (E1 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B2_of_ne m c b fun w e => h ⟨w, e⟩

/-- After the host stretch before region 1. -/
abbrev B3 : Dev nD → Valuation τ sig (Elt F) := fun c => StableHlo.after hostOps1 (B2 m c)
theorem B3_of (c : Dev nD) (r : Ref sig .tc) (h : r ∉ hostOps1_W) : B3 m c r = B2 m c r :=
  StableHlo.after_of_writes_sub hostOps1 _ hostOps1_writes h
/-- The same read at the TensorCore's references: what region 1's proof data take. -/
abbrev E3 : (c : Dev nD) → (b : Ref sig .tc) → Buf (Elt F) ((c : Thread nD τ).loc b) := fun c b => B3 m c b
/-- At region 1's exit: its arrays at what the write-backs leave, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem hF1 (c : Dev nD) (w : Fin cfg1.W) : (dat1 (E3 m) c).arrAt w cfg1.N = X4 m c (Pipeline.arrRef spec1 w) :=
  (B4_arr m c w).symm
theorem hrest1 (c : Dev nD) : ∀ b, b ∉ Finset.univ.image (Pipeline.arrRef spec1) → X4 m c b = E3 m c b :=
  fun b hb => B4_of_ne m c b fun w e => hb (Finset.mem_image.mpr ⟨w, Finset.mem_univ _, e⟩)
set_option maxHeartbeats 1600000 in
/-- A buffer region 1 does not write passes through it: an array it only reads is handed back as entered. -/
theorem B4_keep (c : Dev nD) (b : Ref sig .tc) (hb : b ∉ ([main_v37] : List (Ref sig .tc))) :
    B4 m c (Proc.devRef .tc b) = B3 m c (Proc.devRef .tc b) := by
  by_cases h : ∃ w, Pipeline.arrRef spec1 w = b
  · obtain ⟨w, rfl⟩ := h
    match w, hb with
    | 0, _ => exact (B4_arr m c 0).trans (((dat1 (E3 m) c).arrAt_in 0 rfl _).trans (A_eq1 (E3 m) c 0))
    | 1, _ => exact (B4_arr m c 1).trans (((dat1 (E3 m) c).arrAt_in 1 rfl _).trans (A_eq1 (E3 m) c 1))
    | 2, _ => exact (B4_arr m c 2).trans (((dat1 (E3 m) c).arrAt_in 2 rfl _).trans (A_eq1 (E3 m) c 2))
    | 3, _ => exact (B4_arr m c 3).trans (((dat1 (E3 m) c).arrAt_in 3 rfl _).trans (A_eq1 (E3 m) c 3))
    | 4, _ => exact (B4_arr m c 4).trans (((dat1 (E3 m) c).arrAt_in 4 rfl _).trans (A_eq1 (E3 m) c 4))
    | 5, _ => exact (B4_arr m c 5).trans (((dat1 (E3 m) c).arrAt_in 5 rfl _).trans (A_eq1 (E3 m) c 5))
    | 6, _ => exact (B4_arr m c 6).trans (((dat1 (E3 m) c).arrAt_in 6 rfl _).trans (A_eq1 (E3 m) c 6))
    | 7, hb => exact absurd (by decide) hb
    | ⟨_ + 8, h⟩, _ => exact absurd h (Nat.not_lt.2 (Nat.le_add_left _ _))
  · exact B4_of_ne m c b fun w e => h ⟨w, e⟩

/-- After the host stretch before region 2. -/
abbrev B5 : Dev nD → Valuation τ sig (Elt F) := fun c => StableHlo.after hostOps2 (B4 m c)
theorem B5_of (c : Dev nD) (r : Ref sig .tc) (h : r ∉ hostOps2_W) : B5 m c r = B4 m c r :=
  StableHlo.after_of_writes_sub hostOps2 _ hostOps2_writes h
/-- The same read at the TensorCore's references: what region 2's proof data take. -/
abbrev E5 : (c : Dev nD) → (b : Ref sig .tc) → Buf (Elt F) ((c : Thread nD τ).loc b) := fun c b => B5 m c b
/-- At region 2's exit: its arrays at what the write-backs leave, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem hF2 (c : Dev nD) (w : Fin cfg2.W) : (dat2 (E5 m) c).arrAt w cfg2.N = X6 m c (Pipeline.arrRef spec2 w) :=
  (B6_arr m c w).symm
theorem hrest2 (c : Dev nD) : ∀ b, b ∉ Finset.univ.image (Pipeline.arrRef spec2) → X6 m c b = E5 m c b :=
  fun b hb => B6_of_ne m c b fun w e => hb (Finset.mem_image.mpr ⟨w, Finset.mem_univ _, e⟩)
set_option maxHeartbeats 1600000 in
/-- A buffer region 2 does not write passes through it: an array it only reads is handed back as entered. -/
theorem B6_keep (c : Dev nD) (b : Ref sig .tc) (hb : b ∉ ([main_v53_0, main_v53_1, main_v53_2] : List (Ref sig .tc))) :
    B6 m c (Proc.devRef .tc b) = B5 m c (Proc.devRef .tc b) := by
  by_cases h : ∃ w, Pipeline.arrRef spec2 w = b
  · obtain ⟨w, rfl⟩ := h
    match w, hb with
    | 0, _ => exact (B6_arr m c 0).trans (((dat2 (E5 m) c).arrAt_in 0 rfl _).trans (A_eq2 (E5 m) c 0))
    | 1, _ => exact (B6_arr m c 1).trans (((dat2 (E5 m) c).arrAt_in 1 rfl _).trans (A_eq2 (E5 m) c 1))
    | 2, _ => exact (B6_arr m c 2).trans (((dat2 (E5 m) c).arrAt_in 2 rfl _).trans (A_eq2 (E5 m) c 2))
    | 3, _ => exact (B6_arr m c 3).trans (((dat2 (E5 m) c).arrAt_in 3 rfl _).trans (A_eq2 (E5 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B6_of_ne m c b fun w e => h ⟨w, e⟩

/-- After the host stretch before region 3. -/
abbrev B7 : Dev nD → Valuation τ sig (Elt F) := fun c => StableHlo.after hostOps3 (B6 m c)
theorem B7_of (c : Dev nD) (r : Ref sig .tc) (h : r ∉ hostOps3_W) : B7 m c r = B6 m c r :=
  StableHlo.after_of_writes_sub hostOps3 _ hostOps3_writes h
/-- The same read at the TensorCore's references: what region 3's proof data take. -/
abbrev E7 : (c : Dev nD) → (b : Ref sig .tc) → Buf (Elt F) ((c : Thread nD τ).loc b) := fun c b => B7 m c b
/-- At region 3's exit: its arrays at what the write-backs leave, every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem hF3 (c : Dev nD) (w : Fin cfg3.W) : (dat3 (E7 m) c).arrAt w cfg3.N = X8 m c (Pipeline.arrRef spec3 w) :=
  (B8_arr m c w).symm
theorem hrest3 (c : Dev nD) : ∀ b, b ∉ Finset.univ.image (Pipeline.arrRef spec3) → X8 m c b = E7 m c b :=
  fun b hb => B8_of_ne m c b fun w e => hb (Finset.mem_image.mpr ⟨w, Finset.mem_univ _, e⟩)
set_option maxHeartbeats 1600000 in
/-- A buffer region 3 does not write passes through it: an array it only reads is handed back as entered. -/
theorem B8_keep (c : Dev nD) (b : Ref sig .tc) (hb : b ∉ ([main_v71] : List (Ref sig .tc))) :
    B8 m c (Proc.devRef .tc b) = B7 m c (Proc.devRef .tc b) := by
  by_cases h : ∃ w, Pipeline.arrRef spec3 w = b
  · obtain ⟨w, rfl⟩ := h
    match w, hb with
    | 0, _ => exact (B8_arr m c 0).trans (((dat3 (E7 m) c).arrAt_in 0 rfl _).trans (A_eq3 (E7 m) c 0))
    | 1, _ => exact (B8_arr m c 1).trans (((dat3 (E7 m) c).arrAt_in 1 rfl _).trans (A_eq3 (E7 m) c 1))
    | 2, _ => exact (B8_arr m c 2).trans (((dat3 (E7 m) c).arrAt_in 2 rfl _).trans (A_eq3 (E7 m) c 2))
    | 3, _ => exact (B8_arr m c 3).trans (((dat3 (E7 m) c).arrAt_in 3 rfl _).trans (A_eq3 (E7 m) c 3))
    | 4, _ => exact (B8_arr m c 4).trans (((dat3 (E7 m) c).arrAt_in 4 rfl _).trans (A_eq3 (E7 m) c 4))
    | 5, _ => exact (B8_arr m c 5).trans (((dat3 (E7 m) c).arrAt_in 5 rfl _).trans (A_eq3 (E7 m) c 5))
    | 6, _ => exact (B8_arr m c 6).trans (((dat3 (E7 m) c).arrAt_in 6 rfl _).trans (A_eq3 (E7 m) c 6))
    | 7, hb => exact absurd (by decide) hb
    | ⟨_ + 8, h⟩, _ => exact absurd h (Nat.not_lt.2 (Nat.le_add_left _ _))
  · exact B8_of_ne m c b fun w e => h ⟨w, e⟩

/-- After the host stretch before region 4. -/
abbrev B9 : Dev nD → Valuation τ sig (Elt F) := fun c => StableHlo.after hostOps4 (B8 m c)
theorem B9_of (c : Dev nD) (r : Ref sig .tc) (h : r ∉ hostOps4_W) : B9 m c r = B8 m c r :=
  StableHlo.after_of_writes_sub hostOps4 _ hostOps4_writes h
/-- The same read at the TensorCore's references: what region 4's proof data take. -/
abbrev E9 : (c : Dev nD) → (b : Ref sig .tc) → Buf (Elt F) ((c : Thread nD τ).loc b) := fun c b => B9 m c b
/-- At region 4's exit: its arrays at what the write-backs leave, every other buffer as entered. -/
def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev X10 : (c : Dev nD) → (b : Ref sig .tc) → Buf (Elt F) ((c : Thread nD τ).loc b) := fun c b => B10 m c b
theorem hF4 (c : Dev nD) (w : Fin cfg4.W) : (dat4 (E9 m) c).arrAt w cfg4.N = X10 m c (Pipeline.arrRef spec4 w) :=
  (B10_arr m c w).symm
theorem hrest4 (c : Dev nD) : ∀ b, b ∉ Finset.univ.image (Pipeline.arrRef spec4) → X10 m c b = E9 m c b :=
  fun b hb => B10_of_ne m c b fun w e => hb (Finset.mem_image.mpr ⟨w, Finset.mem_univ _, e⟩)
set_option maxHeartbeats 1600000 in
/-- A buffer region 4 does not write passes through it: an array it only reads is handed back as entered. -/
theorem B10_keep (c : Dev nD) (b : Ref sig .tc) (hb : b ∉ ([main_v87_0, main_v87_1, main_v87_2] : List (Ref sig .tc))) :
    B10 m c (Proc.devRef .tc b) = B9 m c (Proc.devRef .tc b) := by
  by_cases h : ∃ w, Pipeline.arrRef spec4 w = b
  · obtain ⟨w, rfl⟩ := h
    match w, hb with
    | 0, _ => exact (B10_arr m c 0).trans (((dat4 (E9 m) c).arrAt_in 0 rfl _).trans (A_eq4 (E9 m) c 0))
    | 1, _ => exact (B10_arr m c 1).trans (((dat4 (E9 m) c).arrAt_in 1 rfl _).trans (A_eq4 (E9 m) c 1))
    | 2, _ => exact (B10_arr m c 2).trans (((dat4 (E9 m) c).arrAt_in 2 rfl _).trans (A_eq4 (E9 m) c 2))
    | 3, _ => exact (B10_arr m c 3).trans (((dat4 (E9 m) c).arrAt_in 3 rfl _).trans (A_eq4 (E9 m) c 3))
    | 4, hb => exact absurd (by decide) hb
    | 5, hb => exact absurd (by decide) hb
    | 6, hb => exact absurd (by decide) hb
    | ⟨_ + 7, h⟩, _ => exact absurd h (Nat.not_lt.2 (Nat.le_add_left _ _))
  · exact B10_of_ne m c b fun w e => h ⟨w, e⟩

/-- After the host stretch before region 5. -/
abbrev B11 : Dev nD → Valuation τ sig (Elt F) := fun c => StableHlo.after hostOps5 (B10 m c)
theorem B11_of (c : Dev nD) (r : Ref sig .tc) (h : r ∉ hostOps5_W) : B11 m c r = B10 m c r :=
  StableHlo.after_of_writes_sub hostOps5 _ hostOps5_writes h
/-- The same read at the TensorCore's references: what region 5's proof data take. -/
abbrev E11 : (c : Dev nD) → (b : Ref sig .tc) → Buf (Elt F) ((c : Thread nD τ).loc b) := fun c b => B11 m c b
/-- At region 5's exit: its arrays at what the write-backs leave, every other buffer as entered. -/
def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev X12 : (c : Dev nD) → (b : Ref sig .tc) → Buf (Elt F) ((c : Thread nD τ).loc b) := fun c b => B12 m c b
theorem hF5 (c : Dev nD) (w : Fin cfg5.W) : (dat5 (E11 m) c).arrAt w cfg5.N = X12 m c (Pipeline.arrRef spec5 w) :=
  (B12_arr m c w).symm
theorem hrest5 (c : Dev nD) : ∀ b, b ∉ Finset.univ.image (Pipeline.arrRef spec5) → X12 m c b = E11 m c b :=
  fun b hb => B12_of_ne m c b fun w e => hb (Finset.mem_image.mpr ⟨w, Finset.mem_univ _, e⟩)
set_option maxHeartbeats 1600000 in
/-- A buffer region 5 does not write passes through it: an array it only reads is handed back as entered. -/
theorem B12_keep (c : Dev nD) (b : Ref sig .tc) (hb : b ∉ ([main_v105] : List (Ref sig .tc))) :
    B12 m c (Proc.devRef .tc b) = B11 m c (Proc.devRef .tc b) := by
  by_cases h : ∃ w, Pipeline.arrRef spec5 w = b
  · obtain ⟨w, rfl⟩ := h
    match w, hb with
    | 0, _ => exact (B12_arr m c 0).trans (((dat5 (E11 m) c).arrAt_in 0 rfl _).trans (A_eq5 (E11 m) c 0))
    | 1, _ => exact (B12_arr m c 1).trans (((dat5 (E11 m) c).arrAt_in 1 rfl _).trans (A_eq5 (E11 m) c 1))
    | 2, _ => exact (B12_arr m c 2).trans (((dat5 (E11 m) c).arrAt_in 2 rfl _).trans (A_eq5 (E11 m) c 2))
    | 3, _ => exact (B12_arr m c 3).trans (((dat5 (E11 m) c).arrAt_in 3 rfl _).trans (A_eq5 (E11 m) c 3))
    | 4, _ => exact (B12_arr m c 4).trans (((dat5 (E11 m) c).arrAt_in 4 rfl _).trans (A_eq5 (E11 m) c 4))
    | 5, _ => exact (B12_arr m c 5).trans (((dat5 (E11 m) c).arrAt_in 5 rfl _).trans (A_eq5 (E11 m) c 5))
    | 6, _ => exact (B12_arr m c 6).trans (((dat5 (E11 m) c).arrAt_in 6 rfl _).trans (A_eq5 (E11 m) c 6))
    | 7, hb => exact absurd (by decide) hb
    | ⟨_ + 8, h⟩, _ => exact absurd h (Nat.not_lt.2 (Nat.le_add_left _ _))
  · exact B12_of_ne m c b fun w e => h ⟨w, e⟩

/-- After the host stretch before region 6. -/
abbrev B13 : Dev nD → Valuation τ sig (Elt F) := fun c => StableHlo.after hostOps6 (B12 m c)
theorem B13_of (c : Dev nD) (r : Ref sig .tc) (h : r ∉ hostOps6_W) : B13 m c r = B12 m c r :=
  StableHlo.after_of_writes_sub hostOps6 _ hostOps6_writes h
/-- The same read at the TensorCore's references: what region 6's proof data take. -/
abbrev E13 : (c : Dev nD) → (b : Ref sig .tc) → Buf (Elt F) ((c : Thread nD τ).loc b) := fun c b => B13 m c b
/-- At region 6's exit: its arrays at what the write-backs leave, every other buffer as entered. -/
def B14 (c : Dev nD) : Valuation τ sig (Elt F) :=
  Pipeline.withArrays spec6 c (B13 m c) fun w => (dat6 (E13 m) c).arrAt w cfg6.N
theorem B14_arr (c : Dev nD) (w : Fin cfg6.W) :
    B14 m c (Proc.devRef .tc (Pipeline.arrRef spec6 w)) = (dat6 (E13 m) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m c (Proc.devRef .tc b) = B13 m c (Proc.devRef .tc b) := by
  unfold B14; exact Pipeline.withArrays_of_ne spec6 c _ _ b hb
abbrev X14 : (c : Dev nD) → (b : Ref sig .tc) → Buf (Elt F) ((c : Thread nD τ).loc b) := fun c b => B14 m c b
theorem hF6 (c : Dev nD) (w : Fin cfg6.W) : (dat6 (E13 m) c).arrAt w cfg6.N = X14 m c (Pipeline.arrRef spec6 w) :=
  (B14_arr m c w).symm
theorem hrest6 (c : Dev nD) : ∀ b, b ∉ Finset.univ.image (Pipeline.arrRef spec6) → X14 m c b = E13 m c b :=
  fun b hb => B14_of_ne m c b fun w e => hb (Finset.mem_image.mpr ⟨w, Finset.mem_univ _, e⟩)
set_option maxHeartbeats 1600000 in
/-- A buffer region 6 does not write passes through it: an array it only reads is handed back as entered. -/
theorem B14_keep (c : Dev nD) (b : Ref sig .tc) (hb : b ∉ ([main_v109] : List (Ref sig .tc))) :
    B14 m c (Proc.devRef .tc b) = B13 m c (Proc.devRef .tc b) := by
  by_cases h : ∃ w, Pipeline.arrRef spec6 w = b
  · obtain ⟨w, rfl⟩ := h
    match w, hb with
    | 0, _ => exact (B14_arr m c 0).trans (((dat6 (E13 m) c).arrAt_in 0 rfl _).trans (A_eq6 (E13 m) c 0))
    | 1, _ => exact (B14_arr m c 1).trans (((dat6 (E13 m) c).arrAt_in 1 rfl _).trans (A_eq6 (E13 m) c 1))
    | 2, _ => exact (B14_arr m c 2).trans (((dat6 (E13 m) c).arrAt_in 2 rfl _).trans (A_eq6 (E13 m) c 2))
    | 3, _ => exact (B14_arr m c 3).trans (((dat6 (E13 m) c).arrAt_in 3 rfl _).trans (A_eq6 (E13 m) c 3))
    | 4, _ => exact (B14_arr m c 4).trans (((dat6 (E13 m) c).arrAt_in 4 rfl _).trans (A_eq6 (E13 m) c 4))
    | 5, _ => exact (B14_arr m c 5).trans (((dat6 (E13 m) c).arrAt_in 5 rfl _).trans (A_eq6 (E13 m) c 5))
    | 6, _ => exact (B14_arr m c 6).trans (((dat6 (E13 m) c).arrAt_in 6 rfl _).trans (A_eq6 (E13 m) c 6))
    | 7, hb => exact absurd (by decide) hb
    | ⟨_ + 8, h⟩, _ => exact absurd h (Nat.not_lt.2 (Nat.le_add_left _ _))
  · exact B14_of_ne m c b fun w e => h ⟨w, e⟩

/-- After the host stretch before region 7. -/
abbrev B15 : Dev nD → Valuation τ sig (Elt F) := fun c => StableHlo.after hostOps7 (B14 m c)
theorem B15_of (c : Dev nD) (r : Ref sig .tc) (h : r ∉ hostOps7_W) : B15 m c r = B14 m c r :=
  StableHlo.after_of_writes_sub hostOps7 _ hostOps7_writes h
/-- The same read at the TensorCore's references: what region 7's proof data take. -/
abbrev E15 : (c : Dev nD) → (b : Ref sig .tc) → Buf (Elt F) ((c : Thread nD τ).loc b) := fun c b => B15 m c b
/-- At region 7's exit: its arrays at what the write-backs leave, every other buffer as entered. -/
def B16 (c : Dev nD) : Valuation τ sig (Elt F) :=
  Pipeline.withArrays spec7 c (B15 m c) fun w => (dat7 (E15 m) c).arrAt w cfg7.N
theorem B16_arr (c : Dev nD) (w : Fin cfg7.W) :
    B16 m c (Proc.devRef .tc (Pipeline.arrRef spec7 w)) = (dat7 (E15 m) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m c (Proc.devRef .tc b) = B15 m c (Proc.devRef .tc b) := by
  unfold B16; exact Pipeline.withArrays_of_ne spec7 c _ _ b hb
abbrev X16 : (c : Dev nD) → (b : Ref sig .tc) → Buf (Elt F) ((c : Thread nD τ).loc b) := fun c b => B16 m c b
theorem hF7 (c : Dev nD) (w : Fin cfg7.W) : (dat7 (E15 m) c).arrAt w cfg7.N = X16 m c (Pipeline.arrRef spec7 w) :=
  (B16_arr m c w).symm
theorem hrest7 (c : Dev nD) : ∀ b, b ∉ Finset.univ.image (Pipeline.arrRef spec7) → X16 m c b = E15 m c b :=
  fun b hb => B16_of_ne m c b fun w e => hb (Finset.mem_image.mpr ⟨w, Finset.mem_univ _, e⟩)
set_option maxHeartbeats 1600000 in
/-- A buffer region 7 does not write passes through it: an array it only reads is handed back as entered. -/
theorem B16_keep (c : Dev nD) (b : Ref sig .tc) (hb : b ∉ ([main_v119] : List (Ref sig .tc))) :
    B16 m c (Proc.devRef .tc b) = B15 m c (Proc.devRef .tc b) := by
  by_cases h : ∃ w, Pipeline.arrRef spec7 w = b
  · obtain ⟨w, rfl⟩ := h
    match w, hb with
    | 0, _ => exact (B16_arr m c 0).trans (((dat7 (E15 m) c).arrAt_in 0 rfl _).trans (A_eq7 (E15 m) c 0))
    | 1, _ => exact (B16_arr m c 1).trans (((dat7 (E15 m) c).arrAt_in 1 rfl _).trans (A_eq7 (E15 m) c 1))
    | 2, _ => exact (B16_arr m c 2).trans (((dat7 (E15 m) c).arrAt_in 2 rfl _).trans (A_eq7 (E15 m) c 2))
    | 3, _ => exact (B16_arr m c 3).trans (((dat7 (E15 m) c).arrAt_in 3 rfl _).trans (A_eq7 (E15 m) c 3))
    | 4, _ => exact (B16_arr m c 4).trans (((dat7 (E15 m) c).arrAt_in 4 rfl _).trans (A_eq7 (E15 m) c 4))
    | 5, _ => exact (B16_arr m c 5).trans (((dat7 (E15 m) c).arrAt_in 5 rfl _).trans (A_eq7 (E15 m) c 5))
    | 6, hb => exact absurd (by decide) hb
    | ⟨_ + 7, h⟩, _ => exact absurd h (Nat.not_lt.2 (Nat.le_add_left _ _))
  · exact B16_of_ne m c b fun w e => h ⟨w, e⟩

/-! ## The proof data family -/

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨_ + 8, h⟩ => absurd h (Nat.not_lt.2 (Nat.le_add_left _ _))

/-! ## No item changes an argument -/

theorem B16_main_arg0 (c : Dev nD) : B16 m c (Proc.devRef .tc main_arg0) = m ((c : Thread nD τ).loc main_arg0) :=
  (B16_keep m c main_arg0 (by decide)).trans <| (B15_of m c main_arg0 (by decide)).trans <| (B14_keep m c main_arg0 (by decide)).trans <| (B13_of m c main_arg0 (by decide)).trans <| (B12_keep m c main_arg0 (by decide)).trans <| (B11_of m c main_arg0 (by decide)).trans <| (B10_keep m c main_arg0 (by decide)).trans <| (B9_of m c main_arg0 (by decide)).trans <| (B8_keep m c main_arg0 (by decide)).trans <| (B7_of m c main_arg0 (by decide)).trans <| (B6_keep m c main_arg0 (by decide)).trans <| (B5_of m c main_arg0 (by decide)).trans <| (B4_keep m c main_arg0 (by decide)).trans <| (B3_of m c main_arg0 (by decide)).trans <| (B2_keep m c main_arg0 (by decide)).trans <| (B1_of m c main_arg0 (by decide))

theorem B16_main_arg1 (c : Dev nD) : B16 m c (Proc.devRef .tc main_arg1) = m ((c : Thread nD τ).loc main_arg1) :=
  (B16_keep m c main_arg1 (by decide)).trans <| (B15_of m c main_arg1 (by decide)).trans <| (B14_keep m c main_arg1 (by decide)).trans <| (B13_of m c main_arg1 (by decide)).trans <| (B12_keep m c main_arg1 (by decide)).trans <| (B11_of m c main_arg1 (by decide)).trans <| (B10_keep m c main_arg1 (by decide)).trans <| (B9_of m c main_arg1 (by decide)).trans <| (B8_keep m c main_arg1 (by decide)).trans <| (B7_of m c main_arg1 (by decide)).trans <| (B6_keep m c main_arg1 (by decide)).trans <| (B5_of m c main_arg1 (by decide)).trans <| (B4_keep m c main_arg1 (by decide)).trans <| (B3_of m c main_arg1 (by decide)).trans <| (B2_keep m c main_arg1 (by decide)).trans <| (B1_of m c main_arg1 (by decide))

theorem B16_main_arg2 (c : Dev nD) : B16 m c (Proc.devRef .tc main_arg2) = m ((c : Thread nD τ).loc main_arg2) :=
  (B16_keep m c main_arg2 (by decide)).trans <| (B15_of m c main_arg2 (by decide)).trans <| (B14_keep m c main_arg2 (by decide)).trans <| (B13_of m c main_arg2 (by decide)).trans <| (B12_keep m c main_arg2 (by decide)).trans <| (B11_of m c main_arg2 (by decide)).trans <| (B10_keep m c main_arg2 (by decide)).trans <| (B9_of m c main_arg2 (by decide)).trans <| (B8_keep m c main_arg2 (by decide)).trans <| (B7_of m c main_arg2 (by decide)).trans <| (B6_keep m c main_arg2 (by decide)).trans <| (B5_of m c main_arg2 (by decide)).trans <| (B4_keep m c main_arg2 (by decide)).trans <| (B3_of m c main_arg2 (by decide)).trans <| (B2_keep m c main_arg2 (by decide)).trans <| (B1_of m c main_arg2 (by decide))

theorem B16_main_arg3 (c : Dev nD) : B16 m c (Proc.devRef .tc main_arg3) = m ((c : Thread nD τ).loc main_arg3) :=
  (B16_keep m c main_arg3 (by decide)).trans <| (B15_of m c main_arg3 (by decide)).trans <| (B14_keep m c main_arg3 (by decide)).trans <| (B13_of m c main_arg3 (by decide)).trans <| (B12_keep m c main_arg3 (by decide)).trans <| (B11_of m c main_arg3 (by decide)).trans <| (B10_keep m c main_arg3 (by decide)).trans <| (B9_of m c main_arg3 (by decide)).trans <| (B8_keep m c main_arg3 (by decide)).trans <| (B7_of m c main_arg3 (by decide)).trans <| (B6_keep m c main_arg3 (by decide)).trans <| (B5_of m c main_arg3 (by decide)).trans <| (B4_keep m c main_arg3 (by decide)).trans <| (B3_of m c main_arg3 (by decide)).trans <| (B2_keep m c main_arg3 (by decide)).trans <| (B1_of m c main_arg3 (by decide))

theorem B16_main_arg4 (c : Dev nD) : B16 m c (Proc.devRef .tc main_arg4) = m ((c : Thread nD τ).loc main_arg4) :=
  (B16_keep m c main_arg4 (by decide)).trans <| (B15_of m c main_arg4 (by decide)).trans <| (B14_keep m c main_arg4 (by decide)).trans <| (B13_of m c main_arg4 (by decide)).trans <| (B12_keep m c main_arg4 (by decide)).trans <| (B11_of m c main_arg4 (by decide)).trans <| (B10_keep m c main_arg4 (by decide)).trans <| (B9_of m c main_arg4 (by decide)).trans <| (B8_keep m c main_arg4 (by decide)).trans <| (B7_of m c main_arg4 (by decide)).trans <| (B6_keep m c main_arg4 (by decide)).trans <| (B5_of m c main_arg4 (by decide)).trans <| (B4_keep m c main_arg4 (by decide)).trans <| (B3_of m c main_arg4 (by decide)).trans <| (B2_keep m c main_arg4 (by decide)).trans <| (B1_of m c main_arg4 (by decide))

theorem B16_main_arg5 (c : Dev nD) : B16 m c (Proc.devRef .tc main_arg5) = m ((c : Thread nD τ).loc main_arg5) :=
  (B16_keep m c main_arg5 (by decide)).trans <| (B15_of m c main_arg5 (by decide)).trans <| (B14_keep m c main_arg5 (by decide)).trans <| (B13_of m c main_arg5 (by decide)).trans <| (B12_keep m c main_arg5 (by decide)).trans <| (B11_of m c main_arg5 (by decide)).trans <| (B10_keep m c main_arg5 (by decide)).trans <| (B9_of m c main_arg5 (by decide)).trans <| (B8_keep m c main_arg5 (by decide)).trans <| (B7_of m c main_arg5 (by decide)).trans <| (B6_keep m c main_arg5 (by decide)).trans <| (B5_of m c main_arg5 (by decide)).trans <| (B4_keep m c main_arg5 (by decide)).trans <| (B3_of m c main_arg5 (by decide)).trans <| (B2_keep m c main_arg5 (by decide)).trans <| (B1_of m c main_arg5 (by decide))

theorem B16_main_arg6 (c : Dev nD) : B16 m c (Proc.devRef .tc main_arg6) = m ((c : Thread nD τ).loc main_arg6) :=
  (B16_keep m c main_arg6 (by decide)).trans <| (B15_of m c main_arg6 (by decide)).trans <| (B14_keep m c main_arg6 (by decide)).trans <| (B13_of m c main_arg6 (by decide)).trans <| (B12_keep m c main_arg6 (by decide)).trans <| (B11_of m c main_arg6 (by decide)).trans <| (B10_keep m c main_arg6 (by decide)).trans <| (B9_of m c main_arg6 (by decide)).trans <| (B8_keep m c main_arg6 (by decide)).trans <| (B7_of m c main_arg6 (by decide)).trans <| (B6_keep m c main_arg6 (by decide)).trans <| (B5_of m c main_arg6 (by decide)).trans <| (B4_keep m c main_arg6 (by decide)).trans <| (B3_of m c main_arg6 (by decide)).trans <| (B2_keep m c main_arg6 (by decide)).trans <| (B1_of m c main_arg6 (by decide))

theorem B16_main_arg7 (c : Dev nD) : B16 m c (Proc.devRef .tc main_arg7) = m ((c : Thread nD τ).loc main_arg7) :=
  (B16_keep m c main_arg7 (by decide)).trans <| (B15_of m c main_arg7 (by decide)).trans <| (B14_keep m c main_arg7 (by decide)).trans <| (B13_of m c main_arg7 (by decide)).trans <| (B12_keep m c main_arg7 (by decide)).trans <| (B11_of m c main_arg7 (by decide)).trans <| (B10_keep m c main_arg7 (by decide)).trans <| (B9_of m c main_arg7 (by decide)).trans <| (B8_keep m c main_arg7 (by decide)).trans <| (B7_of m c main_arg7 (by decide)).trans <| (B6_keep m c main_arg7 (by decide)).trans <| (B5_of m c main_arg7 (by decide)).trans <| (B4_keep m c main_arg7 (by decide)).trans <| (B3_of m c main_arg7 (by decide)).trans <| (B2_keep m c main_arg7 (by decide)).trans <| (B1_of m c main_arg7 (by decide))

theorem B16_main_arg8 (c : Dev nD) : B16 m c (Proc.devRef .tc main_arg8) = m ((c : Thread nD τ).loc main_arg8) :=
  (B16_keep m c main_arg8 (by decide)).trans <| (B15_of m c main_arg8 (by decide)).trans <| (B14_keep m c main_arg8 (by decide)).trans <| (B13_of m c main_arg8 (by decide)).trans <| (B12_keep m c main_arg8 (by decide)).trans <| (B11_of m c main_arg8 (by decide)).trans <| (B10_keep m c main_arg8 (by decide)).trans <| (B9_of m c main_arg8 (by decide)).trans <| (B8_keep m c main_arg8 (by decide)).trans <| (B7_of m c main_arg8 (by decide)).trans <| (B6_keep m c main_arg8 (by decide)).trans <| (B5_of m c main_arg8 (by decide)).trans <| (B4_keep m c main_arg8 (by decide)).trans <| (B3_of m c main_arg8 (by decide)).trans <| (B2_keep m c main_arg8 (by decide)).trans <| (B1_of m c main_arg8 (by decide))

theorem B16_main_arg9 (c : Dev nD) : B16 m c (Proc.devRef .tc main_arg9) = m ((c : Thread nD τ).loc main_arg9) :=
  (B16_keep m c main_arg9 (by decide)).trans <| (B15_of m c main_arg9 (by decide)).trans <| (B14_keep m c main_arg9 (by decide)).trans <| (B13_of m c main_arg9 (by decide)).trans <| (B12_keep m c main_arg9 (by decide)).trans <| (B11_of m c main_arg9 (by decide)).trans <| (B10_keep m c main_arg9 (by decide)).trans <| (B9_of m c main_arg9 (by decide)).trans <| (B8_keep m c main_arg9 (by decide)).trans <| (B7_of m c main_arg9 (by decide)).trans <| (B6_keep m c main_arg9 (by decide)).trans <| (B5_of m c main_arg9 (by decide)).trans <| (B4_keep m c main_arg9 (by decide)).trans <| (B3_of m c main_arg9 (by decide)).trans <| (B2_keep m c main_arg9 (by decide)).trans <| (B1_of m c main_arg9 (by decide))

theorem B16_main_arg10 (c : Dev nD) : B16 m c (Proc.devRef .tc main_arg10) = m ((c : Thread nD τ).loc main_arg10) :=
  (B16_keep m c main_arg10 (by decide)).trans <| (B15_of m c main_arg10 (by decide)).trans <| (B14_keep m c main_arg10 (by decide)).trans <| (B13_of m c main_arg10 (by decide)).trans <| (B12_keep m c main_arg10 (by decide)).trans <| (B11_of m c main_arg10 (by decide)).trans <| (B10_keep m c main_arg10 (by decide)).trans <| (B9_of m c main_arg10 (by decide)).trans <| (B8_keep m c main_arg10 (by decide)).trans <| (B7_of m c main_arg10 (by decide)).trans <| (B6_keep m c main_arg10 (by decide)).trans <| (B5_of m c main_arg10 (by decide)).trans <| (B4_keep m c main_arg10 (by decide)).trans <| (B3_of m c main_arg10 (by decide)).trans <| (B2_keep m c main_arg10 (by decide)).trans <| (B1_of m c main_arg10 (by decide))

theorem B16_main_arg11 (c : Dev nD) : B16 m c (Proc.devRef .tc main_arg11) = m ((c : Thread nD τ).loc main_arg11) :=
  (B16_keep m c main_arg11 (by decide)).trans <| (B15_of m c main_arg11 (by decide)).trans <| (B14_keep m c main_arg11 (by decide)).trans <| (B13_of m c main_arg11 (by decide)).trans <| (B12_keep m c main_arg11 (by decide)).trans <| (B11_of m c main_arg11 (by decide)).trans <| (B10_keep m c main_arg11 (by decide)).trans <| (B9_of m c main_arg11 (by decide)).trans <| (B8_keep m c main_arg11 (by decide)).trans <| (B7_of m c main_arg11 (by decide)).trans <| (B6_keep m c main_arg11 (by decide)).trans <| (B5_of m c main_arg11 (by decide)).trans <| (B4_keep m c main_arg11 (by decide)).trans <| (B3_of m c main_arg11 (by decide)).trans <| (B2_keep m c main_arg11 (by decide)).trans <| (B1_of m c main_arg11 (by decide))

theorem B16_main_arg12 (c : Dev nD) : B16 m c (Proc.devRef .tc main_arg12) = m ((c : Thread nD τ).loc main_arg12) :=
  (B16_keep m c main_arg12 (by decide)).trans <| (B15_of m c main_arg12 (by decide)).trans <| (B14_keep m c main_arg12 (by decide)).trans <| (B13_of m c main_arg12 (by decide)).trans <| (B12_keep m c main_arg12 (by decide)).trans <| (B11_of m c main_arg12 (by decide)).trans <| (B10_keep m c main_arg12 (by decide)).trans <| (B9_of m c main_arg12 (by decide)).trans <| (B8_keep m c main_arg12 (by decide)).trans <| (B7_of m c main_arg12 (by decide)).trans <| (B6_keep m c main_arg12 (by decide)).trans <| (B5_of m c main_arg12 (by decide)).trans <| (B4_keep m c main_arg12 (by decide)).trans <| (B3_of m c main_arg12 (by decide)).trans <| (B2_keep m c main_arg12 (by decide)).trans <| (B1_of m c main_arg12 (by decide))

theorem B16_main_arg13 (c : Dev nD) : B16 m c (Proc.devRef .tc main_arg13) = m ((c : Thread nD τ).loc main_arg13) :=
  (B16_keep m c main_arg13 (by decide)).trans <| (B15_of m c main_arg13 (by decide)).trans <| (B14_keep m c main_arg13 (by decide)).trans <| (B13_of m c main_arg13 (by decide)).trans <| (B12_keep m c main_arg13 (by decide)).trans <| (B11_of m c main_arg13 (by decide)).trans <| (B10_keep m c main_arg13 (by decide)).trans <| (B9_of m c main_arg13 (by decide)).trans <| (B8_keep m c main_arg13 (by decide)).trans <| (B7_of m c main_arg13 (by decide)).trans <| (B6_keep m c main_arg13 (by decide)).trans <| (B5_of m c main_arg13 (by decide)).trans <| (B4_keep m c main_arg13 (by decide)).trans <| (B3_of m c main_arg13 (by decide)).trans <| (B2_keep m c main_arg13 (by decide)).trans <| (B1_of m c main_arg13 (by decide))

theorem B16_main_arg14 (c : Dev nD) : B16 m c (Proc.devRef .tc main_arg14) = m ((c : Thread nD τ).loc main_arg14) :=
  (B16_keep m c main_arg14 (by decide)).trans <| (B15_of m c main_arg14 (by decide)).trans <| (B14_keep m c main_arg14 (by decide)).trans <| (B13_of m c main_arg14 (by decide)).trans <| (B12_keep m c main_arg14 (by decide)).trans <| (B11_of m c main_arg14 (by decide)).trans <| (B10_keep m c main_arg14 (by decide)).trans <| (B9_of m c main_arg14 (by decide)).trans <| (B8_keep m c main_arg14 (by decide)).trans <| (B7_of m c main_arg14 (by decide)).trans <| (B6_keep m c main_arg14 (by decide)).trans <| (B5_of m c main_arg14 (by decide)).trans <| (B4_keep m c main_arg14 (by decide)).trans <| (B3_of m c main_arg14 (by decide)).trans <| (B2_keep m c main_arg14 (by decide)).trans <| (B1_of m c main_arg14 (by decide))

theorem B16_main_arg15 (c : Dev nD) : B16 m c (Proc.devRef .tc main_arg15) = m ((c : Thread nD τ).loc main_arg15) :=
  (B16_keep m c main_arg15 (by decide)).trans <| (B15_of m c main_arg15 (by decide)).trans <| (B14_keep m c main_arg15 (by decide)).trans <| (B13_of m c main_arg15 (by decide)).trans <| (B12_keep m c main_arg15 (by decide)).trans <| (B11_of m c main_arg15 (by decide)).trans <| (B10_keep m c main_arg15 (by decide)).trans <| (B9_of m c main_arg15 (by decide)).trans <| (B8_keep m c main_arg15 (by decide)).trans <| (B7_of m c main_arg15 (by decide)).trans <| (B6_keep m c main_arg15 (by decide)).trans <| (B5_of m c main_arg15 (by decide)).trans <| (B4_keep m c main_arg15 (by decide)).trans <| (B3_of m c main_arg15 (by decide)).trans <| (B2_keep m c main_arg15 (by decide)).trans <| (B1_of m c main_arg15 (by decide))

theorem B16_main_arg16 (c : Dev nD) : B16 m c (Proc.devRef .tc main_arg16) = m ((c : Thread nD τ).loc main_arg16) :=
  (B16_keep m c main_arg16 (by decide)).trans <| (B15_of m c main_arg16 (by decide)).trans <| (B14_keep m c main_arg16 (by decide)).trans <| (B13_of m c main_arg16 (by decide)).trans <| (B12_keep m c main_arg16 (by decide)).trans <| (B11_of m c main_arg16 (by decide)).trans <| (B10_keep m c main_arg16 (by decide)).trans <| (B9_of m c main_arg16 (by decide)).trans <| (B8_keep m c main_arg16 (by decide)).trans <| (B7_of m c main_arg16 (by decide)).trans <| (B6_keep m c main_arg16 (by decide)).trans <| (B5_of m c main_arg16 (by decide)).trans <| (B4_keep m c main_arg16 (by decide)).trans <| (B3_of m c main_arg16 (by decide)).trans <| (B2_keep m c main_arg16 (by decide)).trans <| (B1_of m c main_arg16 (by decide))

theorem B16_main_arg17 (c : Dev nD) : B16 m c (Proc.devRef .tc main_arg17) = m ((c : Thread nD τ).loc main_arg17) :=
  (B16_keep m c main_arg17 (by decide)).trans <| (B15_of m c main_arg17 (by decide)).trans <| (B14_keep m c main_arg17 (by decide)).trans <| (B13_of m c main_arg17 (by decide)).trans <| (B12_keep m c main_arg17 (by decide)).trans <| (B11_of m c main_arg17 (by decide)).trans <| (B10_keep m c main_arg17 (by decide)).trans <| (B9_of m c main_arg17 (by decide)).trans <| (B8_keep m c main_arg17 (by decide)).trans <| (B7_of m c main_arg17 (by decide)).trans <| (B6_keep m c main_arg17 (by decide)).trans <| (B5_of m c main_arg17 (by decide)).trans <| (B4_keep m c main_arg17 (by decide)).trans <| (B3_of m c main_arg17 (by decide)).trans <| (B2_keep m c main_arg17 (by decide)).trans <| (B1_of m c main_arg17 (by decide))

theorem B16_main_arg18 (c : Dev nD) : B16 m c (Proc.devRef .tc main_arg18) = m ((c : Thread nD τ).loc main_arg18) :=
  (B16_keep m c main_arg18 (by decide)).trans <| (B15_of m c main_arg18 (by decide)).trans <| (B14_keep m c main_arg18 (by decide)).trans <| (B13_of m c main_arg18 (by decide)).trans <| (B12_keep m c main_arg18 (by decide)).trans <| (B11_of m c main_arg18 (by decide)).trans <| (B10_keep m c main_arg18 (by decide)).trans <| (B9_of m c main_arg18 (by decide)).trans <| (B8_keep m c main_arg18 (by decide)).trans <| (B7_of m c main_arg18 (by decide)).trans <| (B6_keep m c main_arg18 (by decide)).trans <| (B5_of m c main_arg18 (by decide)).trans <| (B4_keep m c main_arg18 (by decide)).trans <| (B3_of m c main_arg18 (by decide)).trans <| (B2_keep m c main_arg18 (by decide)).trans <| (B1_of m c main_arg18 (by decide))

/-! ## The results -/

/-- The first result is what the last region leaves in its output array. -/
theorem B16_main_v119 (c : Dev nD) : B16 m c (Proc.devRef .tc main_v119) = (dat7 (E15 m) c).arrAt 6 cfg7.N := B16_arr m c 6
/-- The second result is what the reconstruction region leaves; the last stretch and the last region do not write it. -/
theorem B16_main_v109 (c : Dev nD) : B16 m c (Proc.devRef .tc main_v109) = (dat6 (E13 m) c).arrAt 7 cfg6.N :=
  (B16_keep m c main_v109 (by decide)).trans <| (B15_of m c main_v109 (by decide)).trans <| B14_arr m c 7

end Cert.KernelIdeal.Reg

end
-- ==== Proof.KI.Seg.lean ====
/-
  A kernel region as a segment of @main. The region is entered with every buffer of the core at a boundary's contents,
  the generator register at some state and nothing owed; its arrays are split out of the buffers at entry and put back,
  at what the write-backs leave, at exit; the generator register goes into the region's invariant and comes back.
  A stretch of host operations is a segment over the same thread state.
-/
import proofs.«430410_j38371237822819_1_alg».proof.Proof.KI.Bnd
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A region as a segment -/

set_option backward.isDefEq.respectTransparency.types false in
/-- Region p over the thread state "every unscoped buffer at the boundary's contents, the generator register at some
    state, nothing owed": entered at Win, left at Wout. Its arrays are split out of the unscoped buffers at entry and put
    back at the exit contents; the generator register goes into the region's invariant and comes back. -/
def mkReg (p : Fin 8) (lf : Pipeline.LaunchFacts (nD := nD) (τ := τ) cfgs p)
    (Win Wout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c, (pdats m p c).recorded 0 = Set.univ)
    (hA : ∀ c w, (pdats m p c).A w = Win c (Proc.devRef .tc (Pipeline.arrRef (Pipeline.pin (pcfgs (F := F)) adm p).spec w)))
    (hΦin : ∀ c, (Pipeline.ΦA (Pipeline.pin (pcfgs (F := F)) adm p).spec c : sProp 𝕄) ⊢ (pdats m p c).Φ 0)
    (hΦout : ∀ c, (pdats m p c).Φ (Fin.last (Pipeline.pin (pcfgs (F := F)) adm p).N) ⊢ (Pipeline.ΦA (Pipeline.pin (pcfgs (F := F)) adm p).spec c : sProp 𝕄))
    (hF : ∀ c w, (pdats m p c).arrAt w (Pipeline.pin (pcfgs (F := F)) adm p).N = Wout c (Proc.devRef .tc (Pipeline.arrRef (Pipeline.pin (pcfgs (F := F)) adm p).spec w)))
    (hrest : ∀ c, ∀ b : Ref sig .tc, b ∉ Finset.univ.image (Pipeline.arrRef (Pipeline.pin (pcfgs (F := F)) adm p).spec) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c]; trivial)
      rw [howed c 0]; iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c (Proc.devRef .tc b)) (fun b => Wout c (Proc.devRef .tc b)) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c _]; iexact HO

end Cert.KernelIdeal.Reg

end
-- ==== Proof.KI.Regs.lean ====
/-
  The eight kernel regions as segments, each between the boundary before it and the boundary after it, and @main as the
  list of its sixteen segments: a stretch of host operations from its boundary's contents, then the region.
-/
import proofs.«430410_j38371237822819_1_alg».proof.Proof.KI.Seg

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's proof data put no bound on the recorded pairs. -/
theorem rec_eq0 (V : (c : Dev nD) → (b : Ref sig .tc) → Buf (Elt F) ((c : Thread nD τ).loc b)) (c : Dev nD) : (dat0 V c).recorded 0 = Set.univ := rfl
/-- Region 0 between the boundaries 1 and 2. -/
def reg0 : Pipeline.RegionSeg (pcfgs (F := F)) adm (pdats m) () defs₀ 𝒱₀ L lv 0 :=
  mkReg m 0 launch0 (B1 m) (B2 m) (fun c => body_obligation0 (E1 m) c)
    (fun c w => q_eq0 (E1 m) c w) (fun c t => owed_eq0 (E1 m) c t) (fun c => rec_eq0 (E1 m) c)
    (fun c w => A_eq0 (E1 m) c w) (fun c => hin0 (E1 m) c) (fun c => hout0 (E1 m) c)
    (fun c w => hF0 m c w) (fun c => hrest0 m c)

/-- Region 1's proof data put no bound on the recorded pairs. -/
theorem rec_eq1 (V : (c : Dev nD) → (b : Ref sig .tc) → Buf (Elt F) ((c : Thread nD τ).loc b)) (c : Dev nD) : (dat1 V c).recorded 0 = Set.univ := rfl
/-- Region 1 between the boundaries 3 and 4. -/
def reg1 : Pipeline.RegionSeg (pcfgs (F := F)) adm (pdats m) () defs₀ 𝒱₀ L lv 1 :=
  mkReg m 1 launch1 (B3 m) (B4 m) (fun c => body_obligation1 (E3 m) c)
    (fun c w => q_eq1 (E3 m) c w) (fun c t => owed_eq1 (E3 m) c t) (fun c => rec_eq1 (E3 m) c)
    (fun c w => A_eq1 (E3 m) c w) (fun c => hin1 (E3 m) c) (fun c => hout1 (E3 m) c)
    (fun c w => hF1 m c w) (fun c => hrest1 m c)

/-- Region 2's proof data put no bound on the recorded pairs. -/
theorem rec_eq2 (V : (c : Dev nD) → (b : Ref sig .tc) → Buf (Elt F) ((c : Thread nD τ).loc b)) (c : Dev nD) : (dat2 V c).recorded 0 = Set.univ := rfl
/-- Region 2 between the boundaries 5 and 6. -/
def reg2 : Pipeline.RegionSeg (pcfgs (F := F)) adm (pdats m) () defs₀ 𝒱₀ L lv 2 :=
  mkReg m 2 launch2 (B5 m) (B6 m) (fun c => body_obligation2 (E5 m) c)
    (fun c w => q_eq2 (E5 m) c w) (fun c t => owed_eq2 (E5 m) c t) (fun c => rec_eq2 (E5 m) c)
    (fun c w => A_eq2 (E5 m) c w) (fun c => hin2 (E5 m) c) (fun c => hout2 (E5 m) c)
    (fun c w => hF2 m c w) (fun c => hrest2 m c)

/-- Region 3's proof data put no bound on the recorded pairs. -/
theorem rec_eq3 (V : (c : Dev nD) → (b : Ref sig .tc) → Buf (Elt F) ((c : Thread nD τ).loc b)) (c : Dev nD) : (dat3 V c).recorded 0 = Set.univ := rfl
/-- Region 3 between the boundaries 7 and 8. -/
def reg3 : Pipeline.RegionSeg (pcfgs (F := F)) adm (pdats m) () defs₀ 𝒱₀ L lv 3 :=
  mkReg m 3 launch3 (B7 m) (B8 m) (fun c => body_obligation3 (E7 m) c)
    (fun c w => q_eq3 (E7 m) c w) (fun c t => owed_eq3 (E7 m) c t) (fun c => rec_eq3 (E7 m) c)
    (fun c w => A_eq3 (E7 m) c w) (fun c => hin3 (E7 m) c) (fun c => hout3 (E7 m) c)
    (fun c w => hF3 m c w) (fun c => hrest3 m c)

/-- Region 4's proof data put no bound on the recorded pairs. -/
theorem rec_eq4 (V : (c : Dev nD) → (b : Ref sig .tc) → Buf (Elt F) ((c : Thread nD τ).loc b)) (c : Dev nD) : (dat4 V c).recorded 0 = Set.univ := rfl
/-- Region 4 between the boundaries 9 and 10. -/
def reg4 : Pipeline.RegionSeg (pcfgs (F := F)) adm (pdats m) () defs₀ 𝒱₀ L lv 4 :=
  mkReg m 4 launch4 (B9 m) (B10 m) (fun c => body_obligation4 (E9 m) c)
    (fun c w => q_eq4 (E9 m) c w) (fun c t => owed_eq4 (E9 m) c t) (fun c => rec_eq4 (E9 m) c)
    (fun c w => A_eq4 (E9 m) c w) (fun c => hin4 (E9 m) c) (fun c => hout4 (E9 m) c)
    (fun c w => hF4 m c w) (fun c => hrest4 m c)

/-- Region 5's proof data put no bound on the recorded pairs. -/
theorem rec_eq5 (V : (c : Dev nD) → (b : Ref sig .tc) → Buf (Elt F) ((c : Thread nD τ).loc b)) (c : Dev nD) : (dat5 V c).recorded 0 = Set.univ := rfl
/-- Region 5 between the boundaries 11 and 12. -/
def reg5 : Pipeline.RegionSeg (pcfgs (F := F)) adm (pdats m) () defs₀ 𝒱₀ L lv 5 :=
  mkReg m 5 launch5 (B11 m) (B12 m) (fun c => body_obligation5 (E11 m) c)
    (fun c w => q_eq5 (E11 m) c w) (fun c t => owed_eq5 (E11 m) c t) (fun c => rec_eq5 (E11 m) c)
    (fun c w => A_eq5 (E11 m) c w) (fun c => hin5 (E11 m) c) (fun c => hout5 (E11 m) c)
    (fun c w => hF5 m c w) (fun c => hrest5 m c)

/-- Region 6's proof data put no bound on the recorded pairs. -/
theorem rec_eq6 (V : (c : Dev nD) → (b : Ref sig .tc) → Buf (Elt F) ((c : Thread nD τ).loc b)) (c : Dev nD) : (dat6 V c).recorded 0 = Set.univ := rfl
/-- Region 6 between the boundaries 13 and 14. -/
def reg6 : Pipeline.RegionSeg (pcfgs (F := F)) adm (pdats m) () defs₀ 𝒱₀ L lv 6 :=
  mkReg m 6 launch6 (B13 m) (B14 m) (fun c => body_obligation6 (E13 m) c)
    (fun c w => q_eq6 (E13 m) c w) (fun c t => owed_eq6 (E13 m) c t) (fun c => rec_eq6 (E13 m) c)
    (fun c w => A_eq6 (E13 m) c w) (fun c => hin6 (E13 m) c) (fun c => hout6 (E13 m) c)
    (fun c w => hF6 m c w) (fun c => hrest6 m c)

/-- Region 7's proof data put no bound on the recorded pairs. -/
theorem rec_eq7 (V : (c : Dev nD) → (b : Ref sig .tc) → Buf (Elt F) ((c : Thread nD τ).loc b)) (c : Dev nD) : (dat7 V c).recorded 0 = Set.univ := rfl
/-- Region 7 between the boundaries 15 and 16. -/
def reg7 : Pipeline.RegionSeg (pcfgs (F := F)) adm (pdats m) () defs₀ 𝒱₀ L lv 7 :=
  mkReg m 7 launch7 (B15 m) (B16 m) (fun c => body_obligation7 (E15 m) c)
    (fun c w => q_eq7 (E15 m) c w) (fun c t => owed_eq7 (E15 m) c t) (fun c => rec_eq7 (E15 m) c)
    (fun c w => A_eq7 (E15 m) c w) (fun c => hin7 (E15 m) c) (fun c => hout7 (E15 m) c)
    (fun c w => hF7 m c w) (fun c => hrest7 m c)

/-- @main's sixteen segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)),
    .region (reg6 m),
    .host (hseg hostOps7 hostOps7_sub hostOps7_fresh (B14 m)),
    .region (reg7 m) ]

end Cert.KernelIdeal.Reg

end
-- ==== Proof.KI.Run.lean ====
/-
  The launch of the whole program over its sixteen segments: from any memory with every semaphore at zero, every weakly
  fair execution terminates, nothing faulting; in every final state the first result holds what the last region leaves
  in its output array, the second what the reconstruction region leaves in its, and every argument its launch contents.
-/
import proofs.«430410_j38371237822819_1_alg».proof.Proof.KI.Regs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The last thread state without what is owed: every buffer at the last boundary's contents, the generator register at
    some state. -/
abbrev Tₙ (c : Dev nD) : sProp 𝕄 := iprop(StableHlo.held (c : Thread nD τ) (Pipeline.ucRefs τ sig) (B16 m c) ∗ ∃ r, prngReg c r)

/-! ## The launch -/

set_option backward.isDefEq.respectTransparency.types false in
/-- From any memory with every semaphore at zero, every weakly fair execution of @main terminates, nothing faulting, and
    in every final state the first result holds what the last region leaves in its output array, the second what the
    reconstruction region leaves in its, and every argument holds its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v119) = (dat7 (E15 m) c).arrAt 6 cfg7.N
      ∧ r.2.mem ((c.tc : Thread nD τ).loc main_v109) = (dat6 (E13 m) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (B16 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m c b)
    (hfin := fun c s' => by
      iintro ⟨⟨Hh, -⟩, HSI⟩
      unfold StableHlo.held
      imodintro
      iapply (pointsTo_read_all (Pipeline.ucRefs τ sig) (fun b => (((c : Thread nD τ)).1, b)) (B16 m c) s')
      isplitl [Hh] <;> iassumption)
    (hQ := fun s h c =>
      ⟨(h c _ (mem_uc main_v119 (by decide))).trans (B16_main_v119 m c),
       (h c _ (mem_uc main_v109 (by decide))).trans (B16_main_v109 m c),
       (h c _ (mem_uc main_arg0 (by decide))).trans (B16_main_arg0 m c),
       (h c _ (mem_uc main_arg1 (by decide))).trans (B16_main_arg1 m c),
       (h c _ (mem_uc main_arg2 (by decide))).trans (B16_main_arg2 m c),
       (h c _ (mem_uc main_arg3 (by decide))).trans (B16_main_arg3 m c),
       (h c _ (mem_uc main_arg4 (by decide))).trans (B16_main_arg4 m c),
       (h c _ (mem_uc main_arg5 (by decide))).trans (B16_main_arg5 m c),
       (h c _ (mem_uc main_arg6 (by decide))).trans (B16_main_arg6 m c),
       (h c _ (mem_uc main_arg7 (by decide))).trans (B16_main_arg7 m c),
       (h c _ (mem_uc main_arg8 (by decide))).trans (B16_main_arg8 m c),
       (h c _ (mem_uc main_arg9 (by decide))).trans (B16_main_arg9 m c),
       (h c _ (mem_uc main_arg10 (by decide))).trans (B16_main_arg10 m c),
       (h c _ (mem_uc main_arg11 (by decide))).trans (B16_main_arg11 m c),
       (h c _ (mem_uc main_arg12 (by decide))).trans (B16_main_arg12 m c),
       (h c _ (mem_uc main_arg13 (by decide))).trans (B16_main_arg13 m c),
       (h c _ (mem_uc main_arg14 (by decide))).trans (B16_main_arg14 m c),
       (h c _ (mem_uc main_arg15 (by decide))).trans (B16_main_arg15 m c),
       (h c _ (mem_uc main_arg16 (by decide))).trans (B16_main_arg16 m c),
       (h c _ (mem_uc main_arg17 (by decide))).trans (B16_main_arg17 m c),
       (h c _ (mem_uc main_arg18 (by decide))).trans (B16_main_arg18 m c)⟩)

end Cert.KernelIdeal.Reg

end
-- ==== Proof.Spec.lean ====
/-
  The vocabulary of the GIN network's value statements, at the ideal instance: a float is an
  extended real and every operation is exact. Everything is a curried function over explicit
  finite index types: a feature row is a function on `Fin 128`, the node table a function on
  `Fin 50000`. Each definition spells its operations in the order the two programs perform them
  (the product `g * (h - mean)` first, then the factor `rsqrt (var + ε)`, then `+ β`; a quotient as
  `Ideal.div x nCount`), so that either program's value reaches it by unfolding.
-/
import Idealize.ShloMosaic.PureOps.Ideal
import Idealize.ShloMosaic.PureOps.Ideal.Laws
import Idealize.ShloMosaic.Lib.ValueIdx

noncomputable section

namespace Gin

open Idealize.ShloMosaic
open scoped BigOperators

/-- A feature row: 128 extended reals. -/
abbrev Row := Fin 128 → EReal
/-- A row of `m` extended reals (the 4-wide reconstruction and the 64-wide output). -/
abbrev RowN (m : ℕ) := Fin m → EReal
/-- The node table: 50000 feature rows. -/
abbrev Nodes := Fin 50000 → Row
/-- A 128 × 128 weight matrix, input feature first. -/
abbrev Wt := Fin 128 → Row
/-- A 128 × `m` weight matrix, input feature first. -/
abbrev WtN (m : ℕ) := Fin 128 → Fin m → EReal

/-- The number of nodes as the programs spell it: the single-precision word of `50000.0`. -/
def nCount : EReal := Ideal.ofBits .f32 0x47435000#32
/-- The batch-norm `ε` as the programs spell it: the single-precision word nearest `1e-5`. -/
def bnEps : EReal := Ideal.ofBits .f32 0x3727C5AC#32

theorem nCount_def : nCount = Ideal.ofBits .f32 0x47435000#32 := rfl
theorem bnEps_def : bnEps = Ideal.ofBits .f32 0x3727C5AC#32 := rfl

/-- A row-wise linear map onto `m` outputs: `(x W)_j + b_j`, the contraction over the 128 inputs first. -/
def linTo {m : ℕ} (x : Row) (w : WtN m) (b : RowN m) : RowN m :=
  fun j => (∑ κ : Fin 128, x κ * w κ j) + b j

/-- The 128 → 128 linear map. -/
abbrev lin (x : Row) (w : Wt) (b : Row) : Row := linTo x w b

/-- `relu x = max x 0`. -/
def relu (x : EReal) : EReal := max x 0

/-- The first linear map of a layer, of the node's features plus its neighbour sum:
    `h[n] = (x[n] + agg[n]) W1 + b1`. -/
def pre1 (x agg : Nodes) (w : Wt) (b : Row) : Nodes :=
  fun n => lin (fun κ => x n κ + agg n κ) w b

/-- The column sums over the 50000 rows. -/
def colSum (h : Nodes) : Row := fun j => ∑ n : Fin 50000, h n j

/-- The column means: the column sum divided by the node count. -/
def meanOf (h : Nodes) : Row := fun j => Ideal.div (colSum h j) nCount

/-- The variance as the kernel computes it: the mean of the squares minus the square of the mean. -/
def varKernel (h : Nodes) : Row :=
  fun j => Ideal.div (colSum (fun n κ => h n κ * h n κ) j) nCount - meanOf h j * meanOf h j

/-- The variance as the reference computes it: the mean of the squared deviations from the mean. -/
def varRef (h : Nodes) : Row :=
  fun j => Ideal.div (colSum (fun n κ => (h n κ - meanOf h κ) * (h n κ - meanOf h κ)) j) nCount

/-- The normalised, rectified row that enters a layer's second linear map:
    `relu (g (h - μ) rsqrt (var + ε) + β)`. -/
def bnRow (h mu var g bb : Row) : Row :=
  fun κ => relu (g κ * (h κ - mu κ) * Ideal.rsqrt (var κ + bnEps) + bb κ)

/-- Batch-norm, relu, the second linear map, relu, row by row. -/
def bnApply (h : Nodes) (mu var g bb : Row) (w2 : Wt) (b2 : Row) : Nodes :=
  fun n j => relu (lin (bnRow (h n) mu var g bb) w2 b2 j)

/-- One GIN layer, with the variance formula a parameter. -/
def layerWith (var : Nodes → Row) (x agg : Nodes) (w1 : Wt) (b1 g bb : Row) (w2 : Wt) (b2 : Row) : Nodes :=
  bnApply (pre1 x agg w1 b1) (meanOf (pre1 x agg w1 b1)) (var (pre1 x agg w1 b1)) g bb w2 b2

/-- The reconstruction head of one row: three linear maps, each followed by relu; the last is 128 → 4. -/
def recRow (x : Row) (w1 : Wt) (b1 : Row) (w2 : Wt) (b2 : Row) (w3 : WtN 4) (b3 : RowN 4) : RowN 4 :=
  fun j => relu (linTo (fun κ => relu (lin (fun κ' => relu (lin x w1 b1 κ')) w2 b2 κ)) w3 b3 j)

/-- The reconstruction head, row by row. -/
def recHead (x : Nodes) (w1 : Wt) (b1 : Row) (w2 : Wt) (b2 : Row) (w3 : WtN 4) (b3 : RowN 4) :
    Fin 50000 → RowN 4 :=
  fun n => recRow (x n) w1 b1 w2 b2 w3 b3

/-- Sum pooling by graph id, in the one-hot form: row `n` contributes `x[n, j]` to graph `g` exactly
    when its 32-bit id `batch n` is the word of `g`, and `0` otherwise. (The scatter-add form adds the
    same rows; this is the form chosen here.) -/
def pooled (x : Nodes) (batch : Fin 50000 → BitVec 32) : Fin 64 → Row :=
  fun g j => ∑ n : Fin 50000, (if batch n = BitVec.ofNat 32 g.val then x n j else 0)

/-- The output network on the pooled rows: `relu (p W1 + b1) W2 + b2`, the last map 128 → 64. -/
def mlpOut (p : Fin 64 → Row) (w1 : Wt) (b1 : Row) (w2 : WtN 64) (b2 : RowN 64) : Fin 64 → RowN 64 :=
  fun g => linTo (fun κ => relu (lin (p g) w1 b1 κ)) w2 b2

/-! ## Arrays and their curried forms -/

/-- A rank-2 array read by its two coordinates. -/
def ofArr2 {r c : ℕ} (a : (⟨2, ![r, c]⟩ : Shape).Idx → EReal) : Fin r → Fin c → EReal :=
  fun p q => a (ValueIdx.ix2 p q)

/-- The rank-2 array of a function of two coordinates. -/
def toArr2 {r c : ℕ} (f : Fin r → Fin c → EReal) : (⟨2, ![r, c]⟩ : Shape).Idx → EReal :=
  fun i => f (i 0) (i 1)

theorem ofArr2_toArr2 {r c : ℕ} (f : Fin r → Fin c → EReal) : ofArr2 (toArr2 f) = f := rfl

theorem toArr2_ofArr2 {r c : ℕ} (a : (⟨2, ![r, c]⟩ : Shape).Idx → EReal) : toArr2 (ofArr2 a) = a := by
  funext i; exact congrArg a (ValueIdx.eq_ix2 i).symm

/-- A rank-1 array read by its coordinate. -/
def ofArr1 {n : ℕ} (a : (⟨1, ![n]⟩ : Shape).Idx → EReal) : Fin n → EReal :=
  fun p => a (ValueIdx.ix1 p)

/-- The rank-1 array of a function of one coordinate. -/
def toArr1 {n : ℕ} (f : Fin n → EReal) : (⟨1, ![n]⟩ : Shape).Idx → EReal :=
  fun i => f (i 0)

theorem ofArr1_toArr1 {n : ℕ} (f : Fin n → EReal) : ofArr1 (toArr1 f) = f := rfl

theorem toArr1_ofArr1 {n : ℕ} (a : (⟨1, ![n]⟩ : Shape).Idx → EReal) : toArr1 (ofArr1 a) = a := by
  funext i; exact congrArg a (ValueIdx.eq_ix1 i).symm

/-- Slice `l` of a stack of matrices (the per-layer weights, stacked `[3, 128, 128]`), by coordinates. -/
def ofArr3 {n0 n1 n2 : ℕ} (a : (⟨3, ![n0, n1, n2]⟩ : Shape).Idx → EReal) (l : Fin n0) :
    Fin n1 → Fin n2 → EReal :=
  fun κ j => a (ValueIdx.ix3 l κ j)

/-- Row `l` of a stack of rows (the per-layer vectors, stacked `[3, 128]`), by its coordinate. -/
def ofArr2Row {n0 n1 : ℕ} (a : (⟨2, ![n0, n1]⟩ : Shape).Idx → EReal) (l : Fin n0) : Fin n1 → EReal :=
  fun j => a (ValueIdx.ix2 l j)

theorem ofArr2Row_eq {n0 n1 : ℕ} (a : (⟨2, ![n0, n1]⟩ : Shape).Idx → EReal) (l : Fin n0) :
    ofArr2Row a l = ofArr2 a l := rfl

/-! ## The neighbour sum -/

/-- A source index word as the programs normalise it: a negative word has `50000` added. -/
def normIdx (w : BitVec 32) : BitVec 32 := if w.slt 0#32 then w + 50000#32 else w

/-- The row a gather reads for the index word `w`: the normalised word, read signed and clamped into
    the table. -/
def gatherRow (w : BitVec 32) : Fin 50000 := ⟨min (normIdx w).toInt.toNat (50000 - 1), by omega⟩

/-- The neighbour sum: node `n` receives the feature row of edge `e`'s source for every edge whose
    destination word, read signed, is `n`; a destination outside the table adds nowhere. -/
def aggOf (src dst : Fin 600000 → BitVec 32) (x : Nodes) : Nodes :=
  fun n j => ∑ e : Fin 600000, if (dst e).toInt = (n.val : ℤ) then x (gatherRow (src e)) j else 0

end Gin

end
-- ==== Proof.KI.Val0D.lean ====
/-
  Region 0's input arrays by their literal types and the layer's first linear map of them, row by row: what the three value statements of the region are about.
-/
import proofs.«430410_j38371237822819_1_alg».proof.Proof.KI.Reg0
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-- The region's input arrays, by their literal types. -/
abbrev xArr0 (V : (c : Dev nD) → (b : Ref sig .tc) → Buf (Elt Ideal) ((c : Thread nD τ).loc b)) (c : Dev nD) : S50000x128.Idx → EReal := V c (Pipeline.arrRef spec0 0)
abbrev aggArr0 (V : (c : Dev nD) → (b : Ref sig .tc) → Buf (Elt Ideal) ((c : Thread nD τ).loc b)) (c : Dev nD) : S50000x128.Idx → EReal := V c (Pipeline.arrRef spec0 1)
abbrev w1Arr0 (V : (c : Dev nD) → (b : Ref sig .tc) → Buf (Elt Ideal) ((c : Thread nD τ).loc b)) (c : Dev nD) : S128x128.Idx → EReal := V c (Pipeline.arrRef spec0 2)
abbrev b1Arr0 (V : (c : Dev nD) → (b : Ref sig .tc) → Buf (Elt Ideal) ((c : Thread nD τ).loc b)) (c : Dev nD) : S1x128.Idx → EReal := V c (Pipeline.arrRef spec0 3)

/-- The linear map of the features plus the neighbour sum, row by row. -/
def H0 (V : (c : Dev nD) → (b : Ref sig .tc) → Buf (Elt Ideal) ((c : Thread nD τ).loc b)) (c : Dev nD) : Gin.Nodes :=
  Gin.pre1 (Gin.ofArr2 (xArr0 V c)) (Gin.ofArr2 (aggArr0 V c)) (Gin.ofArr2 (w1Arr0 V c)) (Gin.ofArr2Row (b1Arr0 V c) 0)

end Cert.KernelIdeal.Val

end
-- ==== Proof.Math.lean ====
/-
  The arithmetic facts the two value proofs of the GIN network share, over the vocabulary of
  Proof/Spec.lean: which extended reals are finite and which operations keep them so; the two
  variance formulas agree on finite columns and give a nonnegative real; so a layer computed with
  either formula is the same finite table; and a sum over the 50000 rows is the sum over ten tiles
  of 5000 rows of the tile sums.
-/
import proofs.«430410_j38371237822819_1_alg».proof.Proof.Spec
import Mathlib.Tactic.Ring
import Mathlib.Tactic.FieldSimp
import Mathlib.Tactic.NormNum
import Mathlib.Tactic.Linarith
import Mathlib.Algebra.BigOperators.Fin
import Mathlib.Algebra.Order.BigOperators.Group.Finset
import Mathlib.Data.Fintype.BigOperators

noncomputable section

namespace Gin

open Idealize.ShloMosaic
open scoped BigOperators

/-! ## Finite extended reals -/

/-- An extended real is FINITE when it is a real number. -/
def Fin' (x : EReal) : Prop := ∃ r : ℝ, x = (r : EReal)

/-- Finite means neither infinity. -/
theorem fin'_iff (x : EReal) : Fin' x ↔ x ≠ ⊤ ∧ x ≠ ⊥ := by
  constructor
  · rintro ⟨r, rfl⟩; exact ⟨EReal.coe_ne_top r, EReal.coe_ne_bot r⟩
  · rintro ⟨h1, h2⟩
    induction x using EReal.rec with
    | bot => exact absurd rfl h2
    | coe r => exact ⟨r, rfl⟩
    | top => exact absurd rfl h1

theorem Fin'.coe (r : ℝ) : Fin' (r : EReal) := ⟨r, rfl⟩
theorem Fin'.zero : Fin' (0 : EReal) := ⟨0, rfl⟩
theorem Fin'.one : Fin' (1 : EReal) := ⟨1, rfl⟩

/-- A sum of two reals is a real. -/
theorem Fin'.add {x y : EReal} (hx : Fin' x) (hy : Fin' y) : Fin' (x + y) := by
  obtain ⟨a, rfl⟩ := hx; obtain ⟨b, rfl⟩ := hy; exact ⟨a + b, (EReal.coe_add a b).symm⟩

/-- A product of two reals is a real. -/
theorem Fin'.mul {x y : EReal} (hx : Fin' x) (hy : Fin' y) : Fin' (x * y) := by
  obtain ⟨a, rfl⟩ := hx; obtain ⟨b, rfl⟩ := hy; exact ⟨a * b, (EReal.coe_mul a b).symm⟩

/-- A difference of two reals is a real. -/
theorem Fin'.sub {x y : EReal} (hx : Fin' x) (hy : Fin' y) : Fin' (x - y) := by
  obtain ⟨a, rfl⟩ := hx; obtain ⟨b, rfl⟩ := hy; exact ⟨a - b, (EReal.coe_sub a b).symm⟩

/-- The negative of a real is a real. -/
theorem Fin'.neg {x : EReal} (hx : Fin' x) : Fin' (-x) := by
  obtain ⟨a, rfl⟩ := hx; exact ⟨-a, (EReal.coe_neg a).symm⟩

/-- The coercion commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem Fin'.sum {ι : Type*} (s : Finset ι) (f : ι → EReal) (h : ∀ i ∈ s, Fin' (f i)) :
    Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- `relu` of a real is the real `max r 0`. -/
theorem relu_coe (r : ℝ) : relu (r : EReal) = ((max r 0 : ℝ) : EReal) := by
  rw [relu, ← EReal.coe_zero]; exact (EReal.coe_strictMono.monotone.map_max).symm

/-- `relu` keeps a real a real. -/
theorem Fin'.relu {x : EReal} (hx : Fin' x) : Fin' (relu x) := by
  obtain ⟨a, rfl⟩ := hx; exact ⟨_, relu_coe a⟩

/-- `relu` of anything is nonnegative. -/
theorem relu_nonneg (x : EReal) : 0 ≤ relu x := le_max_right x 0

/-! ## The two literals -/

/-- The node count's word denotes the real `50000`. -/
theorem nCount_eq : nCount = ((50000 : ℝ) : EReal) := by
  rw [nCount]; simp [Ideal.ofBits, Ideal.ieee, -EReal.coe_mul]; norm_num

/-- The batch-norm `ε`'s word denotes a positive real (`10995116 · 2⁻⁴⁰`). -/
theorem bnEps_pos : ∃ e : ℝ, 0 < e ∧ bnEps = (e : EReal) := by
  refine ⟨(10995116 : ℝ) * (2 : ℝ) ^ (-40 : ℤ), by positivity, ?_⟩
  rw [bnEps]; simp [Ideal.ofBits, Ideal.ieee, -EReal.coe_mul]

theorem bnEps_fin : Fin' bnEps := by obtain ⟨e, _, h⟩ := bnEps_pos; exact ⟨e, h⟩

/-- The word of `+∞` denotes `⊤`. -/
theorem ofBits_inf : Ideal.ofBits .f32 0x7F800000#32 = (⊤ : EReal) := by
  simp [Ideal.ofBits, Ideal.ieee]

/-- Division of a real by the node count is the real quotient by `50000`. -/
theorem div_nCount_coe (r : ℝ) : Ideal.div (r : EReal) nCount = ((r / 50000 : ℝ) : EReal) := by
  rw [nCount_eq, Ideal.div_coe (by norm_num), ← EReal.coe_mul]; congr 1; ring

/-- Division by the node count keeps a real a real. -/
theorem Fin'.divN {x : EReal} (hx : Fin' x) : Fin' (Ideal.div x nCount) := by
  obtain ⟨a, rfl⟩ := hx; exact ⟨_, div_nCount_coe a⟩

/-- `rsqrt (v + ε)` for a real `v ≥ 0` is the real `1 / √(v + e)`: the argument is a positive real. -/
theorem Fin'.rsqrt_add_eps {v : ℝ} (hv : 0 ≤ v) : Fin' (Ideal.rsqrt ((v : EReal) + bnEps)) := by
  obtain ⟨e, he, h⟩ := bnEps_pos
  have hpos : 0 < v + e := by linarith
  rw [h, ← EReal.coe_add, Ideal.rsqrt_coe, if_neg (not_lt.mpr hpos.le), if_neg hpos.ne']
  exact ⟨_, rfl⟩

/-! ## The variance identity -/

/-- The column sum of a table of reals is the real column sum. -/
theorem colSum_coe (r : Fin 50000 → Fin 128 → ℝ) (j : Fin 128) :
    colSum (fun n κ => ((r n κ : ℝ) : EReal)) j = ((∑ n, r n j : ℝ) : EReal) := by
  rw [colSum]; exact coe_sum _ _

/-- The column mean of a table of reals is the real column sum over `50000`. -/
theorem meanOf_coe (r : Fin 50000 → Fin 128 → ℝ) (j : Fin 128) :
    meanOf (fun n κ => ((r n κ : ℝ) : EReal)) j = (((∑ n, r n j) / 50000 : ℝ) : EReal) := by
  rw [meanOf, colSum_coe, div_nCount_coe]

/-- The kernel's variance of a table of reals, as a real: `E[h²] - E[h]²`. -/
theorem varKernel_coe (r : Fin 50000 → Fin 128 → ℝ) (j : Fin 128) :
    varKernel (fun n κ => ((r n κ : ℝ) : EReal)) j
      = (((∑ n, r n j * r n j) / 50000 - (∑ n, r n j) / 50000 * ((∑ n, r n j) / 50000) : ℝ) : EReal) := by
  simp only [varKernel, meanOf_coe, ← EReal.coe_mul, colSum_coe, div_nCount_coe, ← EReal.coe_sub]

/-- The reference's variance of a table of reals, as a real: `E[(h - E[h])²]`. -/
theorem varRef_coe (r : Fin 50000 → Fin 128 → ℝ) (j : Fin 128) :
    varRef (fun n κ => ((r n κ : ℝ) : EReal)) j
      = (((∑ n, (r n j - (∑ n, r n j) / 50000) * (r n j - (∑ n, r n j) / 50000)) / 50000 : ℝ) : EReal) := by
  simp only [varRef, meanOf_coe, ← EReal.coe_sub, ← EReal.coe_mul, colSum_coe, div_nCount_coe]

/-- Over the reals, for 50000 samples: the mean of the squares minus the square of the mean is the
    mean of the squared deviations. (Expand the square; the cross term is `-2 m · Σ f` and the last
    term `50000 · m²`, with `m = Σ f / 50000`.) -/
theorem var_real (f : Fin 50000 → ℝ) :
    (∑ n, f n * f n) / 50000 - (∑ n, f n) / 50000 * ((∑ n, f n) / 50000)
      = (∑ n, (f n - (∑ n, f n) / 50000) * (f n - (∑ n, f n) / 50000)) / 50000 := by
  generalize hS : ∑ n, f n = S
  have hexp : ∀ n, (f n - S / 50000) * (f n - S / 50000)
      = f n * f n - 2 * (S / 50000) * f n + S / 50000 * (S / 50000) := fun n => by ring
  have hsum : ∑ n, (f n - S / 50000) * (f n - S / 50000)
      = (∑ n, f n * f n) - 2 * (S / 50000) * S + 50000 * (S / 50000 * (S / 50000)) := by
    simp only [hexp, Finset.sum_add_distrib, Finset.sum_sub_distrib, ← Finset.mul_sum, hS,
      Finset.sum_const, Finset.card_univ, Fintype.card_fin, nsmul_eq_mul]
    push_cast; ring
  rw [hsum]; field_simp; ring

/-- THE VARIANCE IDENTITY: on a table whose entries are all finite, the kernel's variance (mean of
    squares minus squared mean) is the reference's (mean of squared deviations), column by column. -/
theorem varKernel_eq_varRef (h : Nodes) (hf : ∀ n j, Fin' (h n j)) : varKernel h = varRef h := by
  choose r hr using hf
  obtain rfl : h = fun n κ => ((r n κ : ℝ) : EReal) := funext fun n => funext fun κ => hr n κ
  funext j
  rw [varKernel_coe, varRef_coe, var_real (fun n => r n j)]

/-- The reference's variance of a finite table is a NONNEGATIVE real: a mean of squares. -/
theorem varRef_nonneg (h : Nodes) (hf : ∀ n j, Fin' (h n j)) (j : Fin 128) :
    ∃ v : ℝ, 0 ≤ v ∧ varRef h j = (v : EReal) := by
  choose r hr using hf
  obtain rfl : h = fun n κ => ((r n κ : ℝ) : EReal) := funext fun n => funext fun κ => hr n κ
  exact ⟨_, div_nonneg (Finset.sum_nonneg fun n _ => mul_self_nonneg _) (by norm_num), varRef_coe r j⟩

/-- So is the kernel's, being the same number. -/
theorem varKernel_nonneg (h : Nodes) (hf : ∀ n j, Fin' (h n j)) (j : Fin 128) :
    ∃ v : ℝ, 0 ≤ v ∧ varKernel h j = (v : EReal) := by
  rw [varKernel_eq_varRef h hf]; exact varRef_nonneg h hf j

/-! ## Finiteness of the network's stages -/

/-- A linear map of a finite row by finite weights and bias is finite. -/
theorem fin_linTo {m : ℕ} {x : Row} {w : WtN m} {b : RowN m} (hx : ∀ κ, Fin' (x κ))
    (hw : ∀ κ j, Fin' (w κ j)) (hb : ∀ j, Fin' (b j)) (j : Fin m) : Fin' (linTo x w b j) :=
  (Fin'.sum _ _ fun κ _ => (hx κ).mul (hw κ j)).add (hb j)

/-- The first linear map of a layer is finite on finite features, neighbour sums and parameters. -/
theorem fin_pre1 {x agg : Nodes} {w : Wt} {b : Row} (hx : ∀ n j, Fin' (x n j))
    (hagg : ∀ n j, Fin' (agg n j)) (hw : ∀ κ j, Fin' (w κ j)) (hb : ∀ j, Fin' (b j))
    (n : Fin 50000) (j : Fin 128) : Fin' (pre1 x agg w b n j) :=
  fin_linTo (fun κ => (hx n κ).add (hagg n κ)) hw hb j

/-- A column sum of a finite table is finite. -/
theorem fin_colSum {h : Nodes} (hh : ∀ n j, Fin' (h n j)) (j : Fin 128) : Fin' (colSum h j) :=
  Fin'.sum _ _ fun n _ => hh n j

/-- A column mean of a finite table is finite. -/
theorem fin_meanOf {h : Nodes} (hh : ∀ n j, Fin' (h n j)) (j : Fin 128) : Fin' (meanOf h j) :=
  (fin_colSum hh j).divN

/-- The reference's variance of a finite table is finite. -/
theorem fin_varRef {h : Nodes} (hh : ∀ n j, Fin' (h n j)) (j : Fin 128) : Fin' (varRef h j) := by
  obtain ⟨v, _, hv⟩ := varRef_nonneg h hh j; exact ⟨v, hv⟩

/-- The normalised row is finite when the row, the mean and the affine parameters are finite and the
    variance is a nonnegative real: `rsqrt`'s argument `var + ε` is then a positive real. -/
theorem fin_bnRow {h mu var g bb : Row} (hh : ∀ κ, Fin' (h κ)) (hmu : ∀ κ, Fin' (mu κ))
    (hvar : ∀ κ, ∃ v : ℝ, 0 ≤ v ∧ var κ = (v : EReal)) (hg : ∀ κ, Fin' (g κ)) (hbb : ∀ κ, Fin' (bb κ))
    (κ : Fin 128) : Fin' (bnRow h mu var g bb κ) := by
  obtain ⟨v, hv0, hv⟩ := hvar κ
  show Fin' (relu (g κ * (h κ - mu κ) * Ideal.rsqrt (var κ + bnEps) + bb κ))
  rw [hv]
  exact ((((hg κ).mul ((hh κ).sub (hmu κ))).mul (Fin'.rsqrt_add_eps hv0)).add (hbb κ)).relu

/-- Batch-norm, relu, linear map, relu: finite on finite data with a nonnegative real variance. -/
theorem fin_bnApply {h : Nodes} {mu var g bb : Row} {w2 : Wt} {b2 : Row} (hh : ∀ n j, Fin' (h n j))
    (hmu : ∀ κ, Fin' (mu κ)) (hvar : ∀ κ, ∃ v : ℝ, 0 ≤ v ∧ var κ = (v : EReal))
    (hg : ∀ κ, Fin' (g κ)) (hbb : ∀ κ, Fin' (bb κ)) (hw2 : ∀ κ j, Fin' (w2 κ j)) (hb2 : ∀ j, Fin' (b2 j))
    (n : Fin 50000) (j : Fin 128) : Fin' (bnApply h mu var g bb w2 b2 n j) :=
  (fin_linTo (fin_bnRow (hh n) hmu hvar hg hbb) hw2 hb2 j).relu

/-- A LAYER DOES NOT DEPEND ON THE VARIANCE FORMULA: on finite features, neighbour sums and first-map
    parameters the kernel's and the reference's formulas give the same layer. -/
theorem layerWith_var_eq {x agg : Nodes} {w1 : Wt} {b1 : Row} (g bb : Row) (w2 : Wt) (b2 : Row)
    (hx : ∀ n j, Fin' (x n j)) (hagg : ∀ n j, Fin' (agg n j)) (hw1 : ∀ κ j, Fin' (w1 κ j))
    (hb1 : ∀ j, Fin' (b1 j)) :
    layerWith varKernel x agg w1 b1 g bb w2 b2 = layerWith varRef x agg w1 b1 g bb w2 b2 := by
  unfold layerWith
  rw [varKernel_eq_varRef _ (fin_pre1 hx hagg hw1 hb1)]

/-- A LAYER OF FINITE DATA IS FINITE (with the reference's variance). -/
theorem fin_layerWith_varRef {x agg : Nodes} {w1 : Wt} {b1 g bb : Row} {w2 : Wt} {b2 : Row}
    (hx : ∀ n j, Fin' (x n j)) (hagg : ∀ n j, Fin' (agg n j)) (hw1 : ∀ κ j, Fin' (w1 κ j))
    (hb1 : ∀ j, Fin' (b1 j)) (hg : ∀ κ, Fin' (g κ)) (hbb : ∀ κ, Fin' (bb κ))
    (hw2 : ∀ κ j, Fin' (w2 κ j)) (hb2 : ∀ j, Fin' (b2 j)) (n : Fin 50000) (j : Fin 128) :
    Fin' (layerWith varRef x agg w1 b1 g bb w2 b2 n j) :=
  fin_bnApply (fin_pre1 hx hagg hw1 hb1) (fin_meanOf (fin_pre1 hx hagg hw1 hb1))
    (varRef_nonneg _ (fin_pre1 hx hagg hw1 hb1)) hg hbb hw2 hb2 n j

/-- A layer of finite data is finite (with the kernel's variance: it is the same layer). -/
theorem fin_layerWith_varKernel {x agg : Nodes} {w1 : Wt} {b1 g bb : Row} {w2 : Wt} {b2 : Row}
    (hx : ∀ n j, Fin' (x n j)) (hagg : ∀ n j, Fin' (agg n j)) (hw1 : ∀ κ j, Fin' (w1 κ j))
    (hb1 : ∀ j, Fin' (b1 j)) (hg : ∀ κ, Fin' (g κ)) (hbb : ∀ κ, Fin' (bb κ))
    (hw2 : ∀ κ j, Fin' (w2 κ j)) (hb2 : ∀ j, Fin' (b2 j)) (n : Fin 50000) (j : Fin 128) :
    Fin' (layerWith varKernel x agg w1 b1 g bb w2 b2 n j) := by
  rw [layerWith_var_eq g bb w2 b2 hx hagg hw1 hb1]
  exact fin_layerWith_varRef hx hagg hw1 hb1 hg hbb hw2 hb2 n j

/-- The neighbour sum of finite features is finite: a finite sum of feature entries and zeros. -/
theorem fin_aggOf (src dst : Fin 600000 → BitVec 32) {x : Nodes} (hx : ∀ n j, Fin' (x n j))
    (n : Fin 50000) (j : Fin 128) : Fin' (aggOf src dst x n j) := by
  refine Fin'.sum _ _ fun e _ => ?_
  split
  · exact hx _ j
  · exact Fin'.zero

/-- The reconstruction head of finite features and parameters is finite. -/
theorem fin_recHead {x : Nodes} {w1 : Wt} {b1 : Row} {w2 : Wt} {b2 : Row} {w3 : WtN 4} {b3 : RowN 4}
    (hx : ∀ n j, Fin' (x n j)) (hw1 : ∀ κ j, Fin' (w1 κ j)) (hb1 : ∀ j, Fin' (b1 j))
    (hw2 : ∀ κ j, Fin' (w2 κ j)) (hb2 : ∀ j, Fin' (b2 j)) (hw3 : ∀ κ j, Fin' (w3 κ j))
    (hb3 : ∀ j, Fin' (b3 j)) (n : Fin 50000) (j : Fin 4) : Fin' (recHead x w1 b1 w2 b2 w3 b3 n j) :=
  (fin_linTo (fun κ => (fin_linTo (fun κ' => (fin_linTo (hx n) hw1 hb1 κ').relu) hw2 hb2 κ).relu)
    hw3 hb3 j).relu

/-- The pooled rows of finite features are finite. -/
theorem fin_pooled {x : Nodes} (batch : Fin 50000 → BitVec 32) (hx : ∀ n j, Fin' (x n j))
    (g : Fin 64) (j : Fin 128) : Fin' (pooled x batch g j) := by
  refine Fin'.sum _ _ fun n _ => ?_
  split
  · exact hx n j
  · exact Fin'.zero

/-- The output network of finite pooled rows and parameters is finite. -/
theorem fin_mlpOut {p : Fin 64 → Row} {w1 : Wt} {b1 : Row} {w2 : WtN 64} {b2 : RowN 64}
    (hp : ∀ g j, Fin' (p g j)) (hw1 : ∀ κ j, Fin' (w1 κ j)) (hb1 : ∀ j, Fin' (b1 j))
    (hw2 : ∀ κ j, Fin' (w2 κ j)) (hb2 : ∀ j, Fin' (b2 j)) (g : Fin 64) (j : Fin 64) :
    Fin' (mlpOut p w1 b1 w2 b2 g j) :=
  fin_linTo (fun κ => (fin_linTo (hp g) hw1 hb1 κ).relu) hw2 hb2 j

/-! ## Tiles of 5000 rows -/

/-- Row `r` of tile `t`: node `5000 t + r`. -/
def tileRow (t : Fin 10) (r : Fin 5000) : Fin 50000 := ⟨5000 * t.val + r.val, by omega⟩

theorem tileRow_val (t : Fin 10) (r : Fin 5000) : (tileRow t r).val = 5000 * t.val + r.val := rfl

/-- The 50000 nodes are the 10 × 5000 pairs (tile, row in tile). -/
def tileEquiv : Fin 10 × Fin 5000 ≃ Fin 50000 where
  toFun p := tileRow p.1 p.2
  invFun n := (⟨n.val / 5000, by omega⟩, ⟨n.val % 5000, by omega⟩)
  left_inv := by
    rintro ⟨t, r⟩
    refine Prod.ext (Fin.ext ?_) (Fin.ext ?_)
    · show (5000 * t.val + r.val) / 5000 = t.val; omega
    · show (5000 * t.val + r.val) % 5000 = r.val; omega
  right_inv := by
    intro n
    refine Fin.ext ?_
    show 5000 * (n.val / 5000) + n.val % 5000 = n.val; omega

/-- A sum over the 50000 rows is the sum over the ten tiles of the tile sums. -/
theorem sum_tiles {M : Type*} [AddCommMonoid M] (f : Fin 50000 → M) :
    ∑ n, f n = ∑ t : Fin 10, ∑ r : Fin 5000, f (tileRow t r) := by
  rw [← tileEquiv.sum_comp f, Fintype.sum_prod_type]; rfl

/-- A column sum is the sum over the ten tiles of the tile's column sums. -/
theorem colSum_tiles (h : Nodes) (j : Fin 128) :
    colSum h j = ∑ t : Fin 10, ∑ r : Fin 5000, h (tileRow t r) j :=
  sum_tiles fun n => h n j

/-- The pooled row of graph `g` is the sum over the ten tiles of the tile's one-hot sums. -/
theorem pooled_tiles (x : Nodes) (batch : Fin 50000 → BitVec 32) (g : Fin 64) (j : Fin 128) :
    pooled x batch g j
      = ∑ t : Fin 10, ∑ r : Fin 5000,
          (if batch (tileRow t r) = BitVec.ofNat 32 g.val then x (tileRow t r) j else 0) :=
  sum_tiles fun n => if batch n = BitVec.ofNat 32 g.val then x n j else 0

/-- A one-hot factor times a value is the value where the factor is one and zero elsewhere. -/
theorem onehot_mul (c : Prop) [Decidable c] (x : EReal) :
    (if c then (1 : EReal) else 0) * x = if c then x else 0 := by
  split <;> simp

/-- A graph id below 64 is named by one 32-bit word: the word read signed is `g` exactly when it is
    the word of `g`. (The scatter form of the pooling tests the first, the one-hot form the second.) -/
theorem toInt_eq_iff (g : Fin 64) (w : BitVec 32) :
    w.toInt = (g.val : ℤ) ↔ w = BitVec.ofNat 32 g.val := by
  have hg := g.isLt
  constructor
  · intro h
    apply BitVec.eq_of_toNat_eq
    have hw := w.isLt
    rw [BitVec.toNat_ofNat, BitVec.toInt] at *
    split at h <;> omega
  · rintro rfl
    rw [BitVec.toInt, BitVec.toNat_ofNat]
    have : g.val % 2 ^ 32 = g.val := Nat.mod_eq_of_lt (by omega)
    rw [this]; split <;> omega

end Gin

end
-- ==== Proof.KI.Val6.lean ====
/-
  What region 6, the three-layer reconstruction head, leaves in its output array, at the ideal values: row n of the
  result is the head of row n of the node table, whatever the core's buffers hold when the region is entered.
-/
import proofs.«430410_j38371237822819_1_alg».proof.Proof.KI.Reg6
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The payload at an index -/

/-! ### The contraction S5000x128 × S128x128: operand indices by coordinates -/

theorem lhs_a_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_a_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_a_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_a_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `q`: the sum over the 128 inner positions of the
    left operand's row `p` times the right operand's column `q`. -/
theorem mm_a_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q) = ∑ κ : Fin 128, a (ix2 p κ) * b (ix2 κ q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

/-! ### The contraction S5000x128 × S128x4: operand indices by coordinates -/

theorem lhs_c_0 (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem lhs_c_1 (i : S5000x4.Idx) (q : dot_S5000x128_S128x4_S5000x4_1_0_0_1_n_n.contr.Idx) : (dot_S5000x128_S128x4_S5000x4_1_0_0_1_n_n.lhsIdx i q 1).val = (q ⟨0, by decide⟩).val :=
  dot_S5000x128_S128x4_S5000x4_1_0_0_1_n_n.lhsIdx_val_of_single rfl i q
theorem rhs_c_0 (i : S5000x4.Idx) (q : dot_S5000x128_S128x4_S5000x4_1_0_0_1_n_n.contr.Idx) : (dot_S5000x128_S128x4_S5000x4_1_0_0_1_n_n.rhsIdx i q 0).val = (q ⟨0, by decide⟩).val :=
  dot_S5000x128_S128x4_S5000x4_1_0_0_1_n_n.rhsIdx_val_of_single rfl i q
theorem rhs_c_1 (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The product into a zero accumulator, at row `p` and column `q`: the sum over the 128 inner positions of the
    left operand's row `p` times the right operand's column `q`. -/
theorem mm_c_apply {φ₁ φ₂ : FTy} (a : FVec Ideal S5000x128 φ₁) (b : FVec Ideal S128x4 φ₂) (p : Fin 5000) (q : Fin 4) :
    matmul dot_S5000x128_S128x4_S5000x4_1_0_0_1_n_n none a b (constant S5000x4 .f32 0x00000000#32) (ix2 p q) = ∑ κ : Fin 128, a (ix2 p κ) * b (ix2 κ q) := by
  simp only [matmul]
  rw [Ideal.matmul_constant_zero_apply, ← Equiv.sum_comp (contrEquiv1 dot_S5000x128_S128x4_S5000x4_1_0_0_1_n_n 128 rfl rfl).symm]
  refine Finset.sum_congr rfl fun k _ => ?_
  have hk := contrEquiv1_symm_val dot_S5000x128_S128x4_S5000x4_1_0_0_1_n_n 128 rfl rfl k
  have el : dot_S5000x128_S128x4_S5000x4_1_0_0_1_n_n.lhsIdx (ix2 p q) ((contrEquiv1 dot_S5000x128_S128x4_S5000x4_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S5000x128_S128x4_S5000x4_1_0_0_1_n_n.rhsIdx (ix2 p q) ((contrEquiv1 dot_S5000x128_S128x4_S5000x4_1_0_0_1_n_n 128 rfl rfl).symm k) = ix2 k q := funext fun a => Fin.ext (by
    match a with
    | ⟨0, _⟩ => exact (rhs_c_0 _ _).trans hk
    | ⟨1, _⟩ => exact rhs_c_1 _ _)
  rw [el, er]

/-- One layer at row `p`, column `q`: the product, the bias row added to every row, the maximum with zero. The
    narrowing of the operands to the short format is the identity on extended reals. -/
theorem layer_a_apply (h : FVec Ideal S5000x128 .f32) (w : Vec Ideal S128x128 .f32) (b : Vec Ideal S1x128 .f32) (p : Fin 5000) (q : Fin 128) :
    maximumf (addf (matmul dot_S5000x128_S128x128_S5000x128_1_0_0_1_n_n none (truncf .bf16 h bitsLt_bf16_f32) (truncf .bf16 w bitsLt_bf16_f32) (constant S5000x128 .f32 0x00000000#32))
        (broadcastTo S5000x128 (shapeCast S1x128 b shapeCasts_S1x128_S1x128) broadcasts_S1x128_S5000x128))
      (broadcast S5000x128 (Scalar.ofBits .f32 0x00000000#32 : Ideal .f32)) (ix2 p q)
      = Gin.relu (Gin.linTo (fun κ => h (ix2 p κ)) (Gin.ofArr2 w) (Gin.ofArr2Row b 0) q) := by
  rw [maximumf_apply, addf_apply, mm_a_apply, broadcast_apply, shapeCast_self, broadcastTo_1b_ab_apply]
  simp only [truncf_apply]
  show max _ (Ideal.ofBits .f32 0x00000000#32) = _
  rw [Ideal.ofBits_zero_f32]
  rfl

/-- One layer at row `p`, column `q`: the product, the bias row added to every row, the maximum with zero. The
    narrowing of the operands to the short format is the identity on extended reals. -/
theorem layer_c_apply (h : FVec Ideal S5000x128 .f32) (w : Vec Ideal S128x4 .f32) (b : Vec Ideal S1x4 .f32) (p : Fin 5000) (q : Fin 4) :
    maximumf (addf (matmul dot_S5000x128_S128x4_S5000x4_1_0_0_1_n_n none (truncf .bf16 h bitsLt_bf16_f32) (truncf .bf16 w bitsLt_bf16_f32) (constant S5000x4 .f32 0x00000000#32))
        (broadcastTo S5000x4 (shapeCast S1x4 b shapeCasts_S1x4_S1x4) broadcasts_S1x4_S5000x4))
      (broadcast S5000x4 (Scalar.ofBits .f32 0x00000000#32 : Ideal .f32)) (ix2 p q)
      = Gin.relu (Gin.linTo (fun κ => h (ix2 p κ)) (Gin.ofArr2 w) (Gin.ofArr2Row b 0) q) := by
  rw [maximumf_apply, addf_apply, mm_c_apply, broadcast_apply, shapeCast_self, broadcastTo_1b_ab_apply]
  simp only [truncf_apply]
  show max _ (Ideal.ofBits .f32 0x00000000#32) = _
  rw [Ideal.ofBits_zero_f32]
  rfl

/-- The body's payload at row `p`, column `j` of the block: the head of row `p` of the loaded node block. -/
theorem pay6_apply (x0 : Vec Ideal S5000x128 .f32) (x1 : Vec Ideal S128x128 .f32) (x2 : Vec Ideal S1x128 .f32) (x3 : Vec Ideal S128x128 .f32)
    (x4 : Vec Ideal S1x128 .f32) (x5 : Vec Ideal S128x4 .f32) (x6 : Vec Ideal S1x4 .f32) (p : Fin 5000) (j : Fin 4) :
    k6_pay1 x0 x1 x2 x3 x4 x5 x6 (ix2 p j)
      = Gin.recRow (Gin.ofArr2 x0 p) (Gin.ofArr2 x1) (Gin.ofArr2Row x2 0) (Gin.ofArr2 x3) (Gin.ofArr2Row x4 0) (Gin.ofArr2 x5) (Gin.ofArr2Row x6 0) j := by
  unfold k6_pay1
  rw [layer_c_apply]
  simp only [layer_a_apply]
  rw [shapeCast_self]
  rfl

/-! ## From blocks to the array -/

theorem hz6 : (![0, 0] : Fin 2 → Nat) = fun _ => 0 := funext fun a => by fin_cases a <;> rfl

section Arrays
variable (V : (c : Dev nD) → (b : Ref sig .tc) → Buf (Elt Ideal) ((c : Thread nD τ).loc b))

/-! The region's input arrays as the region finds them, each at its literal type. -/
/-- Window 0's array: the node table. -/
abbrev xArr6 (c : Dev nD) : S50000x128.Idx → EReal := V c (Pipeline.arrRef spec6 0)
/-- Window 1's array: the first weight matrix. -/
abbrev w1Arr6 (c : Dev nD) : S128x128.Idx → EReal := V c (Pipeline.arrRef spec6 1)
/-- Window 2's array: the first bias row. -/
abbrev b1Arr6 (c : Dev nD) : S1x128.Idx → EReal := V c (Pipeline.arrRef spec6 2)
/-- Window 3's array: the second weight matrix. -/
abbrev w2Arr6 (c : Dev nD) : S128x128.Idx → EReal := V c (Pipeline.arrRef spec6 3)
/-- Window 4's array: the second bias row. -/
abbrev b2Arr6 (c : Dev nD) : S1x128.Idx → EReal := V c (Pipeline.arrRef spec6 4)
/-- Window 5's array: the last weight matrix, 128 × 4. -/
abbrev w3Arr6 (c : Dev nD) : S128x4.Idx → EReal := V c (Pipeline.arrRef spec6 5)
/-- Window 6's array: the last bias row, 4 wide. -/
abbrev b3Arr6 (c : Dev nD) : S1x4.Idx → EReal := V c (Pipeline.arrRef spec6 6)

/-- What the output array ends holding: at row `n`, column `j`, the head of row `n` of the node table. -/
def G6 (c : Dev nD) : S50000x4.Idx → EReal := fun i =>
  Gin.recHead (Gin.ofArr2 (xArr6 V c)) (Gin.ofArr2 (w1Arr6 V c)) (Gin.ofArr2Row (b1Arr6 V c) 0) (Gin.ofArr2 (w2Arr6 V c)) (Gin.ofArr2Row (b2Arr6 V c) 0) (Gin.ofArr2 (w3Arr6 V c)) (Gin.ofArr2Row (b3Arr6 V c) 0) (i 0) (i 1)

end Arrays

/-- The printed index maps, decided over the grid: the node window and the output window are at row tile `t` at
    point `t`, on their one column tile; the weights' and biases' windows are their whole arrays. -/
theorem idx_facts6 : ∀ t : Fin cfg6.N,
    win6_0.index t (0 : Fin 2) = t.val ∧ win6_0.index t (1 : Fin 2) = 0
    ∧ win6_7.index t (0 : Fin 2) = t.val ∧ win6_7.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem lt_N6 (t : Fin cfg6.N) : t.val < 10 := lt_of_lt_of_eq t.isLt N_6

/-- Row `p` of the node window's block at point `t` is row `5000 t + p` of the node table. -/
theorem emb6_0 (t : Fin cfg6.N) (p : Fin 5000) (κ : Fin 128) (n : Fin 50000) (hn : n.val = 5000 * t.val + p.val) :
    ((cfg6.win 0).blk t).view.emb (ix2 p κ : S5000x128.Idx) = (ix2 n κ : S50000x128.Idx) := by
  obtain ⟨e0, e1, -⟩ := idx_facts6 t
  funext a; apply Fin.ext
  match a with
  | ⟨0, _⟩ => show win6_0.index t (0 : Fin 2) * 5000 + 1 * p.val = n.val; omega
  | ⟨1, _⟩ => show win6_0.index t (1 : Fin 2) * 128 + 1 * κ.val = κ.val; omega

/-- Row `p` of the output window's block at point `t` is row `5000 t + p` of the output array. -/
theorem emb6_7 (t : Fin cfg6.N) (p : Fin 5000) (j : Fin 4) (n : Fin 50000) (hn : n.val = 5000 * t.val + p.val) :
    ((cfg6.win 7).blk t).view.emb (ix2 p j : S5000x4.Idx) = (ix2 n j : S50000x4.Idx) := by
  obtain ⟨-, -, e2, e3, -⟩ := idx_facts6 t
  funext a; apply Fin.ext
  match a with
  | ⟨0, _⟩ => show win6_7.index t (0 : Fin 2) * 5000 + 1 * p.val = n.val; omega
  | ⟨1, _⟩ => show win6_7.index t (1 : Fin 2) * 4 + 1 * j.val = j.val; omega

/-- Window 1's block at every point is its whole array. -/
theorem emb6_1 (t : Fin cfg6.N) (u : Fin 128) (v : Fin 128) :
    ((cfg6.win 1).blk t).view.emb (ix2 u v : S128x128.Idx) = (ix2 u v : S128x128.Idx) := by
  obtain ⟨-, -, -, -, e0, e1, -⟩ := idx_facts6 t
  funext a; apply Fin.ext
  match a with
  | ⟨0, _⟩ => show win6_1.index t (0 : Fin 2) * 128 + 1 * u.val = u.val; omega
  | ⟨1, _⟩ => show win6_1.index t (1 : Fin 2) * 128 + 1 * v.val = v.val; omega

/-- Window 2's block at every point is its whole array. -/
theorem emb6_2 (t : Fin cfg6.N) (u : Fin 1) (v : Fin 128) :
    ((cfg6.win 2).blk t).view.emb (ix2 u v : S1x128.Idx) = (ix2 u v : S1x128.Idx) := by
  obtain ⟨-, -, -, -, -, -, e0, e1, -⟩ := idx_facts6 t
  funext a; apply Fin.ext
  match a with
  | ⟨0, _⟩ => show win6_2.index t (0 : Fin 2) * 1 + 1 * u.val = u.val; omega
  | ⟨1, _⟩ => show win6_2.index t (1 : Fin 2) * 128 + 1 * v.val = v.val; omega

/-- Window 3's block at every point is its whole array. -/
theorem emb6_3 (t : Fin cfg6.N) (u : Fin 128) (v : Fin 128) :
    ((cfg6.win 3).blk t).view.emb (ix2 u v : S128x128.Idx) = (ix2 u v : S128x128.Idx) := by
  obtain ⟨-, -, -, -, -, -, -, -, e0, e1, -⟩ := idx_facts6 t
  funext a; apply Fin.ext
  match a with
  | ⟨0, _⟩ => show win6_3.index t (0 : Fin 2) * 128 + 1 * u.val = u.val; omega
  | ⟨1, _⟩ => show win6_3.index t (1 : Fin 2) * 128 + 1 * v.val = v.val; omega

/-- Window 4's block at every point is its whole array. -/
theorem emb6_4 (t : Fin cfg6.N) (u : Fin 1) (v : Fin 128) :
    ((cfg6.win 4).blk t).view.emb (ix2 u v : S1x128.Idx) = (ix2 u v : S1x128.Idx) := by
  obtain ⟨-, -, -, -, -, -, -, -, -, -, e0, e1, -⟩ := idx_facts6 t
  funext a; apply Fin.ext
  match a with
  | ⟨0, _⟩ => show win6_4.index t (0 : Fin 2) * 1 + 1 * u.val = u.val; omega
  | ⟨1, _⟩ => show win6_4.index t (1 : Fin 2) * 128 + 1 * v.val = v.val; omega

/-- Window 5's block at every point is its whole array. -/
theorem emb6_5 (t : Fin cfg6.N) (u : Fin 128) (v : Fin 4) :
    ((cfg6.win 5).blk t).view.emb (ix2 u v : S128x4.Idx) = (ix2 u v : S128x4.Idx) := by
  obtain ⟨-, -, -, -, -, -, -, -, -, -, -, -, e0, e1, -⟩ := idx_facts6 t
  funext a; apply Fin.ext
  match a with
  | ⟨0, _⟩ => show win6_5.index t (0 : Fin 2) * 128 + 1 * u.val = u.val; omega
  | ⟨1, _⟩ => show win6_5.index t (1 : Fin 2) * 4 + 1 * v.val = v.val; omega

/-- Window 6's block at every point is its whole array. -/
theorem emb6_6 (t : Fin cfg6.N) (u : Fin 1) (v : Fin 4) :
    ((cfg6.win 6).blk t).view.emb (ix2 u v : S1x4.Idx) = (ix2 u v : S1x4.Idx) := by
  obtain ⟨-, -, -, -, -, -, -, -, -, -, -, -, -, -, e0, e1⟩ := idx_facts6 t
  funext a; apply Fin.ext
  match a with
  | ⟨0, _⟩ => show win6_6.index t (0 : Fin 2) * 1 + 1 * u.val = u.val; omega
  | ⟨1, _⟩ => show win6_6.index t (1 : Fin 2) * 4 + 1 * v.val = v.val; omega

section Final
variable (V : (c : Dev nD) → (b : Ref sig .tc) → Buf (Elt Ideal) ((c : Thread nD τ).loc b))

/-- What point `t` writes back is block `t` of `G6`: the payload at row `p` of the block is the head of row `p` of the
    node block, which is row `5000 t + p` of the node table; the weights and biases are read whole. -/
theorem flushed6_7_eq (c : Dev nD) (t : Fin cfg6.N) :
    (dat6 (F := Ideal) V c).flushed 7 t = ((cfg6.win 7).blk t).view.read (Elt Ideal) (G6 V c) := by
  show (cfg6.win 7).cut (grid6.coords t) ((dat6 (F := Ideal) V c).after 7 t) = _
  rw [after6_7]
  unfold out6_7
  rw [View.canon_unit_zero hz6]
  simp only [View.ld_unit_zero (S := S5000x128) hz6, View.ld_unit_zero (S := S128x128) hz6, View.ld_unit_zero (S := S1x128) hz6, View.ld_unit_zero (S := S128x4) hz6, View.ld_unit_zero (S := S1x4) hz6]
  funext y
  obtain ⟨p, j, rfl⟩ : ∃ (p : Fin 5000) (j : Fin 4), y = ix2 p j := ⟨y 0, y 1, eq_ix2 y⟩
  have ht := lt_N6 t
  have hn : (⟨5000 * t.val + p.val, by omega⟩ : Fin 50000).val = 5000 * t.val + p.val := rfl
  show k6_pay1 (iblk6 V c 0 t) (iblk6 V c 1 t) (iblk6 V c 2 t) (iblk6 V c 3 t) (iblk6 V c 4 t) (iblk6 V c 5 t) (iblk6 V c 6 t) (ix2 p j)
    = G6 V c (((cfg6.win 7).blk t).view.emb (ix2 p j : S5000x4.Idx))
  rw [emb6_7 t p j _ hn]
  refine (pay6_apply (iblk6 V c 0 t) (iblk6 V c 1 t) (iblk6 V c 2 t) (iblk6 V c 3 t) (iblk6 V c 4 t) (iblk6 V c 5 t) (iblk6 V c 6 t) p j).trans ?_
  have e0 : Gin.ofArr2 (iblk6 V c 0 t) p = Gin.ofArr2 (xArr6 V c) ⟨5000 * t.val + p.val, by omega⟩ :=
    funext fun κ => congrArg (xArr6 V c) (emb6_0 t p κ _ hn)
  have e1 : Gin.ofArr2 (iblk6 V c 1 t) = Gin.ofArr2 (w1Arr6 V c) :=
    funext fun u => funext fun v => congrArg (w1Arr6 V c) (emb6_1 t u v)
  have e3 : Gin.ofArr2 (iblk6 V c 3 t) = Gin.ofArr2 (w2Arr6 V c) :=
    funext fun u => funext fun v => congrArg (w2Arr6 V c) (emb6_3 t u v)
  have e5 : Gin.ofArr2 (iblk6 V c 5 t) = Gin.ofArr2 (w3Arr6 V c) :=
    funext fun u => funext fun v => congrArg (w3Arr6 V c) (emb6_5 t u v)
  have e2 : Gin.ofArr2Row (iblk6 V c 2 t) 0 = Gin.ofArr2Row (b1Arr6 V c) 0 :=
    funext fun v => congrArg (b1Arr6 V c) (emb6_2 t 0 v)
  have e4 : Gin.ofArr2Row (iblk6 V c 4 t) 0 = Gin.ofArr2Row (b2Arr6 V c) 0 :=
    funext fun v => congrArg (b2Arr6 V c) (emb6_4 t 0 v)
  have e6 : Gin.ofArr2Row (iblk6 V c 6 t) 0 = Gin.ofArr2Row (b3Arr6 V c) 0 :=
    funext fun v => congrArg (b3Arr6 V c) (emb6_6 t 0 v)
  rw [e0, e1, e2, e3, e4, e5, e6]
  rfl

/-- An index of the output array is in point `t`'s block iff each coordinate is in the block's range on its axis. -/
theorem mem_blk6_7 (t : Fin cfg6.N) (i : S50000x4.Idx) :
    i ∈ ((cfg6.win 7).blk t).view.set ↔ ∀ a : Fin 2, win6_7.index t a * S5000x4.size a ≤ (i a).val ∧ (i a).val < win6_7.index t a * S5000x4.size a + S5000x4.size a := by
  show i ∈ ((View.whole main_v109).slice (win6_7.rect t)).set ↔ _
  rw [View.set_slice_whole, Rect.mem_set_unit]
  exact Iff.rfl

/-- Every row of the output array is in some point's block: row `r` in that of point `r / 5000`. -/
theorem covered6_7 (i : S50000x4.Idx) :
    ∃ t : Fin cfg6.N, (cfg6.win 7).flush t = true ∧ i ∈ ((cfg6.win 7).blk t).view.set := by
  have hi0 : (i 0).val < 50000 := idx2_lt0 i
  have hi1 : (i 1).val < 4 := idx2_lt1 i
  have hN : cfg6.N = 10 := N_6
  let t : Fin cfg6.N := ⟨(i 0).val / 5000, by rw [hN]; omega⟩
  have htv : t.val = (i 0).val / 5000 := rfl
  obtain ⟨-, -, e2, e3, -⟩ := idx_facts6 t
  refine ⟨t, flush6_7 t, ?_⟩
  rw [mem_blk6_7]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 4 ≤ (i 1).val ∧ (i 1).val < win6_7.index t (1 : Fin 2) * 4 + 4; omega

/-- The output array after the region, whole: `G6` of the arrays the region found. -/
theorem val6_arr (c : Dev nD) : (dat6 (F := Ideal) V c).arrAt 7 cfg6.N = G6 V c :=
  (dat6 (F := Ideal) V c).arrAt_eq_of_cover 7 (G6 V c) (fun t _ => flushed6_7_eq V c t) covered6_7

/-- The output array after the region, entry by entry: row `n`, column `j` is the reconstruction head of row `n` of
    the node table with the region's weights and biases. -/
theorem val6 (c : Dev nD) (n : Fin 50000) (j : Fin 4) :
    ((dat6 (F := Ideal) V c).arrAt 7 cfg6.N : S50000x4.Idx → EReal) (ix2 n j)
      = Gin.recRow (Gin.ofArr2 (xArr6 V c) n) (Gin.ofArr2 (w1Arr6 V c)) (Gin.ofArr2Row (b1Arr6 V c) 0) (Gin.ofArr2 (w2Arr6 V c)) (Gin.ofArr2Row (b2Arr6 V c) 0) (Gin.ofArr2 (w3Arr6 V c)) (Gin.ofArr2Row (b3Arr6 V c) 0) j := by
  rw [val6_arr]
  rfl

end Final

end Cert.KernelIdeal.Val

end
-- ==== Proof.KI.Pay0.lean ====
/-
  The arithmetic of the statistics kernel's body (region 0) at an index, at the ideal values: the tile of the first
  linear map h = (x + agg) W1 + b1 entry by entry, and the two accumulator rows as the running row plus the tile's
  column sums of h and of h squared; the rows stored at the first point are zero.
-/
import proofs.«430410_j38371237822819_1_alg».proof.Proof.Gen.KernelIdeal.Skeleton
import proofs.«430410_j38371237822819_1_alg».proof.Proof.Spec
import proofs.«430410_j38371237822819_1_alg».proof.Proof.Math
import proofs.«430410_j38371237822819_1_alg».proof.Proof.KI.Val6
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx
open scoped BigOperators

/-! ## The layout steps of the column sums -/

/-- The source index over the reduced index (q) with row k inserted on the dropped axis is (k, q). -/
theorem lift0_rows (h : S5000x128.Reduces [0] S128) (q : Fin 128) (k : Fin 5000) :
    h.lift (ix1 q) k = (ix2 k q : S5000x128.Idx) := by
  funext a; apply Fin.ext
  match a with
  | ⟨0, _⟩ => rfl
  | ⟨1, _⟩ => rfl

/-- A 128-vector cast to a one-row matrix reads, at (0, q), its entry q. -/
theorem row_of_vec_apply {α : Type} (v : S128.Idx → α) (h : S128.ShapeCasts S1x128) (q : Fin 128) :
    shapeCast S1x128 v h (ix2 (0 : Fin 1) q) = v (ix1 q) :=
  shapeCast_apply v h (ix2 (0 : Fin 1) q) (ix1 q) (by
    rw [Shape.rowMajor_val_two, Shape.rowMajor_val_one]; show q.val = 0 * 128 + q.val; omega)

/-- The column sums of a 5000 × 128 tile, as a one-row matrix, at (0, q): the sum over the tile's rows of column q. -/
theorem colsum_apply (src : FVec Ideal S5000x128 .f32) (h : S5000x128.Reduces [0] S128) (hφ : FKind.Formats .f32)
    (hacc : (0x00000000#32 : BitVec 32) = 0x00000000#32) (hc : S128.ShapeCasts S1x128) (q : Fin 128) :
    shapeCast S1x128 (multiReduction .add [0] S128 src 0x00000000#32 h hφ hacc) hc (ix2 (0 : Fin 1) q)
      = ∑ p : Fin 5000, src (ix2 p q) := by
  rw [row_of_vec_apply]
  refine (Ideal.multiReduction_add_single src 0x00000000#32 h hφ hacc (ix1 q)).trans ?_
  exact Finset.sum_congr rfl fun k _ => congrArg src (lift0_rows h q k)

/-! ## The payloads at an index -/

/-- The tile of h at row p, column q: the first linear map of row p of x + agg. The narrowing of the operands to the
    short format is the identity on extended reals. -/
theorem pay0_3_apply (x agg : FVec Ideal S5000x128 .f32) (w : FVec Ideal S128x128 .f32) (b : FVec Ideal S1x128 .f32)
    (p : Fin 5000) (q : Fin 128) :
    k0_pay3 (F := Ideal) x agg w b (ix2 p q)
      = Gin.lin (fun κ => x (ix2 p κ) + agg (ix2 p κ)) (Gin.ofArr2 w) (Gin.ofArr2Row b 0) q := by
  unfold k0_pay3
  rw [addf_apply, mm_a_apply, shapeCast_self, broadcastTo_1b_ab_apply]
  simp only [truncf_apply, shapeCast_self, addf_apply]
  rfl

/-- The first accumulator's new row at column q: the running row plus the tile's column sum of h. -/
theorem pay0_4_apply (x agg : FVec Ideal S5000x128 .f32) (w : FVec Ideal S128x128 .f32) (b : FVec Ideal S1x128 .f32)
    (acc : FVec Ideal S1x128 .f32) (q : Fin 128) :
    k0_pay4 (F := Ideal) x agg w b acc (ix2 (0 : Fin 1) q)
      = acc (ix2 (0 : Fin 1) q) + ∑ p : Fin 5000, k0_pay3 (F := Ideal) x agg w b (ix2 p q) := by
  unfold k0_pay4
  rw [shapeCast_self, addf_apply, colsum_apply]

/-- The second accumulator's new row at column q: the running row plus the tile's column sum of h squared. -/
theorem pay0_5_apply (x agg : FVec Ideal S5000x128 .f32) (w : FVec Ideal S128x128 .f32) (b : FVec Ideal S1x128 .f32)
    (acc : FVec Ideal S1x128 .f32) (q : Fin 128) :
    k0_pay5 (F := Ideal) x agg w b acc (ix2 (0 : Fin 1) q)
      = acc (ix2 (0 : Fin 1) q) + ∑ p : Fin 5000, k0_pay3 (F := Ideal) x agg w b (ix2 p q) * k0_pay3 (F := Ideal) x agg w b (ix2 p q) := by
  unfold k0_pay5
  rw [shapeCast_self, addf_apply, colsum_apply]
  simp only [mulf_apply]

/-- The row stored into the first accumulator at the first point is zero. -/
theorem pay0_1_apply (q : Fin 128) : k0_pay1 (F := Ideal) (ix2 (0 : Fin 1) q) = 0 := by
  unfold k0_pay1
  rw [shapeCast_self, broadcast_apply]
  exact Ideal.ofBits_zero_f32

/-- The row stored into the second accumulator at the first point is zero. -/
theorem pay0_2_apply (q : Fin 128) : k0_pay2 (F := Ideal) (ix2 (0 : Fin 1) q) = 0 := by
  unfold k0_pay2
  rw [shapeCast_self, broadcast_apply]
  exact Ideal.ofBits_zero_f32

end Cert.KernelIdeal.Val

end
-- ==== Proof.KI.Val0H.lean ====
/-
  What region 0 leaves in its three output arrays, at the ideal values, whatever the core's buffers hold when the region
  is entered: row n of the first array is the layer's first linear map of row n of the features plus the neighbour sum;
  the two one-row arrays are the column sums of that table and of its squares, accumulated tile by tile.
-/
import proofs.«430410_j38371237822819_1_alg».proof.Proof.KI.Val0D
import proofs.«430410_j38371237822819_1_alg».proof.Proof.KI.Pay0
import proofs.«430410_j38371237822819_1_alg».proof.Proof.Spec
import proofs.«430410_j38371237822819_1_alg».proof.Proof.Math
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.ShloMosaic.Tactic
open Idealize.ShloMosaic.Pipeline (Dat Cfg Window)
open scoped BigOperators

/-! ## What the body's stores leave, as the payloads of what it loaded (any float instance) -/

section Pieces
variable {F : FTy → Type} [FloatOps F]

theorem hz0 : (![0, 0] : Fin 2 → Nat) = fun _ => 0 := funext fun a => by fin_cases a <;> rfl

/-- At the first point the row-tile output's one covering store leaves the tile of the linear map of the four input blocks. -/
theorem out0_A_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) :
    out0_A_4 c i arg1 harg1 arg2 harg2 arg3 harg3 arg4 harg4 arg5 harg5 arg6 harg6 arg7 harg7 arg8 harg8 arg9 harg9 hc0 hc1 x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the first point the column-sum accumulator is zeroed, read back, and left at the zero row plus the tile's column sums. -/
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) :
    sout0_A_0 c i arg1 harg1 arg2 harg2 arg3 harg3 arg4 harg4 arg5 harg5 arg6 harg6 arg7 harg7 arg8 harg8 arg9 harg9 hc0 hc1 x0 x1 x2 x3 = k0_pay4 x0 x1 x2 x3 k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the first point the sum-of-squares accumulator is zeroed, read back, and left at the zero row plus the tile's column sums of squares. -/
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x128 .f32) (x2 : Vec F S128x128 .f32) (x3 : Vec F S1x128 .f32) :
    sout0_A_1 c i arg1 harg1 arg2 harg2 arg3 harg3 arg4 harg4 arg5 harg5 arg6 harg6 arg7 harg7 arg8 harg8 arg9 harg9 hc0 hc1 x0 x1 x2 x3 = k0_pay5 x0 x1 x2 x3 k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At a middle point the row-tile output's one covering store leaves the tile of the linear map of the four input blocks. -/
theorem out0_B_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    out0_B_4 c i arg1 harg1 arg2 harg2 arg3 harg3 arg4 harg4 arg5 harg5 arg6 harg6 arg7 harg7 arg8 harg8 arg9 harg9 hc0 hc1 x0 x1 x2 x3 xs0 xs1 = k0_pay3 x0 x1 x2 x3 := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At a middle point the column-sum accumulator, found at `xs0`, is left at `xs0` plus the tile's column sums. -/
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At a middle point the sum-of-squares accumulator, found at `xs1`, is left at `xs1` plus the tile's column sums of squares. -/
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the last point the row-tile output's one covering store leaves the tile of the linear map of the four input blocks. -/
theorem out0_C_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    out0_C_4 c i arg1 harg1 arg2 harg2 arg3 harg3 arg4 harg4 arg5 harg5 arg6 harg6 arg7 harg7 arg8 harg8 arg9 harg9 hc0 hc1 x0 x1 x2 x3 xs0 xs1 = k0_pay3 x0 x1 x2 x3 := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the last point the column-sum accumulator, found at `xs0`, is left at `xs0` plus the tile's column sums. -/
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    sout0_C_0 c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the last point the sum-of-squares accumulator, found at `xs1`, is left at `xs1` plus the tile's column sums of squares. -/
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    sout0_C_1 c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the last point the column-sum output is stored whole from the accumulator just updated: it holds what the accumulator holds. -/
theorem out0_C_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    out0_C_5 c i arg1 harg1 arg2 harg2 arg3 harg3 arg4 harg4 arg5 harg5 arg6 harg6 arg7 harg7 arg8 harg8 arg9 harg9 hc0 hc1 x0 x1 x2 x3 xs0 xs1 = k0_pay4 x0 x1 x2 x3 xs0 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz0, View.readCov_unit_zero (S := S1x128) _ hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

/-- At the last point the sum-of-squares output is stored whole from its accumulator just updated. -/
theorem out0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 hc0 hc1 x0 x1 x2 x3 xs0 xs1 = k0_pay5 x0 x1 x2 x3 xs1 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz0, View.readCov_unit_zero (S := S1x128) _ hz0]
  simp only [View.readAt_eq_ld, harg1.read_unread, harg2.read_unread, harg3.read_unread, harg4.read_unread, harg8.read_unread, harg9.read_unread, View.ld_unit_zero (S := S5000x128) hz0, View.ld_unit_zero (S := S128x128) hz0, View.ld_unit_zero (S := S1x128) hz0]

variable (V : (c : Dev nD) → (b : Ref sig .tc) → Buf (Elt F) ((c : Thread nD τ).loc b))

/-- The four input blocks at point `t`, each at its literal type: rows `5000 t …` of the layer's input and of the
    neighbour aggregate, the weight matrix, the bias row. -/
abbrev xblk0 (c : Dev nD) (t : Fin cfg0.N) : Vec F S5000x128 .f32 := iblk0 V c 0 t
abbrev ablk0 (c : Dev nD) (t : Fin cfg0.N) : Vec F S5000x128 .f32 := iblk0 V c 1 t
abbrev wblk0 (c : Dev nD) (t : Fin cfg0.N) : Vec F S128x128 .f32 := iblk0 V c 2 t
abbrev bblk0 (c : Dev nD) (t : Fin cfg0.N) : Vec F S1x128 .f32 := iblk0 V c 3 t

/-- After every point the row-tile output's buffer holds the tile of the linear map of that point's blocks. -/
theorem outs0_h (c : Dev nD) (t : Fin cfg0.N) :
    (outsAt0 V c t.val t.isLt).1 = k0_pay3 (xblk0 V c t) (ablk0 V c t) (wblk0 V c t) (bblk0 V c t) := by
  have hN : t.val < 10 := lt_of_lt_of_eq t.isLt (show cfg0.N = 10 from N_0)
  by_cases h0 : t.val = 0
  · have h1 : ¬t.val = 9 := by omega
    rw [outsAt0_A V c t h0 h1]; dsimp only
    exact out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val = 9
    · rw [outsAt0_C V c t h0 h1]; dsimp only
      exact out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- After the first point the column-sum accumulator holds the zero row plus the first tile's column sums. -/
theorem outs0_accS_first (c : Dev nD) (t : Fin cfg0.N) (h0 : t.val = 0) :
    (outsAt0 V c t.val t.isLt).2.2.2.1 = k0_pay4 (xblk0 V c t) (ablk0 V c t) (wblk0 V c t) (bblk0 V c t) k0_pay1 := by
  have h1 : ¬t.val = 9 := by omega
  rw [outsAt0_A V c t h0 h1]; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

/-- After a later point it holds what the point before left plus this tile's column sums. -/
theorem outs0_accS_next (c : Dev nD) (t : Fin cfg0.N) (h0 : ¬t.val = 0) :
    (outsAt0 V c t.val t.isLt).2.2.2.1 = k0_pay4 (xblk0 V c t) (ablk0 V c t) (wblk0 V c t) (bblk0 V c t) (outsAt0 V c (t.val - 1) (Nat.lt_of_le_of_lt (Nat.sub_le _ _) t.isLt)).2.2.2.1 := by
  by_cases h1 : t.val = 9
  · rw [outsAt0_C V c t h0 h1]; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The same for the sum-of-squares accumulator. -/
theorem outs0_accQ_first (c : Dev nD) (t : Fin cfg0.N) (h0 : t.val = 0) :
    (outsAt0 V c t.val t.isLt).2.2.2.2 = k0_pay5 (xblk0 V c t) (ablk0 V c t) (wblk0 V c t) (bblk0 V c t) k0_pay2 := by
  have h1 : ¬t.val = 9 := by omega
  rw [outsAt0_A V c t h0 h1]; dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

theorem outs0_accQ_next (c : Dev nD) (t : Fin cfg0.N) (h0 : ¬t.val = 0) :
    (outsAt0 V c t.val t.isLt).2.2.2.2 = k0_pay5 (xblk0 V c t) (ablk0 V c t) (wblk0 V c t) (bblk0 V c t) (outsAt0 V c (t.val - 1) (Nat.lt_of_le_of_lt (Nat.sub_le _ _) t.isLt)).2.2.2.2 := by
  by_cases h1 : t.val = 9
  · rw [outsAt0_C V c t h0 h1]; dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At the last point each statistics output's buffer holds what its accumulator holds after that point. -/
theorem outs0_sum_last (c : Dev nD) (t : Fin cfg0.N) (h1 : t.val = 9) :
    (outsAt0 V c t.val t.isLt).2.1 = (outsAt0 V c t.val t.isLt).2.2.2.1 := by
  have h0 : ¬t.val = 0 := by omega
  rw [outsAt0_C V c t h0 h1]; dsimp only
  exact (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

theorem outs0_sumsq_last (c : Dev nD) (t : Fin cfg0.N) (h1 : t.val = 9) :
    (outsAt0 V c t.val t.isLt).2.2.1 = (outsAt0 V c t.val t.isLt).2.2.2.2 := by
  have h0 : ¬t.val = 0 := by omega
  rw [outsAt0_C V c t h0 h1]; dsimp only
  exact (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

/-- The accumulators' recurrences, at the point numbers themselves. -/
theorem accS0_zero (c : Dev nD) (hn : 0 < cfg0.N) :
    (outsAt0 V c 0 hn).2.2.2.1 = k0_pay4 (xblk0 V c ⟨0, hn⟩) (ablk0 V c ⟨0, hn⟩) (wblk0 V c ⟨0, hn⟩) (bblk0 V c ⟨0, hn⟩) k0_pay1 :=
  outs0_accS_first V c ⟨0, hn⟩ rfl
theorem accS0_succ (c : Dev nD) (n : ℕ) (hn : n + 1 < cfg0.N) :
    (outsAt0 V c (n + 1) hn).2.2.2.1 = k0_pay4 (xblk0 V c ⟨n + 1, hn⟩) (ablk0 V c ⟨n + 1, hn⟩) (wblk0 V c ⟨n + 1, hn⟩) (bblk0 V c ⟨n + 1, hn⟩) (outsAt0 V c n (Nat.lt_of_succ_lt hn)).2.2.2.1 :=
  outs0_accS_next V c ⟨n + 1, hn⟩ (Nat.succ_ne_zero n)
theorem accQ0_zero (c : Dev nD) (hn : 0 < cfg0.N) :
    (outsAt0 V c 0 hn).2.2.2.2 = k0_pay5 (xblk0 V c ⟨0, hn⟩) (ablk0 V c ⟨0, hn⟩) (wblk0 V c ⟨0, hn⟩) (bblk0 V c ⟨0, hn⟩) k0_pay2 :=
  outs0_accQ_first V c ⟨0, hn⟩ rfl
theorem accQ0_succ (c : Dev nD) (n : ℕ) (hn : n + 1 < cfg0.N) :
    (outsAt0 V c (n + 1) hn).2.2.2.2 = k0_pay5 (xblk0 V c ⟨n + 1, hn⟩) (ablk0 V c ⟨n + 1, hn⟩) (wblk0 V c ⟨n + 1, hn⟩) (bblk0 V c ⟨n + 1, hn⟩) (outsAt0 V c n (Nat.lt_of_succ_lt hn)).2.2.2.2 :=
  outs0_accQ_next V c ⟨n + 1, hn⟩ (Nat.succ_ne_zero n)

end Pieces

/-! ## The blocks, read off the arrays -/

/-- The printed index maps, decided over the grid: the two row-tiled inputs and the row-tiled output are at row tile
    `t` at point `t`, on their one column tile; the weights', the bias's and the statistics' windows are their whole
    arrays. -/
theorem idx_facts0_0 : ∀ t : Fin cfg0.N, win0_0.index t (0 : Fin 2) = t.val ∧ win0_0.index t (1 : Fin 2) = 0 :=
  (by decide +kernel : ∀ t : Fin grid0.N, _)
theorem idx_facts0_1 : ∀ t : Fin cfg0.N, win0_1.index t (0 : Fin 2) = t.val ∧ win0_1.index t (1 : Fin 2) = 0 :=
  (by decide +kernel : ∀ t : Fin grid0.N, _)
theorem idx_facts0_4 : ∀ t : Fin cfg0.N, win0_4.index t (0 : Fin 2) = t.val ∧ win0_4.index t (1 : Fin 2) = 0 :=
  (by decide +kernel : ∀ t : Fin grid0.N, _)
theorem idx_facts0_2 : ∀ t : Fin cfg0.N, win0_2.index t (0 : Fin 2) = 0 ∧ win0_2.index t (1 : Fin 2) = 0 :=
  (by decide +kernel : ∀ t : Fin grid0.N, _)
theorem idx_facts0_3 : ∀ t : Fin cfg0.N, win0_3.index t (0 : Fin 2) = 0 ∧ win0_3.index t (1 : Fin 2) = 0 :=
  (by decide +kernel : ∀ t : Fin grid0.N, _)
theorem idx_facts0_5 : ∀ t : Fin cfg0.N, win0_5.index t (0 : Fin 2) = 0 ∧ win0_5.index t (1 : Fin 2) = 0 :=
  (by decide +kernel : ∀ t : Fin grid0.N, _)
theorem idx_facts0_6 : ∀ t : Fin cfg0.N, win0_6.index t (0 : Fin 2) = 0 ∧ win0_6.index t (1 : Fin 2) = 0 :=
  (by decide +kernel : ∀ t : Fin grid0.N, _)

theorem lt_N0 (t : Fin cfg0.N) : t.val < 10 := lt_of_lt_of_eq t.isLt N_0

/-- Row `p` of window 0's block at point `t` is row `5000 t + p` of its array. -/
theorem emb0_0 (t : Fin cfg0.N) (p : Fin 5000) (κ : Fin 128) (n : Fin 50000) (hn : n.val = 5000 * t.val + p.val) :
    ((cfg0.win 0).blk t).view.emb (ix2 p κ : S5000x128.Idx) = (ix2 n κ : S50000x128.Idx) := by
  obtain ⟨e0, e1⟩ := idx_facts0_0 t
  funext a; apply Fin.ext
  match a with
  | ⟨0, _⟩ => show win0_0.index t (0 : Fin 2) * 5000 + 1 * p.val = n.val; omega
  | ⟨1, _⟩ => show win0_0.index t (1 : Fin 2) * 128 + 1 * κ.val = κ.val; omega

/-- Row `p` of window 1's block at point `t` is row `5000 t + p` of its array. -/
theorem emb0_1 (t : Fin cfg0.N) (p : Fin 5000) (κ : Fin 128) (n : Fin 50000) (hn : n.val = 5000 * t.val + p.val) :
    ((cfg0.win 1).blk t).view.emb (ix2 p κ : S5000x128.Idx) = (ix2 n κ : S50000x128.Idx) := by
  obtain ⟨e0, e1⟩ := idx_facts0_1 t
  funext a; apply Fin.ext
  match a with
  | ⟨0, _⟩ => show win0_1.index t (0 : Fin 2) * 5000 + 1 * p.val = n.val; omega
  | ⟨1, _⟩ => show win0_1.index t (1 : Fin 2) * 128 + 1 * κ.val = κ.val; omega

/-- Window 2's block at every point is its whole array. -/
theorem emb0_2 (t : Fin cfg0.N) (u : Fin 128) (v : Fin 128) :
    ((cfg0.win 2).blk t).view.emb (ix2 u v : S128x128.Idx) = (ix2 u v : S128x128.Idx) := by
  obtain ⟨e0, e1⟩ := idx_facts0_2 t
  funext a; apply Fin.ext
  match a with
  | ⟨0, _⟩ => show win0_2.index t (0 : Fin 2) * 128 + 1 * u.val = u.val; omega
  | ⟨1, _⟩ => show win0_2.index t (1 : Fin 2) * 128 + 1 * v.val = v.val; omega

/-- Window 3's block at every point is its whole array. -/
theorem emb0_3 (t : Fin cfg0.N) (u : Fin 1) (v : Fin 128) :
    ((cfg0.win 3).blk t).view.emb (ix2 u v : S1x128.Idx) = (ix2 u v : S1x128.Idx) := by
  obtain ⟨e0, e1⟩ := idx_facts0_3 t
  funext a; apply Fin.ext
  match a with
  | ⟨0, _⟩ => show win0_3.index t (0 : Fin 2) * 1 + 1 * u.val = u.val; omega
  | ⟨1, _⟩ => show win0_3.index t (1 : Fin 2) * 128 + 1 * v.val = v.val; omega

/-- Row `p` of window 4's block at point `t` is row `5000 t + p` of its array. -/
theorem emb0_4 (t : Fin cfg0.N) (p : Fin 5000) (κ : Fin 128) (n : Fin 50000) (hn : n.val = 5000 * t.val + p.val) :
    ((cfg0.win 4).blk t).view.emb (ix2 p κ : S5000x128.Idx) = (ix2 n κ : S50000x128.Idx) := by
  obtain ⟨e0, e1⟩ := idx_facts0_4 t
  funext a; apply Fin.ext
  match a with
  | ⟨0, _⟩ => show win0_4.index t (0 : Fin 2) * 5000 + 1 * p.val = n.val; omega
  | ⟨1, _⟩ => show win0_4.index t (1 : Fin 2) * 128 + 1 * κ.val = κ.val; omega

/-- Window 5's block at every point is its whole array. -/
theorem emb0_5 (t : Fin cfg0.N) (u : Fin 1) (v : Fin 128) :
    ((cfg0.win 5).blk t).view.emb (ix2 u v : S1x128.Idx) = (ix2 u v : S1x128.Idx) := by
  obtain ⟨e0, e1⟩ := idx_facts0_5 t
  funext a; apply Fin.ext
  match a with
  | ⟨0, _⟩ => show win0_5.index t (0 : Fin 2) * 1 + 1 * u.val = u.val; omega
  | ⟨1, _⟩ => show win0_5.index t (1 : Fin 2) * 128 + 1 * v.val = v.val; omega

/-- Window 6's block at every point is its whole array. -/
theorem emb0_6 (t : Fin cfg0.N) (u : Fin 1) (v : Fin 128) :
    ((cfg0.win 6).blk t).view.emb (ix2 u v : S1x128.Idx) = (ix2 u v : S1x128.Idx) := by
  obtain ⟨e0, e1⟩ := idx_facts0_6 t
  funext a; apply Fin.ext
  match a with
  | ⟨0, _⟩ => show win0_6.index t (0 : Fin 2) * 1 + 1 * u.val = u.val; omega
  | ⟨1, _⟩ => show win0_6.index t (1 : Fin 2) * 128 + 1 * v.val = v.val; omega

/-! ## The arrays and what the outputs end holding -/

section Final
variable (V : (c : Dev nD) → (b : Ref sig .tc) → Buf (Elt Ideal) ((c : Thread nD τ).loc b))

/-- The three output arrays as the region leaves them: the table `H0`, its column sums, its column sums of squares. -/
def Gh0 (c : Dev nD) : S50000x128.Idx → EReal := fun i => H0 V c (i 0) (i 1)
def Gs0 (c : Dev nD) : S1x128.Idx → EReal := fun i => Gin.colSum (H0 V c) (i 1)
def Gq0 (c : Dev nD) : S1x128.Idx → EReal := fun i => Gin.colSum (fun n κ => H0 V c n κ * H0 V c n κ) (i 1)

/-- The tile of the linear map at point `t`, row `p`, column `q`, is row `5000 t + p` of `H0`: the payload at an index,
    each block read where its rectangle says. -/
theorem tile_h0 (c : Dev nD) (t : Fin cfg0.N) (p : Fin 5000) (q : Fin 128) :
    k0_pay3 (F := Ideal) (xblk0 V c t) (ablk0 V c t) (wblk0 V c t) (bblk0 V c t) (ix2 p q) = H0 V c (Gin.tileRow ⟨t.val, lt_N0 t⟩ p) q := by
  have hn : (Gin.tileRow ⟨t.val, lt_N0 t⟩ p).val = 5000 * t.val + p.val := rfl
  refine (pay0_3_apply (xblk0 V c t) (ablk0 V c t) (wblk0 V c t) (bblk0 V c t) p q).trans ?_
  have ex : (fun κ : Fin 128 => xblk0 V c t (ix2 p κ) + ablk0 V c t (ix2 p κ))
      = fun κ => Gin.ofArr2 (xArr0 V c) (Gin.tileRow ⟨t.val, lt_N0 t⟩ p) κ + Gin.ofArr2 (aggArr0 V c) (Gin.tileRow ⟨t.val, lt_N0 t⟩ p) κ :=
    funext fun κ => congrArg₂ (fun a b : EReal => a + b)
      (congrArg (xArr0 V c) (emb0_0 t p κ _ hn)) (congrArg (aggArr0 V c) (emb0_1 t p κ _ hn))
  have ew : Gin.ofArr2 (wblk0 V c t) = Gin.ofArr2 (w1Arr0 V c) :=
    funext fun u => funext fun v => congrArg (w1Arr0 V c) (emb0_2 t u v)
  have eb : Gin.ofArr2Row (bblk0 V c t) 0 = Gin.ofArr2Row (b1Arr0 V c) 0 :=
    funext fun v => congrArg (b1Arr0 V c) (emb0_3 t 0 v)
  rw [ex, ew, eb]
  rfl

/-- The column sums of tile `k` of `H0`, and of its squares (zero past the ten tiles). -/
def tsum0 (c : Dev nD) (k : ℕ) (q : Fin 128) : EReal :=
  if h : k < 10 then ∑ r : Fin 5000, H0 V c (Gin.tileRow ⟨k, h⟩ r) q else 0
def tsq0 (c : Dev nD) (k : ℕ) (q : Fin 128) : EReal :=
  if h : k < 10 then ∑ r : Fin 5000, H0 V c (Gin.tileRow ⟨k, h⟩ r) q * H0 V c (Gin.tileRow ⟨k, h⟩ r) q else 0

theorem tile_sum0 (c : Dev nD) (t : Fin cfg0.N) (q : Fin 128) :
    ∑ p : Fin 5000, k0_pay3 (F := Ideal) (xblk0 V c t) (ablk0 V c t) (wblk0 V c t) (bblk0 V c t) (ix2 p q) = tsum0 V c t.val q := by
  unfold tsum0; rw [dif_pos (lt_N0 t)]
  exact Finset.sum_congr rfl fun p _ => tile_h0 V c t p q
theorem tile_sq0 (c : Dev nD) (t : Fin cfg0.N) (q : Fin 128) :
    ∑ p : Fin 5000, k0_pay3 (F := Ideal) (xblk0 V c t) (ablk0 V c t) (wblk0 V c t) (bblk0 V c t) (ix2 p q) * k0_pay3 (F := Ideal) (xblk0 V c t) (ablk0 V c t) (wblk0 V c t) (bblk0 V c t) (ix2 p q) = tsq0 V c t.val q := by
  unfold tsq0; rw [dif_pos (lt_N0 t)]
  exact Finset.sum_congr rfl fun p _ => by rw [tile_h0 V c t p q]

/-- THE ACCUMULATION: after point `n` the first accumulator's column `q` is the sum over the tiles `0 … n` of the tile's
    column sum — by induction on the point. -/
theorem accS0_inv (c : Dev nD) : ∀ (n : ℕ) (hn : n < cfg0.N) (q : Fin 128),
    (outsAt0 (F := Ideal) V c n hn).2.2.2.1 (ix2 (0 : Fin 1) q) = ∑ k ∈ Finset.range (n + 1), tsum0 V c k q
  | 0, hn, q => by
    rw [Finset.sum_range_succ, Finset.sum_range_zero]
    refine (congrFun (accS0_zero V c hn) (ix2 (0 : Fin 1) q)).trans ?_
    refine (pay0_4_apply (xblk0 V c ⟨0, hn⟩) (ablk0 V c ⟨0, hn⟩) (wblk0 V c ⟨0, hn⟩) (bblk0 V c ⟨0, hn⟩) k0_pay1 q).trans ?_
    exact congrArg₂ (fun a b : EReal => a + b) (pay0_1_apply q) (tile_sum0 V c ⟨0, hn⟩ q)
  | n + 1, hn, q => by
    rw [Finset.sum_range_succ]
    refine (congrFun (accS0_succ V c n hn) (ix2 (0 : Fin 1) q)).trans ?_
    refine (pay0_4_apply (xblk0 V c ⟨n + 1, hn⟩) (ablk0 V c ⟨n + 1, hn⟩) (wblk0 V c ⟨n + 1, hn⟩) (bblk0 V c ⟨n + 1, hn⟩) _ q).trans ?_
    exact congrArg₂ (fun a b : EReal => a + b) (accS0_inv c n (Nat.lt_of_succ_lt hn) q) (tile_sum0 V c ⟨n + 1, hn⟩ q)

/-- The same for the second accumulator and the squares. -/
theorem accQ0_inv (c : Dev nD) : ∀ (n : ℕ) (hn : n < cfg0.N) (q : Fin 128),
    (outsAt0 (F := Ideal) V c n hn).2.2.2.2 (ix2 (0 : Fin 1) q) = ∑ k ∈ Finset.range (n + 1), tsq0 V c k q
  | 0, hn, q => by
    rw [Finset.sum_range_succ, Finset.sum_range_zero]
    refine (congrFun (accQ0_zero V c hn) (ix2 (0 : Fin 1) q)).trans ?_
    refine (pay0_5_apply (xblk0 V c ⟨0, hn⟩) (ablk0 V c ⟨0, hn⟩) (wblk0 V c ⟨0, hn⟩) (bblk0 V c ⟨0, hn⟩) k0_pay2 q).trans ?_
    exact congrArg₂ (fun a b : EReal => a + b) (pay0_2_apply q) (tile_sq0 V c ⟨0, hn⟩ q)
  | n + 1, hn, q => by
    rw [Finset.sum_range_succ]
    refine (congrFun (accQ0_succ V c n hn) (ix2 (0 : Fin 1) q)).trans ?_
    refine (pay0_5_apply (xblk0 V c ⟨n + 1, hn⟩) (ablk0 V c ⟨n + 1, hn⟩) (wblk0 V c ⟨n + 1, hn⟩) (bblk0 V c ⟨n + 1, hn⟩) _ q).trans ?_
    exact congrArg₂ (fun a b : EReal => a + b) (accQ0_inv c n (Nat.lt_of_succ_lt hn) q) (tile_sq0 V c ⟨n + 1, hn⟩ q)

/-- The ten tile sums are the column sum over all 50000 rows. -/
theorem sum_tsum0 (c : Dev nD) (q : Fin 128) : ∑ k ∈ Finset.range 10, tsum0 V c k q = Gs0 V c (ix2 (0 : Fin 1) q) := by
  show _ = Gin.colSum (H0 V c) q
  rw [Gin.colSum_tiles, Finset.sum_range]
  exact Finset.sum_congr rfl fun t _ => by unfold tsum0; rw [dif_pos t.isLt]
theorem sum_tsq0 (c : Dev nD) (q : Fin 128) : ∑ k ∈ Finset.range 10, tsq0 V c k q = Gq0 V c (ix2 (0 : Fin 1) q) := by
  show _ = Gin.colSum (fun n κ => H0 V c n κ * H0 V c n κ) q
  rw [Gin.colSum_tiles, Finset.sum_range]
  exact Finset.sum_congr rfl fun t _ => by unfold tsq0; rw [dif_pos t.isLt]

/-! ## From blocks to the arrays -/

/-- What point `t` writes back into the row-tiled output is block `t` of `Gh0`. -/
theorem flushed0_4_eq (c : Dev nD) (t : Fin cfg0.N) :
    (dat0 (F := Ideal) V c).flushed 4 t = ((cfg0.win 4).blk t).view.read (Elt Ideal) (Gh0 V c) := by
  show (cfg0.win 4).cut (grid0.coords t) ((dat0 (F := Ideal) V c).after 4 t) = _
  rw [after0_4, outs0_h V c t]
  funext y
  obtain ⟨p, j, rfl⟩ : ∃ (p : Fin 5000) (j : Fin 128), y = ix2 p j := ⟨y 0, y 1, eq_ix2 y⟩
  have hn : (Gin.tileRow ⟨t.val, lt_N0 t⟩ p).val = 5000 * t.val + p.val := rfl
  show k0_pay3 (F := Ideal) (xblk0 V c t) (ablk0 V c t) (wblk0 V c t) (bblk0 V c t) (ix2 p j) = Gh0 V c (((cfg0.win 4).blk t).view.emb (ix2 p j : S5000x128.Idx))
  rw [emb0_4 t p j _ hn]
  exact tile_h0 V c t p j

/-- An index of the output array is in point `t`'s block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19_0).slice (win0_4.rect t)).set ↔ _
  rw [View.set_slice_whole, Rect.mem_set_unit]
  exact Iff.rfl

/-- Every row of the output array is in some point's block: row `r` in that of point `r / 5000`. -/
theorem covered0_4 (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  have hN : cfg0.N = 10 := N_0
  let t : Fin cfg0.N := ⟨(i 0).val / 5000, by rw [hN]; omega⟩
  have htv : t.val = (i 0).val / 5000 := rfl
  obtain ⟨e0, e1⟩ := idx_facts0_4 t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The row-tiled output array after the region, whole. -/
theorem val0_4_arr (c : Dev nD) : (dat0 (F := Ideal) V c).arrAt 4 cfg0.N = Gh0 V c :=
  (dat0 (F := Ideal) V c).arrAt_eq_of_cover 4 (Gh0 V c) (fun t _ => flushed0_4_eq V c t) covered0_4

-- (unifying the block's read with the row at an index unfolds the window's literal index map deeply)
set_option maxRecDepth 65536 in
/-- What the last point writes back into the column-sum output is the whole row `Gs0`. -/
theorem flushed0_5_eq (c : Dev nD) (t : Fin cfg0.N) (hf : (cfg0.win 5).flush t = true) :
    (dat0 (F := Ideal) V c).flushed 5 t = ((cfg0.win 5).blk t).view.read (Elt Ideal) (Gs0 V c) := by
  have hN := lt_N0 t
  have h9 : t.val = 9 := by have := (flush0_5 t).mp hf; omega
  show (cfg0.win 5).cut (grid0.coords t) ((dat0 (F := Ideal) V c).after 5 t) = _
  rw [after0_5, outs0_sum_last V c t h9]
  have hacc : ∀ q : Fin 128, (outsAt0 (F := Ideal) V c t.val t.isLt).2.2.2.1 (ix2 (0 : Fin 1) q) = Gs0 V c (ix2 (0 : Fin 1) q) := fun q => by
    refine (accS0_inv V c t.val t.isLt q).trans ?_
    have e : t.val + 1 = 10 := by omega
    rw [e]
    exact sum_tsum0 V c q
  generalize (outsAt0 (F := Ideal) V c t.val t.isLt).2.2.2.1 = acc at hacc ⊢
  funext y
  obtain ⟨u, q, rfl⟩ : ∃ (u : Fin 1) (q : Fin 128), y = ix2 u q := ⟨y 0, y 1, eq_ix2 y⟩
  show acc (ix2 u q) = Gs0 V c (((cfg0.win 5).blk t).view.emb (ix2 u q : S1x128.Idx))
  rw [emb0_5 t u q]
  obtain rfl : u = 0 := Subsingleton.elim _ _
  exact hacc q

/-- An index of that array is in point `t`'s block iff each coordinate is in the block's range on its axis. -/
theorem mem_blk0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v19_1).slice (win0_5.rect t)).set ↔ _
  rw [View.set_slice_whole, Rect.mem_set_unit]
  exact Iff.rfl

/-- The one block the last point writes back is the whole row. -/
theorem covered0_5 (i : S1x128.Idx) :
    ∃ t : Fin cfg0.N, (cfg0.win 5).flush t = true ∧ i ∈ ((cfg0.win 5).blk t).view.set := by
  have hi0 : (i 0).val < 1 := idx2_lt0 i
  have hi1 : (i 1).val < 128 := idx2_lt1 i
  obtain ⟨e0, e1⟩ := idx_facts0_5 t0_9
  refine ⟨t0_9, (flush0_5 t0_9).mpr rfl, ?_⟩
  rw [mem_blk0_5]
  intro a
  match a with
  | ⟨0, _⟩ => show win0_5.index t0_9 (0 : Fin 2) * 1 ≤ (i 0).val ∧ (i 0).val < win0_5.index t0_9 (0 : Fin 2) * 1 + 1; omega
  | ⟨1, _⟩ => show win0_5.index t0_9 (1 : Fin 2) * 128 ≤ (i 1).val ∧ (i 1).val < win0_5.index t0_9 (1 : Fin 2) * 128 + 128; omega

/-- The column-sum output after the region, whole. -/
theorem val0_5_arr (c : Dev nD) : (dat0 (F := Ideal) V c).arrAt 5 cfg0.N = Gs0 V c :=
  (dat0 (F := Ideal) V c).arrAt_eq_of_cover 5 (Gs0 V c) (flushed0_5_eq V c) covered0_5

set_option maxRecDepth 65536 in
/-- What the last point writes back into the sum-of-squares output is the whole row `Gq0`. -/
theorem flushed0_6_eq (c : Dev nD) (t : Fin cfg0.N) (hf : (cfg0.win 6).flush t = true) :
    (dat0 (F := Ideal) V c).flushed 6 t = ((cfg0.win 6).blk t).view.read (Elt Ideal) (Gq0 V c) := by
  have hN := lt_N0 t
  have h9 : t.val = 9 := by have := (flush0_6 t).mp hf; omega
  show (cfg0.win 6).cut (grid0.coords t) ((dat0 (F := Ideal) V c).after 6 t) = _
  rw [after0_6, outs0_sumsq_last V c t h9]
  have hacc : ∀ q : Fin 128, (outsAt0 (F := Ideal) V c t.val t.isLt).2.2.2.2 (ix2 (0 : Fin 1) q) = Gq0 V c (ix2 (0 : Fin 1) q) := fun q => by
    refine (accQ0_inv V c t.val t.isLt q).trans ?_
    have e : t.val + 1 = 10 := by omega
    rw [e]
    exact sum_tsq0 V c q
  generalize (outsAt0 (F := Ideal) V c t.val t.isLt).2.2.2.2 = acc at hacc ⊢
  funext y
  obtain ⟨u, q, rfl⟩ : ∃ (u : Fin 1) (q : Fin 128), y = ix2 u q := ⟨y 0, y 1, eq_ix2 y⟩
  show acc (ix2 u q) = Gq0 V c (((cfg0.win 6).blk t).view.emb (ix2 u q : S1x128.Idx))
  rw [emb0_6 t u q]
  obtain rfl : u = 0 := Subsingleton.elim _ _
  exact hacc q

/-- An index of that array is in point `t`'s block iff each coordinate is in the block's range on its axis. -/
theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v19_2).slice (win0_6.rect t)).set ↔ _
  rw [View.set_slice_whole, Rect.mem_set_unit]
  exact Iff.rfl

/-- The one block the last point writes back is the whole row. -/
theorem covered0_6 (i : S1x128.Idx) :
    ∃ t : Fin cfg0.N, (cfg0.win 6).flush t = true ∧ i ∈ ((cfg0.win 6).blk t).view.set := by
  have hi0 : (i 0).val < 1 := idx2_lt0 i
  have hi1 : (i 1).val < 128 := idx2_lt1 i
  obtain ⟨e0, e1⟩ := idx_facts0_6 t0_9
  refine ⟨t0_9, (flush0_6 t0_9).mpr rfl, ?_⟩
  rw [mem_blk0_6]
  intro a
  match a with
  | ⟨0, _⟩ => show win0_6.index t0_9 (0 : Fin 2) * 1 ≤ (i 0).val ∧ (i 0).val < win0_6.index t0_9 (0 : Fin 2) * 1 + 1; omega
  | ⟨1, _⟩ => show win0_6.index t0_9 (1 : Fin 2) * 128 ≤ (i 1).val ∧ (i 1).val < win0_6.index t0_9 (1 : Fin 2) * 128 + 128; omega

/-- The sum-of-squares output after the region, whole. -/
theorem val0_6_arr (c : Dev nD) : (dat0 (F := Ideal) V c).arrAt 6 cfg0.N = Gq0 V c :=
  (dat0 (F := Ideal) V c).arrAt_eq_of_cover 6 (Gq0 V c) (flushed0_6_eq V c) covered0_6

end Final

theorem val0_h (V : (c : Dev nD) → (b : Ref sig .tc) → Buf (Elt Ideal) ((c : Thread nD τ).loc b)) (c : Dev nD) (n : Fin 50000) (j : Fin 128) :
    ((dat0 (F := Ideal) V c).arrAt 4 cfg0.N : S50000x128.Idx → EReal) (ix2 n j) = H0 V c n j := by
  rw [val0_4_arr]
  rfl

theorem val0_sum (V : (c : Dev nD) → (b : Ref sig .tc) → Buf (Elt Ideal) ((c : Thread nD τ).loc b)) (c : Dev nD) (j : Fin 128) :
    ((dat0 (F := Ideal) V c).arrAt 5 cfg0.N : S1x128.Idx → EReal) (ix2 0 j) = Gin.colSum (H0 V c) j := by
  rw [val0_5_arr]
  rfl

theorem val0_sumsq (V : (c : Dev nD) → (b : Ref sig .tc) → Buf (Elt Ideal) ((c : Thread nD τ).loc b)) (c : Dev nD) (j : Fin 128) :
    ((dat0 (F := Ideal) V c).arrAt 6 cfg0.N : S1x128.Idx → EReal) (ix2 0 j)
      = Gin.colSum (fun n κ => H0 V c n κ * H0 V c n κ) j := by
  rw [val0_6_arr]
  rfl

end Cert.KernelIdeal.Val

end
-- ==== Proof.KI.Val0.lean ====
/-
  What region 0 leaves in its three output arrays, at the ideal values.
-/
import proofs.«430410_j38371237822819_1_alg».proof.Proof.KI.Val0H
-- ==== Proof.KI.Val1.lean ====
/-
  What region 1 (a layer's normalisation, rectifier and second linear map) leaves in its output array, at the ideal values, whatever the core's buffers hold when the region is entered.
-/
import proofs.«430410_j38371237822819_1_alg».proof.Proof.KI.Reg1
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The matrix product's operand indices -/

/-- The dimension numbers of the block's product: rows by the contraction, the contraction by columns. -/
abbrev mm1 : DotDims S5000x128 S128x128 S5000x128 := dot_S5000x128_S128x128_S5000x128_1_0_0_1_n_n

/-- The left operand is read at the output's row, -/
theorem mm1_lhs_0 (i : S5000x128.Idx) (q : mm1.contr.Idx) : (mm1.lhsIdx i q 0).val = (i 0).val := by
  unfold DotDims.lhsIdx
  rw [dif_neg (show ¬(0 : Fin S5000x128.rank) ∈ mm1.lhsBatch by decide), dif_pos (show (0 : Fin S5000x128.rank) ∈ mm1.lhsNonContracting by decide)]
  rfl
/-- and at the contraction index; -/
theorem mm1_lhs_1 (i : S5000x128.Idx) (q : mm1.contr.Idx) : (mm1.lhsIdx i q 1).val = (q ⟨0, by decide⟩).val :=
  mm1.lhsIdx_val_of_single rfl i q
/-- the right operand at the contraction index, -/
theorem mm1_rhs_0 (i : S5000x128.Idx) (q : mm1.contr.Idx) : (mm1.rhsIdx i q 0).val = (q ⟨0, by decide⟩).val :=
  mm1.rhsIdx_val_of_single rfl i q
/-- and at the output's column. -/
theorem mm1_rhs_1 (i : S5000x128.Idx) (q : mm1.contr.Idx) : (mm1.rhsIdx i q 1).val = (i 1).val := by
  unfold DotDims.rhsIdx
  rw [dif_neg (show ¬(1 : Fin S128x128.rank) ∈ mm1.rhsBatch by decide), dif_pos (show (1 : Fin S128x128.rank) ∈ mm1.rhsNonContracting by decide)]
  rfl

/-- The contraction index with coordinate k reads the left operand at (p, k) -/
theorem mm1_lidx (p : Fin 5000) (q : Fin 128) (k : Fin 128) :
    mm1.lhsIdx (ix2 p q) ((contrEquiv1 mm1 128 rfl rfl).symm k) = ix2 p k := by
  have hk := contrEquiv1_symm_val mm1 128 rfl rfl k
  exact funext fun a => Fin.ext (by
    match a with
    | ⟨0, _⟩ => exact mm1_lhs_0 _ _
    | ⟨1, _⟩ => exact (mm1_lhs_1 _ _).trans hk)
/-- and the right operand at (k, q). -/
theorem mm1_ridx (p : Fin 5000) (q : Fin 128) (k : Fin 128) :
    mm1.rhsIdx (ix2 p q) ((contrEquiv1 mm1 128 rfl rfl).symm k) = ix2 k q := by
  have hk := contrEquiv1_symm_val mm1 128 rfl rfl k
  exact funext fun a => Fin.ext (by
    match a with
    | ⟨0, _⟩ => exact (mm1_rhs_0 _ _).trans hk
    | ⟨1, _⟩ => exact mm1_rhs_1 _ _)

/-! ## The payload at an index -/

/-- The reciprocal square root of a vector, read at an index. -/
theorem rsqrt1_apply {s : Shape} {φ : FTy} (a : FVec Ideal s φ) (i : s.Idx) : rsqrt a i = Ideal.rsqrt (a i) := rfl

/-- The stored value at row p, column q of a block: the row p of the tile normalised with the column statistics, scaled,
    shifted and rectified, then its product with column q of the weights plus the bias, rectified. -/
theorem pay1_apply (x0 : Vec Ideal S5000x128 .f32) (xg xm xv xb : Vec Ideal S1x128 .f32) (xw : Vec Ideal S128x128 .f32)
    (xc : Vec Ideal S1x128 .f32) (p : Fin 5000) (q : Fin 128) :
    k1_pay1 (F := Ideal) x0 xg xm xv xb xw xc (ix2 p q)
      = Gin.relu ((∑ κ : Fin 128, Gin.relu (xg (ix2 0 κ) * (x0 (ix2 p κ) - xm (ix2 0 κ)) * Ideal.rsqrt (xv (ix2 0 κ) + Gin.bnEps) + xb (ix2 0 κ)) * xw (ix2 κ q))
          + xc (ix2 0 q)) := by
  unfold k1_pay1
  simp only [shapeCast_self]
  rw [maximumf_apply, addf_apply, broadcast_apply, broadcastTo_1b_ab_apply]
  simp only [matmul]
  rw [Ideal.matmul_constant_zero_apply, ← Equiv.sum_comp (contrEquiv1 mm1 128 rfl rfl).symm]
  have hz0 : (FloatOps.ofBits (F := Ideal) FTy.f32 0x00000000#32) = 0 := Ideal.ofBits_zero_f32
  rw [hz0]
  unfold Gin.relu
  refine congrArg (fun s => max (s + xc (ix2 0 q)) 0) (Finset.sum_congr rfl fun k _ => ?_)
  rw [mm1_lidx, mm1_ridx]
  simp only [truncf_apply, maximumf_apply, addf_apply, mulf_apply, subf_apply, broadcast_apply, broadcastTo_1b_ab_apply, rsqrt1_apply, hz0, Gin.bnEps_def]
  rfl

/-! ## The region's input arrays as the region finds them, each at its literal type -/

/-- The node table, the column means, the column variances, the scale, the shift, the weight matrix and the bias. -/
abbrev hArr1 (V : (c : Dev nD) → (b : Ref sig .tc) → Buf (Elt Ideal) ((c : Thread nD τ).loc b)) (c : Dev nD) : S50000x128.Idx → EReal := V c (Pipeline.arrRef spec1 0)
abbrev muArr1 (V : (c : Dev nD) → (b : Ref sig .tc) → Buf (Elt Ideal) ((c : Thread nD τ).loc b)) (c : Dev nD) : S1x128.Idx → EReal := V c (Pipeline.arrRef spec1 1)
abbrev varArr1 (V : (c : Dev nD) → (b : Ref sig .tc) → Buf (Elt Ideal) ((c : Thread nD τ).loc b)) (c : Dev nD) : S1x128.Idx → EReal := V c (Pipeline.arrRef spec1 2)
abbrev gArr1 (V : (c : Dev nD) → (b : Ref sig .tc) → Buf (Elt Ideal) ((c : Thread nD τ).loc b)) (c : Dev nD) : S1x128.Idx → EReal := V c (Pipeline.arrRef spec1 3)
abbrev bbArr1 (V : (c : Dev nD) → (b : Ref sig .tc) → Buf (Elt Ideal) ((c : Thread nD τ).loc b)) (c : Dev nD) : S1x128.Idx → EReal := V c (Pipeline.arrRef spec1 4)
abbrev w2Arr1 (V : (c : Dev nD) → (b : Ref sig .tc) → Buf (Elt Ideal) ((c : Thread nD τ).loc b)) (c : Dev nD) : S128x128.Idx → EReal := V c (Pipeline.arrRef spec1 5)
abbrev b2Arr1 (V : (c : Dev nD) → (b : Ref sig .tc) → Buf (Elt Ideal) ((c : Thread nD τ).loc b)) (c : Dev nD) : S1x128.Idx → EReal := V c (Pipeline.arrRef spec1 6)

/-! ## The blocks, read where their rectangles say -/

section Region
-- the contents of the core's buffers when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-tiled windows 0 and 7 are at block (t, 0) at point t, every
    other window at block (0, 0). -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of the row tile of point t is row 5000 t + p of the node table. -/
def row1 (t : Fin cfg1.N) (p : Fin 5000) : Fin 50000 :=
  ⟨5000 * t.val + p.val, by have hN : grid1.N = 10 := N_1; have ht : t.val < grid1.N := t.isLt; have := p.isLt; omega⟩

theorem row1_val (t : Fin cfg1.N) (p : Fin 5000) : (row1 t p).val = 5000 * t.val + p.val := rfl

/-- Window 0's block at point t is rows 5000 t … 5000 t + 4999 of the node table. -/
theorem iblk1_0_apply (c : Dev nD) (t : Fin cfg1.N) (p : Fin 5000) (q : Fin 128) :
    (iblk1 V c 0 t : Vec Ideal S5000x128 .f32) (ix2 p q) = hArr1 V c (ix2 (row1 t p) q) := by
  obtain ⟨e0, e1, -⟩ := idx_facts1 t
  unfold iblk1
  rw [View.read_apply]
  have h : ((cfg1.win 0).blk t).view.emb (ix2 p q) = ix2 (row1 t p) q := by
    funext a; apply Fin.ext
    match a with
    | ⟨0, _⟩ => show win1_0.index t (0 : Fin 2) * 5000 + 1 * p.val = 5000 * t.val + p.val; rw [e0]; omega
    | ⟨1, _⟩ => show win1_0.index t (1 : Fin 2) * 128 + 1 * q.val = q.val; rw [e1]; omega
  show V c (Pipeline.arrRef spec1 0) (((cfg1.win 0).blk t).view.emb (ix2 p q)) = _
  rw [h]

/-- Window 1's block at every point is its whole one-row array. -/
theorem iblk1_1_apply (c : Dev nD) (t : Fin cfg1.N) (q : Fin 128) :
    (iblk1 V c 1 t : Vec Ideal S1x128 .f32) (ix2 (0 : Fin 1) q) = muArr1 V c (ix2 (0 : Fin 1) q) := by
  have e0 := (idx_facts1 t).2.2.2.2.1
  have e1 := (idx_facts1 t).2.2.2.2.2.1
  unfold iblk1
  rw [View.read_apply]
  have h : ((cfg1.win 1).blk t).view.emb (ix2 (0 : Fin 1) q) = ix2 (0 : Fin 1) q := by
    funext a; apply Fin.ext
    match a with
    | ⟨0, _⟩ => show win1_1.index t (0 : Fin 2) * 1 + 1 * 0 = 0; rw [e0]
    | ⟨1, _⟩ => show win1_1.index t (1 : Fin 2) * 128 + 1 * q.val = q.val; rw [e1]; omega
  show V c (Pipeline.arrRef spec1 1) (((cfg1.win 1).blk t).view.emb (ix2 (0 : Fin 1) q)) = _
  rw [h]

/-- Window 2's block at every point is its whole one-row array. -/
theorem iblk1_2_apply (c : Dev nD) (t : Fin cfg1.N) (q : Fin 128) :
    (iblk1 V c 2 t : Vec Ideal S1x128 .f32) (ix2 (0 : Fin 1) q) = varArr1 V c (ix2 (0 : Fin 1) q) := by
  have e0 := (idx_facts1 t).2.2.2.2.2.2.1
  have e1 := (idx_facts1 t).2.2.2.2.2.2.2.1
  unfold iblk1
  rw [View.read_apply]
  have h : ((cfg1.win 2).blk t).view.emb (ix2 (0 : Fin 1) q) = ix2 (0 : Fin 1) q := by
    funext a; apply Fin.ext
    match a with
    | ⟨0, _⟩ => show win1_2.index t (0 : Fin 2) * 1 + 1 * 0 = 0; rw [e0]
    | ⟨1, _⟩ => show win1_2.index t (1 : Fin 2) * 128 + 1 * q.val = q.val; rw [e1]; omega
  show V c (Pipeline.arrRef spec1 2) (((cfg1.win 2).blk t).view.emb (ix2 (0 : Fin 1) q)) = _
  rw [h]

/-- Window 3's block at every point is its whole one-row array. -/
theorem iblk1_3_apply (c : Dev nD) (t : Fin cfg1.N) (q : Fin 128) :
    (iblk1 V c 3 t : Vec Ideal S1x128 .f32) (ix2 (0 : Fin 1) q) = gArr1 V c (ix2 (0 : Fin 1) q) := by
  have e0 := (idx_facts1 t).2.2.2.2.2.2.2.2.1
  have e1 := (idx_facts1 t).2.2.2.2.2.2.2.2.2.1
  unfold iblk1
  rw [View.read_apply]
  have h : ((cfg1.win 3).blk t).view.emb (ix2 (0 : Fin 1) q) = ix2 (0 : Fin 1) q := by
    funext a; apply Fin.ext
    match a with
    | ⟨0, _⟩ => show win1_3.index t (0 : Fin 2) * 1 + 1 * 0 = 0; rw [e0]
    | ⟨1, _⟩ => show win1_3.index t (1 : Fin 2) * 128 + 1 * q.val = q.val; rw [e1]; omega
  show V c (Pipeline.arrRef spec1 3) (((cfg1.win 3).blk t).view.emb (ix2 (0 : Fin 1) q)) = _
  rw [h]

/-- Window 4's block at every point is its whole one-row array. -/
theorem iblk1_4_apply (c : Dev nD) (t : Fin cfg1.N) (q : Fin 128) :
    (iblk1 V c 4 t : Vec Ideal S1x128 .f32) (ix2 (0 : Fin 1) q) = bbArr1 V c (ix2 (0 : Fin 1) q) := by
  have e0 := (idx_facts1 t).2.2.2.2.2.2.2.2.2.2.1
  have e1 := (idx_facts1 t).2.2.2.2.2.2.2.2.2.2.2.1
  unfold iblk1
  rw [View.read_apply]
  have h : ((cfg1.win 4).blk t).view.emb (ix2 (0 : Fin 1) q) = ix2 (0 : Fin 1) q := by
    funext a; apply Fin.ext
    match a with
    | ⟨0, _⟩ => show win1_4.index t (0 : Fin 2) * 1 + 1 * 0 = 0; rw [e0]
    | ⟨1, _⟩ => show win1_4.index t (1 : Fin 2) * 128 + 1 * q.val = q.val; rw [e1]; omega
  show V c (Pipeline.arrRef spec1 4) (((cfg1.win 4).blk t).view.emb (ix2 (0 : Fin 1) q)) = _
  rw [h]

/-- Window 6's block at every point is its whole one-row array. -/
theorem iblk1_6_apply (c : Dev nD) (t : Fin cfg1.N) (q : Fin 128) :
    (iblk1 V c 6 t : Vec Ideal S1x128 .f32) (ix2 (0 : Fin 1) q) = b2Arr1 V c (ix2 (0 : Fin 1) q) := by
  have e0 := (idx_facts1 t).2.2.2.2.2.2.2.2.2.2.2.2.2.2.1
  have e1 := (idx_facts1 t).2.2.2.2.2.2.2.2.2.2.2.2.2.2.2
  unfold iblk1
  rw [View.read_apply]
  have h : ((cfg1.win 6).blk t).view.emb (ix2 (0 : Fin 1) q) = ix2 (0 : Fin 1) q := by
    funext a; apply Fin.ext
    match a with
    | ⟨0, _⟩ => show win1_6.index t (0 : Fin 2) * 1 + 1 * 0 = 0; rw [e0]
    | ⟨1, _⟩ => show win1_6.index t (1 : Fin 2) * 128 + 1 * q.val = q.val; rw [e1]; omega
  show V c (Pipeline.arrRef spec1 6) (((cfg1.win 6).blk t).view.emb (ix2 (0 : Fin 1) q)) = _
  rw [h]

/-- Window 5's block at every point is the whole weight matrix. -/
theorem iblk1_5_apply (c : Dev nD) (t : Fin cfg1.N) (k : Fin 128) (q : Fin 128) :
    (iblk1 V c 5 t : Vec Ideal S128x128 .f32) (ix2 k q) = w2Arr1 V c (ix2 k q) := by
  have e0 := (idx_facts1 t).2.2.2.2.2.2.2.2.2.2.2.2.1
  have e1 := (idx_facts1 t).2.2.2.2.2.2.2.2.2.2.2.2.2.1
  unfold iblk1
  rw [View.read_apply]
  have h : ((cfg1.win 5).blk t).view.emb (ix2 k q) = ix2 k q := by
    funext a; apply Fin.ext
    match a with
    | ⟨0, _⟩ => show win1_5.index t (0 : Fin 2) * 128 + 1 * k.val = k.val; rw [e0]; omega
    | ⟨1, _⟩ => show win1_5.index t (1 : Fin 2) * 128 + 1 * q.val = q.val; rw [e1]; omega
  show V c (Pipeline.arrRef spec1 5) (((cfg1.win 5).blk t).view.emb (ix2 k q)) = _
  rw [h]

/-! ## From the blocks to the array -/

/-- What the output array ends holding: every row of the node table normalised with the column statistics, scaled,
    shifted, rectified, sent through the second linear map and rectified. -/
def G1 (c : Dev nD) : S50000x128.Idx → EReal :=
  Gin.toArr2 (Gin.bnApply (Gin.ofArr2 (hArr1 V c)) (Gin.ofArr2Row (muArr1 V c) 0) (Gin.ofArr2Row (varArr1 V c) 0)
    (Gin.ofArr2Row (gArr1 V c) 0) (Gin.ofArr2Row (bbArr1 V c) 0) (Gin.ofArr2 (w2Arr1 V c)) (Gin.ofArr2Row (b2Arr1 V c) 0))

/-- What point t writes back is block t of that array. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S1x128) hz1, View.ld_unit_zero (S := S128x128) hz1]
  funext y
  obtain ⟨p, q, rfl⟩ : ∃ (p : Fin 5000) (q : Fin 128), y = ix2 p q := ⟨y 0, y 1, eq_ix2 y⟩
  refine (pay1_apply _ _ _ _ _ _ _ p q).trans ?_
  rw [View.read_apply]
  obtain ⟨-, -, e0, e1, -⟩ := idx_facts1 t
  have h : ((cfg1.win 7).blk t).view.emb (ix2 p q) = ix2 (row1 t p) q := by
    funext a; apply Fin.ext
    match a with
    | ⟨0, _⟩ => show win1_7.index t (0 : Fin 2) * 5000 + 1 * p.val = 5000 * t.val + p.val; rw [e0]; omega
    | ⟨1, _⟩ => show win1_7.index t (1 : Fin 2) * 128 + 1 * q.val = q.val; rw [e1]; omega
  rw [h]
  simp only [iblk1_0_apply, iblk1_1_apply, iblk1_2_apply, iblk1_3_apply, iblk1_4_apply, iblk1_5_apply, iblk1_6_apply]
  rfl

/-- An index of the array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- Every row r of the array is in the block of point r / 5000, which writes it back. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  have ht : (i 0).val / 5000 < grid1.N := by omega
  refine ⟨⟨(i 0).val / 5000, ht⟩, flush1_7 _, ?_⟩
  rw [mem_blk1]
  obtain ⟨-, -, e0, e1, -⟩ := idx_facts1 ⟨(i 0).val / 5000, ht⟩
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e1]; omega

/-- So the output array after the region is that array, -/
theorem final1 (c : Dev nD) : (dat1 V c).arrAt 7 cfg1.N = G1 V c :=
  (dat1 V c).arrAt_eq_of_cover 7 (G1 V c) (fun t _ => flushed1_eq V c t) cover1

end Region

/-- Read at row n, column j, the output array after the region is the layer's second half of the region-entry arrays. -/
theorem val1 (V : (c : Dev nD) → (b : Ref sig .tc) → Buf (Elt Ideal) ((c : Thread nD τ).loc b)) (c : Dev nD) (n : Fin 50000) (j : Fin 128) :
    ((dat1 (F := Ideal) V c).arrAt 7 cfg1.N : S50000x128.Idx → EReal) (ix2 n j)
      = Gin.bnApply (Gin.ofArr2 (hArr1 V c)) (Gin.ofArr2Row (muArr1 V c) 0) (Gin.ofArr2Row (varArr1 V c) 0)
          (Gin.ofArr2Row (gArr1 V c) 0) (Gin.ofArr2Row (bbArr1 V c) 0) (Gin.ofArr2 (w2Arr1 V c)) (Gin.ofArr2Row (b2Arr1 V c) 0) n j :=
  (congrFun (final1 V c) (ix2 n j)).trans rfl

end Cert.KernelIdeal.Val

end
-- ==== Proof.KI.Val2D.lean ====
/-
  Region 2's input arrays by their literal types and the layer's first linear map of them, row by row: what the three value statements of the region are about.
-/
import proofs.«430410_j38371237822819_1_alg».proof.Proof.KI.Reg2
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-- The region's input arrays, by their literal types. -/
abbrev xArr2 (V : (c : Dev nD) → (b : Ref sig .tc) → Buf (Elt Ideal) ((c : Thread nD τ).loc b)) (c : Dev nD) : S50000x128.Idx → EReal := V c (Pipeline.arrRef spec2 0)
abbrev aggArr2 (V : (c : Dev nD) → (b : Ref sig .tc) → Buf (Elt Ideal) ((c : Thread nD τ).loc b)) (c : Dev nD) : S50000x128.Idx → EReal := V c (Pipeline.arrRef spec2 1)
abbrev w1Arr2 (V : (c : Dev nD) → (b : Ref sig .tc) → Buf (Elt Ideal) ((c : Thread nD τ).loc b)) (c : Dev nD) : S128x128.Idx → EReal := V c (Pipeline.arrRef spec2 2)
abbrev b1Arr2 (V : (c : Dev nD) → (b : Ref sig .tc) → Buf (Elt Ideal) ((c : Thread nD τ).loc b)) (c : Dev nD) : S1x128.Idx → EReal := V c (Pipeline.arrRef spec2 3)

/-- The linear map of the features plus the neighbour sum, row by row. -/
def H2 (V : (c : Dev nD) → (b : Ref sig .tc) → Buf (Elt Ideal) ((c : Thread nD τ).loc b)) (c : Dev nD) : Gin.Nodes :=
  Gin.pre1 (Gin.ofArr2 (xArr2 V c)) (Gin.ofArr2 (aggArr2 V c)) (Gin.ofArr2 (w1Arr2 V c)) (Gin.ofArr2Row (b1Arr2 V c) 0)

end Cert.KernelIdeal.Val

end
-- ==== Proof.KI.Pay2.lean ====
/-
  The arithmetic of the statistics kernel's body in region 2 (the second layer's first linear map) at an index, at the
  ideal values: the tile of h = (x + agg) W1 + b1 entry by entry, and the two accumulator rows as the running row plus the
  tile's column sums of h and of h squared; the rows stored at the first point are zero. The layout steps of the column
  sums are region 0's.
-/
import proofs.«430410_j38371237822819_1_alg».proof.Proof.KI.Pay0

set_option maxRecDepth 16384

noncomputable section

namespace Cert.KernelIdeal.Val

open Cert.KernelIdeal Cert.KernelIdeal.Gen
open Idealize.ShloMosaic Idealize.ShloMosaic.ValueIdx
open scoped BigOperators

/-! ## The payloads at an index -/

/-- The tile of h at row p, column q: the first linear map of row p of x + agg. The narrowing of the operands to the
    short format is the identity on extended reals. -/
theorem pay2_3_apply (x agg : FVec Ideal S5000x128 .f32) (w : FVec Ideal S128x128 .f32) (b : FVec Ideal S1x128 .f32)
    (p : Fin 5000) (q : Fin 128) :
    k2_pay3 (F := Ideal) x agg w b (ix2 p q)
      = Gin.lin (fun κ => x (ix2 p κ) + agg (ix2 p κ)) (Gin.ofArr2 w) (Gin.ofArr2Row b 0) q := by
  unfold k2_pay3
  rw [addf_apply, mm_a_apply, shapeCast_self, broadcastTo_1b_ab_apply]
  simp only [truncf_apply, shapeCast_self, addf_apply]
  rfl

/-- The first accumulator's new row at column q: the running row plus the tile's column sum of h. -/
theorem pay2_4_apply (x agg : FVec Ideal S5000x128 .f32) (w : FVec Ideal S128x128 .f32) (b : FVec Ideal S1x128 .f32)
    (acc : FVec Ideal S1x128 .f32) (q : Fin 128) :
    k2_pay4 (F := Ideal) x agg w b acc (ix2 (0 : Fin 1) q)
      = acc (ix2 (0 : Fin 1) q) + ∑ p : Fin 5000, k2_pay3 (F := Ideal) x agg w b (ix2 p q) := by
  unfold k2_pay4
  rw [shapeCast_self, addf_apply, colsum_apply]

/-- The second accumulator's new row at column q: the running row plus the tile's column sum of h squared. -/
theorem pay2_5_apply (x agg : FVec Ideal S5000x128 .f32) (w : FVec Ideal S128x128 .f32) (b : FVec Ideal S1x128 .f32)
    (acc : FVec Ideal S1x128 .f32) (q : Fin 128) :
    k2_pay5 (F := Ideal) x agg w b acc (ix2 (0 : Fin 1) q)
      = acc (ix2 (0 : Fin 1) q) + ∑ p : Fin 5000, k2_pay3 (F := Ideal) x agg w b (ix2 p q) * k2_pay3 (F := Ideal) x agg w b (ix2 p q) := by
  unfold k2_pay5
  rw [shapeCast_self, addf_apply, colsum_apply]
  simp only [mulf_apply]

/-- The row stored into the first accumulator at the first point is zero. -/
theorem pay2_1_apply (q : Fin 128) : k2_pay1 (F := Ideal) (ix2 (0 : Fin 1) q) = 0 := by
  unfold k2_pay1
  rw [shapeCast_self, broadcast_apply]
  exact Ideal.ofBits_zero_f32

/-- The row stored into the second accumulator at the first point is zero. -/
theorem pay2_2_apply (q : Fin 128) : k2_pay2 (F := Ideal) (ix2 (0 : Fin 1) q) = 0 := by
  unfold k2_pay2
  rw [shapeCast_self, broadcast_apply]
  exact Ideal.ofBits_zero_f32

end Cert.KernelIdeal.Val

end
-- ==== Proof.KI.Val2H.lean ====
/-
  What region 2 leaves in its three output arrays, at the ideal values, whatever the core's buffers hold when the region
  is entered: row n of the first array is the layer's first linear map of row n of the features plus the neighbour sum;
  the two one-row arrays are the column sums of that table and of its squares, accumulated tile by tile.
-/
import proofs.«430410_j38371237822819_1_alg».proof.Proof.KI.Val2D
import proofs.«430410_j38371237822819_1_alg».proof.Proof.KI.Pay2
import proofs.«430410_j38371237822819_1_alg».proof.Proof.Spec
import proofs.«430410_j38371237822819_1_alg».proof.Proof.Math
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.ShloMosaic.Tactic
open Idealize.ShloMosaic.Pipeline (Dat Cfg Window)
open scoped BigOperators

/-! ## What the body's stores leave, as the payloads of what it loaded (any float instance) -/

section Pieces
variable {F : FTy → Type} [FloatOps F]

theorem hz2 : (![0, 0] : Fin 2 → Nat) = fun _ => 0 := funext fun a => by fin_cases a <;> rfl

/-- At the first point the row-tile output's one covering store leaves the tile of the linear map of the four input blocks. -/
theorem out2_A_4_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) :
    out2_A_4 c i arg1 harg1 arg2 harg2 arg3 harg3 arg4 harg4 arg5 harg5 arg6 harg6 arg7 harg7 arg8 harg8 arg9 harg9 hc0 hc1 x0 x1 x2 x3 = k2_pay3 x0 x1 x2 x3 := by
  unfold out2_A_4
  rw [View.read_writes_eq_canon _ _ _ (cover2_A_4 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the first point the column-sum accumulator is zeroed, read back, and left at the zero row plus the tile's column sums. -/
theorem sout2_A_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) :
    sout2_A_0 c i arg1 harg1 arg2 harg2 arg3 harg3 arg4 harg4 arg5 harg5 arg6 harg6 arg7 harg7 arg8 harg8 arg9 harg9 hc0 hc1 x0 x1 x2 x3 = k2_pay4 x0 x1 x2 x3 k2_pay1 := by
  unfold sout2_A_0
  rw [View.read_writes_eq_canon _ _ _ (scover2_A_0 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the first point the sum-of-squares accumulator is zeroed, read back, and left at the zero row plus the tile's column sums of squares. -/
theorem sout2_A_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x0 : Vec F S5000x128 .f32) (x1 : Vec F S5000x128 .f32) (x2 : Vec F S128x128 .f32) (x3 : Vec F S1x128 .f32) :
    sout2_A_1 c i arg1 harg1 arg2 harg2 arg3 harg3 arg4 harg4 arg5 harg5 arg6 harg6 arg7 harg7 arg8 harg8 arg9 harg9 hc0 hc1 x0 x1 x2 x3 = k2_pay5 x0 x1 x2 x3 k2_pay2 := by
  unfold sout2_A_1
  rw [View.read_writes_eq_canon _ _ _ (scover2_A_1 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At a middle point the row-tile output's one covering store leaves the tile of the linear map of the four input blocks. -/
theorem out2_B_4_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    out2_B_4 c i arg1 harg1 arg2 harg2 arg3 harg3 arg4 harg4 arg5 harg5 arg6 harg6 arg7 harg7 arg8 harg8 arg9 harg9 hc0 hc1 x0 x1 x2 x3 xs0 xs1 = k2_pay3 x0 x1 x2 x3 := by
  unfold out2_B_4
  rw [View.read_writes_eq_canon _ _ _ (cover2_B_4 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At a middle point the column-sum accumulator, found at `xs0`, is left at `xs0` plus the tile's column sums. -/
theorem sout2_B_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    sout2_B_0 c i arg1 harg1 arg2 harg2 arg3 harg3 arg4 harg4 arg5 harg5 arg6 harg6 arg7 harg7 arg8 harg8 arg9 harg9 hc0 hc1 x0 x1 x2 x3 xs0 xs1 = k2_pay4 x0 x1 x2 x3 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At a middle point the sum-of-squares accumulator, found at `xs1`, is left at `xs1` plus the tile's column sums of squares. -/
theorem sout2_B_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    sout2_B_1 c i arg1 harg1 arg2 harg2 arg3 harg3 arg4 harg4 arg5 harg5 arg6 harg6 arg7 harg7 arg8 harg8 arg9 harg9 hc0 hc1 x0 x1 x2 x3 xs0 xs1 = k2_pay5 x0 x1 x2 x3 xs1 := by
  unfold sout2_B_1
  rw [View.read_writes_eq_canon _ _ _ (scover2_B_1 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the last point the row-tile output's one covering store leaves the tile of the linear map of the four input blocks. -/
theorem out2_C_4_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    out2_C_4 c i arg1 harg1 arg2 harg2 arg3 harg3 arg4 harg4 arg5 harg5 arg6 harg6 arg7 harg7 arg8 harg8 arg9 harg9 hc0 hc1 x0 x1 x2 x3 xs0 xs1 = k2_pay3 x0 x1 x2 x3 := by
  unfold out2_C_4
  rw [View.read_writes_eq_canon _ _ _ (cover2_C_4 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the last point the column-sum accumulator, found at `xs0`, is left at `xs0` plus the tile's column sums. -/
theorem sout2_C_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    sout2_C_0 c i arg1 harg1 arg2 harg2 arg3 harg3 arg4 harg4 arg5 harg5 arg6 harg6 arg7 harg7 arg8 harg8 arg9 harg9 hc0 hc1 x0 x1 x2 x3 xs0 xs1 = k2_pay4 x0 x1 x2 x3 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the last point the sum-of-squares accumulator, found at `xs1`, is left at `xs1` plus the tile's column sums of squares. -/
theorem sout2_C_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    sout2_C_1 c i arg1 harg1 arg2 harg2 arg3 harg3 arg4 harg4 arg5 harg5 arg6 harg6 arg7 harg7 arg8 harg8 arg9 harg9 hc0 hc1 x0 x1 x2 x3 xs0 xs1 = k2_pay5 x0 x1 x2 x3 xs1 := by
  unfold sout2_C_1
  rw [View.read_writes_eq_canon _ _ _ (scover2_C_1 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_unit_zero hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the last point the column-sum output is stored whole from the accumulator just updated: it holds what the accumulator holds. -/
theorem out2_C_5_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    out2_C_5 c i arg1 harg1 arg2 harg2 arg3 harg3 arg4 harg4 arg5 harg5 arg6 harg6 arg7 harg7 arg8 harg8 arg9 harg9 hc0 hc1 x0 x1 x2 x3 xs0 xs1 = k2_pay4 x0 x1 x2 x3 xs0 := by
  unfold out2_C_5
  rw [View.read_writes_eq_canon _ _ _ (cover2_C_5 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_unit_zero hz2, View.readCov_unit_zero (S := S1x128) _ hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

/-- At the last point the sum-of-squares output is stored whole from its accumulator just updated. -/
theorem out2_C_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    out2_C_6 c i arg1 harg1 arg2 harg2 arg3 harg3 arg4 harg4 arg5 harg5 arg6 harg6 arg7 harg7 arg8 harg8 arg9 harg9 hc0 hc1 x0 x1 x2 x3 xs0 xs1 = k2_pay5 x0 x1 x2 x3 xs1 := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_unit_zero hz2, View.readCov_unit_zero (S := S1x128) _ hz2]
  simp only [View.readAt_eq_ld, harg1.read_unread, harg2.read_unread, harg3.read_unread, harg4.read_unread, harg8.read_unread, harg9.read_unread, View.ld_unit_zero (S := S5000x128) hz2, View.ld_unit_zero (S := S128x128) hz2, View.ld_unit_zero (S := S1x128) hz2]

variable (V : (c : Dev nD) → (b : Ref sig .tc) → Buf (Elt F) ((c : Thread nD τ).loc b))

/-- The four input blocks at point `t`, each at its literal type: rows `5000 t …` of the layer's input and of the
    neighbour aggregate, the weight matrix, the bias row. -/
abbrev xblk2 (c : Dev nD) (t : Fin cfg2.N) : Vec F S5000x128 .f32 := iblk2 V c 0 t
abbrev ablk2 (c : Dev nD) (t : Fin cfg2.N) : Vec F S5000x128 .f32 := iblk2 V c 1 t
abbrev wblk2 (c : Dev nD) (t : Fin cfg2.N) : Vec F S128x128 .f32 := iblk2 V c 2 t
abbrev bblk2 (c : Dev nD) (t : Fin cfg2.N) : Vec F S1x128 .f32 := iblk2 V c 3 t

/-- After every point the row-tile output's buffer holds the tile of the linear map of that point's blocks. -/
theorem outs2_h (c : Dev nD) (t : Fin cfg2.N) :
    (outsAt2 V c t.val t.isLt).1 = k2_pay3 (xblk2 V c t) (ablk2 V c t) (wblk2 V c t) (bblk2 V c t) := by
  have hN : t.val < 10 := lt_of_lt_of_eq t.isLt (show cfg2.N = 10 from N_2)
  by_cases h0 : t.val = 0
  · have h1 : ¬t.val = 9 := by omega
    rw [outsAt2_A V c t h0 h1]; dsimp only
    exact out2_A_4_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)
  · by_cases h1 : t.val = 9
    · rw [outsAt2_C V c t h0 h1]; dsimp only
      exact out2_C_4_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]; dsimp only
      exact out2_B_4_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- After the first point the column-sum accumulator holds the zero row plus the first tile's column sums. -/
theorem outs2_accS_first (c : Dev nD) (t : Fin cfg2.N) (h0 : t.val = 0) :
    (outsAt2 V c t.val t.isLt).2.2.2.1 = k2_pay4 (xblk2 V c t) (ablk2 V c t) (wblk2 V c t) (bblk2 V c t) k2_pay1 := by
  have h1 : ¬t.val = 9 := by omega
  rw [outsAt2_A V c t h0 h1]; dsimp only
  exact sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)

/-- After a later point it holds what the point before left plus this tile's column sums. -/
theorem outs2_accS_next (c : Dev nD) (t : Fin cfg2.N) (h0 : ¬t.val = 0) :
    (outsAt2 V c t.val t.isLt).2.2.2.1 = k2_pay4 (xblk2 V c t) (ablk2 V c t) (wblk2 V c t) (bblk2 V c t) (outsAt2 V c (t.val - 1) (Nat.lt_of_le_of_lt (Nat.sub_le _ _) t.isLt)).2.2.2.1 := by
  by_cases h1 : t.val = 9
  · rw [outsAt2_C V c t h0 h1]; dsimp only
    exact sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
  · rw [outsAt2_B V c t h0 h1]; dsimp only
    exact sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- The same for the sum-of-squares accumulator. -/
theorem outs2_accQ_first (c : Dev nD) (t : Fin cfg2.N) (h0 : t.val = 0) :
    (outsAt2 V c t.val t.isLt).2.2.2.2 = k2_pay5 (xblk2 V c t) (ablk2 V c t) (wblk2 V c t) (bblk2 V c t) k2_pay2 := by
  have h1 : ¬t.val = 9 := by omega
  rw [outsAt2_A V c t h0 h1]; dsimp only
  exact sout2_A_1_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)

theorem outs2_accQ_next (c : Dev nD) (t : Fin cfg2.N) (h0 : ¬t.val = 0) :
    (outsAt2 V c t.val t.isLt).2.2.2.2 = k2_pay5 (xblk2 V c t) (ablk2 V c t) (wblk2 V c t) (bblk2 V c t) (outsAt2 V c (t.val - 1) (Nat.lt_of_le_of_lt (Nat.sub_le _ _) t.isLt)).2.2.2.2 := by
  by_cases h1 : t.val = 9
  · rw [outsAt2_C V c t h0 h1]; dsimp only
    exact sout2_C_1_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
  · rw [outsAt2_B V c t h0 h1]; dsimp only
    exact sout2_B_1_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- At the last point each statistics output's buffer holds what its accumulator holds after that point. -/
theorem outs2_sum_last (c : Dev nD) (t : Fin cfg2.N) (h1 : t.val = 9) :
    (outsAt2 V c t.val t.isLt).2.1 = (outsAt2 V c t.val t.isLt).2.2.2.1 := by
  have h0 : ¬t.val = 0 := by omega
  rw [outsAt2_C V c t h0 h1]; dsimp only
  exact (out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

theorem outs2_sumsq_last (c : Dev nD) (t : Fin cfg2.N) (h1 : t.val = 9) :
    (outsAt2 V c t.val t.isLt).2.2.1 = (outsAt2 V c t.val t.isLt).2.2.2.2 := by
  have h0 : ¬t.val = 0 := by omega
  rw [outsAt2_C V c t h0 h1]; dsimp only
  exact (out2_C_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_1_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

/-- The accumulators' recurrences, at the point numbers themselves. -/
theorem accS2_zero (c : Dev nD) (hn : 0 < cfg2.N) :
    (outsAt2 V c 0 hn).2.2.2.1 = k2_pay4 (xblk2 V c ⟨0, hn⟩) (ablk2 V c ⟨0, hn⟩) (wblk2 V c ⟨0, hn⟩) (bblk2 V c ⟨0, hn⟩) k2_pay1 :=
  outs2_accS_first V c ⟨0, hn⟩ rfl
theorem accS2_succ (c : Dev nD) (n : ℕ) (hn : n + 1 < cfg2.N) :
    (outsAt2 V c (n + 1) hn).2.2.2.1 = k2_pay4 (xblk2 V c ⟨n + 1, hn⟩) (ablk2 V c ⟨n + 1, hn⟩) (wblk2 V c ⟨n + 1, hn⟩) (bblk2 V c ⟨n + 1, hn⟩) (outsAt2 V c n (Nat.lt_of_succ_lt hn)).2.2.2.1 :=
  outs2_accS_next V c ⟨n + 1, hn⟩ (Nat.succ_ne_zero n)
theorem accQ2_zero (c : Dev nD) (hn : 0 < cfg2.N) :
    (outsAt2 V c 0 hn).2.2.2.2 = k2_pay5 (xblk2 V c ⟨0, hn⟩) (ablk2 V c ⟨0, hn⟩) (wblk2 V c ⟨0, hn⟩) (bblk2 V c ⟨0, hn⟩) k2_pay2 :=
  outs2_accQ_first V c ⟨0, hn⟩ rfl
theorem accQ2_succ (c : Dev nD) (n : ℕ) (hn : n + 1 < cfg2.N) :
    (outsAt2 V c (n + 1) hn).2.2.2.2 = k2_pay5 (xblk2 V c ⟨n + 1, hn⟩) (ablk2 V c ⟨n + 1, hn⟩) (wblk2 V c ⟨n + 1, hn⟩) (bblk2 V c ⟨n + 1, hn⟩) (outsAt2 V c n (Nat.lt_of_succ_lt hn)).2.2.2.2 :=
  outs2_accQ_next V c ⟨n + 1, hn⟩ (Nat.succ_ne_zero n)

end Pieces

/-! ## The blocks, read off the arrays -/

/-- The printed index maps, decided over the grid: the two row-tiled inputs and the row-tiled output are at row tile
    `t` at point `t`, on their one column tile; the weights', the bias's and the statistics' windows are their whole
    arrays. -/
theorem idx_facts2_0 : ∀ t : Fin cfg2.N, win2_0.index t (0 : Fin 2) = t.val ∧ win2_0.index t (1 : Fin 2) = 0 :=
  (by decide +kernel : ∀ t : Fin grid2.N, _)
theorem idx_facts2_1 : ∀ t : Fin cfg2.N, win2_1.index t (0 : Fin 2) = t.val ∧ win2_1.index t (1 : Fin 2) = 0 :=
  (by decide +kernel : ∀ t : Fin grid2.N, _)
theorem idx_facts2_4 : ∀ t : Fin cfg2.N, win2_4.index t (0 : Fin 2) = t.val ∧ win2_4.index t (1 : Fin 2) = 0 :=
  (by decide +kernel : ∀ t : Fin grid2.N, _)
theorem idx_facts2_2 : ∀ t : Fin cfg2.N, win2_2.index t (0 : Fin 2) = 0 ∧ win2_2.index t (1 : Fin 2) = 0 :=
  (by decide +kernel : ∀ t : Fin grid2.N, _)
theorem idx_facts2_3 : ∀ t : Fin cfg2.N, win2_3.index t (0 : Fin 2) = 0 ∧ win2_3.index t (1 : Fin 2) = 0 :=
  (by decide +kernel : ∀ t : Fin grid2.N, _)
theorem idx_facts2_5 : ∀ t : Fin cfg2.N, win2_5.index t (0 : Fin 2) = 0 ∧ win2_5.index t (1 : Fin 2) = 0 :=
  (by decide +kernel : ∀ t : Fin grid2.N, _)
theorem idx_facts2_6 : ∀ t : Fin cfg2.N, win2_6.index t (0 : Fin 2) = 0 ∧ win2_6.index t (1 : Fin 2) = 0 :=
  (by decide +kernel : ∀ t : Fin grid2.N, _)

theorem lt_N2 (t : Fin cfg2.N) : t.val < 10 := lt_of_lt_of_eq t.isLt N_2

/-- Row `p` of window 0's block at point `t` is row `5000 t + p` of its array. -/
theorem emb2_0 (t : Fin cfg2.N) (p : Fin 5000) (κ : Fin 128) (n : Fin 50000) (hn : n.val = 5000 * t.val + p.val) :
    ((cfg2.win 0).blk t).view.emb (ix2 p κ : S5000x128.Idx) = (ix2 n κ : S50000x128.Idx) := by
  obtain ⟨e0, e1⟩ := idx_facts2_0 t
  funext a; apply Fin.ext
  match a with
  | ⟨0, _⟩ => show win2_0.index t (0 : Fin 2) * 5000 + 1 * p.val = n.val; omega
  | ⟨1, _⟩ => show win2_0.index t (1 : Fin 2) * 128 + 1 * κ.val = κ.val; omega

/-- Row `p` of window 1's block at point `t` is row `5000 t + p` of its array. -/
theorem emb2_1 (t : Fin cfg2.N) (p : Fin 5000) (κ : Fin 128) (n : Fin 50000) (hn : n.val = 5000 * t.val + p.val) :
    ((cfg2.win 1).blk t).view.emb (ix2 p κ : S5000x128.Idx) = (ix2 n κ : S50000x128.Idx) := by
  obtain ⟨e0, e1⟩ := idx_facts2_1 t
  funext a; apply Fin.ext
  match a with
  | ⟨0, _⟩ => show win2_1.index t (0 : Fin 2) * 5000 + 1 * p.val = n.val; omega
  | ⟨1, _⟩ => show win2_1.index t (1 : Fin 2) * 128 + 1 * κ.val = κ.val; omega

/-- Window 2's block at every point is its whole array. -/
theorem emb2_2 (t : Fin cfg2.N) (u : Fin 128) (v : Fin 128) :
    ((cfg2.win 2).blk t).view.emb (ix2 u v : S128x128.Idx) = (ix2 u v : S128x128.Idx) := by
  obtain ⟨e0, e1⟩ := idx_facts2_2 t
  funext a; apply Fin.ext
  match a with
  | ⟨0, _⟩ => show win2_2.index t (0 : Fin 2) * 128 + 1 * u.val = u.val; omega
  | ⟨1, _⟩ => show win2_2.index t (1 : Fin 2) * 128 + 1 * v.val = v.val; omega

/-- Window 3's block at every point is its whole array. -/
theorem emb2_3 (t : Fin cfg2.N) (u : Fin 1) (v : Fin 128) :
    ((cfg2.win 3).blk t).view.emb (ix2 u v : S1x128.Idx) = (ix2 u v : S1x128.Idx) := by
  obtain ⟨e0, e1⟩ := idx_facts2_3 t
  funext a; apply Fin.ext
  match a with
  | ⟨0, _⟩ => show win2_3.index t (0 : Fin 2) * 1 + 1 * u.val = u.val; omega
  | ⟨1, _⟩ => show win2_3.index t (1 : Fin 2) * 128 + 1 * v.val = v.val; omega

/-- Row `p` of window 4's block at point `t` is row `5000 t + p` of its array. -/
theorem emb2_4 (t : Fin cfg2.N) (p : Fin 5000) (κ : Fin 128) (n : Fin 50000) (hn : n.val = 5000 * t.val + p.val) :
    ((cfg2.win 4).blk t).view.emb (ix2 p κ : S5000x128.Idx) = (ix2 n κ : S50000x128.Idx) := by
  obtain ⟨e0, e1⟩ := idx_facts2_4 t
  funext a; apply Fin.ext
  match a with
  | ⟨0, _⟩ => show win2_4.index t (0 : Fin 2) * 5000 + 1 * p.val = n.val; omega
  | ⟨1, _⟩ => show win2_4.index t (1 : Fin 2) * 128 + 1 * κ.val = κ.val; omega

/-- Window 5's block at every point is its whole array. -/
theorem emb2_5 (t : Fin cfg2.N) (u : Fin 1) (v : Fin 128) :
    ((cfg2.win 5).blk t).view.emb (ix2 u v : S1x128.Idx) = (ix2 u v : S1x128.Idx) := by
  obtain ⟨e0, e1⟩ := idx_facts2_5 t
  funext a; apply Fin.ext
  match a with
  | ⟨0, _⟩ => show win2_5.index t (0 : Fin 2) * 1 + 1 * u.val = u.val; omega
  | ⟨1, _⟩ => show win2_5.index t (1 : Fin 2) * 128 + 1 * v.val = v.val; omega

/-- Window 6's block at every point is its whole array. -/
theorem emb2_6 (t : Fin cfg2.N) (u : Fin 1) (v : Fin 128) :
    ((cfg2.win 6).blk t).view.emb (ix2 u v : S1x128.Idx) = (ix2 u v : S1x128.Idx) := by
  obtain ⟨e0, e1⟩ := idx_facts2_6 t
  funext a; apply Fin.ext
  match a with
  | ⟨0, _⟩ => show win2_6.index t (0 : Fin 2) * 1 + 1 * u.val = u.val; omega
  | ⟨1, _⟩ => show win2_6.index t (1 : Fin 2) * 128 + 1 * v.val = v.val; omega

/-! ## The arrays and what the outputs end holding -/

section Final
variable (V : (c : Dev nD) → (b : Ref sig .tc) → Buf (Elt Ideal) ((c : Thread nD τ).loc b))

/-- The three output arrays as the region leaves them: the table `H2`, its column sums, its column sums of squares. -/
def Gh2 (c : Dev nD) : S50000x128.Idx → EReal := fun i => H2 V c (i 0) (i 1)
def Gs2 (c : Dev nD) : S1x128.Idx → EReal := fun i => Gin.colSum (H2 V c) (i 1)
def Gq2 (c : Dev nD) : S1x128.Idx → EReal := fun i => Gin.colSum (fun n κ => H2 V c n κ * H2 V c n κ) (i 1)

/-- The tile of the linear map at point `t`, row `p`, column `q`, is row `5000 t + p` of `H2`: the payload at an index,
    each block read where its rectangle says. -/
theorem tile_h2 (c : Dev nD) (t : Fin cfg2.N) (p : Fin 5000) (q : Fin 128) :
    k2_pay3 (F := Ideal) (xblk2 V c t) (ablk2 V c t) (wblk2 V c t) (bblk2 V c t) (ix2 p q) = H2 V c (Gin.tileRow ⟨t.val, lt_N2 t⟩ p) q := by
  have hn : (Gin.tileRow ⟨t.val, lt_N2 t⟩ p).val = 5000 * t.val + p.val := rfl
  refine (pay2_3_apply (xblk2 V c t) (ablk2 V c t) (wblk2 V c t) (bblk2 V c t) p q).trans ?_
  have ex : (fun κ : Fin 128 => xblk2 V c t (ix2 p κ) + ablk2 V c t (ix2 p κ))
      = fun κ => Gin.ofArr2 (xArr2 V c) (Gin.tileRow ⟨t.val, lt_N2 t⟩ p) κ + Gin.ofArr2 (aggArr2 V c) (Gin.tileRow ⟨t.val, lt_N2 t⟩ p) κ :=
    funext fun κ => congrArg₂ (fun a b : EReal => a + b)
      (congrArg (xArr2 V c) (emb2_0 t p κ _ hn)) (congrArg (aggArr2 V c) (emb2_1 t p κ _ hn))
  have ew : Gin.ofArr2 (wblk2 V c t) = Gin.ofArr2 (w1Arr2 V c) :=
    funext fun u => funext fun v => congrArg (w1Arr2 V c) (emb2_2 t u v)
  have eb : Gin.ofArr2Row (bblk2 V c t) 0 = Gin.ofArr2Row (b1Arr2 V c) 0 :=
    funext fun v => congrArg (b1Arr2 V c) (emb2_3 t 0 v)
  rw [ex, ew, eb]
  rfl

/-- The column sums of tile `k` of `H2`, and of its squares (zero past the ten tiles). -/
def tsum2 (c : Dev nD) (k : ℕ) (q : Fin 128) : EReal :=
  if h : k < 10 then ∑ r : Fin 5000, H2 V c (Gin.tileRow ⟨k, h⟩ r) q else 0
def tsq2 (c : Dev nD) (k : ℕ) (q : Fin 128) : EReal :=
  if h : k < 10 then ∑ r : Fin 5000, H2 V c (Gin.tileRow ⟨k, h⟩ r) q * H2 V c (Gin.tileRow ⟨k, h⟩ r) q else 0

theorem tile_sum2 (c : Dev nD) (t : Fin cfg2.N) (q : Fin 128) :
    ∑ p : Fin 5000, k2_pay3 (F := Ideal) (xblk2 V c t) (ablk2 V c t) (wblk2 V c t) (bblk2 V c t) (ix2 p q) = tsum2 V c t.val q := by
  unfold tsum2; rw [dif_pos (lt_N2 t)]
  exact Finset.sum_congr rfl fun p _ => tile_h2 V c t p q
theorem tile_sq2 (c : Dev nD) (t : Fin cfg2.N) (q : Fin 128) :
    ∑ p : Fin 5000, k2_pay3 (F := Ideal) (xblk2 V c t) (ablk2 V c t) (wblk2 V c t) (bblk2 V c t) (ix2 p q) * k2_pay3 (F := Ideal) (xblk2 V c t) (ablk2 V c t) (wblk2 V c t) (bblk2 V c t) (ix2 p q) = tsq2 V c t.val q := by
  unfold tsq2; rw [dif_pos (lt_N2 t)]
  exact Finset.sum_congr rfl fun p _ => by rw [tile_h2 V c t p q]

/-- THE ACCUMULATION: after point `n` the first accumulator's column `q` is the sum over the tiles `0 … n` of the tile's
    column sum — by induction on the point. -/
theorem accS2_inv (c : Dev nD) : ∀ (n : ℕ) (hn : n < cfg2.N) (q : Fin 128),
    (outsAt2 (F := Ideal) V c n hn).2.2.2.1 (ix2 (0 : Fin 1) q) = ∑ k ∈ Finset.range (n + 1), tsum2 V c k q
  | 0, hn, q => by
    rw [Finset.sum_range_succ, Finset.sum_range_zero]
    refine (congrFun (accS2_zero V c hn) (ix2 (0 : Fin 1) q)).trans ?_
    refine (pay2_4_apply (xblk2 V c ⟨0, hn⟩) (ablk2 V c ⟨0, hn⟩) (wblk2 V c ⟨0, hn⟩) (bblk2 V c ⟨0, hn⟩) k2_pay1 q).trans ?_
    exact congrArg₂ (fun a b : EReal => a + b) (pay2_1_apply q) (tile_sum2 V c ⟨0, hn⟩ q)
  | n + 1, hn, q => by
    rw [Finset.sum_range_succ]
    refine (congrFun (accS2_succ V c n hn) (ix2 (0 : Fin 1) q)).trans ?_
    refine (pay2_4_apply (xblk2 V c ⟨n + 1, hn⟩) (ablk2 V c ⟨n + 1, hn⟩) (wblk2 V c ⟨n + 1, hn⟩) (bblk2 V c ⟨n + 1, hn⟩) _ q).trans ?_
    exact congrArg₂ (fun a b : EReal => a + b) (accS2_inv c n (Nat.lt_of_succ_lt hn) q) (tile_sum2 V c ⟨n + 1, hn⟩ q)

/-- The same for the second accumulator and the squares. -/
theorem accQ2_inv (c : Dev nD) : ∀ (n : ℕ) (hn : n < cfg2.N) (q : Fin 128),
    (outsAt2 (F := Ideal) V c n hn).2.2.2.2 (ix2 (0 : Fin 1) q) = ∑ k ∈ Finset.range (n + 1), tsq2 V c k q
  | 0, hn, q => by
    rw [Finset.sum_range_succ, Finset.sum_range_zero]
    refine (congrFun (accQ2_zero V c hn) (ix2 (0 : Fin 1) q)).trans ?_
    refine (pay2_5_apply (xblk2 V c ⟨0, hn⟩) (ablk2 V c ⟨0, hn⟩) (wblk2 V c ⟨0, hn⟩) (bblk2 V c ⟨0, hn⟩) k2_pay2 q).trans ?_
    exact congrArg₂ (fun a b : EReal => a + b) (pay2_2_apply q) (tile_sq2 V c ⟨0, hn⟩ q)
  | n + 1, hn, q => by
    rw [Finset.sum_range_succ]
    refine (congrFun (accQ2_succ V c n hn) (ix2 (0 : Fin 1) q)).trans ?_
    refine (pay2_5_apply (xblk2 V c ⟨n + 1, hn⟩) (ablk2 V c ⟨n + 1, hn⟩) (wblk2 V c ⟨n + 1, hn⟩) (bblk2 V c ⟨n + 1, hn⟩) _ q).trans ?_
    exact congrArg₂ (fun a b : EReal => a + b) (accQ2_inv c n (Nat.lt_of_succ_lt hn) q) (tile_sq2 V c ⟨n + 1, hn⟩ q)

/-- The ten tile sums are the column sum over all 50000 rows. -/
theorem sum_tsum2 (c : Dev nD) (q : Fin 128) : ∑ k ∈ Finset.range 10, tsum2 V c k q = Gs2 V c (ix2 (0 : Fin 1) q) := by
  show _ = Gin.colSum (H2 V c) q
  rw [Gin.colSum_tiles, Finset.sum_range]
  exact Finset.sum_congr rfl fun t _ => by unfold tsum2; rw [dif_pos t.isLt]
theorem sum_tsq2 (c : Dev nD) (q : Fin 128) : ∑ k ∈ Finset.range 10, tsq2 V c k q = Gq2 V c (ix2 (0 : Fin 1) q) := by
  show _ = Gin.colSum (fun n κ => H2 V c n κ * H2 V c n κ) q
  rw [Gin.colSum_tiles, Finset.sum_range]
  exact Finset.sum_congr rfl fun t _ => by unfold tsq2; rw [dif_pos t.isLt]

/-! ## From blocks to the arrays -/

/-- What point `t` writes back into the row-tiled output is block `t` of `Gh2`. -/
theorem flushed2_4_eq (c : Dev nD) (t : Fin cfg2.N) :
    (dat2 (F := Ideal) V c).flushed 4 t = ((cfg2.win 4).blk t).view.read (Elt Ideal) (Gh2 V c) := by
  show (cfg2.win 4).cut (grid2.coords t) ((dat2 (F := Ideal) V c).after 4 t) = _
  rw [after2_4, outs2_h V c t]
  funext y
  obtain ⟨p, j, rfl⟩ : ∃ (p : Fin 5000) (j : Fin 128), y = ix2 p j := ⟨y 0, y 1, eq_ix2 y⟩
  have hn : (Gin.tileRow ⟨t.val, lt_N2 t⟩ p).val = 5000 * t.val + p.val := rfl
  show k2_pay3 (F := Ideal) (xblk2 V c t) (ablk2 V c t) (wblk2 V c t) (bblk2 V c t) (ix2 p j) = Gh2 V c (((cfg2.win 4).blk t).view.emb (ix2 p j : S5000x128.Idx))
  rw [emb2_4 t p j _ hn]
  exact tile_h2 V c t p j

/-- An index of the output array is in point `t`'s block iff each coordinate is in the block's range on its axis. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53_0).slice (win2_4.rect t)).set ↔ _
  rw [View.set_slice_whole, Rect.mem_set_unit]
  exact Iff.rfl

/-- Every row of the output array is in some point's block: row `r` in that of point `r / 5000`. -/
theorem covered2_4 (i : S50000x128.Idx) :
    ∃ t : Fin cfg2.N, (cfg2.win 4).flush t = true ∧ i ∈ ((cfg2.win 4).blk t).view.set := by
  have hi0 : (i 0).val < 50000 := idx2_lt0 i
  have hi1 : (i 1).val < 128 := idx2_lt1 i
  have hN : cfg2.N = 10 := N_2
  let t : Fin cfg2.N := ⟨(i 0).val / 5000, by rw [hN]; omega⟩
  have htv : t.val = (i 0).val / 5000 := rfl
  obtain ⟨e0, e1⟩ := idx_facts2_4 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The row-tiled output array after the region, whole. -/
theorem val2_4_arr (c : Dev nD) : (dat2 (F := Ideal) V c).arrAt 4 cfg2.N = Gh2 V c :=
  (dat2 (F := Ideal) V c).arrAt_eq_of_cover 4 (Gh2 V c) (fun t _ => flushed2_4_eq V c t) covered2_4

-- (unifying the block's read with the row at an index unfolds the window's literal index map deeply)
set_option maxRecDepth 65536 in
/-- What the last point writes back into the column-sum output is the whole row `Gs2`. -/
theorem flushed2_5_eq (c : Dev nD) (t : Fin cfg2.N) (hf : (cfg2.win 5).flush t = true) :
    (dat2 (F := Ideal) V c).flushed 5 t = ((cfg2.win 5).blk t).view.read (Elt Ideal) (Gs2 V c) := by
  have hN := lt_N2 t
  have h9 : t.val = 9 := by have := (flush2_5 t).mp hf; omega
  show (cfg2.win 5).cut (grid2.coords t) ((dat2 (F := Ideal) V c).after 5 t) = _
  rw [after2_5, outs2_sum_last V c t h9]
  have hacc : ∀ q : Fin 128, (outsAt2 (F := Ideal) V c t.val t.isLt).2.2.2.1 (ix2 (0 : Fin 1) q) = Gs2 V c (ix2 (0 : Fin 1) q) := fun q => by
    refine (accS2_inv V c t.val t.isLt q).trans ?_
    have e : t.val + 1 = 10 := by omega
    rw [e]
    exact sum_tsum2 V c q
  generalize (outsAt2 (F := Ideal) V c t.val t.isLt).2.2.2.1 = acc at hacc ⊢
  funext y
  obtain ⟨u, q, rfl⟩ : ∃ (u : Fin 1) (q : Fin 128), y = ix2 u q := ⟨y 0, y 1, eq_ix2 y⟩
  show acc (ix2 u q) = Gs2 V c (((cfg2.win 5).blk t).view.emb (ix2 u q : S1x128.Idx))
  rw [emb2_5 t u q]
  obtain rfl : u = 0 := Subsingleton.elim _ _
  exact hacc q

/-- An index of that array is in point `t`'s block iff each coordinate is in the block's range on its axis. -/
theorem mem_blk2_5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v53_1).slice (win2_5.rect t)).set ↔ _
  rw [View.set_slice_whole, Rect.mem_set_unit]
  exact Iff.rfl

/-- The one block the last point writes back is the whole row. -/
theorem covered2_5 (i : S1x128.Idx) :
    ∃ t : Fin cfg2.N, (cfg2.win 5).flush t = true ∧ i ∈ ((cfg2.win 5).blk t).view.set := by
  have hi0 : (i 0).val < 1 := idx2_lt0 i
  have hi1 : (i 1).val < 128 := idx2_lt1 i
  obtain ⟨e0, e1⟩ := idx_facts2_5 t2_9
  refine ⟨t2_9, (flush2_5 t2_9).mpr rfl, ?_⟩
  rw [mem_blk2_5]
  intro a
  match a with
  | ⟨0, _⟩ => show win2_5.index t2_9 (0 : Fin 2) * 1 ≤ (i 0).val ∧ (i 0).val < win2_5.index t2_9 (0 : Fin 2) * 1 + 1; omega
  | ⟨1, _⟩ => show win2_5.index t2_9 (1 : Fin 2) * 128 ≤ (i 1).val ∧ (i 1).val < win2_5.index t2_9 (1 : Fin 2) * 128 + 128; omega

/-- The column-sum output after the region, whole. -/
theorem val2_5_arr (c : Dev nD) : (dat2 (F := Ideal) V c).arrAt 5 cfg2.N = Gs2 V c :=
  (dat2 (F := Ideal) V c).arrAt_eq_of_cover 5 (Gs2 V c) (flushed2_5_eq V c) covered2_5

set_option maxRecDepth 65536 in
/-- What the last point writes back into the sum-of-squares output is the whole row `Gq2`. -/
theorem flushed2_6_eq (c : Dev nD) (t : Fin cfg2.N) (hf : (cfg2.win 6).flush t = true) :
    (dat2 (F := Ideal) V c).flushed 6 t = ((cfg2.win 6).blk t).view.read (Elt Ideal) (Gq2 V c) := by
  have hN := lt_N2 t
  have h9 : t.val = 9 := by have := (flush2_6 t).mp hf; omega
  show (cfg2.win 6).cut (grid2.coords t) ((dat2 (F := Ideal) V c).after 6 t) = _
  rw [after2_6, outs2_sumsq_last V c t h9]
  have hacc : ∀ q : Fin 128, (outsAt2 (F := Ideal) V c t.val t.isLt).2.2.2.2 (ix2 (0 : Fin 1) q) = Gq2 V c (ix2 (0 : Fin 1) q) := fun q => by
    refine (accQ2_inv V c t.val t.isLt q).trans ?_
    have e : t.val + 1 = 10 := by omega
    rw [e]
    exact sum_tsq2 V c q
  generalize (outsAt2 (F := Ideal) V c t.val t.isLt).2.2.2.2 = acc at hacc ⊢
  funext y
  obtain ⟨u, q, rfl⟩ : ∃ (u : Fin 1) (q : Fin 128), y = ix2 u q := ⟨y 0, y 1, eq_ix2 y⟩
  show acc (ix2 u q) = Gq2 V c (((cfg2.win 6).blk t).view.emb (ix2 u q : S1x128.Idx))
  rw [emb2_6 t u q]
  obtain rfl : u = 0 := Subsingleton.elim _ _
  exact hacc q

/-- An index of that array is in point `t`'s block iff each coordinate is in the block's range on its axis. -/
theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v53_2).slice (win2_6.rect t)).set ↔ _
  rw [View.set_slice_whole, Rect.mem_set_unit]
  exact Iff.rfl

/-- The one block the last point writes back is the whole row. -/
theorem covered2_6 (i : S1x128.Idx) :
    ∃ t : Fin cfg2.N, (cfg2.win 6).flush t = true ∧ i ∈ ((cfg2.win 6).blk t).view.set := by
  have hi0 : (i 0).val < 1 := idx2_lt0 i
  have hi1 : (i 1).val < 128 := idx2_lt1 i
  obtain ⟨e0, e1⟩ := idx_facts2_6 t2_9
  refine ⟨t2_9, (flush2_6 t2_9).mpr rfl, ?_⟩
  rw [mem_blk2_6]
  intro a
  match a with
  | ⟨0, _⟩ => show win2_6.index t2_9 (0 : Fin 2) * 1 ≤ (i 0).val ∧ (i 0).val < win2_6.index t2_9 (0 : Fin 2) * 1 + 1; omega
  | ⟨1, _⟩ => show win2_6.index t2_9 (1 : Fin 2) * 128 ≤ (i 1).val ∧ (i 1).val < win2_6.index t2_9 (1 : Fin 2) * 128 + 128; omega

/-- The sum-of-squares output after the region, whole. -/
theorem val2_6_arr (c : Dev nD) : (dat2 (F := Ideal) V c).arrAt 6 cfg2.N = Gq2 V c :=
  (dat2 (F := Ideal) V c).arrAt_eq_of_cover 6 (Gq2 V c) (flushed2_6_eq V c) covered2_6

end Final

theorem val2_h (V : (c : Dev nD) → (b : Ref sig .tc) → Buf (Elt Ideal) ((c : Thread nD τ).loc b)) (c : Dev nD) (n : Fin 50000) (j : Fin 128) :
    ((dat2 (F := Ideal) V c).arrAt 4 cfg2.N : S50000x128.Idx → EReal) (ix2 n j) = H2 V c n j := by
  rw [val2_4_arr]
  rfl

theorem val2_sum (V : (c : Dev nD) → (b : Ref sig .tc) → Buf (Elt Ideal) ((c : Thread nD τ).loc b)) (c : Dev nD) (j : Fin 128) :
    ((dat2 (F := Ideal) V c).arrAt 5 cfg2.N : S1x128.Idx → EReal) (ix2 0 j) = Gin.colSum (H2 V c) j := by
  rw [val2_5_arr]
  rfl

theorem val2_sumsq (V : (c : Dev nD) → (b : Ref sig .tc) → Buf (Elt Ideal) ((c : Thread nD τ).loc b)) (c : Dev nD) (j : Fin 128) :
    ((dat2 (F := Ideal) V c).arrAt 6 cfg2.N : S1x128.Idx → EReal) (ix2 0 j)
      = Gin.colSum (fun n κ => H2 V c n κ * H2 V c n κ) j := by
  rw [val2_6_arr]
  rfl

end Cert.KernelIdeal.Val

end
-- ==== Proof.KI.Val2.lean ====
/-
  What region 2 leaves in its three output arrays, at the ideal values.
-/
import proofs.«430410_j38371237822819_1_alg».proof.Proof.KI.Val2H
-- ==== Proof.KI.Val3.lean ====
/-
  What region 3 (a layer's normalisation, rectifier and second linear map) leaves in its output array, at the ideal values, whatever the core's buffers hold when the region is entered.
-/
import proofs.«430410_j38371237822819_1_alg».proof.Proof.KI.Reg3
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The matrix product's operand indices -/

/-- The dimension numbers of the block's product: rows by the contraction, the contraction by columns. -/
abbrev mm3 : DotDims S5000x128 S128x128 S5000x128 := dot_S5000x128_S128x128_S5000x128_1_0_0_1_n_n

/-- The left operand is read at the output's row, -/
theorem mm3_lhs_0 (i : S5000x128.Idx) (q : mm3.contr.Idx) : (mm3.lhsIdx i q 0).val = (i 0).val := by
  unfold DotDims.lhsIdx
  rw [dif_neg (show ¬(0 : Fin S5000x128.rank) ∈ mm3.lhsBatch by decide), dif_pos (show (0 : Fin S5000x128.rank) ∈ mm3.lhsNonContracting by decide)]
  rfl
/-- and at the contraction index; -/
theorem mm3_lhs_1 (i : S5000x128.Idx) (q : mm3.contr.Idx) : (mm3.lhsIdx i q 1).val = (q ⟨0, by decide⟩).val :=
  mm3.lhsIdx_val_of_single rfl i q
/-- the right operand at the contraction index, -/
theorem mm3_rhs_0 (i : S5000x128.Idx) (q : mm3.contr.Idx) : (mm3.rhsIdx i q 0).val = (q ⟨0, by decide⟩).val :=
  mm3.rhsIdx_val_of_single rfl i q
/-- and at the output's column. -/
theorem mm3_rhs_1 (i : S5000x128.Idx) (q : mm3.contr.Idx) : (mm3.rhsIdx i q 1).val = (i 1).val := by
  unfold DotDims.rhsIdx
  rw [dif_neg (show ¬(1 : Fin S128x128.rank) ∈ mm3.rhsBatch by decide), dif_pos (show (1 : Fin S128x128.rank) ∈ mm3.rhsNonContracting by decide)]
  rfl

/-- The contraction index with coordinate k reads the left operand at (p, k) -/
theorem mm3_lidx (p : Fin 5000) (q : Fin 128) (k : Fin 128) :
    mm3.lhsIdx (ix2 p q) ((contrEquiv1 mm3 128 rfl rfl).symm k) = ix2 p k := by
  have hk := contrEquiv1_symm_val mm3 128 rfl rfl k
  exact funext fun a => Fin.ext (by
    match a with
    | ⟨0, _⟩ => exact mm3_lhs_0 _ _
    | ⟨1, _⟩ => exact (mm3_lhs_1 _ _).trans hk)
/-- and the right operand at (k, q). -/
theorem mm3_ridx (p : Fin 5000) (q : Fin 128) (k : Fin 128) :
    mm3.rhsIdx (ix2 p q) ((contrEquiv1 mm3 128 rfl rfl).symm k) = ix2 k q := by
  have hk := contrEquiv1_symm_val mm3 128 rfl rfl k
  exact funext fun a => Fin.ext (by
    match a with
    | ⟨0, _⟩ => exact (mm3_rhs_0 _ _).trans hk
    | ⟨1, _⟩ => exact mm3_rhs_1 _ _)

/-! ## The payload at an index -/

/-- The reciprocal square root of a vector, read at an index. -/
theorem rsqrt3_apply {s : Shape} {φ : FTy} (a : FVec Ideal s φ) (i : s.Idx) : rsqrt a i = Ideal.rsqrt (a i) := rfl

/-- The stored value at row p, column q of a block: the row p of the tile normalised with the column statistics, scaled,
    shifted and rectified, then its product with column q of the weights plus the bias, rectified. -/
theorem pay3_apply (x0 : Vec Ideal S5000x128 .f32) (xg xm xv xb : Vec Ideal S1x128 .f32) (xw : Vec Ideal S128x128 .f32)
    (xc : Vec Ideal S1x128 .f32) (p : Fin 5000) (q : Fin 128) :
    k3_pay1 (F := Ideal) x0 xg xm xv xb xw xc (ix2 p q)
      = Gin.relu ((∑ κ : Fin 128, Gin.relu (xg (ix2 0 κ) * (x0 (ix2 p κ) - xm (ix2 0 κ)) * Ideal.rsqrt (xv (ix2 0 κ) + Gin.bnEps) + xb (ix2 0 κ)) * xw (ix2 κ q))
          + xc (ix2 0 q)) := by
  unfold k3_pay1
  simp only [shapeCast_self]
  rw [maximumf_apply, addf_apply, broadcast_apply, broadcastTo_1b_ab_apply]
  simp only [matmul]
  rw [Ideal.matmul_constant_zero_apply, ← Equiv.sum_comp (contrEquiv1 mm3 128 rfl rfl).symm]
  have hz0 : (FloatOps.ofBits (F := Ideal) FTy.f32 0x00000000#32) = 0 := Ideal.ofBits_zero_f32
  rw [hz0]
  unfold Gin.relu
  refine congrArg (fun s => max (s + xc (ix2 0 q)) 0) (Finset.sum_congr rfl fun k _ => ?_)
  rw [mm3_lidx, mm3_ridx]
  simp only [truncf_apply, maximumf_apply, addf_apply, mulf_apply, subf_apply, broadcast_apply, broadcastTo_1b_ab_apply, rsqrt3_apply, hz0, Gin.bnEps_def]
  rfl

/-! ## The region's input arrays as the region finds them, each at its literal type -/

/-- The node table, the column means, the column variances, the scale, the shift, the weight matrix and the bias. -/
abbrev hArr3 (V : (c : Dev nD) → (b : Ref sig .tc) → Buf (Elt Ideal) ((c : Thread nD τ).loc b)) (c : Dev nD) : S50000x128.Idx → EReal := V c (Pipeline.arrRef spec3 0)
abbrev muArr3 (V : (c : Dev nD) → (b : Ref sig .tc) → Buf (Elt Ideal) ((c : Thread nD τ).loc b)) (c : Dev nD) : S1x128.Idx → EReal := V c (Pipeline.arrRef spec3 1)
abbrev varArr3 (V : (c : Dev nD) → (b : Ref sig .tc) → Buf (Elt Ideal) ((c : Thread nD τ).loc b)) (c : Dev nD) : S1x128.Idx → EReal := V c (Pipeline.arrRef spec3 2)
abbrev gArr3 (V : (c : Dev nD) → (b : Ref sig .tc) → Buf (Elt Ideal) ((c : Thread nD τ).loc b)) (c : Dev nD) : S1x128.Idx → EReal := V c (Pipeline.arrRef spec3 3)
abbrev bbArr3 (V : (c : Dev nD) → (b : Ref sig .tc) → Buf (Elt Ideal) ((c : Thread nD τ).loc b)) (c : Dev nD) : S1x128.Idx → EReal := V c (Pipeline.arrRef spec3 4)
abbrev w2Arr3 (V : (c : Dev nD) → (b : Ref sig .tc) → Buf (Elt Ideal) ((c : Thread nD τ).loc b)) (c : Dev nD) : S128x128.Idx → EReal := V c (Pipeline.arrRef spec3 5)
abbrev b2Arr3 (V : (c : Dev nD) → (b : Ref sig .tc) → Buf (Elt Ideal) ((c : Thread nD τ).loc b)) (c : Dev nD) : S1x128.Idx → EReal := V c (Pipeline.arrRef spec3 6)

/-! ## The blocks, read where their rectangles say -/

section Region
-- the contents of the core's buffers when the region is entered
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the row-tiled windows 0 and 7 are at block (t, 0) at point t, every
    other window at block (0, 0). -/
theorem idx_facts3 : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row p of the row tile of point t is row 5000 t + p of the node table. -/
def row3 (t : Fin cfg3.N) (p : Fin 5000) : Fin 50000 :=
  ⟨5000 * t.val + p.val, by have hN : grid3.N = 10 := N_3; have ht : t.val < grid3.N := t.isLt; have := p.isLt; omega⟩

theorem row3_val (t : Fin cfg3.N) (p : Fin 5000) : (row3 t p).val = 5000 * t.val + p.val := rfl

/-- Window 0's block at point t is rows 5000 t … 5000 t + 4999 of the node table. -/
theorem iblk3_0_apply (c : Dev nD) (t : Fin cfg3.N) (p : Fin 5000) (q : Fin 128) :
    (iblk3 V c 0 t : Vec Ideal S5000x128 .f32) (ix2 p q) = hArr3 V c (ix2 (row3 t p) q) := by
  obtain ⟨e0, e1, -⟩ := idx_facts3 t
  unfold iblk3
  rw [View.read_apply]
  have h : ((cfg3.win 0).blk t).view.emb (ix2 p q) = ix2 (row3 t p) q := by
    funext a; apply Fin.ext
    match a with
    | ⟨0, _⟩ => show win3_0.index t (0 : Fin 2) * 5000 + 1 * p.val = 5000 * t.val + p.val; rw [e0]; omega
    | ⟨1, _⟩ => show win3_0.index t (1 : Fin 2) * 128 + 1 * q.val = q.val; rw [e1]; omega
  show V c (Pipeline.arrRef spec3 0) (((cfg3.win 0).blk t).view.emb (ix2 p q)) = _
  rw [h]

/-- Window 1's block at every point is its whole one-row array. -/
theorem iblk3_1_apply (c : Dev nD) (t : Fin cfg3.N) (q : Fin 128) :
    (iblk3 V c 1 t : Vec Ideal S1x128 .f32) (ix2 (0 : Fin 1) q) = muArr3 V c (ix2 (0 : Fin 1) q) := by
  have e0 := (idx_facts3 t).2.2.2.2.1
  have e1 := (idx_facts3 t).2.2.2.2.2.1
  unfold iblk3
  rw [View.read_apply]
  have h : ((cfg3.win 1).blk t).view.emb (ix2 (0 : Fin 1) q) = ix2 (0 : Fin 1) q := by
    funext a; apply Fin.ext
    match a with
    | ⟨0, _⟩ => show win3_1.index t (0 : Fin 2) * 1 + 1 * 0 = 0; rw [e0]
    | ⟨1, _⟩ => show win3_1.index t (1 : Fin 2) * 128 + 1 * q.val = q.val; rw [e1]; omega
  show V c (Pipeline.arrRef spec3 1) (((cfg3.win 1).blk t).view.emb (ix2 (0 : Fin 1) q)) = _
  rw [h]

/-- Window 2's block at every point is its whole one-row array. -/
theorem iblk3_2_apply (c : Dev nD) (t : Fin cfg3.N) (q : Fin 128) :
    (iblk3 V c 2 t : Vec Ideal S1x128 .f32) (ix2 (0 : Fin 1) q) = varArr3 V c (ix2 (0 : Fin 1) q) := by
  have e0 := (idx_facts3 t).2.2.2.2.2.2.1
  have e1 := (idx_facts3 t).2.2.2.2.2.2.2.1
  unfold iblk3
  rw [View.read_apply]
  have h : ((cfg3.win 2).blk t).view.emb (ix2 (0 : Fin 1) q) = ix2 (0 : Fin 1) q := by
    funext a; apply Fin.ext
    match a with
    | ⟨0, _⟩ => show win3_2.index t (0 : Fin 2) * 1 + 1 * 0 = 0; rw [e0]
    | ⟨1, _⟩ => show win3_2.index t (1 : Fin 2) * 128 + 1 * q.val = q.val; rw [e1]; omega
  show V c (Pipeline.arrRef spec3 2) (((cfg3.win 2).blk t).view.emb (ix2 (0 : Fin 1) q)) = _
  rw [h]

/-- Window 3's block at every point is its whole one-row array. -/
theorem iblk3_3_apply (c : Dev nD) (t : Fin cfg3.N) (q : Fin 128) :
    (iblk3 V c 3 t : Vec Ideal S1x128 .f32) (ix2 (0 : Fin 1) q) = gArr3 V c (ix2 (0 : Fin 1) q) := by
  have e0 := (idx_facts3 t).2.2.2.2.2.2.2.2.1
  have e1 := (idx_facts3 t).2.2.2.2.2.2.2.2.2.1
  unfold iblk3
  rw [View.read_apply]
  have h : ((cfg3.win 3).blk t).view.emb (ix2 (0 : Fin 1) q) = ix2 (0 : Fin 1) q := by
    funext a; apply Fin.ext
    match a with
    | ⟨0, _⟩ => show win3_3.index t (0 : Fin 2) * 1 + 1 * 0 = 0; rw [e0]
    | ⟨1, _⟩ => show win3_3.index t (1 : Fin 2) * 128 + 1 * q.val = q.val; rw [e1]; omega
  show V c (Pipeline.arrRef spec3 3) (((cfg3.win 3).blk t).view.emb (ix2 (0 : Fin 1) q)) = _
  rw [h]

/-- Window 4's block at every point is its whole one-row array. -/
theorem iblk3_4_apply (c : Dev nD) (t : Fin cfg3.N) (q : Fin 128) :
    (iblk3 V c 4 t : Vec Ideal S1x128 .f32) (ix2 (0 : Fin 1) q) = bbArr3 V c (ix2 (0 : Fin 1) q) := by
  have e0 := (idx_facts3 t).2.2.2.2.2.2.2.2.2.2.1
  have e1 := (idx_facts3 t).2.2.2.2.2.2.2.2.2.2.2.1
  unfold iblk3
  rw [View.read_apply]
  have h : ((cfg3.win 4).blk t).view.emb (ix2 (0 : Fin 1) q) = ix2 (0 : Fin 1) q := by
    funext a; apply Fin.ext
    match a with
    | ⟨0, _⟩ => show win3_4.index t (0 : Fin 2) * 1 + 1 * 0 = 0; rw [e0]
    | ⟨1, _⟩ => show win3_4.index t (1 : Fin 2) * 128 + 1 * q.val = q.val; rw [e1]; omega
  show V c (Pipeline.arrRef spec3 4) (((cfg3.win 4).blk t).view.emb (ix2 (0 : Fin 1) q)) = _
  rw [h]

/-- Window 6's block at every point is its whole one-row array. -/
theorem iblk3_6_apply (c : Dev nD) (t : Fin cfg3.N) (q : Fin 128) :
    (iblk3 V c 6 t : Vec Ideal S1x128 .f32) (ix2 (0 : Fin 1) q) = b2Arr3 V c (ix2 (0 : Fin 1) q) := by
  have e0 := (idx_facts3 t).2.2.2.2.2.2.2.2.2.2.2.2.2.2.1
  have e1 := (idx_facts3 t).2.2.2.2.2.2.2.2.2.2.2.2.2.2.2
  unfold iblk3
  rw [View.read_apply]
  have h : ((cfg3.win 6).blk t).view.emb (ix2 (0 : Fin 1) q) = ix2 (0 : Fin 1) q := by
    funext a; apply Fin.ext
    match a with
    | ⟨0, _⟩ => show win3_6.index t (0 : Fin 2) * 1 + 1 * 0 = 0; rw [e0]
    | ⟨1, _⟩ => show win3_6.index t (1 : Fin 2) * 128 + 1 * q.val = q.val; rw [e1]; omega
  show V c (Pipeline.arrRef spec3 6) (((cfg3.win 6).blk t).view.emb (ix2 (0 : Fin 1) q)) = _
  rw [h]

/-- Window 5's block at every point is the whole weight matrix. -/
theorem iblk3_5_apply (c : Dev nD) (t : Fin cfg3.N) (k : Fin 128) (q : Fin 128) :
    (iblk3 V c 5 t : Vec Ideal S128x128 .f32) (ix2 k q) = w2Arr3 V c (ix2 k q) := by
  have e0 := (idx_facts3 t).2.2.2.2.2.2.2.2.2.2.2.2.1
  have e1 := (idx_facts3 t).2.2.2.2.2.2.2.2.2.2.2.2.2.1
  unfold iblk3
  rw [View.read_apply]
  have h : ((cfg3.win 5).blk t).view.emb (ix2 k q) = ix2 k q := by
    funext a; apply Fin.ext
    match a with
    | ⟨0, _⟩ => show win3_5.index t (0 : Fin 2) * 128 + 1 * k.val = k.val; rw [e0]; omega
    | ⟨1, _⟩ => show win3_5.index t (1 : Fin 2) * 128 + 1 * q.val = q.val; rw [e1]; omega
  show V c (Pipeline.arrRef spec3 5) (((cfg3.win 5).blk t).view.emb (ix2 k q)) = _
  rw [h]

/-! ## From the blocks to the array -/

/-- What the output array ends holding: every row of the node table normalised with the column statistics, scaled,
    shifted, rectified, sent through the second linear map and rectified. -/
def G3 (c : Dev nD) : S50000x128.Idx → EReal :=
  Gin.toArr2 (Gin.bnApply (Gin.ofArr2 (hArr3 V c)) (Gin.ofArr2Row (muArr3 V c) 0) (Gin.ofArr2Row (varArr3 V c) 0)
    (Gin.ofArr2Row (gArr3 V c) 0) (Gin.ofArr2Row (bbArr3 V c) 0) (Gin.ofArr2 (w2Arr3 V c)) (Gin.ofArr2Row (b2Arr3 V c) 0))

/-- What point t writes back is block t of that array. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz3]
  simp only [View.ld_unit_zero (S := S5000x128) hz3, View.ld_unit_zero (S := S1x128) hz3, View.ld_unit_zero (S := S128x128) hz3]
  funext y
  obtain ⟨p, q, rfl⟩ : ∃ (p : Fin 5000) (q : Fin 128), y = ix2 p q := ⟨y 0, y 1, eq_ix2 y⟩
  refine (pay3_apply _ _ _ _ _ _ _ p q).trans ?_
  rw [View.read_apply]
  obtain ⟨-, -, e0, e1, -⟩ := idx_facts3 t
  have h : ((cfg3.win 7).blk t).view.emb (ix2 p q) = ix2 (row3 t p) q := by
    funext a; apply Fin.ext
    match a with
    | ⟨0, _⟩ => show win3_7.index t (0 : Fin 2) * 5000 + 1 * p.val = 5000 * t.val + p.val; rw [e0]; omega
    | ⟨1, _⟩ => show win3_7.index t (1 : Fin 2) * 128 + 1 * q.val = q.val; rw [e1]; omega
  rw [h]
  simp only [iblk3_0_apply, iblk3_1_apply, iblk3_2_apply, iblk3_3_apply, iblk3_4_apply, iblk3_5_apply, iblk3_6_apply]
  rfl

/-- An index of the array is in point t's block iff each coordinate is in the block's range on its axis. -/
theorem mem_blk3 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole (Pipeline.arrRef spec3 7)).slice (win3_7.rect t)).set ↔ _
  rw [View.set_slice_whole, Rect.mem_set_unit]
  exact Iff.rfl

/-- Every row r of the array is in the block of point r / 5000, which writes it back. -/
theorem cover3 (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  have ht : (i 0).val / 5000 < grid3.N := by omega
  refine ⟨⟨(i 0).val / 5000, ht⟩, flush3_7 _, ?_⟩
  rw [mem_blk3]
  obtain ⟨-, -, e0, e1, -⟩ := idx_facts3 ⟨(i 0).val / 5000, ht⟩
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    rw [e1]; omega

/-- So the output array after the region is that array, -/
theorem final3 (c : Dev nD) : (dat3 V c).arrAt 7 cfg3.N = G3 V c :=
  (dat3 V c).arrAt_eq_of_cover 7 (G3 V c) (fun t _ => flushed3_eq V c t) cover3

end Region

/-- Read at row n, column j, the output array after the region is the layer's second half of the region-entry arrays. -/
theorem val3 (V : (c : Dev nD) → (b : Ref sig .tc) → Buf (Elt Ideal) ((c : Thread nD τ).loc b)) (c : Dev nD) (n : Fin 50000) (j : Fin 128) :
    ((dat3 (F := Ideal) V c).arrAt 7 cfg3.N : S50000x128.Idx → EReal) (ix2 n j)
      = Gin.bnApply (Gin.ofArr2 (hArr3 V c)) (Gin.ofArr2Row (muArr3 V c) 0) (Gin.ofArr2Row (varArr3 V c) 0)
          (Gin.ofArr2Row (gArr3 V c) 0) (Gin.ofArr2Row (bbArr3 V c) 0) (Gin.ofArr2 (w2Arr3 V c)) (Gin.ofArr2Row (b2Arr3 V c) 0) n j :=
  (congrFun (final3 V c) (ix2 n j)).trans rfl

end Cert.KernelIdeal.Val

end
-- ==== Proof.KI.Val4D.lean ====
/-
  Region 4's input arrays by their literal types and the layer's first linear map of them, row by row: what the three value statements of the region are about.
-/
import proofs.«430410_j38371237822819_1_alg».proof.Proof.KI.Reg4
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-- The region's input arrays, by their literal types. -/
abbrev xArr4 (V : (c : Dev nD) → (b : Ref sig .tc) → Buf (Elt Ideal) ((c : Thread nD τ).loc b)) (c : Dev nD) : S50000x128.Idx → EReal := V c (Pipeline.arrRef spec4 0)
abbrev aggArr4 (V : (c : Dev nD) → (b : Ref sig .tc) → Buf (Elt Ideal) ((c : Thread nD τ).loc b)) (c : Dev nD) : S50000x128.Idx → EReal := V c (Pipeline.arrRef spec4 1)
abbrev w1Arr4 (V : (c : Dev nD) → (b : Ref sig .tc) → Buf (Elt Ideal) ((c : Thread nD τ).loc b)) (c : Dev nD) : S128x128.Idx → EReal := V c (Pipeline.arrRef spec4 2)
abbrev b1Arr4 (V : (c : Dev nD) → (b : Ref sig .tc) → Buf (Elt Ideal) ((c : Thread nD τ).loc b)) (c : Dev nD) : S1x128.Idx → EReal := V c (Pipeline.arrRef spec4 3)

/-- The linear map of the features plus the neighbour sum, row by row. -/
def H4 (V : (c : Dev nD) → (b : Ref sig .tc) → Buf (Elt Ideal) ((c : Thread nD τ).loc b)) (c : Dev nD) : Gin.Nodes :=
  Gin.pre1 (Gin.ofArr2 (xArr4 V c)) (Gin.ofArr2 (aggArr4 V c)) (Gin.ofArr2 (w1Arr4 V c)) (Gin.ofArr2Row (b1Arr4 V c) 0)

end Cert.KernelIdeal.Val

end
-- ==== Proof.KI.Pay4.lean ====
/-
  The arithmetic of the statistics kernel's body in region 4 (the third layer's first linear map) at an index, at the
  ideal values: the tile of h = (x + agg) W1 + b1 entry by entry, and the two accumulator rows as the running row plus the
  tile's column sums of h and of h squared; the rows stored at the first point are zero. The layout steps of the column
  sums are region 0's.
-/
import proofs.«430410_j38371237822819_1_alg».proof.Proof.KI.Pay0

set_option maxRecDepth 16384

noncomputable section

namespace Cert.KernelIdeal.Val

open Cert.KernelIdeal Cert.KernelIdeal.Gen
open Idealize.ShloMosaic Idealize.ShloMosaic.ValueIdx
open scoped BigOperators

/-! ## The payloads at an index -/

/-- The tile of h at row p, column q: the first linear map of row p of x + agg. The narrowing of the operands to the
    short format is the identity on extended reals. -/
theorem pay4_3_apply (x agg : FVec Ideal S5000x128 .f32) (w : FVec Ideal S128x128 .f32) (b : FVec Ideal S1x128 .f32)
    (p : Fin 5000) (q : Fin 128) :
    k4_pay3 (F := Ideal) x agg w b (ix2 p q)
      = Gin.lin (fun κ => x (ix2 p κ) + agg (ix2 p κ)) (Gin.ofArr2 w) (Gin.ofArr2Row b 0) q := by
  unfold k4_pay3
  rw [addf_apply, mm_a_apply, shapeCast_self, broadcastTo_1b_ab_apply]
  simp only [truncf_apply, shapeCast_self, addf_apply]
  rfl

/-- The first accumulator's new row at column q: the running row plus the tile's column sum of h. -/
theorem pay4_4_apply (x agg : FVec Ideal S5000x128 .f32) (w : FVec Ideal S128x128 .f32) (b : FVec Ideal S1x128 .f32)
    (acc : FVec Ideal S1x128 .f32) (q : Fin 128) :
    k4_pay4 (F := Ideal) x agg w b acc (ix2 (0 : Fin 1) q)
      = acc (ix2 (0 : Fin 1) q) + ∑ p : Fin 5000, k4_pay3 (F := Ideal) x agg w b (ix2 p q) := by
  unfold k4_pay4
  rw [shapeCast_self, addf_apply, colsum_apply]

/-- The second accumulator's new row at column q: the running row plus the tile's column sum of h squared. -/
theorem pay4_5_apply (x agg : FVec Ideal S5000x128 .f32) (w : FVec Ideal S128x128 .f32) (b : FVec Ideal S1x128 .f32)
    (acc : FVec Ideal S1x128 .f32) (q : Fin 128) :
    k4_pay5 (F := Ideal) x agg w b acc (ix2 (0 : Fin 1) q)
      = acc (ix2 (0 : Fin 1) q) + ∑ p : Fin 5000, k4_pay3 (F := Ideal) x agg w b (ix2 p q) * k4_pay3 (F := Ideal) x agg w b (ix2 p q) := by
  unfold k4_pay5
  rw [shapeCast_self, addf_apply, colsum_apply]
  simp only [mulf_apply]

/-- The row stored into the first accumulator at the first point is zero. -/
theorem pay4_1_apply (q : Fin 128) : k4_pay1 (F := Ideal) (ix2 (0 : Fin 1) q) = 0 := by
  unfold k4_pay1
  rw [shapeCast_self, broadcast_apply]
  exact Ideal.ofBits_zero_f32

/-- The row stored into the second accumulator at the first point is zero. -/
theorem pay4_2_apply (q : Fin 128) : k4_pay2 (F := Ideal) (ix2 (0 : Fin 1) q) = 0 := by
  unfold k4_pay2
  rw [shapeCast_self, broadcast_apply]
  exact Ideal.ofBits_zero_f32

end Cert.KernelIdeal.Val

end
-- ==== Proof.KI.Val4H.lean ====
/-
  What region 4 leaves in its three output arrays, at the ideal values, whatever the core's buffers hold when the region
  is entered: row n of the first array is the layer's first linear map of row n of the features plus the neighbour sum;
  the two one-row arrays are the column sums of that table and of its squares, accumulated tile by tile.
-/
import proofs.«430410_j38371237822819_1_alg».proof.Proof.KI.Val4D
import proofs.«430410_j38371237822819_1_alg».proof.Proof.KI.Pay4
import proofs.«430410_j38371237822819_1_alg».proof.Proof.Spec
import proofs.«430410_j38371237822819_1_alg».proof.Proof.Math
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.ShloMosaic.Tactic
open Idealize.ShloMosaic.Pipeline (Dat Cfg Window)
open scoped BigOperators

/-! ## What the body's stores leave, as the payloads of what it loaded (any float instance) -/

section Pieces
variable {F : FTy → Type} [FloatOps F]

theorem hz4 : (![0, 0] : Fin 2 → Nat) = fun _ => 0 := funext fun a => by fin_cases a <;> rfl

/-- At the first point the row-tile output's one covering store leaves the tile of the linear map of the four input blocks. -/
theorem out4_A_4_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) :
    out4_A_4 c i arg1 harg1 arg2 harg2 arg3 harg3 arg4 harg4 arg5 harg5 arg6 harg6 arg7 harg7 arg8 harg8 arg9 harg9 hc0 hc1 x0 x1 x2 x3 = k4_pay3 x0 x1 x2 x3 := by
  unfold out4_A_4
  rw [View.read_writes_eq_canon _ _ _ (cover4_A_4 c i arg1 harg1 arg2 harg2 arg3 harg3 arg4 harg4 arg5 harg5 arg6 harg6 arg7 harg7 arg8 harg8 arg9 harg9 hc0 hc1 x0 x1 x2 x3)]
  unfold kernelRun4_A
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the first point the column-sum accumulator is zeroed, read back, and left at the zero row plus the tile's column sums. -/
theorem sout4_A_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) :
    sout4_A_0 c i arg1 harg1 arg2 harg2 arg3 harg3 arg4 harg4 arg5 harg5 arg6 harg6 arg7 harg7 arg8 harg8 arg9 harg9 hc0 hc1 x0 x1 x2 x3 = k4_pay4 x0 x1 x2 x3 k4_pay1 := by
  unfold sout4_A_0
  rw [View.read_writes_eq_canon _ _ _ (scover4_A_0 c i arg1 harg1 arg2 harg2 arg3 harg3 arg4 harg4 arg5 harg5 arg6 harg6 arg7 harg7 arg8 harg8 arg9 harg9 hc0 hc1 x0 x1 x2 x3)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the first point the sum-of-squares accumulator is zeroed, read back, and left at the zero row plus the tile's column sums of squares. -/
theorem sout4_A_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S128x128 .f32) (x3 : Vec F S1x128 .f32) :
    sout4_A_1 c i arg1 harg1 arg2 harg2 arg3 harg3 arg4 harg4 arg5 harg5 arg6 harg6 arg7 harg7 arg8 harg8 arg9 harg9 hc0 hc1 x0 x1 x2 x3 = k4_pay5 x0 x1 x2 x3 k4_pay2 := by
  unfold sout4_A_1
  rw [View.read_writes_eq_canon _ _ _ (scover4_A_1 c i arg1 harg1 arg2 harg2 arg3 harg3 arg4 harg4 arg5 harg5 arg6 harg6 arg7 harg7 arg8 harg8 arg9 harg9 hc0 hc1 x0 x1 x2 x3)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At a middle point the row-tile output's one covering store leaves the tile of the linear map of the four input blocks. -/
theorem out4_B_4_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    out4_B_4 c i arg1 harg1 arg2 harg2 arg3 harg3 arg4 harg4 arg5 harg5 arg6 harg6 arg7 harg7 arg8 harg8 arg9 harg9 hc0 hc1 x0 x1 x2 x3 xs0 xs1 = k4_pay3 x0 x1 x2 x3 := by
  unfold out4_B_4
  rw [View.read_writes_eq_canon _ _ _ (cover4_B_4 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At a middle point the column-sum accumulator, found at `xs0`, is left at `xs0` plus the tile's column sums. -/
theorem sout4_B_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    sout4_B_0 c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At a middle point the sum-of-squares accumulator, found at `xs1`, is left at `xs1` plus the tile's column sums of squares. -/
theorem sout4_B_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    sout4_B_1 c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold sout4_B_1
  rw [View.read_writes_eq_canon _ _ _ (scover4_B_1 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the last point the row-tile output's one covering store leaves the tile of the linear map of the four input blocks. -/
theorem out4_C_4_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    out4_C_4 c i arg1 harg1 arg2 harg2 arg3 harg3 arg4 harg4 arg5 harg5 arg6 harg6 arg7 harg7 arg8 harg8 arg9 harg9 hc0 hc1 x0 x1 x2 x3 xs0 xs1 = k4_pay3 x0 x1 x2 x3 := by
  unfold out4_C_4
  rw [View.read_writes_eq_canon _ _ _ (cover4_C_4 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the last point the column-sum accumulator, found at `xs0`, is left at `xs0` plus the tile's column sums. -/
theorem sout4_C_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    sout4_C_0 c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the last point the sum-of-squares accumulator, found at `xs1`, is left at `xs1` plus the tile's column sums of squares. -/
theorem sout4_C_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    sout4_C_1 c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold sout4_C_1
  rw [View.read_writes_eq_canon _ _ _ (scover4_C_1 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the last point the column-sum output is stored whole from the accumulator just updated: it holds what the accumulator holds. -/
theorem out4_C_5_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    out4_C_5 c i arg1 harg1 arg2 harg2 arg3 harg3 arg4 harg4 arg5 harg5 arg6 harg6 arg7 harg7 arg8 harg8 arg9 harg9 hc0 hc1 x0 x1 x2 x3 xs0 xs1 = k4_pay4 x0 x1 x2 x3 xs0 := by
  unfold out4_C_5
  rw [View.read_writes_eq_canon _ _ _ (cover4_C_5 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hz4, View.readCov_unit_zero (S := S1x128) _ hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

/-- At the last point the sum-of-squares output is stored whole from its accumulator just updated. -/
theorem out4_C_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    out4_C_6 c i arg1 harg1 arg2 harg2 arg3 harg3 arg4 harg4 arg5 harg5 arg6 harg6 arg7 harg7 arg8 harg8 arg9 harg9 hc0 hc1 x0 x1 x2 x3 xs0 xs1 = k4_pay5 x0 x1 x2 x3 xs1 := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  sl_unfold_words
  rw [View.canon_unit_zero hz4, View.readCov_unit_zero (S := S1x128) _ hz4]
  simp only [View.readAt_eq_ld, harg1.read_unread, harg2.read_unread, harg3.read_unread, harg4.read_unread, harg8.read_unread, harg9.read_unread, View.ld_unit_zero (S := S5000x128) hz4, View.ld_unit_zero (S := S128x128) hz4, View.ld_unit_zero (S := S1x128) hz4]

variable (V : (c : Dev nD) → (b : Ref sig .tc) → Buf (Elt F) ((c : Thread nD τ).loc b))

/-- The four input blocks at point `t`, each at its literal type: rows `5000 t …` of the layer's input and of the
    neighbour aggregate, the weight matrix, the bias row. -/
abbrev xblk4 (c : Dev nD) (t : Fin cfg4.N) : Vec F S5000x128 .f32 := iblk4 V c 0 t
abbrev ablk4 (c : Dev nD) (t : Fin cfg4.N) : Vec F S5000x128 .f32 := iblk4 V c 1 t
abbrev wblk4 (c : Dev nD) (t : Fin cfg4.N) : Vec F S128x128 .f32 := iblk4 V c 2 t
abbrev bblk4 (c : Dev nD) (t : Fin cfg4.N) : Vec F S1x128 .f32 := iblk4 V c 3 t

/-- After every point the row-tile output's buffer holds the tile of the linear map of that point's blocks. -/
theorem outs4_h (c : Dev nD) (t : Fin cfg4.N) :
    (outsAt4 V c t.val t.isLt).1 = k4_pay3 (xblk4 V c t) (ablk4 V c t) (wblk4 V c t) (bblk4 V c t) := by
  have hN : t.val < 10 := lt_of_lt_of_eq t.isLt (show cfg4.N = 10 from N_4)
  by_cases h0 : t.val = 0
  · have h1 : ¬t.val = 9 := by omega
    rw [outsAt4_A V c t h0 h1]; dsimp only
    exact out4_A_4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)
  · by_cases h1 : t.val = 9
    · rw [outsAt4_C V c t h0 h1]; dsimp only
      exact out4_C_4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]; dsimp only
      exact out4_B_4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- After the first point the column-sum accumulator holds the zero row plus the first tile's column sums. -/
theorem outs4_accS_first (c : Dev nD) (t : Fin cfg4.N) (h0 : t.val = 0) :
    (outsAt4 V c t.val t.isLt).2.2.2.1 = k4_pay4 (xblk4 V c t) (ablk4 V c t) (wblk4 V c t) (bblk4 V c t) k4_pay1 := by
  have h1 : ¬t.val = 9 := by omega
  rw [outsAt4_A V c t h0 h1]; dsimp only
  exact sout4_A_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

/-- After a later point it holds what the point before left plus this tile's column sums. -/
theorem outs4_accS_next (c : Dev nD) (t : Fin cfg4.N) (h0 : ¬t.val = 0) :
    (outsAt4 V c t.val t.isLt).2.2.2.1 = k4_pay4 (xblk4 V c t) (ablk4 V c t) (wblk4 V c t) (bblk4 V c t) (outsAt4 V c (t.val - 1) (Nat.lt_of_le_of_lt (Nat.sub_le _ _) t.isLt)).2.2.2.1 := by
  by_cases h1 : t.val = 9
  · rw [outsAt4_C V c t h0 h1]; dsimp only
    exact sout4_C_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
  · rw [outsAt4_B V c t h0 h1]; dsimp only
    exact sout4_B_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- The same for the sum-of-squares accumulator. -/
theorem outs4_accQ_first (c : Dev nD) (t : Fin cfg4.N) (h0 : t.val = 0) :
    (outsAt4 V c t.val t.isLt).2.2.2.2 = k4_pay5 (xblk4 V c t) (ablk4 V c t) (wblk4 V c t) (bblk4 V c t) k4_pay2 := by
  have h1 : ¬t.val = 9 := by omega
  rw [outsAt4_A V c t h0 h1]; dsimp only
  exact sout4_A_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

theorem outs4_accQ_next (c : Dev nD) (t : Fin cfg4.N) (h0 : ¬t.val = 0) :
    (outsAt4 V c t.val t.isLt).2.2.2.2 = k4_pay5 (xblk4 V c t) (ablk4 V c t) (wblk4 V c t) (bblk4 V c t) (outsAt4 V c (t.val - 1) (Nat.lt_of_le_of_lt (Nat.sub_le _ _) t.isLt)).2.2.2.2 := by
  by_cases h1 : t.val = 9
  · rw [outsAt4_C V c t h0 h1]; dsimp only
    exact sout4_C_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
  · rw [outsAt4_B V c t h0 h1]; dsimp only
    exact sout4_B_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- At the last point each statistics output's buffer holds what its accumulator holds after that point. -/
theorem outs4_sum_last (c : Dev nD) (t : Fin cfg4.N) (h1 : t.val = 9) :
    (outsAt4 V c t.val t.isLt).2.1 = (outsAt4 V c t.val t.isLt).2.2.2.1 := by
  have h0 : ¬t.val = 0 := by omega
  rw [outsAt4_C V c t h0 h1]; dsimp only
  exact (out4_C_5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (sout4_C_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm

theorem outs4_sumsq_last (c : Dev nD) (t : Fin cfg4.N) (h1 : t.val = 9) :
    (outsAt4 V c t.val t.isLt).2.2.1 = (outsAt4 V c t.val t.isLt).2.2.2.2 := by
  have h0 : ¬t.val = 0 := by omega
  rw [outsAt4_C V c t h0 h1]; dsimp only
  exact (out4_C_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (sout4_C_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm

/-- The accumulators' recurrences, at the point numbers themselves. -/
theorem accS4_zero (c : Dev nD) (hn : 0 < cfg4.N) :
    (outsAt4 V c 0 hn).2.2.2.1 = k4_pay4 (xblk4 V c ⟨0, hn⟩) (ablk4 V c ⟨0, hn⟩) (wblk4 V c ⟨0, hn⟩) (bblk4 V c ⟨0, hn⟩) k4_pay1 :=
  outs4_accS_first V c ⟨0, hn⟩ rfl
theorem accS4_succ (c : Dev nD) (n : ℕ) (hn : n + 1 < cfg4.N) :
    (outsAt4 V c (n + 1) hn).2.2.2.1 = k4_pay4 (xblk4 V c ⟨n + 1, hn⟩) (ablk4 V c ⟨n + 1, hn⟩) (wblk4 V c ⟨n + 1, hn⟩) (bblk4 V c ⟨n + 1, hn⟩) (outsAt4 V c n (Nat.lt_of_succ_lt hn)).2.2.2.1 :=
  outs4_accS_next V c ⟨n + 1, hn⟩ (Nat.succ_ne_zero n)
theorem accQ4_zero (c : Dev nD) (hn : 0 < cfg4.N) :
    (outsAt4 V c 0 hn).2.2.2.2 = k4_pay5 (xblk4 V c ⟨0, hn⟩) (ablk4 V c ⟨0, hn⟩) (wblk4 V c ⟨0, hn⟩) (bblk4 V c ⟨0, hn⟩) k4_pay2 :=
  outs4_accQ_first V c ⟨0, hn⟩ rfl
theorem accQ4_succ (c : Dev nD) (n : ℕ) (hn : n + 1 < cfg4.N) :
    (outsAt4 V c (n + 1) hn).2.2.2.2 = k4_pay5 (xblk4 V c ⟨n + 1, hn⟩) (ablk4 V c ⟨n + 1, hn⟩) (wblk4 V c ⟨n + 1, hn⟩) (bblk4 V c ⟨n + 1, hn⟩) (outsAt4 V c n (Nat.lt_of_succ_lt hn)).2.2.2.2 :=
  outs4_accQ_next V c ⟨n + 1, hn⟩ (Nat.succ_ne_zero n)

end Pieces

/-! ## The blocks, read off the arrays -/

/-- The printed index maps, decided over the grid: the two row-tiled inputs and the row-tiled output are at row tile
    `t` at point `t`, on their one column tile; the weights', the bias's and the statistics' windows are their whole
    arrays. -/
theorem idx_facts4_0 : ∀ t : Fin cfg4.N, win4_0.index t (0 : Fin 2) = t.val ∧ win4_0.index t (1 : Fin 2) = 0 :=
  (by decide +kernel : ∀ t : Fin grid4.N, _)
theorem idx_facts4_1 : ∀ t : Fin cfg4.N, win4_1.index t (0 : Fin 2) = t.val ∧ win4_1.index t (1 : Fin 2) = 0 :=
  (by decide +kernel : ∀ t : Fin grid4.N, _)
theorem idx_facts4_4 : ∀ t : Fin cfg4.N, win4_4.index t (0 : Fin 2) = t.val ∧ win4_4.index t (1 : Fin 2) = 0 :=
  (by decide +kernel : ∀ t : Fin grid4.N, _)
theorem idx_facts4_2 : ∀ t : Fin cfg4.N, win4_2.index t (0 : Fin 2) = 0 ∧ win4_2.index t (1 : Fin 2) = 0 :=
  (by decide +kernel : ∀ t : Fin grid4.N, _)
theorem idx_facts4_3 : ∀ t : Fin cfg4.N, win4_3.index t (0 : Fin 2) = 0 ∧ win4_3.index t (1 : Fin 2) = 0 :=
  (by decide +kernel : ∀ t : Fin grid4.N, _)
theorem idx_facts4_5 : ∀ t : Fin cfg4.N, win4_5.index t (0 : Fin 2) = 0 ∧ win4_5.index t (1 : Fin 2) = 0 :=
  (by decide +kernel : ∀ t : Fin grid4.N, _)
theorem idx_facts4_6 : ∀ t : Fin cfg4.N, win4_6.index t (0 : Fin 2) = 0 ∧ win4_6.index t (1 : Fin 2) = 0 :=
  (by decide +kernel : ∀ t : Fin grid4.N, _)

theorem lt_N4 (t : Fin cfg4.N) : t.val < 10 := lt_of_lt_of_eq t.isLt N_4

/-- Row `p` of window 0's block at point `t` is row `5000 t + p` of its array. -/
theorem emb4_0 (t : Fin cfg4.N) (p : Fin 5000) (κ : Fin 128) (n : Fin 50000) (hn : n.val = 5000 * t.val + p.val) :
    ((cfg4.win 0).blk t).view.emb (ix2 p κ : S5000x128.Idx) = (ix2 n κ : S50000x128.Idx) := by
  obtain ⟨e0, e1⟩ := idx_facts4_0 t
  funext a; apply Fin.ext
  match a with
  | ⟨0, _⟩ => show win4_0.index t (0 : Fin 2) * 5000 + 1 * p.val = n.val; omega
  | ⟨1, _⟩ => show win4_0.index t (1 : Fin 2) * 128 + 1 * κ.val = κ.val; omega

/-- Row `p` of window 1's block at point `t` is row `5000 t + p` of its array. -/
theorem emb4_1 (t : Fin cfg4.N) (p : Fin 5000) (κ : Fin 128) (n : Fin 50000) (hn : n.val = 5000 * t.val + p.val) :
    ((cfg4.win 1).blk t).view.emb (ix2 p κ : S5000x128.Idx) = (ix2 n κ : S50000x128.Idx) := by
  obtain ⟨e0, e1⟩ := idx_facts4_1 t
  funext a; apply Fin.ext
  match a with
  | ⟨0, _⟩ => show win4_1.index t (0 : Fin 2) * 5000 + 1 * p.val = n.val; omega
  | ⟨1, _⟩ => show win4_1.index t (1 : Fin 2) * 128 + 1 * κ.val = κ.val; omega

/-- Window 2's block at every point is its whole array. -/
theorem emb4_2 (t : Fin cfg4.N) (u : Fin 128) (v : Fin 128) :
    ((cfg4.win 2).blk t).view.emb (ix2 u v : S128x128.Idx) = (ix2 u v : S128x128.Idx) := by
  obtain ⟨e0, e1⟩ := idx_facts4_2 t
  funext a; apply Fin.ext
  match a with
  | ⟨0, _⟩ => show win4_2.index t (0 : Fin 2) * 128 + 1 * u.val = u.val; omega
  | ⟨1, _⟩ => show win4_2.index t (1 : Fin 2) * 128 + 1 * v.val = v.val; omega

/-- Window 3's block at every point is its whole array. -/
theorem emb4_3 (t : Fin cfg4.N) (u : Fin 1) (v : Fin 128) :
    ((cfg4.win 3).blk t).view.emb (ix2 u v : S1x128.Idx) = (ix2 u v : S1x128.Idx) := by
  obtain ⟨e0, e1⟩ := idx_facts4_3 t
  funext a; apply Fin.ext
  match a with
  | ⟨0, _⟩ => show win4_3.index t (0 : Fin 2) * 1 + 1 * u.val = u.val; omega
  | ⟨1, _⟩ => show win4_3.index t (1 : Fin 2) * 128 + 1 * v.val = v.val; omega

/-- Row `p` of window 4's block at point `t` is row `5000 t + p` of its array. -/
theorem emb4_4 (t : Fin cfg4.N) (p : Fin 5000) (κ : Fin 128) (n : Fin 50000) (hn : n.val = 5000 * t.val + p.val) :
    ((cfg4.win 4).blk t).view.emb (ix2 p κ : S5000x128.Idx) = (ix2 n κ : S50000x128.Idx) := by
  obtain ⟨e0, e1⟩ := idx_facts4_4 t
  funext a; apply Fin.ext
  match a with
  | ⟨0, _⟩ => show win4_4.index t (0 : Fin 2) * 5000 + 1 * p.val = n.val; omega
  | ⟨1, _⟩ => show win4_4.index t (1 : Fin 2) * 128 + 1 * κ.val = κ.val; omega

/-- Window 5's block at every point is its whole array. -/
theorem emb4_5 (t : Fin cfg4.N) (u : Fin 1) (v : Fin 128) :
    ((cfg4.win 5).blk t).view.emb (ix2 u v : S1x128.Idx) = (ix2 u v : S1x128.Idx) := by
  obtain ⟨e0, e1⟩ := idx_facts4_5 t
  funext a; apply Fin.ext
  match a with
  | ⟨0, _⟩ => show win4_5.index t (0 : Fin 2) * 1 + 1 * u.val = u.val; omega
  | ⟨1, _⟩ => show win4_5.index t (1 : Fin 2) * 128 + 1 * v.val = v.val; omega

/-- Window 6's block at every point is its whole array. -/
theorem emb4_6 (t : Fin cfg4.N) (u : Fin 1) (v : Fin 128) :
    ((cfg4.win 6).blk t).view.emb (ix2 u v : S1x128.Idx) = (ix2 u v : S1x128.Idx) := by
  obtain ⟨e0, e1⟩ := idx_facts4_6 t
  funext a; apply Fin.ext
  match a with
  | ⟨0, _⟩ => show win4_6.index t (0 : Fin 2) * 1 + 1 * u.val = u.val; omega
  | ⟨1, _⟩ => show win4_6.index t (1 : Fin 2) * 128 + 1 * v.val = v.val; omega

/-! ## The arrays and what the outputs end holding -/

section Final
variable (V : (c : Dev nD) → (b : Ref sig .tc) → Buf (Elt Ideal) ((c : Thread nD τ).loc b))

/-- The three output arrays as the region leaves them: the table `H4`, its column sums, its column sums of squares. -/
def Gh4 (c : Dev nD) : S50000x128.Idx → EReal := fun i => H4 V c (i 0) (i 1)
def Gs4 (c : Dev nD) : S1x128.Idx → EReal := fun i => Gin.colSum (H4 V c) (i 1)
def Gq4 (c : Dev nD) : S1x128.Idx → EReal := fun i => Gin.colSum (fun n κ => H4 V c n κ * H4 V c n κ) (i 1)

/-- The tile of the linear map at point `t`, row `p`, column `q`, is row `5000 t + p` of `H4`: the payload at an index,
    each block read where its rectangle says. -/
theorem tile_h4 (c : Dev nD) (t : Fin cfg4.N) (p : Fin 5000) (q : Fin 128) :
    k4_pay3 (F := Ideal) (xblk4 V c t) (ablk4 V c t) (wblk4 V c t) (bblk4 V c t) (ix2 p q) = H4 V c (Gin.tileRow ⟨t.val, lt_N4 t⟩ p) q := by
  have hn : (Gin.tileRow ⟨t.val, lt_N4 t⟩ p).val = 5000 * t.val + p.val := rfl
  refine (pay4_3_apply (xblk4 V c t) (ablk4 V c t) (wblk4 V c t) (bblk4 V c t) p q).trans ?_
  have ex : (fun κ : Fin 128 => xblk4 V c t (ix2 p κ) + ablk4 V c t (ix2 p κ))
      = fun κ => Gin.ofArr2 (xArr4 V c) (Gin.tileRow ⟨t.val, lt_N4 t⟩ p) κ + Gin.ofArr2 (aggArr4 V c) (Gin.tileRow ⟨t.val, lt_N4 t⟩ p) κ :=
    funext fun κ => congrArg₂ (fun a b : EReal => a + b)
      (congrArg (xArr4 V c) (emb4_0 t p κ _ hn)) (congrArg (aggArr4 V c) (emb4_1 t p κ _ hn))
  have ew : Gin.ofArr2 (wblk4 V c t) = Gin.ofArr2 (w1Arr4 V c) :=
    funext fun u => funext fun v => congrArg (w1Arr4 V c) (emb4_2 t u v)
  have eb : Gin.ofArr2Row (bblk4 V c t) 0 = Gin.ofArr2Row (b1Arr4 V c) 0 :=
    funext fun v => congrArg (b1Arr4 V c) (emb4_3 t 0 v)
  rw [ex, ew, eb]
  rfl

/-- The column sums of tile `k` of `H4`, and of its squares (zero past the ten tiles). -/
def tsum4 (c : Dev nD) (k : ℕ) (q : Fin 128) : EReal :=
  if h : k < 10 then ∑ r : Fin 5000, H4 V c (Gin.tileRow ⟨k, h⟩ r) q else 0
def tsq4 (c : Dev nD) (k : ℕ) (q : Fin 128) : EReal :=
  if h : k < 10 then ∑ r : Fin 5000, H4 V c (Gin.tileRow ⟨k, h⟩ r) q * H4 V c (Gin.tileRow ⟨k, h⟩ r) q else 0

theorem tile_sum4 (c : Dev nD) (t : Fin cfg4.N) (q : Fin 128) :
    ∑ p : Fin 5000, k4_pay3 (F := Ideal) (xblk4 V c t) (ablk4 V c t) (wblk4 V c t) (bblk4 V c t) (ix2 p q) = tsum4 V c t.val q := by
  unfold tsum4; rw [dif_pos (lt_N4 t)]
  exact Finset.sum_congr rfl fun p _ => tile_h4 V c t p q
theorem tile_sq4 (c : Dev nD) (t : Fin cfg4.N) (q : Fin 128) :
    ∑ p : Fin 5000, k4_pay3 (F := Ideal) (xblk4 V c t) (ablk4 V c t) (wblk4 V c t) (bblk4 V c t) (ix2 p q) * k4_pay3 (F := Ideal) (xblk4 V c t) (ablk4 V c t) (wblk4 V c t) (bblk4 V c t) (ix2 p q) = tsq4 V c t.val q := by
  unfold tsq4; rw [dif_pos (lt_N4 t)]
  exact Finset.sum_congr rfl fun p _ => by rw [tile_h4 V c t p q]

/-- THE ACCUMULATION: after point `n` the first accumulator's column `q` is the sum over the tiles `0 … n` of the tile's
    column sum — by induction on the point. -/
theorem accS4_inv (c : Dev nD) : ∀ (n : ℕ) (hn : n < cfg4.N) (q : Fin 128),
    (outsAt4 (F := Ideal) V c n hn).2.2.2.1 (ix2 (0 : Fin 1) q) = ∑ k ∈ Finset.range (n + 1), tsum4 V c k q
  | 0, hn, q => by
    rw [Finset.sum_range_succ, Finset.sum_range_zero]
    refine (congrFun (accS4_zero V c hn) (ix2 (0 : Fin 1) q)).trans ?_
    refine (pay4_4_apply (xblk4 V c ⟨0, hn⟩) (ablk4 V c ⟨0, hn⟩) (wblk4 V c ⟨0, hn⟩) (bblk4 V c ⟨0, hn⟩) k4_pay1 q).trans ?_
    exact congrArg₂ (fun a b : EReal => a + b) (pay4_1_apply q) (tile_sum4 V c ⟨0, hn⟩ q)
  | n + 1, hn, q => by
    rw [Finset.sum_range_succ]
    refine (congrFun (accS4_succ V c n hn) (ix2 (0 : Fin 1) q)).trans ?_
    refine (pay4_4_apply (xblk4 V c ⟨n + 1, hn⟩) (ablk4 V c ⟨n + 1, hn⟩) (wblk4 V c ⟨n + 1, hn⟩) (bblk4 V c ⟨n + 1, hn⟩) _ q).trans ?_
    exact congrArg₂ (fun a b : EReal => a + b) (accS4_inv c n (Nat.lt_of_succ_lt hn) q) (tile_sum4 V c ⟨n + 1, hn⟩ q)

/-- The same for the second accumulator and the squares. -/
theorem accQ4_inv (c : Dev nD) : ∀ (n : ℕ) (hn : n < cfg4.N) (q : Fin 128),
    (outsAt4 (F := Ideal) V c n hn).2.2.2.2 (ix2 (0 : Fin 1) q) = ∑ k ∈ Finset.range (n + 1), tsq4 V c k q
  | 0, hn, q => by
    rw [Finset.sum_range_succ, Finset.sum_range_zero]
    refine (congrFun (accQ4_zero V c hn) (ix2 (0 : Fin 1) q)).trans ?_
    refine (pay4_5_apply (xblk4 V c ⟨0, hn⟩) (ablk4 V c ⟨0, hn⟩) (wblk4 V c ⟨0, hn⟩) (bblk4 V c ⟨0, hn⟩) k4_pay2 q).trans ?_
    exact congrArg₂ (fun a b : EReal => a + b) (pay4_2_apply q) (tile_sq4 V c ⟨0, hn⟩ q)
  | n + 1, hn, q => by
    rw [Finset.sum_range_succ]
    refine (congrFun (accQ4_succ V c n hn) (ix2 (0 : Fin 1) q)).trans ?_
    refine (pay4_5_apply (xblk4 V c ⟨n + 1, hn⟩) (ablk4 V c ⟨n + 1, hn⟩) (wblk4 V c ⟨n + 1, hn⟩) (bblk4 V c ⟨n + 1, hn⟩) _ q).trans ?_
    exact congrArg₂ (fun a b : EReal => a + b) (accQ4_inv c n (Nat.lt_of_succ_lt hn) q) (tile_sq4 V c ⟨n + 1, hn⟩ q)

/-- The ten tile sums are the column sum over all 50000 rows. -/
theorem sum_tsum4 (c : Dev nD) (q : Fin 128) : ∑ k ∈ Finset.range 10, tsum4 V c k q = Gs4 V c (ix2 (0 : Fin 1) q) := by
  show _ = Gin.colSum (H4 V c) q
  rw [Gin.colSum_tiles, Finset.sum_range]
  exact Finset.sum_congr rfl fun t _ => by unfold tsum4; rw [dif_pos t.isLt]
theorem sum_tsq4 (c : Dev nD) (q : Fin 128) : ∑ k ∈ Finset.range 10, tsq4 V c k q = Gq4 V c (ix2 (0 : Fin 1) q) := by
  show _ = Gin.colSum (fun n κ => H4 V c n κ * H4 V c n κ) q
  rw [Gin.colSum_tiles, Finset.sum_range]
  exact Finset.sum_congr rfl fun t _ => by unfold tsq4; rw [dif_pos t.isLt]

/-! ## From blocks to the arrays -/

/-- What point `t` writes back into the row-tiled output is block `t` of `Gh4`. -/
theorem flushed4_4_eq (c : Dev nD) (t : Fin cfg4.N) :
    (dat4 (F := Ideal) V c).flushed 4 t = ((cfg4.win 4).blk t).view.read (Elt Ideal) (Gh4 V c) := by
  show (cfg4.win 4).cut (grid4.coords t) ((dat4 (F := Ideal) V c).after 4 t) = _
  rw [after4_4, outs4_h V c t]
  funext y
  obtain ⟨p, j, rfl⟩ : ∃ (p : Fin 5000) (j : Fin 128), y = ix2 p j := ⟨y 0, y 1, eq_ix2 y⟩
  have hn : (Gin.tileRow ⟨t.val, lt_N4 t⟩ p).val = 5000 * t.val + p.val := rfl
  show k4_pay3 (F := Ideal) (xblk4 V c t) (ablk4 V c t) (wblk4 V c t) (bblk4 V c t) (ix2 p j) = Gh4 V c (((cfg4.win 4).blk t).view.emb (ix2 p j : S5000x128.Idx))
  rw [emb4_4 t p j _ hn]
  exact tile_h4 V c t p j

/-- An index of the output array is in point `t`'s block iff each coordinate is in the block's range on its axis. -/
theorem mem_blk4_4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v87_0).slice (win4_4.rect t)).set ↔ _
  rw [View.set_slice_whole, Rect.mem_set_unit]
  exact Iff.rfl

/-- Every row of the output array is in some point's block: row `r` in that of point `r / 5000`. -/
theorem covered4_4 (i : S50000x128.Idx) :
    ∃ t : Fin cfg4.N, (cfg4.win 4).flush t = true ∧ i ∈ ((cfg4.win 4).blk t).view.set := by
  have hi0 : (i 0).val < 50000 := idx2_lt0 i
  have hi1 : (i 1).val < 128 := idx2_lt1 i
  have hN : cfg4.N = 10 := N_4
  let t : Fin cfg4.N := ⟨(i 0).val / 5000, by rw [hN]; omega⟩
  have htv : t.val = (i 0).val / 5000 := rfl
  obtain ⟨e0, e1⟩ := idx_facts4_4 t
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The row-tiled output array after the region, whole. -/
theorem val4_4_arr (c : Dev nD) : (dat4 (F := Ideal) V c).arrAt 4 cfg4.N = Gh4 V c :=
  (dat4 (F := Ideal) V c).arrAt_eq_of_cover 4 (Gh4 V c) (fun t _ => flushed4_4_eq V c t) covered4_4

-- (unifying the block's read with the row at an index unfolds the window's literal index map deeply)
set_option maxRecDepth 65536 in
/-- What the last point writes back into the column-sum output is the whole row `Gs4`. -/
theorem flushed4_5_eq (c : Dev nD) (t : Fin cfg4.N) (hf : (cfg4.win 5).flush t = true) :
    (dat4 (F := Ideal) V c).flushed 5 t = ((cfg4.win 5).blk t).view.read (Elt Ideal) (Gs4 V c) := by
  have hN := lt_N4 t
  have h9 : t.val = 9 := by have := (flush4_5 t).mp hf; omega
  show (cfg4.win 5).cut (grid4.coords t) ((dat4 (F := Ideal) V c).after 5 t) = _
  rw [after4_5, outs4_sum_last V c t h9]
  have hacc : ∀ q : Fin 128, (outsAt4 (F := Ideal) V c t.val t.isLt).2.2.2.1 (ix2 (0 : Fin 1) q) = Gs4 V c (ix2 (0 : Fin 1) q) := fun q => by
    refine (accS4_inv V c t.val t.isLt q).trans ?_
    have e : t.val + 1 = 10 := by omega
    rw [e]
    exact sum_tsum4 V c q
  generalize (outsAt4 (F := Ideal) V c t.val t.isLt).2.2.2.1 = acc at hacc ⊢
  funext y
  obtain ⟨u, q, rfl⟩ : ∃ (u : Fin 1) (q : Fin 128), y = ix2 u q := ⟨y 0, y 1, eq_ix2 y⟩
  show acc (ix2 u q) = Gs4 V c (((cfg4.win 5).blk t).view.emb (ix2 u q : S1x128.Idx))
  rw [emb4_5 t u q]
  obtain rfl : u = 0 := Subsingleton.elim _ _
  exact hacc q

/-- An index of that array is in point `t`'s block iff each coordinate is in the block's range on its axis. -/
theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v87_1).slice (win4_5.rect t)).set ↔ _
  rw [View.set_slice_whole, Rect.mem_set_unit]
  exact Iff.rfl

/-- The one block the last point writes back is the whole row. -/
theorem covered4_5 (i : S1x128.Idx) :
    ∃ t : Fin cfg4.N, (cfg4.win 5).flush t = true ∧ i ∈ ((cfg4.win 5).blk t).view.set := by
  have hi0 : (i 0).val < 1 := idx2_lt0 i
  have hi1 : (i 1).val < 128 := idx2_lt1 i
  obtain ⟨e0, e1⟩ := idx_facts4_5 t4_9
  refine ⟨t4_9, (flush4_5 t4_9).mpr rfl, ?_⟩
  rw [mem_blk4_5]
  intro a
  match a with
  | ⟨0, _⟩ => show win4_5.index t4_9 (0 : Fin 2) * 1 ≤ (i 0).val ∧ (i 0).val < win4_5.index t4_9 (0 : Fin 2) * 1 + 1; omega
  | ⟨1, _⟩ => show win4_5.index t4_9 (1 : Fin 2) * 128 ≤ (i 1).val ∧ (i 1).val < win4_5.index t4_9 (1 : Fin 2) * 128 + 128; omega

/-- The column-sum output after the region, whole. -/
theorem val4_5_arr (c : Dev nD) : (dat4 (F := Ideal) V c).arrAt 5 cfg4.N = Gs4 V c :=
  (dat4 (F := Ideal) V c).arrAt_eq_of_cover 5 (Gs4 V c) (flushed4_5_eq V c) covered4_5

set_option maxRecDepth 65536 in
/-- What the last point writes back into the sum-of-squares output is the whole row `Gq4`. -/
theorem flushed4_6_eq (c : Dev nD) (t : Fin cfg4.N) (hf : (cfg4.win 6).flush t = true) :
    (dat4 (F := Ideal) V c).flushed 6 t = ((cfg4.win 6).blk t).view.read (Elt Ideal) (Gq4 V c) := by
  have hN := lt_N4 t
  have h9 : t.val = 9 := by have := (flush4_6 t).mp hf; omega
  show (cfg4.win 6).cut (grid4.coords t) ((dat4 (F := Ideal) V c).after 6 t) = _
  rw [after4_6, outs4_sumsq_last V c t h9]
  have hacc : ∀ q : Fin 128, (outsAt4 (F := Ideal) V c t.val t.isLt).2.2.2.2 (ix2 (0 : Fin 1) q) = Gq4 V c (ix2 (0 : Fin 1) q) := fun q => by
    refine (accQ4_inv V c t.val t.isLt q).trans ?_
    have e : t.val + 1 = 10 := by omega
    rw [e]
    exact sum_tsq4 V c q
  generalize (outsAt4 (F := Ideal) V c t.val t.isLt).2.2.2.2 = acc at hacc ⊢
  funext y
  obtain ⟨u, q, rfl⟩ : ∃ (u : Fin 1) (q : Fin 128), y = ix2 u q := ⟨y 0, y 1, eq_ix2 y⟩
  show acc (ix2 u q) = Gq4 V c (((cfg4.win 6).blk t).view.emb (ix2 u q : S1x128.Idx))
  rw [emb4_6 t u q]
  obtain rfl : u = 0 := Subsingleton.elim _ _
  exact hacc q

/-- An index of that array is in point `t`'s block iff each coordinate is in the block's range on its axis. -/
theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v87_2).slice (win4_6.rect t)).set ↔ _
  rw [View.set_slice_whole, Rect.mem_set_unit]
  exact Iff.rfl

/-- The one block the last point writes back is the whole row. -/
theorem covered4_6 (i : S1x128.Idx) :
    ∃ t : Fin cfg4.N, (cfg4.win 6).flush t = true ∧ i ∈ ((cfg4.win 6).blk t).view.set := by
  have hi0 : (i 0).val < 1 := idx2_lt0 i
  have hi1 : (i 1).val < 128 := idx2_lt1 i
  obtain ⟨e0, e1⟩ := idx_facts4_6 t4_9
  refine ⟨t4_9, (flush4_6 t4_9).mpr rfl, ?_⟩
  rw [mem_blk4_6]
  intro a
  match a with
  | ⟨0, _⟩ => show win4_6.index t4_9 (0 : Fin 2) * 1 ≤ (i 0).val ∧ (i 0).val < win4_6.index t4_9 (0 : Fin 2) * 1 + 1; omega
  | ⟨1, _⟩ => show win4_6.index t4_9 (1 : Fin 2) * 128 ≤ (i 1).val ∧ (i 1).val < win4_6.index t4_9 (1 : Fin 2) * 128 + 128; omega

/-- The sum-of-squares output after the region, whole. -/
theorem val4_6_arr (c : Dev nD) : (dat4 (F := Ideal) V c).arrAt 6 cfg4.N = Gq4 V c :=
  (dat4 (F := Ideal) V c).arrAt_eq_of_cover 6 (Gq4 V c) (flushed4_6_eq V c) covered4_6

end Final

theorem val4_h (V : (c : Dev nD) → (b : Ref sig .tc) → Buf (Elt Ideal) ((c : Thread nD τ).loc b)) (c : Dev nD) (n : Fin 50000) (j : Fin 128) :
    ((dat4 (F := Ideal) V c).arrAt 4 cfg4.N : S50000x128.Idx → EReal) (ix2 n j) = H4 V c n j := by
  rw [val4_4_arr]
  rfl

theorem val4_sum (V : (c : Dev nD) → (b : Ref sig .tc) → Buf (Elt Ideal) ((c : Thread nD τ).loc b)) (c : Dev nD) (j : Fin 128) :
    ((dat4 (F := Ideal) V c).arrAt 5 cfg4.N : S1x128.Idx → EReal) (ix2 0 j) = Gin.colSum (H4 V c) j := by
  rw [val4_5_arr]
  rfl

theorem val4_sumsq (V : (c : Dev nD) → (b : Ref sig .tc) → Buf (Elt Ideal) ((c : Thread nD τ).loc b)) (c : Dev nD) (j : Fin 128) :
    ((dat4 (F := Ideal) V c).arrAt 6 cfg4.N : S1x128.Idx → EReal) (ix2 0 j)
      = Gin.colSum (fun n κ => H4 V c n κ * H4 V c n κ) j := by
  rw [val4_6_arr]
  rfl

end Cert.KernelIdeal.Val

end
-- ==== Proof.KI.Val4.lean ====
/-
  What region 4 leaves in its three output arrays, at the ideal values.
-/
import proofs.«430410_j38371237822819_1_alg».proof.Proof.KI.Val4H
-- ==== Proof.KI.Val5.lean ====
/-
  What region 5 (a layer's normalisation, rectifier and second linear map) leaves in its output array, at the ideal values, whatever the core's buffers hold when the region is entered.
-/
import proofs.«430410_j38371237822819_1_alg».proof.Proof.KI.Reg5
import proofs.«430410_j38371237822819_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## The matrix product's operand indices -/

/-- The dimension numbers of the block's product: rows by the contraction, the contraction by columns. -/
abbrev mm5 : DotDims S5000x128 S128x128 S5000x128 := dot_S5000x128_S128x128_S5000x128_1_0_0_1_n_n

/-- The left operand is read at the output's row, -/
theorem mm5_lhs_0 (i : S5000x128.Idx) (q : mm5.contr.Idx) : (mm5.lhsIdx i q 0).val = (i 0).val := by
  unfold DotDims.lhsIdx
  rw [dif_neg (show ¬(0 : Fin S5000x128.rank) ∈ mm5.lhsBatch by decide), dif_pos (show (0 : Fin S5000x128.rank) ∈ mm5.lhsNonContracting by decide)]
  rfl
/-- and at the contraction index; -/
theorem mm5_lhs_1 (i : S5000x128.Idx) (q : mm5.contr.Idx) : (mm5.lhsIdx i q 1).val = (q ⟨0, by decide⟩).val :=
  mm5.lhsIdx_val_of_single rfl i q
/-- the right operand at the contraction index, -/
theorem mm5_rhs_0 (i : S5000x128.Idx) (q : mm5.contr.Idx) : (mm5.rhsIdx i q 0).val = (q ⟨0, by decide⟩).val :=
  mm5.rhsIdx_val_of_single rfl i q
/-- and at the output's column. -/
theorem mm5_rhs_1 (i : S5000x128.Idx) (q : mm5.contr.Idx) : (mm5.rhsIdx i q 1).val = (i 1).val := by
  unfold DotDims.rhsIdx
  rw [dif_neg (show ¬(1 : Fin S128x128.rank) ∈ mm5.rhsBatch by decide), dif_pos (show (1 : Fin S128x128.rank) ∈ mm5.rhsNonContracting by decide)]
  rfl

/-- The contraction index with coordinate k reads the left operand at (p, k) -/
theorem mm5_lidx (p : Fin 5000) (q : Fin 128) (k : Fin 128) :
    mm5.lhsIdx (ix2 p q) ((contrEquiv1 mm5 128 rfl rfl).symm k) = ix2 p k := by
  have hk := contrEquiv1_symm_val mm5 128 rfl rfl k
  exact funext fun a => Fin.ext (by
    match a with
    | ⟨0, _⟩ => exact mm5_lhs_0 _ _
    | ⟨1, _⟩ => exact (mm5_lhs_1 _ _).trans hk)
/-- and the right operand at (k, q). -/
theorem mm5_ridx (p : Fin 5000) (q : Fin 128) (k : Fin 128) :
    mm5.rhsIdx (ix2 p q) ((contrEquiv1 mm5 128 rfl rfl).symm k) = ix2 k q := by
  have hk := contrEquiv1_symm_val mm5 128 rfl rfl k
  exact funext fun a => Fin.ext (by
    match a with
    | ⟨0, _⟩ => exact (mm5_rhs_0 _ _).trans hk
    | ⟨1, _⟩ => exact mm5_rhs_1 _ _)

/-! ## The payload at an index -/

/-- The reciprocal square root of a vector, read at an index. -/
theorem rsqrt5_apply {s : Shape} {φ : FTy} (a : FVec Ideal s φ) (i : s.Idx) : rsqrt a i = Ideal.rsqrt (a i) := rfl

/-- The stored value at row p, column q of a block: the row p of the tile normalised with the column statistics, scaled,
    shifted and rectified, then its product with column q of the weights plus the bias, rectified. -/
theorem pay5_apply (x0 : Vec Ideal S5000x128 .f32) (xg xm xv xb : Vec Ideal S1x128 .f32) (xw : Vec Ideal S128x128 .f32)
    (xc : Vec Ideal S1x128 .f32) (p : Fin 5000) (q : Fin 128) :
    k5_pay1 (F := Ideal) x0 xg xm xv xb xw xc (ix2 p q)
      = Gin.relu ((∑ κ : Fin 128, Gin.relu (xg (ix2 0 κ) * (x0 (ix2 p κ) - xm (ix2 0 κ)) * Ideal.rsqrt (xv (ix2 0 κ) + Gin.bnEps) + xb (ix2 0 κ)) * xw (ix2 κ q))
          + xc (ix2 0 q)) := by
  unfold k5_pay1
  simp only [shapeCast_self]
  rw [maximumf_apply, addf_apply, broadcast_apply, broadcastTo_1b_ab_apply]
  simp only [matmul]
  rw [Ideal.matmul_constant_zero_apply, ← Equiv.sum_comp (contrEquiv1 mm5 128 rfl rfl).symm]
  have hz0 : (FloatOps.ofBits (F := Ideal) FTy.f32 0x00000000#32) = 0 := Ideal.ofBits_zero_f32
  rw [hz0]
  unfold Gin.relu
  refine congrArg (fun s => max (s + xc (ix2 0 q)) 0) (Finset.sum_congr rfl fun k _ => ?_)
  rw [mm5_lidx, mm5_ridx]
  simp only [truncf_apply, maximumf_apply, addf_apply, mulf_apply, subf_apply, broadcast_apply, broadcastTo_1b_ab_apply, rsqrt5_apply, hz0, Gin.bnEps_def]
  rfl

/-! ## The region's input arrays as the region finds them, each at its literal type -/

/-- The node table, the column means, the column variances, the scale, the shift, the weight matrix and the bias. -/
abbrev hArr5 (V : (c : Dev nD) → (b : Ref sig .tc) → Buf (Elt Ideal) ((c : Thread nD τ).loc b)) (c : Dev nD) : S50000x128.Idx → EReal := V c (Pipeline.arrRef spec5 0)
abbrev muArr5 (V : (c : Dev nD) → (b : Ref sig .tc) → Buf (Elt Ideal) ((c : Thread nD τ).loc b)) (c : Dev nD) : S1x128.Idx → EReal := V c (Pipeline.arrRef spec5 1)
abbrev varArr5 (V : (c : Dev nD) → (b : Ref sig .tc) → Buf (Elt Ideal) ((c : Thread nD τ).loc b)) (c : Dev nD) : S1x128.Idx → EReal := V c (Pipeline.arrRef spec5 2)
abbrev gArr5 (V : (c : Dev nD) → (b : Ref sig .tc) → Buf (Elt Ideal) ((c : Thread nD τ).loc b)) (c : Dev nD) : S1x128.Idx → EReal := V c (Pipeline.arrRef spec5 3)
abbrev bbArr5 (V : (c : Dev nD) → (b : Ref sig .tc) → Buf (Elt Ideal) ((c : Thread nD τ).loc b)) (c : Dev nD) : S1x128.Idx → EReal := V c (Pipeline.arrRef spec5 4)
abbrev w2Arr5 (V : (c : Dev nD) → (b : Ref sig .tc) → Buf (Elt Ideal) ((c : Thread nD τ).loc b)) (c : Dev nD) : S128x128.Idx → EReal := V c (Pipeline.arrRef spec5 5)
abbrev b2Arr5 (V : (c : Dev nD) → (b : Ref sig .tc) → Buf (Elt Ideal) ((c : Thread nD τ).loc b)) (c : Dev nD) : S1x128.Idx → EReal := V c (Pipeline.arrRef spec5 6)

/-! ## The blocks, read where their rectangles say -/

section Region
-- the contents of the core's buffers when the region is entered
variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: the row-tiled windows 0 and 7 are at block (t, 0) at point t, every
    other window at block (0, 0). -/
theorem idx_facts5 : ∀ t : Fin cfg5.N,
    win5_0.index t (0 : Fin 2) = t.val ∧ win5_0.index t (1 : Fin 2) = 0
    ∧ win5_7.index t (0 : Fin 2) = t.val ∧ win5_7.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- Row p of the row tile of point t is row 5000 t + p of the node table. -/
def row5 (t : Fin cfg5.N) (p : Fin 5000) : Fin 50000 :=
  ⟨5000 * t.val + p.val, by have hN : grid5.N = 10 := N_5; have ht : t.val < grid5.N := t.isLt; have := p.isLt; omega⟩

theorem row5_val (t : Fin cfg5.N) (p : Fin 5000) : (row5 t p).val = 5000 * t.val + p.val := rfl

/-- Window 0's block at point t is rows 5000 t … 5000 t + 4999 of the node table. -/
theorem iblk5_0_apply (c : Dev nD) (t : Fin cfg5.N) (p : Fin 5000) (q : Fin 128) :
    (iblk5 V c 0 t : Vec Ideal S5000x128 .f32) (ix2 p q) = hArr5 V c (ix2 (row5 t p) q) := by
  obtain ⟨e0, e1, -⟩ := idx_facts5 t
  unfold iblk5
  rw [View.read_apply]
  have h : ((cfg5.win 0).blk t).view.emb (ix2 p q) = ix2 (row5 t p) q := by
    funext a; apply Fin.ext
    match a with
    | ⟨0, _⟩ => show win5_0.index t (0 : Fin 2) * 5000 + 1 * p.val = 5000 * t.val + p.val; rw [e0]; omega
    | ⟨1, _⟩ => show win5_0.index t (1 : Fin 2) * 128 + 1 * q.val = q.val; rw [e1]; omega
  show V c (Pipeline.arrRef spec5 0) (((cfg5.win 0).blk t).view.emb (ix2 p q)) = _
  rw [h]

/-- Window 1's block at every point is its whole one-row array. -/
theorem iblk5_1_apply (c : Dev nD) (t : Fin cfg5.N) (q : Fin 128) :
    (iblk5 V c 1 t : Vec Ideal S1x128 .f32) (ix2 (0 : Fin 1) q) = muArr5 V c (ix2 (0 : Fin 1) q) := by
  have e0 := (idx_facts5 t).2.2.2.2.1
  have e1 := (idx_facts5 t).2.2.2.2.2.1
  unfold iblk5
  rw [View.read_apply]
  have h : ((cfg5.win 1).blk t).view.emb (ix2 (0 : Fin 1) q) = ix2 (0 : Fin 1) q := by
    funext a; apply Fin.ext
    match a with
    | ⟨0, _⟩ => show win5_1.index t (0 : Fin 2) * 1 + 1 * 0 = 0; rw [e0]
    | ⟨1, _⟩ => show win5_1.index t (1 : Fin 2) * 128 + 1 * q.val = q.val; rw [e1]; omega
  show V c (Pipeline.arrRef spec5 1) (((cfg5.win 1).blk t).view.emb (ix2 (0 : Fin 1) q)) = _
  rw [h]

/-- Window 2's block at every point is its whole one-row array. -/
theorem iblk5_2_apply (c : Dev nD) (t : Fin cfg5.N) (q : Fin 128) :
    (iblk5 V c 2 t : Vec Ideal S1x128 .f32) (ix2 (0 : Fin 1) q) = varArr5 V c (ix2 (0 : Fin 1) q) := by
  have e0 := (idx_facts5 t).2.2.2.2.2.2.1
  have e1 := (idx_facts5 t).2.2.2.2.2.2.2.1
  unfold iblk5
  rw [View.read_apply]
  have h : ((cfg5.win 2).blk t).view.emb (ix2 (0 : Fin 1) q) = ix2 (0 : Fin 1) q := by
    funext a; apply Fin.ext
    match a with
    | ⟨0, _⟩ => show win5_2.index t (0 : Fin 2) * 1 + 1 * 0 = 0; rw [e0]
    | ⟨1, _⟩ => show win5_2.index t (1 : Fin 2) * 128 + 1 * q.val = q.val; rw [e1]; omega
  show V c (Pipeline.arrRef spec5 2) (((cfg5.win 2).blk t).view.emb (ix2 (0 : Fin 1) q)) = _
  rw [h]

/-- Window 3's block at every point is its whole one-row array. -/
theorem iblk5_3_apply (c : Dev nD) (t : Fin cfg5.N) (q : Fin 128) :
    (iblk5 V c 3 t : Vec Ideal S1x128 .f32) (ix2 (0 : Fin 1) q) = gArr5 V c (ix2 (0 : Fin 1) q) := by
  have e0 := (idx_facts5 t).2.2.2.2.2.2.2.2.1
  have e1 := (idx_facts5 t).2.2.2.2.2.2.2.2.2.1
  unfold iblk5
  rw [View.read_apply]
  have h : ((cfg5.win 3).blk t).view.emb (ix2 (0 : Fin 1) q) = ix2 (0 : Fin 1) q := by
    funext a; apply Fin.ext
    match a with
    | ⟨0, _⟩ => show win5_3.index t (0 : Fin 2) * 1 + 1 * 0 = 0; rw [e0]
    | ⟨1, _⟩ => show win5_3.index t (1 : Fin 2) * 128 + 1 * q.val = q.val; rw [e1]; omega
  show V c (Pipeline.arrRef spec5 3) (((cfg5.win 3).blk t).view.emb (ix2 (0 : Fin 1) q)) = _
  rw [h]

/-- Window 4's block at every point is its whole one-row array. -/
theorem iblk5_4_apply (c : Dev nD) (t : Fin cfg5.N) (q : Fin 128) :
    (iblk5 V c 4 t : Vec Ideal S1x128 .f32) (ix2 (0 : Fin 1) q) = bbArr5 V c (ix2 (0 : Fin 1) q) := by
  have e0 := (idx_facts5 t).2.2.2.2.2.2.2.2.2.2.1
  have e1 := (idx_facts5 t).2.2.2.2.2.2.2.2.2.2.2.1
  unfold iblk5
  rw [View.read_apply]
  have h : ((cfg5.win 4).blk t).view.emb (ix2 (0 : Fin 1) q) = ix2 (0 : Fin 1) q := by
    funext a; apply Fin.ext
    match a with
    | ⟨0, _⟩ => show win5_4.index t (0 : Fin 2) * 1 + 1 * 0 = 0; rw [e0]
    | ⟨1, _⟩ => show win5_4.index t (1 : Fin 2) * 128 + 1 * q.val = q.val; rw [e1]; omega
  show V c (Pipeline.arrRef spec5 4) (((cfg5.win 4).blk t).view.emb (ix2 (0 : Fin 1) q)) = _
  rw [h]

/-- Window 6's block at every point is its whole one-row array. -/
theorem iblk5_6_apply (c : Dev nD) (t : Fin cfg5.N) (q : Fin 128) :
    (iblk5 V c 6 t : Vec Ideal S1x128 .f32) (ix2 (0 : Fin 1) q) = b2Arr5 V c (ix2 (0 : Fin 1) q) := by
  have e0 := (idx_facts5 t).2.2.2.2.2.2.2.2.2.2.2.2.2.2.1
  have e1 := (idx_facts5 t).2.2.2.2.2.2.2.2.2.2.2.2.2.2.2
  unfold iblk5
  rw [View.read_apply]
  have h : ((cfg5.win 6).blk t).view.emb (ix2 (0 : Fin 1) q) = ix2 (0 : Fin 1) q := by
    funext a; apply Fin.ext
    match a with
    | ⟨0, _⟩ => show win5_6.index t (0 : Fin 2) * 1 + 1 * 0 = 0; rw [e0]
    | ⟨1, _⟩ => show win5_6.index t (1 : Fin 2) * 128 + 1 * q.val = q.val; rw [e1]; omega
  show V c (Pipeline.arrRef spec5 6) (((cfg5.win 6).blk t).view.emb (ix2 (0 : Fin 1) q)) = _
  rw [h]

/-- Window 5's block at every point is the whole weight matrix. -/
theorem iblk5_5_apply (c : Dev nD) (t : Fin cfg5.N) (k : Fin 128) (q : Fin 128) :
    (iblk5 V c 5 t : Vec Ideal S128x128 .f32) (ix2 k q) = w2Arr5 V c (ix2 k q) := by
  have e0 := (idx_facts5 t).2.2.2.2.2.2.2.2.2.2.2.2.1
  have e1 := (idx_facts5 t).2.2.2.2.2.2.2.2.2.2.2.2.2.1
  unfold iblk5
  rw [View.read_apply]
  have h : ((cfg5.win 5).blk t).view.emb (ix2 k q) = ix2 k q := by
    funext a; apply Fin.ext
    match a with
    | ⟨0, _⟩ => show win5_5.index t (0 : Fin 2) * 128 + 1 * k.val = k.val; rw [e0]; omega
    | ⟨1, _⟩ => show win5_5.index t (1 : Fin 2) * 128 + 1 * q.val = q.val; rw [e1]; omega
  show V c (Pipeline.arrRef spec5 5) (((cfg5.win 5).blk t).view.emb (ix2 k q)) = _
  rw [h]

/-! ## From the blocks to the array -/

/-- What the output array ends holding: every row of the node table normalised with the column statistics, scaled,
    shifted, rectified, sent through the second linear map and rectified. -/
def G5 (c : Dev nD) : S50000x128.Idx → EReal :=
  Gin.toArr2 (Gin.bnApply (Gin.ofArr2 (hArr5 V c)) (Gin.ofArr2Row (muArr5 V c) 0) (Gin.ofArr2Row (varArr5 V c) 0)
    (Gin.ofArr2Row (gArr5 V c) 0) (Gin.ofArr2Row (bbArr5 V c) 0) (Gin.ofArr2 (w2Arr5 V c)) (Gin.ofArr2Row (b2Arr5 V c) 0))

/-- What point t writes back is block t of that array. -/
theorem flushed5_eq (c : Dev nD) (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz5]
  simp only [View.ld_unit_zero (S := S5000x128) hz5, View.ld_unit_zero (S := S1x128) hz5, View.ld_unit_zero (S := S128x128) hz5]
  funext y
  obtain ⟨p, q, rfl⟩ : ∃ (p : Fin 5000) (q : Fin 128), y = ix2 p q := ⟨y 0, y 1, eq_ix2 y⟩
  refine (pay5_apply _ _ _ _ _ _ _ p q).trans ?_
  rw [View.read_apply]
  obtain ⟨-, -, e0, e1, -⟩ := idx_facts5 t
  have h : ((cfg5.win 7).blk t).view.emb (ix2 p q) = ix2 (row5 t p) q := by
    funext a; apply Fin.ext
    match a with
    | ⟨0, _⟩ => show win5_7.index t (0 : Fin 2) * 5000 + 1 * p.val = 5000 * t.val + p.val; rw [e0]; omega
    | ⟨1, _⟩ => show win5_7.index t (1 : Fin 2) * 128 + 1 * q.val = q.val; rw [e1]; omega
  rw [h]
  simp only [iblk5_0_apply, iblk5_1_apply, iblk5_2_apply, iblk5_3_apply, iblk5_4_apply, iblk5_5_apply, iblk5_6_apply]
  rfl

/-- An index of the array is in point t's block iff each coordinate is in the block's range on its axis. -/
theorem mem_blk5 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole (Pipeline.arrRef spec5 7)).slice (win5_7.rect t)).set ↔ _
  rw [View.set_slice_whole, Rect.mem_set_unit]
  exact Iff.rfl

/-- Every row r of the array is in the block of point r / 5000, which writes it back. -/
theorem cover5 (i : S50000x128.Idx) : ∃ t : Fin cfg5.N, (cfg5.win 7).flush t = true ∧ i ∈ ((cfg5.win 7).blk t).view.set := by
  have hi0 : (i 0).val < 50000 := (i 0).isLt
  have hi1 : (i 1).val < 128 := (i 1).isLt
  have hN : grid5.N = 10 := N_5
  have ht : (i 0).val / 5000 < grid5.N := by omega
  refine ⟨⟨(i 0).val / 5000, ht⟩, flush5_7 _, ?_⟩
  rw [mem_blk5]
  obtain ⟨-, -, e0, e1, -⟩ := idx_facts5 ⟨(i 0).val / 5000, ht⟩
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_7.index ⟨(i 0).val / 5000, ht⟩ (1 : Fin 2) * 128 ≤ (i 1).val ∧ (i 1).val < win5_7.index ⟨(i 0).val / 5000, ht⟩ (1 : Fin 2) * 128 + 128
    rw [e1]; omega

/-- So the output array after the region is that array, -/
theorem final5 (c : Dev nD) : (dat5 V c).arrAt 7 cfg5.N = G5 V c :=
  (dat5 V c).arrAt_eq_of_cover 7 (G5 V c) (fun t _ => flushed5_eq V c t) cover5

end Region

/-- Read at row n, column j, the output array after the region is the layer's second half of the region-entry arrays. -/
theorem val5 (V : (c : Dev nD) → (b : Ref sig .tc) → Buf (Elt Ideal) ((c : Thread nD τ).loc b)) (c : Dev nD) (n : Fin 50000) (j : Fin 128) :
    ((dat5 (F := Ideal) V c).arrAt 7 cfg5.N : S50000x128.Idx → EReal) (ix2 n j)
      = Gin.bnApply (Gin.ofArr2 (hArr5 V c)) (Gin.ofArr2Row (muArr5 V c) 0) (Gin.ofArr2Row (varArr5 V c) 0)
          (Gin.ofArr2Row (gArr5 V c) 0) (Gin.ofArr2Row (bbArr5 V c) 0) (Gin.ofArr2 (w2Arr5 V c)) (Gin.ofArr2Row (b2Arr5 V c) 0) n j :=
  (congrFun (final5 V c) (ix2 n j)).trans rfl

end Cert.KernelIdeal.Val

end
-- ==== Proof.KI.Val7.lean ====
/-
  What region 7 (the pooling by a one-hot product accumulated over row tiles, then the final two-layer map) leaves in its output array, at the ideal values, whatever the core's buffers hold when the region is entered.
-/
import proofs.«430410_j38371237822819_1_alg».proof.Proof.KI.Reg7
import proofs.«430410_j38371237822819_1_alg».proof.Proof.Spec
import proofs.«430410_j38371237822819_1_alg».proof.Proof.Math
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

abbrev xArr7 (V : (c : Dev nD) → (b : Ref sig .tc) → Buf (Elt Ideal) ((c : Thread nD τ).loc b)) (c : Dev nD) : S50000x128.Idx → EReal := V c (Pipeline.arrRef spec7 0)
abbrev ohArr7 (V : (c : Dev nD) → (b : Ref sig .tc) → Buf (Elt Ideal) ((c : Thread nD τ).loc b)) (c : Dev nD) : S50000x64.Idx → EReal := V c (Pipeline.arrRef spec7 1)
abbrev w1Arr7 (V : (c : Dev nD) → (b : Ref sig .tc) → Buf (Elt Ideal) ((c : Thread nD τ).loc b)) (c : Dev nD) : S128x128.Idx → EReal := V c (Pipeline.arrRef spec7 2)
abbrev b1Arr7 (V : (c : Dev nD) → (b : Ref sig .tc) → Buf (Elt Ideal) ((c : Thread nD τ).loc b)) (c : Dev nD) : S1x128.Idx → EReal := V c (Pipeline.arrRef spec7 3)
abbrev w2Arr7 (V : (c : Dev nD) → (b : Ref sig .tc) → Buf (Elt Ideal) ((c : Thread nD τ).loc b)) (c : Dev nD) : S128x64.Idx → EReal := V c (Pipeline.arrRef spec7 4)
abbrev b2Arr7 (V : (c : Dev nD) → (b : Ref sig .tc) → Buf (Elt Ideal) ((c : Thread nD τ).loc b)) (c : Dev nD) : S1x64.Idx → EReal := V c (Pipeline.arrRef spec7 5)

/-- The weighted column sums: graph g, feature j gets the sum over the rows of the weight of row n for g times x n j. -/
def P7 (V : (c : Dev nD) → (b : Ref sig .tc) → Buf (Elt Ideal) ((c : Thread nD τ).loc b)) (c : Dev nD) : Fin 64 → Gin.Row :=
  fun g j => ∑ n : Fin 50000, ohArr7 V c (ix2 n g) * xArr7 V c (ix2 n j)

namespace R7

section Pieces

variable {F : FTy → Type} [FloatOps F]

/-- The offsets of every access of the body: zero on both axes. -/
theorem hz : (![0, 0] : Fin 2 → Nat) = fun _ => 0 := funext fun a => by fin_cases a <;> rfl

/-- A middle point leaves in the accumulator the tile's product added to what it held. -/
theorem sout7_B_0_eq (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    sout7_B_0 c i arg1 harg1 arg2 harg2 arg3 harg3 arg4 harg4 arg5 harg5 arg6 harg6 arg7 harg7 arg8 harg8 hc0 hc1 x0 x1 x2 x3 x4 x5 xs0 = k7_pay2 x0 x1 xs0 := by
  unfold sout7_B_0
  rw [View.read_writes_eq_canon _ _ _ (scover7_B_0 c i arg1 harg1 arg2 harg2 arg3 harg3 arg4 harg4 arg5 harg5 arg6 harg6 arg7 harg7 arg8 harg8 hc0 hc1 x0 x1 x2 x3 x4 x5 xs0)]
  unfold kernelRun7_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S5000x128) hz, View.ld_unit_zero (S := S5000x64) hz, View.ld_unit_zero (S := S128x128) hz, View.ld_unit_zero (S := S1x128) hz, View.ld_unit_zero (S := S128x64) hz, View.ld_unit_zero (S := S1x64) hz, View.ld_unit_zero (S := S64x128) hz, View.readCov_unit_zero (S := S64x128) _ hz]

/-- The last point leaves the same in the accumulator, -/
theorem sout7_C_0_eq (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    sout7_C_0 c i arg1 harg1 arg2 harg2 arg3 harg3 arg4 harg4 arg5 harg5 arg6 harg6 arg7 harg7 arg8 harg8 hc0 hc1 x0 x1 x2 x3 x4 x5 xs0 = k7_pay2 x0 x1 xs0 := by
  unfold sout7_C_0
  rw [View.read_writes_eq_canon _ _ _ (scover7_C_0 c i arg1 harg1 arg2 harg2 arg3 harg3 arg4 harg4 arg5 harg5 arg6 harg6 arg7 harg7 arg8 harg8 hc0 hc1 x0 x1 x2 x3 x4 x5 xs0)]
  unfold kernelRun7_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S5000x128) hz, View.ld_unit_zero (S := S5000x64) hz, View.ld_unit_zero (S := S128x128) hz, View.ld_unit_zero (S := S1x128) hz, View.ld_unit_zero (S := S128x64) hz, View.ld_unit_zero (S := S1x64) hz, View.ld_unit_zero (S := S64x128) hz, View.readCov_unit_zero (S := S64x128) _ hz]

/-- and in the output's buffer the two-layer map of that accumulator. -/
theorem out7_C_6_eq (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : ¬cond7_0 i) (hc1 : cond7_1 i)
    (x0 : Vec F S5000x128 .f32) (x1 : Vec F S5000x64 .f32) (x2 : Vec F S128x128 .f32) (x3 : Vec F S1x128 .f32) (x4 : Vec F S128x64 .f32) (x5 : Vec F S1x64 .f32) (xs0 : Vec F S64x128 .f32) :
    out7_C_6 c i arg1 harg1 arg2 harg2 arg3 harg3 arg4 harg4 arg5 harg5 arg6 harg6 arg7 harg7 arg8 harg8 hc0 hc1 x0 x1 x2 x3 x4 x5 xs0 = k7_pay3 (k7_pay2 x0 x1 xs0) x2 x3 x4 x5 := by
  unfold out7_C_6
  rw [View.read_writes_eq_canon _ _ _ (cover7_C_6 c i arg1 harg1 arg2 harg2 arg3 harg3 arg4 harg4 arg5 harg5 arg6 harg6 arg7 harg7 arg8 harg8 hc0 hc1 x0 x1 x2 x3 x4 x5 xs0)]
  unfold kernelRun7_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S5000x128) hz, View.ld_unit_zero (S := S5000x64) hz, View.ld_unit_zero (S := S128x128) hz, View.ld_unit_zero (S := S1x128) hz, View.ld_unit_zero (S := S128x64) hz, View.ld_unit_zero (S := S1x64) hz, View.ld_unit_zero (S := S64x128) hz, View.readCov_unit_zero (S := S64x128) _ hz]

/-- The first point leaves in the accumulator the tile's product added to the zero start. -/
theorem sout7_A_0_eq (c : Dev nD) (i : grid7.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x128 .f32) (harg8 : arg8.IsWhole) (hc0 : cond7_0 i) (hc1 : ¬cond7_1 i)
    (x0 : Vec F S5000x128 .f32) (x1 : Vec F S5000x64 .f32) (x2 : Vec F S128x128 .f32) (x3 : Vec F S1x128 .f32) (x4 : Vec F S128x64 .f32) (x5 : Vec F S1x64 .f32) :
    sout7_A_0 c i arg1 harg1 arg2 harg2 arg3 harg3 arg4 harg4 arg5 harg5 arg6 harg6 arg7 harg7 arg8 harg8 hc0 hc1 x0 x1 x2 x3 x4 x5 = k7_pay2 x0 x1 (k7_pay1 (F := F)) := by
  unfold sout7_A_0
  rw [View.read_writes_eq_canon _ _ _ (scover7_A_0 c i arg1 harg1 arg2 harg2 arg3 harg3 arg4 harg4 arg5 harg5 arg6 harg6 arg7 harg7 arg8 harg8 hc0 hc1 x0 x1 x2 x3 x4 x5)]
  unfold kernelRun7_A
  dsimp only
  sl_unfold_words
  rw [View.canon_cons_unit_zero (S := S64x128) hz, View.readCov_unit_zero (S := S64x128) _ hz]
  simp only [View.readAt_eq_ld, harg1.read_unread, harg2.read_unread, harg3.read_unread, harg4.read_unread, harg5.read_unread, harg6.read_unread, harg8.read_unread, View.ld_unit_zero (S := S5000x128) hz, View.ld_unit_zero (S := S5000x64) hz, View.ld_unit_zero (S := S128x128) hz, View.ld_unit_zero (S := S1x128) hz, View.ld_unit_zero (S := S128x64) hz, View.ld_unit_zero (S := S1x64) hz, View.ld_unit_zero (S := S64x128) hz, View.readCov_unit_zero (S := S64x128) _ hz]

end Pieces

section Payloads

/-! ## The three products' operand indices, axis by axis -/

theorem lhsP_0 (j : S64x128.Idx) (k : dot_S64x5000_S5000x128_S64x128_1_0_0_1_n_n.contr.Idx) : (dot_S64x5000_S5000x128_S64x128_1_0_0_1_n_n.lhsIdx j k 0 : ℕ) = j 0 := by
  simp [DotDims.lhsIdx, dot_S64x5000_S5000x128_S64x128_1_0_0_1_n_n]; rfl
theorem lhsP_1 (j : S64x128.Idx) (k : dot_S64x5000_S5000x128_S64x128_1_0_0_1_n_n.contr.Idx) : (dot_S64x5000_S5000x128_S64x128_1_0_0_1_n_n.lhsIdx j k 1 : ℕ) = k ⟨0, by decide⟩ := by
  simp [DotDims.lhsIdx, dot_S64x5000_S5000x128_S64x128_1_0_0_1_n_n]; rfl
theorem rhsP_0 (j : S64x128.Idx) (k : dot_S64x5000_S5000x128_S64x128_1_0_0_1_n_n.contr.Idx) : (dot_S64x5000_S5000x128_S64x128_1_0_0_1_n_n.rhsIdx j k 0 : ℕ) = k ⟨0, by decide⟩ := by
  simp [DotDims.rhsIdx, dot_S64x5000_S5000x128_S64x128_1_0_0_1_n_n]; rfl
theorem rhsP_1 (j : S64x128.Idx) (k : dot_S64x5000_S5000x128_S64x128_1_0_0_1_n_n.contr.Idx) : (dot_S64x5000_S5000x128_S64x128_1_0_0_1_n_n.rhsIdx j k 1 : ℕ) = j 1 := by
  simp [DotDims.rhsIdx, dot_S64x5000_S5000x128_S64x128_1_0_0_1_n_n]; rfl

theorem lhsH_0 (j : S64x128.Idx) (k : dot_S64x128_S128x128_S64x128_1_0_0_1_n_n.contr.Idx) : (dot_S64x128_S128x128_S64x128_1_0_0_1_n_n.lhsIdx j k 0 : ℕ) = j 0 := by
  simp [DotDims.lhsIdx, dot_S64x128_S128x128_S64x128_1_0_0_1_n_n]; rfl
theorem lhsH_1 (j : S64x128.Idx) (k : dot_S64x128_S128x128_S64x128_1_0_0_1_n_n.contr.Idx) : (dot_S64x128_S128x128_S64x128_1_0_0_1_n_n.lhsIdx j k 1 : ℕ) = k ⟨0, by decide⟩ := by
  simp [DotDims.lhsIdx, dot_S64x128_S128x128_S64x128_1_0_0_1_n_n]; rfl
theorem rhsH_0 (j : S64x128.Idx) (k : dot_S64x128_S128x128_S64x128_1_0_0_1_n_n.contr.Idx) : (dot_S64x128_S128x128_S64x128_1_0_0_1_n_n.rhsIdx j k 0 : ℕ) = k ⟨0, by decide⟩ := by
  simp [DotDims.rhsIdx, dot_S64x128_S128x128_S64x128_1_0_0_1_n_n]; rfl
theorem rhsH_1 (j : S64x128.Idx) (k : dot_S64x128_S128x128_S64x128_1_0_0_1_n_n.contr.Idx) : (dot_S64x128_S128x128_S64x128_1_0_0_1_n_n.rhsIdx j k 1 : ℕ) = j 1 := by
  simp [DotDims.rhsIdx, dot_S64x128_S128x128_S64x128_1_0_0_1_n_n]; rfl

theorem lhsO_0 (j : S64x64.Idx) (k : dot_S64x128_S128x64_S64x64_1_0_0_1_n_n.contr.Idx) : (dot_S64x128_S128x64_S64x64_1_0_0_1_n_n.lhsIdx j k 0 : ℕ) = j 0 := by
  simp [DotDims.lhsIdx, dot_S64x128_S128x64_S64x64_1_0_0_1_n_n]; rfl
theorem lhsO_1 (j : S64x64.Idx) (k : dot_S64x128_S128x64_S64x64_1_0_0_1_n_n.contr.Idx) : (dot_S64x128_S128x64_S64x64_1_0_0_1_n_n.lhsIdx j k 1 : ℕ) = k ⟨0, by decide⟩ := by
  simp [DotDims.lhsIdx, dot_S64x128_S128x64_S64x64_1_0_0_1_n_n]; rfl
theorem rhsO_0 (j : S64x64.Idx) (k : dot_S64x128_S128x64_S64x64_1_0_0_1_n_n.contr.Idx) : (dot_S64x128_S128x64_S64x64_1_0_0_1_n_n.rhsIdx j k 0 : ℕ) = k ⟨0, by decide⟩ := by
  simp [DotDims.rhsIdx, dot_S64x128_S128x64_S64x64_1_0_0_1_n_n]; rfl
theorem rhsO_1 (j : S64x64.Idx) (k : dot_S64x128_S128x64_S64x64_1_0_0_1_n_n.contr.Idx) : (dot_S64x128_S128x64_S64x64_1_0_0_1_n_n.rhsIdx j k 1 : ℕ) = j 1 := by
  simp [DotDims.rhsIdx, dot_S64x128_S128x64_S64x64_1_0_0_1_n_n]; rfl

/-- The tile product into a zero start, entry by entry: the sum over the tile's 5000 rows. -/
theorem mmP_apply (A : FVec Ideal S64x5000 .bf16) (B : FVec Ideal S5000x128 .bf16) (a : Fin 64) (b : Fin 128) :
    FloatOps.matmul dot_S64x5000_S5000x128_S64x128_1_0_0_1_n_n none A B (constant (F := Ideal) S64x128 .f32 0x00000000#32) (ix2 a b) = ∑ r : Fin 5000, A (ix2 a r) * B (ix2 r b) := by
  rw [Ideal.matmul_constant_zero_apply, ← Equiv.sum_comp (contrEquiv1 dot_S64x5000_S5000x128_S64x128_1_0_0_1_n_n 5000 rfl rfl).symm]
  refine Finset.sum_congr rfl fun r _ => ?_
  have c2 := contrEquiv1_symm_val dot_S64x5000_S5000x128_S64x128_1_0_0_1_n_n 5000 rfl rfl r
  have l2 : dot_S64x5000_S5000x128_S64x128_1_0_0_1_n_n.lhsIdx (ix2 a b) ((contrEquiv1 dot_S64x5000_S5000x128_S64x128_1_0_0_1_n_n 5000 rfl rfl).symm r) = ix2 a r := by
    funext ax; apply Fin.ext
    match ax with
    | ⟨0, _⟩ => exact lhsP_0 _ _
    | ⟨1, _⟩ => exact (lhsP_1 _ _).trans c2
  have r2 : dot_S64x5000_S5000x128_S64x128_1_0_0_1_n_n.rhsIdx (ix2 a b) ((contrEquiv1 dot_S64x5000_S5000x128_S64x128_1_0_0_1_n_n 5000 rfl rfl).symm r) = ix2 r b := by
    funext ax; apply Fin.ext
    match ax with
    | ⟨0, _⟩ => exact (rhsP_0 _ _).trans c2
    | ⟨1, _⟩ => exact rhsP_1 _ _
  rw [l2, r2]

/-- The first layer's product into a zero start, entry by entry. -/
theorem mmH_apply (A : FVec Ideal S64x128 .bf16) (B : FVec Ideal S128x128 .bf16) (a : Fin 64) (b : Fin 128) :
    FloatOps.matmul dot_S64x128_S128x128_S64x128_1_0_0_1_n_n none A B (constant (F := Ideal) S64x128 .f32 0x00000000#32) (ix2 a b) = ∑ r : Fin 128, A (ix2 a r) * B (ix2 r b) := by
  rw [Ideal.matmul_constant_zero_apply, ← Equiv.sum_comp (contrEquiv1 dot_S64x128_S128x128_S64x128_1_0_0_1_n_n 128 rfl rfl).symm]
  refine Finset.sum_congr rfl fun r _ => ?_
  have c2 := contrEquiv1_symm_val dot_S64x128_S128x128_S64x128_1_0_0_1_n_n 128 rfl rfl r
  have l2 : dot_S64x128_S128x128_S64x128_1_0_0_1_n_n.lhsIdx (ix2 a b) ((contrEquiv1 dot_S64x128_S128x128_S64x128_1_0_0_1_n_n 128 rfl rfl).symm r) = ix2 a r := by
    funext ax; apply Fin.ext
    match ax with
    | ⟨0, _⟩ => exact lhsH_0 _ _
    | ⟨1, _⟩ => exact (lhsH_1 _ _).trans c2
  have r2 : dot_S64x128_S128x128_S64x128_1_0_0_1_n_n.rhsIdx (ix2 a b) ((contrEquiv1 dot_S64x128_S128x128_S64x128_1_0_0_1_n_n 128 rfl rfl).symm r) = ix2 r b := by
    funext ax; apply Fin.ext
    match ax with
    | ⟨0, _⟩ => exact (rhsH_0 _ _).trans c2
    | ⟨1, _⟩ => exact rhsH_1 _ _
  rw [l2, r2]

/-- The second layer's product into a zero start, entry by entry. -/
theorem mmO_apply (A : FVec Ideal S64x128 .bf16) (B : FVec Ideal S128x64 .bf16) (a : Fin 64) (b : Fin 64) :
    FloatOps.matmul dot_S64x128_S128x64_S64x64_1_0_0_1_n_n none A B (constant (F := Ideal) S64x64 .f32 0x00000000#32) (ix2 a b) = ∑ r : Fin 128, A (ix2 a r) * B (ix2 r b) := by
  rw [Ideal.matmul_constant_zero_apply, ← Equiv.sum_comp (contrEquiv1 dot_S64x128_S128x64_S64x64_1_0_0_1_n_n 128 rfl rfl).symm]
  refine Finset.sum_congr rfl fun r _ => ?_
  have c2 := contrEquiv1_symm_val dot_S64x128_S128x64_S64x64_1_0_0_1_n_n 128 rfl rfl r
  have l2 : dot_S64x128_S128x64_S64x64_1_0_0_1_n_n.lhsIdx (ix2 a b) ((contrEquiv1 dot_S64x128_S128x64_S64x64_1_0_0_1_n_n 128 rfl rfl).symm r) = ix2 a r := by
    funext ax; apply Fin.ext
    match ax with
    | ⟨0, _⟩ => exact lhsO_0 _ _
    | ⟨1, _⟩ => exact (lhsO_1 _ _).trans c2
  have r2 : dot_S64x128_S128x64_S64x64_1_0_0_1_n_n.rhsIdx (ix2 a b) ((contrEquiv1 dot_S64x128_S128x64_S64x64_1_0_0_1_n_n 128 rfl rfl).symm r) = ix2 r b := by
    funext ax; apply Fin.ext
    match ax with
    | ⟨0, _⟩ => exact (rhsO_0 _ _).trans c2
    | ⟨1, _⟩ => exact rhsO_1 _ _
  rw [l2, r2]

/-- The zero start, entry by entry. -/
theorem pay1_apply (g : Fin 64) (κ : Fin 128) : (k7_pay1 (F := Ideal)) (ix2 g κ) = 0 := by
  unfold k7_pay1
  simp only [shapeCast_self]
  exact Ideal.ofBits_zero_f32

/-- The accumulate step, entry by entry: what the accumulator held plus, over the tile's rows, the row's weight for graph `g`
    times the row's feature `κ`. -/
theorem pay2_apply (x : FVec Ideal S5000x128 .f32) (oh : FVec Ideal S5000x64 .f32) (acc : FVec Ideal S64x128 .f32) (g : Fin 64) (κ : Fin 128) :
    k7_pay2 (F := Ideal) x oh acc (ix2 g κ) = acc (ix2 g κ) + ∑ r : Fin 5000, oh (ix2 r g) * x (ix2 r κ) := by
  unfold k7_pay2
  simp only [shapeCast_self]
  refine (addf_apply _ _ _).trans ?_
  refine (congrArg (acc (ix2 g κ) + ·) (mmP_apply _ _ g κ)).trans ?_
  refine congrArg (acc (ix2 g κ) + ·) (Finset.sum_congr rfl fun r _ => ?_)
  exact congrArg₂ (· * ·) (transpose_apply [1, 0] _ _ (ix2 g r) (ix2 r g) (fun b => by match b with | ⟨0, _⟩ => rfl | ⟨1, _⟩ => rfl)) rfl

/-- The final two-layer map, entry by entry. -/
theorem pay3_apply (acc : FVec Ideal S64x128 .f32) (w1 : FVec Ideal S128x128 .f32) (b1 : FVec Ideal S1x128 .f32) (w2 : FVec Ideal S128x64 .f32) (b2 : FVec Ideal S1x64 .f32) (g : Fin 64) (j : Fin 64) :
    k7_pay3 (F := Ideal) acc w1 b1 w2 b2 (ix2 g j)
      = (∑ κ' : Fin 128, max ((∑ κ : Fin 128, acc (ix2 g κ) * w1 (ix2 κ κ')) + b1 (ix2 (0 : Fin 1) κ')) 0 * w2 (ix2 κ' j)) + b2 (ix2 (0 : Fin 1) j) := by
  unfold k7_pay3
  simp only [shapeCast_self]
  refine (addf_apply _ _ _).trans ?_
  refine congrArg₂ (· + ·) ((mmO_apply _ _ g j).trans (Finset.sum_congr rfl fun κ' _ => ?_)) (broadcastTo_apply _ _ (ix2 g j) (ix2 (0 : Fin 1) j) (fun a => by match a with | ⟨0, _⟩ => rfl | ⟨1, _⟩ => rfl))
  refine congrArg₂ (· * ·) ?_ rfl
  refine (maximumf_apply _ _ _).trans ?_
  refine congrArg₂ max ?_ Ideal.ofBits_zero_f32
  refine (addf_apply _ _ _).trans ?_
  exact congrArg₂ (· + ·) (mmH_apply _ _ g κ') (broadcastTo_apply _ _ (ix2 g κ') (ix2 (0 : Fin 1) κ') (fun a => by match a with | ⟨0, _⟩ => rfl | ⟨1, _⟩ => rfl))

end Payloads

section Blocks

/-! ## Where each window's block sits in its array -/

/-- The block index of the two row-tiled windows is the point's number on the rows and zero on the columns; -/
theorem idx7_0 : ∀ t : Fin cfg7.N, win7_0.index t 0 = t.val ∧ win7_0.index t 1 = 0 :=
  (by decide +kernel : ∀ t : Fin grid7.N, win7_0.index t 0 = t.val ∧ win7_0.index t 1 = 0)
theorem idx7_1 : ∀ t : Fin cfg7.N, win7_1.index t 0 = t.val ∧ win7_1.index t 1 = 0 :=
  (by decide +kernel : ∀ t : Fin grid7.N, win7_1.index t 0 = t.val ∧ win7_1.index t 1 = 0)
/-- the other windows' block is their whole array at every point. -/
theorem idx7_2 : ∀ t : Fin cfg7.N, win7_2.index t 0 = 0 ∧ win7_2.index t 1 = 0 :=
  (by decide +kernel : ∀ t : Fin grid7.N, win7_2.index t 0 = 0 ∧ win7_2.index t 1 = 0)
theorem idx7_3 : ∀ t : Fin cfg7.N, win7_3.index t 0 = 0 ∧ win7_3.index t 1 = 0 :=
  (by decide +kernel : ∀ t : Fin grid7.N, win7_3.index t 0 = 0 ∧ win7_3.index t 1 = 0)
theorem idx7_4 : ∀ t : Fin cfg7.N, win7_4.index t 0 = 0 ∧ win7_4.index t 1 = 0 :=
  (by decide +kernel : ∀ t : Fin grid7.N, win7_4.index t 0 = 0 ∧ win7_4.index t 1 = 0)
theorem idx7_5 : ∀ t : Fin cfg7.N, win7_5.index t 0 = 0 ∧ win7_5.index t 1 = 0 :=
  (by decide +kernel : ∀ t : Fin grid7.N, win7_5.index t 0 = 0 ∧ win7_5.index t 1 = 0)
theorem idx7_6 : ∀ t : Fin cfg7.N, win7_6.index t 0 = 0 ∧ win7_6.index t 1 = 0 :=
  (by decide +kernel : ∀ t : Fin grid7.N, win7_6.index t 0 = 0 ∧ win7_6.index t 1 = 0)

/-- The tile a grid point works on. -/
abbrev tile7 (t : Fin cfg7.N) : Fin 10 := t.cast (show cfg7.N = 10 from N_7)

/-- The input windows' blocks at a point, each at its literal type. -/
abbrev xblk7 (V : (c : Dev nD) → (b : Ref sig .tc) → Buf (Elt Ideal) ((c : Thread nD τ).loc b)) (c : Dev nD) (t : Fin cfg7.N) : Vec Ideal S5000x128 .f32 := iblk7 V c 0 t
abbrev ohblk7 (V : (c : Dev nD) → (b : Ref sig .tc) → Buf (Elt Ideal) ((c : Thread nD τ).loc b)) (c : Dev nD) (t : Fin cfg7.N) : Vec Ideal S5000x64 .f32 := iblk7 V c 1 t
abbrev w1blk7 (V : (c : Dev nD) → (b : Ref sig .tc) → Buf (Elt Ideal) ((c : Thread nD τ).loc b)) (c : Dev nD) (t : Fin cfg7.N) : Vec Ideal S128x128 .f32 := iblk7 V c 2 t
abbrev b1blk7 (V : (c : Dev nD) → (b : Ref sig .tc) → Buf (Elt Ideal) ((c : Thread nD τ).loc b)) (c : Dev nD) (t : Fin cfg7.N) : Vec Ideal S1x128 .f32 := iblk7 V c 3 t
abbrev w2blk7 (V : (c : Dev nD) → (b : Ref sig .tc) → Buf (Elt Ideal) ((c : Thread nD τ).loc b)) (c : Dev nD) (t : Fin cfg7.N) : Vec Ideal S128x64 .f32 := iblk7 V c 4 t
abbrev b2blk7 (V : (c : Dev nD) → (b : Ref sig .tc) → Buf (Elt Ideal) ((c : Thread nD τ).loc b)) (c : Dev nD) (t : Fin cfg7.N) : Vec Ideal S1x64 .f32 := iblk7 V c 5 t

/-- Row `r` of the feature block at point `t` is row `5000 t + r` of the array. -/
theorem xblk7_apply (V : (c : Dev nD) → (b : Ref sig .tc) → Buf (Elt Ideal) ((c : Thread nD τ).loc b)) (c : Dev nD) (t : Fin cfg7.N) (r : Fin 5000) (q : Fin 128) :
    xblk7 V c t (ix2 r q) = xArr7 V c (ix2 (Gin.tileRow (tile7 t) r) q) := by
  unfold xblk7 iblk7
  rw [View.read_apply]
  refine congrArg (xArr7 V c) ?_
  funext a; apply Fin.ext
  match a with
  | ⟨0, _⟩ => show win7_0.index t 0 * 5000 + 1 * r.val = 5000 * t.val + r.val; rw [(idx7_0 t).1]; omega
  | ⟨1, _⟩ => show win7_0.index t 1 * 128 + 1 * q.val = q.val; rw [(idx7_0 t).2]; omega

/-- Row `r` of the weight block at point `t` is row `5000 t + r` of the array. -/
theorem ohblk7_apply (V : (c : Dev nD) → (b : Ref sig .tc) → Buf (Elt Ideal) ((c : Thread nD τ).loc b)) (c : Dev nD) (t : Fin cfg7.N) (r : Fin 5000) (q : Fin 64) :
    ohblk7 V c t (ix2 r q) = ohArr7 V c (ix2 (Gin.tileRow (tile7 t) r) q) := by
  unfold ohblk7 iblk7
  rw [View.read_apply]
  refine congrArg (ohArr7 V c) ?_
  funext a; apply Fin.ext
  match a with
  | ⟨0, _⟩ => show win7_1.index t 0 * 5000 + 1 * r.val = 5000 * t.val + r.val; rw [(idx7_1 t).1]; omega
  | ⟨1, _⟩ => show win7_1.index t 1 * 64 + 1 * q.val = q.val; rw [(idx7_1 t).2]; omega

/-- The block of window 2 is its whole array. -/
theorem w1blk7_apply (V : (c : Dev nD) → (b : Ref sig .tc) → Buf (Elt Ideal) ((c : Thread nD τ).loc b)) (c : Dev nD) (t : Fin cfg7.N) (p : Fin 128) (q : Fin 128) :
    w1blk7 V c t (ix2 p q) = w1Arr7 V c (ix2 p q) := by
  unfold w1blk7 iblk7
  rw [View.read_apply]
  refine congrArg (w1Arr7 V c) ?_
  funext a; apply Fin.ext
  match a with
  | ⟨0, _⟩ => show win7_2.index t 0 * 128 + 1 * p.val = p.val; rw [(idx7_2 t).1]; omega
  | ⟨1, _⟩ => show win7_2.index t 1 * 128 + 1 * q.val = q.val; rw [(idx7_2 t).2]; omega

/-- The block of window 3 is its whole array. -/
theorem b1blk7_apply (V : (c : Dev nD) → (b : Ref sig .tc) → Buf (Elt Ideal) ((c : Thread nD τ).loc b)) (c : Dev nD) (t : Fin cfg7.N) (p : Fin 1) (q : Fin 128) :
    b1blk7 V c t (ix2 p q) = b1Arr7 V c (ix2 p q) := by
  unfold b1blk7 iblk7
  rw [View.read_apply]
  refine congrArg (b1Arr7 V c) ?_
  funext a; apply Fin.ext
  match a with
  | ⟨0, _⟩ => show win7_3.index t 0 * 1 + 1 * p.val = p.val; rw [(idx7_3 t).1]; omega
  | ⟨1, _⟩ => show win7_3.index t 1 * 128 + 1 * q.val = q.val; rw [(idx7_3 t).2]; omega

/-- The block of window 4 is its whole array. -/
theorem w2blk7_apply (V : (c : Dev nD) → (b : Ref sig .tc) → Buf (Elt Ideal) ((c : Thread nD τ).loc b)) (c : Dev nD) (t : Fin cfg7.N) (p : Fin 128) (q : Fin 64) :
    w2blk7 V c t (ix2 p q) = w2Arr7 V c (ix2 p q) := by
  unfold w2blk7 iblk7
  rw [View.read_apply]
  refine congrArg (w2Arr7 V c) ?_
  funext a; apply Fin.ext
  match a with
  | ⟨0, _⟩ => show win7_4.index t 0 * 128 + 1 * p.val = p.val; rw [(idx7_4 t).1]; omega
  | ⟨1, _⟩ => show win7_4.index t 1 * 64 + 1 * q.val = q.val; rw [(idx7_4 t).2]; omega

/-- The block of window 5 is its whole array. -/
theorem b2blk7_apply (V : (c : Dev nD) → (b : Ref sig .tc) → Buf (Elt Ideal) ((c : Thread nD τ).loc b)) (c : Dev nD) (t : Fin cfg7.N) (p : Fin 1) (q : Fin 64) :
    b2blk7 V c t (ix2 p q) = b2Arr7 V c (ix2 p q) := by
  unfold b2blk7 iblk7
  rw [View.read_apply]
  refine congrArg (b2Arr7 V c) ?_
  funext a; apply Fin.ext
  match a with
  | ⟨0, _⟩ => show win7_5.index t 0 * 1 + 1 * p.val = p.val; rw [(idx7_5 t).1]; omega
  | ⟨1, _⟩ => show win7_5.index t 1 * 64 + 1 * q.val = q.val; rw [(idx7_5 t).2]; omega

end Blocks

section Accumulation

/-- Tile `k`'s contribution to graph `g`, feature `κ`: over the tile's rows, the row's weight for `g` times its feature `κ`
    (nothing past the ten tiles). -/
def tileTerm7 (V : (c : Dev nD) → (b : Ref sig .tc) → Buf (Elt Ideal) ((c : Thread nD τ).loc b)) (c : Dev nD) (g : Fin 64) (κ : Fin 128) (k : ℕ) : EReal :=
  if h : k < 10 then ∑ r : Fin 5000, ohArr7 V c (ix2 (Gin.tileRow ⟨k, h⟩ r) g) * xArr7 V c (ix2 (Gin.tileRow ⟨k, h⟩ r) κ) else 0

/-- At a grid point it is the product of the point's two blocks. -/
theorem tileTerm7_at (V : (c : Dev nD) → (b : Ref sig .tc) → Buf (Elt Ideal) ((c : Thread nD τ).loc b)) (c : Dev nD) (g : Fin 64) (κ : Fin 128) (t : Fin cfg7.N) :
    tileTerm7 V c g κ t.val = ∑ r : Fin 5000, ohblk7 V c t (ix2 r g) * xblk7 V c t (ix2 r κ) := by
  have hN : t.val < 10 := lt_of_lt_of_eq t.isLt (show cfg7.N = 10 from N_7)
  unfold tileTerm7
  rw [dif_pos hN]
  refine Finset.sum_congr rfl fun r _ => ?_
  rw [ohblk7_apply, xblk7_apply]
  rfl

/-- The ten tiles' contributions make up the sum over all 50000 rows. -/
theorem sum_tileTerm7 (V : (c : Dev nD) → (b : Ref sig .tc) → Buf (Elt Ideal) ((c : Thread nD τ).loc b)) (c : Dev nD) (g : Fin 64) (κ : Fin 128) :
    ∑ k ∈ Finset.range 10, tileTerm7 V c g κ k = P7 V c g κ := by
  unfold P7
  rw [Gin.sum_tiles, ← Fin.sum_univ_eq_sum_range (fun k => tileTerm7 V c g κ k) 10]
  refine Finset.sum_congr rfl fun t _ => ?_
  unfold tileTerm7
  rw [dif_pos t.isLt]

/-- The accumulator after the point at position `n`, at its literal type. -/
abbrev acc7 (V : (c : Dev nD) → (b : Ref sig .tc) → Buf (Elt Ideal) ((c : Thread nD τ).loc b)) (c : Dev nD) (n : ℕ) (h : n < cfg7.N) : Vec Ideal S64x128 .f32 := (outsAt7 V c n h).2

/-- After the first point: the first tile's product added to the zero start. -/
theorem acc7_zero (V : (c : Dev nD) → (b : Ref sig .tc) → Buf (Elt Ideal) ((c : Thread nD τ).loc b)) (c : Dev nD) (h : 0 < cfg7.N) :
    acc7 V c 0 h = k7_pay2 (F := Ideal) (xblk7 V c ⟨0, h⟩) (ohblk7 V c ⟨0, h⟩) (k7_pay1 (F := Ideal)) := by
  have h0 : (⟨0, h⟩ : Fin cfg7.N).val = 0 := rfl
  have h1 : ¬(⟨0, h⟩ : Fin cfg7.N).val = 9 := (show ¬(0 : ℕ) = 9 by decide)
  unfold acc7
  rw [outsAt7_A V c (⟨0, h⟩ : Fin cfg7.N) h0 h1]
  dsimp only
  exact sout7_A_0_eq (F := Ideal) c (grid7.coords (⟨0, h⟩ : Fin cfg7.N)) (ms7_0 (⟨0, h⟩ : Fin cfg7.N)) (hs7_0 (⟨0, h⟩ : Fin cfg7.N)) (ms7_1 (⟨0, h⟩ : Fin cfg7.N)) (hs7_1 (⟨0, h⟩ : Fin cfg7.N)) (ms7_2 (⟨0, h⟩ : Fin cfg7.N)) (hs7_2 (⟨0, h⟩ : Fin cfg7.N)) (ms7_3 (⟨0, h⟩ : Fin cfg7.N)) (hs7_3 (⟨0, h⟩ : Fin cfg7.N)) (ms7_4 (⟨0, h⟩ : Fin cfg7.N)) (hs7_4 (⟨0, h⟩ : Fin cfg7.N)) (ms7_5 (⟨0, h⟩ : Fin cfg7.N)) (hs7_5 (⟨0, h⟩ : Fin cfg7.N)) (ms7_6 (⟨0, h⟩ : Fin cfg7.N)) (hs7_6 (⟨0, h⟩ : Fin cfg7.N)) scM7_0 (Memref.isWhole_whole _) ((hcond7_0 (⟨0, h⟩ : Fin cfg7.N)).mpr h0) (fun hh => h1 ((hcond7_1 (⟨0, h⟩ : Fin cfg7.N)).mp hh)) (iblk7 V c 0 (⟨0, h⟩ : Fin cfg7.N)) (iblk7 V c 1 (⟨0, h⟩ : Fin cfg7.N)) (iblk7 V c 2 (⟨0, h⟩ : Fin cfg7.N)) (iblk7 V c 3 (⟨0, h⟩ : Fin cfg7.N)) (iblk7 V c 4 (⟨0, h⟩ : Fin cfg7.N)) (iblk7 V c 5 (⟨0, h⟩ : Fin cfg7.N))

/-- After a later point: the point's tile product added to what the point before left. -/
theorem acc7_succ (V : (c : Dev nD) → (b : Ref sig .tc) → Buf (Elt Ideal) ((c : Thread nD τ).loc b)) (c : Dev nD) (n : ℕ) (h : n + 1 < cfg7.N) :
    acc7 V c (n + 1) h = k7_pay2 (F := Ideal) (xblk7 V c ⟨n + 1, h⟩) (ohblk7 V c ⟨n + 1, h⟩) (acc7 V c n (Nat.lt_of_succ_lt h)) := by
  have h0 : ¬(⟨n + 1, h⟩ : Fin cfg7.N).val = 0 := Nat.succ_ne_zero n
  unfold acc7
  by_cases h1 : (⟨n + 1, h⟩ : Fin cfg7.N).val = 9
  · rw [outsAt7_C V c (⟨n + 1, h⟩ : Fin cfg7.N) h0 h1]
    dsimp only
    exact sout7_C_0_eq (F := Ideal) c (grid7.coords (⟨n + 1, h⟩ : Fin cfg7.N)) (ms7_0 (⟨n + 1, h⟩ : Fin cfg7.N)) (hs7_0 (⟨n + 1, h⟩ : Fin cfg7.N)) (ms7_1 (⟨n + 1, h⟩ : Fin cfg7.N)) (hs7_1 (⟨n + 1, h⟩ : Fin cfg7.N)) (ms7_2 (⟨n + 1, h⟩ : Fin cfg7.N)) (hs7_2 (⟨n + 1, h⟩ : Fin cfg7.N)) (ms7_3 (⟨n + 1, h⟩ : Fin cfg7.N)) (hs7_3 (⟨n + 1, h⟩ : Fin cfg7.N)) (ms7_4 (⟨n + 1, h⟩ : Fin cfg7.N)) (hs7_4 (⟨n + 1, h⟩ : Fin cfg7.N)) (ms7_5 (⟨n + 1, h⟩ : Fin cfg7.N)) (hs7_5 (⟨n + 1, h⟩ : Fin cfg7.N)) (ms7_6 (⟨n + 1, h⟩ : Fin cfg7.N)) (hs7_6 (⟨n + 1, h⟩ : Fin cfg7.N)) scM7_0 (Memref.isWhole_whole _) (fun hh => h0 ((hcond7_0 (⟨n + 1, h⟩ : Fin cfg7.N)).mp hh)) ((hcond7_1 (⟨n + 1, h⟩ : Fin cfg7.N)).mpr h1) (iblk7 V c 0 (⟨n + 1, h⟩ : Fin cfg7.N)) (iblk7 V c 1 (⟨n + 1, h⟩ : Fin cfg7.N)) (iblk7 V c 2 (⟨n + 1, h⟩ : Fin cfg7.N)) (iblk7 V c 3 (⟨n + 1, h⟩ : Fin cfg7.N)) (iblk7 V c 4 (⟨n + 1, h⟩ : Fin cfg7.N)) (iblk7 V c 5 (⟨n + 1, h⟩ : Fin cfg7.N)) (outsAt7 V c ((⟨n + 1, h⟩ : Fin cfg7.N).val - 1) (Nat.lt_of_le_of_lt (Nat.sub_le _ _) (⟨n + 1, h⟩ : Fin cfg7.N).isLt)).2
  · rw [outsAt7_B V c (⟨n + 1, h⟩ : Fin cfg7.N) h0 h1]
    dsimp only
    exact sout7_B_0_eq (F := Ideal) c (grid7.coords (⟨n + 1, h⟩ : Fin cfg7.N)) (ms7_0 (⟨n + 1, h⟩ : Fin cfg7.N)) (hs7_0 (⟨n + 1, h⟩ : Fin cfg7.N)) (ms7_1 (⟨n + 1, h⟩ : Fin cfg7.N)) (hs7_1 (⟨n + 1, h⟩ : Fin cfg7.N)) (ms7_2 (⟨n + 1, h⟩ : Fin cfg7.N)) (hs7_2 (⟨n + 1, h⟩ : Fin cfg7.N)) (ms7_3 (⟨n + 1, h⟩ : Fin cfg7.N)) (hs7_3 (⟨n + 1, h⟩ : Fin cfg7.N)) (ms7_4 (⟨n + 1, h⟩ : Fin cfg7.N)) (hs7_4 (⟨n + 1, h⟩ : Fin cfg7.N)) (ms7_5 (⟨n + 1, h⟩ : Fin cfg7.N)) (hs7_5 (⟨n + 1, h⟩ : Fin cfg7.N)) (ms7_6 (⟨n + 1, h⟩ : Fin cfg7.N)) (hs7_6 (⟨n + 1, h⟩ : Fin cfg7.N)) scM7_0 (Memref.isWhole_whole _) (fun hh => h0 ((hcond7_0 (⟨n + 1, h⟩ : Fin cfg7.N)).mp hh)) (fun hh => h1 ((hcond7_1 (⟨n + 1, h⟩ : Fin cfg7.N)).mp hh)) (iblk7 V c 0 (⟨n + 1, h⟩ : Fin cfg7.N)) (iblk7 V c 1 (⟨n + 1, h⟩ : Fin cfg7.N)) (iblk7 V c 2 (⟨n + 1, h⟩ : Fin cfg7.N)) (iblk7 V c 3 (⟨n + 1, h⟩ : Fin cfg7.N)) (iblk7 V c 4 (⟨n + 1, h⟩ : Fin cfg7.N)) (iblk7 V c 5 (⟨n + 1, h⟩ : Fin cfg7.N)) (outsAt7 V c ((⟨n + 1, h⟩ : Fin cfg7.N).val - 1) (Nat.lt_of_le_of_lt (Nat.sub_le _ _) (⟨n + 1, h⟩ : Fin cfg7.N).isLt)).2

/-- THE INVARIANT: after the point at position `n` the accumulator holds, for graph `g` and feature `κ`, the contributions of
    tiles `0 … n`. -/
theorem acc7_apply (V : (c : Dev nD) → (b : Ref sig .tc) → Buf (Elt Ideal) ((c : Thread nD τ).loc b)) (c : Dev nD) : ∀ (n : ℕ) (h : n < cfg7.N) (g : Fin 64) (κ : Fin 128),
    acc7 V c n h (ix2 g κ) = ∑ k ∈ Finset.range (n + 1), tileTerm7 V c g κ k
  | 0, h, g, κ => by
    rw [acc7_zero V c h]
    refine (pay2_apply (xblk7 V c ⟨0, h⟩) (ohblk7 V c ⟨0, h⟩) (k7_pay1 (F := Ideal)) g κ).trans ?_
    rw [pay1_apply, zero_add, Finset.sum_range_one]
    exact (tileTerm7_at V c g κ ⟨0, h⟩).symm
  | n + 1, h, g, κ => by
    rw [acc7_succ V c n h]
    refine (pay2_apply (xblk7 V c ⟨n + 1, h⟩) (ohblk7 V c ⟨n + 1, h⟩) (acc7 V c n (Nat.lt_of_succ_lt h)) g κ).trans ?_
    rw [acc7_apply V c n (Nat.lt_of_succ_lt h) g κ, Finset.sum_range_succ _ (n + 1)]
    exact congrArg (_ + ·) (tileTerm7_at V c g κ ⟨n + 1, h⟩).symm

end Accumulation

section Final

theorem lt9 : 9 < cfg7.N := by rw [show cfg7.N = 10 from N_7]; decide

/-- After the last point the accumulator holds the weighted column sums over all rows. -/
theorem acc7_last (V : (c : Dev nD) → (b : Ref sig .tc) → Buf (Elt Ideal) ((c : Thread nD τ).loc b)) (c : Dev nD) (g : Fin 64) (κ : Fin 128) : acc7 V c 9 lt9 (ix2 g κ) = P7 V c g κ :=
  (acc7_apply V c 9 lt9 g κ).trans (sum_tileTerm7 V c g κ)

/-- What the last point leaves in the output's buffer: the two-layer map of that accumulator. -/
theorem out7_last (V : (c : Dev nD) → (b : Ref sig .tc) → Buf (Elt Ideal) ((c : Thread nD τ).loc b)) (c : Dev nD) (h : 9 < cfg7.N) :
    (outsAt7 V c 9 h).1 = k7_pay3 (F := Ideal) (acc7 V c 9 h) (w1blk7 V c ⟨9, h⟩) (b1blk7 V c ⟨9, h⟩) (w2blk7 V c ⟨9, h⟩) (b2blk7 V c ⟨9, h⟩) := by
  have h0 : ¬(⟨9, h⟩ : Fin cfg7.N).val = 0 := (show ¬(9 : ℕ) = 0 by decide)
  have h1 : (⟨9, h⟩ : Fin cfg7.N).val = 9 := rfl
  unfold acc7
  rw [outsAt7_C V c (⟨9, h⟩ : Fin cfg7.N) h0 h1]
  dsimp only
  refine (out7_C_6_eq (F := Ideal) c (grid7.coords (⟨9, h⟩ : Fin cfg7.N)) (ms7_0 (⟨9, h⟩ : Fin cfg7.N)) (hs7_0 (⟨9, h⟩ : Fin cfg7.N)) (ms7_1 (⟨9, h⟩ : Fin cfg7.N)) (hs7_1 (⟨9, h⟩ : Fin cfg7.N)) (ms7_2 (⟨9, h⟩ : Fin cfg7.N)) (hs7_2 (⟨9, h⟩ : Fin cfg7.N)) (ms7_3 (⟨9, h⟩ : Fin cfg7.N)) (hs7_3 (⟨9, h⟩ : Fin cfg7.N)) (ms7_4 (⟨9, h⟩ : Fin cfg7.N)) (hs7_4 (⟨9, h⟩ : Fin cfg7.N)) (ms7_5 (⟨9, h⟩ : Fin cfg7.N)) (hs7_5 (⟨9, h⟩ : Fin cfg7.N)) (ms7_6 (⟨9, h⟩ : Fin cfg7.N)) (hs7_6 (⟨9, h⟩ : Fin cfg7.N)) scM7_0 (Memref.isWhole_whole _) (fun hh => h0 ((hcond7_0 (⟨9, h⟩ : Fin cfg7.N)).mp hh)) ((hcond7_1 (⟨9, h⟩ : Fin cfg7.N)).mpr h1) (iblk7 V c 0 (⟨9, h⟩ : Fin cfg7.N)) (iblk7 V c 1 (⟨9, h⟩ : Fin cfg7.N)) (iblk7 V c 2 (⟨9, h⟩ : Fin cfg7.N)) (iblk7 V c 3 (⟨9, h⟩ : Fin cfg7.N)) (iblk7 V c 4 (⟨9, h⟩ : Fin cfg7.N)) (iblk7 V c 5 (⟨9, h⟩ : Fin cfg7.N)) (outsAt7 V c ((⟨9, h⟩ : Fin cfg7.N).val - 1) (Nat.lt_of_le_of_lt (Nat.sub_le _ _) (⟨9, h⟩ : Fin cfg7.N).isLt)).2).trans ?_
  exact congrArg (fun a => k7_pay3 (F := Ideal) a (w1blk7 V c ⟨9, h⟩) (b1blk7 V c ⟨9, h⟩) (w2blk7 V c ⟨9, h⟩) (b2blk7 V c ⟨9, h⟩))
    (sout7_C_0_eq (F := Ideal) c (grid7.coords (⟨9, h⟩ : Fin cfg7.N)) (ms7_0 (⟨9, h⟩ : Fin cfg7.N)) (hs7_0 (⟨9, h⟩ : Fin cfg7.N)) (ms7_1 (⟨9, h⟩ : Fin cfg7.N)) (hs7_1 (⟨9, h⟩ : Fin cfg7.N)) (ms7_2 (⟨9, h⟩ : Fin cfg7.N)) (hs7_2 (⟨9, h⟩ : Fin cfg7.N)) (ms7_3 (⟨9, h⟩ : Fin cfg7.N)) (hs7_3 (⟨9, h⟩ : Fin cfg7.N)) (ms7_4 (⟨9, h⟩ : Fin cfg7.N)) (hs7_4 (⟨9, h⟩ : Fin cfg7.N)) (ms7_5 (⟨9, h⟩ : Fin cfg7.N)) (hs7_5 (⟨9, h⟩ : Fin cfg7.N)) (ms7_6 (⟨9, h⟩ : Fin cfg7.N)) (hs7_6 (⟨9, h⟩ : Fin cfg7.N)) scM7_0 (Memref.isWhole_whole _) (fun hh => h0 ((hcond7_0 (⟨9, h⟩ : Fin cfg7.N)).mp hh)) ((hcond7_1 (⟨9, h⟩ : Fin cfg7.N)).mpr h1) (iblk7 V c 0 (⟨9, h⟩ : Fin cfg7.N)) (iblk7 V c 1 (⟨9, h⟩ : Fin cfg7.N)) (iblk7 V c 2 (⟨9, h⟩ : Fin cfg7.N)) (iblk7 V c 3 (⟨9, h⟩ : Fin cfg7.N)) (iblk7 V c 4 (⟨9, h⟩ : Fin cfg7.N)) (iblk7 V c 5 (⟨9, h⟩ : Fin cfg7.N)) (outsAt7 V c ((⟨9, h⟩ : Fin cfg7.N).val - 1) (Nat.lt_of_le_of_lt (Nat.sub_le _ _) (⟨9, h⟩ : Fin cfg7.N).isLt)).2).symm

/-- What the region leaves in its output array: the last point's block, which is the whole array. -/
abbrev result7 (V : (c : Dev nD) → (b : Ref sig .tc) → Buf (Elt Ideal) ((c : Thread nD τ).loc b)) (c : Dev nD) : Buf (Elt Ideal) ((c : Thread nD τ).loc main_v119) := (outsAt7 V c 9 lt9).1

/-- The one write-back, at the last point, writes it. -/
theorem flushed7_6_eq (V : (c : Dev nD) → (b : Ref sig .tc) → Buf (Elt Ideal) ((c : Thread nD τ).loc b)) (c : Dev nD) (t : Fin cfg7.N) (hf : (cfg7.win 6).flush t = true) :
    (dat7 V c).flushed 6 t = ((cfg7.win 6).blk t).view.read (Elt Ideal) (result7 V c) := by
  have hN : cfg7.N = 10 := N_7
  have h9 : t.val = 9 := by have := (flush7_6 t).mp hf; have := t.isLt; omega
  obtain rfl : t = t7_9 := Fin.ext h9
  show (cfg7.win 6).cut (grid7.coords t7_9) ((dat7 V c).after 6 t7_9) = _
  rw [after7_6]
  have hz' : (fun a => win7_6.index t7_9 a * main_v119.ty.shape.size a) = fun _ => 0 := funext fun a => by fin_cases a <;> decide
  exact (Memref.read_access_unit_zero (Elt Ideal) main_v119 hz' (fun a => by rw [congrFun hz' a]; simp) (result7 V c)).symm

/-- So the output array ends holding it: the last point covers the array. -/
theorem final7_6 (V : (c : Dev nD) → (b : Ref sig .tc) → Buf (Elt Ideal) ((c : Thread nD τ).loc b)) (c : Dev nD) : (dat7 V c).arrAt 6 cfg7.N = result7 V c :=
  (dat7 V c).arrAt_eq_of_cover 6 (result7 V c) (flushed7_6_eq V c) fun i =>
    ⟨t7_9, (flush7_6 t7_9).mpr rfl, by
      show i ∈ ((View.whole main_v119).slice (win7_6.rect t7_9)).set
      rw [View.set_slice_whole, Rect.mem_set_unit]
      intro a
      have h0 : (i 0 : Nat) < 64 := (i 0).isLt
      have h1 : (i 1 : Nat) < 64 := (i 1).isLt
      match a with
      | ⟨0, _⟩ => show win7_6.index t7_9 0 * win7_6.size 0 ≤ (i 0 : Nat) ∧ (i 0 : Nat) < win7_6.index t7_9 0 * win7_6.size 0 + win7_6.xsize (grid7.coords t7_9) 0
                  rw [show win7_6.index t7_9 0 * win7_6.size 0 = 0 from by decide +kernel, show win7_6.xsize (grid7.coords t7_9) 0 = 64 from by decide +kernel]; omega
      | ⟨1, _⟩ => show win7_6.index t7_9 1 * win7_6.size 1 ≤ (i 1 : Nat) ∧ (i 1 : Nat) < win7_6.index t7_9 1 * win7_6.size 1 + win7_6.xsize (grid7.coords t7_9) 1
                  rw [show win7_6.index t7_9 1 * win7_6.size 1 = 0 from by decide +kernel, show win7_6.xsize (grid7.coords t7_9) 1 = 64 from by decide +kernel]; omega⟩

end Final

end R7

open R7 in
theorem val7 (V : (c : Dev nD) → (b : Ref sig .tc) → Buf (Elt Ideal) ((c : Thread nD τ).loc b)) (c : Dev nD) (g : Fin 64) (j : Fin 64) :
    ((dat7 (F := Ideal) V c).arrAt 6 cfg7.N : S64x64.Idx → EReal) (ix2 g j)
      = Gin.mlpOut (P7 V c) (Gin.ofArr2 (w1Arr7 V c)) (Gin.ofArr2Row (b1Arr7 V c) 0) (Gin.ofArr2 (w2Arr7 V c)) (Gin.ofArr2Row (b2Arr7 V c) 0) g j := by
  rw [final7_6 V c]
  show (outsAt7 V c 9 lt9).1 (ix2 g j) = _
  rw [out7_last V c lt9]
  refine (pay3_apply (acc7 V c 9 lt9) (w1blk7 V c ⟨9, lt9⟩) (b1blk7 V c ⟨9, lt9⟩) (w2blk7 V c ⟨9, lt9⟩) (b2blk7 V c ⟨9, lt9⟩) g j).trans ?_
  unfold Gin.mlpOut Gin.linTo Gin.relu
  exact congrArg₂ (· + ·)
    (Finset.sum_congr rfl fun κ' _ => congrArg₂ (· * ·)
      (congrArg₂ max
        (congrArg₂ (· + ·)
          (Finset.sum_congr rfl fun κ _ => congrArg₂ (· * ·) (acc7_last V c g κ) (w1blk7_apply V c ⟨9, lt9⟩ κ κ'))
          (b1blk7_apply V c ⟨9, lt9⟩ 0 κ'))
        rfl)
      (w2blk7_apply V c ⟨9, lt9⟩ κ' j))
    (b2blk7_apply V c ⟨9, lt9⟩ 0 j)

end Cert.KernelIdeal.Val

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KI.Host.lean ====
/-
  The first two stretches of host operations of the program, read at an index: for an arbitrary valuation W of the
  core's buffers before a stretch, what each buffer a later region reads holds after it.
  Stretch 0: the two rows of the edge table flattened, the source row normalised (a negative word has 50000 added), the
  rows of the node table gathered at the sources and summed into the destinations from a table of zeros (the neighbour
  sum); the first layer's slice of the stacked first weights as a matrix, its row of the stacked first biases as a
  [1, 128] row.
  Stretch 1: the column sums divided by the node count (the mean), the column sums of squares divided by the node count
  minus the square of the mean (the variance), and the first layer's row or slice of the four stacked batch-norm and
  second-map parameters.
  The layout lemmas and the neighbour sum over any node table and any two index rows come first; the later layers'
  stretches use them.
-/
import proofs.«430410_j38371237822819_1_alg».proof.KernelIdeal
import proofs.«430410_j38371237822819_1_alg».proof.Proof.Gen.KernelIdeal.Launch
import proofs.«430410_j38371237822819_1_alg».proof.Proof.Gen.KernelIdeal.Regions
import proofs.«430410_j38371237822819_1_alg».proof.Proof.Spec
import proofs.«430410_j38371237822819_1_alg».proof.Proof.LibRows
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx

/-! ## Layout operations of these stretches, read by coordinates -/

section Layout
variable {α : Type}

/-- Row `k` of an `[n, E]` table, cut out as a `[1, E]` slice and flattened to `[E]`, reads at `e` the table at `(k, e)`. -/
theorem sliceRow_flat_apply {n E : ℕ} (o : ℕ) (X : (⟨2, ![n, E]⟩ : Shape).Idx → α)
    (hs : (⟨2, ![n, E]⟩ : Shape).Slices ![o, 0] ⟨2, ![1, E]⟩) (hc : (⟨2, ![1, E]⟩ : Shape).ShapeCasts ⟨1, ![E]⟩)
    (e : Fin E) (k : Fin n) (hk : k.val = o) :
    shapeCast ⟨1, ![E]⟩ (extractStridedSlice ⟨2, ![1, E]⟩ ![o, 0] X hs) hc (ix1 e) = X (ix2 k e) :=
  (shapeCast_1a_a_apply _ hc e).trans (slice2_axis0_apply o X hs 0 e k (by show k.val = o + 0; omega))

/-- Slice `k` of an `[n, a, b]` stack, cut out as `[1, a, b]` and cast to the matrix `[a, b]`, reads at `(i, j)` the
    stack at `(k, i, j)`. -/
theorem sliceMat_apply {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩)
    (i : Fin a) (j : Fin b) (k : Fin n) (hk : k.val = o) :
    shapeCast ⟨2, ![a, b]⟩ (extractStridedSlice ⟨3, ![1, a, b]⟩ ![o, 0, 0] X hs) hc (ix2 i j) = X (ix3 k i j) :=
  (shapeCast_1ab_ab_apply _ hc i j).trans (extractStridedSlice_apply _ X hs _ _ fun ax => by
    match ax with
    | ⟨0, _⟩ => show k.val = o + 0; omega
    | ⟨1, _⟩ => exact (Nat.zero_add _).symm
    | ⟨2, _⟩ => exact (Nat.zero_add _).symm)

/-- A vector `[E]` set as a column `[E, 1]` reads at `(e, u)` the vector at `e`. -/
theorem bcastCol_apply {E : ℕ} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply _ h v _ (ix1 e) fun a => ?_
  match a with
  | ⟨0, _⟩ =>
    show e.val = if E = 1 then 0 else e.val
    split
    · have := e.isLt; omega
    · rfl

/-- A vector `[m]` set as a row `[1, m]` reads at `(u, g)` the vector at `g`. -/
theorem bcastRow_apply {m : ℕ} (v : (⟨1, ![m]⟩ : Shape).Idx → α)
    (h : (⟨1, ![m]⟩ : Shape).BroadcastsInDim ⟨2, ![1, m]⟩ ![1]) (u : Fin 1) (g : Fin m) :
    broadcastInDim ⟨2, ![1, m]⟩ ![1] h v (ix2 u g) = v (ix1 g) := by
  refine broadcastInDim_apply _ h v _ (ix1 g) fun a => ?_
  match a with
  | ⟨0, _⟩ =>
    show g.val = if m = 1 then 0 else g.val
    split
    · have := g.isLt; omega
    · rfl

/-- A column `[n, 1]` repeated along `m` columns reads at `(p, g)` the column at `(p, 0)`. -/
theorem bcastColAcross_apply {n m : ℕ} (v : (⟨2, ![n, 1]⟩ : Shape).Idx → α)
    (h : (⟨2, ![n, 1]⟩ : Shape).BroadcastsInDim ⟨2, ![n, m]⟩ ![0, 1]) (p : Fin n) (g : Fin m) :
    broadcastInDim ⟨2, ![n, m]⟩ ![0, 1] h v (ix2 p g) = v (ix2 p (0 : Fin 1)) := by
  refine broadcastInDim_apply _ h v _ (ix2 p (0 : Fin 1)) fun a => ?_
  match a with
  | ⟨0, _⟩ =>
    show p.val = if n = 1 then 0 else p.val
    split
    · have := p.isLt; omega
    · rfl
  | ⟨1, _⟩ => rfl

/-- A row `[1, m]` repeated along `n` rows reads at `(p, g)` the row at `(0, g)`. -/
theorem bcastRowDown_apply {n m : ℕ} (v : (⟨2, ![1, m]⟩ : Shape).Idx → α)
    (h : (⟨2, ![1, m]⟩ : Shape).BroadcastsInDim ⟨2, ![n, m]⟩ ![0, 1]) (p : Fin n) (g : Fin m) :
    broadcastInDim ⟨2, ![n, m]⟩ ![0, 1] h v (ix2 p g) = v (ix2 (0 : Fin 1) g) := by
  refine broadcastInDim_apply _ h v _ (ix2 (0 : Fin 1) g) fun a => ?_
  match a with
  | ⟨0, _⟩ => rfl
  | ⟨1, _⟩ =>
    show g.val = if m = 1 then 0 else g.val
    split
    · have := g.isLt; omega
    · rfl

end Layout

/-! ## The index normalisation -/

/-- The programs' normalisation of a source word, operation by operation: compare with 0 signed, add 50000, select. -/
theorem normWord_eq (w : BitVec 32) :
    Scalar.select (IntOp.cmpi .slt w 0#32) (IntOp.addi w 50000#32) w = Gin.normIdx w := by
  unfold Scalar.select IntOp.cmpi IntOp.addi Gin.normIdx
  cases h : w.slt 0#32 <;> simp

/-! ## The host's accumulating scatter at the ideal instance -/

/-- At the ideal instance the accumulating scatter is the exact sum of the updates that land on each entry. -/
theorem scatterAdd_eq {s si su : Shape} {w : ℕ} (d : ScatterDims s si su) (x : s.Idx → EReal) (idx : IVec si w)
    (upd : su.Idx → EReal) :
    Host.scatterAdd (F := Ideal) (φ := FTy.f32) d x idx upd = Ideal.hostScatterAdd d x idx upd := rfl

/-- A scalar constant broadcast to any shape reads its value everywhere. -/
theorem bcastConst_apply {t : Shape} (h : (⟨0, ![]⟩ : Shape).BroadcastsInDim t ![]) (b : BitVec 32) (j : t.Idx) :
    broadcastInDim t ![] h (constant (F := Ideal) ⟨0, ![]⟩ FTy.f32 b) j = Ideal.ofBits .f32 b := rfl

/-! ## The neighbour sum, over any node table and any two index rows -/

/-- The normalised source column read at an edge: the word with 50000 added when it is negative. -/
theorem normCol_apply (src : S600000.Idx → BitVec 32) (e : Fin 600000) (u : Fin 1) :
    broadcastInDim S600000x1 ![0] bcast_S600000_S600000x1_0
        (select (cmpi CmpIPredicate.slt src (broadcastInDim S600000 ![] bcast_S_S600000 (constantI S_ 32 0#32)))
          (addi src (broadcastInDim S600000 ![] bcast_S_S600000 (constantI S_ 32 50000#32))) src) (ix2 e u)
      = Gin.normIdx (src (ix1 e)) :=
  (bcastCol_apply _ bcast_S600000_S600000x1_0 e u).trans (normWord_eq (src (ix1 e)))

/-- Rows of `x` gathered at the normalised sources and summed into the destinations from a table of zeros, read at
    `(n, j)`: the neighbour sum of the vocabulary. -/
theorem aggregate_apply (x : S50000x128.Idx → EReal) (src dst : S600000.Idx → BitVec 32) (n : Fin 50000) (j : Fin 128) :
    Host.scatterAdd (F := Ideal) scatter_S50000x128_S600000x1_S600000x128_1_0_0_1
        (broadcastInDim S50000x128 ![] bcast_S_S50000x128 (constant (F := Ideal) S_ FTy.f32 0x00000000#32))
        (broadcastInDim S600000x1 ![0] bcast_S600000_S600000x1_0 dst)
        (Host.gather gather_S50000x128_S600000x1_S600000x128_1_0_n_n_0_1_1128 x
          (broadcastInDim S600000x1 ![0] bcast_S600000_S600000x1_0
            (select (cmpi CmpIPredicate.slt src (broadcastInDim S600000 ![] bcast_S_S600000 (constantI S_ 32 0#32)))
              (addi src (broadcastInDim S600000 ![] bcast_S_S600000 (constantI S_ 32 50000#32))) src)))
        (ix2 n j)
      = Gin.aggOf (fun e => src (ix1 e)) (fun e => dst (ix1 e)) (Gin.ofArr2 (r := 50000) (c := 128) x) n j := by
  rw [scatterAdd_eq]
  refine (Gcn.Rows.scatterAdd_rows scatter_S50000x128_S600000x1_S600000x128_1_0_0_1 rfl rfl rfl rfl _ _ _ n j).trans ?_
  -- the operand is the table of zeros
  rw [bcastConst_apply, Ideal.ofBits_zero_f32, zero_add]
  unfold Gin.aggOf Gin.ofArr2
  refine Finset.sum_congr rfl fun e _ => ?_
  -- the destination word of edge e, then the row gathered for it
  rw [bcastCol_apply dst bcast_S600000_S600000x1_0 e 0,
    Gcn.Rows.gather_rows gather_S50000x128_S600000x1_S600000x128_1_0_n_n_0_1_1128 rfl rfl rfl rfl rfl rfl x _ e j
      (by omega)]
  refine if_congr Iff.rfl (congrArg (fun r : Fin 50000 => x (ix2 r j)) (Fin.ext ?_)) rfl
  show min (BitVec.toInt _).toNat (50000 - 1) = min (Gin.normIdx (src (ix1 e))).toInt.toNat (50000 - 1)
  rw [normCol_apply src e 0]

variable (W : Valuation τ sig (Elt Ideal))

/-! ## Stretch 0 -/

/-- The flattened source row: row 0 of the edge table. -/
theorem host0_src (e : Fin 600000) :
    (StableHlo.after (hostOps0 (F := Ideal)) W (Proc.devRef .tc main_v1) : S600000.Idx → BitVec 32) (ix1 e)
      = (W (Proc.devRef .tc main_arg1) : S2x600000.Idx → BitVec 32) (ix2 (0 : Fin 2) e) := by
  dsimp only [hostOps0]
  after_results_simp
  exact sliceRow_flat_apply 0 _ _ _ e 0 rfl

/-- The flattened destination row: row 1 of the edge table. -/
theorem host0_dst (e : Fin 600000) :
    (StableHlo.after (hostOps0 (F := Ideal)) W (Proc.devRef .tc main_v3) : S600000.Idx → BitVec 32) (ix1 e)
      = (W (Proc.devRef .tc main_arg1) : S2x600000.Idx → BitVec 32) (ix2 (1 : Fin 2) e) := by
  dsimp only [hostOps0]
  after_results_simp
  exact sliceRow_flat_apply 1 _ _ _ e 1 rfl

/-- The neighbour sum: the table of zeros with, added at node `n`, the gathered source row of every edge whose destination
    word, read signed, is `n`. -/
theorem host0_agg :
    Gin.ofArr2 (r := 50000) (c := 128) (StableHlo.after (hostOps0 (F := Ideal)) W (Proc.devRef .tc main_v13))
      = Gin.aggOf (fun e => (W (Proc.devRef .tc main_arg1) : S2x600000.Idx → BitVec 32) (ix2 (0 : Fin 2) e))
          (fun e => (W (Proc.devRef .tc main_arg1) : S2x600000.Idx → BitVec 32) (ix2 (1 : Fin 2) e))
          (Gin.ofArr2 (r := 50000) (c := 128) (W (Proc.devRef .tc main_arg0))) := by
  funext n j
  show (StableHlo.after (hostOps0 (F := Ideal)) W (Proc.devRef .tc main_v13) : S50000x128.Idx → EReal) (ix2 n j) = _
  dsimp only [hostOps0]
  after_results_simp
  refine (aggregate_apply _ _ _ n j).trans ?_
  exact congrFun (congrFun (congrArg₂
    (fun s d => Gin.aggOf s d (Gin.ofArr2 (r := 50000) (c := 128) (W (Proc.devRef .tc main_arg0))))
    (funext fun e => sliceRow_flat_apply 0 (W (Proc.devRef .tc main_arg1)) _ _ e 0 rfl)
    (funext fun e => sliceRow_flat_apply 1 (W (Proc.devRef .tc main_arg1)) _ _ e 1 rfl)) n) j

/-- The first layer's slice of the stacked first weights, as a matrix. -/
theorem host0_w1 :
    Gin.ofArr2 (r := 128) (c := 128) (StableHlo.after (hostOps0 (F := Ideal)) W (Proc.devRef .tc main_v15))
      = fun κ j => (W (Proc.devRef .tc main_arg3) : S3x128x128.Idx → EReal) (ix3 (0 : Fin 3) κ j) := by
  funext κ j
  show (StableHlo.after (hostOps0 (F := Ideal)) W (Proc.devRef .tc main_v15) : S128x128.Idx → EReal) (ix2 κ j) = _
  dsimp only [hostOps0]
  after_results_simp
  exact sliceMat_apply 0 _ _ _ κ j 0 rfl

/-- The first layer's row of the stacked first biases, as a [1, 128] row. -/
theorem host0_b1 (u : Fin 1) (j : Fin 128) :
    (StableHlo.after (hostOps0 (F := Ideal)) W (Proc.devRef .tc main_v18) : S1x128.Idx → EReal) (ix2 u j)
      = (W (Proc.devRef .tc main_arg4) : S3x128.Idx → EReal) (ix2 (0 : Fin 3) j) := by
  dsimp only [hostOps0]
  after_results_simp
  exact (shapeCast_a_1a_apply _ _ u j).trans (sliceRow_flat_apply 0 _ _ _ j 0 rfl)

/-- A buffer the stretch does not write is as before it. -/
theorem host0_keep (r : Ref sig .tc) (h : r ∉ hostOps0_W) :
    StableHlo.after (hostOps0 (F := Ideal)) W (Proc.devRef .tc r) = W (Proc.devRef .tc r) :=
  StableHlo.after_of_writes_sub hostOps0 W hostOps0_writes h

/-! ## Stretch 1 -/

/-- The column means: the column sums divided by the node count. -/
theorem host1_mean (u : Fin 1) (j : Fin 128) :
    (StableHlo.after (hostOps1 (F := Ideal)) W (Proc.devRef .tc main_v21) : S1x128.Idx → EReal) (ix2 u j)
      = Ideal.div ((W (Proc.devRef .tc main_v19_1) : S1x128.Idx → EReal) (ix2 u j)) Gin.nCount := by
  dsimp only [hostOps1]
  after_results_simp
  rfl

/-- The variance: the column sums of squares divided by the node count, minus the square of the mean. -/
theorem host1_var (u : Fin 1) (j : Fin 128) :
    (StableHlo.after (hostOps1 (F := Ideal)) W (Proc.devRef .tc main_v25) : S1x128.Idx → EReal) (ix2 u j)
      = Ideal.div ((W (Proc.devRef .tc main_v19_2) : S1x128.Idx → EReal) (ix2 u j)) Gin.nCount
        - Ideal.div ((W (Proc.devRef .tc main_v19_1) : S1x128.Idx → EReal) (ix2 u j)) Gin.nCount
          * Ideal.div ((W (Proc.devRef .tc main_v19_1) : S1x128.Idx → EReal) (ix2 u j)) Gin.nCount := by
  dsimp only [hostOps1]
  after_results_simp
  rfl

/-- This layer's row of the stacked batch-norm scales, as a [1, 128] row. -/
theorem host1_gamma (u : Fin 1) (j : Fin 128) :
    (StableHlo.after (hostOps1 (F := Ideal)) W (Proc.devRef .tc main_v34) : S1x128.Idx → EReal) (ix2 u j)
      = (W (Proc.devRef .tc main_arg5) : S3x128.Idx → EReal) (ix2 (0 : Fin 3) j) := by
  dsimp only [hostOps1]
  after_results_simp
  exact (shapeCast_a_1a_apply _ _ u j).trans (sliceRow_flat_apply _ _ _ _ j (0 : Fin 3) rfl)

/-- This layer's row of the stacked batch-norm shifts, as a [1, 128] row. -/
theorem host1_beta (u : Fin 1) (j : Fin 128) :
    (StableHlo.after (hostOps1 (F := Ideal)) W (Proc.devRef .tc main_v35) : S1x128.Idx → EReal) (ix2 u j)
      = (W (Proc.devRef .tc main_arg6) : S3x128.Idx → EReal) (ix2 (0 : Fin 3) j) := by
  dsimp only [hostOps1]
  after_results_simp
  exact (shapeCast_a_1a_apply _ _ u j).trans (sliceRow_flat_apply _ _ _ _ j (0 : Fin 3) rfl)

/-- This layer's slice of the stacked second weights, as a matrix. -/
theorem host1_w2 :
    Gin.ofArr2 (r := 128) (c := 128) (StableHlo.after (hostOps1 (F := Ideal)) W (Proc.devRef .tc main_v31))
      = fun κ j => (W (Proc.devRef .tc main_arg7) : S3x128x128.Idx → EReal) (ix3 (0 : Fin 3) κ j) := by
  funext κ j
  show (StableHlo.after (hostOps1 (F := Ideal)) W (Proc.devRef .tc main_v31) : S128x128.Idx → EReal) (ix2 κ j) = _
  dsimp only [hostOps1]
  after_results_simp
  exact sliceMat_apply _ _ _ _ κ j (0 : Fin 3) rfl

/-- This layer's row of the stacked second biases, as a [1, 128] row. -/
theorem host1_b2 (u : Fin 1) (j : Fin 128) :
    (StableHlo.after (hostOps1 (F := Ideal)) W (Proc.devRef .tc main_v36) : S1x128.Idx → EReal) (ix2 u j)
      = (W (Proc.devRef .tc main_arg8) : S3x128.Idx → EReal) (ix2 (0 : Fin 3) j) := by
  dsimp only [hostOps1]
  after_results_simp
  exact (shapeCast_a_1a_apply _ _ u j).trans (sliceRow_flat_apply _ _ _ _ j (0 : Fin 3) rfl)

/-- A buffer the stretch does not write is as before it. -/
theorem host1_keep (r : Ref sig .tc) (h : r ∉ hostOps1_W) :
    StableHlo.after (hostOps1 (F := Ideal)) W (Proc.devRef .tc r) = W (Proc.devRef .tc r) :=
  StableHlo.after_of_writes_sub hostOps1 W hostOps1_writes h

end Cert.KernelIdeal.Val

end
-- ==== Proof.KI.Host2.lean ====
/-
  The stretch of host operations before the second layer's first kernel region, read at an index, for an arbitrary
  valuation W of the core's buffers before it: the neighbour sum of the node table the first layer left (the source row
  normalised, the rows gathered at the sources and summed into the destinations from a table of zeros; the two flattened
  rows of the edge table are those stretch 0 wrote), the second layer's slice of the stacked first weights as a matrix,
  and its row of the stacked first biases as a [1, 128] row.
-/
import proofs.«430410_j38371237822819_1_alg».proof.Proof.KI.Host

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Stretch 2 -/

/-- The neighbour sum of the table the previous layer left: the table of zeros with, added at node `n`, the gathered
    source row of every edge whose destination word, read signed, is `n`; the two flattened rows of the edge table are
    read where stretch 0 left them. -/
theorem host2_agg :
    Gin.ofArr2 (r := 50000) (c := 128) (StableHlo.after (hostOps2 (F := Ideal)) W (Proc.devRef .tc main_v47))
      = Gin.aggOf (fun e => (W (Proc.devRef .tc main_v1) : S600000.Idx → BitVec 32) (ix1 e))
          (fun e => (W (Proc.devRef .tc main_v3) : S600000.Idx → BitVec 32) (ix1 e))
          (Gin.ofArr2 (r := 50000) (c := 128) (W (Proc.devRef .tc main_v37))) := by
  funext n j
  show (StableHlo.after (hostOps2 (F := Ideal)) W (Proc.devRef .tc main_v47) : S50000x128.Idx → EReal) (ix2 n j) = _
  dsimp only [hostOps2]
  after_results_simp
  exact aggregate_apply _ _ _ n j

/-- This layer's slice of the stacked first weights, as a matrix. -/
theorem host2_w1 :
    Gin.ofArr2 (r := 128) (c := 128) (StableHlo.after (hostOps2 (F := Ideal)) W (Proc.devRef .tc main_v49))
      = fun κ j => (W (Proc.devRef .tc main_arg3) : S3x128x128.Idx → EReal) (ix3 (1 : Fin 3) κ j) := by
  funext κ j
  show (StableHlo.after (hostOps2 (F := Ideal)) W (Proc.devRef .tc main_v49) : S128x128.Idx → EReal) (ix2 κ j) = _
  dsimp only [hostOps2]
  after_results_simp
  exact sliceMat_apply _ _ _ _ κ j (1 : Fin 3) rfl

/-- This layer's row of the stacked first biases, as a [1, 128] row. -/
theorem host2_b1 (u : Fin 1) (j : Fin 128) :
    (StableHlo.after (hostOps2 (F := Ideal)) W (Proc.devRef .tc main_v52) : S1x128.Idx → EReal) (ix2 u j)
      = (W (Proc.devRef .tc main_arg4) : S3x128.Idx → EReal) (ix2 (1 : Fin 3) j) := by
  dsimp only [hostOps2]
  after_results_simp
  exact (shapeCast_a_1a_apply _ _ u j).trans (sliceRow_flat_apply _ _ _ _ j (1 : Fin 3) rfl)

/-- A buffer the stretch does not write is as before it. -/
theorem host2_keep (r : Ref sig .tc) (h : r ∉ hostOps2_W) :
    StableHlo.after (hostOps2 (F := Ideal)) W (Proc.devRef .tc r) = W (Proc.devRef .tc r) :=
  StableHlo.after_of_writes_sub hostOps2 W hostOps2_writes h

end Cert.KernelIdeal.Val

end
-- ==== Proof.KI.Host3.lean ====
/-
  The stretch of host operations before the second layer's second kernel region, read at an index, for an arbitrary
  valuation W of the core's buffers before it: the column sums divided by the node count (the mean), the column sums of
  squares divided by the node count minus the square of the mean (the variance), and the second layer's row or slice of
  the four stacked batch-norm and second-map parameters.
-/
import proofs.«430410_j38371237822819_1_alg».proof.Proof.KI.Host

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Stretch 3 -/

/-- The column means: the column sums divided by the node count. -/
theorem host3_mean (u : Fin 1) (j : Fin 128) :
    (StableHlo.after (hostOps3 (F := Ideal)) W (Proc.devRef .tc main_v55) : S1x128.Idx → EReal) (ix2 u j)
      = Ideal.div ((W (Proc.devRef .tc main_v53_1) : S1x128.Idx → EReal) (ix2 u j)) Gin.nCount := by
  dsimp only [hostOps3]
  after_results_simp
  rfl

/-- The variance: the column sums of squares divided by the node count, minus the square of the mean. -/
theorem host3_var (u : Fin 1) (j : Fin 128) :
    (StableHlo.after (hostOps3 (F := Ideal)) W (Proc.devRef .tc main_v59) : S1x128.Idx → EReal) (ix2 u j)
      = Ideal.div ((W (Proc.devRef .tc main_v53_2) : S1x128.Idx → EReal) (ix2 u j)) Gin.nCount
        - Ideal.div ((W (Proc.devRef .tc main_v53_1) : S1x128.Idx → EReal) (ix2 u j)) Gin.nCount
          * Ideal.div ((W (Proc.devRef .tc main_v53_1) : S1x128.Idx → EReal) (ix2 u j)) Gin.nCount := by
  dsimp only [hostOps3]
  after_results_simp
  rfl

/-- This layer's row of the stacked batch-norm scales, as a [1, 128] row. -/
theorem host3_gamma (u : Fin 1) (j : Fin 128) :
    (StableHlo.after (hostOps3 (F := Ideal)) W (Proc.devRef .tc main_v68) : S1x128.Idx → EReal) (ix2 u j)
      = (W (Proc.devRef .tc main_arg5) : S3x128.Idx → EReal) (ix2 (1 : Fin 3) j) := by
  dsimp only [hostOps3]
  after_results_simp
  exact (shapeCast_a_1a_apply _ _ u j).trans (sliceRow_flat_apply _ _ _ _ j (1 : Fin 3) rfl)

/-- This layer's row of the stacked batch-norm shifts, as a [1, 128] row. -/
theorem host3_beta (u : Fin 1) (j : Fin 128) :
    (StableHlo.after (hostOps3 (F := Ideal)) W (Proc.devRef .tc main_v69) : S1x128.Idx → EReal) (ix2 u j)
      = (W (Proc.devRef .tc main_arg6) : S3x128.Idx → EReal) (ix2 (1 : Fin 3) j) := by
  dsimp only [hostOps3]
  after_results_simp
  exact (shapeCast_a_1a_apply _ _ u j).trans (sliceRow_flat_apply _ _ _ _ j (1 : Fin 3) rfl)

/-- This layer's slice of the stacked second weights, as a matrix. -/
theorem host3_w2 :
    Gin.ofArr2 (r := 128) (c := 128) (StableHlo.after (hostOps3 (F := Ideal)) W (Proc.devRef .tc main_v65))
      = fun κ j => (W (Proc.devRef .tc main_arg7) : S3x128x128.Idx → EReal) (ix3 (1 : Fin 3) κ j) := by
  funext κ j
  show (StableHlo.after (hostOps3 (F := Ideal)) W (Proc.devRef .tc main_v65) : S128x128.Idx → EReal) (ix2 κ j) = _
  dsimp only [hostOps3]
  after_results_simp
  exact sliceMat_apply _ _ _ _ κ j (1 : Fin 3) rfl

/-- This layer's row of the stacked second biases, as a [1, 128] row. -/
theorem host3_b2 (u : Fin 1) (j : Fin 128) :
    (StableHlo.after (hostOps3 (F := Ideal)) W (Proc.devRef .tc main_v70) : S1x128.Idx → EReal) (ix2 u j)
      = (W (Proc.devRef .tc main_arg8) : S3x128.Idx → EReal) (ix2 (1 : Fin 3) j) := by
  dsimp only [hostOps3]
  after_results_simp
  exact (shapeCast_a_1a_apply _ _ u j).trans (sliceRow_flat_apply _ _ _ _ j (1 : Fin 3) rfl)

/-- A buffer the stretch does not write is as before it. -/
theorem host3_keep (r : Ref sig .tc) (h : r ∉ hostOps3_W) :
    StableHlo.after (hostOps3 (F := Ideal)) W (Proc.devRef .tc r) = W (Proc.devRef .tc r) :=
  StableHlo.after_of_writes_sub hostOps3 W hostOps3_writes h

end Cert.KernelIdeal.Val

end
-- ==== Proof.KI.Host4.lean ====
/-
  The stretch of host operations before the third layer's first kernel region, read at an index, for an arbitrary
  valuation W of the core's buffers before it: the neighbour sum of the node table the second layer left (the source row
  normalised, the rows gathered at the sources and summed into the destinations from a table of zeros; the two flattened
  rows of the edge table are those stretch 0 wrote), the third layer's slice of the stacked first weights as a matrix,
  and its row of the stacked first biases as a [1, 128] row.
-/
import proofs.«430410_j38371237822819_1_alg».proof.Proof.KI.Host

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Stretch 4 -/

/-- The neighbour sum of the table the previous layer left: the table of zeros with, added at node `n`, the gathered
    source row of every edge whose destination word, read signed, is `n`; the two flattened rows of the edge table are
    read where stretch 0 left them. -/
theorem host4_agg :
    Gin.ofArr2 (r := 50000) (c := 128) (StableHlo.after (hostOps4 (F := Ideal)) W (Proc.devRef .tc main_v81))
      = Gin.aggOf (fun e => (W (Proc.devRef .tc main_v1) : S600000.Idx → BitVec 32) (ix1 e))
          (fun e => (W (Proc.devRef .tc main_v3) : S600000.Idx → BitVec 32) (ix1 e))
          (Gin.ofArr2 (r := 50000) (c := 128) (W (Proc.devRef .tc main_v71))) := by
  funext n j
  show (StableHlo.after (hostOps4 (F := Ideal)) W (Proc.devRef .tc main_v81) : S50000x128.Idx → EReal) (ix2 n j) = _
  dsimp only [hostOps4]
  after_results_simp
  exact aggregate_apply _ _ _ n j

/-- This layer's slice of the stacked first weights, as a matrix. -/
theorem host4_w1 :
    Gin.ofArr2 (r := 128) (c := 128) (StableHlo.after (hostOps4 (F := Ideal)) W (Proc.devRef .tc main_v83))
      = fun κ j => (W (Proc.devRef .tc main_arg3) : S3x128x128.Idx → EReal) (ix3 (2 : Fin 3) κ j) := by
  funext κ j
  show (StableHlo.after (hostOps4 (F := Ideal)) W (Proc.devRef .tc main_v83) : S128x128.Idx → EReal) (ix2 κ j) = _
  dsimp only [hostOps4]
  after_results_simp
  exact sliceMat_apply _ _ _ _ κ j (2 : Fin 3) rfl

/-- This layer's row of the stacked first biases, as a [1, 128] row. -/
theorem host4_b1 (u : Fin 1) (j : Fin 128) :
    (StableHlo.after (hostOps4 (F := Ideal)) W (Proc.devRef .tc main_v86) : S1x128.Idx → EReal) (ix2 u j)
      = (W (Proc.devRef .tc main_arg4) : S3x128.Idx → EReal) (ix2 (2 : Fin 3) j) := by
  dsimp only [hostOps4]
  after_results_simp
  exact (shapeCast_a_1a_apply _ _ u j).trans (sliceRow_flat_apply _ _ _ _ j (2 : Fin 3) rfl)

/-- A buffer the stretch does not write is as before it. -/
theorem host4_keep (r : Ref sig .tc) (h : r ∉ hostOps4_W) :
    StableHlo.after (hostOps4 (F := Ideal)) W (Proc.devRef .tc r) = W (Proc.devRef .tc r) :=
  StableHlo.after_of_writes_sub hostOps4 W hostOps4_writes h

end Cert.KernelIdeal.Val

end
-- ==== Proof.KI.Host5.lean ====
/-
  The stretch of host operations before the third layer's second kernel region, read at an index, for an arbitrary
  valuation W of the core's buffers before it: the column sums divided by the node count (the mean), the column sums of
  squares divided by the node count minus the square of the mean (the variance), and the third layer's row or slice of
  the four stacked batch-norm and second-map parameters.
-/
import proofs.«430410_j38371237822819_1_alg».proof.Proof.KI.Host

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Stretch 5 -/

/-- The column means: the column sums divided by the node count. -/
theorem host5_mean (u : Fin 1) (j : Fin 128) :
    (StableHlo.after (hostOps5 (F := Ideal)) W (Proc.devRef .tc main_v89) : S1x128.Idx → EReal) (ix2 u j)
      = Ideal.div ((W (Proc.devRef .tc main_v87_1) : S1x128.Idx → EReal) (ix2 u j)) Gin.nCount := by
  dsimp only [hostOps5]
  after_results_simp
  rfl

/-- The variance: the column sums of squares divided by the node count, minus the square of the mean. -/
theorem host5_var (u : Fin 1) (j : Fin 128) :
    (StableHlo.after (hostOps5 (F := Ideal)) W (Proc.devRef .tc main_v93) : S1x128.Idx → EReal) (ix2 u j)
      = Ideal.div ((W (Proc.devRef .tc main_v87_2) : S1x128.Idx → EReal) (ix2 u j)) Gin.nCount
        - Ideal.div ((W (Proc.devRef .tc main_v87_1) : S1x128.Idx → EReal) (ix2 u j)) Gin.nCount
          * Ideal.div ((W (Proc.devRef .tc main_v87_1) : S1x128.Idx → EReal) (ix2 u j)) Gin.nCount := by
  dsimp only [hostOps5]
  after_results_simp
  rfl

/-- This layer's row of the stacked batch-norm scales, as a [1, 128] row. -/
theorem host5_gamma (u : Fin 1) (j : Fin 128) :
    (StableHlo.after (hostOps5 (F := Ideal)) W (Proc.devRef .tc main_v102) : S1x128.Idx → EReal) (ix2 u j)
      = (W (Proc.devRef .tc main_arg5) : S3x128.Idx → EReal) (ix2 (2 : Fin 3) j) := by
  dsimp only [hostOps5]
  after_results_simp
  exact (shapeCast_a_1a_apply _ _ u j).trans (sliceRow_flat_apply _ _ _ _ j (2 : Fin 3) rfl)

/-- This layer's row of the stacked batch-norm shifts, as a [1, 128] row. -/
theorem host5_beta (u : Fin 1) (j : Fin 128) :
    (StableHlo.after (hostOps5 (F := Ideal)) W (Proc.devRef .tc main_v103) : S1x128.Idx → EReal) (ix2 u j)
      = (W (Proc.devRef .tc main_arg6) : S3x128.Idx → EReal) (ix2 (2 : Fin 3) j) := by
  dsimp only [hostOps5]
  after_results_simp
  exact (shapeCast_a_1a_apply _ _ u j).trans (sliceRow_flat_apply _ _ _ _ j (2 : Fin 3) rfl)

/-- This layer's slice of the stacked second weights, as a matrix. -/
theorem host5_w2 :
    Gin.ofArr2 (r := 128) (c := 128) (StableHlo.after (hostOps5 (F := Ideal)) W (Proc.devRef .tc main_v99))
      = fun κ j => (W (Proc.devRef .tc main_arg7) : S3x128x128.Idx → EReal) (ix3 (2 : Fin 3) κ j) := by
  funext κ j
  show (StableHlo.after (hostOps5 (F := Ideal)) W (Proc.devRef .tc main_v99) : S128x128.Idx → EReal) (ix2 κ j) = _
  dsimp only [hostOps5]
  after_results_simp
  exact sliceMat_apply _ _ _ _ κ j (2 : Fin 3) rfl

/-- This layer's row of the stacked second biases, as a [1, 128] row. -/
theorem host5_b2 (u : Fin 1) (j : Fin 128) :
    (StableHlo.after (hostOps5 (F := Ideal)) W (Proc.devRef .tc main_v104) : S1x128.Idx → EReal) (ix2 u j)
      = (W (Proc.devRef .tc main_arg8) : S3x128.Idx → EReal) (ix2 (2 : Fin 3) j) := by
  dsimp only [hostOps5]
  after_results_simp
  exact (shapeCast_a_1a_apply _ _ u j).trans (sliceRow_flat_apply _ _ _ _ j (2 : Fin 3) rfl)

/-- A buffer the stretch does not write is as before it. -/
theorem host5_keep (r : Ref sig .tc) (h : r ∉ hostOps5_W) :
    StableHlo.after (hostOps5 (F := Ideal)) W (Proc.devRef .tc r) = W (Proc.devRef .tc r) :=
  StableHlo.after_of_writes_sub hostOps5 W hostOps5_writes h

end Cert.KernelIdeal.Val

end
-- ==== Proof.KI.Host67.lean ====
/-
  The last two stretches of host operations of the program: the biases of the two heads laid out as one-row arrays, and
  the one-hot table of the nodes' graph ids, each read at an index, whatever the buffers hold before the stretch.
-/
import proofs.«430410_j38371237822819_1_alg».proof.KernelIdeal
import proofs.«430410_j38371237822819_1_alg».proof.Proof.Gen.KernelIdeal.Launch
import proofs.«430410_j38371237822819_1_alg».proof.Proof.Gen.KernelIdeal.Regions
import proofs.«430410_j38371237822819_1_alg».proof.Proof.Spec
import proofs.«430410_j38371237822819_1_alg».proof.Proof.Math
import Idealize.ShloMosaic.Lib.StableHlo.Run
import Idealize.ShloMosaic.Lib.StableHlo.Predicate
import Idealize.ShloMosaic.Lib.ValueIdx
import Idealize.ShloMosaic.Lib.ValueLayout
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open scoped BigOperators

/-! ## Indices spelt two ways -/

/-- The rank-2 index of two coordinates, in the spelling of the broadcast lemmas. -/
theorem h67_ix2_eq_ij {n m : Nat} (p : Fin n) (q : Fin m) : ix2 p q = StableHlo.Predicate.ij p q :=
  funext fun a => by match a with | ⟨0, _⟩ => rfl | ⟨1, _⟩ => rfl

/-- The rank-1 index of a coordinate, likewise. -/
theorem h67_ofFin_eq_ix1 {n : Nat} (p : Fin n) : (Shape.Idx.ofFin p : (⟨1, ![n]⟩ : Shape).Idx) = ix1 p :=
  funext fun a => by match a with | ⟨0, _⟩ => rfl

/-- A one-bit word read as an unsigned number at the ideal values: 1 for the set bit, 0 otherwise. -/
theorem h67_uitofp_bit (b : BitVec 1) : FloatOps.uitofp (F := Ideal) .f32 b = if b = 1#1 then (1 : EReal) else 0 := by
  rcases BitVec.eq_zero_or_eq_one b with h | h <;> subst h
  · show (((0#1 : BitVec 1).toNat : ℝ) : EReal) = _
    rw [if_neg (by decide)]; simp
  · show (((1#1 : BitVec 1).toNat : ℝ) : EReal) = _
    rw [if_pos rfl]; simp

/-! ## The stretch before the reconstruction head: three biases as one-row arrays -/

/-- The first bias of the reconstruction head, as a [1,128] array, read at (0, j). -/
theorem host6_b1 (W : Valuation τ sig (Elt Ideal)) (j : Fin 128) :
    (StableHlo.after hostOps6 W (Proc.devRef .tc main_v106) : S1x128.Idx → EReal) (ix2 0 j)
      = (W (Proc.devRef .tc main_arg10) : S128.Idx → EReal) (ix1 j) := by
  have e : (StableHlo.after hostOps6 W (Proc.devRef .tc main_v106) : S1x128.Idx → EReal)
      = shapeCast S1x128 (W (Proc.devRef .tc main_arg10) : S128.Idx → EReal) shapeCasts_S128_S1x128 := by
    after_results <;> rfl
  rw [e]
  exact shapeCast_a_1a_apply _ _ 0 j

/-- The second bias of the reconstruction head, as a [1,128] array, read at (0, j). -/
theorem host6_b2 (W : Valuation τ sig (Elt Ideal)) (j : Fin 128) :
    (StableHlo.after hostOps6 W (Proc.devRef .tc main_v107) : S1x128.Idx → EReal) (ix2 0 j)
      = (W (Proc.devRef .tc main_arg12) : S128.Idx → EReal) (ix1 j) := by
  have e : (StableHlo.after hostOps6 W (Proc.devRef .tc main_v107) : S1x128.Idx → EReal)
      = shapeCast S1x128 (W (Proc.devRef .tc main_arg12) : S128.Idx → EReal) shapeCasts_S128_S1x128 := by
    after_results <;> rfl
  rw [e]
  exact shapeCast_a_1a_apply _ _ 0 j

/-- The third bias of the reconstruction head, as a [1,4] array, read at (0, j). -/
theorem host6_b3 (W : Valuation τ sig (Elt Ideal)) (j : Fin 4) :
    (StableHlo.after hostOps6 W (Proc.devRef .tc main_v108) : S1x4.Idx → EReal) (ix2 0 j)
      = (W (Proc.devRef .tc main_arg14) : S4.Idx → EReal) (ix1 j) := by
  have e : (StableHlo.after hostOps6 W (Proc.devRef .tc main_v108) : S1x4.Idx → EReal)
      = shapeCast S1x4 (W (Proc.devRef .tc main_arg14) : S4.Idx → EReal) shapeCasts_S4_S1x4 := by
    after_results <;> rfl
  rw [e]
  exact shapeCast_a_1a_apply _ _ 0 j

/-! ## The stretch before the pooling: the one-hot table of the graph ids, and two biases -/

/-- The one-hot table at (n, g): 1 where node n's graph id is the word of g, 0 elsewhere (the id laid along the rows,
    the position 0 … 63 laid along the columns, compared for equality, the bit read as a number). -/
theorem host7_onehot (W : Valuation τ sig (Elt Ideal)) (n : Fin 50000) (g : Fin 64) :
    (StableHlo.after hostOps7 W (Proc.devRef .tc main_v116) : S50000x64.Idx → EReal) (ix2 n g)
      = if (W (Proc.devRef .tc main_arg2) : IVec S50000 32) (ix1 n) = BitVec.ofNat 32 g.val then (1 : EReal) else 0 := by
  have e : (StableHlo.after hostOps7 W (Proc.devRef .tc main_v116) : S50000x64.Idx → EReal)
      = uitofp (F := Ideal) .f32 (cmpi .eq
          (broadcastInDim S50000x64 ![0, 1] bcast_S50000x1_S50000x64_0_1
            (broadcastInDim S50000x1 ![0] bcast_S50000_S50000x1_0 (W (Proc.devRef .tc main_arg2) : IVec S50000 32)))
          (broadcastInDim S50000x64 ![0, 1] bcast_S1x64_S50000x64_0_1
            (broadcastInDim S1x64 ![1] bcast_S64_S1x64_1 (iotaInDim S64 32 0)))) := by
    after_results <;> rfl
  rw [e, h67_ix2_eq_ij]
  show FloatOps.uitofp (F := Ideal) .f32 (IntOp.cmpi .eq
      (broadcastInDim S50000x64 ![0, 1] bcast_S50000x1_S50000x64_0_1
        (broadcastInDim S50000x1 ![0] bcast_S50000_S50000x1_0 (W (Proc.devRef .tc main_arg2) : IVec S50000 32)) (StableHlo.Predicate.ij n g))
      (broadcastInDim S50000x64 ![0, 1] bcast_S1x64_S50000x64_0_1
        (broadcastInDim S1x64 ![1] bcast_S64_S1x64_1 (iotaInDim S64 32 0)) (StableHlo.Predicate.ij n g))) = _
  rw [StableHlo.Predicate.bcast_rows, StableHlo.Predicate.bcast_cols, StableHlo.Predicate.iota_apply, h67_ofFin_eq_ix1, h67_uitofp_bit]
  exact if_congr StableHlo.Predicate.cmpi_eq_iff rfl rfl

/-- The first bias of the output network, as a [1,128] array, read at (0, j). -/
theorem host7_b1 (W : Valuation τ sig (Elt Ideal)) (j : Fin 128) :
    (StableHlo.after hostOps7 W (Proc.devRef .tc main_v117) : S1x128.Idx → EReal) (ix2 0 j)
      = (W (Proc.devRef .tc main_arg16) : S128.Idx → EReal) (ix1 j) := by
  have e : (StableHlo.after hostOps7 W (Proc.devRef .tc main_v117) : S1x128.Idx → EReal)
      = shapeCast S1x128 (W (Proc.devRef .tc main_arg16) : S128.Idx → EReal) shapeCasts_S128_S1x128 := by
    after_results <;> rfl
  rw [e]
  exact shapeCast_a_1a_apply _ _ 0 j

/-- The second bias of the output network, as a [1,64] array, read at (0, j). -/
theorem host7_b2 (W : Valuation τ sig (Elt Ideal)) (j : Fin 64) :
    (StableHlo.after hostOps7 W (Proc.devRef .tc main_v118) : S1x64.Idx → EReal) (ix2 0 j)
      = (W (Proc.devRef .tc main_arg18) : S64.Idx → EReal) (ix1 j) := by
  have e : (StableHlo.after hostOps7 W (Proc.devRef .tc main_v118) : S1x64.Idx → EReal)
      = shapeCast S1x64 (W (Proc.devRef .tc main_arg18) : S64.Idx → EReal) shapeCasts_S64_S1x64 := by
    after_results <;> rfl
  rw [e]
  exact shapeCast_a_1a_apply _ _ 0 j

end Cert.KernelIdeal.Val

end
-- ==== Proof.Bridge.lean ====
/-
  The terms both value proofs end in: the three GIN layers composed over the neighbour sum, the
  reconstruction head and the pooled output network on the result; and the theorem that ties the two
  programs together: on finite inputs the network computed with the kernel's variance formula is the
  network computed with the reference's.
-/
import proofs.«430410_j38371237822819_1_alg».proof.Proof.Math

noncomputable section

namespace Gin

open Idealize.ShloMosaic
open scoped BigOperators

/-- Layer `l` of the network on features `x`: the neighbour sum of `x` over the edge list, then the
    layer with the `l`-th slice of each stacked parameter. -/
def layerAt (var : Nodes → Row) (src dst : Fin 600000 → BitVec 32) (w1 : Fin 3 → Wt) (b1 g bb : Fin 3 → Row) (w2 : Fin 3 → Wt) (b2 : Fin 3 → Row) (l : Fin 3) (x : Nodes) : Nodes :=
  layerWith var x (aggOf src dst x) (w1 l) (b1 l) (g l) (bb l) (w2 l) (b2 l)

/-- The three layers in turn. -/
def gin3 (var : Nodes → Row) (src dst : Fin 600000 → BitVec 32) (w1 : Fin 3 → Wt) (b1 g bb : Fin 3 → Row) (w2 : Fin 3 → Wt) (b2 : Fin 3 → Row) (x : Nodes) : Nodes :=
  layerAt var src dst w1 b1 g bb w2 b2 2 (layerAt var src dst w1 b1 g bb w2 b2 1 (layerAt var src dst w1 b1 g bb w2 b2 0 x))

/-- The first result: the output network on the rows pooled by graph id. -/
def outOf (x3 : Nodes) (batch : Fin 50000 → BitVec 32) (mw1 : Wt) (mb1 : Row) (mw2 : WtN 64) (mb2 : RowN 64) :
    Fin 64 → RowN 64 :=
  mlpOut (pooled x3 batch) mw1 mb1 mw2 mb2

/-- The second result: the reconstruction head on the node features. -/
def recOf (x3 : Nodes) (rw1 : Wt) (rb1 : Row) (rw2 : Wt) (rb2 : Row) (rw3 : WtN 4) (rb3 : RowN 4) :
    Fin 50000 → RowN 4 :=
  recHead x3 rw1 rb1 rw2 rb2 rw3 rb3

/-! ## Finite arrays in curried form -/

theorem fin_ofArr1 {n : ℕ} {a : (⟨1, ![n]⟩ : Shape).Idx → EReal} (h : ∀ i, Fin' (a i)) (p : Fin n) :
    Fin' (ofArr1 a p) := h _

theorem fin_ofArr2 {r c : ℕ} {a : (⟨2, ![r, c]⟩ : Shape).Idx → EReal} (h : ∀ i, Fin' (a i)) (p : Fin r)
    (q : Fin c) : Fin' (ofArr2 a p q) := h _

theorem fin_ofArr2Row {n0 n1 : ℕ} {a : (⟨2, ![n0, n1]⟩ : Shape).Idx → EReal} (h : ∀ i, Fin' (a i))
    (l : Fin n0) (j : Fin n1) : Fin' (ofArr2Row a l j) := h _

theorem fin_ofArr3 {n0 n1 n2 : ℕ} {a : (⟨3, ![n0, n1, n2]⟩ : Shape).Idx → EReal} (h : ∀ i, Fin' (a i))
    (l : Fin n0) (κ : Fin n1) (j : Fin n2) : Fin' (ofArr3 a l κ j) := h _

/-! ## The two variance formulas give one network -/

/-- One layer over the neighbour sum does not depend on the variance formula, on finite features and
    first-map parameters. -/
theorem layerAt_var_eq (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j)) (l : Fin 3) :
    layerAt varKernel src dst w1 b1 g bb w2 b2 l x = layerAt varRef src dst w1 b1 g bb w2 b2 l x :=
  layerWith_var_eq _ _ _ _ hx (fin_aggOf src dst hx) (hw1 l) (hb1 l)

/-- One layer over the neighbour sum of finite features, with finite parameters, is finite. -/
theorem fin_layerAt_varRef (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j))
    (hg : ∀ l j, Fin' (g l j)) (hbb : ∀ l j, Fin' (bb l j)) (hw2 : ∀ l κ j, Fin' (w2 l κ j)) (hb2 : ∀ l j, Fin' (b2 l j)) (l : Fin 3)
    (n : Fin 50000) (j : Fin 128) : Fin' (layerAt varRef src dst w1 b1 g bb w2 b2 l x n j) :=
  fin_layerWith_varRef hx (fin_aggOf src dst hx) (hw1 l) (hb1 l) (hg l) (hbb l) (hw2 l) (hb2 l) n j

/-- THE NETWORK DOES NOT DEPEND ON THE VARIANCE FORMULA: on finite features and parameters the three
    layers computed with the kernel's variance are the three layers computed with the reference's.
    (Layer by layer from the inside: each layer's input is finite, being the input or a layer already
    in the reference's form.) -/
theorem gin3_var_eq (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j))
    (hg : ∀ l j, Fin' (g l j)) (hbb : ∀ l j, Fin' (bb l j)) (hw2 : ∀ l κ j, Fin' (w2 l κ j)) (hb2 : ∀ l j, Fin' (b2 l j)) :
    gin3 varKernel src dst w1 b1 g bb w2 b2 x = gin3 varRef src dst w1 b1 g bb w2 b2 x := by
  unfold gin3
  rw [layerAt_var_eq src dst hx hw1 hb1 0]
  have h1 := fin_layerAt_varRef src dst hx hw1 hb1 hg hbb hw2 hb2 0
  rw [layerAt_var_eq src dst h1 hw1 hb1 1]
  have h2 := fin_layerAt_varRef src dst h1 hw1 hb1 hg hbb hw2 hb2 1
  rw [layerAt_var_eq src dst h2 hw1 hb1 2]

/-- The three layers of finite data are finite. -/
theorem fin_gin3_varRef (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j))
    (hg : ∀ l j, Fin' (g l j)) (hbb : ∀ l j, Fin' (bb l j)) (hw2 : ∀ l κ j, Fin' (w2 l κ j)) (hb2 : ∀ l j, Fin' (b2 l j))
    (n : Fin 50000) (j : Fin 128) : Fin' (gin3 varRef src dst w1 b1 g bb w2 b2 x n j) :=
  fin_layerAt_varRef src dst
    (fin_layerAt_varRef src dst (fin_layerAt_varRef src dst hx hw1 hb1 hg hbb hw2 hb2 0) hw1 hb1 hg hbb hw2 hb2 1)
    hw1 hb1 hg hbb hw2 hb2 2 n j

/-- So the pooled output does not depend on the variance formula. -/
theorem outOf_var_eq (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j))
    (hg : ∀ l j, Fin' (g l j)) (hbb : ∀ l j, Fin' (bb l j)) (hw2 : ∀ l κ j, Fin' (w2 l κ j)) (hb2 : ∀ l j, Fin' (b2 l j))
    (batch : Fin 50000 → BitVec 32) (mw1 : Wt) (mb1 : Row) (mw2 : WtN 64) (mb2 : RowN 64) :
    outOf (gin3 varKernel src dst w1 b1 g bb w2 b2 x) batch mw1 mb1 mw2 mb2
      = outOf (gin3 varRef src dst w1 b1 g bb w2 b2 x) batch mw1 mb1 mw2 mb2 :=
  congrArg (fun y => outOf y batch mw1 mb1 mw2 mb2) (gin3_var_eq src dst hx hw1 hb1 hg hbb hw2 hb2)

/-- Nor does the reconstruction. -/
theorem recOf_var_eq (src dst : Fin 600000 → BitVec 32) {w1 : Fin 3 → Wt} {b1 g bb : Fin 3 → Row} {w2 : Fin 3 → Wt} {b2 : Fin 3 → Row} {x : Nodes}
    (hx : ∀ n j, Fin' (x n j)) (hw1 : ∀ l κ j, Fin' (w1 l κ j)) (hb1 : ∀ l j, Fin' (b1 l j))
    (hg : ∀ l j, Fin' (g l j)) (hbb : ∀ l j, Fin' (bb l j)) (hw2 : ∀ l κ j, Fin' (w2 l κ j)) (hb2 : ∀ l j, Fin' (b2 l j))
    (rw1 : Wt) (rb1 : Row) (rw2 : Wt) (rb2 : Row) (rw3 : WtN 4) (rb3 : RowN 4) :
    recOf (gin3 varKernel src dst w1 b1 g bb w2 b2 x) rw1 rb1 rw2 rb2 rw3 rb3
      = recOf (gin3 varRef src dst w1 b1 g bb w2 b2 x) rw1 rb1 rw2 rb2 rw3 rb3 :=
  congrArg (fun y => recOf y rw1 rb1 rw2 rb2 rw3 rb3) (gin3_var_eq src dst hx hw1 hb1 hg hbb hw2 hb2)

end Gin

end
-- ==== Proof.KI.Compose.lean ====
/-
  The kernel program's two results as functions of its arguments, at the ideal values: the three layers one after
  another, each a statistics region, the host's mean and variance, and an apply region; then the reconstruction head and
  the pooled output network on the last layer's rows.
-/
import proofs.«430410_j38371237822819_1_alg».proof.Proof.KI.Bnd
import proofs.«430410_j38371237822819_1_alg».proof.Proof.KI.Val0
import proofs.«430410_j38371237822819_1_alg».proof.Proof.KI.Val1
import proofs.«430410_j38371237822819_1_alg».proof.Proof.KI.Val2
import proofs.«430410_j38371237822819_1_alg».proof.Proof.KI.Val3
import proofs.«430410_j38371237822819_1_alg».proof.Proof.KI.Val4
import proofs.«430410_j38371237822819_1_alg».proof.Proof.KI.Val5
import proofs.«430410_j38371237822819_1_alg».proof.Proof.KI.Val6
import proofs.«430410_j38371237822819_1_alg».proof.Proof.KI.Val7
import proofs.«430410_j38371237822819_1_alg».proof.Proof.KI.Host
import proofs.«430410_j38371237822819_1_alg».proof.Proof.KI.Host2
import proofs.«430410_j38371237822819_1_alg».proof.Proof.KI.Host3
import proofs.«430410_j38371237822819_1_alg».proof.Proof.KI.Host4
import proofs.«430410_j38371237822819_1_alg».proof.Proof.KI.Host5
import proofs.«430410_j38371237822819_1_alg».proof.Proof.KI.Host67
import proofs.«430410_j38371237822819_1_alg».proof.Proof.Bridge

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

/-! ## One layer from its four stages, over abstract arrays -/

/-- A layer assembled: the statistics region leaves the first linear map `h` and its column sums and sums of squares;
    the host divides them by the node count into the mean and the variance "mean of squares minus square of mean"; the
    apply region normalises, rectifies and applies the second map. Together: the layer with the kernel's variance. -/
theorem layer_of_stages (X agg : Gin.Nodes) (w1 : Gin.Wt) (b1 g bb : Gin.Row) (w2 : Gin.Wt) (b2 : Gin.Row)
    (hA : S50000x128.Idx → EReal) (sumA sqA muA varA : S1x128.Idx → EReal) (outA : S50000x128.Idx → EReal)
    (hh : ∀ n j, hA (ix2 n j) = Gin.pre1 X agg w1 b1 n j)
    (hsum : ∀ j, sumA (ix2 0 j) = Gin.colSum (Gin.pre1 X agg w1 b1) j)
    (hsq : ∀ j, sqA (ix2 0 j) = Gin.colSum (fun n κ => Gin.pre1 X agg w1 b1 n κ * Gin.pre1 X agg w1 b1 n κ) j)
    (hmu : ∀ j, muA (ix2 0 j) = Ideal.div (sumA (ix2 0 j)) Gin.nCount)
    (hvar : ∀ j, varA (ix2 0 j) = Ideal.div (sqA (ix2 0 j)) Gin.nCount
      - Ideal.div (sumA (ix2 0 j)) Gin.nCount * Ideal.div (sumA (ix2 0 j)) Gin.nCount)
    (hout : ∀ n j, outA (ix2 n j)
      = Gin.bnApply (Gin.ofArr2 hA) (Gin.ofArr2Row muA 0) (Gin.ofArr2Row varA 0) g bb w2 b2 n j) :
    Gin.ofArr2 outA = Gin.layerWith Gin.varKernel X agg w1 b1 g bb w2 b2 := by
  have eh : Gin.ofArr2 hA = Gin.pre1 X agg w1 b1 := funext fun n => funext fun j => hh n j
  have emu : Gin.ofArr2Row muA 0 = Gin.meanOf (Gin.pre1 X agg w1 b1) := funext fun j => by
    show muA (ix2 0 j) = _
    rw [hmu, hsum]; rfl
  have evar : Gin.ofArr2Row varA 0 = Gin.varKernel (Gin.pre1 X agg w1 b1) := funext fun j => by
    show varA (ix2 0 j) = _
    rw [hvar, hsq, hsum]; rfl
  funext n j
  show outA (ix2 n j) = _
  rw [hout, eh, emu, evar]
  rfl

/-! ## The arguments, curried -/
section Args
variable (m : (ℓ : Loc nD τ sig) → Buf (Elt Ideal) ℓ) (c : Dev nD)

/-- The node features. -/
abbrev kx0 : Gin.Nodes := Gin.ofArr2 (m ((c : Thread nD τ).loc main_arg0) : S50000x128.Idx → EReal)
/-- The edges' source and destination words: the two rows of the edge list. -/
abbrev ksrc : Fin 600000 → BitVec 32 := fun e => (m ((c : Thread nD τ).loc main_arg1) : S2x600000.Idx → BitVec 32) (ix2 0 e)
abbrev kdst : Fin 600000 → BitVec 32 := fun e => (m ((c : Thread nD τ).loc main_arg1) : S2x600000.Idx → BitVec 32) (ix2 1 e)
/-- The graph id of each node. -/
abbrev kbatch : Fin 50000 → BitVec 32 := fun n => (m ((c : Thread nD τ).loc main_arg2) : S50000.Idx → BitVec 32) (ix1 n)
/-- The layers' stacked parameters, slice by slice. -/
abbrev kw1 : Fin 3 → Gin.Wt := fun l => Gin.ofArr3 (m ((c : Thread nD τ).loc main_arg3) : S3x128x128.Idx → EReal) l
abbrev kb1 : Fin 3 → Gin.Row := fun l => Gin.ofArr2Row (m ((c : Thread nD τ).loc main_arg4) : S3x128.Idx → EReal) l
abbrev kg : Fin 3 → Gin.Row := fun l => Gin.ofArr2Row (m ((c : Thread nD τ).loc main_arg5) : S3x128.Idx → EReal) l
abbrev kbb : Fin 3 → Gin.Row := fun l => Gin.ofArr2Row (m ((c : Thread nD τ).loc main_arg6) : S3x128.Idx → EReal) l
abbrev kw2 : Fin 3 → Gin.Wt := fun l => Gin.ofArr3 (m ((c : Thread nD τ).loc main_arg7) : S3x128x128.Idx → EReal) l
abbrev kb2 : Fin 3 → Gin.Row := fun l => Gin.ofArr2Row (m ((c : Thread nD τ).loc main_arg8) : S3x128.Idx → EReal) l
/-- The reconstruction head's parameters. -/
abbrev krw1 : Gin.Wt := Gin.ofArr2 (m ((c : Thread nD τ).loc main_arg9) : S128x128.Idx → EReal)
abbrev krb1 : Gin.Row := Gin.ofArr1 (m ((c : Thread nD τ).loc main_arg10) : S128.Idx → EReal)
abbrev krw2 : Gin.Wt := Gin.ofArr2 (m ((c : Thread nD τ).loc main_arg11) : S128x128.Idx → EReal)
abbrev krb2 : Gin.Row := Gin.ofArr1 (m ((c : Thread nD τ).loc main_arg12) : S128.Idx → EReal)
abbrev krw3 : Gin.WtN 4 := Gin.ofArr2 (m ((c : Thread nD τ).loc main_arg13) : S128x4.Idx → EReal)
abbrev krb3 : Gin.RowN 4 := Gin.ofArr1 (m ((c : Thread nD τ).loc main_arg14) : S4.Idx → EReal)
/-- The output network's parameters. -/
abbrev kmw1 : Gin.Wt := Gin.ofArr2 (m ((c : Thread nD τ).loc main_arg15) : S128x128.Idx → EReal)
abbrev kmb1 : Gin.Row := Gin.ofArr1 (m ((c : Thread nD τ).loc main_arg16) : S128.Idx → EReal)
abbrev kmw2 : Gin.WtN 64 := Gin.ofArr2 (m ((c : Thread nD τ).loc main_arg17) : S128x64.Idx → EReal)
abbrev kmb2 : Gin.RowN 64 := Gin.ofArr1 (m ((c : Thread nD τ).loc main_arg18) : S64.Idx → EReal)

/-- Layer `l` with the kernel's variance, on features `x`. -/
abbrev kL (l : Fin 3) (x : Gin.Nodes) : Gin.Nodes :=
  Gin.layerAt Gin.varKernel (ksrc m c) (kdst m c) (kw1 m c) (kb1 m c) (kg m c) (kbb m c) (kw2 m c) (kb2 m c) l x

end Args

/-! ## A buffer no later item has written holds what it held -/
section Walk
variable (m : (ℓ : Loc nD τ sig) → Buf (Elt Ideal) ℓ) (c : Dev nD) (r : Ref sig .tc)

theorem B0_back : B0 m c (Proc.devRef .tc r) = B0 m c (Proc.devRef .tc r) := rfl
/-- From the boundary after region 0 back to the one before region 0. -/
theorem B2_to1 (h1 : r ∉ ([main_v19_0, main_v19_1, main_v19_2] : List (Ref sig .tc))) :
    B2 m c (Proc.devRef .tc r) = B1 m c (Proc.devRef .tc r) :=
  B2_keep m c r h1
/-- … and to the launch contents, for a buffer the first stretch does not write either. -/
theorem B2_back (h0 : r ∉ hostOps0_W) (h1 : r ∉ ([main_v19_0, main_v19_1, main_v19_2] : List (Ref sig .tc))) :
    B2 m c (Proc.devRef .tc r) = B0 m c (Proc.devRef .tc r) :=
  (B2_to1 m c r h1).trans (B1_of m c r h0)
/-- From the boundary after region 1 back to the one before region 0. -/
theorem B4_to1 (h1 : r ∉ ([main_v19_0, main_v19_1, main_v19_2] : List (Ref sig .tc))) (h2 : r ∉ hostOps1_W) (h3 : r ∉ ([main_v37] : List (Ref sig .tc))) :
    B4 m c (Proc.devRef .tc r) = B1 m c (Proc.devRef .tc r) :=
  (B4_keep m c r h3).trans <| (B3_of m c r h2).trans (B2_to1 m c r h1)
/-- … and to the launch contents, for a buffer the first stretch does not write either. -/
theorem B4_back (h0 : r ∉ hostOps0_W) (h1 : r ∉ ([main_v19_0, main_v19_1, main_v19_2] : List (Ref sig .tc))) (h2 : r ∉ hostOps1_W) (h3 : r ∉ ([main_v37] : List (Ref sig .tc))) :
    B4 m c (Proc.devRef .tc r) = B0 m c (Proc.devRef .tc r) :=
  (B4_to1 m c r h1 h2 h3).trans (B1_of m c r h0)
/-- From the boundary after region 2 back to the one before region 0. -/
theorem B6_to1 (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) :
    B6 m c (Proc.devRef .tc r) = B1 m c (Proc.devRef .tc r) :=
  (B6_keep m c r h5).trans <| (B5_of m c r h4).trans (B4_to1 m c r h1 h2 h3)
/-- … and to the launch contents, for a buffer the first stretch does not write either. -/
theorem B6_back (h0 : r ∉ hostOps0_W) (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) :
    B6 m c (Proc.devRef .tc r) = B0 m c (Proc.devRef .tc r) :=
  (B6_to1 m c r h1 h2 h3 h4 h5).trans (B1_of m c r h0)
/-- From the boundary after region 3 back to the one before region 0. -/
theorem B8_to1 (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) :
    B8 m c (Proc.devRef .tc r) = B1 m c (Proc.devRef .tc r) :=
  (B8_keep m c r h7).trans <| (B7_of m c r h6).trans (B6_to1 m c r h1 h2 h3 h4 h5)
/-- … and to the launch contents, for a buffer the first stretch does not write either. -/
theorem B8_back (h0 : r ∉ hostOps0_W) (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) :
    B8 m c (Proc.devRef .tc r) = B0 m c (Proc.devRef .tc r) :=
  (B8_to1 m c r h1 h2 h3 h4 h5 h6 h7).trans (B1_of m c r h0)
/-- From the boundary after region 4 back to the one before region 0. -/
theorem B10_to1 (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) :
    B10 m c (Proc.devRef .tc r) = B1 m c (Proc.devRef .tc r) :=
  (B10_keep m c r h9).trans <| (B9_of m c r h8).trans (B8_to1 m c r h1 h2 h3 h4 h5 h6 h7)
/-- … and to the launch contents, for a buffer the first stretch does not write either. -/
theorem B10_back (h0 : r ∉ hostOps0_W) (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) :
    B10 m c (Proc.devRef .tc r) = B0 m c (Proc.devRef .tc r) :=
  (B10_to1 m c r h1 h2 h3 h4 h5 h6 h7 h8 h9).trans (B1_of m c r h0)
/-- From the boundary after region 5 back to the one before region 0. -/
theorem B12_to1 (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) (h10 : r ∉ hostOps5_W) (h11 : r ∉ ([main_v105] : List (Ref sig .tc))) :
    B12 m c (Proc.devRef .tc r) = B1 m c (Proc.devRef .tc r) :=
  (B12_keep m c r h11).trans <| (B11_of m c r h10).trans (B10_to1 m c r h1 h2 h3 h4 h5 h6 h7 h8 h9)
/-- … and to the launch contents, for a buffer the first stretch does not write either. -/
theorem B12_back (h0 : r ∉ hostOps0_W) (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) (h10 : r ∉ hostOps5_W) (h11 : r ∉ ([main_v105] : List (Ref sig .tc))) :
    B12 m c (Proc.devRef .tc r) = B0 m c (Proc.devRef .tc r) :=
  (B12_to1 m c r h1 h2 h3 h4 h5 h6 h7 h8 h9 h10 h11).trans (B1_of m c r h0)
/-- From the boundary after region 6 back to the one before region 0. -/
theorem B14_to1 (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) (h10 : r ∉ hostOps5_W) (h11 : r ∉ ([main_v105] : List (Ref sig .tc))) (h12 : r ∉ hostOps6_W) (h13 : r ∉ ([main_v109] : List (Ref sig .tc))) :
    B14 m c (Proc.devRef .tc r) = B1 m c (Proc.devRef .tc r) :=
  (B14_keep m c r h13).trans <| (B13_of m c r h12).trans (B12_to1 m c r h1 h2 h3 h4 h5 h6 h7 h8 h9 h10 h11)
/-- … and to the launch contents, for a buffer the first stretch does not write either. -/
theorem B14_back (h0 : r ∉ hostOps0_W) (h1 : r ∉ ([main_v19_0, main_v19_1, main_v19_2] : List (Ref sig .tc))) (h2 : r ∉ hostOps1_W) (h3 : r ∉ ([main_v37] : List (Ref sig .tc))) (h4 : r ∉ hostOps2_W) (h5 : r ∉ ([main_v53_0, main_v53_1, main_v53_2] : List (Ref sig .tc))) (h6 : r ∉ hostOps3_W) (h7 : r ∉ ([main_v71] : List (Ref sig .tc))) (h8 : r ∉ hostOps4_W) (h9 : r ∉ ([main_v87_0, main_v87_1, main_v87_2] : List (Ref sig .tc))) (h10 : r ∉ hostOps5_W) (h11 : r ∉ ([main_v105] : List (Ref sig .tc))) (h12 : r ∉ hostOps6_W) (h13 : r ∉ ([main_v109] : List (Ref sig .tc))) :
    B14 m c (Proc.devRef .tc r) = B0 m c (Proc.devRef .tc r) :=
  (B14_to1 m c r h1 h2 h3 h4 h5 h6 h7 h8 h9 h10 h11 h12 h13).trans (B1_of m c r h0)

end Walk

/-! ## Layer 0 -/
section Layer0
variable (m : (ℓ : Loc nD τ sig) → Buf (Elt Ideal) ℓ) (c : Dev nD)

/-- The statistics region's operands: the layer's input rows as the boundary before holds them, -/
theorem L0_x : Gin.ofArr2 (xArr0 (E1 m) c) = (Gin.ofArr2 (B0 m c main_arg0 : S50000x128.Idx → EReal)) :=
  congrArg (Gin.ofArr2 (r := 50000) (c := 128)) (B1_of m c main_arg0 (by decide))
/-- their neighbour sum over the edge list, -/
theorem L0_agg : Gin.ofArr2 (aggArr0 (E1 m) c) = (Gin.aggOf (ksrc m c) (kdst m c) (Gin.ofArr2 (B0 m c main_arg0 : S50000x128.Idx → EReal))) :=
  host0_agg (B0 m c)
/-- and slice 0 of the first map's weights and biases. -/
theorem L0_w1 : Gin.ofArr2 (w1Arr0 (E1 m) c) = kw1 m c 0 :=
  (host0_w1 (B0 m c)).trans
    (congrArg (fun a : S3x128x128.Idx → EReal => Gin.ofArr3 a (0 : Fin 3)) (B0_back m c main_arg3))
theorem L0_b1 : Gin.ofArr2Row (b1Arr0 (E1 m) c) 0 = kb1 m c 0 := funext fun j =>
  (host0_b1 (B0 m c) 0 j).trans (congrFun (B0_back m c main_arg4) (ix2 (0 : Fin 3) j))

/-- So the region's linear map is the layer's first map of the input rows plus their neighbour sum. -/
theorem L0_H : H0 (E1 m) c = Gin.pre1 (Gin.ofArr2 (B0 m c main_arg0 : S50000x128.Idx → EReal)) (Gin.aggOf (ksrc m c) (kdst m c) (Gin.ofArr2 (B0 m c main_arg0 : S50000x128.Idx → EReal))) (kw1 m c 0) (kb1 m c 0) := by
  unfold H0
  rw [L0_x, L0_agg, L0_w1, L0_b1]

/-- What the statistics region leaves: the first map, its column sums and its column sums of squares. -/
theorem L0_h (n : Fin 50000) (j : Fin 128) : (B2 m c main_v19_0 : S50000x128.Idx → EReal) (ix2 n j) = Gin.pre1 (Gin.ofArr2 (B0 m c main_arg0 : S50000x128.Idx → EReal)) (Gin.aggOf (ksrc m c) (kdst m c) (Gin.ofArr2 (B0 m c main_arg0 : S50000x128.Idx → EReal))) (kw1 m c 0) (kb1 m c 0) n j := by
  have h := val0_h (E1 m) c n j
  rw [L0_H] at h
  exact (congrFun (B2_arr m c 4) (ix2 n j)).trans h
theorem L0_sum (j : Fin 128) : (B2 m c main_v19_1 : S1x128.Idx → EReal) (ix2 0 j) = Gin.colSum (Gin.pre1 (Gin.ofArr2 (B0 m c main_arg0 : S50000x128.Idx → EReal)) (Gin.aggOf (ksrc m c) (kdst m c) (Gin.ofArr2 (B0 m c main_arg0 : S50000x128.Idx → EReal))) (kw1 m c 0) (kb1 m c 0)) j := by
  have h := val0_sum (E1 m) c j
  rw [L0_H] at h
  exact (congrFun (B2_arr m c 5) (ix2 0 j)).trans h
theorem L0_sq (j : Fin 128) : (B2 m c main_v19_2 : S1x128.Idx → EReal) (ix2 0 j)
    = Gin.colSum (fun n κ => Gin.pre1 (Gin.ofArr2 (B0 m c main_arg0 : S50000x128.Idx → EReal)) (Gin.aggOf (ksrc m c) (kdst m c) (Gin.ofArr2 (B0 m c main_arg0 : S50000x128.Idx → EReal))) (kw1 m c 0) (kb1 m c 0) n κ * Gin.pre1 (Gin.ofArr2 (B0 m c main_arg0 : S50000x128.Idx → EReal)) (Gin.aggOf (ksrc m c) (kdst m c) (Gin.ofArr2 (B0 m c main_arg0 : S50000x128.Idx → EReal))) (kw1 m c 0) (kb1 m c 0) n κ) j := by
  have h := val0_sumsq (E1 m) c j
  rw [L0_H] at h
  exact (congrFun (B2_arr m c 6) (ix2 0 j)).trans h

/-- The apply region's operands: the first map as the statistics region left it, and slice 0 of the scale, the
    shift and the second map's weights and biases. -/
theorem L0_hin : Gin.ofArr2 (hArr1 (E3 m) c) = Gin.ofArr2 (B2 m c main_v19_0 : S50000x128.Idx → EReal) :=
  congrArg (Gin.ofArr2 (r := 50000) (c := 128)) (B3_of m c main_v19_0 (by decide))
theorem L0_g : Gin.ofArr2Row (gArr1 (E3 m) c) 0 = kg m c 0 := funext fun j =>
  (host1_gamma (B2 m c) 0 j).trans (congrFun (B2_back m c main_arg5 (by decide) (by decide)) (ix2 (0 : Fin 3) j))
theorem L0_bb : Gin.ofArr2Row (bbArr1 (E3 m) c) 0 = kbb m c 0 := funext fun j =>
  (host1_beta (B2 m c) 0 j).trans (congrFun (B2_back m c main_arg6 (by decide) (by decide)) (ix2 (0 : Fin 3) j))
theorem L0_w2 : Gin.ofArr2 (w2Arr1 (E3 m) c) = kw2 m c 0 :=
  (host1_w2 (B2 m c)).trans
    (congrArg (fun a : S3x128x128.Idx → EReal => Gin.ofArr3 a (0 : Fin 3)) (B2_back m c main_arg7 (by decide) (by decide)))
theorem L0_b2 : Gin.ofArr2Row (b2Arr1 (E3 m) c) 0 = kb2 m c 0 := funext fun j =>
  (host1_b2 (B2 m c) 0 j).trans (congrFun (B2_back m c main_arg8 (by decide) (by decide)) (ix2 (0 : Fin 3) j))

/-- What the apply region leaves, over the mean and variance rows the host wrote. -/
theorem L0_out (n : Fin 50000) (j : Fin 128) : (B4 m c main_v37 : S50000x128.Idx → EReal) (ix2 n j)
    = Gin.bnApply (Gin.ofArr2 (B2 m c main_v19_0 : S50000x128.Idx → EReal)) (Gin.ofArr2Row (B3 m c main_v21 : S1x128.Idx → EReal) 0)
        (Gin.ofArr2Row (B3 m c main_v25 : S1x128.Idx → EReal) 0) (kg m c 0) (kbb m c 0) (kw2 m c 0) (kb2 m c 0) n j := by
  have h := val1 (E3 m) c n j
  rw [L0_hin, L0_g, L0_bb, L0_w2, L0_b2] at h
  exact (congrFun (B4_arr m c 7) (ix2 n j)).trans h

/-- LAYER 0: the apply region's output array is layer 0, with the kernel's variance, of the rows the layer found. -/
theorem layer0 : Gin.ofArr2 (B4 m c main_v37 : S50000x128.Idx → EReal) = kL m c 0 (Gin.ofArr2 (B0 m c main_arg0 : S50000x128.Idx → EReal)) :=
  layer_of_stages (Gin.ofArr2 (B0 m c main_arg0 : S50000x128.Idx → EReal)) (Gin.aggOf (ksrc m c) (kdst m c) (Gin.ofArr2 (B0 m c main_arg0 : S50000x128.Idx → EReal))) (kw1 m c 0) (kb1 m c 0) (kg m c 0) (kbb m c 0) (kw2 m c 0) (kb2 m c 0)
    (B2 m c main_v19_0) (B2 m c main_v19_1) (B2 m c main_v19_2) (B3 m c main_v21) (B3 m c main_v25) (B4 m c main_v37)
    (L0_h m c) (L0_sum m c) (L0_sq m c) (host1_mean (B2 m c) 0) (host1_var (B2 m c) 0) (L0_out m c)

end Layer0

/-! ## Layer 1 -/
section Layer1
variable (m : (ℓ : Loc nD τ sig) → Buf (Elt Ideal) ℓ) (c : Dev nD)

/-- The statistics region's operands: the layer's input rows as the boundary before holds them, -/
theorem L1_x : Gin.ofArr2 (xArr2 (E5 m) c) = (Gin.ofArr2 (B4 m c main_v37 : S50000x128.Idx → EReal)) :=
  congrArg (Gin.ofArr2 (r := 50000) (c := 128)) (B5_of m c main_v37 (by decide))
/-- their neighbour sum over the edge list, -/
theorem L1_agg : Gin.ofArr2 (aggArr2 (E5 m) c) = (Gin.aggOf (ksrc m c) (kdst m c) (Gin.ofArr2 (B4 m c main_v37 : S50000x128.Idx → EReal))) :=
  by
  refine (host2_agg (B4 m c)).trans ?_
  have es : (fun e => (B4 m c main_v1 : S600000.Idx → BitVec 32) (ix1 e)) = ksrc m c := funext fun e =>
    (congrFun (B4_to1 m c main_v1 (by decide) (by decide) (by decide)) (ix1 e)).trans (host0_src (B0 m c) e)
  have ed : (fun e => (B4 m c main_v3 : S600000.Idx → BitVec 32) (ix1 e)) = kdst m c := funext fun e =>
    (congrFun (B4_to1 m c main_v3 (by decide) (by decide) (by decide)) (ix1 e)).trans (host0_dst (B0 m c) e)
  rw [es, ed]
/-- and slice 1 of the first map's weights and biases. -/
theorem L1_w1 : Gin.ofArr2 (w1Arr2 (E5 m) c) = kw1 m c 1 :=
  (host2_w1 (B4 m c)).trans
    (congrArg (fun a : S3x128x128.Idx → EReal => Gin.ofArr3 a (1 : Fin 3)) (B4_back m c main_arg3 (by decide) (by decide) (by decide) (by decide)))
theorem L1_b1 : Gin.ofArr2Row (b1Arr2 (E5 m) c) 0 = kb1 m c 1 := funext fun j =>
  (host2_b1 (B4 m c) 0 j).trans (congrFun (B4_back m c main_arg4 (by decide) (by decide) (by decide) (by decide)) (ix2 (1 : Fin 3) j))

/-- So the region's linear map is the layer's first map of the input rows plus their neighbour sum. -/
theorem L1_H : H2 (E5 m) c = Gin.pre1 (Gin.ofArr2 (B4 m c main_v37 : S50000x128.Idx → EReal)) (Gin.aggOf (ksrc m c) (kdst m c) (Gin.ofArr2 (B4 m c main_v37 : S50000x128.Idx → EReal))) (kw1 m c 1) (kb1 m c 1) := by
  unfold H2
  rw [L1_x, L1_agg, L1_w1, L1_b1]

/-- What the statistics region leaves: the first map, its column sums and its column sums of squares. -/
theorem L1_h (n : Fin 50000) (j : Fin 128) : (B6 m c main_v53_0 : S50000x128.Idx → EReal) (ix2 n j) = Gin.pre1 (Gin.ofArr2 (B4 m c main_v37 : S50000x128.Idx → EReal)) (Gin.aggOf (ksrc m c) (kdst m c) (Gin.ofArr2 (B4 m c main_v37 : S50000x128.Idx → EReal))) (kw1 m c 1) (kb1 m c 1) n j := by
  have h := val2_h (E5 m) c n j
  rw [L1_H] at h
  exact (congrFun (B6_arr m c 4) (ix2 n j)).trans h
theorem L1_sum (j : Fin 128) : (B6 m c main_v53_1 : S1x128.Idx → EReal) (ix2 0 j) = Gin.colSum (Gin.pre1 (Gin.ofArr2 (B4 m c main_v37 : S50000x128.Idx → EReal)) (Gin.aggOf (ksrc m c) (kdst m c) (Gin.ofArr2 (B4 m c main_v37 : S50000x128.Idx → EReal))) (kw1 m c 1) (kb1 m c 1)) j := by
  have h := val2_sum (E5 m) c j
  rw [L1_H] at h
  exact (congrFun (B6_arr m c 5) (ix2 0 j)).trans h
theorem L1_sq (j : Fin 128) : (B6 m c main_v53_2 : S1x128.Idx → EReal) (ix2 0 j)
    = Gin.colSum (fun n κ => Gin.pre1 (Gin.ofArr2 (B4 m c main_v37 : S50000x128.Idx → EReal)) (Gin.aggOf (ksrc m c) (kdst m c) (Gin.ofArr2 (B4 m c main_v37 : S50000x128.Idx → EReal))) (kw1 m c 1) (kb1 m c 1) n κ * Gin.pre1 (Gin.ofArr2 (B4 m c main_v37 : S50000x128.Idx → EReal)) (Gin.aggOf (ksrc m c) (kdst m c) (Gin.ofArr2 (B4 m c main_v37 : S50000x128.Idx → EReal))) (kw1 m c 1) (kb1 m c 1) n κ) j := by
  have h := val2_sumsq (E5 m) c j
  rw [L1_H] at h
  exact (congrFun (B6_arr m c 6) (ix2 0 j)).trans h

/-- The apply region's operands: the first map as the statistics region left it, and slice 1 of the scale, the
    shift and the second map's weights and biases. -/
theorem L1_hin : Gin.ofArr2 (hArr3 (E7 m) c) = Gin.ofArr2 (B6 m c main_v53_0 : S50000x128.Idx → EReal) :=
  congrArg (Gin.ofArr2 (r := 50000) (c := 128)) (B7_of m c main_v53_0 (by decide))
theorem L1_g : Gin.ofArr2Row (gArr3 (E7 m) c) 0 = kg m c 1 := funext fun j =>
  (host3_gamma (B6 m c) 0 j).trans (congrFun (B6_back m c main_arg5 (by decide) (by decide) (by decide) (by decide) (by decide) (by decide)) (ix2 (1 : Fin 3) j))
theorem L1_bb : Gin.ofArr2Row (bbArr3 (E7 m) c) 0 = kbb m c 1 := funext fun j =>
  (host3_beta (B6 m c) 0 j).trans (congrFun (B6_back m c main_arg6 (by decide) (by decide) (by decide) (by decide) (by decide) (by decide)) (ix2 (1 : Fin 3) j))
theorem L1_w2 : Gin.ofArr2 (w2Arr3 (E7 m) c) = kw2 m c 1 :=
  (host3_w2 (B6 m c)).trans
    (congrArg (fun a : S3x128x128.Idx → EReal => Gin.ofArr3 a (1 : Fin 3)) (B6_back m c main_arg7 (by decide) (by decide) (by decide) (by decide) (by decide) (by decide)))
theorem L1_b2 : Gin.ofArr2Row (b2Arr3 (E7 m) c) 0 = kb2 m c 1 := funext fun j =>
  (host3_b2 (B6 m c) 0 j).trans (congrFun (B6_back m c main_arg8 (by decide) (by decide) (by decide) (by decide) (by decide) (by decide)) (ix2 (1 : Fin 3) j))

/-- What the apply region leaves, over the mean and variance rows the host wrote. -/
theorem L1_out (n : Fin 50000) (j : Fin 128) : (B8 m c main_v71 : S50000x128.Idx → EReal) (ix2 n j)
    = Gin.bnApply (Gin.ofArr2 (B6 m c main_v53_0 : S50000x128.Idx → EReal)) (Gin.ofArr2Row (B7 m c main_v55 : S1x128.Idx → EReal) 0)
        (Gin.ofArr2Row (B7 m c main_v59 : S1x128.Idx → EReal) 0) (kg m c 1) (kbb m c 1) (kw2 m c 1) (kb2 m c 1) n j := by
  have h := val3 (E7 m) c n j
  rw [L1_hin, L1_g, L1_bb, L1_w2, L1_b2] at h
  exact (congrFun (B8_arr m c 7) (ix2 n j)).trans h

/-- LAYER 1: the apply region's output array is layer 1, with the kernel's variance, of the rows the layer found. -/
theorem layer1 : Gin.ofArr2 (B8 m c main_v71 : S50000x128.Idx → EReal) = kL m c 1 (Gin.ofArr2 (B4 m c main_v37 : S50000x128.Idx → EReal)) :=
  layer_of_stages (Gin.ofArr2 (B4 m c main_v37 : S50000x128.Idx → EReal)) (Gin.aggOf (ksrc m c) (kdst m c) (Gin.ofArr2 (B4 m c main_v37 : S50000x128.Idx → EReal))) (kw1 m c 1) (kb1 m c 1) (kg m c 1) (kbb m c 1) (kw2 m c 1) (kb2 m c 1)
    (B6 m c main_v53_0) (B6 m c main_v53_1) (B6 m c main_v53_2) (B7 m c main_v55) (B7 m c main_v59) (B8 m c main_v71)
    (L1_h m c) (L1_sum m c) (L1_sq m c) (host3_mean (B6 m c) 0) (host3_var (B6 m c) 0) (L1_out m c)

end Layer1

/-! ## Layer 2 -/
section Layer2
variable (m : (ℓ : Loc nD τ sig) → Buf (Elt Ideal) ℓ) (c : Dev nD)

/-- The statistics region's operands: the layer's input rows as the boundary before holds them, -/
theorem L2_x : Gin.ofArr2 (xArr4 (E9 m) c) = (Gin.ofArr2 (B8 m c main_v71 : S50000x128.Idx → EReal)) :=
  congrArg (Gin.ofArr2 (r := 50000) (c := 128)) (B9_of m c main_v71 (by decide))
/-- their neighbour sum over the edge list, -/
theorem L2_agg : Gin.ofArr2 (aggArr4 (E9 m) c) = (Gin.aggOf (ksrc m c) (kdst m c) (Gin.ofArr2 (B8 m c main_v71 : S50000x128.Idx → EReal))) :=
  by
  refine (host4_agg (B8 m c)).trans ?_
  have es : (fun e => (B8 m c main_v1 : S600000.Idx → BitVec 32) (ix1 e)) = ksrc m c := funext fun e =>
    (congrFun (B8_to1 m c main_v1 (by decide) (by decide) (by decide) (by decide) (by decide) (by decide) (by decide)) (ix1 e)).trans (host0_src (B0 m c) e)
  have ed : (fun e => (B8 m c main_v3 : S600000.Idx → BitVec 32) (ix1 e)) = kdst m c := funext fun e =>
    (congrFun (B8_to1 m c main_v3 (by decide) (by decide) (by decide) (by decide) (by decide) (by decide) (by decide)) (ix1 e)).trans (host0_dst (B0 m c) e)
  rw [es, ed]
/-- and slice 2 of the first map's weights and biases. -/
theorem L2_w1 : Gin.ofArr2 (w1Arr4 (E9 m) c) = kw1 m c 2 :=
  (host4_w1 (B8 m c)).trans
    (congrArg (fun a : S3x128x128.Idx → EReal => Gin.ofArr3 a (2 : Fin 3)) (B8_back m c main_arg3 (by decide) (by decide) (by decide) (by decide) (by decide) (by decide) (by decide) (by decide)))
theorem L2_b1 : Gin.ofArr2Row (b1Arr4 (E9 m) c) 0 = kb1 m c 2 := funext fun j =>
  (host4_b1 (B8 m c) 0 j).trans (congrFun (B8_back m c main_arg4 (by decide) (by decide) (by decide) (by decide) (by decide) (by decide) (by decide) (by decide)) (ix2 (2 : Fin 3) j))

/-- So the region's linear map is the layer's first map of the input rows plus their neighbour sum. -/
theorem L2_H : H4 (E9 m) c = Gin.pre1 (Gin.ofArr2 (B8 m c main_v71 : S50000x128.Idx → EReal)) (Gin.aggOf (ksrc m c) (kdst m c) (Gin.ofArr2 (B8 m c main_v71 : S50000x128.Idx → EReal))) (kw1 m c 2) (kb1 m c 2) := by
  unfold H4
  rw [L2_x, L2_agg, L2_w1, L2_b1]

/-- What the statistics region leaves: the first map, its column sums and its column sums of squares. -/
theorem L2_h (n : Fin 50000) (j : Fin 128) : (B10 m c main_v87_0 : S50000x128.Idx → EReal) (ix2 n j) = Gin.pre1 (Gin.ofArr2 (B8 m c main_v71 : S50000x128.Idx → EReal)) (Gin.aggOf (ksrc m c) (kdst m c) (Gin.ofArr2 (B8 m c main_v71 : S50000x128.Idx → EReal))) (kw1 m c 2) (kb1 m c 2) n j := by
  have h := val4_h (E9 m) c n j
  rw [L2_H] at h
  exact (congrFun (B10_arr m c 4) (ix2 n j)).trans h
theorem L2_sum (j : Fin 128) : (B10 m c main_v87_1 : S1x128.Idx → EReal) (ix2 0 j) = Gin.colSum (Gin.pre1 (Gin.ofArr2 (B8 m c main_v71 : S50000x128.Idx → EReal)) (Gin.aggOf (ksrc m c) (kdst m c) (Gin.ofArr2 (B8 m c main_v71 : S50000x128.Idx → EReal))) (kw1 m c 2) (kb1 m c 2)) j := by
  have h := val4_sum (E9 m) c j
  rw [L2_H] at h
  exact (congrFun (B10_arr m c 5) (ix2 0 j)).trans h
theorem L2_sq (j : Fin 128) : (B10 m c main_v87_2 : S1x128.Idx → EReal) (ix2 0 j)
    = Gin.colSum (fun n κ => Gin.pre1 (Gin.ofArr2 (B8 m c main_v71 : S50000x128.Idx → EReal)) (Gin.aggOf (ksrc m c) (kdst m c) (Gin.ofArr2 (B8 m c main_v71 : S50000x128.Idx → EReal))) (kw1 m c 2) (kb1 m c 2) n κ * Gin.pre1 (Gin.ofArr2 (B8 m c main_v71 : S50000x128.Idx → EReal)) (Gin.aggOf (ksrc m c) (kdst m c) (Gin.ofArr2 (B8 m c main_v71 : S50000x128.Idx → EReal))) (kw1 m c 2) (kb1 m c 2) n κ) j := by
  have h := val4_sumsq (E9 m) c j
  rw [L2_H] at h
  exact (congrFun (B10_arr m c 6) (ix2 0 j)).trans h

/-- The apply region's operands: the first map as the statistics region left it, and slice 2 of the scale, the
    shift and the second map's weights and biases. -/
theorem L2_hin : Gin.ofArr2 (hArr5 (E11 m) c) = Gin.ofArr2 (B10 m c main_v87_0 : S50000x128.Idx → EReal) :=
  congrArg (Gin.ofArr2 (r := 50000) (c := 128)) (B11_of m c main_v87_0 (by decide))
theorem L2_g : Gin.ofArr2Row (gArr5 (E11 m) c) 0 = kg m c 2 := funext fun j =>
  (host5_gamma (B10 m c) 0 j).trans (congrFun (B10_back m c main_arg5 (by decide) (by decide) (by decide) (by decide) (by decide) (by decide) (by decide) (by decide) (by decide) (by decide)) (ix2 (2 : Fin 3) j))
theorem L2_bb : Gin.ofArr2Row (bbArr5 (E11 m) c) 0 = kbb m c 2 := funext fun j =>
  (host5_beta (B10 m c) 0 j).trans (congrFun (B10_back m c main_arg6 (by decide) (by decide) (by decide) (by decide) (by decide) (by decide) (by decide) (by decide) (by decide) (by decide)) (ix2 (2 : Fin 3) j))
theorem L2_w2 : Gin.ofArr2 (w2Arr5 (E11 m) c) = kw2 m c 2 :=
  (host5_w2 (B10 m c)).trans
    (congrArg (fun a : S3x128x128.Idx → EReal => Gin.ofArr3 a (2 : Fin 3)) (B10_back m c main_arg7 (by decide) (by decide) (by decide) (by decide) (by decide) (by decide) (by decide) (by decide) (by decide) (by decide)))
theorem L2_b2 : Gin.ofArr2Row (b2Arr5 (E11 m) c) 0 = kb2 m c 2 := funext fun j =>
  (host5_b2 (B10 m c) 0 j).trans (congrFun (B10_back m c main_arg8 (by decide) (by decide) (by decide) (by decide) (by decide) (by decide) (by decide) (by decide) (by decide) (by decide)) (ix2 (2 : Fin 3) j))

/-- What the apply region leaves, over the mean and variance rows the host wrote. -/
theorem L2_out (n : Fin 50000) (j : Fin 128) : (B12 m c main_v105 : S50000x128.Idx → EReal) (ix2 n j)
    = Gin.bnApply (Gin.ofArr2 (B10 m c main_v87_0 : S50000x128.Idx → EReal)) (Gin.ofArr2Row (B11 m c main_v89 : S1x128.Idx → EReal) 0)
        (Gin.ofArr2Row (B11 m c main_v93 : S1x128.Idx → EReal) 0) (kg m c 2) (kbb m c 2) (kw2 m c 2) (kb2 m c 2) n j := by
  have h := val5 (E11 m) c n j
  rw [L2_hin, L2_g, L2_bb, L2_w2, L2_b2] at h
  exact (congrFun (B12_arr m c 7) (ix2 n j)).trans h

/-- LAYER 2: the apply region's output array is layer 2, with the kernel's variance, of the rows the layer found. -/
theorem layer2 : Gin.ofArr2 (B12 m c main_v105 : S50000x128.Idx → EReal) = kL m c 2 (Gin.ofArr2 (B8 m c main_v71 : S50000x128.Idx → EReal)) :=
  layer_of_stages (Gin.ofArr2 (B8 m c main_v71 : S50000x128.Idx → EReal)) (Gin.aggOf (ksrc m c) (kdst m c) (Gin.ofArr2 (B8 m c main_v71 : S50000x128.Idx → EReal))) (kw1 m c 2) (kb1 m c 2) (kg m c 2) (kbb m c 2) (kw2 m c 2) (kb2 m c 2)
    (B10 m c main_v87_0) (B10 m c main_v87_1) (B10 m c main_v87_2) (B11 m c main_v89) (B11 m c main_v93) (B12 m c main_v105)
    (L2_h m c) (L2_sum m c) (L2_sq m c) (host5_mean (B10 m c) 0) (host5_var (B10 m c) 0) (L2_out m c)

end Layer2

/-! ## The three layers composed -/
section Net
variable (m : (ℓ : Loc nD τ sig) → Buf (Elt Ideal) ℓ) (c : Dev nD)

/-- The node features after the three layers, with the kernel's variance. -/
abbrev kx3 : Gin.Nodes :=
  Gin.gin3 Gin.varKernel (ksrc m c) (kdst m c) (kw1 m c) (kb1 m c) (kg m c) (kbb m c) (kw2 m c) (kb2 m c) (kx0 m c)

/-- The last apply region's output array holds them: each layer's output is the next layer's input. -/
theorem x3_eq : Gin.ofArr2 (B12 m c main_v105 : S50000x128.Idx → EReal) = kx3 m c := by
  rw [layer2, layer1, layer0]
  rfl

end Net

/-! ## The reconstruction head -/
section Rec
variable (m : (ℓ : Loc nD τ sig) → Buf (Elt Ideal) ℓ) (c : Dev nD)

/-- The region's operands: the last layer's rows, and the head's weights and biases (the biases through the host's
    one-row reshapes). -/
theorem R6_x : Gin.ofArr2 (xArr6 (E13 m) c) = kx3 m c :=
  (congrArg (Gin.ofArr2 (r := 50000) (c := 128)) (B13_of m c main_v105 (by decide))).trans (x3_eq m c)
theorem R6_w1 : Gin.ofArr2 (w1Arr6 (E13 m) c) = krw1 m c :=
  congrArg (Gin.ofArr2 (r := 128) (c := 128)) ((B13_of m c main_arg9 (by decide)).trans (B12_back m c main_arg9 (by decide) (by decide) (by decide) (by decide) (by decide) (by decide) (by decide) (by decide) (by decide) (by decide) (by decide) (by decide)))
theorem R6_b1 : Gin.ofArr2Row (b1Arr6 (E13 m) c) 0 = krb1 m c := funext fun j =>
  (host6_b1 (B12 m c) j).trans (congrFun (B12_back m c main_arg10 (by decide) (by decide) (by decide) (by decide) (by decide) (by decide) (by decide) (by decide) (by decide) (by decide) (by decide) (by decide)) (ix1 j))
theorem R6_w2 : Gin.ofArr2 (w2Arr6 (E13 m) c) = krw2 m c :=
  congrArg (Gin.ofArr2 (r := 128) (c := 128)) ((B13_of m c main_arg11 (by decide)).trans (B12_back m c main_arg11 (by decide) (by decide) (by decide) (by decide) (by decide) (by decide) (by decide) (by decide) (by decide) (by decide) (by decide) (by decide)))
theorem R6_b2 : Gin.ofArr2Row (b2Arr6 (E13 m) c) 0 = krb2 m c := funext fun j =>
  (host6_b2 (B12 m c) j).trans (congrFun (B12_back m c main_arg12 (by decide) (by decide) (by decide) (by decide) (by decide) (by decide) (by decide) (by decide) (by decide) (by decide) (by decide) (by decide)) (ix1 j))
theorem R6_w3 : Gin.ofArr2 (w3Arr6 (E13 m) c) = krw3 m c :=
  congrArg (Gin.ofArr2 (r := 128) (c := 4)) ((B13_of m c main_arg13 (by decide)).trans (B12_back m c main_arg13 (by decide) (by decide) (by decide) (by decide) (by decide) (by decide) (by decide) (by decide) (by decide) (by decide) (by decide) (by decide)))
theorem R6_b3 : Gin.ofArr2Row (b3Arr6 (E13 m) c) 0 = krb3 m c := funext fun j =>
  (host6_b3 (B12 m c) j).trans (congrFun (B12_back m c main_arg14 (by decide) (by decide) (by decide) (by decide) (by decide) (by decide) (by decide) (by decide) (by decide) (by decide) (by decide) (by decide)) (ix1 j))

/-- THE SECOND RESULT: the reconstruction head of the three layers' rows. -/
theorem kernel_rec : (dat6 (F := Ideal) (E13 m) c).arrAt 7 cfg6.N
    = Gin.toArr2 (Gin.recOf (kx3 m c) (krw1 m c) (krb1 m c) (krw2 m c) (krb2 m c) (krw3 m c) (krb3 m c)) := by
  refine (val6_arr (E13 m) c).trans ?_
  unfold G6
  rw [R6_x, R6_w1, R6_b1, R6_w2, R6_b2, R6_w3, R6_b3]
  rfl

end Rec

/-! ## The pooled output network -/
section Pool
variable (m : (ℓ : Loc nD τ sig) → Buf (Elt Ideal) ℓ) (c : Dev nD)

/-- The region's operands: the last layer's rows, -/
theorem R7_x : Gin.ofArr2 (xArr7 (E15 m) c) = kx3 m c :=
  (congrArg (Gin.ofArr2 (r := 50000) (c := 128))
    ((B15_of m c main_v105 (by decide)).trans <| (B14_keep m c main_v105 (by decide)).trans (B13_of m c main_v105 (by decide)))).trans
    (x3_eq m c)
/-- the one-hot matrix of the graph ids, -/
theorem R7_oh (n : Fin 50000) (g : Fin 64) :
    ohArr7 (E15 m) c (ix2 n g) = if kbatch m c n = BitVec.ofNat 32 g.val then (1 : EReal) else 0 := by
  refine (host7_onehot (B14 m c) n g).trans ?_
  have e : (B14 m c main_arg2 : S50000.Idx → BitVec 32) = m ((c : Thread nD τ).loc main_arg2) := (B14_back m c main_arg2 (by decide) (by decide) (by decide) (by decide) (by decide) (by decide) (by decide) (by decide) (by decide) (by decide) (by decide) (by decide) (by decide) (by decide))
  rw [e]
/-- and the output network's weights and biases. -/
theorem R7_w1 : Gin.ofArr2 (w1Arr7 (E15 m) c) = kmw1 m c :=
  congrArg (Gin.ofArr2 (r := 128) (c := 128)) ((B15_of m c main_arg15 (by decide)).trans (B14_back m c main_arg15 (by decide) (by decide) (by decide) (by decide) (by decide) (by decide) (by decide) (by decide) (by decide) (by decide) (by decide) (by decide) (by decide) (by decide)))
theorem R7_b1 : Gin.ofArr2Row (b1Arr7 (E15 m) c) 0 = kmb1 m c := funext fun j =>
  (host7_b1 (B14 m c) j).trans (congrFun (B14_back m c main_arg16 (by decide) (by decide) (by decide) (by decide) (by decide) (by decide) (by decide) (by decide) (by decide) (by decide) (by decide) (by decide) (by decide) (by decide)) (ix1 j))
theorem R7_w2 : Gin.ofArr2 (w2Arr7 (E15 m) c) = kmw2 m c :=
  congrArg (Gin.ofArr2 (r := 128) (c := 64)) ((B15_of m c main_arg17 (by decide)).trans (B14_back m c main_arg17 (by decide) (by decide) (by decide) (by decide) (by decide) (by decide) (by decide) (by decide) (by decide) (by decide) (by decide) (by decide) (by decide) (by decide)))
theorem R7_b2 : Gin.ofArr2Row (b2Arr7 (E15 m) c) 0 = kmb2 m c := funext fun j =>
  (host7_b2 (B14 m c) j).trans (congrFun (B14_back m c main_arg18 (by decide) (by decide) (by decide) (by decide) (by decide) (by decide) (by decide) (by decide) (by decide) (by decide) (by decide) (by decide) (by decide) (by decide)) (ix1 j))

/-- The one-hot product summed over the rows is the sum, graph by graph, of the rows whose id is the graph's. -/
theorem R7_P : P7 (E15 m) c = Gin.pooled (kx3 m c) (kbatch m c) := by
  funext g j
  show (∑ n : Fin 50000, ohArr7 (E15 m) c (ix2 n g) * xArr7 (E15 m) c (ix2 n j))
    = ∑ n : Fin 50000, (if kbatch m c n = BitVec.ofNat 32 g.val then kx3 m c n j else 0)
  refine Finset.sum_congr rfl fun n _ => ?_
  have ex : xArr7 (E15 m) c (ix2 n j) = kx3 m c n j := congrFun (congrFun (R7_x m c) n) j
  rw [R7_oh, ex]
  exact Gin.onehot_mul _ _

/-- THE FIRST RESULT: the output network on the three layers' rows pooled by graph id. -/
theorem kernel_out : (dat7 (F := Ideal) (E15 m) c).arrAt 6 cfg7.N
    = Gin.toArr2 (Gin.outOf (kx3 m c) (kbatch m c) (kmw1 m c) (kmb1 m c) (kmw2 m c) (kmb2 m c)) := by
  have key : ((dat7 (F := Ideal) (E15 m) c).arrAt 6 cfg7.N : S64x64.Idx → EReal)
      = Gin.toArr2 (Gin.outOf (kx3 m c) (kbatch m c) (kmw1 m c) (kmb1 m c) (kmw2 m c) (kmb2 m c)) := by
    funext i
    obtain ⟨g, j, rfl⟩ : ∃ (g : Fin 64) (j : Fin 64), i = ix2 g j := ⟨i 0, i 1, eq_ix2 i⟩
    refine (val7 (E15 m) c g j).trans ?_
    rw [R7_P, R7_w1, R7_b1, R7_w2, R7_b2]
    rfl
  exact key

end Pool

end Cert.KernelIdeal.Val

end
-- ==== Proof.Ref.RunH.lean ====
/-
  The reference program's run, as one straight line.

  The reference is a host-only StableHLO program: @main is 210 statements, thirteen of them calls of the
  module's own functions (a variance over the rows, which itself calls a select with a broadcast default; a rectifier
  at three shapes). A call executes the callee's body on the operands, each value of the body in a buffer of its own — the
  record the call site names — so @main IS a straight line of 292 single-result operations: each statement's
  operation, or, at a call, the callee's operations in its order over that call's record. This module writes that line
  down (`ops`, as four lists, one per window `main_partK` of @main), proves @main equal to it, and reads the run back:
  from any memory with zero counters every weakly fair execution of @main terminates, each of the two results holds
  the fold of the line over the launch contents — kept as the fold `after ops …`, for a reader that goes through it
  stage by stage — and every argument holds what it held at launch, since no operation of the line writes an argument
  (each writes its one result buffer, listed per window in `opsK_W`).
-/
import proofs.«430410_j38371237822819_1_alg».proof.ReferenceIdeal
import proofs.«430410_j38371237822819_1_alg».proof.Proof.Gen.ReferenceIdeal
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of a reference in a list writes inside the list's buffers. -/
theorem writes_sub_of {op : HloOp τ sig (Elt F)} {y : Ref sig .tc} {W : List (Ref sig .tc)}
    (hw : op.writes = {Proc.devRef (τ := τ) .tc y}) (hy : y ∈ W) :
    op.writes ⊆ (W.map (Proc.devRef (τ := τ) .tc)).toFinset := by
  rw [hw, Finset.singleton_subset_iff, List.mem_toFinset]; exact List.mem_map_of_mem hy

/-! ## Statements 1 … 60 of @main -/

/-- The 83 operations that statements 1 … 60 of @main perform, in program order: a statement that is one
    operation is that operation; a statement that calls a function is the function's operations, in its order, over the
    buffers that call names (its record), a call inside it likewise. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v22 main_cst_1 main_v23 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v22 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (StableHlo.TRef.of main_v22 : StableHlo.TRef sig ⟨S50000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_arg5 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_v25 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v30 main_v31 (subf : (⟨S50000x128, .f32⟩ : BufTy).Contents (Elt F) → (⟨S50000x128, .f32⟩ : BufTy).Contents (Elt F) → (⟨S50000x128, .f32⟩ : BufTy).Contents (Elt F)),
    StableHlo.unary main_v28 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v31 main_v34 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v35 (broadcastInDim S128 ![] bcast_S_S128 : (⟨S_, .f32⟩ : BufTy).Contents (Elt F) → (⟨S128, .f32⟩ : BufTy).Contents (Elt F)),
    StableHlo.binary main_v26 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg6 main_v41 ((extractStridedSlice S1x128 ![0, 0] · slices_S3x128_S1x128_0_0) : (⟨S3x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v44 main_v45 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v45 : StableHlo.TRef sig ⟨S50000x128, .f32⟩) main_call1.v0 main_call1.v1 maximumf,
    StableHlo.unary main_arg7 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

/-- Statements 1 … 60 are that straight line: a call unfolds to its body over its record, and sequencing
    re-associates, both by computation. -/
theorem main_part0_eq (d : Dev nD) : main_part0 (F := F) d = seq ops0 := by chain_rfl

/-- Each operation touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub .., reshape_bufs_sub ..,
    unary_bufs_sub .., unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub .., unary_bufs_sub ..,
    reshape_bufs_sub .., unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..⟩

/-- Each operation determines what it writes: none leaves a buffer's contents open. -/
theorem ops0_fresh : (ops0 : List (HloOp τ sig (Elt F))).Forall fun op => op.fresh = ∅ := by
  simp only [List.Forall]; repeat' constructor

/-- The references these operations write: one per operation, its result. -/
abbrev ops0_W : List (Ref sig .tc) :=
  [main_v0, main_v1, main_v2, main_v3, main_c, main_v4, main_v5, main_c_0, main_v6, main_v7, main_v8, main_v9, main_v10, main_cst, main_v11, main_v12,
    main_v13, main_v14, main_v15, main_v16, main_v17, main_v18, main_v19, main_v20, main_v21, main_v22, main_cst_1, main_v23, main_cst_2, main_v24,
    main_v25, main_c_3, main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11, main_call0_cst_3,
    main_call0_v12, main_call0_cst_4, main_call0_call0_v0, main_call0_call0_v1, main_v26, main_v27, main_v28, main_v29, main_v30, main_v31, main_v32,
    main_v33, main_v34, main_cst_4, main_v35, main_v36, main_v37, main_v38, main_v39, main_v40, main_v41, main_v42, main_v43, main_v44, main_v45,
    main_call1_cst, main_call1_v0, main_v46, main_v47, main_v48, main_v49, main_v50, main_v51, main_v52]

/-- Each operation writes its result buffer only, and that buffer is in the list. -/
theorem ops0_writes : (ops0 : List (HloOp τ sig (Elt F))).Forall fun op => op.writes ⊆ (ops0_W.map (Proc.devRef (τ := τ) .tc)).toFinset :=
  ⟨writes_sub_of (unary_writes ..) (by decide), writes_sub_of (reshape_writes ..) (by decide), writes_sub_of (unary_writes ..) (by decide),
    writes_sub_of (reshape_writes ..) (by decide), writes_sub_of (nullary_writes ..) (by decide), writes_sub_of (unary_writes ..) (by decide),
    writes_sub_of (binary_writes ..) (by decide), writes_sub_of (nullary_writes ..) (by decide), writes_sub_of (unary_writes ..) (by decide),
    writes_sub_of (binary_writes ..) (by decide), writes_sub_of (ternary_writes ..) (by decide), writes_sub_of (unary_writes ..) (by decide),
    writes_sub_of (binary_writes ..) (by decide), writes_sub_of (nullary_writes ..) (by decide), writes_sub_of (unary_writes ..) (by decide),
    writes_sub_of (unary_writes ..) (by decide), writes_sub_of (ternary_writes ..) (by decide), writes_sub_of (binary_writes ..) (by decide),
    writes_sub_of (unary_writes ..) (by decide), writes_sub_of (reshape_writes ..) (by decide), writes_sub_of (binary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (nullary_writes ..) (by decide),
    writes_sub_of (binary_writes ..) (by decide), writes_sub_of (nullary_writes ..) (by decide), writes_sub_of (unary_writes ..) (by decide),
    writes_sub_of (binary_writes ..) (by decide), writes_sub_of (nullary_writes ..) (by decide), writes_sub_of (nullary_writes ..) (by decide),
    writes_sub_of (binary_writes ..) (by decide), writes_sub_of (unary_writes ..) (by decide), writes_sub_of (nullary_writes ..) (by decide),
    writes_sub_of (unary_writes ..) (by decide), writes_sub_of (binary_writes ..) (by decide), writes_sub_of (unary_writes ..) (by decide),
    writes_sub_of (binary_writes ..) (by decide), writes_sub_of (binary_writes ..) (by decide), writes_sub_of (unary_writes ..) (by decide),
    writes_sub_of (nullary_writes ..) (by decide), writes_sub_of (binary_writes ..) (by decide), writes_sub_of (nullary_writes ..) (by decide),
    writes_sub_of (binary_writes ..) (by decide), writes_sub_of (unary_writes ..) (by decide), writes_sub_of (binary_writes ..) (by decide),
    writes_sub_of (nullary_writes ..) (by decide), writes_sub_of (binary_writes ..) (by decide), writes_sub_of (nullary_writes ..) (by decide),
    writes_sub_of (unary_writes ..) (by decide), writes_sub_of (unary_writes ..) (by decide), writes_sub_of (ternary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (unary_writes ..) (by decide),
    writes_sub_of (unary_writes ..) (by decide), writes_sub_of (unary_writes ..) (by decide), writes_sub_of (binary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (unary_writes ..) (by decide),
    writes_sub_of (reshape_writes ..) (by decide), writes_sub_of (binary_writes ..) (by decide), writes_sub_of (unary_writes ..) (by decide),
    writes_sub_of (reshape_writes ..) (by decide), writes_sub_of (unary_writes ..) (by decide)⟩

/-! ## Statements 61 … 120 of @main -/

/-- The 85 operations that statements 61 … 120 of @main perform, in program order: a statement that is one
    operation is that operation; a statement that calls a function is the function's operations, in its order, over the
    buffers that call names (its record), a call inside it likewise. -/
abbrev ops1 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (StableHlo.TRef.of main_v54 : StableHlo.TRef sig ⟨S50000x128, .f32⟩) main_call2.v0 main_call2.v1 maximumf,
    StableHlo.nullary main_c_5 (constantI S_ 32 0#32),
    StableHlo.unary main_c_5 main_v56 (broadcastInDim S600000 ![] bcast_S_S600000 : (⟨S_, .i32⟩ : BufTy).Contents (Elt F) → (⟨S600000, .i32⟩ : BufTy).Contents (Elt F)),
    StableHlo.binary main_v1 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v58 (broadcastInDim S600000 ![] bcast_S_S600000 : (⟨S_, .i32⟩ : BufTy).Contents (Elt F) → (⟨S600000, .i32⟩ : BufTy).Contents (Elt F)),
    StableHlo.binary main_v1 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.binary main_v55 main_v61 main_v62 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S600000x1 ![0] bcast_S600000_S600000x1_0 : (⟨S600000, .i32⟩ : BufTy).Contents (Elt F) → (⟨S600000x1, .i32⟩ : BufTy).Contents (Elt F)),
    StableHlo.ternary main_v63 main_v64 main_v62 main_v65 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v55 main_v65 main_v66 (addf : (⟨S50000x128, .f32⟩ : BufTy).Contents (Elt F) → (⟨S50000x128, .f32⟩ : BufTy).Contents (Elt F) → (⟨S50000x128, .f32⟩ : BufTy).Contents (Elt F)),
    StableHlo.unary main_arg3 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v74 main_cst_8 main_v75 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v76 (broadcastInDim S128 ![] bcast_S_S128 : (⟨S_, .f32⟩ : BufTy).Contents (Elt F) → (⟨S128, .f32⟩ : BufTy).Contents (Elt F)),
    StableHlo.binary main_v75 main_v76 main_v77 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (StableHlo.TRef.of main_v74 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (StableHlo.TRef.of main_v74 : StableHlo.TRef sig ⟨S50000x128, .f32⟩) main_call3.v4 main_call3.v5 subf,
    StableHlo.TRef.binary main_call3.v5 main_call3.v5 main_call3.v6 mulf,
    StableHlo.TRef.unary (StableHlo.TRef.of main_c_10 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_arg5 main_v79 ((extractStridedSlice S1x128 ![1, 0] · slices_S3x128_S1x128_1_0) : (⟨S3x128, .f32⟩ : BufTy).Contents (Elt F) → (⟨S1x128, .f32⟩ : BufTy).Contents (Elt F)),
    StableHlo.reshape main_v79 main_v80 rfl shapeCasts_S1x128_S128,
    StableHlo.unary main_v77 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v82 main_v83 (subf : (⟨S50000x128, .f32⟩ : BufTy).Contents (Elt F) → (⟨S50000x128, .f32⟩ : BufTy).Contents (Elt F) → (⟨S50000x128, .f32⟩ : BufTy).Contents (Elt F)),
    StableHlo.unary main_v80 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v83 main_v86 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v87 (broadcastInDim S128 ![] bcast_S_S128 : (⟨S_, .f32⟩ : BufTy).Contents (Elt F) → (⟨S128, .f32⟩ : BufTy).Contents (Elt F)),
    StableHlo.binary main_v78 main_v87 main_v88 (addf : (⟨S128, .f32⟩ : BufTy).Contents (Elt F) → (⟨S128, .f32⟩ : BufTy).Contents (Elt F) → (⟨S128, .f32⟩ : BufTy).Contents (Elt F)),
    StableHlo.unary main_v88 main_v89 (Host.rsqrt : (⟨S128, .f32⟩ : BufTy).Contents (Elt F) → (⟨S128, .f32⟩ : BufTy).Contents (Elt F)),
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_arg6 main_v93 ((extractStridedSlice S1x128 ![1, 0] · slices_S3x128_S1x128_1_0) : (⟨S3x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (StableHlo.TRef.of main_v97 : StableHlo.TRef sig ⟨S50000x128, .f32⟩) main_call4.v0 main_call4.v1 maximumf,
    StableHlo.unary main_arg7 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v102 ((extractStridedSlice S1x128 ![1, 0] · slices_S3x128_S1x128_1_0) : (⟨S3x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)) ]

/-- Statements 61 … 120 are that straight line: a call unfolds to its body over its record, and sequencing
    re-associates, both by computation. -/
theorem main_part1_eq (d : Dev nD) : main_part1 (F := F) d = seq ops1 := by chain_rfl

/-- Each operation touches TensorCore references only. -/
theorem ops1_sub : (ops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., unary_bufs_sub .., reshape_bufs_sub ..,
    binary_bufs_sub .., unary_bufs_sub .., reshape_bufs_sub .., unary_bufs_sub .., unary_bufs_sub .., binary_bufs_sub .., nullary_bufs_sub ..,
    binary_bufs_sub .., nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub .., unary_bufs_sub ..,
    reshape_bufs_sub .., unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub .., unary_bufs_sub ..,
    unary_bufs_sub ..⟩

/-- Each operation determines what it writes: none leaves a buffer's contents open. -/
theorem ops1_fresh : (ops1 : List (HloOp τ sig (Elt F))).Forall fun op => op.fresh = ∅ := by
  simp only [List.Forall]; repeat' constructor

/-- The references these operations write: one per operation, its result. -/
abbrev ops1_W : List (Ref sig .tc) :=
  [main_v53, main_v54, main_call2_cst, main_call2_v0, main_v55, main_c_5, main_v56, main_v57, main_c_6, main_v58, main_v59, main_v60, main_v61, main_v62,
    main_cst_7, main_v63, main_v64, main_v65, main_v66, main_v67, main_v68, main_v69, main_v70, main_v71, main_v72, main_v73, main_v74, main_cst_8,
    main_v75, main_cst_9, main_v76, main_v77, main_c_10, main_call3_cst, main_call3_v0, main_call3_v1, main_call3_cst_0, main_call3_v2, main_call3_v3,
    main_call3_v4, main_call3_v5, main_call3_v6, main_call3_v7, main_call3_cst_1, main_call3_v8, main_call3_cst_2, main_call3_v9, main_call3_v10,
    main_call3_v11, main_call3_cst_3, main_call3_v12, main_call3_cst_4, main_call3_call0_v0, main_call3_call0_v1, main_v78, main_v79, main_v80, main_v81,
    main_v82, main_v83, main_v84, main_v85, main_v86, main_cst_11, main_v87, main_v88, main_v89, main_v90, main_v91, main_v92, main_v93, main_v94,
    main_v95, main_v96, main_v97, main_call4_cst, main_call4_v0, main_v98, main_v99, main_v100, main_v101, main_v102, main_v103, main_v104, main_v105]

/-- Each operation writes its result buffer only, and that buffer is in the list. -/
theorem ops1_writes : (ops1 : List (HloOp τ sig (Elt F))).Forall fun op => op.writes ⊆ (ops1_W.map (Proc.devRef (τ := τ) .tc)).toFinset :=
  ⟨writes_sub_of (unary_writes ..) (by decide), writes_sub_of (binary_writes ..) (by decide), writes_sub_of (nullary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (ternary_writes ..) (by decide),
    writes_sub_of (unary_writes ..) (by decide), writes_sub_of (binary_writes ..) (by decide), writes_sub_of (nullary_writes ..) (by decide),
    writes_sub_of (unary_writes ..) (by decide), writes_sub_of (unary_writes ..) (by decide), writes_sub_of (ternary_writes ..) (by decide),
    writes_sub_of (binary_writes ..) (by decide), writes_sub_of (unary_writes ..) (by decide), writes_sub_of (reshape_writes ..) (by decide),
    writes_sub_of (binary_writes ..) (by decide), writes_sub_of (unary_writes ..) (by decide), writes_sub_of (reshape_writes ..) (by decide),
    writes_sub_of (unary_writes ..) (by decide), writes_sub_of (unary_writes ..) (by decide), writes_sub_of (binary_writes ..) (by decide),
    writes_sub_of (nullary_writes ..) (by decide), writes_sub_of (binary_writes ..) (by decide), writes_sub_of (nullary_writes ..) (by decide),
    writes_sub_of (unary_writes ..) (by decide), writes_sub_of (binary_writes ..) (by decide), writes_sub_of (nullary_writes ..) (by decide),
    writes_sub_of (nullary_writes ..) (by decide), writes_sub_of (binary_writes ..) (by decide), writes_sub_of (unary_writes ..) (by decide),
    writes_sub_of (nullary_writes ..) (by decide), writes_sub_of (unary_writes ..) (by decide), writes_sub_of (binary_writes ..) (by decide),
    writes_sub_of (unary_writes ..) (by decide), writes_sub_of (binary_writes ..) (by decide), writes_sub_of (binary_writes ..) (by decide),
    writes_sub_of (unary_writes ..) (by decide), writes_sub_of (nullary_writes ..) (by decide), writes_sub_of (binary_writes ..) (by decide),
    writes_sub_of (nullary_writes ..) (by decide), writes_sub_of (binary_writes ..) (by decide), writes_sub_of (unary_writes ..) (by decide),
    writes_sub_of (binary_writes ..) (by decide), writes_sub_of (nullary_writes ..) (by decide), writes_sub_of (binary_writes ..) (by decide),
    writes_sub_of (nullary_writes ..) (by decide), writes_sub_of (unary_writes ..) (by decide), writes_sub_of (unary_writes ..) (by decide),
    writes_sub_of (ternary_writes ..) (by decide), writes_sub_of (unary_writes ..) (by decide), writes_sub_of (reshape_writes ..) (by decide),
    writes_sub_of (unary_writes ..) (by decide), writes_sub_of (unary_writes ..) (by decide), writes_sub_of (binary_writes ..) (by decide),
    writes_sub_of (unary_writes ..) (by decide), writes_sub_of (unary_writes ..) (by decide), writes_sub_of (binary_writes ..) (by decide),
    writes_sub_of (nullary_writes ..) (by decide), writes_sub_of (unary_writes ..) (by decide), writes_sub_of (binary_writes ..) (by decide),
    writes_sub_of (unary_writes ..) (by decide), writes_sub_of (unary_writes ..) (by decide), writes_sub_of (unary_writes ..) (by decide),
    writes_sub_of (binary_writes ..) (by decide), writes_sub_of (unary_writes ..) (by decide), writes_sub_of (reshape_writes ..) (by decide),
    writes_sub_of (unary_writes ..) (by decide), writes_sub_of (unary_writes ..) (by decide), writes_sub_of (binary_writes ..) (by decide),
    writes_sub_of (nullary_writes ..) (by decide), writes_sub_of (unary_writes ..) (by decide), writes_sub_of (binary_writes ..) (by decide),
    writes_sub_of (unary_writes ..) (by decide), writes_sub_of (reshape_writes ..) (by decide), writes_sub_of (binary_writes ..) (by decide),
    writes_sub_of (unary_writes ..) (by decide), writes_sub_of (reshape_writes ..) (by decide), writes_sub_of (unary_writes ..) (by decide),
    writes_sub_of (unary_writes ..) (by decide)⟩

/-! ## Statements 121 … 180 of @main -/

/-- The 85 operations that statements 121 … 180 of @main perform, in program order: a statement that is one
    operation is that operation; a statement that calls a function is the function's operations, in its order, over the
    buffers that call names (its record), a call inside it likewise. -/
abbrev ops2 : List (HloOp τ sig (Elt F)) :=
  [ StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (StableHlo.TRef.of main_v106 : StableHlo.TRef sig ⟨S50000x128, .f32⟩) main_call5.v0 main_call5.v1 maximumf,
    StableHlo.nullary main_c_12 (constantI S_ 32 0#32),
    StableHlo.unary main_c_12 main_v108 (broadcastInDim S600000 ![] bcast_S_S600000 : (⟨S_, .i32⟩ : BufTy).Contents (Elt F) → (⟨S600000, .i32⟩ : BufTy).Contents (Elt F)),
    StableHlo.binary main_v1 main_v108 main_v109 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v110 (broadcastInDim S600000 ![] bcast_S_S600000 : (⟨S_, .i32⟩ : BufTy).Contents (Elt F) → (⟨S600000, .i32⟩ : BufTy).Contents (Elt F)),
    StableHlo.binary main_v1 main_v110 main_v111 (addi : (⟨S600000, .i32⟩ : BufTy).Contents (Elt F) → (⟨S600000, .i32⟩ : BufTy).Contents (Elt F) → (⟨S600000, .i32⟩ : BufTy).Contents (Elt F)),
    StableHlo.ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v112 main_v113 (broadcastInDim S600000x1 ![0] bcast_S600000_S600000x1_0 : (⟨S600000, .i32⟩ : BufTy).Contents (Elt F) → (⟨S600000x1, .i32⟩ : BufTy).Contents (Elt F)),
    StableHlo.binary main_v107 main_v113 main_v114 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v115 (broadcastInDim S50000x128 ![] bcast_S_S50000x128 : (⟨S_, .f32⟩ : BufTy).Contents (Elt F) → (⟨S50000x128, .f32⟩ : BufTy).Contents (Elt F)),
    StableHlo.unary main_v3 main_v116 (broadcastInDim S600000x1 ![0] bcast_S600000_S600000x1_0 : (⟨S600000, .i32⟩ : BufTy).Contents (Elt F) → (⟨S600000x1, .i32⟩ : BufTy).Contents (Elt F)),
    StableHlo.ternary main_v115 main_v116 main_v114 main_v117 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v117 main_v118 (addf : (⟨S50000x128, .f32⟩ : BufTy).Contents (Elt F) → (⟨S50000x128, .f32⟩ : BufTy).Contents (Elt F) → (⟨S50000x128, .f32⟩ : BufTy).Contents (Elt F)),
    StableHlo.unary main_arg3 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v126 main_cst_15 main_v127 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call6.cst (constant S_ .f32 0x00000000#32),
    StableHlo.TRef.binary (StableHlo.TRef.of main_v126 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (StableHlo.TRef.of main_v126 : StableHlo.TRef sig ⟨S50000x128, .f32⟩) main_call6.v4 main_call6.v5 subf,
    StableHlo.TRef.binary main_call6.v5 main_call6.v5 main_call6.v6 mulf,
    StableHlo.TRef.unary (StableHlo.TRef.of main_c_17 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_arg5 main_v131 ((extractStridedSlice S1x128 ![2, 0] · slices_S3x128_S1x128_2_0) : (⟨S3x128, .f32⟩ : BufTy).Contents (Elt F) → (⟨S1x128, .f32⟩ : BufTy).Contents (Elt F)),
    StableHlo.reshape main_v131 main_v132 rfl shapeCasts_S1x128_S128,
    StableHlo.unary main_v129 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v134 main_v135 (subf : (⟨S50000x128, .f32⟩ : BufTy).Contents (Elt F) → (⟨S50000x128, .f32⟩ : BufTy).Contents (Elt F) → (⟨S50000x128, .f32⟩ : BufTy).Contents (Elt F)),
    StableHlo.unary main_v132 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v135 main_v138 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v139 (broadcastInDim S128 ![] bcast_S_S128 : (⟨S_, .f32⟩ : BufTy).Contents (Elt F) → (⟨S128, .f32⟩ : BufTy).Contents (Elt F)),
    StableHlo.binary main_v130 main_v139 main_v140 (addf : (⟨S128, .f32⟩ : BufTy).Contents (Elt F) → (⟨S128, .f32⟩ : BufTy).Contents (Elt F) → (⟨S128, .f32⟩ : BufTy).Contents (Elt F)),
    StableHlo.unary main_v140 main_v141 (Host.rsqrt : (⟨S128, .f32⟩ : BufTy).Contents (Elt F) → (⟨S128, .f32⟩ : BufTy).Contents (Elt F)),
    StableHlo.unary main_v141 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v143 main_v144 (mulf : (⟨S50000x128, .f32⟩ : BufTy).Contents (Elt F) → (⟨S50000x128, .f32⟩ : BufTy).Contents (Elt F) → (⟨S50000x128, .f32⟩ : BufTy).Contents (Elt F)),
    StableHlo.unary main_arg6 main_v145 ((extractStridedSlice S1x128 ![2, 0] · slices_S3x128_S1x128_2_0) : (⟨S3x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v148 main_v149 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (StableHlo.TRef.of main_v149 : StableHlo.TRef sig ⟨S50000x128, .f32⟩) main_call7.v0 main_call7.v1 maximumf,
    StableHlo.unary main_arg7 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v151 main_v152 rfl shapeCasts_S1x128x128_S128x128,
    StableHlo.binary main_v150 main_v152 main_v153 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v154 ((extractStridedSlice S1x128 ![2, 0] · slices_S3x128_S1x128_2_0) : (⟨S3x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v157 main_v158 (addf : (⟨S50000x128, .f32⟩ : BufTy).Contents (Elt F) → (⟨S50000x128, .f32⟩ : BufTy).Contents (Elt F) → (⟨S50000x128, .f32⟩ : BufTy).Contents (Elt F)) ]

/-- Statements 121 … 180 are that straight line: a call unfolds to its body over its record, and sequencing
    re-associates, both by computation. -/
theorem main_part2_eq (d : Dev nD) : main_part2 (F := F) d = seq ops2 := by chain_rfl

/-- Each operation touches TensorCore references only. -/
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub .., reshape_bufs_sub ..,
    unary_bufs_sub .., unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub .., unary_bufs_sub ..,
    reshape_bufs_sub .., unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub .., unary_bufs_sub ..,
    binary_bufs_sub ..⟩

/-- Each operation determines what it writes: none leaves a buffer's contents open. -/
theorem ops2_fresh : (ops2 : List (HloOp τ sig (Elt F))).Forall fun op => op.fresh = ∅ := by
  simp only [List.Forall]; repeat' constructor

/-- The references these operations write: one per operation, its result. -/
abbrev ops2_W : List (Ref sig .tc) :=
  [main_v106, main_call5_cst, main_call5_v0, main_v107, main_c_12, main_v108, main_v109, main_c_13, main_v110, main_v111, main_v112, main_v113, main_v114,
    main_cst_14, main_v115, main_v116, main_v117, main_v118, main_v119, main_v120, main_v121, main_v122, main_v123, main_v124, main_v125, main_v126,
    main_cst_15, main_v127, main_cst_16, main_v128, main_v129, main_c_17, main_call6_cst, main_call6_v0, main_call6_v1, main_call6_cst_0, main_call6_v2,
    main_call6_v3, main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v130, main_v131,
    main_v132, main_v133, main_v134, main_v135, main_v136, main_v137, main_v138, main_cst_18, main_v139, main_v140, main_v141, main_v142, main_v143,
    main_v144, main_v145, main_v146, main_v147, main_v148, main_v149, main_call7_cst, main_call7_v0, main_v150, main_v151, main_v152, main_v153, main_v154,
    main_v155, main_v156, main_v157, main_v158]

/-- Each operation writes its result buffer only, and that buffer is in the list. -/
theorem ops2_writes : (ops2 : List (HloOp τ sig (Elt F))).Forall fun op => op.writes ⊆ (ops2_W.map (Proc.devRef (τ := τ) .tc)).toFinset :=
  ⟨writes_sub_of (binary_writes ..) (by decide), writes_sub_of (nullary_writes ..) (by decide), writes_sub_of (unary_writes ..) (by decide),
    writes_sub_of (binary_writes ..) (by decide), writes_sub_of (nullary_writes ..) (by decide), writes_sub_of (unary_writes ..) (by decide),
    writes_sub_of (binary_writes ..) (by decide), writes_sub_of (nullary_writes ..) (by decide), writes_sub_of (unary_writes ..) (by decide),
    writes_sub_of (binary_writes ..) (by decide), writes_sub_of (ternary_writes ..) (by decide), writes_sub_of (unary_writes ..) (by decide),
    writes_sub_of (binary_writes ..) (by decide), writes_sub_of (nullary_writes ..) (by decide), writes_sub_of (unary_writes ..) (by decide),
    writes_sub_of (unary_writes ..) (by decide), writes_sub_of (ternary_writes ..) (by decide), writes_sub_of (binary_writes ..) (by decide),
    writes_sub_of (unary_writes ..) (by decide), writes_sub_of (reshape_writes ..) (by decide), writes_sub_of (binary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (nullary_writes ..) (by decide),
    writes_sub_of (binary_writes ..) (by decide), writes_sub_of (nullary_writes ..) (by decide), writes_sub_of (unary_writes ..) (by decide),
    writes_sub_of (binary_writes ..) (by decide), writes_sub_of (nullary_writes ..) (by decide), writes_sub_of (nullary_writes ..) (by decide),
    writes_sub_of (binary_writes ..) (by decide), writes_sub_of (unary_writes ..) (by decide), writes_sub_of (nullary_writes ..) (by decide),
    writes_sub_of (unary_writes ..) (by decide), writes_sub_of (binary_writes ..) (by decide), writes_sub_of (unary_writes ..) (by decide),
    writes_sub_of (binary_writes ..) (by decide), writes_sub_of (binary_writes ..) (by decide), writes_sub_of (unary_writes ..) (by decide),
    writes_sub_of (nullary_writes ..) (by decide), writes_sub_of (binary_writes ..) (by decide), writes_sub_of (nullary_writes ..) (by decide),
    writes_sub_of (binary_writes ..) (by decide), writes_sub_of (unary_writes ..) (by decide), writes_sub_of (binary_writes ..) (by decide),
    writes_sub_of (nullary_writes ..) (by decide), writes_sub_of (binary_writes ..) (by decide), writes_sub_of (nullary_writes ..) (by decide),
    writes_sub_of (unary_writes ..) (by decide), writes_sub_of (unary_writes ..) (by decide), writes_sub_of (ternary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (unary_writes ..) (by decide),
    writes_sub_of (unary_writes ..) (by decide), writes_sub_of (unary_writes ..) (by decide), writes_sub_of (binary_writes ..) (by decide),
    writes_sub_of (unary_writes ..) (by decide), writes_sub_of (reshape_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (unary_writes ..) (by decide),
    writes_sub_of (reshape_writes ..) (by decide), writes_sub_of (binary_writes ..) (by decide), writes_sub_of (unary_writes ..) (by decide),
    writes_sub_of (reshape_writes ..) (by decide), writes_sub_of (unary_writes ..) (by decide), writes_sub_of (unary_writes ..) (by decide),
    writes_sub_of (binary_writes ..) (by decide)⟩

/-! ## Statements 181 … 210 of @main -/

/-- The 39 operations that statements 181 … 210 of @main perform, in program order: a statement that is one
    operation is that operation; a statement that calls a function is the function's operations, in its order, over the
    buffers that call names (its record), a call inside it likewise. -/
abbrev ops3 : List (HloOp τ sig (Elt F)) :=
  [ StableHlo.TRef.nullary main_call8.cst (constant S_ .f32 0x00000000#32),
    StableHlo.TRef.unary main_call8.cst main_call8.v0 (broadcastInDim S50000x128 ![] bcast_S_S50000x128),
    StableHlo.TRef.binary (StableHlo.TRef.of main_v158 : StableHlo.TRef sig ⟨S50000x128, .f32⟩) main_call8.v0 main_call8.v1 maximumf,
    StableHlo.binary main_v159 main_arg9 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v162 main_v163 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (StableHlo.TRef.of main_v163 : StableHlo.TRef sig ⟨S50000x128, .f32⟩) main_call9.v0 main_call9.v1 maximumf,
    StableHlo.binary main_v164 main_arg11 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v167 main_v168 (addf : (⟨S50000x128, .f32⟩ : BufTy).Contents (Elt F) → (⟨S50000x128, .f32⟩ : BufTy).Contents (Elt F) → (⟨S50000x128, .f32⟩ : BufTy).Contents (Elt F)),
    StableHlo.TRef.nullary main_call10.cst (constant S_ .f32 0x00000000#32),
    StableHlo.TRef.unary main_call10.cst main_call10.v0 (broadcastInDim S50000x128 ![] bcast_S_S50000x128),
    StableHlo.TRef.binary (StableHlo.TRef.of main_v168 : StableHlo.TRef sig ⟨S50000x128, .f32⟩) main_call10.v0 main_call10.v1 maximumf,
    StableHlo.binary main_v169 main_arg13 main_v170 ((fun l r => Host.dotGeneral dot_S50000x128_S128x4_S50000x4_1_0_0_1_n_n none l r) : (⟨S50000x128, .f32⟩ : BufTy).Contents (Elt F) → (⟨S128x4, .f32⟩ : BufTy).Contents (Elt F) → (⟨S50000x4, .f32⟩ : BufTy).Contents (Elt F)),
    StableHlo.unary main_arg14 main_v171 (broadcastInDim S1x4 ![1] bcast_S4_S1x4_1 : (⟨S4, .f32⟩ : BufTy).Contents (Elt F) → (⟨S1x4, .f32⟩ : BufTy).Contents (Elt F)),
    StableHlo.unary main_v171 main_v172 (broadcastInDim S50000x4 ![0, 1] bcast_S1x4_S50000x4_0_1 : (⟨S1x4, .f32⟩ : BufTy).Contents (Elt F) → (⟨S50000x4, .f32⟩ : BufTy).Contents (Elt F)),
    StableHlo.binary main_v170 main_v172 main_v173 (addf : (⟨S50000x4, .f32⟩ : BufTy).Contents (Elt F) → (⟨S50000x4, .f32⟩ : BufTy).Contents (Elt F) → (⟨S50000x4, .f32⟩ : BufTy).Contents (Elt F)),
    StableHlo.TRef.nullary main_call11.cst (constant S_ .f32 0x00000000#32),
    StableHlo.TRef.unary main_call11.cst main_call11.v0 (broadcastInDim S50000x4 ![] bcast_S_S50000x4),
    StableHlo.TRef.binary (StableHlo.TRef.of main_v173 : StableHlo.TRef sig ⟨S50000x4, .f32⟩) main_call11.v0 main_call11.v1 maximumf,
    StableHlo.nullary main_cst_19 (constant S_ .f32 0x00000000#32),
    StableHlo.unary main_cst_19 main_v175 (broadcastInDim S64x128 ![] bcast_S_S64x128 : (⟨S_, .f32⟩ : BufTy).Contents (Elt F) → (⟨S64x128, .f32⟩ : BufTy).Contents (Elt F)),
    StableHlo.unary main_arg2 main_v176 (broadcastInDim S50000x1 ![0] bcast_S50000_S50000x1_0 : (⟨S50000, .i32⟩ : BufTy).Contents (Elt F) → (⟨S50000x1, .i32⟩ : BufTy).Contents (Elt F)),
    StableHlo.ternary main_v175 main_v176 main_v159 main_v177 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.binary main_v177 main_arg15 main_v178 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg16 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S64x128 ![0, 1] bcast_S1x128_S64x128_0_1 : (⟨S1x128, .f32⟩ : BufTy).Contents (Elt F) → (⟨S64x128, .f32⟩ : BufTy).Contents (Elt F)),
    StableHlo.binary main_v178 main_v180 main_v181 (addf : (⟨S64x128, .f32⟩ : BufTy).Contents (Elt F) → (⟨S64x128, .f32⟩ : BufTy).Contents (Elt F) → (⟨S64x128, .f32⟩ : BufTy).Contents (Elt F)),
    StableHlo.TRef.nullary main_call12.cst (constant S_ .f32 0x00000000#32),
    StableHlo.TRef.unary main_call12.cst main_call12.v0 (broadcastInDim S64x128 ![] bcast_S_S64x128),
    StableHlo.TRef.binary (StableHlo.TRef.of main_v181 : StableHlo.TRef sig ⟨S64x128, .f32⟩) main_call12.v0 main_call12.v1 maximumf,
    StableHlo.binary main_v182 main_arg17 main_v183 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg18 main_v184 (broadcastInDim S1x64 ![1] bcast_S64_S1x64_1 : (⟨S64, .f32⟩ : BufTy).Contents (Elt F) → (⟨S1x64, .f32⟩ : BufTy).Contents (Elt F)),
    StableHlo.unary main_v184 main_v185 (broadcastInDim S64x64 ![0, 1] bcast_S1x64_S64x64_0_1 : (⟨S1x64, .f32⟩ : BufTy).Contents (Elt F) → (⟨S64x64, .f32⟩ : BufTy).Contents (Elt F)),
    StableHlo.binary main_v183 main_v185 main_v186 (addf : (⟨S64x64, .f32⟩ : BufTy).Contents (Elt F) → (⟨S64x64, .f32⟩ : BufTy).Contents (Elt F) → (⟨S64x64, .f32⟩ : BufTy).Contents (Elt F)) ]

/-- Statements 181 … 210 are that straight line: a call unfolds to its body over its record, and sequencing
    re-associates, both by computation. -/
theorem main_part3_eq (d : Dev nD) : main_part3 (F := F) d = seq ops3 := by chain_rfl

/-- Each operation touches TensorCore references only. -/
theorem ops3_sub : (ops3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub .., ternary_bufs_sub ..,
    binary_bufs_sub .., unary_bufs_sub .., unary_bufs_sub .., binary_bufs_sub .., nullary_bufs_sub .., unary_bufs_sub .., binary_bufs_sub ..,
    binary_bufs_sub .., unary_bufs_sub .., unary_bufs_sub .., binary_bufs_sub ..⟩

/-- Each operation determines what it writes: none leaves a buffer's contents open. -/
theorem ops3_fresh : (ops3 : List (HloOp τ sig (Elt F))).Forall fun op => op.fresh = ∅ := by
  simp only [List.Forall]; repeat' constructor

/-- The references these operations write: one per operation, its result. -/
abbrev ops3_W : List (Ref sig .tc) :=
  [main_call8_cst, main_call8_v0, main_v159, main_v160, main_v161, main_v162, main_v163, main_call9_cst, main_call9_v0, main_v164, main_v165, main_v166,
    main_v167, main_v168, main_call10_cst, main_call10_v0, main_v169, main_v170, main_v171, main_v172, main_v173, main_call11_cst, main_call11_v0,
    main_v174, main_cst_19, main_v175, main_v176, main_v177, main_v178, main_v179, main_v180, main_v181, main_call12_cst, main_call12_v0, main_v182,
    main_v183, main_v184, main_v185, main_v186]

/-- Each operation writes its result buffer only, and that buffer is in the list. -/
theorem ops3_writes : (ops3 : List (HloOp τ sig (Elt F))).Forall fun op => op.writes ⊆ (ops3_W.map (Proc.devRef (τ := τ) .tc)).toFinset :=
  ⟨writes_sub_of (nullary_writes ..) (by decide), writes_sub_of (unary_writes ..) (by decide), writes_sub_of (binary_writes ..) (by decide),
    writes_sub_of (binary_writes ..) (by decide), writes_sub_of (unary_writes ..) (by decide), writes_sub_of (unary_writes ..) (by decide),
    writes_sub_of (binary_writes ..) (by decide), writes_sub_of (nullary_writes ..) (by decide), writes_sub_of (unary_writes ..) (by decide),
    writes_sub_of (binary_writes ..) (by decide), writes_sub_of (binary_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (binary_writes ..) (by decide),
    writes_sub_of (unary_writes ..) (by decide), writes_sub_of (unary_writes ..) (by decide), writes_sub_of (binary_writes ..) (by decide),
    writes_sub_of (nullary_writes ..) (by decide), writes_sub_of (unary_writes ..) (by decide), writes_sub_of (binary_writes ..) (by decide),
    writes_sub_of (nullary_writes ..) (by decide), writes_sub_of (unary_writes ..) (by decide), writes_sub_of (unary_writes ..) (by decide),
    writes_sub_of (ternary_writes ..) (by decide), writes_sub_of (binary_writes ..) (by decide), writes_sub_of (unary_writes ..) (by decide),
    writes_sub_of (unary_writes ..) (by decide), writes_sub_of (binary_writes ..) (by decide), writes_sub_of (nullary_writes ..) (by decide),
    writes_sub_of (unary_writes ..) (by decide), writes_sub_of (binary_writes ..) (by decide), writes_sub_of (binary_writes ..) (by decide),
    writes_sub_of (unary_writes ..) (by decide), writes_sub_of (unary_writes ..) (by decide), writes_sub_of (binary_writes ..) (by decide)⟩

/-! ## @main as one line -/

/-- @main's 292 operations in program order: the four windows' lists, one after the other. -/
abbrev ops : List (HloOp τ sig (Elt F)) := ops0 ++ (ops1 ++ (ops2 ++ ops3))

/-- @main runs its windows in order, each a straight line: it is the line of all of them. -/
theorem main_eq (d : Dev nD) : main (F := F) d = seq ops := by
  show (main_part0 (F := F) d >>= fun _ => main_part1 (F := F) d >>= fun _ => main_part2 (F := F) d >>= fun _ => main_part3 (F := F) d)
    = seq (ops0 ++ (ops1 ++ (ops2 ++ ops3)))
  rw [seq_append, seq_append, seq_append, main_part0_eq, main_part1_eq, main_part2_eq, main_part3_eq]

/-- The fold over the whole line is the four windows' folds, composed in order. -/
theorem after_ops (V : Valuation τ sig (Elt F)) :
    after ops V = after ops3 (after ops2 (after ops1 (after ops0 V))) := by
  show after (ops0 ++ (ops1 ++ (ops2 ++ ops3))) V = _
  rw [after_append, after_append, after_append]

/-- A reference none of the four windows writes holds after the line what it held before. -/
theorem after_ops_of (V : Valuation τ sig (Elt F)) (r : Ref sig .tc)
    (h0 : r ∉ ops0_W) (h1 : r ∉ ops1_W) (h2 : r ∉ ops2_W) (h3 : r ∉ ops3_W) :
    after ops V (Proc.devRef .tc r) = V (Proc.devRef .tc r) :=
  (congrFun (after_ops V) _).trans <| (after_of_writes_sub ops3 _ ops3_writes h3).trans <|
    (after_of_writes_sub ops2 _ ops2_writes h2).trans <| (after_of_writes_sub ops1 _ ops1_writes h1).trans <|
    after_of_writes_sub ops0 _ ops0_writes h0

/-- No buffer of the signature is scoped, and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig := by
  refine List.forall_iff_forall_mem.mpr fun op h => ?_
  rcases List.mem_append.mp h with h | h
  · exact List.forall_iff_forall_mem.mp ops0_sub op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h

/-- Every operation of the line determines what it writes. -/
theorem ops_fresh : ∀ op ∈ (ops : List (HloOp τ sig (Elt F))), op.fresh = ∅ := by
  intro op h
  rcases List.mem_append.mp h with h | h
  · exact List.forall_iff_forall_mem.mp ops0_fresh op h
  rcases List.mem_append.mp h with h | h
  · exact List.forall_iff_forall_mem.mp ops1_fresh op h
  rcases List.mem_append.mp h with h | h
  · exact List.forall_iff_forall_mem.mp ops2_fresh op h
  · exact List.forall_iff_forall_mem.mp ops3_fresh op h

/-- On every device, for any float values, from any memory with zero counters: every weakly fair execution of @main
    terminates; the two results hold the line's fold over the launch contents at their buffers, and each of the
    nineteen arguments holds what it held at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v186) = after ops (fun b => m (c, b)) (Proc.devRef .tc main_v186)
      ∧ r.2.mem ((c.tc : Thread nD τ).loc main_v174) = after ops (fun b => m (c, b)) (Proc.devRef .tc main_v174)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨h c main_v186, h c main_v174,
      (h c main_arg0).trans (after_ops_of _ main_arg0 (by decide) (by decide) (by decide) (by decide)),
      (h c main_arg1).trans (after_ops_of _ main_arg1 (by decide) (by decide) (by decide) (by decide)),
      (h c main_arg2).trans (after_ops_of _ main_arg2 (by decide) (by decide) (by decide) (by decide)),
      (h c main_arg3).trans (after_ops_of _ main_arg3 (by decide) (by decide) (by decide) (by decide)),
      (h c main_arg4).trans (after_ops_of _ main_arg4 (by decide) (by decide) (by decide) (by decide)),
      (h c main_arg5).trans (after_ops_of _ main_arg5 (by decide) (by decide) (by decide) (by decide)),
      (h c main_arg6).trans (after_ops_of _ main_arg6 (by decide) (by decide) (by decide) (by decide)),
      (h c main_arg7).trans (after_ops_of _ main_arg7 (by decide) (by decide) (by decide) (by decide)),
      (h c main_arg8).trans (after_ops_of _ main_arg8 (by decide) (by decide) (by decide) (by decide)),
      (h c main_arg9).trans (after_ops_of _ main_arg9 (by decide) (by decide) (by decide) (by decide)),
      (h c main_arg10).trans (after_ops_of _ main_arg10 (by decide) (by decide) (by decide) (by decide)),
      (h c main_arg11).trans (after_ops_of _ main_arg11 (by decide) (by decide) (by decide) (by decide)),
      (h c main_arg12).trans (after_ops_of _ main_arg12 (by decide) (by decide) (by decide) (by decide)),
      (h c main_arg13).trans (after_ops_of _ main_arg13 (by decide) (by decide) (by decide) (by decide)),
      (h c main_arg14).trans (after_ops_of _ main_arg14 (by decide) (by decide) (by decide) (by decide)),
      (h c main_arg15).trans (after_ops_of _ main_arg15 (by decide) (by decide) (by decide) (by decide)),
      (h c main_arg16).trans (after_ops_of _ main_arg16 (by decide) (by decide) (by decide) (by decide)),
      (h c main_arg17).trans (after_ops_of _ main_arg17 (by decide) (by decide) (by decide) (by decide)),
      (h c main_arg18).trans (after_ops_of _ main_arg18 (by decide) (by decide) (by decide) (by decide))⟩)
    (run_seq scopedRefs_eq scopedSems_eq defs main (fun _ => ops) main_eq (fun _ => ops_sub) m ρ (fun _ => ops_fresh))

end Cert.ReferenceIdeal.RunH

end
-- ==== Proof.Ref.Layer.lean ====
/-
  One layer of the reference network as a pure term, and what it computes.

  The reference program runs three identical layers. Each layer takes the node table x, the edge
  list, and its slice l of the stacked parameters, and performs, in this order: the source and
  destination rows of the edge list; the source words normalised (a negative word has 50000 added);
  the neighbour sum agg = scatterAdd (zeros, dst, gather (x, src)); the first linear map
  h = (x + agg) W1[l] + b1[l]; the column mean of h; the column variance of h as the mean of the
  squared deviations; the normalisation g (h - mean) rsqrt (var + eps) + beta; a rectification; the
  second linear map with W2[l], b2[l]; a rectification. The definitions below compose exactly those
  array operations, in that order; Proof/Ref/LayerSpec.lean reads the composition index by index as
  the curried specification Gin.layerWith Gin.varRef.
-/
import proofs.«430410_j38371237822819_1_alg».proof.ReferenceIdeal
import proofs.«430410_j38371237822819_1_alg».proof.Proof.Gen.ReferenceIdeal
import proofs.«430410_j38371237822819_1_alg».proof.Proof.Spec
import proofs.«430410_j38371237822819_1_alg».proof.Proof.LibRows
import Idealize.ShloMosaic.Lib.IdealHost
import Idealize.ShloMosaic.Lib.ValueLayout
import Idealize.ShloMosaic.Lib.StackMember

noncomputable section

namespace Cert.ReferenceIdeal.Val

open Idealize.ShloMosaic Idealize.ShloMosaic.ValueIdx
open Cert.ReferenceIdeal Cert.ReferenceIdeal.Facts₀
open scoped BigOperators

/-! ## The slice facts at a layer index -/

/-- Slice l of a stack of three matrices is a block of the stack. -/
theorem slices3 (l : Fin 3) : S3x128x128.Slices ![l.val, 0, 0] S1x128x128 := by
  revert l; decide

/-- Row l of a stack of three rows is a block of the stack. -/
theorem slices2 (l : Fin 3) : S3x128.Slices ![l.val, 0] S1x128 := by
  revert l; decide

/-! ## The layer, operation by operation -/

/-- The source row of the edge list as a vector of 600000 words. -/
def srcOf (ei : IVec S2x600000 32) : IVec S600000 32 :=
  shapeCast S600000 (extractStridedSlice S1x600000 ![0, 0] ei slices_S2x600000_S1x600000_0_0) shapeCasts_S1x600000_S600000

/-- The destination row of the edge list as a vector of 600000 words. -/
def dstOf (ei : IVec S2x600000 32) : IVec S600000 32 :=
  shapeCast S600000 (extractStridedSlice S1x600000 ![1, 0] ei slices_S2x600000_S1x600000_1_0) shapeCasts_S1x600000_S600000

/-- The source words normalised: where a word is negative, the word plus 50000. -/
def normOf (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

/-- The neighbour sum: the gathered source rows, added into a table of zeros at the destination rows. -/
def aggOfArr (x : FVec Ideal S50000x128 .f32) (s d : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (Host.gather gather_S50000x128_S600000x1_S600000x128_1_0_n_n_0_1_1128 x
      (broadcastInDim S600000x1 ![0] bcast_S600000_S600000x1_0 (normOf s)))

/-- Matrix l of a stack of three. -/
def matOf (l : Fin 3) (ws : FVec Ideal S3x128x128 .f32) : FVec Ideal S128x128 .f32 :=
  shapeCast S128x128 (extractStridedSlice S1x128x128 ![l.val, 0, 0] ws (slices3 l)) shapeCasts_S1x128x128_S128x128

/-- Row l of a stack of three. -/
def rowOf (l : Fin 3) (bs : FVec Ideal S3x128 .f32) : FVec Ideal S128 .f32 :=
  shapeCast S128 (extractStridedSlice S1x128 ![l.val, 0] bs (slices2 l)) shapeCasts_S1x128_S128

/-- A row of 128 repeated down the 50000 nodes. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- A linear map applied to every node's row: the matrix product plus the bias row. -/
def linOf (a : FVec Ideal S50000x128 .f32) (w : FVec Ideal S128x128 .f32) (b : FVec Ideal S128 .f32) :
    FVec Ideal S50000x128 .f32 :=
  addf (Host.dotGeneral dot_S50000x128_S128x128_S50000x128_1_0_0_1_n_n none a w) (rowsOf b)

/-- The column sums over the 50000 nodes, from the zero word. -/
def colSumOf (h : FVec Ideal S50000x128 .f32) : FVec Ideal S128 .f32 :=
  Host.reduceAdd h (constant (F := Ideal) S_ .f32 0x00000000#32) reducesTo_S50000x128_S128_d0 h_S_

/-- The column means: the column sums divided by the word of 50000.0. -/
def meanOfArr (h : FVec Ideal S50000x128 .f32) : FVec Ideal S128 .f32 :=
  Host.divf (colSumOf h) (broadcastInDim S128 ![] bcast_S_S128 (constant (F := Ideal) S_ .f32 0x47435000#32))

/-- The divisor of the variance: the word of 50000.0 minus the converted correction 0. -/
def varDen : FVec Ideal S_ .f32 :=
  subf (constant (F := Ideal) S_ .f32 0x47435000#32) (sitofp .f32 (constantI S_ 32 0#32))

/-- The column variances: the mean again (on a row of shape [1, 128]), the squared deviations, their
    column sums divided by the divisor; where the divisor is not above zero the not-a-number word
    instead. -/
def varOfArr (h : FVec Ideal S50000x128 .f32) : FVec Ideal S128 .f32 :=
  select (broadcastInDim S128 ![] bcast_S_S128 (cmpf .ogt varDen (constant (F := Ideal) S_ .f32 0x00000000#32)))
    (Host.divf
      (colSumOf
        (mulf
          (subf h (broadcastInDim S50000x128 ![0, 1] bcast_S1x128_S50000x128_0_1
            (Host.divf (broadcastInDim S1x128 ![1] bcast_S128_S1x128_1 (colSumOf h))
              (broadcastInDim S1x128 ![] bcast_S_S1x128 (constant (F := Ideal) S_ .f32 0x47435000#32)))))
          (subf h (broadcastInDim S50000x128 ![0, 1] bcast_S1x128_S50000x128_0_1
            (Host.divf (broadcastInDim S1x128 ![1] bcast_S128_S1x128_1 (colSumOf h))
              (broadcastInDim S1x128 ![] bcast_S_S1x128 (constant (F := Ideal) S_ .f32 0x47435000#32)))))))
      (broadcastInDim S128 ![] bcast_S_S128 varDen))
    (broadcastInDim S128 ![] bcast_S_S128 (id (constant (F := Ideal) S_ .f32 0x7FC00000#32)))

/-- The rectification: the maximum with a table of zeros. -/
def reluOf (a : FVec Ideal S50000x128 .f32) : FVec Ideal S50000x128 .f32 :=
  maximumf a (broadcastInDim S50000x128 ![] bcast_S_S50000x128 (constant (F := Ideal) S_ .f32 0x00000000#32))

/-- The normalisation: g (h - mean) rsqrt (var + eps) + beta, each row factor repeated down the nodes. -/
def bnOf (h : FVec Ideal S50000x128 .f32) (mu var g bb : FVec Ideal S128 .f32) : FVec Ideal S50000x128 .f32 :=
  addf
    (mulf (mulf (rowsOf g) (subf h (rowsOf mu)))
      (rowsOf (Host.rsqrt (addf var (broadcastInDim S128 ![] bcast_S_S128 (constant (F := Ideal) S_ .f32 0x3727C5AC#32))))))
    (rowsOf bb)

/-- The first linear map of a layer, of the node's features plus its neighbour sum. -/
def preOf (x : FVec Ideal S50000x128 .f32) (s d : IVec S600000 32)
    (w1 : FVec Ideal S128x128 .f32) (b1 : FVec Ideal S128 .f32) : FVec Ideal S50000x128 .f32 :=
  linOf (addf x (aggOfArr x s d)) w1 b1

/-- ONE LAYER over the source and destination vectors and the layer's own parameters, as the
    composition of its operations in their order. -/
def refLayerCore (x : FVec Ideal S50000x128 .f32) (s d : IVec S600000 32)
    (w1 : FVec Ideal S128x128 .f32) (b1 g bb : FVec Ideal S128 .f32)
    (w2 : FVec Ideal S128x128 .f32) (b2 : FVec Ideal S128 .f32) : FVec Ideal S50000x128 .f32 :=
  reluOf
    (linOf
      (reluOf (bnOf (preOf x s d w1 b1) (meanOfArr (preOf x s d w1 b1)) (varOfArr (preOf x s d w1 b1)) g bb))
      w2 b2)

/-- ONE LAYER of the reference over the program's arguments: layer l reads the two rows of the edge
    list and slice l of each stacked parameter. -/
def refLayer (l : Fin 3) (x : FVec Ideal S50000x128 .f32) (ei : IVec S2x600000 32)
    (w1s : FVec Ideal S3x128x128 .f32) (b1s gs bs : FVec Ideal S3x128 .f32)
    (w2s : FVec Ideal S3x128x128 .f32) (b2s : FVec Ideal S3x128 .f32) : FVec Ideal S50000x128 .f32 :=
  refLayerCore x (srcOf ei) (dstOf ei) (matOf l w1s) (rowOf l b1s) (rowOf l gs) (rowOf l bs) (matOf l w2s) (rowOf l b2s)

end Cert.ReferenceIdeal.Val

end
-- ==== Proof.Ref.LayerSpec.lean ====
/-
  What one layer of the reference network computes.

  Proof/Ref/Layer.lean composes one layer from the array operations the reference performs. Here each
  operation is read at an index: a slice followed by a reshape reads the stacked array at the layer's
  slice; a row repeated down the nodes reads the row; the matrix product is the sum over the 128
  inputs; the column sum is the sum over the 50000 nodes from the zero word; the gather reads the
  table at the normalised source word, read signed and clamped; the accumulating scatter into zeros
  sums the gathered rows whose destination word is the node. The divisor of the variance is the word
  of 50000.0 minus the converted correction 0, which is the node count, and it is above zero, so the
  selection takes the quotient and never the not-a-number word. Composed, the layer is the curried
  specification Gin.layerWith with the reference's variance Gin.varRef.
-/
import proofs.«430410_j38371237822819_1_alg».proof.Proof.Ref.Layer

noncomputable section

namespace Cert.ReferenceIdeal.Val

open Idealize.ShloMosaic Idealize.ShloMosaic.ValueIdx
open Cert.ReferenceIdeal Cert.ReferenceIdeal.Facts₀
open scoped BigOperators

/-! ## The layout operations read at an index -/

theorem srcOf_apply (ei : IVec S2x600000 32) (e : Fin 600000) : srcOf ei (ix1 e) = ei (ix2 (0 : Fin 2) e) := by
  unfold srcOf
  rw [shapeCast_1a_a_apply]
  exact slice2_axis0_apply 0 ei _ (0 : Fin 1) e (0 : Fin 2) rfl

theorem dstOf_apply (ei : IVec S2x600000 32) (e : Fin 600000) : dstOf ei (ix1 e) = ei (ix2 (1 : Fin 2) e) := by
  unfold dstOf
  rw [shapeCast_1a_a_apply]
  exact slice2_axis0_apply 1 ei _ (0 : Fin 1) e (1 : Fin 2) rfl

theorem normOf_apply (s : IVec S600000 32) (i : S600000.Idx) : normOf s i = Gin.normIdx (s i) := by
  show (if BitVec.ofBool ((s i).slt 0#32) = 1#1 then s i + 50000#32 else s i)
    = if (s i).slt 0#32 then s i + 50000#32 else s i
  cases (s i).slt 0#32 <;> rfl

/-- A vector of words as a one-column matrix. -/
theorem colOf_apply (v : IVec S600000 32) (e : Fin 600000) (u : Fin 1) :
    broadcastInDim S600000x1 ![0] bcast_S600000_S600000x1_0 v (ix2 e u) = v (ix1 e) :=
  broadcastInDim_apply _ _ _ _ _ (fun a => by
    match a with
    | ⟨0, _⟩ => exact (if_neg (show ¬(600000 : ℕ) = 1 by decide)).symm)

theorem matOf_apply (l : Fin 3) (ws : FVec Ideal S3x128x128 .f32) (κ j : Fin 128) :
    matOf l ws (ix2 κ j) = ws (ix3 l κ j) := by
  unfold matOf
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem rowOf_apply (l : Fin 3) (bs : FVec Ideal S3x128 .f32) (j : Fin 128) :
    rowOf l bs (ix1 j) = bs (ix2 l j) := by
  unfold rowOf
  rw [shapeCast_1a_a_apply]
  exact slice2_axis0_apply l.val bs _ (0 : Fin 1) j l rfl

theorem rowsOf_apply (v : FVec Ideal S128 .f32) (n : Fin 50000) (j : Fin 128) : rowsOf v (ix2 n j) = v (ix1 j) := by
  unfold rowsOf
  rw [broadcastInDim_apply ![0, 1] bcast_S1x128_S50000x128_0_1 _ (ix2 n j) (ix2 (0 : Fin 1) j) (fun a => by
    match a with
    | ⟨0, _⟩ => rfl
    | ⟨1, _⟩ => exact (if_neg (show ¬(128 : ℕ) = 1 by decide)).symm)]
  exact broadcastInDim_apply ![1] bcast_S128_S1x128_1 v (ix2 (0 : Fin 1) j) (ix1 j) (fun a => by
    match a with
    | ⟨0, _⟩ => exact (if_neg (show ¬(128 : ℕ) = 1 by decide)).symm)

/-! ## The neighbour sum read at an index -/

theorem aggOfArr_apply (x : FVec Ideal S50000x128 .f32) (s d : IVec S600000 32) (n : Fin 50000) (j : Fin 128) :
    aggOfArr x s d (ix2 n j)
      = ∑ e : Fin 600000, if (d (ix1 e)).toInt = (n.val : ℤ) then x (ix2 (Gin.gatherRow (s (ix1 e))) j) else 0 := by
  unfold aggOfArr
  show Ideal.hostScatterAdd _ _ _ _ (ix2 n j) = _
  rw [Gcn.Rows.scatterAdd_rows _ rfl rfl rfl rfl, broadcastInDim_scalar_apply, constant_apply,
    Ideal.ofBits_zero_f32, zero_add]
  refine Finset.sum_congr rfl fun e _ => ?_
  have hw : broadcastInDim S600000x1 ![0] bcast_S600000_S600000x1_0 (normOf s) (ix2 e (0 : Fin 1))
      = Gin.normIdx (s (ix1 e)) := by
    rw [colOf_apply, normOf_apply]
  have hrow : ∀ (w w' : BitVec 32) (_ : w = Gin.normIdx w') (p : min w.toInt.toNat (50000 - 1) < 50000),
      (⟨min w.toInt.toNat (50000 - 1), p⟩ : Fin 50000) = Gin.gatherRow w' := by
    intro w w' hww p; subst hww; rfl
  rw [colOf_apply, Gcn.Rows.gather_rows _ rfl rfl rfl rfl rfl rfl _ _ _ _ (by decide), hrow _ _ hw]

/-! ## The matrix product and the column sum read at an index -/

theorem layerDot_eq_plain : dot_S50000x128_S128x128_S50000x128_1_0_0_1_n_n = DotDims.plain 50000 128 128 := rfl

theorem layerDot_apply (a : FVec Ideal S50000x128 .f32) (w : FVec Ideal S128x128 .f32) (n : Fin 50000) (j : Fin 128) :
    Host.dotGeneral dot_S50000x128_S128x128_S50000x128_1_0_0_1_n_n none a w (ix2 n j)
      = ∑ κ : Fin 128, a (ix2 n κ) * w (ix2 κ j) := by
  rw [layerDot_eq_plain]
  exact StackMember.dotGeneral_plain_apply none a w n j

theorem linOf_apply (a : FVec Ideal S50000x128 .f32) (w : FVec Ideal S128x128 .f32) (b : FVec Ideal S128 .f32)
    (n : Fin 50000) (j : Fin 128) :
    linOf a w b (ix2 n j) = (∑ κ : Fin 128, a (ix2 n κ) * w (ix2 κ j)) + b (ix1 j) := by
  unfold linOf
  rw [addf_apply, layerDot_apply, rowsOf_apply]

theorem reduces0 : S50000x128.Reduces [0] S128 := by decide

theorem colSumOf_apply (h : FVec Ideal S50000x128 .f32) (j : Fin 128) :
    colSumOf h (ix1 j) = ∑ n : Fin 50000, h (ix2 n j) := by
  unfold colSumOf
  rw [hostReduceAdd_apply, Ideal.hostReduceAdd_single _ reduces0, constant_apply, Ideal.ofBits_zero_f32, zero_add]
  refine Finset.sum_congr rfl fun n _ => ?_
  congr 1
  funext a
  apply Fin.ext
  match a with
  | ⟨0, _⟩ => rfl
  | ⟨1, _⟩ => rfl

/-! ## The literals -/

/-- The word of 50000.0 is the real 50000. -/
theorem nCount_eq : Gin.nCount = ((50000 : ℝ) : EReal) := by
  unfold Gin.nCount
  simp [Ideal.ofBits, Ideal.ieee, -EReal.coe_mul]
  norm_num

theorem nCount_pos : (0 : EReal) < Gin.nCount := by
  rw [nCount_eq]
  exact_mod_cast (by norm_num : (0 : ℝ) < 50000)

/-- The divisor of the variance is the node count: the correction converts to zero. -/
theorem varDen_apply (i : S_.Idx) : varDen i = Gin.nCount := by
  show Ideal.ofBits .f32 0x47435000#32 - (((0#32 : BitVec 32).toInt : ℝ) : EReal) = Gin.nCount
  rw [show (0#32 : BitVec 32).toInt = 0 from rfl, Int.cast_zero, EReal.coe_zero, sub_zero]
  rfl

/-! ## The mean, the variance, the normalisation and the rectification read at an index -/

theorem bcRows_apply (v : FVec Ideal S1x128 .f32) (n : Fin 50000) (j : Fin 128) :
    broadcastInDim S50000x128 ![0, 1] bcast_S1x128_S50000x128_0_1 v (ix2 n j) = v (ix2 (0 : Fin 1) j) :=
  broadcastInDim_apply ![0, 1] bcast_S1x128_S50000x128_0_1 _ (ix2 n j) (ix2 (0 : Fin 1) j) (fun a => by
    match a with
    | ⟨0, _⟩ => rfl
    | ⟨1, _⟩ => exact (if_neg (show ¬(128 : ℕ) = 1 by decide)).symm)

theorem bcRow_apply (v : FVec Ideal S128 .f32) (u : Fin 1) (j : Fin 128) :
    broadcastInDim S1x128 ![1] bcast_S128_S1x128_1 v (ix2 u j) = v (ix1 j) :=
  broadcastInDim_apply ![1] bcast_S128_S1x128_1 v (ix2 u j) (ix1 j) (fun a => by
    match a with
    | ⟨0, _⟩ => exact (if_neg (show ¬(128 : ℕ) = 1 by decide)).symm)

theorem meanOfArr_apply (h : FVec Ideal S50000x128 .f32) (j : Fin 128) :
    meanOfArr h (ix1 j) = Gin.meanOf (Gin.ofArr2 h) j := by
  unfold meanOfArr
  rw [hostDivf_apply, colSumOf_apply, broadcastInDim_scalar_apply, constant_apply]
  rfl

/-- The mean as the variance computes it again, on a row of shape [1, 128] repeated down the nodes. -/
theorem meanRow_apply (h : FVec Ideal S50000x128 .f32) (n : Fin 50000) (j : Fin 128) :
    broadcastInDim S50000x128 ![0, 1] bcast_S1x128_S50000x128_0_1
      (Host.divf (broadcastInDim S1x128 ![1] bcast_S128_S1x128_1 (colSumOf h))
        (broadcastInDim S1x128 ![] bcast_S_S1x128 (constant (F := Ideal) S_ .f32 0x47435000#32))) (ix2 n j)
      = Gin.meanOf (Gin.ofArr2 h) j := by
  rw [bcRows_apply, hostDivf_apply, bcRow_apply, colSumOf_apply, broadcastInDim_scalar_apply, constant_apply]
  rfl

theorem varOfArr_apply (h : FVec Ideal S50000x128 .f32) (j : Fin 128) :
    varOfArr h (ix1 j) = Gin.varRef (Gin.ofArr2 h) j := by
  unfold varOfArr
  rw [select_apply]
  have hc : broadcastInDim S128 ![] bcast_S_S128
      (cmpf .ogt varDen (constant (F := Ideal) S_ .f32 0x00000000#32)) (ix1 j) = 1#1 := by
    rw [broadcastInDim_scalar_apply, cmpf_apply, varDen_apply, constant_apply, Ideal.ofBits_zero_f32]
    show BitVec.ofBool (decide ((0 : EReal) < Gin.nCount)) = 1#1
    rw [decide_eq_true nCount_pos]
    rfl
  rw [hc, select_one, hostDivf_apply, colSumOf_apply, broadcastInDim_scalar_apply, varDen_apply]
  unfold Gin.varRef Gin.colSum
  refine congrArg (fun t => Ideal.div t Gin.nCount) ?_
  refine Finset.sum_congr rfl fun n _ => ?_
  rw [mulf_apply, subf_apply, meanRow_apply]
  rfl

theorem reluOf_apply (a : FVec Ideal S50000x128 .f32) (i : S50000x128.Idx) : reluOf a i = Gin.relu (a i) := by
  unfold reluOf
  rw [maximumf_apply, broadcastInDim_scalar_apply, constant_apply, Ideal.ofBits_zero_f32]
  rfl

theorem bnOf_apply (h : FVec Ideal S50000x128 .f32) (mu var g bb : FVec Ideal S128 .f32) (n : Fin 50000) (κ : Fin 128) :
    bnOf h mu var g bb (ix2 n κ)
      = g (ix1 κ) * (h (ix2 n κ) - mu (ix1 κ)) * Ideal.rsqrt (var (ix1 κ) + Gin.bnEps) + bb (ix1 κ) := by
  unfold bnOf
  rw [addf_apply, mulf_apply, mulf_apply, subf_apply, rowsOf_apply, rowsOf_apply, rowsOf_apply, rowsOf_apply]
  show _ * _ * Ideal.rsqrt (var (ix1 κ)
      + broadcastInDim S128 ![] bcast_S_S128 (constant (F := Ideal) S_ .f32 0x3727C5AC#32) (ix1 κ)) + _ = _
  rw [broadcastInDim_scalar_apply, constant_apply]
  rfl

/-! ## One layer is the specification's layer -/

theorem preOf_apply (x : FVec Ideal S50000x128 .f32) (s d : IVec S600000 32) (w1 : FVec Ideal S128x128 .f32)
    (b1 : FVec Ideal S128 .f32) (n : Fin 50000) (j : Fin 128) :
    preOf x s d w1 b1 (ix2 n j)
      = (∑ κ : Fin 128, (x (ix2 n κ) + aggOfArr x s d (ix2 n κ)) * w1 (ix2 κ j)) + b1 (ix1 j) := by
  unfold preOf
  rw [linOf_apply]
  rfl

/-- The first linear map, curried, is the specification's. -/
theorem ofArr2_preOf (x : FVec Ideal S50000x128 .f32) (s d : IVec S600000 32) (w1 : FVec Ideal S128x128 .f32)
    (b1 : FVec Ideal S128 .f32) :
    Gin.ofArr2 (preOf x s d w1 b1)
      = Gin.pre1 (Gin.ofArr2 x) (Gin.aggOf (fun e => s (ix1 e)) (fun e => d (ix1 e)) (Gin.ofArr2 x))
          (Gin.ofArr2 w1) (Gin.ofArr1 b1) := by
  funext n j
  show preOf x s d w1 b1 (ix2 n j) = _
  rw [preOf_apply]
  show _ = (∑ κ : Fin 128, (Gin.ofArr2 x n κ
      + Gin.aggOf (fun e => s (ix1 e)) (fun e => d (ix1 e)) (Gin.ofArr2 x) n κ) * Gin.ofArr2 w1 κ j) + Gin.ofArr1 b1 j
  refine congrArg (fun t => t + Gin.ofArr1 b1 j) ?_
  refine Finset.sum_congr rfl fun κ _ => ?_
  rw [aggOfArr_apply]
  rfl

/-- From the first linear map's result on: mean, variance, normalisation, rectification, the second
    linear map, rectification. -/
theorem tail_apply (h : FVec Ideal S50000x128 .f32) (g bb : FVec Ideal S128 .f32) (w2 : FVec Ideal S128x128 .f32)
    (b2 : FVec Ideal S128 .f32) (n : Fin 50000) (j : Fin 128) :
    reluOf (linOf (reluOf (bnOf h (meanOfArr h) (varOfArr h) g bb)) w2 b2) (ix2 n j)
      = Gin.bnApply (Gin.ofArr2 h) (Gin.meanOf (Gin.ofArr2 h)) (Gin.varRef (Gin.ofArr2 h))
          (Gin.ofArr1 g) (Gin.ofArr1 bb) (Gin.ofArr2 w2) (Gin.ofArr1 b2) n j := by
  rw [reluOf_apply, linOf_apply]
  show _ = Gin.relu ((∑ κ : Fin 128,
      Gin.bnRow (Gin.ofArr2 h n) (Gin.meanOf (Gin.ofArr2 h)) (Gin.varRef (Gin.ofArr2 h)) (Gin.ofArr1 g) (Gin.ofArr1 bb) κ
        * Gin.ofArr2 w2 κ j) + Gin.ofArr1 b2 j)
  refine congrArg (fun t => Gin.relu (t + Gin.ofArr1 b2 j)) ?_
  refine Finset.sum_congr rfl fun κ _ => ?_
  rw [reluOf_apply, bnOf_apply, meanOfArr_apply, varOfArr_apply]
  rfl

/-- ONE LAYER over the source and destination vectors and the layer's own parameters is the
    specification's layer with the reference's variance. -/
theorem refLayerCore_spec (x : FVec Ideal S50000x128 .f32) (s d : IVec S600000 32)
    (w1 : FVec Ideal S128x128 .f32) (b1 g bb : FVec Ideal S128 .f32)
    (w2 : FVec Ideal S128x128 .f32) (b2 : FVec Ideal S128 .f32) :
    refLayerCore x s d w1 b1 g bb w2 b2
      = Gin.toArr2 (Gin.layerWith Gin.varRef (Gin.ofArr2 x)
          (Gin.aggOf (fun e => s (ix1 e)) (fun e => d (ix1 e)) (Gin.ofArr2 x))
          (Gin.ofArr2 w1) (Gin.ofArr1 b1) (Gin.ofArr1 g) (Gin.ofArr1 bb) (Gin.ofArr2 w2) (Gin.ofArr1 b2)) := by
  funext i
  obtain ⟨n, j, rfl⟩ : ∃ (n : Fin 50000) (j : Fin 128), i = ix2 n j := ⟨i 0, i 1, eq_ix2 i⟩
  unfold refLayerCore
  rw [tail_apply, ofArr2_preOf]
  rfl

/-- ONE LAYER of the reference over the program's arguments is the specification's layer l: the
    sources and destinations are the two rows of the edge list, the parameters slice l of the stacks. -/
theorem refLayer_spec (l : Fin 3) (x : FVec Ideal S50000x128 .f32) (ei : IVec S2x600000 32)
    (w1s : FVec Ideal S3x128x128 .f32) (b1s gs bs : FVec Ideal S3x128 .f32)
    (w2s : FVec Ideal S3x128x128 .f32) (b2s : FVec Ideal S3x128 .f32) :
    refLayer l x ei w1s b1s gs bs w2s b2s
      = Gin.toArr2 (Gin.layerWith Gin.varRef (Gin.ofArr2 x)
          (Gin.aggOf (fun e => ei (ix2 (0 : Fin 2) e)) (fun e => ei (ix2 (1 : Fin 2) e)) (Gin.ofArr2 x))
          (Gin.ofArr3 w1s l) (Gin.ofArr2Row b1s l) (Gin.ofArr2Row gs l) (Gin.ofArr2Row bs l)
          (Gin.ofArr3 w2s l) (Gin.ofArr2Row b2s l)) := by
  have hs : (fun e => srcOf ei (ix1 e)) = fun e => ei (ix2 (0 : Fin 2) e) := funext (srcOf_apply ei)
  have hd : (fun e => dstOf ei (ix1 e)) = fun e => ei (ix2 (1 : Fin 2) e) := funext (dstOf_apply ei)
  have hm : ∀ ws : FVec Ideal S3x128x128 .f32, Gin.ofArr2 (matOf l ws) = Gin.ofArr3 ws l :=
    fun ws => funext fun κ => funext fun j => matOf_apply l ws κ j
  have hr : ∀ v : FVec Ideal S3x128 .f32, Gin.ofArr1 (rowOf l v) = Gin.ofArr2Row v l :=
    fun v => funext fun j => rowOf_apply l v j
  unfold refLayer
  rw [refLayerCore_spec, hs, hd, hm, hm, hr, hr, hr, hr]

end Cert.ReferenceIdeal.Val

end
-- ==== Proof.Ref.Tail.lean ====
/-
  The end of the reference: the reconstruction head and the pooled output network.

  Both are stated first as the composed terms of the program's own operations over the third layer's output and the
  argument arrays, then read index by index in the curried vocabulary: a linear map is the contraction over the 128
  inputs plus the bias row laid along every row, the rectifier is the maximum with a broadcast zero, and the pooling
  is the accumulating row scatter into a zero table, which adds row n to graph g exactly when n's id word is g's.
-/
import proofs.«430410_j38371237822819_1_alg».proof.ReferenceIdeal
import proofs.«430410_j38371237822819_1_alg».proof.Proof.Gen.ReferenceIdeal
import proofs.«430410_j38371237822819_1_alg».proof.Proof.Spec
import proofs.«430410_j38371237822819_1_alg».proof.Proof.LibRows
import Idealize.ShloMosaic.Lib.StackMember
import Idealize.ShloMosaic.Lib.KernelVsHost
import Idealize.ShloMosaic.Lib.IdealHost
import Idealize.ShloMosaic.Lib.Pipeline.Value

noncomputable section

namespace Cert.ReferenceIdeal.Val

open Idealize.ShloMosaic Idealize.ShloMosaic.ValueIdx
open Cert.ReferenceIdeal Cert.ReferenceIdeal.Facts₀
open scoped BigOperators

/-! ## The composed terms -/

/-- The rectifier on a [50000, 128] table: the maximum with the broadcast zero constant. -/
def relu128 (x : FVec Ideal S50000x128 .f32) : FVec Ideal S50000x128 .f32 :=
  maximumf x (broadcastInDim S50000x128 ![] bcast_S_S50000x128 (constant (F := Ideal) S_ .f32 0x00000000#32))

/-- The rectifier on a [50000, 4] table. -/
def relu4 (x : FVec Ideal S50000x4 .f32) : FVec Ideal S50000x4 .f32 :=
  maximumf x (broadcastInDim S50000x4 ![] bcast_S_S50000x4 (constant (F := Ideal) S_ .f32 0x00000000#32))

/-- The rectifier on a [64, 128] table. -/
def relu64 (x : FVec Ideal S64x128 .f32) : FVec Ideal S64x128 .f32 :=
  maximumf x (broadcastInDim S64x128 ![] bcast_S_S64x128 (constant (F := Ideal) S_ .f32 0x00000000#32))

/-- A 128 → 128 linear map on the node table: the product with the weights plus the bias as a row along every row. -/
def lin128 (x : FVec Ideal S50000x128 .f32) (w : FVec Ideal S128x128 .f32) (b : FVec Ideal S128 .f32) :
    FVec Ideal S50000x128 .f32 :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))

/-- The 128 → 4 linear map on the node table. -/
def lin4 (x : FVec Ideal S50000x128 .f32) (w : FVec Ideal S128x4 .f32) (b : FVec Ideal S4 .f32) :
    FVec Ideal S50000x4 .f32 :=
  addf (Host.dotGeneral dot_S50000x128_S128x4_S50000x4_1_0_0_1_n_n none x w)
    (broadcastInDim S50000x4 ![0, 1] bcast_S1x4_S50000x4_0_1 (broadcastInDim S1x4 ![1] bcast_S4_S1x4_1 b))

/-- The reconstruction head: three linear maps, each rectified, the last onto 4 outputs. -/
def refRec (x : FVec Ideal S50000x128 .f32) (w1 : FVec Ideal S128x128 .f32) (b1 : FVec Ideal S128 .f32)
    (w2 : FVec Ideal S128x128 .f32) (b2 : FVec Ideal S128 .f32) (w3 : FVec Ideal S128x4 .f32) (b3 : FVec Ideal S4 .f32) :
    FVec Ideal S50000x4 .f32 :=
  relu4 (lin4 (relu128 (lin128 (relu128 (lin128 x w1 b1)) w2 b2)) w3 b3)

/-- The pooled table: the rows of x added into a zero [64, 128] table at the rows their graph ids name. -/
def refPool (x : FVec Ideal S50000x128 .f32) (batch : IVec S50000 32) : FVec Ideal S64x128 .f32 :=
  Host.scatterAdd scatter_S64x128_S50000x1_S50000x128_1_0_0_1
    (broadcastInDim S64x128 ![] bcast_S_S64x128 (constant (F := Ideal) S_ .f32 0x00000000#32))
    (broadcastInDim S50000x1 ![0] bcast_S50000_S50000x1_0 batch) x

/-- The 128 → 128 linear map on the pooled table. -/
def linP128 (p : FVec Ideal S64x128 .f32) (w : FVec Ideal S128x128 .f32) (b : FVec Ideal S128 .f32) :
    FVec Ideal S64x128 .f32 :=
  addf (Host.dotGeneral dot_S64x128_S128x128_S64x128_1_0_0_1_n_n none p w)
    (broadcastInDim S64x128 ![0, 1] bcast_S1x128_S64x128_0_1 (broadcastInDim S1x128 ![1] bcast_S128_S1x128_1 b))

/-- The 128 → 64 linear map on the pooled table. -/
def linP64 (p : FVec Ideal S64x128 .f32) (w : FVec Ideal S128x64 .f32) (b : FVec Ideal S64 .f32) :
    FVec Ideal S64x64 .f32 :=
  addf (Host.dotGeneral dot_S64x128_S128x64_S64x64_1_0_0_1_n_n none p w)
    (broadcastInDim S64x64 ![0, 1] bcast_S1x64_S64x64_0_1 (broadcastInDim S1x64 ![1] bcast_S64_S1x64_1 b))

/-- The output network on the pooled table: a rectified linear map, then the linear map onto 64 outputs. -/
def refPoolMlp (x : FVec Ideal S50000x128 .f32) (batch : IVec S50000 32) (w1 : FVec Ideal S128x128 .f32)
    (b1 : FVec Ideal S128 .f32) (w2 : FVec Ideal S128x64 .f32) (b2 : FVec Ideal S64 .f32) : FVec Ideal S64x64 .f32 :=
  linP64 (relu64 (linP128 (refPool x batch) w1 b1)) w2 b2

/-! ## The layout operations at an index -/

section Layout
variable {α : Type}

/-- A vector laid out as a one-row matrix reads, at (0, t), its entry t. -/
theorem bcast_vec_row_apply {n : ℕ} (h : (⟨1, ![n]⟩ : Shape).BroadcastsInDim ⟨2, ![1, n]⟩ ![1])
    (b : (⟨1, ![n]⟩ : Shape).Idx → α) (r : Fin 1) (t : Fin n) :
    broadcastInDim ⟨2, ![1, n]⟩ ![1] h b (ix2 r t) = b (ix1 t) := by
  refine broadcastInDim_apply ![1] h b (ix2 r t) (ix1 t) ?_
  intro a
  match a with
  | ⟨0, _⟩ =>
    show t.val = if n = 1 then 0 else t.val
    split_ifs with hn
    · have := t.isLt; omega
    · rfl

/-- A bias vector laid along every row of an m × n table reads, at (r, t), its entry t. -/
theorem bias_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (r : Fin m) (t : Fin n) :
    broadcastInDim ⟨2, ![m, n]⟩ ![0, 1] h2 (broadcastInDim ⟨2, ![1, n]⟩ ![1] h1 b) (ix2 r t) = b (ix1 t) := by
  rw [broadcastInDim_oneRow_apply, bcast_vec_row_apply]

/-- A vector of m words laid out as an m × 1 column reads, at (e, 0), its word e. -/
theorem bcast_vec_col_apply {m : ℕ} (hm : m ≠ 1) (h : (⟨1, ![m]⟩ : Shape).BroadcastsInDim ⟨2, ![m, 1]⟩ ![0])
    (b : (⟨1, ![m]⟩ : Shape).Idx → α) (e : Fin m) (z : Fin 1) :
    broadcastInDim ⟨2, ![m, 1]⟩ ![0] h b (ix2 e z) = b (ix1 e) := by
  refine broadcastInDim_apply ![0] h b (ix2 e z) (ix1 e) ?_
  intro a
  match a with
  | ⟨0, _⟩ =>
    show e.val = if m = 1 then 0 else e.val
    rw [if_neg hm]

end Layout

/-- The broadcast zero constant reads the extended real zero everywhere. -/
theorem zeros_apply {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

/-- A product of an m × k by a k × n matrix, with the plain dimension numbers, is the sum over the contracted
    coordinate of the products of the entries. -/
theorem dot_apply {m k n : ℕ} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd
  exact StackMember.dotGeneral_plain_apply none A B a b

/-! ## The operations of the two networks at an index -/

theorem relu128_apply (x : FVec Ideal S50000x128 .f32) (i : S50000x128.Idx) : relu128 x i = max (x i) 0 := by
  unfold relu128; rw [maximumf_apply, zeros_apply]

theorem relu4_apply (x : FVec Ideal S50000x4 .f32) (i : S50000x4.Idx) : relu4 x i = max (x i) 0 := by
  unfold relu4; rw [maximumf_apply, zeros_apply]

theorem relu64_apply (x : FVec Ideal S64x128 .f32) (i : S64x128.Idx) : relu64 x i = max (x i) 0 := by
  unfold relu64; rw [maximumf_apply, zeros_apply]

theorem lin128_apply (x : FVec Ideal S50000x128 .f32) (w : FVec Ideal S128x128 .f32) (b : FVec Ideal S128 .f32)
    (p : Fin 50000) (q : Fin 128) :
    lin128 x w b (ix2 p q) = (∑ c : Fin 128, x (ix2 p c) * w (ix2 c q)) + b (ix1 q) := by
  unfold lin128; rw [addf_apply, dot_apply dot_S50000x128_S128x128_S50000x128_1_0_0_1_n_n rfl, bias_apply]

theorem lin4_apply (x : FVec Ideal S50000x128 .f32) (w : FVec Ideal S128x4 .f32) (b : FVec Ideal S4 .f32)
    (p : Fin 50000) (q : Fin 4) :
    lin4 x w b (ix2 p q) = (∑ c : Fin 128, x (ix2 p c) * w (ix2 c q)) + b (ix1 q) := by
  unfold lin4; rw [addf_apply, dot_apply dot_S50000x128_S128x4_S50000x4_1_0_0_1_n_n rfl, bias_apply]

theorem linP128_apply (x : FVec Ideal S64x128 .f32) (w : FVec Ideal S128x128 .f32) (b : FVec Ideal S128 .f32)
    (p : Fin 64) (q : Fin 128) :
    linP128 x w b (ix2 p q) = (∑ c : Fin 128, x (ix2 p c) * w (ix2 c q)) + b (ix1 q) := by
  unfold linP128; rw [addf_apply, dot_apply dot_S64x128_S128x128_S64x128_1_0_0_1_n_n rfl, bias_apply]

theorem linP64_apply (x : FVec Ideal S64x128 .f32) (w : FVec Ideal S128x64 .f32) (b : FVec Ideal S64 .f32)
    (p : Fin 64) (q : Fin 64) :
    linP64 x w b (ix2 p q) = (∑ c : Fin 128, x (ix2 p c) * w (ix2 c q)) + b (ix1 q) := by
  unfold linP64; rw [addf_apply, dot_apply dot_S64x128_S128x64_S64x64_1_0_0_1_n_n rfl, bias_apply]

/-- A 32-bit word read signed is the graph number g, below 64, exactly when it is the word of g. -/
theorem toInt_eq_iff_ofNat (w : BitVec 32) (g : ℕ) (hg : g < 64) : w.toInt = (g : ℤ) ↔ w = BitVec.ofNat 32 g := by
  have h1 : (BitVec.ofNat 32 g).toNat = g := by rw [BitVec.toNat_ofNat]; exact Nat.mod_eq_of_lt (by omega)
  have h2 : (BitVec.ofNat 32 g).toInt = (g : ℤ) := by
    rw [BitVec.toInt_eq_toNat_cond, h1, if_pos (by omega)]
  constructor
  · intro h; exact BitVec.eq_of_toInt_eq (h.trans h2.symm)
  · rintro rfl; exact h2

/-- The pooled table at (g, q): the sum over the nodes of row n's entry q where n's graph id is the word of g. -/
theorem refPool_apply (x : FVec Ideal S50000x128 .f32) (batch : IVec S50000 32) (g : Fin 64) (q : Fin 128) :
    refPool x batch (ix2 g q)
      = ∑ n : Fin 50000, if batch (ix1 n) = BitVec.ofNat 32 g.val then x (ix2 n q) else 0 := by
  unfold refPool
  show Ideal.hostScatterAdd scatter_S64x128_S50000x1_S50000x128_1_0_0_1 _ _ x (ix2 g q) = _
  rw [Gcn.Rows.scatterAdd_rows _ rfl rfl rfl rfl, zeros_apply, zero_add]
  refine Finset.sum_congr rfl fun n _ => ?_
  rw [bcast_vec_col_apply (by decide)]
  exact if_congr (toInt_eq_iff_ofNat _ _ g.isLt) rfl rfl

/-! ## The two results in the curried vocabulary -/

/-- The reconstruction head's table is, row by row, the three rectified linear maps of the curried specification. -/
theorem refRec_spec (x : FVec Ideal S50000x128 .f32) (w1 : FVec Ideal S128x128 .f32) (b1 : FVec Ideal S128 .f32)
    (w2 : FVec Ideal S128x128 .f32) (b2 : FVec Ideal S128 .f32) (w3 : FVec Ideal S128x4 .f32) (b3 : FVec Ideal S4 .f32) :
    refRec x w1 b1 w2 b2 w3 b3
      = Gin.toArr2 (Gin.recHead (Gin.ofArr2 x) (Gin.ofArr2 w1) (Gin.ofArr1 b1) (Gin.ofArr2 w2) (Gin.ofArr1 b2)
          (Gin.ofArr2 w3) (Gin.ofArr1 b3)) := by
  funext i
  obtain ⟨p, q, rfl⟩ : ∃ (p : Fin 50000) (q : Fin 4), i = ix2 p q := ⟨i 0, i 1, eq_ix2 i⟩
  unfold refRec
  simp only [relu4_apply, lin4_apply, relu128_apply, lin128_apply]
  rfl

/-- The output network's table is the curried specification's output network on the one-hot pooled rows. -/
theorem refPoolMlp_spec (x : FVec Ideal S50000x128 .f32) (batch : IVec S50000 32) (w1 : FVec Ideal S128x128 .f32)
    (b1 : FVec Ideal S128 .f32) (w2 : FVec Ideal S128x64 .f32) (b2 : FVec Ideal S64 .f32) :
    refPoolMlp x batch w1 b1 w2 b2
      = Gin.toArr2 (Gin.mlpOut (Gin.pooled (Gin.ofArr2 x) (fun n => batch (ix1 n))) (Gin.ofArr2 w1) (Gin.ofArr1 b1)
          (Gin.ofArr2 w2) (Gin.ofArr1 b2)) := by
  funext i
  obtain ⟨g, q, rfl⟩ : ∃ (g : Fin 64) (q : Fin 64), i = ix2 g q := ⟨i 0, i 1, eq_ix2 i⟩
  unfold refPoolMlp
  simp only [linP64_apply, relu64_apply, linP128_apply, refPool_apply]
  rfl

end Cert.ReferenceIdeal.Val

end
-- ==== Proof.Ref.Compose.lean ====
/-
  The reference's two results as its three layers, the reconstruction head and the pooled network, composed.

  The run leaves each result buffer at the fold of @main's line of operations over the launch contents. Here that
  fold is read: the line is cut where each layer ends, each stretch's output is the layer (the head, the pooled network)
  of what the stretch reads — by unrolling the fold and unfolding the definitions, no arithmetic —, and the stretches
  compose, because a layer reads its input where the stretch before left it, the edge rows where the first four
  operations left them, and the arguments as launched.
-/
import proofs.«430410_j38371237822819_1_alg».proof.Proof.Ref.RunH
import proofs.«430410_j38371237822819_1_alg».proof.Proof.Ref.Layer
import proofs.«430410_j38371237822819_1_alg».proof.Proof.Ref.LayerSpec
import proofs.«430410_j38371237822819_1_alg».proof.Proof.Ref.Tail
import proofs.«430410_j38371237822819_1_alg».proof.Proof.Bridge

noncomputable section

namespace Cert.ReferenceIdeal.Val

open Cert.ReferenceIdeal Cert.ReferenceIdeal.RunH Idealize.ShloMosaic Idealize.SL.Sem Idealize.ShloMosaic.StableHlo Idealize.ShloMosaic.ValueIdx

/-! ## The line cut where a layer ends

The line of operations is cut into five stretches: the two rows of the edge list (the first four operations); one stretch
per layer, ending at the operation that writes the layer's output (`main_v55`, `main_v107`, `main_v159`); and the rest,
the reconstruction head and the pooled network. The cuts fall inside the windows, so each stretch is the end of one
window's list followed by the beginning of the next one's. -/

/-- The two rows of the edge list: statements 1 … 4. -/
def stE : List (HloOp τ sig (Elt Ideal)) := (ops0 (F := Ideal)).take 4
/-- Layer 1: from the source words' normalisation to the rectified second linear map, `main_v55`. -/
def stL1 : List (HloOp τ sig (Elt Ideal)) := (ops0 (F := Ideal)).drop 4 ++ (ops1 (F := Ideal)).take 5
/-- Layer 2, ending at `main_v107`. -/
def stL2 : List (HloOp τ sig (Elt Ideal)) := (ops1 (F := Ideal)).drop 5 ++ (ops2 (F := Ideal)).take 4
/-- Layer 3, ending at `main_v159`. -/
def stL3 : List (HloOp τ sig (Elt Ideal)) := (ops2 (F := Ideal)).drop 4 ++ (ops3 (F := Ideal)).take 3
/-- The reconstruction head and the pooled network: everything after layer 3. -/
def stT : List (HloOp τ sig (Elt Ideal)) := (ops3 (F := Ideal)).drop 3

/-- A fold over a list is the fold over its end after the fold over its beginning. -/
theorem after_take_drop (k : ℕ) (l : List (HloOp τ sig (Elt Ideal))) (V : Valuation τ sig (Elt Ideal)) :
    after l V = after (l.drop k) (after (l.take k) V) := by
  rw [← after_append, List.take_append_drop]

/-- The buffers' contents after the edge rows, after layer 1, after layer 2, after layer 3. -/
def VE (V : Valuation τ sig (Elt Ideal)) : Valuation τ sig (Elt Ideal) := after stE V
def V1 (V : Valuation τ sig (Elt Ideal)) : Valuation τ sig (Elt Ideal) := after stL1 (VE V)
def V2 (V : Valuation τ sig (Elt Ideal)) : Valuation τ sig (Elt Ideal) := after stL2 (V1 V)
def V3 (V : Valuation τ sig (Elt Ideal)) : Valuation τ sig (Elt Ideal) := after stL3 (V2 V)

/-- The fold over the whole line is the five stretches' folds, composed in order. -/
theorem after_stages (V : Valuation τ sig (Elt Ideal)) : after ops V = after stT (V3 V) := by
  rw [after_ops, after_take_drop 4 ops0, after_take_drop 5 ops1, after_take_drop 4 ops2, after_take_drop 3 ops3]
  simp only [V3, V2, V1, VE, stT, stL3, stL2, stL1, stE, after_append]

/-! ## Each stretch's result, from any contents

The contents a stretch leaves in its output buffer, as the composed term of what the base contents `W` hold at the
buffers the stretch reads from before it: the fold is unrolled, each operation's result read at its own buffer and passed
over at the others, and what is left is the layer (the head, the pooled network) by unfolding. -/

set_option maxHeartbeats 1000000 in
theorem stE_v1 (W : Valuation τ sig (Elt Ideal)) : after stE W (Proc.devRef .tc main_v1) = srcOf (W (Proc.devRef .tc main_arg1)) := by
  simp only [stE, ops0, List.take_succ_cons, List.take_zero]
  after_results_simp
  rfl

set_option maxHeartbeats 1000000 in
theorem stE_v3 (W : Valuation τ sig (Elt Ideal)) : after stE W (Proc.devRef .tc main_v3) = dstOf (W (Proc.devRef .tc main_arg1)) := by
  simp only [stE, ops0, List.take_succ_cons, List.take_zero]
  after_results_simp
  rfl

set_option maxHeartbeats 4000000 in
theorem stL1_v55 (W : Valuation τ sig (Elt Ideal)) : after stL1 W (Proc.devRef .tc main_v55)
    = refLayerCore (W (Proc.devRef .tc main_arg0)) (W (Proc.devRef .tc main_v1)) (W (Proc.devRef .tc main_v3)) (matOf 0 (W (Proc.devRef .tc main_arg3))) (rowOf 0 (W (Proc.devRef .tc main_arg4))) (rowOf 0 (W (Proc.devRef .tc main_arg5))) (rowOf 0 (W (Proc.devRef .tc main_arg6))) (matOf 0 (W (Proc.devRef .tc main_arg7))) (rowOf 0 (W (Proc.devRef .tc main_arg8))) := by
  simp only [stL1, ops0, ops1, List.drop_succ_cons, List.drop_zero, List.take_succ_cons, List.take_zero, List.cons_append, List.nil_append]
  after_results_simp
  simp only [TRef.toBuf, TRef.ofBuf, cast_eq]
  rfl

set_option maxHeartbeats 4000000 in
theorem stL2_v107 (W : Valuation τ sig (Elt Ideal)) : after stL2 W (Proc.devRef .tc main_v107)
    = refLayerCore (W (Proc.devRef .tc main_v55)) (W (Proc.devRef .tc main_v1)) (W (Proc.devRef .tc main_v3)) (matOf 1 (W (Proc.devRef .tc main_arg3))) (rowOf 1 (W (Proc.devRef .tc main_arg4))) (rowOf 1 (W (Proc.devRef .tc main_arg5))) (rowOf 1 (W (Proc.devRef .tc main_arg6))) (matOf 1 (W (Proc.devRef .tc main_arg7))) (rowOf 1 (W (Proc.devRef .tc main_arg8))) := by
  simp only [stL2, ops1, ops2, List.drop_succ_cons, List.drop_zero, List.take_succ_cons, List.take_zero, List.cons_append, List.nil_append]
  after_results_simp
  simp only [TRef.toBuf, TRef.ofBuf, cast_eq]
  rfl

set_option maxHeartbeats 4000000 in
theorem stL3_v159 (W : Valuation τ sig (Elt Ideal)) : after stL3 W (Proc.devRef .tc main_v159)
    = refLayerCore (W (Proc.devRef .tc main_v107)) (W (Proc.devRef .tc main_v1)) (W (Proc.devRef .tc main_v3)) (matOf 2 (W (Proc.devRef .tc main_arg3))) (rowOf 2 (W (Proc.devRef .tc main_arg4))) (rowOf 2 (W (Proc.devRef .tc main_arg5))) (rowOf 2 (W (Proc.devRef .tc main_arg6))) (matOf 2 (W (Proc.devRef .tc main_arg7))) (rowOf 2 (W (Proc.devRef .tc main_arg8))) := by
  simp only [stL3, ops2, ops3, List.drop_succ_cons, List.drop_zero, List.take_succ_cons, List.take_zero, List.cons_append, List.nil_append]
  after_results_simp
  simp only [TRef.toBuf, TRef.ofBuf, cast_eq]
  rfl

set_option maxHeartbeats 1000000 in
theorem stT_v186 (W : Valuation τ sig (Elt Ideal)) : after stT W (Proc.devRef .tc main_v186)
    = refPoolMlp (W (Proc.devRef .tc main_v159)) (W (Proc.devRef .tc main_arg2)) (W (Proc.devRef .tc main_arg15)) (W (Proc.devRef .tc main_arg16)) (W (Proc.devRef .tc main_arg17)) (W (Proc.devRef .tc main_arg18)) := by
  simp only [stT, ops3, List.drop_succ_cons, List.drop_zero, List.take_succ_cons, List.take_zero, List.cons_append, List.nil_append]
  after_results_simp
  simp only [TRef.toBuf, TRef.ofBuf, cast_eq]
  rfl

set_option maxHeartbeats 1000000 in
theorem stT_v174 (W : Valuation τ sig (Elt Ideal)) : after stT W (Proc.devRef .tc main_v174)
    = refRec (W (Proc.devRef .tc main_v159)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [stT, ops3, List.drop_succ_cons, List.drop_zero, List.take_succ_cons, List.take_zero, List.cons_append, List.nil_append]
  after_results_simp
  simp only [TRef.toBuf, TRef.ofBuf, cast_eq]
  rfl

/-! ## What a stretch leaves alone

Layers 1 and 2 write neither row of the edge list (layers 2 and 3 read them where the first four operations left them),
and no operation of the line writes an argument. -/

set_option maxHeartbeats 1000000 in
theorem stL1_v1 (W : Valuation τ sig (Elt Ideal)) : after stL1 W (Proc.devRef .tc main_v1) = (W (Proc.devRef .tc main_v1)) := by
  simp only [stL1, ops0, ops1, List.drop_succ_cons, List.drop_zero, List.take_succ_cons, List.take_zero, List.cons_append, List.nil_append]
  after_results_simp
set_option maxHeartbeats 1000000 in
theorem stL1_v3 (W : Valuation τ sig (Elt Ideal)) : after stL1 W (Proc.devRef .tc main_v3) = (W (Proc.devRef .tc main_v3)) := by
  simp only [stL1, ops0, ops1, List.drop_succ_cons, List.drop_zero, List.take_succ_cons, List.take_zero, List.cons_append, List.nil_append]
  after_results_simp
set_option maxHeartbeats 1000000 in
theorem stL2_v1 (W : Valuation τ sig (Elt Ideal)) : after stL2 W (Proc.devRef .tc main_v1) = (W (Proc.devRef .tc main_v1)) := by
  simp only [stL2, ops1, ops2, List.drop_succ_cons, List.drop_zero, List.take_succ_cons, List.take_zero, List.cons_append, List.nil_append]
  after_results_simp
set_option maxHeartbeats 1000000 in
theorem stL2_v3 (W : Valuation τ sig (Elt Ideal)) : after stL2 W (Proc.devRef .tc main_v3) = (W (Proc.devRef .tc main_v3)) := by
  simp only [stL2, ops1, ops2, List.drop_succ_cons, List.drop_zero, List.take_succ_cons, List.take_zero, List.cons_append, List.nil_append]
  after_results_simp

/-- The nineteen arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- No window writes an argument. -/
theorem args_nw0 : ∀ r ∈ argRefs, r ∉ ops0_W := by decide
theorem args_nw1 : ∀ r ∈ argRefs, r ∉ ops1_W := by decide
theorem args_nw2 : ∀ r ∈ argRefs, r ∉ ops2_W := by decide
theorem args_nw3 : ∀ r ∈ argRefs, r ∉ ops3_W := by decide

/-- Any part of the line keeps an argument's contents: each of its operations is one of the line's, and writes only its
    own result buffer, which is no argument. -/
theorem keep {l : List (HloOp τ sig (Elt Ideal))} (hl : ∀ op ∈ l, op ∈ (ops (F := Ideal))) (W : Valuation τ sig (Elt Ideal))
    {r : Ref sig .tc} (hr : r ∈ argRefs) : after l W (Proc.devRef .tc r) = W (Proc.devRef .tc r) := by
  refine after_of_forall_not_mem l W fun op hop hb => ?_
  have key : ∀ {Wl : List (Ref sig .tc)} {lst : List (HloOp τ sig (Elt Ideal))},
      (lst.Forall fun o => o.writes ⊆ (Wl.map (Proc.devRef (τ := τ) .tc)).toFinset) → op ∈ lst → r ∉ Wl → False := by
    intro Wl lst hW hin hnr
    obtain ⟨y, hy, he⟩ := List.mem_map.mp (List.mem_toFinset.mp ((List.forall_iff_forall_mem.mp hW) op hin hb))
    exact hnr (Proc.devRef_injective _ he ▸ hy)
  rcases List.mem_append.mp (hl op hop) with h | h
  · exact key ops0_writes h (args_nw0 r hr)
  rcases List.mem_append.mp h with h | h
  · exact key ops1_writes h (args_nw1 r hr)
  rcases List.mem_append.mp h with h | h
  · exact key ops2_writes h (args_nw2 r hr)
  · exact key ops3_writes h (args_nw3 r hr)

theorem sub_stE : ∀ op ∈ stE, op ∈ (ops (F := Ideal)) :=
  fun _ h => List.mem_append_left _ (List.mem_of_mem_take h)
theorem sub_stL1 : ∀ op ∈ stL1, op ∈ (ops (F := Ideal)) :=
  fun _ h => (List.mem_append.mp h).elim (fun h => List.mem_append_left _ (List.mem_of_mem_drop h))
    (fun h => List.mem_append_right _ (List.mem_append_left _ (List.mem_of_mem_take h)))
theorem sub_stL2 : ∀ op ∈ stL2, op ∈ (ops (F := Ideal)) :=
  fun _ h => (List.mem_append.mp h).elim (fun h => List.mem_append_right _ (List.mem_append_left _ (List.mem_of_mem_drop h)))
    (fun h => List.mem_append_right _ (List.mem_append_right _ (List.mem_append_left _ (List.mem_of_mem_take h))))
theorem sub_stL3 : ∀ op ∈ stL3, op ∈ (ops (F := Ideal)) :=
  fun _ h => (List.mem_append.mp h).elim
    (fun h => List.mem_append_right _ (List.mem_append_right _ (List.mem_append_left _ (List.mem_of_mem_drop h))))
    (fun h => List.mem_append_right _ (List.mem_append_right _ (List.mem_append_right _ (List.mem_of_mem_take h))))

theorem VE_arg (V : Valuation τ sig (Elt Ideal)) {r : Ref sig .tc} (hr : r ∈ argRefs) : VE V (Proc.devRef .tc r) = V (Proc.devRef .tc r) :=
  keep sub_stE V hr
theorem V1_arg (V : Valuation τ sig (Elt Ideal)) {r : Ref sig .tc} (hr : r ∈ argRefs) : V1 V (Proc.devRef .tc r) = V (Proc.devRef .tc r) :=
  (keep sub_stL1 (VE V) hr).trans (VE_arg V hr)
theorem V2_arg (V : Valuation τ sig (Elt Ideal)) {r : Ref sig .tc} (hr : r ∈ argRefs) : V2 V (Proc.devRef .tc r) = V (Proc.devRef .tc r) :=
  (keep sub_stL2 (V1 V) hr).trans (V1_arg V hr)
theorem V3_arg (V : Valuation τ sig (Elt Ideal)) {r : Ref sig .tc} (hr : r ∈ argRefs) : V3 V (Proc.devRef .tc r) = V (Proc.devRef .tc r) :=
  (keep sub_stL3 (V2 V) hr).trans (V2_arg V hr)

/-- The edge rows, where each layer reads them. -/
theorem VE_v1 (V : Valuation τ sig (Elt Ideal)) : VE V (Proc.devRef .tc main_v1) = srcOf (V (Proc.devRef .tc main_arg1)) := stE_v1 V
theorem VE_v3 (V : Valuation τ sig (Elt Ideal)) : VE V (Proc.devRef .tc main_v3) = dstOf (V (Proc.devRef .tc main_arg1)) := stE_v3 V
theorem V1_v1 (V : Valuation τ sig (Elt Ideal)) : V1 V (Proc.devRef .tc main_v1) = srcOf (V (Proc.devRef .tc main_arg1)) := (stL1_v1 (VE V)).trans (VE_v1 V)
theorem V1_v3 (V : Valuation τ sig (Elt Ideal)) : V1 V (Proc.devRef .tc main_v3) = dstOf (V (Proc.devRef .tc main_arg1)) := (stL1_v3 (VE V)).trans (VE_v3 V)
theorem V2_v1 (V : Valuation τ sig (Elt Ideal)) : V2 V (Proc.devRef .tc main_v1) = srcOf (V (Proc.devRef .tc main_arg1)) := (stL2_v1 (V1 V)).trans (V1_v1 V)
theorem V2_v3 (V : Valuation τ sig (Elt Ideal)) : V2 V (Proc.devRef .tc main_v3) = dstOf (V (Proc.devRef .tc main_arg1)) := (stL2_v3 (V1 V)).trans (V1_v3 V)

/-! ## The results, composed -/

/-- The three layers' outputs over the launch contents: each layer over the one before, the edge list and its slice of the
    stacked parameters. -/
def L1 (V : Valuation τ sig (Elt Ideal)) : FVec Ideal S50000x128 .f32 :=
  refLayer 0 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8))
def L2 (V : Valuation τ sig (Elt Ideal)) : FVec Ideal S50000x128 .f32 :=
  refLayer 1 (L1 V) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8))
def L3 (V : Valuation τ sig (Elt Ideal)) : FVec Ideal S50000x128 .f32 :=
  refLayer 2 (L2 V) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8))

/-- After layer 1's stretch its output buffer holds layer 1 of the launch contents. -/
theorem V1_v55 (V : Valuation τ sig (Elt Ideal)) : V1 V (Proc.devRef .tc main_v55) = L1 V := by
  rw [V1, stL1_v55, VE_v1, VE_v3, VE_arg V (r := main_arg0) (by decide), VE_arg V (r := main_arg3) (by decide), VE_arg V (r := main_arg4) (by decide), VE_arg V (r := main_arg5) (by decide), VE_arg V (r := main_arg6) (by decide), VE_arg V (r := main_arg7) (by decide), VE_arg V (r := main_arg8) (by decide)]
  rfl

theorem V2_v107 (V : Valuation τ sig (Elt Ideal)) : V2 V (Proc.devRef .tc main_v107) = L2 V := by
  rw [V2, stL2_v107, V1_v55, V1_v1, V1_v3, V1_arg V (r := main_arg3) (by decide), V1_arg V (r := main_arg4) (by decide), V1_arg V (r := main_arg5) (by decide), V1_arg V (r := main_arg6) (by decide), V1_arg V (r := main_arg7) (by decide), V1_arg V (r := main_arg8) (by decide)]
  rfl

theorem V3_v159 (V : Valuation τ sig (Elt Ideal)) : V3 V (Proc.devRef .tc main_v159) = L3 V := by
  rw [V3, stL3_v159, V2_v107, V2_v1, V2_v3, V2_arg V (r := main_arg3) (by decide), V2_arg V (r := main_arg4) (by decide), V2_arg V (r := main_arg5) (by decide), V2_arg V (r := main_arg6) (by decide), V2_arg V (r := main_arg7) (by decide), V2_arg V (r := main_arg8) (by decide)]
  rfl

/-- The first result: the pooled network of layer 3's output, the graph ids and the last four arguments. -/
theorem out0_eq (V : Valuation τ sig (Elt Ideal)) : after ops V (Proc.devRef .tc main_v186)
    = refPoolMlp (L3 V) (V (Proc.devRef .tc main_arg2)) (V (Proc.devRef .tc main_arg15)) (V (Proc.devRef .tc main_arg16)) (V (Proc.devRef .tc main_arg17)) (V (Proc.devRef .tc main_arg18)) := by
  rw [after_stages, stT_v186, V3_v159, V3_arg V (r := main_arg2) (by decide), V3_arg V (r := main_arg15) (by decide), V3_arg V (r := main_arg16) (by decide), V3_arg V (r := main_arg17) (by decide), V3_arg V (r := main_arg18) (by decide)]

/-- The second result: the reconstruction head of layer 3's output and its six arguments. -/
theorem out1_eq (V : Valuation τ sig (Elt Ideal)) : after ops V (Proc.devRef .tc main_v174)
    = refRec (L3 V) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_stages, stT_v174, V3_v159, V3_arg V (r := main_arg9) (by decide), V3_arg V (r := main_arg10) (by decide), V3_arg V (r := main_arg11) (by decide), V3_arg V (r := main_arg12) (by decide), V3_arg V (r := main_arg13) (by decide), V3_arg V (r := main_arg14) (by decide)]

/-! ## The results in the curried vocabulary

Each layer term is the curried layer over the neighbour sum, at the curried forms of what it reads; the three compose to
the network, and the two results are the pooled output network and the reconstruction head on it. -/

/-- Layer 1's term is the curried layer 0 on the curried node table. -/
theorem L1_spec (V : Valuation τ sig (Elt Ideal)) : L1 V = Gin.toArr2 (Gin.layerAt Gin.varRef (fun e => (V (Proc.devRef .tc main_arg1)) (ix2 0 e)) (fun e => (V (Proc.devRef .tc main_arg1)) (ix2 1 e))
        (fun l => Gin.ofArr3 (V (Proc.devRef .tc main_arg3)) l) (fun l => Gin.ofArr2Row (V (Proc.devRef .tc main_arg4)) l)
        (fun l => Gin.ofArr2Row (V (Proc.devRef .tc main_arg5)) l) (fun l => Gin.ofArr2Row (V (Proc.devRef .tc main_arg6)) l)
        (fun l => Gin.ofArr3 (V (Proc.devRef .tc main_arg7)) l) (fun l => Gin.ofArr2Row (V (Proc.devRef .tc main_arg8)) l) 0
        (Gin.ofArr2 (V (Proc.devRef .tc main_arg0)))) := by
  unfold L1; rw [refLayer_spec]; rfl

/-- Layer 2's term is the curried layer 1 on layer 1's. -/
theorem L2_spec (V : Valuation τ sig (Elt Ideal)) : L2 V = Gin.toArr2 (Gin.layerAt Gin.varRef (fun e => (V (Proc.devRef .tc main_arg1)) (ix2 0 e)) (fun e => (V (Proc.devRef .tc main_arg1)) (ix2 1 e))
        (fun l => Gin.ofArr3 (V (Proc.devRef .tc main_arg3)) l) (fun l => Gin.ofArr2Row (V (Proc.devRef .tc main_arg4)) l)
        (fun l => Gin.ofArr2Row (V (Proc.devRef .tc main_arg5)) l) (fun l => Gin.ofArr2Row (V (Proc.devRef .tc main_arg6)) l)
        (fun l => Gin.ofArr3 (V (Proc.devRef .tc main_arg7)) l) (fun l => Gin.ofArr2Row (V (Proc.devRef .tc main_arg8)) l) 1
      (Gin.layerAt Gin.varRef (fun e => (V (Proc.devRef .tc main_arg1)) (ix2 0 e)) (fun e => (V (Proc.devRef .tc main_arg1)) (ix2 1 e))
        (fun l => Gin.ofArr3 (V (Proc.devRef .tc main_arg3)) l) (fun l => Gin.ofArr2Row (V (Proc.devRef .tc main_arg4)) l)
        (fun l => Gin.ofArr2Row (V (Proc.devRef .tc main_arg5)) l) (fun l => Gin.ofArr2Row (V (Proc.devRef .tc main_arg6)) l)
        (fun l => Gin.ofArr3 (V (Proc.devRef .tc main_arg7)) l) (fun l => Gin.ofArr2Row (V (Proc.devRef .tc main_arg8)) l) 0
        (Gin.ofArr2 (V (Proc.devRef .tc main_arg0))))) := by
  unfold L2; rw [refLayer_spec, L1_spec]; rfl

/-- Layer 3's term is the three curried layers in turn. -/
theorem L3_spec (V : Valuation τ sig (Elt Ideal)) : L3 V = Gin.toArr2 (Gin.gin3 Gin.varRef (fun e => (V (Proc.devRef .tc main_arg1)) (ix2 0 e)) (fun e => (V (Proc.devRef .tc main_arg1)) (ix2 1 e))
        (fun l => Gin.ofArr3 (V (Proc.devRef .tc main_arg3)) l) (fun l => Gin.ofArr2Row (V (Proc.devRef .tc main_arg4)) l)
        (fun l => Gin.ofArr2Row (V (Proc.devRef .tc main_arg5)) l) (fun l => Gin.ofArr2Row (V (Proc.devRef .tc main_arg6)) l)
        (fun l => Gin.ofArr3 (V (Proc.devRef .tc main_arg7)) l) (fun l => Gin.ofArr2Row (V (Proc.devRef .tc main_arg8)) l)
        (Gin.ofArr2 (V (Proc.devRef .tc main_arg0)))) := by
  unfold L3; rw [refLayer_spec, L2_spec]; rfl

/-- The first result of the run, curried: the output network on the rows of the three layers' output pooled by graph id. -/
theorem ref_out (m : (ℓ : Loc nD τ sig) → Buf (Elt Ideal) ℓ) (c : Dev nD) :
    after ops (fun b => m (c, b)) (Proc.devRef .tc main_v186)
      = Gin.toArr2 (Gin.outOf (Gin.gin3 Gin.varRef (fun e => (m ((c.tc : Thread nD τ).loc main_arg1)) (ix2 0 e)) (fun e => (m ((c.tc : Thread nD τ).loc main_arg1)) (ix2 1 e))
        (fun l => Gin.ofArr3 (m ((c.tc : Thread nD τ).loc main_arg3)) l) (fun l => Gin.ofArr2Row (m ((c.tc : Thread nD τ).loc main_arg4)) l)
        (fun l => Gin.ofArr2Row (m ((c.tc : Thread nD τ).loc main_arg5)) l) (fun l => Gin.ofArr2Row (m ((c.tc : Thread nD τ).loc main_arg6)) l)
        (fun l => Gin.ofArr3 (m ((c.tc : Thread nD τ).loc main_arg7)) l) (fun l => Gin.ofArr2Row (m ((c.tc : Thread nD τ).loc main_arg8)) l)
        (Gin.ofArr2 (m ((c.tc : Thread nD τ).loc main_arg0))))
        (fun n => (m ((c.tc : Thread nD τ).loc main_arg2)) (ix1 n)) (Gin.ofArr2 (m ((c.tc : Thread nD τ).loc main_arg15))) (Gin.ofArr1 (m ((c.tc : Thread nD τ).loc main_arg16)))
        (Gin.ofArr2 (m ((c.tc : Thread nD τ).loc main_arg17))) (Gin.ofArr1 (m ((c.tc : Thread nD τ).loc main_arg18)))) := by
  rw [out0_eq, refPoolMlp_spec, L3_spec]
  rfl

/-- The second result of the run, curried: the reconstruction head on the three layers' output. -/
theorem ref_rec (m : (ℓ : Loc nD τ sig) → Buf (Elt Ideal) ℓ) (c : Dev nD) :
    after ops (fun b => m (c, b)) (Proc.devRef .tc main_v174)
      = Gin.toArr2 (Gin.recOf (Gin.gin3 Gin.varRef (fun e => (m ((c.tc : Thread nD τ).loc main_arg1)) (ix2 0 e)) (fun e => (m ((c.tc : Thread nD τ).loc main_arg1)) (ix2 1 e))
        (fun l => Gin.ofArr3 (m ((c.tc : Thread nD τ).loc main_arg3)) l) (fun l => Gin.ofArr2Row (m ((c.tc : Thread nD τ).loc main_arg4)) l)
        (fun l => Gin.ofArr2Row (m ((c.tc : Thread nD τ).loc main_arg5)) l) (fun l => Gin.ofArr2Row (m ((c.tc : Thread nD τ).loc main_arg6)) l)
        (fun l => Gin.ofArr3 (m ((c.tc : Thread nD τ).loc main_arg7)) l) (fun l => Gin.ofArr2Row (m ((c.tc : Thread nD τ).loc main_arg8)) l)
        (Gin.ofArr2 (m ((c.tc : Thread nD τ).loc main_arg0))))
        (Gin.ofArr2 (m ((c.tc : Thread nD τ).loc main_arg9))) (Gin.ofArr1 (m ((c.tc : Thread nD τ).loc main_arg10))) (Gin.ofArr2 (m ((c.tc : Thread nD τ).loc main_arg11))) (Gin.ofArr1 (m ((c.tc : Thread nD τ).loc main_arg12)))
        (Gin.ofArr2 (m ((c.tc : Thread nD τ).loc main_arg13))) (Gin.ofArr1 (m ((c.tc : Thread nD τ).loc main_arg14)))) := by
  rw [out1_eq, refRec_spec, L3_spec]
  rfl

end Cert.ReferenceIdeal.Val

end
-- ==== Proof.PreFin.lean ====
/-
  The certificate's precondition, decoded. The printed predicate is the conjunction, over the
  seventeen float arguments of the network (the node features and every weight, bias and batch-norm
  parameter), of "every entry's absolute value is strictly below +∞". At the ideal instance an
  entry is an extended real and its absolute value is `max x (-x)`, which is `⊤` exactly at the two
  infinities: so where the predicate is one, every entry of every float argument is a real number.
-/
import proofs.«430410_j38371237822819_1_alg».proof.Defs
import proofs.«430410_j38371237822819_1_alg».proof.Proof.Math
import Idealize.ShloMosaic.Lib.ReduceAll

noncomputable section

namespace Cert.PreFin

open Idealize.ShloMosaic Cert.Pre_finite_inputs

/-- An extended real whose absolute value `max x (-x)` is strictly below `+∞` is a real number:
    at `⊤` and at `⊥` the absolute value is `⊤`, which is not below `⊤`. -/
theorem fin_of_abs_lt_inf (x : EReal)
    (h : Ideal.cmp .olt (max x (-x)) (Ideal.ofBits .f32 0x7F800000#32) = 1#1) : Gin.Fin' x := by
  rw [Gin.ofBits_inf] at h
  induction x using EReal.rec with
  | bot => simp [Ideal.cmp] at h
  | coe r => exact ⟨r, rfl⟩
  | top => simp [Ideal.cmp] at h

/-- One conjunct of the precondition, `all (|x| < +∞)` over a whole array, read back: the reduction by
    `and` over every axis is one only if the comparison is one at every index, and there the entry is a
    real number. -/
theorem fin_of_all {s : Shape} {axes : List (Fin s.rank)}
    (bc : S_.BroadcastsInDim s (![] : Fin 0 → Fin s.rank)) (rd : s.ReducesTo axes S_) (hS : 0 < S_.numel)
    (x : FVec Ideal s .f32)
    (h : Host.reduce IntOp.andi
          (cmpf .olt (Host.absf x) (broadcastInDim s ![] bc (constant (F := Ideal) S_ .f32 0x7F800000#32)))
          (constantI S_ 1 1#1) rd hS ValueIdx.ix0 = 1#1)
    (i : s.Idx) : Gin.Fin' (x i) := by
  haveI : Subsingleton S_.Idx := ⟨fun a b => funext fun d => d.elim0⟩
  exact fin_of_abs_lt_inf (x i) (Host.reduce_andi_all _ _ rd hS ValueIdx.ix0 h i)

/-- Every entry of each of the seventeen float arguments is a real number. -/
structure FinArgs (x0 : FVec Ideal S50000x128 .f32) (x3 : FVec Ideal S3x128x128 .f32) (x4 : FVec Ideal S3x128 .f32) (x5 : FVec Ideal S3x128 .f32) (x6 : FVec Ideal S3x128 .f32) (x7 : FVec Ideal S3x128x128 .f32) (x8 : FVec Ideal S3x128 .f32) (x9 : FVec Ideal S128x128 .f32) (x10 : FVec Ideal S128 .f32) (x11 : FVec Ideal S128x128 .f32) (x12 : FVec Ideal S128 .f32) (x13 : FVec Ideal S128x4 .f32) (x14 : FVec Ideal S4 .f32) (x15 : FVec Ideal S128x128 .f32) (x16 : FVec Ideal S128 .f32) (x17 : FVec Ideal S128x64 .f32) (x18 : FVec Ideal S64 .f32) : Prop where
  /-- every entry of argument 0 is a real number -/
  a0 : ∀ i, Gin.Fin' (x0 i)
  /-- every entry of argument 3 is a real number -/
  a3 : ∀ i, Gin.Fin' (x3 i)
  /-- every entry of argument 4 is a real number -/
  a4 : ∀ i, Gin.Fin' (x4 i)
  /-- every entry of argument 5 is a real number -/
  a5 : ∀ i, Gin.Fin' (x5 i)
  /-- every entry of argument 6 is a real number -/
  a6 : ∀ i, Gin.Fin' (x6 i)
  /-- every entry of argument 7 is a real number -/
  a7 : ∀ i, Gin.Fin' (x7 i)
  /-- every entry of argument 8 is a real number -/
  a8 : ∀ i, Gin.Fin' (x8 i)
  /-- every entry of argument 9 is a real number -/
  a9 : ∀ i, Gin.Fin' (x9 i)
  /-- every entry of argument 10 is a real number -/
  a10 : ∀ i, Gin.Fin' (x10 i)
  /-- every entry of argument 11 is a real number -/
  a11 : ∀ i, Gin.Fin' (x11 i)
  /-- every entry of argument 12 is a real number -/
  a12 : ∀ i, Gin.Fin' (x12 i)
  /-- every entry of argument 13 is a real number -/
  a13 : ∀ i, Gin.Fin' (x13 i)
  /-- every entry of argument 14 is a real number -/
  a14 : ∀ i, Gin.Fin' (x14 i)
  /-- every entry of argument 15 is a real number -/
  a15 : ∀ i, Gin.Fin' (x15 i)
  /-- every entry of argument 16 is a real number -/
  a16 : ∀ i, Gin.Fin' (x16 i)
  /-- every entry of argument 17 is a real number -/
  a17 : ∀ i, Gin.Fin' (x17 i)
  /-- every entry of argument 18 is a real number -/
  a18 : ∀ i, Gin.Fin' (x18 i)

variable [Cert.Pre_finite_inputs.Facts]

/-- THE PRECONDITION DECODED: the printed predicate is the conjunction, over the seventeen float
    arguments, of `all (|x| < +∞)`; where it is one, every entry of every float argument is a real
    number. (The two integer arguments, the edge list and the graph ids, are not constrained.) -/
theorem fn_finite
    (x0 : FVec Ideal S50000x128 .f32)
    (x1 : IVec S2x600000 32)
    (x2 : IVec S50000 32)
    (x3 : FVec Ideal S3x128x128 .f32)
    (x4 : FVec Ideal S3x128 .f32)
    (x5 : FVec Ideal S3x128 .f32)
    (x6 : FVec Ideal S3x128 .f32)
    (x7 : FVec Ideal S3x128x128 .f32)
    (x8 : FVec Ideal S3x128 .f32)
    (x9 : FVec Ideal S128x128 .f32)
    (x10 : FVec Ideal S128 .f32)
    (x11 : FVec Ideal S128x128 .f32)
    (x12 : FVec Ideal S128 .f32)
    (x13 : FVec Ideal S128x4 .f32)
    (x14 : FVec Ideal S4 .f32)
    (x15 : FVec Ideal S128x128 .f32)
    (x16 : FVec Ideal S128 .f32)
    (x17 : FVec Ideal S128x64 .f32)
    (x18 : FVec Ideal S64 .f32)
    (h : Cert.Pre_finite_inputs.fn (F := Ideal) x0 x1 x2 x3 x4 x5 x6 x7 x8 x9 x10 x11 x12 x13 x14 x15 x16 x17 x18 = fun _ => 1#1) :
    FinArgs x0 x3 x4 x5 x6 x7 x8 x9 x10 x11 x12 x13 x14 x15 x16 x17 x18 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  simp only [IntOp.andi_eq_one] at h0
  obtain ⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩ := h0
  exact ⟨fun i => fin_of_all _ _ _ x0 h0 i,
    fun i => fin_of_all _ _ _ x3 h3 i,
    fun i => fin_of_all _ _ _ x4 h4 i,
    fun i => fin_of_all _ _ _ x5 h5 i,
    fun i => fin_of_all _ _ _ x6 h6 i,
    fun i => fin_of_all _ _ _ x7 h7 i,
    fun i => fin_of_all _ _ _ x8 h8 i,
    fun i => fin_of_all _ _ _ x9 h9 i,
    fun i => fin_of_all _ _ _ x10 h10 i,
    fun i => fin_of_all _ _ _ x11 h11 i,
    fun i => fin_of_all _ _ _ x12 h12 i,
    fun i => fin_of_all _ _ _ x13 h13 i,
    fun i => fin_of_all _ _ _ x14 h14 i,
    fun i => fin_of_all _ _ _ x15 h15 i,
    fun i => fin_of_all _ _ _ x16 h16 i,
    fun i => fin_of_all _ _ _ x17 h17 i,
    fun i => fin_of_all _ _ _ x18 h18 i⟩

open Idealize.SL.Sem

/-- Under the kernel's precondition every entry of each float argument array of the idealized kernel's
    memory is a real number, on every device. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    FinArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) :=
  fn_finite _ _ _ _ _ _ _ _ _ _ _ _ _ _ _ _ _ _ _ (h c)

/-- The same of the idealized reference's memory under its precondition. -/
theorem finite_of_pre_ref
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    FinArgs
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18)) :=
  fn_finite _ _ _ _ _ _ _ _ _ _ _ _ _ _ _ _ _ _ _ (h c)

end Cert.PreFin

end
-- ==== Proof.Meet.lean ====
/-
  Where the two sides meet. Both programs' results are the same two expressions of the nineteen argument arrays in the
  curried vocabulary (the pooled output network and the reconstruction head on the three layers' output), the kernel's
  with the variance as the mean of the squares minus the square of the mean, the reference's with the variance as the
  mean of the squared deviations. On finite float arguments the two variance formulas give one network, so the two
  expressions are equal; and for two memories that agree on the arguments, the kernel's precondition holding of the
  first, the reference's expression at the second is the kernel's at the first.
-/
import proofs.«430410_j38371237822819_1_alg».proof.Defs
import proofs.«430410_j38371237822819_1_alg».proof.Proof.Bridge
import proofs.«430410_j38371237822819_1_alg».proof.Proof.PreFin

noncomputable section

namespace Cert.Meet

open Idealize.ShloMosaic Idealize.ShloMosaic.ValueIdx Idealize.SL.Sem

/-! ## Over the nineteen arrays -/

/-- The pooled output network of the three layers does not depend on the variance formula, on finite float arguments. -/
theorem out_meet (a0 : FVec Ideal Cert.KernelIdeal.S50000x128 .f32) (a1 : IVec Cert.KernelIdeal.S2x600000 32) (a2 : IVec Cert.KernelIdeal.S50000 32) (a3 : FVec Ideal Cert.KernelIdeal.S3x128x128 .f32) (a4 : FVec Ideal Cert.KernelIdeal.S3x128 .f32) (a5 : FVec Ideal Cert.KernelIdeal.S3x128 .f32) (a6 : FVec Ideal Cert.KernelIdeal.S3x128 .f32) (a7 : FVec Ideal Cert.KernelIdeal.S3x128x128 .f32) (a8 : FVec Ideal Cert.KernelIdeal.S3x128 .f32) (a9 : FVec Ideal Cert.KernelIdeal.S128x128 .f32) (a10 : FVec Ideal Cert.KernelIdeal.S128 .f32) (a11 : FVec Ideal Cert.KernelIdeal.S128x128 .f32) (a12 : FVec Ideal Cert.KernelIdeal.S128 .f32) (a13 : FVec Ideal Cert.KernelIdeal.S128x4 .f32) (a14 : FVec Ideal Cert.KernelIdeal.S4 .f32) (a15 : FVec Ideal Cert.KernelIdeal.S128x128 .f32) (a16 : FVec Ideal Cert.KernelIdeal.S128 .f32) (a17 : FVec Ideal Cert.KernelIdeal.S128x64 .f32) (a18 : FVec Ideal Cert.KernelIdeal.S64 .f32)
    (hfin : Cert.PreFin.FinArgs a0 a3 a4 a5 a6 a7 a8 a9 a10 a11 a12 a13 a14 a15 a16 a17 a18) :
    Gin.toArr2 (Gin.outOf (Gin.gin3 Gin.varKernel (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (fun n => a2 (ix1 n)) (Gin.ofArr2 a15) (Gin.ofArr1 a16) (Gin.ofArr2 a17) (Gin.ofArr1 a18))
      = Gin.toArr2 (Gin.outOf (Gin.gin3 Gin.varRef (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (fun n => a2 (ix1 n)) (Gin.ofArr2 a15) (Gin.ofArr1 a16) (Gin.ofArr2 a17) (Gin.ofArr1 a18)) :=
  congrArg Gin.toArr2 (Gin.outOf_var_eq _ _ (fun n j => Gin.fin_ofArr2 hfin.a0 n j) (fun l κ j => Gin.fin_ofArr3 hfin.a3 l κ j) (fun l j => Gin.fin_ofArr2Row hfin.a4 l j)
      (fun l j => Gin.fin_ofArr2Row hfin.a5 l j) (fun l j => Gin.fin_ofArr2Row hfin.a6 l j) (fun l κ j => Gin.fin_ofArr3 hfin.a7 l κ j)
      (fun l j => Gin.fin_ofArr2Row hfin.a8 l j) _ _ _ _ _)

/-- Nor does the reconstruction head. -/
theorem rec_meet (a0 : FVec Ideal Cert.KernelIdeal.S50000x128 .f32) (a1 : IVec Cert.KernelIdeal.S2x600000 32) (a2 : IVec Cert.KernelIdeal.S50000 32) (a3 : FVec Ideal Cert.KernelIdeal.S3x128x128 .f32) (a4 : FVec Ideal Cert.KernelIdeal.S3x128 .f32) (a5 : FVec Ideal Cert.KernelIdeal.S3x128 .f32) (a6 : FVec Ideal Cert.KernelIdeal.S3x128 .f32) (a7 : FVec Ideal Cert.KernelIdeal.S3x128x128 .f32) (a8 : FVec Ideal Cert.KernelIdeal.S3x128 .f32) (a9 : FVec Ideal Cert.KernelIdeal.S128x128 .f32) (a10 : FVec Ideal Cert.KernelIdeal.S128 .f32) (a11 : FVec Ideal Cert.KernelIdeal.S128x128 .f32) (a12 : FVec Ideal Cert.KernelIdeal.S128 .f32) (a13 : FVec Ideal Cert.KernelIdeal.S128x4 .f32) (a14 : FVec Ideal Cert.KernelIdeal.S4 .f32) (a15 : FVec Ideal Cert.KernelIdeal.S128x128 .f32) (a16 : FVec Ideal Cert.KernelIdeal.S128 .f32) (a17 : FVec Ideal Cert.KernelIdeal.S128x64 .f32) (a18 : FVec Ideal Cert.KernelIdeal.S64 .f32)
    (hfin : Cert.PreFin.FinArgs a0 a3 a4 a5 a6 a7 a8 a9 a10 a11 a12 a13 a14 a15 a16 a17 a18) :
    Gin.toArr2 (Gin.recOf (Gin.gin3 Gin.varKernel (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (Gin.ofArr2 a9) (Gin.ofArr1 a10) (Gin.ofArr2 a11) (Gin.ofArr1 a12) (Gin.ofArr2 a13) (Gin.ofArr1 a14))
      = Gin.toArr2 (Gin.recOf (Gin.gin3 Gin.varRef (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (Gin.ofArr2 a9) (Gin.ofArr1 a10) (Gin.ofArr2 a11) (Gin.ofArr1 a12) (Gin.ofArr2 a13) (Gin.ofArr1 a14)) :=
  congrArg Gin.toArr2 (Gin.recOf_var_eq _ _ (fun n j => Gin.fin_ofArr2 hfin.a0 n j) (fun l κ j => Gin.fin_ofArr3 hfin.a3 l κ j) (fun l j => Gin.fin_ofArr2Row hfin.a4 l j)
      (fun l j => Gin.fin_ofArr2Row hfin.a5 l j) (fun l j => Gin.fin_ofArr2Row hfin.a6 l j) (fun l κ j => Gin.fin_ofArr3 hfin.a7 l κ j)
      (fun l j => Gin.fin_ofArr2Row hfin.a8 l j) _ _ _ _ _ _)

/-- The reference's pooled output on arrays equal to finite ones is the kernel's on those. -/
theorem out_meet_of_eq (a0 : FVec Ideal Cert.KernelIdeal.S50000x128 .f32) (a1 : IVec Cert.KernelIdeal.S2x600000 32) (a2 : IVec Cert.KernelIdeal.S50000 32) (a3 : FVec Ideal Cert.KernelIdeal.S3x128x128 .f32) (a4 : FVec Ideal Cert.KernelIdeal.S3x128 .f32) (a5 : FVec Ideal Cert.KernelIdeal.S3x128 .f32) (a6 : FVec Ideal Cert.KernelIdeal.S3x128 .f32) (a7 : FVec Ideal Cert.KernelIdeal.S3x128x128 .f32) (a8 : FVec Ideal Cert.KernelIdeal.S3x128 .f32) (a9 : FVec Ideal Cert.KernelIdeal.S128x128 .f32) (a10 : FVec Ideal Cert.KernelIdeal.S128 .f32) (a11 : FVec Ideal Cert.KernelIdeal.S128x128 .f32) (a12 : FVec Ideal Cert.KernelIdeal.S128 .f32) (a13 : FVec Ideal Cert.KernelIdeal.S128x4 .f32) (a14 : FVec Ideal Cert.KernelIdeal.S4 .f32) (a15 : FVec Ideal Cert.KernelIdeal.S128x128 .f32) (a16 : FVec Ideal Cert.KernelIdeal.S128 .f32) (a17 : FVec Ideal Cert.KernelIdeal.S128x64 .f32) (a18 : FVec Ideal Cert.KernelIdeal.S64 .f32) (b0 : FVec Ideal Cert.KernelIdeal.S50000x128 .f32) (b1 : IVec Cert.KernelIdeal.S2x600000 32) (b2 : IVec Cert.KernelIdeal.S50000 32) (b3 : FVec Ideal Cert.KernelIdeal.S3x128x128 .f32) (b4 : FVec Ideal Cert.KernelIdeal.S3x128 .f32) (b5 : FVec Ideal Cert.KernelIdeal.S3x128 .f32) (b6 : FVec Ideal Cert.KernelIdeal.S3x128 .f32) (b7 : FVec Ideal Cert.KernelIdeal.S3x128x128 .f32) (b8 : FVec Ideal Cert.KernelIdeal.S3x128 .f32) (b9 : FVec Ideal Cert.KernelIdeal.S128x128 .f32) (b10 : FVec Ideal Cert.KernelIdeal.S128 .f32) (b11 : FVec Ideal Cert.KernelIdeal.S128x128 .f32) (b12 : FVec Ideal Cert.KernelIdeal.S128 .f32) (b13 : FVec Ideal Cert.KernelIdeal.S128x4 .f32) (b14 : FVec Ideal Cert.KernelIdeal.S4 .f32) (b15 : FVec Ideal Cert.KernelIdeal.S128x128 .f32) (b16 : FVec Ideal Cert.KernelIdeal.S128 .f32) (b17 : FVec Ideal Cert.KernelIdeal.S128x64 .f32) (b18 : FVec Ideal Cert.KernelIdeal.S64 .f32)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18)
    (hfin : Cert.PreFin.FinArgs a0 a3 a4 a5 a6 a7 a8 a9 a10 a11 a12 a13 a14 a15 a16 a17 a18) :
    Gin.toArr2 (Gin.outOf (Gin.gin3 Gin.varRef (fun e => b1 (ix2 0 e)) (fun e => b1 (ix2 1 e)) (fun l => Gin.ofArr3 b3 l) (fun l => Gin.ofArr2Row b4 l) (fun l => Gin.ofArr2Row b5 l) (fun l => Gin.ofArr2Row b6 l) (fun l => Gin.ofArr3 b7 l) (fun l => Gin.ofArr2Row b8 l) (Gin.ofArr2 b0)) (fun n => b2 (ix1 n)) (Gin.ofArr2 b15) (Gin.ofArr1 b16) (Gin.ofArr2 b17) (Gin.ofArr1 b18))
      = Gin.toArr2 (Gin.outOf (Gin.gin3 Gin.varKernel (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (fun n => a2 (ix1 n)) (Gin.ofArr2 a15) (Gin.ofArr1 a16) (Gin.ofArr2 a17) (Gin.ofArr1 a18)) := by
  subst e0 e1 e2 e3 e4 e5 e6 e7 e8 e9 e10 e11 e12 e13 e14 e15 e16 e17 e18
  exact (out_meet b0 b1 b2 b3 b4 b5 b6 b7 b8 b9 b10 b11 b12 b13 b14 b15 b16 b17 b18 hfin).symm

/-- The reference's reconstruction on arrays equal to finite ones is the kernel's on those. -/
theorem rec_meet_of_eq (a0 : FVec Ideal Cert.KernelIdeal.S50000x128 .f32) (a1 : IVec Cert.KernelIdeal.S2x600000 32) (a2 : IVec Cert.KernelIdeal.S50000 32) (a3 : FVec Ideal Cert.KernelIdeal.S3x128x128 .f32) (a4 : FVec Ideal Cert.KernelIdeal.S3x128 .f32) (a5 : FVec Ideal Cert.KernelIdeal.S3x128 .f32) (a6 : FVec Ideal Cert.KernelIdeal.S3x128 .f32) (a7 : FVec Ideal Cert.KernelIdeal.S3x128x128 .f32) (a8 : FVec Ideal Cert.KernelIdeal.S3x128 .f32) (a9 : FVec Ideal Cert.KernelIdeal.S128x128 .f32) (a10 : FVec Ideal Cert.KernelIdeal.S128 .f32) (a11 : FVec Ideal Cert.KernelIdeal.S128x128 .f32) (a12 : FVec Ideal Cert.KernelIdeal.S128 .f32) (a13 : FVec Ideal Cert.KernelIdeal.S128x4 .f32) (a14 : FVec Ideal Cert.KernelIdeal.S4 .f32) (a15 : FVec Ideal Cert.KernelIdeal.S128x128 .f32) (a16 : FVec Ideal Cert.KernelIdeal.S128 .f32) (a17 : FVec Ideal Cert.KernelIdeal.S128x64 .f32) (a18 : FVec Ideal Cert.KernelIdeal.S64 .f32) (b0 : FVec Ideal Cert.KernelIdeal.S50000x128 .f32) (b1 : IVec Cert.KernelIdeal.S2x600000 32) (b2 : IVec Cert.KernelIdeal.S50000 32) (b3 : FVec Ideal Cert.KernelIdeal.S3x128x128 .f32) (b4 : FVec Ideal Cert.KernelIdeal.S3x128 .f32) (b5 : FVec Ideal Cert.KernelIdeal.S3x128 .f32) (b6 : FVec Ideal Cert.KernelIdeal.S3x128 .f32) (b7 : FVec Ideal Cert.KernelIdeal.S3x128x128 .f32) (b8 : FVec Ideal Cert.KernelIdeal.S3x128 .f32) (b9 : FVec Ideal Cert.KernelIdeal.S128x128 .f32) (b10 : FVec Ideal Cert.KernelIdeal.S128 .f32) (b11 : FVec Ideal Cert.KernelIdeal.S128x128 .f32) (b12 : FVec Ideal Cert.KernelIdeal.S128 .f32) (b13 : FVec Ideal Cert.KernelIdeal.S128x4 .f32) (b14 : FVec Ideal Cert.KernelIdeal.S4 .f32) (b15 : FVec Ideal Cert.KernelIdeal.S128x128 .f32) (b16 : FVec Ideal Cert.KernelIdeal.S128 .f32) (b17 : FVec Ideal Cert.KernelIdeal.S128x64 .f32) (b18 : FVec Ideal Cert.KernelIdeal.S64 .f32)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18)
    (hfin : Cert.PreFin.FinArgs a0 a3 a4 a5 a6 a7 a8 a9 a10 a11 a12 a13 a14 a15 a16 a17 a18) :
    Gin.toArr2 (Gin.recOf (Gin.gin3 Gin.varRef (fun e => b1 (ix2 0 e)) (fun e => b1 (ix2 1 e)) (fun l => Gin.ofArr3 b3 l) (fun l => Gin.ofArr2Row b4 l) (fun l => Gin.ofArr2Row b5 l) (fun l => Gin.ofArr2Row b6 l) (fun l => Gin.ofArr3 b7 l) (fun l => Gin.ofArr2Row b8 l) (Gin.ofArr2 b0)) (Gin.ofArr2 b9) (Gin.ofArr1 b10) (Gin.ofArr2 b11) (Gin.ofArr1 b12) (Gin.ofArr2 b13) (Gin.ofArr1 b14))
      = Gin.toArr2 (Gin.recOf (Gin.gin3 Gin.varKernel (fun e => a1 (ix2 0 e)) (fun e => a1 (ix2 1 e)) (fun l => Gin.ofArr3 a3 l) (fun l => Gin.ofArr2Row a4 l) (fun l => Gin.ofArr2Row a5 l) (fun l => Gin.ofArr2Row a6 l) (fun l => Gin.ofArr3 a7 l) (fun l => Gin.ofArr2Row a8 l) (Gin.ofArr2 a0)) (Gin.ofArr2 a9) (Gin.ofArr1 a10) (Gin.ofArr2 a11) (Gin.ofArr1 a12) (Gin.ofArr2 a13) (Gin.ofArr1 a14)) := by
  subst e0 e1 e2 e3 e4 e5 e6 e7 e8 e9 e10 e11 e12 e13 e14 e15 e16 e17 e18
  exact (rec_meet b0 b1 b2 b3 b4 b5 b6 b7 b8 b9 b10 b11 b12 b13 b14 b15 b16 b17 b18 hfin).symm

/-! ## Over two memories that agree on the arguments -/

variable [Cert.Pre_finite_inputs.Facts]

/-- The reference's pooled output, read off a memory that agrees on the nineteen arguments with a memory of which the
    kernel's precondition holds, is the kernel's pooled output read off that one. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)))
    (c : Dev Cert.KernelIdeal.nD) :
    Gin.toArr2 (Gin.outOf (Gin.gin3 Gin.varRef (fun e => (m' ((c.tc : Thread Cert.ReferenceIdeal.nD Cert.ReferenceIdeal.τ).loc Cert.ReferenceIdeal.main_arg1)) (ix2 0 e)) (fun e => (m' ((c.tc : Thread Cert.ReferenceIdeal.nD Cert.ReferenceIdeal.τ).loc Cert.ReferenceIdeal.main_arg1)) (ix2 1 e)) (fun l => Gin.ofArr3 (m' ((c.tc : Thread Cert.ReferenceIdeal.nD Cert.ReferenceIdeal.τ).loc Cert.ReferenceIdeal.main_arg3)) l) (fun l => Gin.ofArr2Row (m' ((c.tc : Thread Cert.ReferenceIdeal.nD Cert.ReferenceIdeal.τ).loc Cert.ReferenceIdeal.main_arg4)) l) (fun l => Gin.ofArr2Row (m' ((c.tc : Thread Cert.ReferenceIdeal.nD Cert.ReferenceIdeal.τ).loc Cert.ReferenceIdeal.main_arg5)) l) (fun l => Gin.ofArr2Row (m' ((c.tc : Thread Cert.ReferenceIdeal.nD Cert.ReferenceIdeal.τ).loc Cert.ReferenceIdeal.main_arg6)) l) (fun l => Gin.ofArr3 (m' ((c.tc : Thread Cert.ReferenceIdeal.nD Cert.ReferenceIdeal.τ).loc Cert.ReferenceIdeal.main_arg7)) l) (fun l => Gin.ofArr2Row (m' ((c.tc : Thread Cert.ReferenceIdeal.nD Cert.ReferenceIdeal.τ).loc Cert.ReferenceIdeal.main_arg8)) l) (Gin.ofArr2 (m' ((c.tc : Thread Cert.ReferenceIdeal.nD Cert.ReferenceIdeal.τ).loc Cert.ReferenceIdeal.main_arg0)))) (fun n => (m' ((c.tc : Thread Cert.ReferenceIdeal.nD Cert.ReferenceIdeal.τ).loc Cert.ReferenceIdeal.main_arg2)) (ix1 n)) (Gin.ofArr2 (m' ((c.tc : Thread Cert.ReferenceIdeal.nD Cert.ReferenceIdeal.τ).loc Cert.ReferenceIdeal.main_arg15))) (Gin.ofArr1 (m' ((c.tc : Thread Cert.ReferenceIdeal.nD Cert.ReferenceIdeal.τ).loc Cert.ReferenceIdeal.main_arg16))) (Gin.ofArr2 (m' ((c.tc : Thread Cert.ReferenceIdeal.nD Cert.ReferenceIdeal.τ).loc Cert.ReferenceIdeal.main_arg17))) (Gin.ofArr1 (m' ((c.tc : Thread Cert.ReferenceIdeal.nD Cert.ReferenceIdeal.τ).loc Cert.ReferenceIdeal.main_arg18))))
      = Gin.toArr2 (Gin.outOf (Gin.gin3 Gin.varKernel (fun e => (m ((c.tc : Thread Cert.KernelIdeal.nD Cert.KernelIdeal.τ).loc Cert.KernelIdeal.main_arg1)) (ix2 0 e)) (fun e => (m ((c.tc : Thread Cert.KernelIdeal.nD Cert.KernelIdeal.τ).loc Cert.KernelIdeal.main_arg1)) (ix2 1 e)) (fun l => Gin.ofArr3 (m ((c.tc : Thread Cert.KernelIdeal.nD Cert.KernelIdeal.τ).loc Cert.KernelIdeal.main_arg3)) l) (fun l => Gin.ofArr2Row (m ((c.tc : Thread Cert.KernelIdeal.nD Cert.KernelIdeal.τ).loc Cert.KernelIdeal.main_arg4)) l) (fun l => Gin.ofArr2Row (m ((c.tc : Thread Cert.KernelIdeal.nD Cert.KernelIdeal.τ).loc Cert.KernelIdeal.main_arg5)) l) (fun l => Gin.ofArr2Row (m ((c.tc : Thread Cert.KernelIdeal.nD Cert.KernelIdeal.τ).loc Cert.KernelIdeal.main_arg6)) l) (fun l => Gin.ofArr3 (m ((c.tc : Thread Cert.KernelIdeal.nD Cert.KernelIdeal.τ).loc Cert.KernelIdeal.main_arg7)) l) (fun l => Gin.ofArr2Row (m ((c.tc : Thread Cert.KernelIdeal.nD Cert.KernelIdeal.τ).loc Cert.KernelIdeal.main_arg8)) l) (Gin.ofArr2 (m ((c.tc : Thread Cert.KernelIdeal.nD Cert.KernelIdeal.τ).loc Cert.KernelIdeal.main_arg0)))) (fun n => (m ((c.tc : Thread Cert.KernelIdeal.nD Cert.KernelIdeal.τ).loc Cert.KernelIdeal.main_arg2)) (ix1 n)) (Gin.ofArr2 (m ((c.tc : Thread Cert.KernelIdeal.nD Cert.KernelIdeal.τ).loc Cert.KernelIdeal.main_arg15))) (Gin.ofArr1 (m ((c.tc : Thread Cert.KernelIdeal.nD Cert.KernelIdeal.τ).loc Cert.KernelIdeal.main_arg16))) (Gin.ofArr2 (m ((c.tc : Thread Cert.KernelIdeal.nD Cert.KernelIdeal.τ).loc Cert.KernelIdeal.main_arg17))) (Gin.ofArr1 (m ((c.tc : Thread Cert.KernelIdeal.nD Cert.KernelIdeal.τ).loc Cert.KernelIdeal.main_arg18)))) :=
  out_meet_of_eq _ _ _ _ _ _ _ _ _ _ _ _ _ _ _ _ _ _ _ _ _ _ _ _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2 (Cert.PreFin.finite_of_pre m hpre c)

/-- The same of the reconstruction head. -/
theorem rec_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)))
    (c : Dev Cert.KernelIdeal.nD) :
    Gin.toArr2 (Gin.recOf (Gin.gin3 Gin.varRef (fun e => (m' ((c.tc : Thread Cert.ReferenceIdeal.nD Cert.ReferenceIdeal.τ).loc Cert.ReferenceIdeal.main_arg1)) (ix2 0 e)) (fun e => (m' ((c.tc : Thread Cert.ReferenceIdeal.nD Cert.ReferenceIdeal.τ).loc Cert.ReferenceIdeal.main_arg1)) (ix2 1 e)) (fun l => Gin.ofArr3 (m' ((c.tc : Thread Cert.ReferenceIdeal.nD Cert.ReferenceIdeal.τ).loc Cert.ReferenceIdeal.main_arg3)) l) (fun l => Gin.ofArr2Row (m' ((c.tc : Thread Cert.ReferenceIdeal.nD Cert.ReferenceIdeal.τ).loc Cert.ReferenceIdeal.main_arg4)) l) (fun l => Gin.ofArr2Row (m' ((c.tc : Thread Cert.ReferenceIdeal.nD Cert.ReferenceIdeal.τ).loc Cert.ReferenceIdeal.main_arg5)) l) (fun l => Gin.ofArr2Row (m' ((c.tc : Thread Cert.ReferenceIdeal.nD Cert.ReferenceIdeal.τ).loc Cert.ReferenceIdeal.main_arg6)) l) (fun l => Gin.ofArr3 (m' ((c.tc : Thread Cert.ReferenceIdeal.nD Cert.ReferenceIdeal.τ).loc Cert.ReferenceIdeal.main_arg7)) l) (fun l => Gin.ofArr2Row (m' ((c.tc : Thread Cert.ReferenceIdeal.nD Cert.ReferenceIdeal.τ).loc Cert.ReferenceIdeal.main_arg8)) l) (Gin.ofArr2 (m' ((c.tc : Thread Cert.ReferenceIdeal.nD Cert.ReferenceIdeal.τ).loc Cert.ReferenceIdeal.main_arg0)))) (Gin.ofArr2 (m' ((c.tc : Thread Cert.ReferenceIdeal.nD Cert.ReferenceIdeal.τ).loc Cert.ReferenceIdeal.main_arg9))) (Gin.ofArr1 (m' ((c.tc : Thread Cert.ReferenceIdeal.nD Cert.ReferenceIdeal.τ).loc Cert.ReferenceIdeal.main_arg10))) (Gin.ofArr2 (m' ((c.tc : Thread Cert.ReferenceIdeal.nD Cert.ReferenceIdeal.τ).loc Cert.ReferenceIdeal.main_arg11))) (Gin.ofArr1 (m' ((c.tc : Thread Cert.ReferenceIdeal.nD Cert.ReferenceIdeal.τ).loc Cert.ReferenceIdeal.main_arg12))) (Gin.ofArr2 (m' ((c.tc : Thread Cert.ReferenceIdeal.nD Cert.ReferenceIdeal.τ).loc Cert.ReferenceIdeal.main_arg13))) (Gin.ofArr1 (m' ((c.tc : Thread Cert.ReferenceIdeal.nD Cert.ReferenceIdeal.τ).loc Cert.ReferenceIdeal.main_arg14))))
      = Gin.toArr2 (Gin.recOf (Gin.gin3 Gin.varKernel (fun e => (m ((c.tc : Thread Cert.KernelIdeal.nD Cert.KernelIdeal.τ).loc Cert.KernelIdeal.main_arg1)) (ix2 0 e)) (fun e => (m ((c.tc : Thread Cert.KernelIdeal.nD Cert.KernelIdeal.τ).loc Cert.KernelIdeal.main_arg1)) (ix2 1 e)) (fun l => Gin.ofArr3 (m ((c.tc : Thread Cert.KernelIdeal.nD Cert.KernelIdeal.τ).loc Cert.KernelIdeal.main_arg3)) l) (fun l => Gin.ofArr2Row (m ((c.tc : Thread Cert.KernelIdeal.nD Cert.KernelIdeal.τ).loc Cert.KernelIdeal.main_arg4)) l) (fun l => Gin.ofArr2Row (m ((c.tc : Thread Cert.KernelIdeal.nD Cert.KernelIdeal.τ).loc Cert.KernelIdeal.main_arg5)) l) (fun l => Gin.ofArr2Row (m ((c.tc : Thread Cert.KernelIdeal.nD Cert.KernelIdeal.τ).loc Cert.KernelIdeal.main_arg6)) l) (fun l => Gin.ofArr3 (m ((c.tc : Thread Cert.KernelIdeal.nD Cert.KernelIdeal.τ).loc Cert.KernelIdeal.main_arg7)) l) (fun l => Gin.ofArr2Row (m ((c.tc : Thread Cert.KernelIdeal.nD Cert.KernelIdeal.τ).loc Cert.KernelIdeal.main_arg8)) l) (Gin.ofArr2 (m ((c.tc : Thread Cert.KernelIdeal.nD Cert.KernelIdeal.τ).loc Cert.KernelIdeal.main_arg0)))) (Gin.ofArr2 (m ((c.tc : Thread Cert.KernelIdeal.nD Cert.KernelIdeal.τ).loc Cert.KernelIdeal.main_arg9))) (Gin.ofArr1 (m ((c.tc : Thread Cert.KernelIdeal.nD Cert.KernelIdeal.τ).loc Cert.KernelIdeal.main_arg10))) (Gin.ofArr2 (m ((c.tc : Thread Cert.KernelIdeal.nD Cert.KernelIdeal.τ).loc Cert.KernelIdeal.main_arg11))) (Gin.ofArr1 (m ((c.tc : Thread Cert.KernelIdeal.nD Cert.KernelIdeal.τ).loc Cert.KernelIdeal.main_arg12))) (Gin.ofArr2 (m ((c.tc : Thread Cert.KernelIdeal.nD Cert.KernelIdeal.τ).loc Cert.KernelIdeal.main_arg13))) (Gin.ofArr1 (m ((c.tc : Thread Cert.KernelIdeal.nD Cert.KernelIdeal.τ).loc Cert.KernelIdeal.main_arg14)))) :=
  rec_meet_of_eq _ _ _ _ _ _ _ _ _ _ _ _ _ _ _ _ _ _ _ _ _ _ _ _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2 (Cert.PreFin.finite_of_pre m hpre c)

end Cert.Meet

end
-- ==== Proof.lean ====
/-
  The certificate of a three-layer graph isomorphism network with batch normalisation, a reconstruction head and a pooled
  read-out: a Pallas program of eight kernel regions against its jnp reference, over the extended reals.

  Frames. The kernel program, at the word level and idealized, runs as sixteen segments — eight stretches of host
  operations and eight kernel regions on a grid of ten row tiles —; every region's body obligation is proved per control
  case, a scratch accumulator carried between grid points living in the region's invariant. The reference is a host
  program; its run is the composition of its operations. No item writes an argument.

  Values. At the ideal instance both programs compute, per layer, h = (x + agg) W1 + b1 with agg the neighbour sum, the
  column mean and variance of h over the 50000 rows, relu(relu(γ (h - μ) rsqrt(var + ε) + β) W2 + b2); then a three-layer
  head row by row, and the sum of the rows of each graph followed by a two-layer map. The kernel accumulates the column
  sums and sums of squares tile by tile and takes var = E[h²] - E[h]²; the reference takes var = E[(h - E h)²]: equal
  over the reals, which needs every entry of h finite — it is, layer after layer, because the inputs are finite and
  var + ε > 0. The kernel pools by a one-hot product accumulated over the tiles, the reference by an accumulating
  scatter: the same sum, a graph id outside the table adding nowhere in either.
-/
import proofs.«430410_j38371237822819_1_alg».proof.Defs
import proofs.«430410_j38371237822819_1_alg».proof.Proof.Gen.Kernel
import proofs.«430410_j38371237822819_1_alg».proof.Proof.Gen.KernelIdeal
import proofs.«430410_j38371237822819_1_alg».proof.Proof.Gen.ReferenceIdeal
import proofs.«430410_j38371237822819_1_alg».proof.Proof.Gen.Pre_finite_inputs
import proofs.«430410_j38371237822819_1_alg».proof.Proof.K.Run
import proofs.«430410_j38371237822819_1_alg».proof.Proof.KI.Run
import proofs.«430410_j38371237822819_1_alg».proof.Proof.KI.Compose
import proofs.«430410_j38371237822819_1_alg».proof.Proof.Ref.RunH
import proofs.«430410_j38371237822819_1_alg».proof.Proof.Ref.Compose
import proofs.«430410_j38371237822819_1_alg».proof.Proof.Meet
import Idealize.ShloMosaic.Adequacy
import Idealize.ShloMosaic.Init

noncomputable section

namespace Cert.Proof

open Idealize.ShloMosaic Idealize.SL.Sem

/-- The word-level kernel program runs and leaves its arguments unchanged: the launch's post without the results. -/
theorem frame_k : Cert.frame_Kernel := fun m ρ _ =>
  (θ_run Cert.Kernel.defs _ _).mono (fun _ h c => (h c).2.2) (Cert.Kernel.Reg.run_main (F := Bits) m ρ)

/-- The same of the idealized kernel program. -/
theorem frame_ki : Cert.frame_KernelIdeal := fun m ρ _ =>
  (θ_run Cert.KernelIdeal.defs _ _).mono (fun _ h c => (h c).2.2) (Cert.KernelIdeal.Reg.run_main (F := Ideal) m ρ)

/-- The reference runs and leaves its arguments unchanged: its run without the results. -/
theorem frame_ri : Cert.frame_ReferenceIdeal := fun m ρ _ =>
  (θ_run Cert.ReferenceIdeal.defs _ _).mono (fun _ h c => (h c).2.2) (Cert.ReferenceIdeal.RunH.run (F := Ideal) m ρ)

/-- The ideal pass rewrote nothing. -/
theorem preserves : Cert.preserves_Kernel_KernelIdeal := trivial

/-- Both programs end with the same two results: the kernel's are the network with the variance as a difference of
    moments, the reference's the network with the centred variance, of arguments that agree and are finite. -/
theorem algebraic : Cert.algebraic_KernelIdeal_ReferenceIdeal := by
  intro m ρ m' ρ' hpre hagree
  refine ⟨fun c => (Cert.KernelIdeal.Reg.dat7 (Cert.KernelIdeal.Reg.E15 m) c).arrAt 6 Cert.KernelIdeal.cfg7.N,
    fun c => (Cert.KernelIdeal.Reg.dat6 (Cert.KernelIdeal.Reg.E13 m) c).arrAt 7 Cert.KernelIdeal.cfg6.N,
    Cert.KernelIdeal.Reg.run_main (F := Ideal) m ρ, ?_⟩
  refine (θ_run Cert.ReferenceIdeal.defs _ _).mono (fun _ h c => ⟨(h c).1.trans ?_, (h c).2.1.trans ?_, (h c).2.2⟩)
    (Cert.ReferenceIdeal.RunH.run (F := Ideal) m' ρ')
  · exact (Cert.ReferenceIdeal.Val.ref_out m' c).trans
      ((Cert.Meet.out_agree m m' hpre hagree c).trans (Cert.KernelIdeal.Val.kernel_out m c).symm)
  · exact (Cert.ReferenceIdeal.Val.ref_rec m' c).trans
      ((Cert.Meet.rec_agree m m' hpre hagree c).trans (Cert.KernelIdeal.Val.kernel_rec m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
